-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v170)) (v2 : (c : Dev Cert.KernelIdeal.nD) → Buf (Elt Ideal) ((c.tc : Thread Cert.KernelIdeal.nD Cert.KernelIdeal.τ).loc Cert.KernelIdeal.main_v273)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v170) = v1 c
          ∧ r.2.mem ((c.tc : Thread Cert.KernelIdeal.nD Cert.KernelIdeal.τ).loc Cert.KernelIdeal.main_v273) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v421) = v1 c
          ∧ r.2.mem ((c.tc : Thread Cert.ReferenceIdeal.nD Cert.ReferenceIdeal.τ).loc Cert.ReferenceIdeal.main_v691) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S262144x128 : Shape := ⟨2, ![262144, 128]⟩
abbrev S2x262144 : Shape := ⟨2, ![2, 262144]⟩
abbrev S64x64x128 : Shape := ⟨3, ![64, 64, 128]⟩
abbrev S64x8x128 : Shape := ⟨3, ![64, 8, 128]⟩
abbrev S64x64x64 : Shape := ⟨3, ![64, 64, 64]⟩
abbrev S64x256x64 : Shape := ⟨3, ![64, 256, 64]⟩
abbrev S64x64x8 : Shape := ⟨3, ![64, 64, 8]⟩
abbrev S64x64x256 : Shape := ⟨3, ![64, 64, 256]⟩
abbrev S256x128 : Shape := ⟨2, ![256, 128]⟩
abbrev S128 : Shape := ⟨1, ![128]⟩
abbrev S7x128x128 : Shape := ⟨3, ![7, 128, 128]⟩
abbrev S7x128 : Shape := ⟨2, ![7, 128]⟩
abbrev S384x128 : Shape := ⟨2, ![384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S64x64x128 : S_.BroadcastsInDim S64x64x128 (![] : Fin 0 → Fin S64x64x128.rank)
  reducesTo_S64x64x128_S_d0_1_2 : S64x64x128.ReducesTo [0, 1, 2] S_
  bcast_S_S64x8x128 : S_.BroadcastsInDim S64x8x128 (![] : Fin 0 → Fin S64x8x128.rank)
  reducesTo_S64x8x128_S_d0_1_2 : S64x8x128.ReducesTo [0, 1, 2] S_
  bcast_S_S64x64x64 : S_.BroadcastsInDim S64x64x64 (![] : Fin 0 → Fin S64x64x64.rank)
  reducesTo_S64x64x64_S_d0_1_2 : S64x64x64.ReducesTo [0, 1, 2] S_
  bcast_S_S64x256x64 : S_.BroadcastsInDim S64x256x64 (![] : Fin 0 → Fin S64x256x64.rank)
  reducesTo_S64x256x64_S_d0_1_2 : S64x256x64.ReducesTo [0, 1, 2] S_
  bcast_S_S64x64x8 : S_.BroadcastsInDim S64x64x8 (![] : Fin 0 → Fin S64x64x8.rank)
  reducesTo_S64x64x8_S_d0_1_2 : S64x64x8.ReducesTo [0, 1, 2] S_
  bcast_S_S64x64x256 : S_.BroadcastsInDim S64x64x256 (![] : Fin 0 → Fin S64x64x256.rank)
  reducesTo_S64x64x256_S_d0_1_2 : S64x64x256.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S384x128 : S_.BroadcastsInDim S384x128 (![] : Fin 0 → Fin S384x128.rank)
  reducesTo_S384x128_S_d0_1 : S384x128.ReducesTo [0, 1] S_

variable [Facts]

def fn_part8 {F : FTy → Type} [FloatOps F] (main_arg29 : FVec F S128 .f32) (main_arg30 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg29
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg30
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  main_v148

def fn_part7 {F : FTy → Type} [FloatOps F] (main_arg26 : FVec F S128 .f32) (main_arg27 : FVec F S384x128 .f32) (main_arg28 : FVec F S128 .f32) (main_arg29 : FVec F S128 .f32) (main_arg30 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S384x128 .f32 := Host.absf main_arg27
  let main_cst_50 : FVec F S_ .f32 := constant S_ .f32 0x7F800000#32
  let main_v130 : FVec F S384x128 .f32 := broadcastInDim S384x128 ![] bcast_S_S384x128 main_cst_50
  let main_v131 : IVec S384x128 1 := cmpf .olt main_v129 main_v130
  let main_c_51 : IVec S_ 1 := constantI S_ 1 1#1
  let main_v132 : IVec S_ 1 := (fun x v => Host.reduce IntOp.andi x v reducesTo_S384x128_S_d0_1 h_S_) main_v131 main_c_51
  let main_v133 : IVec S_ 1 := andi main_v128 main_v132
  let main_v134 : FVec F S128 .f32 := Host.absf main_arg28
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg29 main_arg30 main_v133 main_v136

def fn_part6 {F : FTy → Type} [FloatOps F] (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S256x128 .f32 := Host.absf main_arg23
  let main_cst_42 : FVec F S_ .f32 := constant S_ .f32 0x7F800000#32
  let main_v110 : FVec F S256x128 .f32 := broadcastInDim S256x128 ![] bcast_S_S256x128 main_cst_42
  let main_v111 : IVec S256x128 1 := cmpf .olt main_v109 main_v110
  let main_c_43 : IVec S_ 1 := constantI S_ 1 1#1
  let main_v112 : IVec S_ 1 := (fun x v => Host.reduce IntOp.andi x v reducesTo_S256x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_arg26 main_arg27 main_arg28 main_arg29 main_arg30 main_v118 main_v119

def fn_part5 {F : FTy → Type} [FloatOps F] (main_arg19 : FVec F S256x128 .f32) (main_arg20 : FVec F S128 .f32) (main_arg21 : FVec F S128 .f32) (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) (main_v83 : IVec S_ 1) (main_v84 : FVec F S7x128 .f32) (main_cst_32 : FVec F S_ .f32) : IVec S_ 1 :=
  let main_v85 : FVec F S7x128 .f32 := broadcastInDim S7x128 ![] bcast_S_S7x128 main_cst_32
  let main_v86 : IVec S7x128 1 := cmpf .olt main_v84 main_v85
  let main_c_33 : IVec S_ 1 := constantI S_ 1 1#1
  let main_v87 : IVec S_ 1 := (fun x v => Host.reduce IntOp.andi x v reducesTo_S7x128_S_d0_1 h_S_) main_v86 main_c_33
  let main_v88 : IVec S_ 1 := andi main_v83 main_v87
  let main_v89 : FVec F S256x128 .f32 := Host.absf main_arg19
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_arg28 main_arg29 main_arg30 main_v98 main_v101 main_c_39

def fn_part4 {F : FTy → Type} [FloatOps F] (main_arg15 : FVec F S7x128x128 .f32) (main_arg16 : FVec F S7x128 .f32) (main_arg17 : FVec F S7x128 .f32) (main_arg18 : FVec F S7x128 .f32) (main_arg19 : FVec F S256x128 .f32) (main_arg20 : FVec F S128 .f32) (main_arg21 : FVec F S128 .f32) (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) (main_v63 : IVec S_ 1) (main_v67 : IVec S_ 1) : IVec S_ 1 :=
  let main_v68 : IVec S_ 1 := andi main_v63 main_v67
  let main_v69 : FVec F S7x128x128 .f32 := Host.absf main_arg15
  let main_cst_26 : FVec F S_ .f32 := constant S_ .f32 0x7F800000#32
  let main_v70 : FVec F S7x128x128 .f32 := broadcastInDim S7x128x128 ![] bcast_S_S7x128x128 main_cst_26
  let main_v71 : IVec S7x128x128 1 := cmpf .olt main_v69 main_v70
  let main_c_27 : IVec S_ 1 := constantI S_ 1 1#1
  let main_v72 : IVec S_ 1 := (fun x v => Host.reduce IntOp.andi x v reducesTo_S7x128x128_S_d0_1_2 h_S_) main_v71 main_c_27
  let main_v73 : IVec S_ 1 := andi main_v68 main_v72
  let main_v74 : FVec F S7x128 .f32 := Host.absf main_arg16
  let main_cst_28 : FVec F S_ .f32 := constant S_ .f32 0x7F800000#32
  let main_v75 : FVec F S7x128 .f32 := broadcastInDim S7x128 ![] bcast_S_S7x128 main_cst_28
  let main_v76 : IVec S7x128 1 := cmpf .olt main_v74 main_v75
  let main_c_29 : IVec S_ 1 := constantI S_ 1 1#1
  let main_v77 : IVec S_ 1 := (fun x v => Host.reduce IntOp.andi x v reducesTo_S7x128_S_d0_1 h_S_) main_v76 main_c_29
  let main_v78 : IVec S_ 1 := andi main_v73 main_v77
  let main_v79 : FVec F S7x128 .f32 := Host.absf main_arg17
  let main_cst_30 : FVec F S_ .f32 := constant S_ .f32 0x7F800000#32
  let main_v80 : FVec F S7x128 .f32 := broadcastInDim S7x128 ![] bcast_S_S7x128 main_cst_30
  let main_v81 : IVec S7x128 1 := cmpf .olt main_v79 main_v80
  let main_c_31 : IVec S_ 1 := constantI S_ 1 1#1
  let main_v82 : IVec S_ 1 := (fun x v => Host.reduce IntOp.andi x v reducesTo_S7x128_S_d0_1 h_S_) main_v81 main_c_31
  let main_v83 : IVec S_ 1 := andi main_v78 main_v82
  let main_v84 : FVec F S7x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_v83 main_v84 main_cst_32

def fn_part3 {F : FTy → Type} [FloatOps F] (main_arg12 : FVec F S7x128 .f32) (main_arg13 : FVec F S7x128 .f32) (main_arg14 : FVec F S7x128 .f32) (main_arg15 : FVec F S7x128x128 .f32) (main_arg16 : FVec F S7x128 .f32) (main_arg17 : FVec F S7x128 .f32) (main_arg18 : FVec F S7x128 .f32) (main_arg19 : FVec F S256x128 .f32) (main_arg20 : FVec F S128 .f32) (main_arg21 : FVec F S128 .f32) (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) (main_v48 : IVec S_ 1) (main_v49 : FVec F S7x128x128 .f32) (main_v50 : FVec F S7x128x128 .f32) : IVec S_ 1 :=
  let main_v51 : IVec S7x128x128 1 := cmpf .olt main_v49 main_v50
  let main_c_19 : IVec S_ 1 := constantI S_ 1 1#1
  let main_v52 : IVec S_ 1 := (fun x v => Host.reduce IntOp.andi x v reducesTo_S7x128x128_S_d0_1_2 h_S_) main_v51 main_c_19
  let main_v53 : IVec S_ 1 := andi main_v48 main_v52
  let main_v54 : FVec F S7x128 .f32 := Host.absf main_arg12
  let main_cst_20 : FVec F S_ .f32 := constant S_ .f32 0x7F800000#32
  let main_v55 : FVec F S7x128 .f32 := broadcastInDim S7x128 ![] bcast_S_S7x128 main_cst_20
  let main_v56 : IVec S7x128 1 := cmpf .olt main_v54 main_v55
  let main_c_21 : IVec S_ 1 := constantI S_ 1 1#1
  let main_v57 : IVec S_ 1 := (fun x v => Host.reduce IntOp.andi x v reducesTo_S7x128_S_d0_1 h_S_) main_v56 main_c_21
  let main_v58 : IVec S_ 1 := andi main_v53 main_v57
  let main_v59 : FVec F S7x128 .f32 := Host.absf main_arg13
  let main_cst_22 : FVec F S_ .f32 := constant S_ .f32 0x7F800000#32
  let main_v60 : FVec F S7x128 .f32 := broadcastInDim S7x128 ![] bcast_S_S7x128 main_cst_22
  let main_v61 : IVec S7x128 1 := cmpf .olt main_v59 main_v60
  let main_c_23 : IVec S_ 1 := constantI S_ 1 1#1
  let main_v62 : IVec S_ 1 := (fun x v => Host.reduce IntOp.andi x v reducesTo_S7x128_S_d0_1 h_S_) main_v61 main_c_23
  let main_v63 : IVec S_ 1 := andi main_v58 main_v62
  let main_v64 : FVec F S7x128 .f32 := Host.absf main_arg14
  let main_cst_24 : FVec F S_ .f32 := constant S_ .f32 0x7F800000#32
  let main_v65 : FVec F S7x128 .f32 := broadcastInDim S7x128 ![] bcast_S_S7x128 main_cst_24
  let main_v66 : IVec S7x128 1 := cmpf .olt main_v64 main_v65
  let main_c_25 : IVec S_ 1 := constantI S_ 1 1#1
  let main_v67 : IVec S_ 1 := (fun x v => Host.reduce IntOp.andi x v reducesTo_S7x128_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg8 : FVec F S64x64x256 .f32) (main_arg9 : FVec F S256x128 .f32) (main_arg10 : FVec F S128 .f32) (main_arg11 : FVec F S7x128x128 .f32) (main_arg12 : FVec F S7x128 .f32) (main_arg13 : FVec F S7x128 .f32) (main_arg14 : FVec F S7x128 .f32) (main_arg15 : FVec F S7x128x128 .f32) (main_arg16 : FVec F S7x128 .f32) (main_arg17 : FVec F S7x128 .f32) (main_arg18 : FVec F S7x128 .f32) (main_arg19 : FVec F S256x128 .f32) (main_arg20 : FVec F S128 .f32) (main_arg21 : FVec F S128 .f32) (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) (main_v33 : IVec S_ 1) : IVec S_ 1 :=
  let main_v34 : FVec F S64x64x256 .f32 := Host.absf main_arg8
  let main_cst_12 : FVec F S_ .f32 := constant S_ .f32 0x7F800000#32
  let main_v35 : FVec F S64x64x256 .f32 := broadcastInDim S64x64x256 ![] bcast_S_S64x64x256 main_cst_12
  let main_v36 : IVec S64x64x256 1 := cmpf .olt main_v34 main_v35
  let main_c_13 : IVec S_ 1 := constantI S_ 1 1#1
  let main_v37 : IVec S_ 1 := (fun x v => Host.reduce IntOp.andi x v reducesTo_S64x64x256_S_d0_1_2 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S7x128x128 .f32 := Host.absf main_arg11
  let main_cst_18 : FVec F S_ .f32 := constant S_ .f32 0x7F800000#32
  let main_v50 : FVec F S7x128x128 .f32 := broadcastInDim S7x128x128 ![] bcast_S_S7x128x128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg5 : FVec F S64x64x64 .f32) (main_arg6 : FVec F S64x256x64 .f32) (main_arg7 : FVec F S64x64x8 .f32) (main_arg8 : FVec F S64x64x256 .f32) (main_arg9 : FVec F S256x128 .f32) (main_arg10 : FVec F S128 .f32) (main_arg11 : FVec F S7x128x128 .f32) (main_arg12 : FVec F S7x128 .f32) (main_arg13 : FVec F S7x128 .f32) (main_arg14 : FVec F S7x128 .f32) (main_arg15 : FVec F S7x128x128 .f32) (main_arg16 : FVec F S7x128 .f32) (main_arg17 : FVec F S7x128 .f32) (main_arg18 : FVec F S7x128 .f32) (main_arg19 : FVec F S256x128 .f32) (main_arg20 : FVec F S128 .f32) (main_arg21 : FVec F S128 .f32) (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) (main_v13 : IVec S_ 1) (main_v16 : IVec S64x8x128 1) : IVec S_ 1 :=
  let main_c_5 : IVec S_ 1 := constantI S_ 1 1#1
  let main_v17 : IVec S_ 1 := (fun x v => Host.reduce IntOp.andi x v reducesTo_S64x8x128_S_d0_1_2 h_S_) main_v16 main_c_5
  let main_v18 : IVec S_ 1 := andi main_v13 main_v17
  let main_v19 : FVec F S64x64x64 .f32 := Host.absf main_arg5
  let main_cst_6 : FVec F S_ .f32 := constant S_ .f32 0x7F800000#32
  let main_v20 : FVec F S64x64x64 .f32 := broadcastInDim S64x64x64 ![] bcast_S_S64x64x64 main_cst_6
  let main_v21 : IVec S64x64x64 1 := cmpf .olt main_v19 main_v20
  let main_c_7 : IVec S_ 1 := constantI S_ 1 1#1
  let main_v22 : IVec S_ 1 := (fun x v => Host.reduce IntOp.andi x v reducesTo_S64x64x64_S_d0_1_2 h_S_) main_v21 main_c_7
  let main_v23 : IVec S_ 1 := andi main_v18 main_v22
  let main_v24 : FVec F S64x256x64 .f32 := Host.absf main_arg6
  let main_cst_8 : FVec F S_ .f32 := constant S_ .f32 0x7F800000#32
  let main_v25 : FVec F S64x256x64 .f32 := broadcastInDim S64x256x64 ![] bcast_S_S64x256x64 main_cst_8
  let main_v26 : IVec S64x256x64 1 := cmpf .olt main_v24 main_v25
  let main_c_9 : IVec S_ 1 := constantI S_ 1 1#1
  let main_v27 : IVec S_ 1 := (fun x v => Host.reduce IntOp.andi x v reducesTo_S64x256x64_S_d0_1_2 h_S_) main_v26 main_c_9
  let main_v28 : IVec S_ 1 := andi main_v23 main_v27
  let main_v29 : FVec F S64x64x8 .f32 := Host.absf main_arg7
  let main_cst_10 : FVec F S_ .f32 := constant S_ .f32 0x7F800000#32
  let main_v30 : FVec F S64x64x8 .f32 := broadcastInDim S64x64x8 ![] bcast_S_S64x64x8 main_cst_10
  let main_v31 : IVec S64x64x8 1 := cmpf .olt main_v29 main_v30
  let main_c_11 : IVec S_ 1 := constantI S_ 1 1#1
  let main_v32 : IVec S_ 1 := (fun x v => Host.reduce IntOp.andi x v reducesTo_S64x64x8_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S16384x128 .f32) (main_arg1 : FVec F S262144x128 .f32) (main_arg2 : IVec S2x262144 32) (main_arg3 : FVec F S64x64x128 .f32) (main_arg4 : FVec F S64x8x128 .f32) (main_arg5 : FVec F S64x64x64 .f32) (main_arg6 : FVec F S64x256x64 .f32) (main_arg7 : FVec F S64x64x8 .f32) (main_arg8 : FVec F S64x64x256 .f32) (main_arg9 : FVec F S256x128 .f32) (main_arg10 : FVec F S128 .f32) (main_arg11 : FVec F S7x128x128 .f32) (main_arg12 : FVec F S7x128 .f32) (main_arg13 : FVec F S7x128 .f32) (main_arg14 : FVec F S7x128 .f32) (main_arg15 : FVec F S7x128x128 .f32) (main_arg16 : FVec F S7x128 .f32) (main_arg17 : FVec F S7x128 .f32) (main_arg18 : FVec F S7x128 .f32) (main_arg19 : FVec F S256x128 .f32) (main_arg20 : FVec F S128 .f32) (main_arg21 : FVec F S128 .f32) (main_arg22 : FVec F S128 .f32) (main_arg23 : FVec F S256x128 .f32) (main_arg24 : FVec F S128 .f32) (main_arg25 : FVec F S128 .f32) (main_arg26 : FVec F S128 .f32) (main_arg27 : FVec F S384x128 .f32) (main_arg28 : FVec F S128 .f32) (main_arg29 : FVec F S128 .f32) (main_arg30 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S64x64x128 .f32 := Host.absf main_arg3
  let main_cst_2 : FVec F S_ .f32 := constant S_ .f32 0x7F800000#32
  let main_v10 : FVec F S64x64x128 .f32 := broadcastInDim S64x64x128 ![] bcast_S_S64x64x128 main_cst_2
  let main_v11 : IVec S64x64x128 1 := cmpf .olt main_v9 main_v10
  let main_c_3 : IVec S_ 1 := constantI S_ 1 1#1
  let main_v12 : IVec S_ 1 := (fun x v => Host.reduce IntOp.andi x v reducesTo_S64x64x128_S_d0_1_2 h_S_) main_v11 main_c_3
  let main_v13 : IVec S_ 1 := andi main_v8 main_v12
  let main_v14 : FVec F S64x8x128 .f32 := Host.absf main_arg4
  let main_cst_4 : FVec F S_ .f32 := constant S_ .f32 0x7F800000#32
  let main_v15 : FVec F S64x8x128 .f32 := broadcastInDim S64x8x128 ![] bcast_S_S64x8x128 main_cst_4
  let main_v16 : IVec S64x8x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S16384x128 : Shape := ⟨2, ![16384, 128]⟩
abbrev S262144x128 : Shape := ⟨2, ![262144, 128]⟩
abbrev S2x262144 : Shape := ⟨2, ![2, 262144]⟩
abbrev S64x64x128 : Shape := ⟨3, ![64, 64, 128]⟩
abbrev S64x8x128 : Shape := ⟨3, ![64, 8, 128]⟩
abbrev S64x64x64 : Shape := ⟨3, ![64, 64, 64]⟩
abbrev S64x256x64 : Shape := ⟨3, ![64, 256, 64]⟩
abbrev S64x64x8 : Shape := ⟨3, ![64, 64, 8]⟩
abbrev S64x64x256 : Shape := ⟨3, ![64, 64, 256]⟩
abbrev S256x128 : Shape := ⟨2, ![256, 128]⟩
abbrev S128 : Shape := ⟨1, ![128]⟩
abbrev S7x128x128 : Shape := ⟨3, ![7, 128, 128]⟩
abbrev S7x128 : Shape := ⟨2, ![7, 128]⟩
abbrev S384x128 : Shape := ⟨2, ![384, 128]⟩
abbrev S1x262144 : Shape := ⟨2, ![1, 262144]⟩
abbrev S262144 : Shape := ⟨1, ![262144]⟩
abbrev S64x256x128 : Shape := ⟨3, ![64, 256, 128]⟩
abbrev S8x256x64 : Shape := ⟨3, ![8, 256, 64]⟩
abbrev S8x64x128 : Shape := ⟨3, ![8, 64, 128]⟩
abbrev S8x256x128 : Shape := ⟨3, ![8, 256, 128]⟩
abbrev S_ : Shape := ⟨0, ![]⟩
abbrev S262144x1 : Shape := ⟨2, ![262144, 1]⟩
abbrev S128x128 : Shape := ⟨2, ![128, 128]⟩
abbrev S1x128 : Shape := ⟨2, ![1, 128]⟩
abbrev S4096x128 : Shape := ⟨2, ![4096, 128]⟩
abbrev S1x128x128 : Shape := ⟨3, ![1, 128, 128]⟩
abbrev S4x1x128 : Shape := ⟨3, ![4, 1, 128]⟩
abbrev S1x1x128 : Shape := ⟨3, ![1, 1, 128]⟩
abbrev S64x1x128 : Shape := ⟨3, ![64, 1, 128]⟩
abbrev S8x64x64 : Shape := ⟨3, ![8, 64, 64]⟩
abbrev S8x64x8 : Shape := ⟨3, ![8, 64, 8]⟩
abbrev S8x8x128 : Shape := ⟨3, ![8, 8, 128]⟩
abbrev S8x64x256 : Shape := ⟨3, ![8, 64, 256]⟩

abbrev nBuf : Space → Nat
  | .hbm => 382
  | .vmem => 278
  | .smem => 0
  | _ => 0

abbrev hbmTy0_0 (i : Nat) : BufTy := match i % 128 with
  | 0 => ⟨S16384x128, .f32⟩
  | 1 => ⟨S262144x128, .f32⟩
  | 2 => ⟨S2x262144, .i32⟩
  | 3 => ⟨S64x64x128, .f32⟩
  | 4 => ⟨S64x8x128, .f32⟩
  | 5 => ⟨S64x64x64, .f32⟩
  | 6 => ⟨S64x256x64, .f32⟩
  | 7 => ⟨S64x64x8, .f32⟩
  | 8 => ⟨S64x64x256, .f32⟩
  | 9 => ⟨S256x128, .f32⟩
  | 10 => ⟨S128, .f32⟩
  | 11 => ⟨S7x128x128, .f32⟩
  | 12 => ⟨S7x128, .f32⟩
  | 13 => ⟨S7x128, .f32⟩
  | 14 => ⟨S7x128, .f32⟩
  | 15 => ⟨S7x128x128, .f32⟩
  | 16 => ⟨S7x128, .f32⟩
  | 17 => ⟨S7x128, .f32⟩
  | 18 => ⟨S7x128, .f32⟩
  | 19 => ⟨S256x128, .f32⟩
  | 20 => ⟨S128, .f32⟩
  | 21 => ⟨S128, .f32⟩
  | 22 => ⟨S128, .f32⟩
  | 23 => ⟨S256x128, .f32⟩
  | 24 => ⟨S128, .f32⟩
  | 25 => ⟨S128, .f32⟩
  | 26 => ⟨S128, .f32⟩
  | 27 => ⟨S384x128, .f32⟩
  | 28 => ⟨S128, .f32⟩
  | 29 => ⟨S128, .f32⟩
  | 30 => ⟨S128, .f32⟩
  | 31 => ⟨S1x262144, .i32⟩
  | 32 => ⟨S262144, .i32⟩
  | 33 => ⟨S1x262144, .i32⟩
  | 34 => ⟨S262144, .i32⟩
  | 35 => ⟨S64x256x128, .f32⟩
  | 36 => ⟨S16384x128, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144x128, .f32⟩
  | 46 => ⟨S128x128, .f32⟩
  | 47 => ⟨S128x128, .f32⟩
  | 48 => ⟨S1x128, .f32⟩
  | 49 => ⟨S262144x128, .f32⟩
  | 50 => ⟨S_, .f32⟩
  | 51 => ⟨S16384x128, .f32⟩
  | 52 => ⟨S262144x1, .i32⟩
  | 53 => ⟨S16384x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S16384x128, .f32⟩
  | 68 => ⟨S4x1x128, .f32⟩
  | 69 => ⟨S4x1x128, .f32⟩
  | 70 => ⟨S_, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S16384x128, .f32⟩
  | 78 => ⟨S4x1x128, .f32⟩
  | 79 => ⟨S4x1x128, .f32⟩
  | 80 => ⟨S_, .f32⟩
  | 81 => ⟨S1x128, .f32⟩
  | 82 => ⟨S_, .f32⟩
  | 83 => ⟨S1x128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S16384x128, .f32⟩
  | 98 => ⟨S4x1x128, .f32⟩
  | 99 => ⟨S4x1x128, .f32⟩
  | 100 => ⟨S_, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S16384x128, .f32⟩
  | 108 => ⟨S4x1x128, .f32⟩
  | 109 => ⟨S4x1x128, .f32⟩
  | 110 => ⟨S_, .f32⟩
  | 111 => ⟨S1x128, .f32⟩
  | 112 => ⟨S_, .f32⟩
  | 113 => ⟨S1x128, .f32⟩
  | 114 => ⟨S128x128, .f32⟩
  | 115 => ⟨S1x128, .f32⟩
  | 116 => ⟨S128, .f32⟩
  | 117 => ⟨S1x128, .f32⟩
  | 118 => ⟨S128, .f32⟩
  | 119 => ⟨S128x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S16384x128, .f32⟩

abbrev hbmTy0_1 (i : Nat) : BufTy := match i % 128 with
  | 0 => ⟨S1x128, .f32⟩
  | 1 => ⟨S16384x128, .f32⟩
  | 2 => ⟨S4x1x128, .f32⟩
  | 3 => ⟨S4x1x128, .f32⟩
  | 4 => ⟨S_, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S16384x128, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x128, .f32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S262144x128, .f32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S262144x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S262144x128, .f32⟩
  | 52 => ⟨S64x1x128, .f32⟩
  | 53 => ⟨S64x1x128, .f32⟩
  | 54 => ⟨S_, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S262144x128, .f32⟩
  | 62 => ⟨S64x1x128, .f32⟩
  | 63 => ⟨S64x1x128, .f32⟩
  | 64 => ⟨S_, .f32⟩
  | 65 => ⟨S1x128, .f32⟩
  | 66 => ⟨S_, .f32⟩
  | 67 => ⟨S1x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S262144x128, .f32⟩
  | 82 => ⟨S64x1x128, .f32⟩
  | 83 => ⟨S64x1x128, .f32⟩
  | 84 => ⟨S_, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S262144x128, .f32⟩
  | 92 => ⟨S64x1x128, .f32⟩
  | 93 => ⟨S64x1x128, .f32⟩
  | 94 => ⟨S_, .f32⟩
  | 95 => ⟨S1x128, .f32⟩
  | 96 => ⟨S_, .f32⟩
  | 97 => ⟨S1x128, .f32⟩
  | 98 => ⟨S128x128, .f32⟩
  | 99 => ⟨S1x128, .f32⟩
  | 100 => ⟨S128, .f32⟩
  | 101 => ⟨S1x128, .f32⟩
  | 102 => ⟨S128, .f32⟩
  | 103 => ⟨S128x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S262144x128, .f32⟩
  | 114 => ⟨S64x1x128, .f32⟩
  | 115 => ⟨S64x1x128, .f32⟩
  | 116 => ⟨S_, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S262144x128, .f32⟩
  | 123 => ⟨S64x256x128, .f32⟩
  | 124 => ⟨S64x64x128, .f32⟩
  | 125 => ⟨S4096x128, .f32⟩
  | 126 => ⟨S64x64x128, .f32⟩
  | 127 => ⟨S4096x128, .f32⟩
  | _ => ⟨S16384x128, .f32⟩

abbrev hbmTy0_2 (i : Nat) : BufTy := match i % 128 with
  | 0 => ⟨S64x64x128, .f32⟩
  | 1 => ⟨S4096x128, .f32⟩
  | 2 => ⟨S4096x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S4096x128, .f32⟩
  | 17 => ⟨S1x1x128, .f32⟩
  | 18 => ⟨S1x1x128, .f32⟩
  | 19 => ⟨S_, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S4096x128, .f32⟩
  | 27 => ⟨S1x1x128, .f32⟩
  | 28 => ⟨S1x1x128, .f32⟩
  | 29 => ⟨S_, .f32⟩
  | 30 => ⟨S1x128, .f32⟩
  | 31 => ⟨S_, .f32⟩
  | 32 => ⟨S1x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S4096x128, .f32⟩
  | 47 => ⟨S1x1x128, .f32⟩
  | 48 => ⟨S1x1x128, .f32⟩
  | 49 => ⟨S_, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S4096x128, .f32⟩
  | 57 => ⟨S1x1x128, .f32⟩
  | 58 => ⟨S1x1x128, .f32⟩
  | 59 => ⟨S_, .f32⟩
  | 60 => ⟨S1x128, .f32⟩
  | 61 => ⟨S_, .f32⟩
  | 62 => ⟨S1x128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S4096x128, .f32⟩
  | 77 => ⟨S1x1x128, .f32⟩
  | 78 => ⟨S1x1x128, .f32⟩
  | 79 => ⟨S_, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S4096x128, .f32⟩
  | 87 => ⟨S1x1x128, .f32⟩
  | 88 => ⟨S1x1x128, .f32⟩
  | 89 => ⟨S_, .f32⟩
  | 90 => ⟨S1x128, .f32⟩
  | 91 => ⟨S_, .f32⟩
  | 92 => ⟨S1x128, .f32⟩
  | 93 => ⟨S128x128, .f32⟩
  | 94 => ⟨S1x128, .f32⟩
  | 95 => ⟨S128, .f32⟩
  | 96 => ⟨S1x128, .f32⟩
  | 97 => ⟨S128, .f32⟩
  | 98 => ⟨S128x128, .f32⟩
  | 99 => ⟨S1x128, .f32⟩
  | 100 => ⟨S128, .f32⟩
  | 101 => ⟨S1x128, .f32⟩
  | 102 => ⟨S128, .f32⟩
  | 103 => ⟨S128x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S4096x128, .f32⟩
  | 116 => ⟨S1x1x128, .f32⟩
  | 117 => ⟨S1x1x128, .f32⟩
  | 118 => ⟨S_, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S4096x128, .f32⟩
  | 125 => ⟨S64x64x128, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev vmemTy0_0 (i : Nat) : BufTy := match i % 128 with
  | 0 => ⟨S8x256x64, .f32⟩
  | 1 => ⟨S8x256x64, .f32⟩
  | 2 => ⟨S8x64x128, .f32⟩
  | 3 => ⟨S8x64x128, .f32⟩
  | 4 => ⟨S8x256x128, .f32⟩
  | 5 => ⟨S8x256x128, .f32⟩
  | 6 => ⟨S4096x128, .f32⟩
  | 7 => ⟨S4096x128, .f32⟩
  | 8 => ⟨S4096x128, .f32⟩
  | 9 => ⟨S4096x128, .f32⟩
  | 10 => ⟨S128x128, .f32⟩
  | 11 => ⟨S128x128, .f32⟩
  | 12 => ⟨S1x128, .f32⟩
  | 13 => ⟨S4096x128, .f32⟩
  | 14 => ⟨S4096x128, .f32⟩
  | 15 => ⟨S4096x128, .f32⟩
  | 16 => ⟨S4096x128, .f32⟩
  | 17 => ⟨S4096x128, .f32⟩
  | 18 => ⟨S4096x128, .f32⟩
  | 19 => ⟨S128x128, .f32⟩
  | 20 => ⟨S1x128, .f32⟩
  | 21 => ⟨S4096x128, .f32⟩
  | 22 => ⟨S4096x128, .f32⟩
  | 23 => ⟨S1x1x128, .f32⟩
  | 24 => ⟨S1x1x128, .f32⟩
  | 25 => ⟨S1x1x128, .f32⟩
  | 26 => ⟨S1x1x128, .f32⟩
  | 27 => ⟨S4096x128, .f32⟩
  | 28 => ⟨S4096x128, .f32⟩
  | 29 => ⟨S128x128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S4096x128, .f32⟩
  | 36 => ⟨S4096x128, .f32⟩
  | 37 => ⟨S1x1x128, .f32⟩
  | 38 => ⟨S1x1x128, .f32⟩
  | 39 => ⟨S1x1x128, .f32⟩
  | 40 => ⟨S1x1x128, .f32⟩
  | 41 => ⟨S4096x128, .f32⟩
  | 42 => ⟨S4096x128, .f32⟩
  | 43 => ⟨S4096x128, .f32⟩
  | 44 => ⟨S4096x128, .f32⟩
  | 45 => ⟨S128x128, .f32⟩
  | 46 => ⟨S1x128, .f32⟩
  | 47 => ⟨S4096x128, .f32⟩
  | 48 => ⟨S4096x128, .f32⟩
  | 49 => ⟨S1x1x128, .f32⟩
  | 50 => ⟨S1x1x128, .f32⟩
  | 51 => ⟨S1x1x128, .f32⟩
  | 52 => ⟨S1x1x128, .f32⟩
  | 53 => ⟨S4096x128, .f32⟩
  | 54 => ⟨S4096x128, .f32⟩
  | 55 => ⟨S128x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S4096x128, .f32⟩
  | 62 => ⟨S4096x128, .f32⟩
  | 63 => ⟨S1x1x128, .f32⟩
  | 64 => ⟨S1x1x128, .f32⟩
  | 65 => ⟨S1x1x128, .f32⟩
  | 66 => ⟨S1x1x128, .f32⟩
  | 67 => ⟨S4096x128, .f32⟩
  | 68 => ⟨S4096x128, .f32⟩
  | 69 => ⟨S128x128, .f32⟩
  | 70 => ⟨S1x128, .f32⟩
  | 71 => ⟨S1x128, .f32⟩
  | 72 => ⟨S1x128, .f32⟩
  | 73 => ⟨S1x128, .f32⟩
  | 74 => ⟨S4096x128, .f32⟩
  | 75 => ⟨S4096x128, .f32⟩
  | 76 => ⟨S128x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S4096x128, .f32⟩
  | 83 => ⟨S4096x128, .f32⟩
  | 84 => ⟨S1x1x128, .f32⟩
  | 85 => ⟨S1x1x128, .f32⟩
  | 86 => ⟨S1x1x128, .f32⟩
  | 87 => ⟨S1x1x128, .f32⟩
  | 88 => ⟨S4096x128, .f32⟩
  | 89 => ⟨S4096x128, .f32⟩
  | 90 => ⟨S1x128, .f32⟩
  | 91 => ⟨S1x128, .f32⟩
  | 92 => ⟨S1x128, .f32⟩
  | 93 => ⟨S1x128, .f32⟩
  | 94 => ⟨S4096x128, .f32⟩
  | 95 => ⟨S4096x128, .f32⟩
  | 96 => ⟨S4096x128, .f32⟩
  | 97 => ⟨S4096x128, .f32⟩
  | 98 => ⟨S4096x128, .f32⟩
  | 99 => ⟨S4096x128, .f32⟩
  | 100 => ⟨S4096x128, .f32⟩
  | 101 => ⟨S4096x128, .f32⟩
  | 102 => ⟨S128x128, .f32⟩
  | 103 => ⟨S1x128, .f32⟩
  | 104 => ⟨S4096x128, .f32⟩
  | 105 => ⟨S4096x128, .f32⟩
  | 106 => ⟨S1x1x128, .f32⟩
  | 107 => ⟨S1x1x128, .f32⟩
  | 108 => ⟨S1x1x128, .f32⟩
  | 109 => ⟨S1x1x128, .f32⟩
  | 110 => ⟨S4096x128, .f32⟩
  | 111 => ⟨S4096x128, .f32⟩
  | 112 => ⟨S128x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S4096x128, .f32⟩
  | 119 => ⟨S4096x128, .f32⟩
  | 120 => ⟨S1x1x128, .f32⟩
  | 121 => ⟨S1x1x128, .f32⟩
  | 122 => ⟨S1x1x128, .f32⟩
  | 123 => ⟨S1x1x128, .f32⟩
  | 124 => ⟨S4096x128, .f32⟩
  | 125 => ⟨S4096x128, .f32⟩
  | 126 => ⟨S4096x128, .f32⟩
  | 127 => ⟨S4096x128, .f32⟩
  | _ => ⟨S16384x128, .f32⟩

abbrev vmemTy0_1 (i : Nat) : BufTy := match i % 128 with
  | 0 => ⟨S4096x128, .f32⟩
  | 1 => ⟨S4096x128, .f32⟩
  | 2 => ⟨S128x128, .f32⟩
  | 3 => ⟨S1x128, .f32⟩
  | 4 => ⟨S4096x128, .f32⟩
  | 5 => ⟨S4096x128, .f32⟩
  | 6 => ⟨S1x1x128, .f32⟩
  | 7 => ⟨S1x1x128, .f32⟩
  | 8 => ⟨S1x1x128, .f32⟩
  | 9 => ⟨S1x1x128, .f32⟩
  | 10 => ⟨S4096x128, .f32⟩
  | 11 => ⟨S4096x128, .f32⟩
  | 12 => ⟨S128x128, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S4096x128, .f32⟩
  | 19 => ⟨S4096x128, .f32⟩
  | 20 => ⟨S1x1x128, .f32⟩
  | 21 => ⟨S1x1x128, .f32⟩
  | 22 => ⟨S1x1x128, .f32⟩
  | 23 => ⟨S1x1x128, .f32⟩
  | 24 => ⟨S4096x128, .f32⟩
  | 25 => ⟨S4096x128, .f32⟩
  | 26 => ⟨S128x128, .f32⟩
  | 27 => ⟨S1x128, .f32⟩
  | 28 => ⟨S1x128, .f32⟩
  | 29 => ⟨S1x128, .f32⟩
  | 30 => ⟨S1x128, .f32⟩
  | 31 => ⟨S4096x128, .f32⟩
  | 32 => ⟨S4096x128, .f32⟩
  | 33 => ⟨S128x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S4096x128, .f32⟩
  | 40 => ⟨S4096x128, .f32⟩
  | 41 => ⟨S1x1x128, .f32⟩
  | 42 => ⟨S1x1x128, .f32⟩
  | 43 => ⟨S1x1x128, .f32⟩
  | 44 => ⟨S1x1x128, .f32⟩
  | 45 => ⟨S4096x128, .f32⟩
  | 46 => ⟨S4096x128, .f32⟩
  | 47 => ⟨S1x128, .f32⟩
  | 48 => ⟨S1x128, .f32⟩
  | 49 => ⟨S1x128, .f32⟩
  | 50 => ⟨S1x128, .f32⟩
  | 51 => ⟨S4096x128, .f32⟩
  | 52 => ⟨S4096x128, .f32⟩
  | 53 => ⟨S8x64x64, .f32⟩
  | 54 => ⟨S8x64x64, .f32⟩
  | 55 => ⟨S8x64x128, .f32⟩
  | 56 => ⟨S8x64x128, .f32⟩
  | 57 => ⟨S8x64x128, .f32⟩
  | 58 => ⟨S8x64x128, .f32⟩
  | 59 => ⟨S8x64x8, .f32⟩
  | 60 => ⟨S8x64x8, .f32⟩
  | 61 => ⟨S8x8x128, .f32⟩
  | 62 => ⟨S8x8x128, .f32⟩
  | 63 => ⟨S8x64x128, .f32⟩
  | 64 => ⟨S8x64x128, .f32⟩
  | 65 => ⟨S8x64x256, .f32⟩
  | 66 => ⟨S8x64x256, .f32⟩
  | 67 => ⟨S8x256x128, .f32⟩
  | 68 => ⟨S8x256x128, .f32⟩
  | 69 => ⟨S8x64x128, .f32⟩
  | 70 => ⟨S8x64x128, .f32⟩
  | 71 => ⟨S4096x128, .f32⟩
  | 72 => ⟨S4096x128, .f32⟩
  | 73 => ⟨S128x128, .f32⟩
  | 74 => ⟨S1x128, .f32⟩
  | 75 => ⟨S4096x128, .f32⟩
  | 76 => ⟨S1x1x128, .f32⟩
  | 77 => ⟨S1x1x128, .f32⟩
  | 78 => ⟨S4096x128, .f32⟩
  | 79 => ⟨S128x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S4096x128, .f32⟩
  | 86 => ⟨S1x1x128, .f32⟩
  | 87 => ⟨S1x1x128, .f32⟩
  | 88 => ⟨S4096x128, .f32⟩
  | 89 => ⟨S4096x128, .f32⟩
  | 90 => ⟨S128x128, .f32⟩
  | 91 => ⟨S1x128, .f32⟩
  | 92 => ⟨S4096x128, .f32⟩
  | 93 => ⟨S1x1x128, .f32⟩
  | 94 => ⟨S1x1x128, .f32⟩
  | 95 => ⟨S4096x128, .f32⟩
  | 96 => ⟨S128x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S4096x128, .f32⟩
  | 103 => ⟨S1x1x128, .f32⟩
  | 104 => ⟨S1x1x128, .f32⟩
  | 105 => ⟨S4096x128, .f32⟩
  | 106 => ⟨S4096x128, .f32⟩
  | 107 => ⟨S128x128, .f32⟩
  | 108 => ⟨S1x128, .f32⟩
  | 109 => ⟨S4096x128, .f32⟩
  | 110 => ⟨S1x1x128, .f32⟩
  | 111 => ⟨S1x1x128, .f32⟩
  | 112 => ⟨S4096x128, .f32⟩
  | 113 => ⟨S128x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S4096x128, .f32⟩
  | 120 => ⟨S1x1x128, .f32⟩
  | 121 => ⟨S1x1x128, .f32⟩
  | 122 => ⟨S4096x128, .f32⟩
  | 123 => ⟨S128x128, .f32⟩
  | 124 => ⟨S1x128, .f32⟩
  | 125 => ⟨S1x128, .f32⟩
  | 126 => ⟨S1x128, .f32⟩
  | 127 => ⟨S1x128, .f32⟩
  | _ => ⟨S16384x128, .f32⟩

abbrev vmemTy0_2 (i : Nat) : BufTy := match i % 128 with
  | 0 => ⟨S4096x128, .f32⟩
  | 1 => ⟨S128x128, .f32⟩
  | 2 => ⟨S1x128, .f32⟩
  | 3 => ⟨S1x128, .f32⟩
  | 4 => ⟨S1x128, .f32⟩
  | 5 => ⟨S1x128, .f32⟩
  | 6 => ⟨S4096x128, .f32⟩
  | 7 => ⟨S128x128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S4096x128, .f32⟩
  | 14 => ⟨S1x1x128, .f32⟩
  | 15 => ⟨S1x1x128, .f32⟩
  | 16 => ⟨S4096x128, .f32⟩
  | 17 => ⟨S1x128, .f32⟩
  | 18 => ⟨S1x128, .f32⟩
  | 19 => ⟨S1x128, .f32⟩
  | 20 => ⟨S1x128, .f32⟩
  | 21 => ⟨S4096x128, .f32⟩
  | _ => ⟨S16384x128, .f32⟩

abbrev vmemTy (i : Nat) : BufTy := match i / 128 with
  | 0 => vmemTy0_0 i
  | 1 => vmemTy0_1 i
  | 2 => vmemTy0_2 i
  | _ => ⟨S16384x128, .f32⟩

abbrev bufTy : (tb : Table) → Fin (tcTables nBuf tb) → BufTy
  | .hbm, ⟨i, _⟩ => hbmTy i
  | .local _ .vmem, ⟨i, _⟩ => vmemTy i
  | _, _ => ⟨S16384x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 278 → Bool
  | ⟨i, _⟩ => dmaSemScopedAt i

abbrev sig : RefSig :=
  ofTc nBuf bufTy 0 278 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_c : Ref sig .tc := ⟨.hbm, 37, rfl⟩
abbrev main_v6 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33_0 : Ref sig .tc := ⟨.hbm, 67, rfl⟩
abbrev main_v33_1 : Ref sig .tc := ⟨.hbm, 68, rfl⟩
abbrev main_v33_2 : Ref sig .tc := ⟨.hbm, 69, rfl⟩
abbrev main_cst_1 : Ref sig .tc := ⟨.hbm, 70, rfl⟩
abbrev main_v34 : Ref sig .tc := ⟨.hbm, 71, rfl⟩
abbrev main_cst_2 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39_0 : Ref sig .tc := ⟨.hbm, 77, rfl⟩
abbrev main_v39_1 : Ref sig .tc := ⟨.hbm, 78, rfl⟩
abbrev main_v39_2 : Ref sig .tc := ⟨.hbm, 79, rfl⟩
abbrev main_cst_3 : Ref sig .tc := ⟨.hbm, 80, rfl⟩
abbrev main_v40 : Ref sig .tc := ⟨.hbm, 81, rfl⟩
abbrev main_cst_4 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55_0 : Ref sig .tc := ⟨.hbm, 97, rfl⟩
abbrev main_v55_1 : Ref sig .tc := ⟨.hbm, 98, rfl⟩
abbrev main_v55_2 : Ref sig .tc := ⟨.hbm, 99, rfl⟩
abbrev main_cst_5 : Ref sig .tc := ⟨.hbm, 100, rfl⟩
abbrev main_v56 : Ref sig .tc := ⟨.hbm, 101, rfl⟩
abbrev main_cst_6 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61_0 : Ref sig .tc := ⟨.hbm, 107, rfl⟩
abbrev main_v61_1 : Ref sig .tc := ⟨.hbm, 108, rfl⟩
abbrev main_v61_2 : Ref sig .tc := ⟨.hbm, 109, rfl⟩
abbrev main_cst_7 : Ref sig .tc := ⟨.hbm, 110, rfl⟩
abbrev main_v62 : Ref sig .tc := ⟨.hbm, 111, rfl⟩
abbrev main_cst_8 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79_0 : Ref sig .tc := ⟨.hbm, 129, rfl⟩
abbrev main_v79_1 : Ref sig .tc := ⟨.hbm, 130, rfl⟩
abbrev main_v79_2 : Ref sig .tc := ⟨.hbm, 131, rfl⟩
abbrev main_cst_9 : Ref sig .tc := ⟨.hbm, 132, rfl⟩
abbrev main_v80 : Ref sig .tc := ⟨.hbm, 133, rfl⟩
abbrev main_cst_10 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_11 : Ref sig .tc := ⟨.hbm, 139, rfl⟩
abbrev main_v85 : Ref sig .tc := ⟨.hbm, 140, rfl⟩
abbrev main_v86 : Ref sig .tc := ⟨.hbm, 141, rfl⟩
abbrev main_c_12 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_13 : Ref sig .tc := ⟨.hbm, 148, rfl⟩
abbrev main_v92 : Ref sig .tc := ⟨.hbm, 149, rfl⟩
abbrev main_v93 : Ref sig .tc := ⟨.hbm, 150, rfl⟩
abbrev main_c_14 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_15 : Ref sig .tc := ⟨.hbm, 157, rfl⟩
abbrev main_v99 : Ref sig .tc := ⟨.hbm, 158, rfl⟩
abbrev main_v100 : Ref sig .tc := ⟨.hbm, 159, rfl⟩
abbrev main_c_16 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119_0 : Ref sig .tc := ⟨.hbm, 179, rfl⟩
abbrev main_v119_1 : Ref sig .tc := ⟨.hbm, 180, rfl⟩
abbrev main_v119_2 : Ref sig .tc := ⟨.hbm, 181, rfl⟩
abbrev main_cst_17 : Ref sig .tc := ⟨.hbm, 182, rfl⟩
abbrev main_v120 : Ref sig .tc := ⟨.hbm, 183, rfl⟩
abbrev main_cst_18 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125_0 : Ref sig .tc := ⟨.hbm, 189, rfl⟩
abbrev main_v125_1 : Ref sig .tc := ⟨.hbm, 190, rfl⟩
abbrev main_v125_2 : Ref sig .tc := ⟨.hbm, 191, rfl⟩
abbrev main_cst_19 : Ref sig .tc := ⟨.hbm, 192, rfl⟩
abbrev main_v126 : Ref sig .tc := ⟨.hbm, 193, rfl⟩
abbrev main_cst_20 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141_0 : Ref sig .tc := ⟨.hbm, 209, rfl⟩
abbrev main_v141_1 : Ref sig .tc := ⟨.hbm, 210, rfl⟩
abbrev main_v141_2 : Ref sig .tc := ⟨.hbm, 211, rfl⟩
abbrev main_cst_21 : Ref sig .tc := ⟨.hbm, 212, rfl⟩
abbrev main_v142 : Ref sig .tc := ⟨.hbm, 213, rfl⟩
abbrev main_cst_22 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147_0 : Ref sig .tc := ⟨.hbm, 219, rfl⟩
abbrev main_v147_1 : Ref sig .tc := ⟨.hbm, 220, rfl⟩
abbrev main_v147_2 : Ref sig .tc := ⟨.hbm, 221, rfl⟩
abbrev main_cst_23 : Ref sig .tc := ⟨.hbm, 222, rfl⟩
abbrev main_v148 : Ref sig .tc := ⟨.hbm, 223, rfl⟩
abbrev main_cst_24 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165_0 : Ref sig .tc := ⟨.hbm, 241, rfl⟩
abbrev main_v165_1 : Ref sig .tc := ⟨.hbm, 242, rfl⟩
abbrev main_v165_2 : Ref sig .tc := ⟨.hbm, 243, rfl⟩
abbrev main_cst_25 : Ref sig .tc := ⟨.hbm, 244, rfl⟩
abbrev main_v166 : Ref sig .tc := ⟨.hbm, 245, rfl⟩
abbrev main_cst_26 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192_0 : Ref sig .tc := ⟨.hbm, 272, rfl⟩
abbrev main_v192_1 : Ref sig .tc := ⟨.hbm, 273, rfl⟩
abbrev main_v192_2 : Ref sig .tc := ⟨.hbm, 274, rfl⟩
abbrev main_cst_27 : Ref sig .tc := ⟨.hbm, 275, rfl⟩
abbrev main_v193 : Ref sig .tc := ⟨.hbm, 276, rfl⟩
abbrev main_cst_28 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198_0 : Ref sig .tc := ⟨.hbm, 282, rfl⟩
abbrev main_v198_1 : Ref sig .tc := ⟨.hbm, 283, rfl⟩
abbrev main_v198_2 : Ref sig .tc := ⟨.hbm, 284, rfl⟩
abbrev main_cst_29 : Ref sig .tc := ⟨.hbm, 285, rfl⟩
abbrev main_v199 : Ref sig .tc := ⟨.hbm, 286, rfl⟩
abbrev main_cst_30 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214_0 : Ref sig .tc := ⟨.hbm, 302, rfl⟩
abbrev main_v214_1 : Ref sig .tc := ⟨.hbm, 303, rfl⟩
abbrev main_v214_2 : Ref sig .tc := ⟨.hbm, 304, rfl⟩
abbrev main_cst_31 : Ref sig .tc := ⟨.hbm, 305, rfl⟩
abbrev main_v215 : Ref sig .tc := ⟨.hbm, 306, rfl⟩
abbrev main_cst_32 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_v220_0 : Ref sig .tc := ⟨.hbm, 312, rfl⟩
abbrev main_v220_1 : Ref sig .tc := ⟨.hbm, 313, rfl⟩
abbrev main_v220_2 : Ref sig .tc := ⟨.hbm, 314, rfl⟩
abbrev main_cst_33 : Ref sig .tc := ⟨.hbm, 315, rfl⟩
abbrev main_v221 : Ref sig .tc := ⟨.hbm, 316, rfl⟩
abbrev main_cst_34 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_v236_0 : Ref sig .tc := ⟨.hbm, 332, rfl⟩
abbrev main_v236_1 : Ref sig .tc := ⟨.hbm, 333, rfl⟩
abbrev main_v236_2 : Ref sig .tc := ⟨.hbm, 334, rfl⟩
abbrev main_cst_35 : Ref sig .tc := ⟨.hbm, 335, rfl⟩
abbrev main_v237 : Ref sig .tc := ⟨.hbm, 336, rfl⟩
abbrev main_cst_36 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242_0 : Ref sig .tc := ⟨.hbm, 342, rfl⟩
abbrev main_v242_1 : Ref sig .tc := ⟨.hbm, 343, rfl⟩
abbrev main_v242_2 : Ref sig .tc := ⟨.hbm, 344, rfl⟩
abbrev main_cst_37 : Ref sig .tc := ⟨.hbm, 345, rfl⟩
abbrev main_v243 : Ref sig .tc := ⟨.hbm, 346, rfl⟩
abbrev main_cst_38 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267_0 : Ref sig .tc := ⟨.hbm, 371, rfl⟩
abbrev main_v267_1 : Ref sig .tc := ⟨.hbm, 372, rfl⟩
abbrev main_v267_2 : Ref sig .tc := ⟨.hbm, 373, rfl⟩
abbrev main_cst_39 : Ref sig .tc := ⟨.hbm, 374, rfl⟩
abbrev main_v268 : Ref sig .tc := ⟨.hbm, 375, rfl⟩
abbrev main_cst_40 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc3_stg8_0 : Ref sig .tc := ⟨.vmem, 37, rfl⟩
abbrev cc3_stg8_1 : Ref sig .tc := ⟨.vmem, 38, rfl⟩
abbrev cc3_stg9_0 : Ref sig .tc := ⟨.vmem, 39, rfl⟩
abbrev cc3_stg9_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg4_1 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg7_1 : Ref sig .tc := ⟨.vmem, 62, rfl⟩
abbrev cc5_stg8_0 : Ref sig .tc := ⟨.vmem, 63, rfl⟩
abbrev cc5_stg8_1 : Ref sig .tc := ⟨.vmem, 64, rfl⟩
abbrev cc5_stg9_0 : Ref sig .tc := ⟨.vmem, 65, rfl⟩
abbrev cc5_stg9_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_stg9_0 : Ref sig .tc := ⟨.vmem, 78, rfl⟩
abbrev cc6_stg10_0 : Ref sig .tc := ⟨.vmem, 79, rfl⟩
abbrev cc6_stg11_0 : Ref sig .tc := ⟨.vmem, 80, rfl⟩
abbrev cc6_stg12_0 : Ref sig .tc := ⟨.vmem, 81, rfl⟩
abbrev cc6_stg13_0 : Ref sig .tc := ⟨.vmem, 82, rfl⟩
abbrev cc6_stg13_1 : Ref sig .tc := ⟨.vmem, 83, rfl⟩
abbrev cc6_stg14_0 : Ref sig .tc := ⟨.vmem, 84, rfl⟩
abbrev cc6_stg14_1 : Ref sig .tc := ⟨.vmem, 85, rfl⟩
abbrev cc6_stg15_0 : Ref sig .tc := ⟨.vmem, 86, rfl⟩
abbrev cc6_stg15_1 : Ref sig .tc := ⟨.vmem, 87, rfl⟩
abbrev cc7_stg0_0 : Ref sig .tc := ⟨.vmem, 88, rfl⟩
abbrev cc7_stg0_1 : Ref sig .tc := ⟨.vmem, 89, rfl⟩
abbrev cc7_stg1_0 : Ref sig .tc := ⟨.vmem, 90, rfl⟩
abbrev cc7_stg2_0 : Ref sig .tc := ⟨.vmem, 91, rfl⟩
abbrev cc7_stg3_0 : Ref sig .tc := ⟨.vmem, 92, rfl⟩
abbrev cc7_stg4_0 : Ref sig .tc := ⟨.vmem, 93, rfl⟩
abbrev cc7_stg5_0 : Ref sig .tc := ⟨.vmem, 94, rfl⟩
abbrev cc7_stg5_1 : Ref sig .tc := ⟨.vmem, 95, rfl⟩
abbrev cc8_stg0_0 : Ref sig .tc := ⟨.vmem, 96, rfl⟩
abbrev cc8_stg0_1 : Ref sig .tc := ⟨.vmem, 97, rfl⟩
abbrev cc8_stg1_0 : Ref sig .tc := ⟨.vmem, 98, rfl⟩
abbrev cc8_stg1_1 : Ref sig .tc := ⟨.vmem, 99, rfl⟩
abbrev cc8_stg2_0 : Ref sig .tc := ⟨.vmem, 100, rfl⟩
abbrev cc8_stg2_1 : Ref sig .tc := ⟨.vmem, 101, rfl⟩
abbrev cc8_stg3_0 : Ref sig .tc := ⟨.vmem, 102, rfl⟩
abbrev cc8_stg4_0 : Ref sig .tc := ⟨.vmem, 103, rfl⟩
abbrev cc8_stg5_0 : Ref sig .tc := ⟨.vmem, 104, rfl⟩
abbrev cc8_stg5_1 : Ref sig .tc := ⟨.vmem, 105, rfl⟩
abbrev cc8_stg6_0 : Ref sig .tc := ⟨.vmem, 106, rfl⟩
abbrev cc8_stg6_1 : Ref sig .tc := ⟨.vmem, 107, rfl⟩
abbrev cc8_stg7_0 : Ref sig .tc := ⟨.vmem, 108, rfl⟩
abbrev cc8_stg7_1 : Ref sig .tc := ⟨.vmem, 109, rfl⟩
abbrev cc9_stg0_0 : Ref sig .tc := ⟨.vmem, 110, rfl⟩
abbrev cc9_stg0_1 : Ref sig .tc := ⟨.vmem, 111, rfl⟩
abbrev cc9_stg1_0 : Ref sig .tc := ⟨.vmem, 112, rfl⟩
abbrev cc9_stg2_0 : Ref sig .tc := ⟨.vmem, 113, rfl⟩
abbrev cc9_stg3_0 : Ref sig .tc := ⟨.vmem, 114, rfl⟩
abbrev cc9_stg4_0 : Ref sig .tc := ⟨.vmem, 115, rfl⟩
abbrev cc9_stg5_0 : Ref sig .tc := ⟨.vmem, 116, rfl⟩
abbrev cc9_stg6_0 : Ref sig .tc := ⟨.vmem, 117, rfl⟩
abbrev cc9_stg7_0 : Ref sig .tc := ⟨.vmem, 118, rfl⟩
abbrev cc9_stg7_1 : Ref sig .tc := ⟨.vmem, 119, rfl⟩
abbrev cc9_stg8_0 : Ref sig .tc := ⟨.vmem, 120, rfl⟩
abbrev cc9_stg8_1 : Ref sig .tc := ⟨.vmem, 121, rfl⟩
abbrev cc9_stg9_0 : Ref sig .tc := ⟨.vmem, 122, rfl⟩
abbrev cc9_stg9_1 : Ref sig .tc := ⟨.vmem, 123, rfl⟩
abbrev cc10_stg0_0 : Ref sig .tc := ⟨.vmem, 124, rfl⟩
abbrev cc10_stg0_1 : Ref sig .tc := ⟨.vmem, 125, rfl⟩
abbrev cc10_stg1_0 : Ref sig .tc := ⟨.vmem, 126, rfl⟩
abbrev cc10_stg1_1 : Ref sig .tc := ⟨.vmem, 127, rfl⟩
abbrev cc10_stg2_0 : Ref sig .tc := ⟨.vmem, 128, rfl⟩
abbrev cc10_stg2_1 : Ref sig .tc := ⟨.vmem, 129, rfl⟩
abbrev cc10_stg3_0 : Ref sig .tc := ⟨.vmem, 130, rfl⟩
abbrev cc10_stg4_0 : Ref sig .tc := ⟨.vmem, 131, rfl⟩
abbrev cc10_stg5_0 : Ref sig .tc := ⟨.vmem, 132, rfl⟩
abbrev cc10_stg5_1 : Ref sig .tc := ⟨.vmem, 133, rfl⟩
abbrev cc10_stg6_0 : Ref sig .tc := ⟨.vmem, 134, rfl⟩
abbrev cc10_stg6_1 : Ref sig .tc := ⟨.vmem, 135, rfl⟩
abbrev cc10_stg7_0 : Ref sig .tc := ⟨.vmem, 136, rfl⟩
abbrev cc10_stg7_1 : Ref sig .tc := ⟨.vmem, 137, rfl⟩
abbrev cc11_stg0_0 : Ref sig .tc := ⟨.vmem, 138, rfl⟩
abbrev cc11_stg0_1 : Ref sig .tc := ⟨.vmem, 139, rfl⟩
abbrev cc11_stg1_0 : Ref sig .tc := ⟨.vmem, 140, rfl⟩
abbrev cc11_stg2_0 : Ref sig .tc := ⟨.vmem, 141, rfl⟩
abbrev cc11_stg3_0 : Ref sig .tc := ⟨.vmem, 142, rfl⟩
abbrev cc11_stg4_0 : Ref sig .tc := ⟨.vmem, 143, rfl⟩
abbrev cc11_stg5_0 : Ref sig .tc := ⟨.vmem, 144, rfl⟩
abbrev cc11_stg6_0 : Ref sig .tc := ⟨.vmem, 145, rfl⟩
abbrev cc11_stg7_0 : Ref sig .tc := ⟨.vmem, 146, rfl⟩
abbrev cc11_stg7_1 : Ref sig .tc := ⟨.vmem, 147, rfl⟩
abbrev cc11_stg8_0 : Ref sig .tc := ⟨.vmem, 148, rfl⟩
abbrev cc11_stg8_1 : Ref sig .tc := ⟨.vmem, 149, rfl⟩
abbrev cc11_stg9_0 : Ref sig .tc := ⟨.vmem, 150, rfl⟩
abbrev cc11_stg9_1 : Ref sig .tc := ⟨.vmem, 151, rfl⟩
abbrev cc12_stg0_0 : Ref sig .tc := ⟨.vmem, 152, rfl⟩
abbrev cc12_stg0_1 : Ref sig .tc := ⟨.vmem, 153, rfl⟩
abbrev cc12_stg1_0 : Ref sig .tc := ⟨.vmem, 154, rfl⟩
abbrev cc12_stg2_0 : Ref sig .tc := ⟨.vmem, 155, rfl⟩
abbrev cc12_stg3_0 : Ref sig .tc := ⟨.vmem, 156, rfl⟩
abbrev cc12_stg4_0 : Ref sig .tc := ⟨.vmem, 157, rfl⟩
abbrev cc12_stg5_0 : Ref sig .tc := ⟨.vmem, 158, rfl⟩
abbrev cc12_stg6_0 : Ref sig .tc := ⟨.vmem, 159, rfl⟩
abbrev cc12_stg6_1 : Ref sig .tc := ⟨.vmem, 160, rfl⟩
abbrev cc12_stg7_0 : Ref sig .tc := ⟨.vmem, 161, rfl⟩
abbrev cc12_stg8_0 : Ref sig .tc := ⟨.vmem, 162, rfl⟩
abbrev cc12_stg9_0 : Ref sig .tc := ⟨.vmem, 163, rfl⟩
abbrev cc12_stg10_0 : Ref sig .tc := ⟨.vmem, 164, rfl⟩
abbrev cc12_stg11_0 : Ref sig .tc := ⟨.vmem, 165, rfl⟩
abbrev cc12_stg12_0 : Ref sig .tc := ⟨.vmem, 166, rfl⟩
abbrev cc12_stg13_0 : Ref sig .tc := ⟨.vmem, 167, rfl⟩
abbrev cc12_stg13_1 : Ref sig .tc := ⟨.vmem, 168, rfl⟩
abbrev cc12_stg14_0 : Ref sig .tc := ⟨.vmem, 169, rfl⟩
abbrev cc12_stg14_1 : Ref sig .tc := ⟨.vmem, 170, rfl⟩
abbrev cc12_stg15_0 : Ref sig .tc := ⟨.vmem, 171, rfl⟩
abbrev cc12_stg15_1 : Ref sig .tc := ⟨.vmem, 172, rfl⟩
abbrev cc13_stg0_0 : Ref sig .tc := ⟨.vmem, 173, rfl⟩
abbrev cc13_stg0_1 : Ref sig .tc := ⟨.vmem, 174, rfl⟩
abbrev cc13_stg1_0 : Ref sig .tc := ⟨.vmem, 175, rfl⟩
abbrev cc13_stg2_0 : Ref sig .tc := ⟨.vmem, 176, rfl⟩
abbrev cc13_stg3_0 : Ref sig .tc := ⟨.vmem, 177, rfl⟩
abbrev cc13_stg4_0 : Ref sig .tc := ⟨.vmem, 178, rfl⟩
abbrev cc13_stg5_0 : Ref sig .tc := ⟨.vmem, 179, rfl⟩
abbrev cc13_stg5_1 : Ref sig .tc := ⟨.vmem, 180, rfl⟩
abbrev cc14_stg0_0 : Ref sig .tc := ⟨.vmem, 181, rfl⟩
abbrev cc14_stg0_1 : Ref sig .tc := ⟨.vmem, 182, rfl⟩
abbrev cc14_stg1_0 : Ref sig .tc := ⟨.vmem, 183, rfl⟩
abbrev cc14_stg1_1 : Ref sig .tc := ⟨.vmem, 184, rfl⟩
abbrev cc14_stg2_0 : Ref sig .tc := ⟨.vmem, 185, rfl⟩
abbrev cc14_stg2_1 : Ref sig .tc := ⟨.vmem, 186, rfl⟩
abbrev cc15_stg0_0 : Ref sig .tc := ⟨.vmem, 187, rfl⟩
abbrev cc15_stg0_1 : Ref sig .tc := ⟨.vmem, 188, rfl⟩
abbrev cc15_stg1_0 : Ref sig .tc := ⟨.vmem, 189, rfl⟩
abbrev cc15_stg1_1 : Ref sig .tc := ⟨.vmem, 190, rfl⟩
abbrev cc15_stg2_0 : Ref sig .tc := ⟨.vmem, 191, rfl⟩
abbrev cc15_stg2_1 : Ref sig .tc := ⟨.vmem, 192, rfl⟩
abbrev cc16_stg0_0 : Ref sig .tc := ⟨.vmem, 193, rfl⟩
abbrev cc16_stg0_1 : Ref sig .tc := ⟨.vmem, 194, rfl⟩
abbrev cc16_stg1_0 : Ref sig .tc := ⟨.vmem, 195, rfl⟩
abbrev cc16_stg1_1 : Ref sig .tc := ⟨.vmem, 196, rfl⟩
abbrev cc16_stg2_0 : Ref sig .tc := ⟨.vmem, 197, rfl⟩
abbrev cc16_stg2_1 : Ref sig .tc := ⟨.vmem, 198, rfl⟩
abbrev cc17_stg0_0 : Ref sig .tc := ⟨.vmem, 199, rfl⟩
abbrev cc17_stg1_0 : Ref sig .tc := ⟨.vmem, 200, rfl⟩
abbrev cc17_stg2_0 : Ref sig .tc := ⟨.vmem, 201, rfl⟩
abbrev cc17_stg3_0 : Ref sig .tc := ⟨.vmem, 202, rfl⟩
abbrev cc17_stg4_0 : Ref sig .tc := ⟨.vmem, 203, rfl⟩
abbrev cc17_stg5_0 : Ref sig .tc := ⟨.vmem, 204, rfl⟩
abbrev cc17_stg6_0 : Ref sig .tc := ⟨.vmem, 205, rfl⟩
abbrev cc18_stg0_0 : Ref sig .tc := ⟨.vmem, 206, rfl⟩
abbrev cc18_stg1_0 : Ref sig .tc := ⟨.vmem, 207, rfl⟩
abbrev cc18_stg2_0 : Ref sig .tc := ⟨.vmem, 208, rfl⟩
abbrev cc18_stg3_0 : Ref sig .tc := ⟨.vmem, 209, rfl⟩
abbrev cc18_stg4_0 : Ref sig .tc := ⟨.vmem, 210, rfl⟩
abbrev cc18_stg5_0 : Ref sig .tc := ⟨.vmem, 211, rfl⟩
abbrev cc18_stg6_0 : Ref sig .tc := ⟨.vmem, 212, rfl⟩
abbrev cc18_stg7_0 : Ref sig .tc := ⟨.vmem, 213, rfl⟩
abbrev cc18_stg8_0 : Ref sig .tc := ⟨.vmem, 214, rfl⟩
abbrev cc18_stg9_0 : Ref sig .tc := ⟨.vmem, 215, rfl⟩
abbrev cc19_stg0_0 : Ref sig .tc := ⟨.vmem, 216, rfl⟩
abbrev cc19_stg1_0 : Ref sig .tc := ⟨.vmem, 217, rfl⟩
abbrev cc19_stg2_0 : Ref sig .tc := ⟨.vmem, 218, rfl⟩
abbrev cc19_stg3_0 : Ref sig .tc := ⟨.vmem, 219, rfl⟩
abbrev cc19_stg4_0 : Ref sig .tc := ⟨.vmem, 220, rfl⟩
abbrev cc19_stg5_0 : Ref sig .tc := ⟨.vmem, 221, rfl⟩
abbrev cc19_stg6_0 : Ref sig .tc := ⟨.vmem, 222, rfl⟩
abbrev cc20_stg0_0 : Ref sig .tc := ⟨.vmem, 223, rfl⟩
abbrev cc20_stg1_0 : Ref sig .tc := ⟨.vmem, 224, rfl⟩
abbrev cc20_stg2_0 : Ref sig .tc := ⟨.vmem, 225, rfl⟩
abbrev cc20_stg3_0 : Ref sig .tc := ⟨.vmem, 226, rfl⟩
abbrev cc20_stg4_0 : Ref sig .tc := ⟨.vmem, 227, rfl⟩
abbrev cc20_stg5_0 : Ref sig .tc := ⟨.vmem, 228, rfl⟩
abbrev cc20_stg6_0 : Ref sig .tc := ⟨.vmem, 229, rfl⟩
abbrev cc20_stg7_0 : Ref sig .tc := ⟨.vmem, 230, rfl⟩
abbrev cc20_stg8_0 : Ref sig .tc := ⟨.vmem, 231, rfl⟩
abbrev cc20_stg9_0 : Ref sig .tc := ⟨.vmem, 232, rfl⟩
abbrev cc21_stg0_0 : Ref sig .tc := ⟨.vmem, 233, rfl⟩
abbrev cc21_stg1_0 : Ref sig .tc := ⟨.vmem, 234, rfl⟩
abbrev cc21_stg2_0 : Ref sig .tc := ⟨.vmem, 235, rfl⟩
abbrev cc21_stg3_0 : Ref sig .tc := ⟨.vmem, 236, rfl⟩
abbrev cc21_stg4_0 : Ref sig .tc := ⟨.vmem, 237, rfl⟩
abbrev cc21_stg5_0 : Ref sig .tc := ⟨.vmem, 238, rfl⟩
abbrev cc21_stg6_0 : Ref sig .tc := ⟨.vmem, 239, rfl⟩
abbrev cc22_stg0_0 : Ref sig .tc := ⟨.vmem, 240, rfl⟩
abbrev cc22_stg1_0 : Ref sig .tc := ⟨.vmem, 241, rfl⟩
abbrev cc22_stg2_0 : Ref sig .tc := ⟨.vmem, 242, rfl⟩
abbrev cc22_stg3_0 : Ref sig .tc := ⟨.vmem, 243, rfl⟩
abbrev cc22_stg4_0 : Ref sig .tc := ⟨.vmem, 244, rfl⟩
abbrev cc22_stg5_0 : Ref sig .tc := ⟨.vmem, 245, rfl⟩
abbrev cc22_stg6_0 : Ref sig .tc := ⟨.vmem, 246, rfl⟩
abbrev cc22_stg7_0 : Ref sig .tc := ⟨.vmem, 247, rfl⟩
abbrev cc22_stg8_0 : Ref sig .tc := ⟨.vmem, 248, rfl⟩
abbrev cc22_stg9_0 : Ref sig .tc := ⟨.vmem, 249, rfl⟩
abbrev cc23_stg0_0 : Ref sig .tc := ⟨.vmem, 250, rfl⟩
abbrev cc23_stg1_0 : Ref sig .tc := ⟨.vmem, 251, rfl⟩
abbrev cc23_stg2_0 : Ref sig .tc := ⟨.vmem, 252, rfl⟩
abbrev cc23_stg3_0 : Ref sig .tc := ⟨.vmem, 253, rfl⟩
abbrev cc23_stg4_0 : Ref sig .tc := ⟨.vmem, 254, rfl⟩
abbrev cc23_stg5_0 : Ref sig .tc := ⟨.vmem, 255, rfl⟩
abbrev cc23_stg6_0 : Ref sig .tc := ⟨.vmem, 256, rfl⟩
abbrev cc23_stg7_0 : Ref sig .tc := ⟨.vmem, 257, rfl⟩
abbrev cc23_stg8_0 : Ref sig .tc := ⟨.vmem, 258, rfl⟩
abbrev cc23_stg9_0 : Ref sig .tc := ⟨.vmem, 259, rfl⟩
abbrev cc23_stg10_0 : Ref sig .tc := ⟨.vmem, 260, rfl⟩
abbrev cc23_stg11_0 : Ref sig .tc := ⟨.vmem, 261, rfl⟩
abbrev cc23_stg12_0 : Ref sig .tc := ⟨.vmem, 262, rfl⟩
abbrev cc23_stg13_0 : Ref sig .tc := ⟨.vmem, 263, rfl⟩
abbrev cc23_stg14_0 : Ref sig .tc := ⟨.vmem, 264, rfl⟩
abbrev cc23_stg15_0 : Ref sig .tc := ⟨.vmem, 265, rfl⟩
abbrev cc23_stg16_0 : Ref sig .tc := ⟨.vmem, 266, rfl⟩
abbrev cc23_stg17_0 : Ref sig .tc := ⟨.vmem, 267, rfl⟩
abbrev cc23_stg18_0 : Ref sig .tc := ⟨.vmem, 268, rfl⟩
abbrev cc23_stg19_0 : Ref sig .tc := ⟨.vmem, 269, rfl⟩
abbrev cc23_stg20_0 : Ref sig .tc := ⟨.vmem, 270, rfl⟩
abbrev cc23_stg21_0 : Ref sig .tc := ⟨.vmem, 271, rfl⟩
abbrev cc24_stg0_0 : Ref sig .tc := ⟨.vmem, 272, rfl⟩
abbrev cc24_stg1_0 : Ref sig .tc := ⟨.vmem, 273, rfl⟩
abbrev cc24_stg2_0 : Ref sig .tc := ⟨.vmem, 274, rfl⟩
abbrev cc24_stg3_0 : Ref sig .tc := ⟨.vmem, 275, rfl⟩
abbrev cc24_stg4_0 : Ref sig .tc := ⟨.vmem, 276, rfl⟩
abbrev cc24_stg5_0 : Ref sig .tc := ⟨.vmem, 277, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc3_sem8_0 : DmaSem sig := 37
abbrev cc3_sem8_1 : DmaSem sig := 38
abbrev cc3_sem9_0 : DmaSem sig := 39
abbrev cc3_sem9_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem3_0 : DmaSem sig := 46
abbrev cc4_sem4_0 : DmaSem sig := 47
abbrev cc4_sem4_1 : DmaSem sig := 48
abbrev cc4_sem5_0 : DmaSem sig := 49
abbrev cc4_sem5_1 : DmaSem sig := 50
abbrev cc4_sem6_0 : DmaSem sig := 51
abbrev cc4_sem6_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem7_1 : DmaSem sig := 62
abbrev cc5_sem8_0 : DmaSem sig := 63
abbrev cc5_sem8_1 : DmaSem sig := 64
abbrev cc5_sem9_0 : DmaSem sig := 65
abbrev cc5_sem9_1 : DmaSem sig := 66
abbrev cc6_sem0_0 : DmaSem sig := 67
abbrev cc6_sem0_1 : DmaSem sig := 68
abbrev cc6_sem1_0 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem6_0 : DmaSem sig := 74
abbrev cc6_sem6_1 : DmaSem sig := 75
abbrev cc6_sem7_0 : DmaSem sig := 76
abbrev cc6_sem8_0 : DmaSem sig := 77
abbrev cc6_sem9_0 : DmaSem sig := 78
abbrev cc6_sem10_0 : DmaSem sig := 79
abbrev cc6_sem11_0 : DmaSem sig := 80
abbrev cc6_sem12_0 : DmaSem sig := 81
abbrev cc6_sem13_0 : DmaSem sig := 82
abbrev cc6_sem13_1 : DmaSem sig := 83
abbrev cc6_sem14_0 : DmaSem sig := 84
abbrev cc6_sem14_1 : DmaSem sig := 85
abbrev cc6_sem15_0 : DmaSem sig := 86
abbrev cc6_sem15_1 : DmaSem sig := 87
abbrev cc7_sem0_0 : DmaSem sig := 88
abbrev cc7_sem0_1 : DmaSem sig := 89
abbrev cc7_sem1_0 : DmaSem sig := 90
abbrev cc7_sem2_0 : DmaSem sig := 91
abbrev cc7_sem3_0 : DmaSem sig := 92
abbrev cc7_sem4_0 : DmaSem sig := 93
abbrev cc7_sem5_0 : DmaSem sig := 94
abbrev cc7_sem5_1 : DmaSem sig := 95
abbrev cc8_sem0_0 : DmaSem sig := 96
abbrev cc8_sem0_1 : DmaSem sig := 97
abbrev cc8_sem1_0 : DmaSem sig := 98
abbrev cc8_sem1_1 : DmaSem sig := 99
abbrev cc8_sem2_0 : DmaSem sig := 100
abbrev cc8_sem2_1 : DmaSem sig := 101
abbrev cc8_sem3_0 : DmaSem sig := 102
abbrev cc8_sem4_0 : DmaSem sig := 103
abbrev cc8_sem5_0 : DmaSem sig := 104
abbrev cc8_sem5_1 : DmaSem sig := 105
abbrev cc8_sem6_0 : DmaSem sig := 106
abbrev cc8_sem6_1 : DmaSem sig := 107
abbrev cc8_sem7_0 : DmaSem sig := 108
abbrev cc8_sem7_1 : DmaSem sig := 109
abbrev cc9_sem0_0 : DmaSem sig := 110
abbrev cc9_sem0_1 : DmaSem sig := 111
abbrev cc9_sem1_0 : DmaSem sig := 112
abbrev cc9_sem2_0 : DmaSem sig := 113
abbrev cc9_sem3_0 : DmaSem sig := 114
abbrev cc9_sem4_0 : DmaSem sig := 115
abbrev cc9_sem5_0 : DmaSem sig := 116
abbrev cc9_sem6_0 : DmaSem sig := 117
abbrev cc9_sem7_0 : DmaSem sig := 118
abbrev cc9_sem7_1 : DmaSem sig := 119
abbrev cc9_sem8_0 : DmaSem sig := 120
abbrev cc9_sem8_1 : DmaSem sig := 121
abbrev cc9_sem9_0 : DmaSem sig := 122
abbrev cc9_sem9_1 : DmaSem sig := 123
abbrev cc10_sem0_0 : DmaSem sig := 124
abbrev cc10_sem0_1 : DmaSem sig := 125
abbrev cc10_sem1_0 : DmaSem sig := 126
abbrev cc10_sem1_1 : DmaSem sig := 127
abbrev cc10_sem2_0 : DmaSem sig := 128
abbrev cc10_sem2_1 : DmaSem sig := 129
abbrev cc10_sem3_0 : DmaSem sig := 130
abbrev cc10_sem4_0 : DmaSem sig := 131
abbrev cc10_sem5_0 : DmaSem sig := 132
abbrev cc10_sem5_1 : DmaSem sig := 133
abbrev cc10_sem6_0 : DmaSem sig := 134
abbrev cc10_sem6_1 : DmaSem sig := 135
abbrev cc10_sem7_0 : DmaSem sig := 136
abbrev cc10_sem7_1 : DmaSem sig := 137
abbrev cc11_sem0_0 : DmaSem sig := 138
abbrev cc11_sem0_1 : DmaSem sig := 139
abbrev cc11_sem1_0 : DmaSem sig := 140
abbrev cc11_sem2_0 : DmaSem sig := 141
abbrev cc11_sem3_0 : DmaSem sig := 142
abbrev cc11_sem4_0 : DmaSem sig := 143
abbrev cc11_sem5_0 : DmaSem sig := 144
abbrev cc11_sem6_0 : DmaSem sig := 145
abbrev cc11_sem7_0 : DmaSem sig := 146
abbrev cc11_sem7_1 : DmaSem sig := 147
abbrev cc11_sem8_0 : DmaSem sig := 148
abbrev cc11_sem8_1 : DmaSem sig := 149
abbrev cc11_sem9_0 : DmaSem sig := 150
abbrev cc11_sem9_1 : DmaSem sig := 151
abbrev cc12_sem0_0 : DmaSem sig := 152
abbrev cc12_sem0_1 : DmaSem sig := 153
abbrev cc12_sem1_0 : DmaSem sig := 154
abbrev cc12_sem2_0 : DmaSem sig := 155
abbrev cc12_sem3_0 : DmaSem sig := 156
abbrev cc12_sem4_0 : DmaSem sig := 157
abbrev cc12_sem5_0 : DmaSem sig := 158
abbrev cc12_sem6_0 : DmaSem sig := 159
abbrev cc12_sem6_1 : DmaSem sig := 160
abbrev cc12_sem7_0 : DmaSem sig := 161
abbrev cc12_sem8_0 : DmaSem sig := 162
abbrev cc12_sem9_0 : DmaSem sig := 163
abbrev cc12_sem10_0 : DmaSem sig := 164
abbrev cc12_sem11_0 : DmaSem sig := 165
abbrev cc12_sem12_0 : DmaSem sig := 166
abbrev cc12_sem13_0 : DmaSem sig := 167
abbrev cc12_sem13_1 : DmaSem sig := 168
abbrev cc12_sem14_0 : DmaSem sig := 169
abbrev cc12_sem14_1 : DmaSem sig := 170
abbrev cc12_sem15_0 : DmaSem sig := 171
abbrev cc12_sem15_1 : DmaSem sig := 172
abbrev cc13_sem0_0 : DmaSem sig := 173
abbrev cc13_sem0_1 : DmaSem sig := 174
abbrev cc13_sem1_0 : DmaSem sig := 175
abbrev cc13_sem2_0 : DmaSem sig := 176
abbrev cc13_sem3_0 : DmaSem sig := 177
abbrev cc13_sem4_0 : DmaSem sig := 178
abbrev cc13_sem5_0 : DmaSem sig := 179
abbrev cc13_sem5_1 : DmaSem sig := 180
abbrev cc14_sem0_0 : DmaSem sig := 181
abbrev cc14_sem0_1 : DmaSem sig := 182
abbrev cc14_sem1_0 : DmaSem sig := 183
abbrev cc14_sem1_1 : DmaSem sig := 184
abbrev cc14_sem2_0 : DmaSem sig := 185
abbrev cc14_sem2_1 : DmaSem sig := 186
abbrev cc15_sem0_0 : DmaSem sig := 187
abbrev cc15_sem0_1 : DmaSem sig := 188
abbrev cc15_sem1_0 : DmaSem sig := 189
abbrev cc15_sem1_1 : DmaSem sig := 190
abbrev cc15_sem2_0 : DmaSem sig := 191
abbrev cc15_sem2_1 : DmaSem sig := 192
abbrev cc16_sem0_0 : DmaSem sig := 193
abbrev cc16_sem0_1 : DmaSem sig := 194
abbrev cc16_sem1_0 : DmaSem sig := 195
abbrev cc16_sem1_1 : DmaSem sig := 196
abbrev cc16_sem2_0 : DmaSem sig := 197
abbrev cc16_sem2_1 : DmaSem sig := 198
abbrev cc17_sem0_0 : DmaSem sig := 199
abbrev cc17_sem1_0 : DmaSem sig := 200
abbrev cc17_sem2_0 : DmaSem sig := 201
abbrev cc17_sem3_0 : DmaSem sig := 202
abbrev cc17_sem4_0 : DmaSem sig := 203
abbrev cc17_sem5_0 : DmaSem sig := 204
abbrev cc17_sem6_0 : DmaSem sig := 205
abbrev cc18_sem0_0 : DmaSem sig := 206
abbrev cc18_sem1_0 : DmaSem sig := 207
abbrev cc18_sem2_0 : DmaSem sig := 208
abbrev cc18_sem3_0 : DmaSem sig := 209
abbrev cc18_sem4_0 : DmaSem sig := 210
abbrev cc18_sem5_0 : DmaSem sig := 211
abbrev cc18_sem6_0 : DmaSem sig := 212
abbrev cc18_sem7_0 : DmaSem sig := 213
abbrev cc18_sem8_0 : DmaSem sig := 214
abbrev cc18_sem9_0 : DmaSem sig := 215
abbrev cc19_sem0_0 : DmaSem sig := 216
abbrev cc19_sem1_0 : DmaSem sig := 217
abbrev cc19_sem2_0 : DmaSem sig := 218
abbrev cc19_sem3_0 : DmaSem sig := 219
abbrev cc19_sem4_0 : DmaSem sig := 220
abbrev cc19_sem5_0 : DmaSem sig := 221
abbrev cc19_sem6_0 : DmaSem sig := 222
abbrev cc20_sem0_0 : DmaSem sig := 223
abbrev cc20_sem1_0 : DmaSem sig := 224
abbrev cc20_sem2_0 : DmaSem sig := 225
abbrev cc20_sem3_0 : DmaSem sig := 226
abbrev cc20_sem4_0 : DmaSem sig := 227
abbrev cc20_sem5_0 : DmaSem sig := 228
abbrev cc20_sem6_0 : DmaSem sig := 229
abbrev cc20_sem7_0 : DmaSem sig := 230
abbrev cc20_sem8_0 : DmaSem sig := 231
abbrev cc20_sem9_0 : DmaSem sig := 232
abbrev cc21_sem0_0 : DmaSem sig := 233
abbrev cc21_sem1_0 : DmaSem sig := 234
abbrev cc21_sem2_0 : DmaSem sig := 235
abbrev cc21_sem3_0 : DmaSem sig := 236
abbrev cc21_sem4_0 : DmaSem sig := 237
abbrev cc21_sem5_0 : DmaSem sig := 238
abbrev cc21_sem6_0 : DmaSem sig := 239
abbrev cc22_sem0_0 : DmaSem sig := 240
abbrev cc22_sem1_0 : DmaSem sig := 241
abbrev cc22_sem2_0 : DmaSem sig := 242
abbrev cc22_sem3_0 : DmaSem sig := 243
abbrev cc22_sem4_0 : DmaSem sig := 244
abbrev cc22_sem5_0 : DmaSem sig := 245
abbrev cc22_sem6_0 : DmaSem sig := 246
abbrev cc22_sem7_0 : DmaSem sig := 247
abbrev cc22_sem8_0 : DmaSem sig := 248
abbrev cc22_sem9_0 : DmaSem sig := 249
abbrev cc23_sem0_0 : DmaSem sig := 250
abbrev cc23_sem1_0 : DmaSem sig := 251
abbrev cc23_sem2_0 : DmaSem sig := 252
abbrev cc23_sem3_0 : DmaSem sig := 253
abbrev cc23_sem4_0 : DmaSem sig := 254
abbrev cc23_sem5_0 : DmaSem sig := 255
abbrev cc23_sem6_0 : DmaSem sig := 256
abbrev cc23_sem7_0 : DmaSem sig := 257
abbrev cc23_sem8_0 : DmaSem sig := 258
abbrev cc23_sem9_0 : DmaSem sig := 259
abbrev cc23_sem10_0 : DmaSem sig := 260
abbrev cc23_sem11_0 : DmaSem sig := 261
abbrev cc23_sem12_0 : DmaSem sig := 262
abbrev cc23_sem13_0 : DmaSem sig := 263
abbrev cc23_sem14_0 : DmaSem sig := 264
abbrev cc23_sem15_0 : DmaSem sig := 265
abbrev cc23_sem16_0 : DmaSem sig := 266
abbrev cc23_sem17_0 : DmaSem sig := 267
abbrev cc23_sem18_0 : DmaSem sig := 268
abbrev cc23_sem19_0 : DmaSem sig := 269
abbrev cc23_sem20_0 : DmaSem sig := 270
abbrev cc23_sem21_0 : DmaSem sig := 271
abbrev cc24_sem0_0 : DmaSem sig := 272
abbrev cc24_sem1_0 : DmaSem sig := 273
abbrev cc24_sem2_0 : DmaSem sig := 274
abbrev cc24_sem3_0 : DmaSem sig := 275
abbrev cc24_sem4_0 : DmaSem sig := 276
abbrev cc24_sem5_0 : DmaSem sig := 277

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4096x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1x1x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_14 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_15 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4096x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x128 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x128 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S4096x128 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev stage6_14 : Fin 2 → Memref sig .tc .vmem S1x1x128 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev stage6_15 : Fin 2 → Memref sig .tc .vmem S1x1x128 .f32 := fun | 0 => Memref.whole cc6_stg15_0 | 1 => Memref.whole cc6_stg15_1 | ⟨_ + 2, h⟩ => absurd h (Nat.not_lt.2 (Nat.le_add_left _ _))
abbrev sem6_15 : Fin 2 → DmaSem sig := fun | 0 => cc6_sem15_0 | 1 => cc6_sem15_1 | ⟨_ + 2, h⟩ => absurd h (Nat.not_lt.2 (Nat.le_add_left _ _))
abbrev reads6_15 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4096x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4096x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4096x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1x1x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x1x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_9 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S4096x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S4096x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S1x1x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S1x1x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![64], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_7 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S4096x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4096x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4096x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S4096x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S1x1x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S1x1x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![64], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_9 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S4096x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S4096x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S1x1x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S1x1x128 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev grid12 : Pipeline.Grid := ⟨1, ![64], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_10 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_11 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_12 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_13 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_14 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_15 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S4096x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S4096x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 1 → Memref sig .tc .vmem S128x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S1x128 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S1x128 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

abbrev stage12_11 : Fin 1 → Memref sig .tc .vmem S1x128 .f32 := fun | 0 => Memref.whole cc12_stg11_0 | ⟨_ + 1, h⟩ => absurd h (Nat.not_lt.2 (Nat.le_add_left _ _))
abbrev sem12_11 : Fin 1 → DmaSem sig := fun | 0 => cc12_sem11_0 | ⟨_ + 1, h⟩ => absurd h (Nat.not_lt.2 (Nat.le_add_left _ _))
abbrev reads12_11 : Fin grid12.rank → Bool := ![false]

abbrev stage12_12 : Fin 1 → Memref sig .tc .vmem S1x128 .f32 := fun | 0 => Memref.whole cc12_stg12_0 | ⟨_ + 1, h⟩ => absurd h (Nat.not_lt.2 (Nat.le_add_left _ _))
abbrev sem12_12 : Fin 1 → DmaSem sig := fun | 0 => cc12_sem12_0 | ⟨_ + 1, h⟩ => absurd h (Nat.not_lt.2 (Nat.le_add_left _ _))
abbrev reads12_12 : Fin grid12.rank → Bool := ![false]

abbrev stage12_13 : Fin 2 → Memref sig .tc .vmem S4096x128 .f32 := fun | 0 => Memref.whole cc12_stg13_0 | 1 => Memref.whole cc12_stg13_1 | ⟨_ + 2, h⟩ => absurd h (Nat.not_lt.2 (Nat.le_add_left _ _))
abbrev sem12_13 : Fin 2 → DmaSem sig := fun | 0 => cc12_sem13_0 | 1 => cc12_sem13_1 | ⟨_ + 2, h⟩ => absurd h (Nat.not_lt.2 (Nat.le_add_left _ _))
abbrev reads12_13 : Fin grid12.rank → Bool := ![true]

abbrev stage12_14 : Fin 2 → Memref sig .tc .vmem S1x1x128 .f32 := fun | 0 => Memref.whole cc12_stg14_0 | 1 => Memref.whole cc12_stg14_1 | ⟨_ + 2, h⟩ => absurd h (Nat.not_lt.2 (Nat.le_add_left _ _))
abbrev sem12_14 : Fin 2 → DmaSem sig := fun | 0 => cc12_sem14_0 | 1 => cc12_sem14_1 | ⟨_ + 2, h⟩ => absurd h (Nat.not_lt.2 (Nat.le_add_left _ _))
abbrev reads12_14 : Fin grid12.rank → Bool := ![true]

abbrev stage12_15 : Fin 2 → Memref sig .tc .vmem S1x1x128 .f32 := fun | 0 => Memref.whole cc12_stg15_0 | 1 => Memref.whole cc12_stg15_1 | ⟨_ + 2, h⟩ => absurd h (Nat.not_lt.2 (Nat.le_add_left _ _))
abbrev sem12_15 : Fin 2 → DmaSem sig := fun | 0 => cc12_sem15_0 | 1 => cc12_sem15_1 | ⟨_ + 2, h⟩ => absurd h (Nat.not_lt.2 (Nat.le_add_left _ _))
abbrev reads12_15 : Fin grid12.rank → Bool := ![true]

abbrev grid13 : Pipeline.Grid := ⟨1, ![64], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S4096x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![8], ![false]⟩

def cc14_transform_0 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_1 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_2 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S8x64x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S8x64x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S8x64x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![8], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S8x64x8 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8x8x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S8x64x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![8], ![false]⟩

def cc16_transform_0 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_2 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S8x64x256 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S8x256x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S8x64x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc17_transform_6 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage17_0 : Fin 1 → Memref sig .tc .vmem S4096x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S4096x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![true]

abbrev stage17_2 : Fin 1 → Memref sig .tc .vmem S128x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S4096x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![true]

abbrev stage17_5 : Fin 1 → Memref sig .tc .vmem S1x1x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![true]

abbrev stage17_6 : Fin 1 → Memref sig .tc .vmem S1x1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_7 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_8 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc18_transform_9 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage18_0 : Fin 1 → Memref sig .tc .vmem S4096x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S128x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S1x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S1x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 1 → Memref sig .tc .vmem S4096x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![true]

abbrev stage18_8 : Fin 1 → Memref sig .tc .vmem S1x1x128 .f32 := fun | 0 => Memref.whole cc18_stg8_0 | ⟨_ + 1, h⟩ => absurd h (Nat.not_lt.2 (Nat.le_add_left _ _))
abbrev sem18_8 : Fin 1 → DmaSem sig := fun | 0 => cc18_sem8_0 | ⟨_ + 1, h⟩ => absurd h (Nat.not_lt.2 (Nat.le_add_left _ _))
abbrev reads18_8 : Fin grid18.rank → Bool := ![true]

abbrev stage18_9 : Fin 1 → Memref sig .tc .vmem S1x1x128 .f32 := fun | 0 => Memref.whole cc18_stg9_0 | ⟨_ + 1, h⟩ => absurd h (Nat.not_lt.2 (Nat.le_add_left _ _))
abbrev sem18_9 : Fin 1 → DmaSem sig := fun | 0 => cc18_sem9_0 | ⟨_ + 1, h⟩ => absurd h (Nat.not_lt.2 (Nat.le_add_left _ _))
abbrev reads18_9 : Fin grid18.rank → Bool := ![true]

abbrev grid19 : Pipeline.Grid := ⟨1, ![1], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_5 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc19_transform_6 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage19_0 : Fin 1 → Memref sig .tc .vmem S4096x128 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![true]

abbrev stage19_1 : Fin 1 → Memref sig .tc .vmem S4096x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![true]

abbrev stage19_2 : Fin 1 → Memref sig .tc .vmem S128x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S4096x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![true]

abbrev stage19_5 : Fin 1 → Memref sig .tc .vmem S1x1x128 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![true]

abbrev stage19_6 : Fin 1 → Memref sig .tc .vmem S1x1x128 .f32 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))
abbrev reads19_6 : Fin grid19.rank → Bool := ![true]

abbrev grid20 : Pipeline.Grid := ⟨1, ![1], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_7 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_8 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc20_transform_9 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage20_0 : Fin 1 → Memref sig .tc .vmem S4096x128 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))
abbrev reads20_0 : Fin grid20.rank → Bool := ![true]

abbrev stage20_1 : Fin 1 → Memref sig .tc .vmem S128x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x128 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 1 → Memref sig .tc .vmem S1x128 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))
abbrev reads20_6 : Fin grid20.rank → Bool := ![false]

abbrev stage20_7 : Fin 1 → Memref sig .tc .vmem S4096x128 .f32 := fun | 0 => Memref.whole cc20_stg7_0 | ⟨_ + 1, h⟩ => absurd h (Nat.not_lt.2 (Nat.le_add_left _ _))
abbrev sem20_7 : Fin 1 → DmaSem sig := fun | 0 => cc20_sem7_0 | ⟨_ + 1, h⟩ => absurd h (Nat.not_lt.2 (Nat.le_add_left _ _))
abbrev reads20_7 : Fin grid20.rank → Bool := ![true]

abbrev stage20_8 : Fin 1 → Memref sig .tc .vmem S1x1x128 .f32 := fun | 0 => Memref.whole cc20_stg8_0 | ⟨_ + 1, h⟩ => absurd h (Nat.not_lt.2 (Nat.le_add_left _ _))
abbrev sem20_8 : Fin 1 → DmaSem sig := fun | 0 => cc20_sem8_0 | ⟨_ + 1, h⟩ => absurd h (Nat.not_lt.2 (Nat.le_add_left _ _))
abbrev reads20_8 : Fin grid20.rank → Bool := ![true]

abbrev stage20_9 : Fin 1 → Memref sig .tc .vmem S1x1x128 .f32 := fun | 0 => Memref.whole cc20_stg9_0 | ⟨_ + 1, h⟩ => absurd h (Nat.not_lt.2 (Nat.le_add_left _ _))
abbrev sem20_9 : Fin 1 → DmaSem sig := fun | 0 => cc20_sem9_0 | ⟨_ + 1, h⟩ => absurd h (Nat.not_lt.2 (Nat.le_add_left _ _))
abbrev reads20_9 : Fin grid20.rank → Bool := ![true]

abbrev grid21 : Pipeline.Grid := ⟨1, ![1], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_5 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc21_transform_6 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage21_0 : Fin 1 → Memref sig .tc .vmem S4096x128 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))
abbrev reads21_0 : Fin grid21.rank → Bool := ![true]

abbrev stage21_1 : Fin 1 → Memref sig .tc .vmem S4096x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![true]

abbrev stage21_2 : Fin 1 → Memref sig .tc .vmem S128x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S4096x128 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![true]

abbrev stage21_5 : Fin 1 → Memref sig .tc .vmem S1x1x128 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![true]

abbrev stage21_6 : Fin 1 → Memref sig .tc .vmem S1x1x128 .f32 := fun | 0 => Memref.whole cc21_stg6_0 | ⟨_ + 1, h⟩ => absurd h (Nat.not_lt.2 (Nat.le_add_left _ _))
abbrev sem21_6 : Fin 1 → DmaSem sig := fun | 0 => cc21_sem6_0 | ⟨_ + 1, h⟩ => absurd h (Nat.not_lt.2 (Nat.le_add_left _ _))
abbrev reads21_6 : Fin grid21.rank → Bool := ![true]

abbrev grid22 : Pipeline.Grid := ⟨1, ![1], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_7 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_8 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc22_transform_9 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage22_0 : Fin 1 → Memref sig .tc .vmem S4096x128 .f32 := fun | 0 => Memref.whole cc22_stg0_0 | ⟨_ + 1, h⟩ => absurd h (Nat.not_lt.2 (Nat.le_add_left _ _))
abbrev sem22_0 : Fin 1 → DmaSem sig := fun | 0 => cc22_sem0_0 | ⟨_ + 1, h⟩ => absurd h (Nat.not_lt.2 (Nat.le_add_left _ _))
abbrev reads22_0 : Fin grid22.rank → Bool := ![true]

abbrev stage22_1 : Fin 1 → Memref sig .tc .vmem S128x128 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S1x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x128 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S1x128 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 1 → Memref sig .tc .vmem S1x128 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))
abbrev reads22_6 : Fin grid22.rank → Bool := ![false]

abbrev stage22_7 : Fin 1 → Memref sig .tc .vmem S4096x128 .f32 := fun | 0 => Memref.whole cc22_stg7_0 | ⟨_ + 1, h⟩ => absurd h (Nat.not_lt.2 (Nat.le_add_left _ _))
abbrev sem22_7 : Fin 1 → DmaSem sig := fun | 0 => cc22_sem7_0 | ⟨_ + 1, h⟩ => absurd h (Nat.not_lt.2 (Nat.le_add_left _ _))
abbrev reads22_7 : Fin grid22.rank → Bool := ![true]

abbrev stage22_8 : Fin 1 → Memref sig .tc .vmem S1x1x128 .f32 := fun | 0 => Memref.whole cc22_stg8_0 | ⟨_ + 1, h⟩ => absurd h (Nat.not_lt.2 (Nat.le_add_left _ _))
abbrev sem22_8 : Fin 1 → DmaSem sig := fun | 0 => cc22_sem8_0 | ⟨_ + 1, h⟩ => absurd h (Nat.not_lt.2 (Nat.le_add_left _ _))
abbrev reads22_8 : Fin grid22.rank → Bool := ![true]

abbrev stage22_9 : Fin 1 → Memref sig .tc .vmem S1x1x128 .f32 := fun | 0 => Memref.whole cc22_stg9_0 | ⟨_ + 1, h⟩ => absurd h (Nat.not_lt.2 (Nat.le_add_left _ _))
abbrev sem22_9 : Fin 1 → DmaSem sig := fun | 0 => cc22_sem9_0 | ⟨_ + 1, h⟩ => absurd h (Nat.not_lt.2 (Nat.le_add_left _ _))
abbrev reads22_9 : Fin grid22.rank → Bool := ![true]

abbrev grid23 : Pipeline.Grid := ⟨1, ![1], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_6 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_7 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_8 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_9 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_10 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_11 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_12 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_13 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_14 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_15 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_16 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_17 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_18 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_19 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_20 (i : grid23.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc23_transform_21 (i : grid23.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage23_0 : Fin 1 → Memref sig .tc .vmem S4096x128 .f32 := fun | 0 => Memref.whole cc23_stg0_0 | ⟨_ + 1, h⟩ => absurd h (Nat.not_lt.2 (Nat.le_add_left _ _))
abbrev sem23_0 : Fin 1 → DmaSem sig := fun | 0 => cc23_sem0_0 | ⟨_ + 1, h⟩ => absurd h (Nat.not_lt.2 (Nat.le_add_left _ _))
abbrev reads23_0 : Fin grid23.rank → Bool := ![true]

abbrev stage23_1 : Fin 1 → Memref sig .tc .vmem S128x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S1x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x128 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 1 → Memref sig .tc .vmem S1x128 .f32 := fun | 0 => Memref.whole cc23_stg5_0 | ⟨_ + 1, h⟩ => absurd h (Nat.not_lt.2 (Nat.le_add_left _ _))
abbrev sem23_5 : Fin 1 → DmaSem sig := fun | 0 => cc23_sem5_0 | ⟨_ + 1, h⟩ => absurd h (Nat.not_lt.2 (Nat.le_add_left _ _))
abbrev reads23_5 : Fin grid23.rank → Bool := ![false]

abbrev stage23_6 : Fin 1 → Memref sig .tc .vmem S4096x128 .f32 := fun | 0 => Memref.whole cc23_stg6_0 | ⟨_ + 1, h⟩ => absurd h (Nat.not_lt.2 (Nat.le_add_left _ _))
abbrev sem23_6 : Fin 1 → DmaSem sig := fun | 0 => cc23_sem6_0 | ⟨_ + 1, h⟩ => absurd h (Nat.not_lt.2 (Nat.le_add_left _ _))
abbrev reads23_6 : Fin grid23.rank → Bool := ![true]

abbrev stage23_7 : Fin 1 → Memref sig .tc .vmem S128x128 .f32 := fun | 0 => Memref.whole cc23_stg7_0 | ⟨_ + 1, h⟩ => absurd h (Nat.not_lt.2 (Nat.le_add_left _ _))
abbrev sem23_7 : Fin 1 → DmaSem sig := fun | 0 => cc23_sem7_0 | ⟨_ + 1, h⟩ => absurd h (Nat.not_lt.2 (Nat.le_add_left _ _))
abbrev reads23_7 : Fin grid23.rank → Bool := ![false]

abbrev stage23_8 : Fin 1 → Memref sig .tc .vmem S1x128 .f32 := fun | 0 => Memref.whole cc23_stg8_0 | ⟨_ + 1, h⟩ => absurd h (Nat.not_lt.2 (Nat.le_add_left _ _))
abbrev sem23_8 : Fin 1 → DmaSem sig := fun | 0 => cc23_sem8_0 | ⟨_ + 1, h⟩ => absurd h (Nat.not_lt.2 (Nat.le_add_left _ _))
abbrev reads23_8 : Fin grid23.rank → Bool := ![false]

abbrev stage23_9 : Fin 1 → Memref sig .tc .vmem S1x128 .f32 := fun | 0 => Memref.whole cc23_stg9_0 | ⟨_ + 1, h⟩ => absurd h (Nat.not_lt.2 (Nat.le_add_left _ _))
abbrev sem23_9 : Fin 1 → DmaSem sig := fun | 0 => cc23_sem9_0 | ⟨_ + 1, h⟩ => absurd h (Nat.not_lt.2 (Nat.le_add_left _ _))
abbrev reads23_9 : Fin grid23.rank → Bool := ![false]

abbrev stage23_10 : Fin 1 → Memref sig .tc .vmem S1x128 .f32 := fun | 0 => Memref.whole cc23_stg10_0 | ⟨_ + 1, h⟩ => absurd h (Nat.not_lt.2 (Nat.le_add_left _ _))
abbrev sem23_10 : Fin 1 → DmaSem sig := fun | 0 => cc23_sem10_0 | ⟨_ + 1, h⟩ => absurd h (Nat.not_lt.2 (Nat.le_add_left _ _))
abbrev reads23_10 : Fin grid23.rank → Bool := ![false]

abbrev stage23_11 : Fin 1 → Memref sig .tc .vmem S1x128 .f32 := fun | 0 => Memref.whole cc23_stg11_0 | ⟨_ + 1, h⟩ => absurd h (Nat.not_lt.2 (Nat.le_add_left _ _))
abbrev sem23_11 : Fin 1 → DmaSem sig := fun | 0 => cc23_sem11_0 | ⟨_ + 1, h⟩ => absurd h (Nat.not_lt.2 (Nat.le_add_left _ _))
abbrev reads23_11 : Fin grid23.rank → Bool := ![false]

abbrev stage23_12 : Fin 1 → Memref sig .tc .vmem S4096x128 .f32 := fun | 0 => Memref.whole cc23_stg12_0 | ⟨_ + 1, h⟩ => absurd h (Nat.not_lt.2 (Nat.le_add_left _ _))
abbrev sem23_12 : Fin 1 → DmaSem sig := fun | 0 => cc23_sem12_0 | ⟨_ + 1, h⟩ => absurd h (Nat.not_lt.2 (Nat.le_add_left _ _))
abbrev reads23_12 : Fin grid23.rank → Bool := ![true]

abbrev stage23_13 : Fin 1 → Memref sig .tc .vmem S128x128 .f32 := fun | 0 => Memref.whole cc23_stg13_0 | ⟨_ + 1, h⟩ => absurd h (Nat.not_lt.2 (Nat.le_add_left _ _))
abbrev sem23_13 : Fin 1 → DmaSem sig := fun | 0 => cc23_sem13_0 | ⟨_ + 1, h⟩ => absurd h (Nat.not_lt.2 (Nat.le_add_left _ _))
abbrev reads23_13 : Fin grid23.rank → Bool := ![false]

abbrev stage23_14 : Fin 1 → Memref sig .tc .vmem S1x128 .f32 := fun | 0 => Memref.whole cc23_stg14_0 | ⟨_ + 1, h⟩ => absurd h (Nat.not_lt.2 (Nat.le_add_left _ _))
abbrev sem23_14 : Fin 1 → DmaSem sig := fun | 0 => cc23_sem14_0 | ⟨_ + 1, h⟩ => absurd h (Nat.not_lt.2 (Nat.le_add_left _ _))
abbrev reads23_14 : Fin grid23.rank → Bool := ![false]

abbrev stage23_15 : Fin 1 → Memref sig .tc .vmem S1x128 .f32 := fun | 0 => Memref.whole cc23_stg15_0 | ⟨_ + 1, h⟩ => absurd h (Nat.not_lt.2 (Nat.le_add_left _ _))
abbrev sem23_15 : Fin 1 → DmaSem sig := fun | 0 => cc23_sem15_0 | ⟨_ + 1, h⟩ => absurd h (Nat.not_lt.2 (Nat.le_add_left _ _))
abbrev reads23_15 : Fin grid23.rank → Bool := ![false]

abbrev stage23_16 : Fin 1 → Memref sig .tc .vmem S1x128 .f32 := fun | 0 => Memref.whole cc23_stg16_0 | ⟨_ + 1, h⟩ => absurd h (Nat.not_lt.2 (Nat.le_add_left _ _))
abbrev sem23_16 : Fin 1 → DmaSem sig := fun | 0 => cc23_sem16_0 | ⟨_ + 1, h⟩ => absurd h (Nat.not_lt.2 (Nat.le_add_left _ _))
abbrev reads23_16 : Fin grid23.rank → Bool := ![false]

abbrev stage23_17 : Fin 1 → Memref sig .tc .vmem S1x128 .f32 := fun | 0 => Memref.whole cc23_stg17_0 | ⟨_ + 1, h⟩ => absurd h (Nat.not_lt.2 (Nat.le_add_left _ _))
abbrev sem23_17 : Fin 1 → DmaSem sig := fun | 0 => cc23_sem17_0 | ⟨_ + 1, h⟩ => absurd h (Nat.not_lt.2 (Nat.le_add_left _ _))
abbrev reads23_17 : Fin grid23.rank → Bool := ![false]

abbrev stage23_18 : Fin 1 → Memref sig .tc .vmem S1x128 .f32 := fun | 0 => Memref.whole cc23_stg18_0 | ⟨_ + 1, h⟩ => absurd h (Nat.not_lt.2 (Nat.le_add_left _ _))
abbrev sem23_18 : Fin 1 → DmaSem sig := fun | 0 => cc23_sem18_0 | ⟨_ + 1, h⟩ => absurd h (Nat.not_lt.2 (Nat.le_add_left _ _))
abbrev reads23_18 : Fin grid23.rank → Bool := ![false]

abbrev stage23_19 : Fin 1 → Memref sig .tc .vmem S4096x128 .f32 := fun | 0 => Memref.whole cc23_stg19_0 | ⟨_ + 1, h⟩ => absurd h (Nat.not_lt.2 (Nat.le_add_left _ _))
abbrev sem23_19 : Fin 1 → DmaSem sig := fun | 0 => cc23_sem19_0 | ⟨_ + 1, h⟩ => absurd h (Nat.not_lt.2 (Nat.le_add_left _ _))
abbrev reads23_19 : Fin grid23.rank → Bool := ![true]

abbrev stage23_20 : Fin 1 → Memref sig .tc .vmem S1x1x128 .f32 := fun | 0 => Memref.whole cc23_stg20_0 | ⟨_ + 1, h⟩ => absurd h (Nat.not_lt.2 (Nat.le_add_left _ _))
abbrev sem23_20 : Fin 1 → DmaSem sig := fun | 0 => cc23_sem20_0 | ⟨_ + 1, h⟩ => absurd h (Nat.not_lt.2 (Nat.le_add_left _ _))
abbrev reads23_20 : Fin grid23.rank → Bool := ![true]

abbrev stage23_21 : Fin 1 → Memref sig .tc .vmem S1x1x128 .f32 := fun | 0 => Memref.whole cc23_stg21_0 | ⟨_ + 1, h⟩ => absurd h (Nat.not_lt.2 (Nat.le_add_left _ _))
abbrev sem23_21 : Fin 1 → DmaSem sig := fun | 0 => cc23_sem21_0 | ⟨_ + 1, h⟩ => absurd h (Nat.not_lt.2 (Nat.le_add_left _ _))
abbrev reads23_21 : Fin grid23.rank → Bool := ![true]

abbrev grid24 : Pipeline.Grid := ⟨1, ![1], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_5 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 1 → Memref sig .tc .vmem S4096x128 .f32 := fun | 0 => Memref.whole cc24_stg0_0 | ⟨_ + 1, h⟩ => absurd h (Nat.not_lt.2 (Nat.le_add_left _ _))
abbrev sem24_0 : Fin 1 → DmaSem sig := fun | 0 => cc24_sem0_0 | ⟨_ + 1, h⟩ => absurd h (Nat.not_lt.2 (Nat.le_add_left _ _))
abbrev reads24_0 : Fin grid24.rank → Bool := ![true]

abbrev stage24_1 : Fin 1 → Memref sig .tc .vmem S1x128 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S1x128 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 1 → Memref sig .tc .vmem S1x128 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S1x128 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 1 → Memref sig .tc .vmem S4096x128 .f32 := fun | 0 => Memref.whole cc24_stg5_0 | ⟨_ + 1, h⟩ => absurd h (Nat.not_lt.2 (Nat.le_add_left _ _))
abbrev sem24_5 : Fin 1 → DmaSem sig := fun | 0 => cc24_sem5_0 | ⟨_ + 1, h⟩ => absurd h (Nat.not_lt.2 (Nat.le_add_left _ _))
abbrev reads24_5 : Fin grid24.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x64.size a ≤ S64x256x64.size a
  hwx0_0 : ∀ i : grid0.Coords, EltTy.bits .f32 = 32 ∨ (Rect.block (s := S64x256x64) S8x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x128.size a ≤ S64x64x128.size a
  hwx0_1 : ∀ i : grid0.Coords, EltTy.bits .f32 = 32 ∨ (Rect.block (s := S64x64x128) S8x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x128.size a ≤ S64x256x128.size a
  hwx0_2 : ∀ i : grid0.Coords, EltTy.bits .f32 = 32 ∨ (Rect.block (s := S64x256x128) S8x256x128.size (cc0_transform_2 i) (hinb0_2 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S262144x128.size a
  hwx1_1 : ∀ i : grid1.Coords, EltTy.bits .f32 = 32 ∨ (Rect.block (s := S262144x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S262144x128.size a
  hwx1_5 : ∀ i : grid1.Coords, EltTy.bits .f32 = 32 ∨ (Rect.block (s := S262144x128) S4096x128.size (cc1_transform_5 i) (hinb1_5 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S16384x128.size a
  hwx2_0 : ∀ i : grid2.Coords, EltTy.bits .f32 = 32 ∨ (Rect.block (s := S16384x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S16384x128.size a
  hwx2_1 : ∀ i : grid2.Coords, EltTy.bits .f32 = 32 ∨ (Rect.block (s := S16384x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S16384x128.size a
  hwx2_4 : ∀ i : grid2.Coords, EltTy.bits .f32 = 32 ∨ (Rect.block (s := S16384x128) S4096x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S4x1x128.size a
  hwx2_5 : ∀ i : grid2.Coords, EltTy.bits .f32 = 32 ∨ (Rect.block (s := S4x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S4x1x128.size a
  hwx2_6 : ∀ i : grid2.Coords, EltTy.bits .f32 = 32 ∨ (Rect.block (s := S4x1x128) S1x1x128.size (cc2_transform_6 i) (hinb2_6 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S16384x128.size a
  hwx3_0 : ∀ i : grid3.Coords, EltTy.bits .f32 = 32 ∨ (Rect.block (s := S16384x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x128.size a ≤ S16384x128.size a
  hwx3_7 : ∀ i : grid3.Coords, EltTy.bits .f32 = 32 ∨ (Rect.block (s := S16384x128) S4096x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x128.size a ≤ S4x1x128.size a
  hwx3_8 : ∀ i : grid3.Coords, EltTy.bits .f32 = 32 ∨ (Rect.block (s := S4x1x128) S1x1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1x128.size a ≤ S4x1x128.size a
  hwx3_9 : ∀ i : grid3.Coords, EltTy.bits .f32 = 32 ∨ (Rect.block (s := S4x1x128) S1x1x128.size (cc3_transform_9 i) (hinb3_9 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S16384x128.size a
  hwx4_0 : ∀ i : grid4.Coords, EltTy.bits .f32 = 32 ∨ (Rect.block (s := S16384x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S16384x128.size a
  hwx4_1 : ∀ i : grid4.Coords, EltTy.bits .f32 = 32 ∨ (Rect.block (s := S16384x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x128.size a ≤ S16384x128.size a
  hwx4_4 : ∀ i : grid4.Coords, EltTy.bits .f32 = 32 ∨ (Rect.block (s := S16384x128) S4096x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x128.size a ≤ S4x1x128.size a
  hwx4_5 : ∀ i : grid4.Coords, EltTy.bits .f32 = 32 ∨ (Rect.block (s := S4x1x128) S1x1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1x128.size a ≤ S4x1x128.size a
  hwx4_6 : ∀ i : grid4.Coords, EltTy.bits .f32 = 32 ∨ (Rect.block (s := S4x1x128) S1x1x128.size (cc4_transform_6 i) (hinb4_6 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S16384x128.size a
  hwx5_0 : ∀ i : grid5.Coords, EltTy.bits .f32 = 32 ∨ (Rect.block (s := S16384x128) S4096x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4096x128.size a ≤ S16384x128.size a
  hwx5_7 : ∀ i : grid5.Coords, EltTy.bits .f32 = 32 ∨ (Rect.block (s := S16384x128) S4096x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x1x128.size a ≤ S4x1x128.size a
  hwx5_8 : ∀ i : grid5.Coords, EltTy.bits .f32 = 32 ∨ (Rect.block (s := S4x1x128) S1x1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1x1x128.size a ≤ S4x1x128.size a
  hwx5_9 : ∀ i : grid5.Coords, EltTy.bits .f32 = 32 ∨ (Rect.block (s := S4x1x128) S1x1x128.size (cc5_transform_9 i) (hinb5_9 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S16384x128.size a
  hwx6_0 : ∀ i : grid6.Coords, EltTy.bits .f32 = 32 ∨ (Rect.block (s := S16384x128) S4096x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4096x128.size a ≤ S16384x128.size a
  hwx6_6 : ∀ i : grid6.Coords, EltTy.bits .f32 = 32 ∨ (Rect.block (s := S16384x128) S4096x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x128.size a ≤ S1x128.size a
  hwx6_11 : ∀ i : grid6.Coords, EltTy.bits .f32 = 32 ∨ (Rect.block (s := S1x128) S1x128.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x128.size a ≤ S1x128.size a
  hwx6_12 : ∀ i : grid6.Coords, EltTy.bits .f32 = 32 ∨ (Rect.block (s := S1x128) S1x128.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S4096x128.size a ≤ S16384x128.size a
  hwx6_13 : ∀ i : grid6.Coords, EltTy.bits .f32 = 32 ∨ (Rect.block (s := S16384x128) S4096x128.size (cc6_transform_13 i) (hinb6_13 i)).WholeWords (EltTy.packing .f32)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S1x1x128.size a ≤ S4x1x128.size a
  hwx6_14 : ∀ i : grid6.Coords, EltTy.bits .f32 = 32 ∨ (Rect.block (s := S4x1x128) S1x1x128.size (cc6_transform_14 i) (hinb6_14 i)).WholeWords (EltTy.packing .f32)
  hstage6_15 : ∀ j, (stage6_15 j).IsWhole
  nbuf6_15 : grid6.bufCount reads6_15 false = 2
  hreads6_15 : ∀ i i' : grid6.Coords, (∀ a, reads6_15 a = true → i a = i' a) → cc6_transform_15 i = cc6_transform_15 i'
  hinb6_15 : ∀ (i : grid6.Coords) a, (cc6_transform_15 i a + 1) * S1x1x128.size a ≤ S4x1x128.size a
  hwx6_15 : ∀ i : grid6.Coords, EltTy.bits .f32 = 32 ∨ (Rect.block (s := S4x1x128) S1x1x128.size (cc6_transform_15 i) (hinb6_15 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S16384x128.size a
  hwx7_0 : ∀ i : grid7.Coords, EltTy.bits .f32 = 32 ∨ (Rect.block (s := S16384x128) S4096x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x128.size a ≤ S16384x128.size a
  hwx7_5 : ∀ i : grid7.Coords, EltTy.bits .f32 = 32 ∨ (Rect.block (s := S16384x128) S4096x128.size (cc7_transform_5 i) (hinb7_5 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S262144x128.size a
  hwx8_0 : ∀ i : grid8.Coords, EltTy.bits .f32 = 32 ∨ (Rect.block (s := S262144x128) S4096x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S262144x128.size a
  hwx8_1 : ∀ i : grid8.Coords, EltTy.bits .f32 = 32 ∨ (Rect.block (s := S262144x128) S4096x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096x128.size a ≤ S262144x128.size a
  hwx8_2 : ∀ i : grid8.Coords, EltTy.bits .f32 = 32 ∨ (Rect.block (s := S262144x128) S4096x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4096x128.size a ≤ S262144x128.size a
  hwx8_5 : ∀ i : grid8.Coords, EltTy.bits .f32 = 32 ∨ (Rect.block (s := S262144x128) S4096x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1x1x128.size a ≤ S64x1x128.size a
  hwx8_6 : ∀ i : grid8.Coords, EltTy.bits .f32 = 32 ∨ (Rect.block (s := S64x1x128) S1x1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S1x1x128.size a ≤ S64x1x128.size a
  hwx8_7 : ∀ i : grid8.Coords, EltTy.bits .f32 = 32 ∨ (Rect.block (s := S64x1x128) S1x1x128.size (cc8_transform_7 i) (hinb8_7 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x128.size a ≤ S262144x128.size a
  hwx9_0 : ∀ i : grid9.Coords, EltTy.bits .f32 = 32 ∨ (Rect.block (s := S262144x128) S4096x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S4096x128.size a ≤ S262144x128.size a
  hwx9_7 : ∀ i : grid9.Coords, EltTy.bits .f32 = 32 ∨ (Rect.block (s := S262144x128) S4096x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S1x1x128.size a ≤ S64x1x128.size a
  hwx9_8 : ∀ i : grid9.Coords, EltTy.bits .f32 = 32 ∨ (Rect.block (s := S64x1x128) S1x1x128.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S1x1x128.size a ≤ S64x1x128.size a
  hwx9_9 : ∀ i : grid9.Coords, EltTy.bits .f32 = 32 ∨ (Rect.block (s := S64x1x128) S1x1x128.size (cc9_transform_9 i) (hinb9_9 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x128.size a ≤ S262144x128.size a
  hwx10_0 : ∀ i : grid10.Coords, EltTy.bits .f32 = 32 ∨ (Rect.block (s := S262144x128) S4096x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x128.size a ≤ S262144x128.size a
  hwx10_1 : ∀ i : grid10.Coords, EltTy.bits .f32 = 32 ∨ (Rect.block (s := S262144x128) S4096x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4096x128.size a ≤ S262144x128.size a
  hwx10_2 : ∀ i : grid10.Coords, EltTy.bits .f32 = 32 ∨ (Rect.block (s := S262144x128) S4096x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S4096x128.size a ≤ S262144x128.size a
  hwx10_5 : ∀ i : grid10.Coords, EltTy.bits .f32 = 32 ∨ (Rect.block (s := S262144x128) S4096x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S1x1x128.size a ≤ S64x1x128.size a
  hwx10_6 : ∀ i : grid10.Coords, EltTy.bits .f32 = 32 ∨ (Rect.block (s := S64x1x128) S1x1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S1x1x128.size a ≤ S64x1x128.size a
  hwx10_7 : ∀ i : grid10.Coords, EltTy.bits .f32 = 32 ∨ (Rect.block (s := S64x1x128) S1x1x128.size (cc10_transform_7 i) (hinb10_7 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x128.size a ≤ S262144x128.size a
  hwx11_0 : ∀ i : grid11.Coords, EltTy.bits .f32 = 32 ∨ (Rect.block (s := S262144x128) S4096x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S4096x128.size a ≤ S262144x128.size a
  hwx11_7 : ∀ i : grid11.Coords, EltTy.bits .f32 = 32 ∨ (Rect.block (s := S262144x128) S4096x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S1x1x128.size a ≤ S64x1x128.size a
  hwx11_8 : ∀ i : grid11.Coords, EltTy.bits .f32 = 32 ∨ (Rect.block (s := S64x1x128) S1x1x128.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S1x1x128.size a ≤ S64x1x128.size a
  hwx11_9 : ∀ i : grid11.Coords, EltTy.bits .f32 = 32 ∨ (Rect.block (s := S64x1x128) S1x1x128.size (cc11_transform_9 i) (hinb11_9 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x128.size a ≤ S262144x128.size a
  hwx12_0 : ∀ i : grid12.Coords, EltTy.bits .f32 = 32 ∨ (Rect.block (s := S262144x128) S4096x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S4096x128.size a ≤ S262144x128.size a
  hwx12_6 : ∀ i : grid12.Coords, EltTy.bits .f32 = 32 ∨ (Rect.block (s := S262144x128) S4096x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S128x128.size a ≤ S128x128.size a
  hwx12_7 : ∀ i : grid12.Coords, EltTy.bits .f32 = 32 ∨ (Rect.block (s := S128x128) S128x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S1x128.size a ≤ S1x128.size a
  hwx12_9 : ∀ i : grid12.Coords, EltTy.bits .f32 = 32 ∨ (Rect.block (s := S1x128) S1x128.size (cc12_transform_9 i) (hinb12_9 i)).WholeWords (EltTy.packing .f32)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S1x128.size a ≤ S1x128.size a
  hwx12_10 : ∀ i : grid12.Coords, EltTy.bits .f32 = 32 ∨ (Rect.block (s := S1x128) S1x128.size (cc12_transform_10 i) (hinb12_10 i)).WholeWords (EltTy.packing .f32)
  hstage12_11 : ∀ j, (stage12_11 j).IsWhole
  nbuf12_11 : grid12.bufCount reads12_11 true = 1
  hreads12_11 : ∀ i i' : grid12.Coords, (∀ a, reads12_11 a = true → i a = i' a) → cc12_transform_11 i = cc12_transform_11 i'
  hinb12_11 : ∀ (i : grid12.Coords) a, (cc12_transform_11 i a + 1) * S1x128.size a ≤ S1x128.size a
  hwx12_11 : ∀ i : grid12.Coords, EltTy.bits .f32 = 32 ∨ (Rect.block (s := S1x128) S1x128.size (cc12_transform_11 i) (hinb12_11 i)).WholeWords (EltTy.packing .f32)
  hstage12_12 : ∀ j, (stage12_12 j).IsWhole
  nbuf12_12 : grid12.bufCount reads12_12 true = 1
  hreads12_12 : ∀ i i' : grid12.Coords, (∀ a, reads12_12 a = true → i a = i' a) → cc12_transform_12 i = cc12_transform_12 i'
  hinb12_12 : ∀ (i : grid12.Coords) a, (cc12_transform_12 i a + 1) * S1x128.size a ≤ S1x128.size a
  hwx12_12 : ∀ i : grid12.Coords, EltTy.bits .f32 = 32 ∨ (Rect.block (s := S1x128) S1x128.size (cc12_transform_12 i) (hinb12_12 i)).WholeWords (EltTy.packing .f32)
  hstage12_13 : ∀ j, (stage12_13 j).IsWhole
  nbuf12_13 : grid12.bufCount reads12_13 false = 2
  hreads12_13 : ∀ i i' : grid12.Coords, (∀ a, reads12_13 a = true → i a = i' a) → cc12_transform_13 i = cc12_transform_13 i'
  hinb12_13 : ∀ (i : grid12.Coords) a, (cc12_transform_13 i a + 1) * S4096x128.size a ≤ S262144x128.size a
  hwx12_13 : ∀ i : grid12.Coords, EltTy.bits .f32 = 32 ∨ (Rect.block (s := S262144x128) S4096x128.size (cc12_transform_13 i) (hinb12_13 i)).WholeWords (EltTy.packing .f32)
  hstage12_14 : ∀ j, (stage12_14 j).IsWhole
  nbuf12_14 : grid12.bufCount reads12_14 false = 2
  hreads12_14 : ∀ i i' : grid12.Coords, (∀ a, reads12_14 a = true → i a = i' a) → cc12_transform_14 i = cc12_transform_14 i'
  hinb12_14 : ∀ (i : grid12.Coords) a, (cc12_transform_14 i a + 1) * S1x1x128.size a ≤ S64x1x128.size a
  hwx12_14 : ∀ i : grid12.Coords, EltTy.bits .f32 = 32 ∨ (Rect.block (s := S64x1x128) S1x1x128.size (cc12_transform_14 i) (hinb12_14 i)).WholeWords (EltTy.packing .f32)
  hstage12_15 : ∀ j, (stage12_15 j).IsWhole
  nbuf12_15 : grid12.bufCount reads12_15 false = 2
  hreads12_15 : ∀ i i' : grid12.Coords, (∀ a, reads12_15 a = true → i a = i' a) → cc12_transform_15 i = cc12_transform_15 i'
  hinb12_15 : ∀ (i : grid12.Coords) a, (cc12_transform_15 i a + 1) * S1x1x128.size a ≤ S64x1x128.size a
  hwx12_15 : ∀ i : grid12.Coords, EltTy.bits .f32 = 32 ∨ (Rect.block (s := S64x1x128) S1x1x128.size (cc12_transform_15 i) (hinb12_15 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x128.size a ≤ S262144x128.size a
  hwx13_0 : ∀ i : grid13.Coords, EltTy.bits .f32 = 32 ∨ (Rect.block (s := S262144x128) S4096x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S4096x128.size a ≤ S262144x128.size a
  hwx13_5 : ∀ i : grid13.Coords, EltTy.bits .f32 = 32 ∨ (Rect.block (s := S262144x128) S4096x128.size (cc13_transform_5 i) (hinb13_5 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8x64x64.size a ≤ S64x64x64.size a
  hwx14_0 : ∀ i : grid14.Coords, EltTy.bits .f32 = 32 ∨ (Rect.block (s := S64x64x64) S8x64x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S8x64x128.size a ≤ S64x64x128.size a
  hwx14_1 : ∀ i : grid14.Coords, EltTy.bits .f32 = 32 ∨ (Rect.block (s := S64x64x128) S8x64x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S8x64x128.size a ≤ S64x64x128.size a
  hwx14_2 : ∀ i : grid14.Coords, EltTy.bits .f32 = 32 ∨ (Rect.block (s := S64x64x128) S8x64x128.size (cc14_transform_2 i) (hinb14_2 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8x64x8.size a ≤ S64x64x8.size a
  hwx15_0 : ∀ i : grid15.Coords, EltTy.bits .f32 = 32 ∨ (Rect.block (s := S64x64x8) S8x64x8.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8x8x128.size a ≤ S64x8x128.size a
  hwx15_1 : ∀ i : grid15.Coords, EltTy.bits .f32 = 32 ∨ (Rect.block (s := S64x8x128) S8x8x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8x64x128.size a ≤ S64x64x128.size a
  hwx15_2 : ∀ i : grid15.Coords, EltTy.bits .f32 = 32 ∨ (Rect.block (s := S64x64x128) S8x64x128.size (cc15_transform_2 i) (hinb15_2 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8x64x256.size a ≤ S64x64x256.size a
  hwx16_0 : ∀ i : grid16.Coords, EltTy.bits .f32 = 32 ∨ (Rect.block (s := S64x64x256) S8x64x256.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S8x256x128.size a ≤ S64x256x128.size a
  hwx16_1 : ∀ i : grid16.Coords, EltTy.bits .f32 = 32 ∨ (Rect.block (s := S64x256x128) S8x256x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S8x64x128.size a ≤ S64x64x128.size a
  hwx16_2 : ∀ i : grid16.Coords, EltTy.bits .f32 = 32 ∨ (Rect.block (s := S64x64x128) S8x64x128.size (cc16_transform_2 i) (hinb16_2 i)).WholeWords (EltTy.packing .f32)

class K17.Facts₀ : Prop where
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S4096x128.size a ≤ S4096x128.size a
  hwx17_0 : ∀ i : grid17.Coords, EltTy.bits .f32 = 32 ∨ (Rect.block (s := S4096x128) S4096x128.size (cc17_transform_0 i) (hinb17_0 i)).WholeWords (EltTy.packing .f32)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S4096x128.size a ≤ S4096x128.size a
  hwx17_1 : ∀ i : grid17.Coords, EltTy.bits .f32 = 32 ∨ (Rect.block (s := S4096x128) S4096x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S128x128.size a ≤ S128x128.size a
  hwx17_2 : ∀ i : grid17.Coords, EltTy.bits .f32 = 32 ∨ (Rect.block (s := S128x128) S128x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 false = 1
  hreads17_4 : ∀ i i' : grid17.Coords, (∀ a, reads17_4 a = true → i a = i' a) → cc17_transform_4 i = cc17_transform_4 i'
  hinb17_4 : ∀ (i : grid17.Coords) a, (cc17_transform_4 i a + 1) * S4096x128.size a ≤ S4096x128.size a
  hwx17_4 : ∀ i : grid17.Coords, EltTy.bits .f32 = 32 ∨ (Rect.block (s := S4096x128) S4096x128.size (cc17_transform_4 i) (hinb17_4 i)).WholeWords (EltTy.packing .f32)
  hstage17_5 : ∀ j, (stage17_5 j).IsWhole
  nbuf17_5 : grid17.bufCount reads17_5 false = 1
  hreads17_5 : ∀ i i' : grid17.Coords, (∀ a, reads17_5 a = true → i a = i' a) → cc17_transform_5 i = cc17_transform_5 i'
  hinb17_5 : ∀ (i : grid17.Coords) a, (cc17_transform_5 i a + 1) * S1x1x128.size a ≤ S1x1x128.size a
  hwx17_5 : ∀ i : grid17.Coords, EltTy.bits .f32 = 32 ∨ (Rect.block (s := S1x1x128) S1x1x128.size (cc17_transform_5 i) (hinb17_5 i)).WholeWords (EltTy.packing .f32)
  hstage17_6 : ∀ j, (stage17_6 j).IsWhole
  nbuf17_6 : grid17.bufCount reads17_6 false = 1
  hreads17_6 : ∀ i i' : grid17.Coords, (∀ a, reads17_6 a = true → i a = i' a) → cc17_transform_6 i = cc17_transform_6 i'
  hinb17_6 : ∀ (i : grid17.Coords) a, (cc17_transform_6 i a + 1) * S1x1x128.size a ≤ S1x1x128.size a
  hwx17_6 : ∀ i : grid17.Coords, EltTy.bits .f32 = 32 ∨ (Rect.block (s := S1x1x128) S1x1x128.size (cc17_transform_6 i) (hinb17_6 i)).WholeWords (EltTy.packing .f32)

class K18.Facts₀ : Prop where
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S4096x128.size a ≤ S4096x128.size a
  hwx18_0 : ∀ i : grid18.Coords, EltTy.bits .f32 = 32 ∨ (Rect.block (s := S4096x128) S4096x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x128.size a ≤ S128x128.size a
  hwx18_1 : ∀ i : grid18.Coords, EltTy.bits .f32 = 32 ∨ (Rect.block (s := S128x128) S128x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x128.size a ≤ S1x128.size a
  hwx18_2 : ∀ i : grid18.Coords, EltTy.bits .f32 = 32 ∨ (Rect.block (s := S1x128) S1x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x128.size a ≤ S1x128.size a
  hwx18_5 : ∀ i : grid18.Coords, EltTy.bits .f32 = 32 ∨ (Rect.block (s := S1x128) S1x128.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S1x128.size a ≤ S1x128.size a
  hwx18_6 : ∀ i : grid18.Coords, EltTy.bits .f32 = 32 ∨ (Rect.block (s := S1x128) S1x128.size (cc18_transform_6 i) (hinb18_6 i)).WholeWords (EltTy.packing .f32)
  hstage18_7 : ∀ j, (stage18_7 j).IsWhole
  nbuf18_7 : grid18.bufCount reads18_7 false = 1
  hreads18_7 : ∀ i i' : grid18.Coords, (∀ a, reads18_7 a = true → i a = i' a) → cc18_transform_7 i = cc18_transform_7 i'
  hinb18_7 : ∀ (i : grid18.Coords) a, (cc18_transform_7 i a + 1) * S4096x128.size a ≤ S4096x128.size a
  hwx18_7 : ∀ i : grid18.Coords, EltTy.bits .f32 = 32 ∨ (Rect.block (s := S4096x128) S4096x128.size (cc18_transform_7 i) (hinb18_7 i)).WholeWords (EltTy.packing .f32)
  hstage18_8 : ∀ j, (stage18_8 j).IsWhole
  nbuf18_8 : grid18.bufCount reads18_8 false = 1
  hreads18_8 : ∀ i i' : grid18.Coords, (∀ a, reads18_8 a = true → i a = i' a) → cc18_transform_8 i = cc18_transform_8 i'
  hinb18_8 : ∀ (i : grid18.Coords) a, (cc18_transform_8 i a + 1) * S1x1x128.size a ≤ S1x1x128.size a
  hwx18_8 : ∀ i : grid18.Coords, EltTy.bits .f32 = 32 ∨ (Rect.block (s := S1x1x128) S1x1x128.size (cc18_transform_8 i) (hinb18_8 i)).WholeWords (EltTy.packing .f32)
  hstage18_9 : ∀ j, (stage18_9 j).IsWhole
  nbuf18_9 : grid18.bufCount reads18_9 false = 1
  hreads18_9 : ∀ i i' : grid18.Coords, (∀ a, reads18_9 a = true → i a = i' a) → cc18_transform_9 i = cc18_transform_9 i'
  hinb18_9 : ∀ (i : grid18.Coords) a, (cc18_transform_9 i a + 1) * S1x1x128.size a ≤ S1x1x128.size a
  hwx18_9 : ∀ i : grid18.Coords, EltTy.bits .f32 = 32 ∨ (Rect.block (s := S1x1x128) S1x1x128.size (cc18_transform_9 i) (hinb18_9 i)).WholeWords (EltTy.packing .f32)

class K19.Facts₀ : Prop where
  hrank19 : 0 < grid19.rank
  hstage19_0 : ∀ j, (stage19_0 j).IsWhole
  nbuf19_0 : grid19.bufCount reads19_0 false = 1
  hreads19_0 : ∀ i i' : grid19.Coords, (∀ a, reads19_0 a = true → i a = i' a) → cc19_transform_0 i = cc19_transform_0 i'
  hinb19_0 : ∀ (i : grid19.Coords) a, (cc19_transform_0 i a + 1) * S4096x128.size a ≤ S4096x128.size a
  hwx19_0 : ∀ i : grid19.Coords, EltTy.bits .f32 = 32 ∨ (Rect.block (s := S4096x128) S4096x128.size (cc19_transform_0 i) (hinb19_0 i)).WholeWords (EltTy.packing .f32)
  hstage19_1 : ∀ j, (stage19_1 j).IsWhole
  nbuf19_1 : grid19.bufCount reads19_1 false = 1
  hreads19_1 : ∀ i i' : grid19.Coords, (∀ a, reads19_1 a = true → i a = i' a) → cc19_transform_1 i = cc19_transform_1 i'
  hinb19_1 : ∀ (i : grid19.Coords) a, (cc19_transform_1 i a + 1) * S4096x128.size a ≤ S4096x128.size a
  hwx19_1 : ∀ i : grid19.Coords, EltTy.bits .f32 = 32 ∨ (Rect.block (s := S4096x128) S4096x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128x128.size a ≤ S128x128.size a
  hwx19_2 : ∀ i : grid19.Coords, EltTy.bits .f32 = 32 ∨ (Rect.block (s := S128x128) S128x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 false = 1
  hreads19_4 : ∀ i i' : grid19.Coords, (∀ a, reads19_4 a = true → i a = i' a) → cc19_transform_4 i = cc19_transform_4 i'
  hinb19_4 : ∀ (i : grid19.Coords) a, (cc19_transform_4 i a + 1) * S4096x128.size a ≤ S4096x128.size a
  hwx19_4 : ∀ i : grid19.Coords, EltTy.bits .f32 = 32 ∨ (Rect.block (s := S4096x128) S4096x128.size (cc19_transform_4 i) (hinb19_4 i)).WholeWords (EltTy.packing .f32)
  hstage19_5 : ∀ j, (stage19_5 j).IsWhole
  nbuf19_5 : grid19.bufCount reads19_5 false = 1
  hreads19_5 : ∀ i i' : grid19.Coords, (∀ a, reads19_5 a = true → i a = i' a) → cc19_transform_5 i = cc19_transform_5 i'
  hinb19_5 : ∀ (i : grid19.Coords) a, (cc19_transform_5 i a + 1) * S1x1x128.size a ≤ S1x1x128.size a
  hwx19_5 : ∀ i : grid19.Coords, EltTy.bits .f32 = 32 ∨ (Rect.block (s := S1x1x128) S1x1x128.size (cc19_transform_5 i) (hinb19_5 i)).WholeWords (EltTy.packing .f32)
  hstage19_6 : ∀ j, (stage19_6 j).IsWhole
  nbuf19_6 : grid19.bufCount reads19_6 false = 1
  hreads19_6 : ∀ i i' : grid19.Coords, (∀ a, reads19_6 a = true → i a = i' a) → cc19_transform_6 i = cc19_transform_6 i'
  hinb19_6 : ∀ (i : grid19.Coords) a, (cc19_transform_6 i a + 1) * S1x1x128.size a ≤ S1x1x128.size a
  hwx19_6 : ∀ i : grid19.Coords, EltTy.bits .f32 = 32 ∨ (Rect.block (s := S1x1x128) S1x1x128.size (cc19_transform_6 i) (hinb19_6 i)).WholeWords (EltTy.packing .f32)

class K20.Facts₀ : Prop where
  hrank20 : 0 < grid20.rank
  hstage20_0 : ∀ j, (stage20_0 j).IsWhole
  nbuf20_0 : grid20.bufCount reads20_0 false = 1
  hreads20_0 : ∀ i i' : grid20.Coords, (∀ a, reads20_0 a = true → i a = i' a) → cc20_transform_0 i = cc20_transform_0 i'
  hinb20_0 : ∀ (i : grid20.Coords) a, (cc20_transform_0 i a + 1) * S4096x128.size a ≤ S4096x128.size a
  hwx20_0 : ∀ i : grid20.Coords, EltTy.bits .f32 = 32 ∨ (Rect.block (s := S4096x128) S4096x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S128x128.size a ≤ S128x128.size a
  hwx20_1 : ∀ i : grid20.Coords, EltTy.bits .f32 = 32 ∨ (Rect.block (s := S128x128) S128x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x128.size a ≤ S1x128.size a
  hwx20_3 : ∀ i : grid20.Coords, EltTy.bits .f32 = 32 ∨ (Rect.block (s := S1x128) S1x128.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x128.size a ≤ S1x128.size a
  hwx20_4 : ∀ i : grid20.Coords, EltTy.bits .f32 = 32 ∨ (Rect.block (s := S1x128) S1x128.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x128.size a ≤ S1x128.size a
  hwx20_5 : ∀ i : grid20.Coords, EltTy.bits .f32 = 32 ∨ (Rect.block (s := S1x128) S1x128.size (cc20_transform_5 i) (hinb20_5 i)).WholeWords (EltTy.packing .f32)
  hstage20_6 : ∀ j, (stage20_6 j).IsWhole
  nbuf20_6 : grid20.bufCount reads20_6 true = 1
  hreads20_6 : ∀ i i' : grid20.Coords, (∀ a, reads20_6 a = true → i a = i' a) → cc20_transform_6 i = cc20_transform_6 i'
  hinb20_6 : ∀ (i : grid20.Coords) a, (cc20_transform_6 i a + 1) * S1x128.size a ≤ S1x128.size a
  hwx20_6 : ∀ i : grid20.Coords, EltTy.bits .f32 = 32 ∨ (Rect.block (s := S1x128) S1x128.size (cc20_transform_6 i) (hinb20_6 i)).WholeWords (EltTy.packing .f32)
  hstage20_7 : ∀ j, (stage20_7 j).IsWhole
  nbuf20_7 : grid20.bufCount reads20_7 false = 1
  hreads20_7 : ∀ i i' : grid20.Coords, (∀ a, reads20_7 a = true → i a = i' a) → cc20_transform_7 i = cc20_transform_7 i'
  hinb20_7 : ∀ (i : grid20.Coords) a, (cc20_transform_7 i a + 1) * S4096x128.size a ≤ S4096x128.size a
  hwx20_7 : ∀ i : grid20.Coords, EltTy.bits .f32 = 32 ∨ (Rect.block (s := S4096x128) S4096x128.size (cc20_transform_7 i) (hinb20_7 i)).WholeWords (EltTy.packing .f32)
  hstage20_8 : ∀ j, (stage20_8 j).IsWhole
  nbuf20_8 : grid20.bufCount reads20_8 false = 1
  hreads20_8 : ∀ i i' : grid20.Coords, (∀ a, reads20_8 a = true → i a = i' a) → cc20_transform_8 i = cc20_transform_8 i'
  hinb20_8 : ∀ (i : grid20.Coords) a, (cc20_transform_8 i a + 1) * S1x1x128.size a ≤ S1x1x128.size a
  hwx20_8 : ∀ i : grid20.Coords, EltTy.bits .f32 = 32 ∨ (Rect.block (s := S1x1x128) S1x1x128.size (cc20_transform_8 i) (hinb20_8 i)).WholeWords (EltTy.packing .f32)
  hstage20_9 : ∀ j, (stage20_9 j).IsWhole
  nbuf20_9 : grid20.bufCount reads20_9 false = 1
  hreads20_9 : ∀ i i' : grid20.Coords, (∀ a, reads20_9 a = true → i a = i' a) → cc20_transform_9 i = cc20_transform_9 i'
  hinb20_9 : ∀ (i : grid20.Coords) a, (cc20_transform_9 i a + 1) * S1x1x128.size a ≤ S1x1x128.size a
  hwx20_9 : ∀ i : grid20.Coords, EltTy.bits .f32 = 32 ∨ (Rect.block (s := S1x1x128) S1x1x128.size (cc20_transform_9 i) (hinb20_9 i)).WholeWords (EltTy.packing .f32)

class K21.Facts₀ : Prop where
  hrank21 : 0 < grid21.rank
  hstage21_0 : ∀ j, (stage21_0 j).IsWhole
  nbuf21_0 : grid21.bufCount reads21_0 false = 1
  hreads21_0 : ∀ i i' : grid21.Coords, (∀ a, reads21_0 a = true → i a = i' a) → cc21_transform_0 i = cc21_transform_0 i'
  hinb21_0 : ∀ (i : grid21.Coords) a, (cc21_transform_0 i a + 1) * S4096x128.size a ≤ S4096x128.size a
  hwx21_0 : ∀ i : grid21.Coords, EltTy.bits .f32 = 32 ∨ (Rect.block (s := S4096x128) S4096x128.size (cc21_transform_0 i) (hinb21_0 i)).WholeWords (EltTy.packing .f32)
  hstage21_1 : ∀ j, (stage21_1 j).IsWhole
  nbuf21_1 : grid21.bufCount reads21_1 false = 1
  hreads21_1 : ∀ i i' : grid21.Coords, (∀ a, reads21_1 a = true → i a = i' a) → cc21_transform_1 i = cc21_transform_1 i'
  hinb21_1 : ∀ (i : grid21.Coords) a, (cc21_transform_1 i a + 1) * S4096x128.size a ≤ S4096x128.size a
  hwx21_1 : ∀ i : grid21.Coords, EltTy.bits .f32 = 32 ∨ (Rect.block (s := S4096x128) S4096x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S128x128.size a ≤ S128x128.size a
  hwx21_2 : ∀ i : grid21.Coords, EltTy.bits .f32 = 32 ∨ (Rect.block (s := S128x128) S128x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x128.size a ≤ S1x128.size a
  hwx21_3 : ∀ i : grid21.Coords, EltTy.bits .f32 = 32 ∨ (Rect.block (s := S1x128) S1x128.size (cc21_transform_3 i) (hinb21_3 i)).WholeWords (EltTy.packing .f32)
  hstage21_4 : ∀ j, (stage21_4 j).IsWhole
  nbuf21_4 : grid21.bufCount reads21_4 false = 1
  hreads21_4 : ∀ i i' : grid21.Coords, (∀ a, reads21_4 a = true → i a = i' a) → cc21_transform_4 i = cc21_transform_4 i'
  hinb21_4 : ∀ (i : grid21.Coords) a, (cc21_transform_4 i a + 1) * S4096x128.size a ≤ S4096x128.size a
  hwx21_4 : ∀ i : grid21.Coords, EltTy.bits .f32 = 32 ∨ (Rect.block (s := S4096x128) S4096x128.size (cc21_transform_4 i) (hinb21_4 i)).WholeWords (EltTy.packing .f32)
  hstage21_5 : ∀ j, (stage21_5 j).IsWhole
  nbuf21_5 : grid21.bufCount reads21_5 false = 1
  hreads21_5 : ∀ i i' : grid21.Coords, (∀ a, reads21_5 a = true → i a = i' a) → cc21_transform_5 i = cc21_transform_5 i'
  hinb21_5 : ∀ (i : grid21.Coords) a, (cc21_transform_5 i a + 1) * S1x1x128.size a ≤ S1x1x128.size a
  hwx21_5 : ∀ i : grid21.Coords, EltTy.bits .f32 = 32 ∨ (Rect.block (s := S1x1x128) S1x1x128.size (cc21_transform_5 i) (hinb21_5 i)).WholeWords (EltTy.packing .f32)
  hstage21_6 : ∀ j, (stage21_6 j).IsWhole
  nbuf21_6 : grid21.bufCount reads21_6 false = 1
  hreads21_6 : ∀ i i' : grid21.Coords, (∀ a, reads21_6 a = true → i a = i' a) → cc21_transform_6 i = cc21_transform_6 i'
  hinb21_6 : ∀ (i : grid21.Coords) a, (cc21_transform_6 i a + 1) * S1x1x128.size a ≤ S1x1x128.size a
  hwx21_6 : ∀ i : grid21.Coords, EltTy.bits .f32 = 32 ∨ (Rect.block (s := S1x1x128) S1x1x128.size (cc21_transform_6 i) (hinb21_6 i)).WholeWords (EltTy.packing .f32)

class K22.Facts₀ : Prop where
  hrank22 : 0 < grid22.rank
  hstage22_0 : ∀ j, (stage22_0 j).IsWhole
  nbuf22_0 : grid22.bufCount reads22_0 false = 1
  hreads22_0 : ∀ i i' : grid22.Coords, (∀ a, reads22_0 a = true → i a = i' a) → cc22_transform_0 i = cc22_transform_0 i'
  hinb22_0 : ∀ (i : grid22.Coords) a, (cc22_transform_0 i a + 1) * S4096x128.size a ≤ S4096x128.size a
  hwx22_0 : ∀ i : grid22.Coords, EltTy.bits .f32 = 32 ∨ (Rect.block (s := S4096x128) S4096x128.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S128x128.size a ≤ S128x128.size a
  hwx22_1 : ∀ i : grid22.Coords, EltTy.bits .f32 = 32 ∨ (Rect.block (s := S128x128) S128x128.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x128.size a ≤ S1x128.size a
  hwx22_2 : ∀ i : grid22.Coords, EltTy.bits .f32 = 32 ∨ (Rect.block (s := S1x128) S1x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S1x128.size a ≤ S1x128.size a
  hwx22_3 : ∀ i : grid22.Coords, EltTy.bits .f32 = 32 ∨ (Rect.block (s := S1x128) S1x128.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x128.size a ≤ S1x128.size a
  hwx22_4 : ∀ i : grid22.Coords, EltTy.bits .f32 = 32 ∨ (Rect.block (s := S1x128) S1x128.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S1x128.size a ≤ S1x128.size a
  hwx22_5 : ∀ i : grid22.Coords, EltTy.bits .f32 = 32 ∨ (Rect.block (s := S1x128) S1x128.size (cc22_transform_5 i) (hinb22_5 i)).WholeWords (EltTy.packing .f32)
  hstage22_6 : ∀ j, (stage22_6 j).IsWhole
  nbuf22_6 : grid22.bufCount reads22_6 true = 1
  hreads22_6 : ∀ i i' : grid22.Coords, (∀ a, reads22_6 a = true → i a = i' a) → cc22_transform_6 i = cc22_transform_6 i'
  hinb22_6 : ∀ (i : grid22.Coords) a, (cc22_transform_6 i a + 1) * S1x128.size a ≤ S1x128.size a
  hwx22_6 : ∀ i : grid22.Coords, EltTy.bits .f32 = 32 ∨ (Rect.block (s := S1x128) S1x128.size (cc22_transform_6 i) (hinb22_6 i)).WholeWords (EltTy.packing .f32)
  hstage22_7 : ∀ j, (stage22_7 j).IsWhole
  nbuf22_7 : grid22.bufCount reads22_7 false = 1
  hreads22_7 : ∀ i i' : grid22.Coords, (∀ a, reads22_7 a = true → i a = i' a) → cc22_transform_7 i = cc22_transform_7 i'
  hinb22_7 : ∀ (i : grid22.Coords) a, (cc22_transform_7 i a + 1) * S4096x128.size a ≤ S4096x128.size a
  hwx22_7 : ∀ i : grid22.Coords, EltTy.bits .f32 = 32 ∨ (Rect.block (s := S4096x128) S4096x128.size (cc22_transform_7 i) (hinb22_7 i)).WholeWords (EltTy.packing .f32)
  hstage22_8 : ∀ j, (stage22_8 j).IsWhole
  nbuf22_8 : grid22.bufCount reads22_8 false = 1
  hreads22_8 : ∀ i i' : grid22.Coords, (∀ a, reads22_8 a = true → i a = i' a) → cc22_transform_8 i = cc22_transform_8 i'
  hinb22_8 : ∀ (i : grid22.Coords) a, (cc22_transform_8 i a + 1) * S1x1x128.size a ≤ S1x1x128.size a
  hwx22_8 : ∀ i : grid22.Coords, EltTy.bits .f32 = 32 ∨ (Rect.block (s := S1x1x128) S1x1x128.size (cc22_transform_8 i) (hinb22_8 i)).WholeWords (EltTy.packing .f32)
  hstage22_9 : ∀ j, (stage22_9 j).IsWhole
  nbuf22_9 : grid22.bufCount reads22_9 false = 1
  hreads22_9 : ∀ i i' : grid22.Coords, (∀ a, reads22_9 a = true → i a = i' a) → cc22_transform_9 i = cc22_transform_9 i'
  hinb22_9 : ∀ (i : grid22.Coords) a, (cc22_transform_9 i a + 1) * S1x1x128.size a ≤ S1x1x128.size a
  hwx22_9 : ∀ i : grid22.Coords, EltTy.bits .f32 = 32 ∨ (Rect.block (s := S1x1x128) S1x1x128.size (cc22_transform_9 i) (hinb22_9 i)).WholeWords (EltTy.packing .f32)

class K23.Facts₀ : Prop where
  hrank23 : 0 < grid23.rank
  hstage23_0 : ∀ j, (stage23_0 j).IsWhole
  nbuf23_0 : grid23.bufCount reads23_0 false = 1
  hreads23_0 : ∀ i i' : grid23.Coords, (∀ a, reads23_0 a = true → i a = i' a) → cc23_transform_0 i = cc23_transform_0 i'
  hinb23_0 : ∀ (i : grid23.Coords) a, (cc23_transform_0 i a + 1) * S4096x128.size a ≤ S4096x128.size a
  hwx23_0 : ∀ i : grid23.Coords, EltTy.bits .f32 = 32 ∨ (Rect.block (s := S4096x128) S4096x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S128x128.size a ≤ S128x128.size a
  hwx23_1 : ∀ i : grid23.Coords, EltTy.bits .f32 = 32 ∨ (Rect.block (s := S128x128) S128x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x128.size a ≤ S1x128.size a
  hwx23_3 : ∀ i : grid23.Coords, EltTy.bits .f32 = 32 ∨ (Rect.block (s := S1x128) S1x128.size (cc23_transform_3 i) (hinb23_3 i)).WholeWords (EltTy.packing .f32)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S1x128.size a ≤ S1x128.size a
  hwx23_4 : ∀ i : grid23.Coords, EltTy.bits .f32 = 32 ∨ (Rect.block (s := S1x128) S1x128.size (cc23_transform_4 i) (hinb23_4 i)).WholeWords (EltTy.packing .f32)
  hstage23_5 : ∀ j, (stage23_5 j).IsWhole
  nbuf23_5 : grid23.bufCount reads23_5 true = 1
  hreads23_5 : ∀ i i' : grid23.Coords, (∀ a, reads23_5 a = true → i a = i' a) → cc23_transform_5 i = cc23_transform_5 i'
  hinb23_5 : ∀ (i : grid23.Coords) a, (cc23_transform_5 i a + 1) * S1x128.size a ≤ S1x128.size a
  hwx23_5 : ∀ i : grid23.Coords, EltTy.bits .f32 = 32 ∨ (Rect.block (s := S1x128) S1x128.size (cc23_transform_5 i) (hinb23_5 i)).WholeWords (EltTy.packing .f32)
  hstage23_6 : ∀ j, (stage23_6 j).IsWhole
  nbuf23_6 : grid23.bufCount reads23_6 false = 1
  hreads23_6 : ∀ i i' : grid23.Coords, (∀ a, reads23_6 a = true → i a = i' a) → cc23_transform_6 i = cc23_transform_6 i'
  hinb23_6 : ∀ (i : grid23.Coords) a, (cc23_transform_6 i a + 1) * S4096x128.size a ≤ S4096x128.size a
  hwx23_6 : ∀ i : grid23.Coords, EltTy.bits .f32 = 32 ∨ (Rect.block (s := S4096x128) S4096x128.size (cc23_transform_6 i) (hinb23_6 i)).WholeWords (EltTy.packing .f32)
  hstage23_7 : ∀ j, (stage23_7 j).IsWhole
  nbuf23_7 : grid23.bufCount reads23_7 true = 1
  hreads23_7 : ∀ i i' : grid23.Coords, (∀ a, reads23_7 a = true → i a = i' a) → cc23_transform_7 i = cc23_transform_7 i'
  hinb23_7 : ∀ (i : grid23.Coords) a, (cc23_transform_7 i a + 1) * S128x128.size a ≤ S128x128.size a
  hwx23_7 : ∀ i : grid23.Coords, EltTy.bits .f32 = 32 ∨ (Rect.block (s := S128x128) S128x128.size (cc23_transform_7 i) (hinb23_7 i)).WholeWords (EltTy.packing .f32)
  hstage23_8 : ∀ j, (stage23_8 j).IsWhole
  nbuf23_8 : grid23.bufCount reads23_8 true = 1
  hreads23_8 : ∀ i i' : grid23.Coords, (∀ a, reads23_8 a = true → i a = i' a) → cc23_transform_8 i = cc23_transform_8 i'
  hinb23_8 : ∀ (i : grid23.Coords) a, (cc23_transform_8 i a + 1) * S1x128.size a ≤ S1x128.size a
  hwx23_8 : ∀ i : grid23.Coords, EltTy.bits .f32 = 32 ∨ (Rect.block (s := S1x128) S1x128.size (cc23_transform_8 i) (hinb23_8 i)).WholeWords (EltTy.packing .f32)
  hstage23_9 : ∀ j, (stage23_9 j).IsWhole
  nbuf23_9 : grid23.bufCount reads23_9 true = 1
  hreads23_9 : ∀ i i' : grid23.Coords, (∀ a, reads23_9 a = true → i a = i' a) → cc23_transform_9 i = cc23_transform_9 i'
  hinb23_9 : ∀ (i : grid23.Coords) a, (cc23_transform_9 i a + 1) * S1x128.size a ≤ S1x128.size a
  hwx23_9 : ∀ i : grid23.Coords, EltTy.bits .f32 = 32 ∨ (Rect.block (s := S1x128) S1x128.size (cc23_transform_9 i) (hinb23_9 i)).WholeWords (EltTy.packing .f32)
  hstage23_10 : ∀ j, (stage23_10 j).IsWhole
  nbuf23_10 : grid23.bufCount reads23_10 true = 1
  hreads23_10 : ∀ i i' : grid23.Coords, (∀ a, reads23_10 a = true → i a = i' a) → cc23_transform_10 i = cc23_transform_10 i'
  hinb23_10 : ∀ (i : grid23.Coords) a, (cc23_transform_10 i a + 1) * S1x128.size a ≤ S1x128.size a
  hwx23_10 : ∀ i : grid23.Coords, EltTy.bits .f32 = 32 ∨ (Rect.block (s := S1x128) S1x128.size (cc23_transform_10 i) (hinb23_10 i)).WholeWords (EltTy.packing .f32)
  hstage23_11 : ∀ j, (stage23_11 j).IsWhole
  nbuf23_11 : grid23.bufCount reads23_11 true = 1
  hreads23_11 : ∀ i i' : grid23.Coords, (∀ a, reads23_11 a = true → i a = i' a) → cc23_transform_11 i = cc23_transform_11 i'
  hinb23_11 : ∀ (i : grid23.Coords) a, (cc23_transform_11 i a + 1) * S1x128.size a ≤ S1x128.size a
  hwx23_11 : ∀ i : grid23.Coords, EltTy.bits .f32 = 32 ∨ (Rect.block (s := S1x128) S1x128.size (cc23_transform_11 i) (hinb23_11 i)).WholeWords (EltTy.packing .f32)
  hstage23_12 : ∀ j, (stage23_12 j).IsWhole
  nbuf23_12 : grid23.bufCount reads23_12 false = 1
  hreads23_12 : ∀ i i' : grid23.Coords, (∀ a, reads23_12 a = true → i a = i' a) → cc23_transform_12 i = cc23_transform_12 i'
  hinb23_12 : ∀ (i : grid23.Coords) a, (cc23_transform_12 i a + 1) * S4096x128.size a ≤ S4096x128.size a
  hwx23_12 : ∀ i : grid23.Coords, EltTy.bits .f32 = 32 ∨ (Rect.block (s := S4096x128) S4096x128.size (cc23_transform_12 i) (hinb23_12 i)).WholeWords (EltTy.packing .f32)
  hstage23_13 : ∀ j, (stage23_13 j).IsWhole
  nbuf23_13 : grid23.bufCount reads23_13 true = 1
  hreads23_13 : ∀ i i' : grid23.Coords, (∀ a, reads23_13 a = true → i a = i' a) → cc23_transform_13 i = cc23_transform_13 i'
  hinb23_13 : ∀ (i : grid23.Coords) a, (cc23_transform_13 i a + 1) * S128x128.size a ≤ S128x128.size a
  hwx23_13 : ∀ i : grid23.Coords, EltTy.bits .f32 = 32 ∨ (Rect.block (s := S128x128) S128x128.size (cc23_transform_13 i) (hinb23_13 i)).WholeWords (EltTy.packing .f32)
  hstage23_14 : ∀ j, (stage23_14 j).IsWhole
  nbuf23_14 : grid23.bufCount reads23_14 true = 1
  hreads23_14 : ∀ i i' : grid23.Coords, (∀ a, reads23_14 a = true → i a = i' a) → cc23_transform_14 i = cc23_transform_14 i'
  hinb23_14 : ∀ (i : grid23.Coords) a, (cc23_transform_14 i a + 1) * S1x128.size a ≤ S1x128.size a
  hwx23_14 : ∀ i : grid23.Coords, EltTy.bits .f32 = 32 ∨ (Rect.block (s := S1x128) S1x128.size (cc23_transform_14 i) (hinb23_14 i)).WholeWords (EltTy.packing .f32)
  hstage23_15 : ∀ j, (stage23_15 j).IsWhole
  nbuf23_15 : grid23.bufCount reads23_15 true = 1
  hreads23_15 : ∀ i i' : grid23.Coords, (∀ a, reads23_15 a = true → i a = i' a) → cc23_transform_15 i = cc23_transform_15 i'
  hinb23_15 : ∀ (i : grid23.Coords) a, (cc23_transform_15 i a + 1) * S1x128.size a ≤ S1x128.size a
  hwx23_15 : ∀ i : grid23.Coords, EltTy.bits .f32 = 32 ∨ (Rect.block (s := S1x128) S1x128.size (cc23_transform_15 i) (hinb23_15 i)).WholeWords (EltTy.packing .f32)
  hstage23_16 : ∀ j, (stage23_16 j).IsWhole
  nbuf23_16 : grid23.bufCount reads23_16 true = 1
  hreads23_16 : ∀ i i' : grid23.Coords, (∀ a, reads23_16 a = true → i a = i' a) → cc23_transform_16 i = cc23_transform_16 i'
  hinb23_16 : ∀ (i : grid23.Coords) a, (cc23_transform_16 i a + 1) * S1x128.size a ≤ S1x128.size a
  hwx23_16 : ∀ i : grid23.Coords, EltTy.bits .f32 = 32 ∨ (Rect.block (s := S1x128) S1x128.size (cc23_transform_16 i) (hinb23_16 i)).WholeWords (EltTy.packing .f32)
  hstage23_17 : ∀ j, (stage23_17 j).IsWhole
  nbuf23_17 : grid23.bufCount reads23_17 true = 1
  hreads23_17 : ∀ i i' : grid23.Coords, (∀ a, reads23_17 a = true → i a = i' a) → cc23_transform_17 i = cc23_transform_17 i'
  hinb23_17 : ∀ (i : grid23.Coords) a, (cc23_transform_17 i a + 1) * S1x128.size a ≤ S1x128.size a
  hwx23_17 : ∀ i : grid23.Coords, EltTy.bits .f32 = 32 ∨ (Rect.block (s := S1x128) S1x128.size (cc23_transform_17 i) (hinb23_17 i)).WholeWords (EltTy.packing .f32)
  hstage23_18 : ∀ j, (stage23_18 j).IsWhole
  nbuf23_18 : grid23.bufCount reads23_18 true = 1
  hreads23_18 : ∀ i i' : grid23.Coords, (∀ a, reads23_18 a = true → i a = i' a) → cc23_transform_18 i = cc23_transform_18 i'
  hinb23_18 : ∀ (i : grid23.Coords) a, (cc23_transform_18 i a + 1) * S1x128.size a ≤ S1x128.size a
  hwx23_18 : ∀ i : grid23.Coords, EltTy.bits .f32 = 32 ∨ (Rect.block (s := S1x128) S1x128.size (cc23_transform_18 i) (hinb23_18 i)).WholeWords (EltTy.packing .f32)
  hstage23_19 : ∀ j, (stage23_19 j).IsWhole
  nbuf23_19 : grid23.bufCount reads23_19 false = 1
  hreads23_19 : ∀ i i' : grid23.Coords, (∀ a, reads23_19 a = true → i a = i' a) → cc23_transform_19 i = cc23_transform_19 i'
  hinb23_19 : ∀ (i : grid23.Coords) a, (cc23_transform_19 i a + 1) * S4096x128.size a ≤ S4096x128.size a
  hwx23_19 : ∀ i : grid23.Coords, EltTy.bits .f32 = 32 ∨ (Rect.block (s := S4096x128) S4096x128.size (cc23_transform_19 i) (hinb23_19 i)).WholeWords (EltTy.packing .f32)
  hstage23_20 : ∀ j, (stage23_20 j).IsWhole
  nbuf23_20 : grid23.bufCount reads23_20 false = 1
  hreads23_20 : ∀ i i' : grid23.Coords, (∀ a, reads23_20 a = true → i a = i' a) → cc23_transform_20 i = cc23_transform_20 i'
  hinb23_20 : ∀ (i : grid23.Coords) a, (cc23_transform_20 i a + 1) * S1x1x128.size a ≤ S1x1x128.size a
  hwx23_20 : ∀ i : grid23.Coords, EltTy.bits .f32 = 32 ∨ (Rect.block (s := S1x1x128) S1x1x128.size (cc23_transform_20 i) (hinb23_20 i)).WholeWords (EltTy.packing .f32)
  hstage23_21 : ∀ j, (stage23_21 j).IsWhole
  nbuf23_21 : grid23.bufCount reads23_21 false = 1
  hreads23_21 : ∀ i i' : grid23.Coords, (∀ a, reads23_21 a = true → i a = i' a) → cc23_transform_21 i = cc23_transform_21 i'
  hinb23_21 : ∀ (i : grid23.Coords) a, (cc23_transform_21 i a + 1) * S1x1x128.size a ≤ S1x1x128.size a
  hwx23_21 : ∀ i : grid23.Coords, EltTy.bits .f32 = 32 ∨ (Rect.block (s := S1x1x128) S1x1x128.size (cc23_transform_21 i) (hinb23_21 i)).WholeWords (EltTy.packing .f32)

class K24.Facts₀ : Prop where
  hrank24 : 0 < grid24.rank
  hstage24_0 : ∀ j, (stage24_0 j).IsWhole
  nbuf24_0 : grid24.bufCount reads24_0 false = 1
  hreads24_0 : ∀ i i' : grid24.Coords, (∀ a, reads24_0 a = true → i a = i' a) → cc24_transform_0 i = cc24_transform_0 i'
  hinb24_0 : ∀ (i : grid24.Coords) a, (cc24_transform_0 i a + 1) * S4096x128.size a ≤ S4096x128.size a
  hwx24_0 : ∀ i : grid24.Coords, EltTy.bits .f32 = 32 ∨ (Rect.block (s := S4096x128) S4096x128.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S1x128.size a ≤ S1x128.size a
  hwx24_1 : ∀ i : grid24.Coords, EltTy.bits .f32 = 32 ∨ (Rect.block (s := S1x128) S1x128.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x128.size a ≤ S1x128.size a
  hwx24_2 : ∀ i : grid24.Coords, EltTy.bits .f32 = 32 ∨ (Rect.block (s := S1x128) S1x128.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S1x128.size a ≤ S1x128.size a
  hwx24_3 : ∀ i : grid24.Coords, EltTy.bits .f32 = 32 ∨ (Rect.block (s := S1x128) S1x128.size (cc24_transform_3 i) (hinb24_3 i)).WholeWords (EltTy.packing .f32)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S1x128.size a ≤ S1x128.size a
  hwx24_4 : ∀ i : grid24.Coords, EltTy.bits .f32 = 32 ∨ (Rect.block (s := S1x128) S1x128.size (cc24_transform_4 i) (hinb24_4 i)).WholeWords (EltTy.packing .f32)
  hstage24_5 : ∀ j, (stage24_5 j).IsWhole
  nbuf24_5 : grid24.bufCount reads24_5 false = 1
  hreads24_5 : ∀ i i' : grid24.Coords, (∀ a, reads24_5 a = true → i a = i' a) → cc24_transform_5 i = cc24_transform_5 i'
  hinb24_5 : ∀ (i : grid24.Coords) a, (cc24_transform_5 i a + 1) * S4096x128.size a ≤ S4096x128.size a
  hwx24_5 : ∀ i : grid24.Coords, EltTy.bits .f32 = 32 ∨ (Rect.block (s := S4096x128) S4096x128.size (cc24_transform_5 i) (hinb24_5 i)).WholeWords (EltTy.packing .f32)

class Shapes1.Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  inb_S8x256x64_S8x256x64_0_0_0 : ∀ a, (![0, 0, 0] : Fin 3 → Nat) a + S8x256x64.size a ≤ S8x256x64.size a
  h_S8x256x64 : 0 < S8x256x64.numel
  bitsLt_bf16_f32 : FTy.bits .bf16 < FTy.bits .f32
  inb_S8x64x128_S8x64x128_0_0_0 : ∀ a, (![0, 0, 0] : Fin 3 → Nat) a + S8x64x128.size a ≤ S8x64x128.size a
  h_S8x64x128 : 0 < S8x64x128.numel
  inb_S8x256x128_S8x256x128_0_0_0 : ∀ a, (![0, 0, 0] : Fin 3 → Nat) a + S8x256x128.size a ≤ S8x256x128.size a
  h_S8x256x128 : 0 < S8x256x128.numel
  shapeCasts_S64x256x128_S16384x128 : S64x256x128.ShapeCasts S16384x128
  bcast_S_S262144 : S_.BroadcastsInDim S262144 (![] : Fin 0 → Fin S262144.rank)
  bcast_S262144_S262144x1_0 : S262144.BroadcastsInDim S262144x1 (![0] : Fin 1 → Fin S262144x1.rank)
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4096x128 : S1x128.Broadcasts S4096x128
  bcast_S_S16384x128 : S_.BroadcastsInDim S16384x128 (![] : Fin 0 → Fin S16384x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  reduces_S4096x128_S128 : S4096x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S4x1x128_S1x128_d0 : S4x1x128.ReducesTo [0] S1x128
  h_S_ : 0 < S_.numel
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  reducesTo_S64x1x128_S1x128_d0 : S64x1x128.ReducesTo [0] S1x128
  slices_S7x128x128_S1x128x128_3_0_0 : S7x128x128.Slices ![3, 0, 0] S1x128x128
  slices_S7x128_S1x128_3_0 : S7x128.Slices ![3, 0] S1x128
  shapeCasts_S16384x128_S64x256x128 : S16384x128.ShapeCasts S64x256x128
  inb_S8x64x64_S8x64x64_0_0_0 : ∀ a, (![0, 0, 0] : Fin 3 → Nat) a + S8x64x64.size a ≤ S8x64x64.size a
  h_S8x64x64 : 0 < S8x64x64.numel
  shapeCasts_S64x64x128_S4096x128 : S64x64x128.ShapeCasts S4096x128
  inb_S8x64x8_S8x64x8_0_0_0 : ∀ a, (![0, 0, 0] : Fin 3 → Nat) a + S8x64x8.size a ≤ S8x64x8.size a
  h_S8x64x8 : 0 < S8x64x8.numel
  inb_S8x8x128_S8x8x128_0_0_0 : ∀ a, (![0, 0, 0] : Fin 3 → Nat) a + S8x8x128.size a ≤ S8x8x128.size a
  h_S8x8x128 : 0 < S8x8x128.numel
  inb_S8x64x256_S8x64x256_0_0_0 : ∀ a, (![0, 0, 0] : Fin 3 → Nat) a + S8x64x256.size a ≤ S8x64x256.size a
  h_S8x64x256 : 0 < S8x64x256.numel
  shapeCasts_S8x256x128_S8x256x128 : S8x256x128.ShapeCasts S8x256x128
  slices_S7x128x128_S1x128x128_4_0_0 : S7x128x128.Slices ![4, 0, 0] S1x128x128
  slices_S7x128_S1x128_4_0 : S7x128.Slices ![4, 0] S1x128
  reducesTo_S1x1x128_S1x128_d0 : S1x1x128.ReducesTo [0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S4096x128_S64x64x128 : S4096x128.ShapeCasts S64x64x128
  dot_S8x256x64_S8x64x128_S8x256x128_2_1_1_2_0_0_wf : DotDims.WF S8x256x64 S8x64x128 S8x256x128 [2] [1] [1] [2] [0] [0]
  gather_S16384x128_S262144x1_S262144x128_1_0_n_n_0_1_1128_wf : GatherDims.WF S16384x128 S262144x1 S262144x128 [1] [0] [] [0] [] 1 ![1, 128]
  dot_S4096x128_S128x128_S4096x128_1_0_0_1_n_n_wf : DotDims.WF S4096x128 S128x128 S4096x128 [1] [0] [0] [1] [] []
  scatter_S16384x128_S262144x1_S262144x128_1_0_0_1_wf : ScatterDims.WF S16384x128 S262144x1 S262144x128 [1] [0] [0] 1
  dot_S8x64x64_S8x64x128_S8x64x128_2_1_1_2_0_0_wf : DotDims.WF S8x64x64 S8x64x128 S8x64x128 [2] [1] [1] [2] [0] [0]
  dot_S8x64x8_S8x8x128_S8x64x128_2_1_1_2_0_0_wf : DotDims.WF S8x64x8 S8x8x128 S8x64x128 [2] [1] [1] [2] [0] [0]
  dot_S8x64x256_S8x256x128_S8x64x128_2_1_1_2_0_0_wf : DotDims.WF S8x64x256 S8x256x128 S8x64x128 [2] [1] [1] [2] [0] [0]

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.shapes1

variable [Facts₀]

def dot_S8x256x64_S8x64x128_S8x256x128_2_1_1_2_0_0 : DotDims S8x256x64 S8x64x128 S8x256x128 where
  lhsContracting := [2]
  rhsContracting := [1]
  lhsNonContracting := [1]
  rhsNonContracting := [2]
  lhsBatch := [0]
  rhsBatch := [0]
  wf := dot_S8x256x64_S8x64x128_S8x256x128_2_1_1_2_0_0_wf
def gather_S16384x128_S262144x1_S262144x128_1_0_n_n_0_1_1128 : GatherDims S16384x128 S262144x1 S262144x128 where
  offsetDims := [1]
  collapsedSliceDims := [0]
  operandBatchingDims := []
  startIndicesBatchingDims := []
  startIndexMap := [0]
  indexVectorDim := 1
  sliceSizes := ![1, 128]
  wf := gather_S16384x128_S262144x1_S262144x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S16384x128_S262144x1_S262144x128_1_0_0_1 : ScatterDims S16384x128 S262144x1 S262144x128 where
  updateWindowDims := [1]
  insertedWindowDims := [0]
  scatterDimsToOperandDims := [0]
  indexVectorDim := 1
  wf := scatter_S16384x128_S262144x1_S262144x128_1_0_0_1_wf
def dot_S8x64x64_S8x64x128_S8x64x128_2_1_1_2_0_0 : DotDims S8x64x64 S8x64x128 S8x64x128 where
  lhsContracting := [2]
  rhsContracting := [1]
  lhsNonContracting := [1]
  rhsNonContracting := [2]
  lhsBatch := [0]
  rhsBatch := [0]
  wf := dot_S8x64x64_S8x64x128_S8x64x128_2_1_1_2_0_0_wf
def dot_S8x64x8_S8x8x128_S8x64x128_2_1_1_2_0_0 : DotDims S8x64x8 S8x8x128 S8x64x128 where
  lhsContracting := [2]
  rhsContracting := [1]
  lhsNonContracting := [1]
  rhsNonContracting := [2]
  lhsBatch := [0]
  rhsBatch := [0]
  wf := dot_S8x64x8_S8x8x128_S8x64x128_2_1_1_2_0_0_wf
def dot_S8x64x256_S8x256x128_S8x64x128_2_1_1_2_0_0 : DotDims S8x64x256 S8x256x128 S8x64x128 where
  lhsContracting := [2]
  rhsContracting := [1]
  lhsNonContracting := [1]
  rhsNonContracting := [2]
  lhsBatch := [0]
  rhsBatch := [0]
  wf := dot_S8x64x256_S8x256x128_S8x64x128_2_1_1_2_0_0_wf

abbrev win0_0 : Pipeline.Window sig grid0 :=
  Pipeline.Window.ofSpec (Memref.whole main_arg6) S8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33_0) S4096x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v33_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v33_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v33_0) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39_0) S4096x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v39_1) S1x1x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v39_2) S1x1x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v5) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55_0) S4096x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v55_1) S1x1x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v55_2) S1x1x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v55_0) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v58) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v61_0) S4096x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v61_1) S1x1x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v61_2) S1x1x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v39_0) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v40) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v41) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v75) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v76) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v61_0) S4096x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v69) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v62) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v63) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v77) S1x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v78) S1x128.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v74) S1x128.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v79_0) S4096x128.size cc6_transform_13 reads6_13 true false 2 stage6_13 sem6_13
    hrank6 hreads6_13 hinb6_13 nbuf6_13 (Memref.isWhole_whole _) hwx6_13 hstage6_13

abbrev win6_14 : Pipeline.Window sig grid6 :=
  Pipeline.Window.ofSpec (Memref.whole main_v79_1) S1x1x128.size cc6_transform_14 reads6_14 true false 2 stage6_14 sem6_14
    hrank6 hreads6_14 hinb6_14 nbuf6_14 (Memref.isWhole_whole _) hwx6_14 hstage6_14

abbrev win6_15 : Pipeline.Window sig grid6 :=
  Pipeline.Window.ofSpec (Memref.whole main_v79_2) S1x1x128.size cc6_transform_15 reads6_15 true false 2 stage6_15 sem6_15
    hrank6 hreads6_15 hinb6_15 nbuf6_15 (Memref.isWhole_whole _) hwx6_15 hstage6_15

abbrev win6 : Fin 16 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | ⟨_ + 16, h⟩ => absurd h (Nat.not_lt.2 (Nat.le_add_left _ _))
abbrev spec6 : Fin 16 → Pipeline.WinSpec sig grid6.rank := fun w => (win6 w).toWinSpec

abbrev win7_0 : Pipeline.Window sig grid7 :=
  Pipeline.Window.ofSpec (Memref.whole main_v79_0) S4096x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v83) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v84) S4096x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v91) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v12) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg1) S4096x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v107) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v119_0) S4096x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v119_1) S1x1x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v119_2) S1x1x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v119_0) S4096x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v115) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v120) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v121) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v123) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v124) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v122) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v125_0) S4096x128.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v125_1) S1x1x128.size cc9_transform_8 reads9_8 true false 2 stage9_8 sem9_8
    hrank9 hreads9_8 hinb9_8 nbuf9_8 (Memref.isWhole_whole _) hwx9_8 hstage9_8

abbrev win9_9 : Pipeline.Window sig grid9 :=
  Pipeline.Window.ofSpec (Memref.whole main_v125_2) S1x1x128.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v105) S4096x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v98) S4096x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg1) S4096x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v129) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v140) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v141_0) S4096x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v141_1) S1x1x128.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v141_2) S1x1x128.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v141_0) S4096x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v137) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v142) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v143) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v145) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v146) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v144) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v147_0) S4096x128.size cc11_transform_7 reads11_7 true false 2 stage11_7 sem11_7
    hrank11 hreads11_7 hinb11_7 nbuf11_7 (Memref.isWhole_whole _) hwx11_7 hstage11_7

abbrev win11_8 : Pipeline.Window sig grid11 :=
  Pipeline.Window.ofSpec (Memref.whole main_v147_1) S1x1x128.size cc11_transform_8 reads11_8 true false 2 stage11_8 sem11_8
    hrank11 hreads11_8 hinb11_8 nbuf11_8 (Memref.isWhole_whole _) hwx11_8 hstage11_8

abbrev win11_9 : Pipeline.Window sig grid11 :=
  Pipeline.Window.ofSpec (Memref.whole main_v147_2) S1x1x128.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

abbrev win12_0 : Pipeline.Window sig grid12 :=
  Pipeline.Window.ofSpec (Memref.whole main_v125_0) S4096x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v150) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v126) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v127) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v161) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v162) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v147_0) S4096x128.size cc12_transform_6 reads12_6 false false 2 stage12_6 sem12_6
    hrank12 hreads12_6 hinb12_6 nbuf12_6 (Memref.isWhole_whole _) hwx12_6 hstage12_6

abbrev win12_7 : Pipeline.Window sig grid12 :=
  Pipeline.Window.ofSpec (Memref.whole main_v155) S128x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v148) S1x128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v149) S1x128.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v163) S1x128.size cc12_transform_10 reads12_10 false true 1 stage12_10 sem12_10
    hrank12 hreads12_10 hinb12_10 nbuf12_10 (Memref.isWhole_whole _) hwx12_10 hstage12_10

abbrev win12_11 : Pipeline.Window sig grid12 :=
  Pipeline.Window.ofSpec (Memref.whole main_v164) S1x128.size cc12_transform_11 reads12_11 false true 1 stage12_11 sem12_11
    hrank12 hreads12_11 hinb12_11 nbuf12_11 (Memref.isWhole_whole _) hwx12_11 hstage12_11

abbrev win12_12 : Pipeline.Window sig grid12 :=
  Pipeline.Window.ofSpec (Memref.whole main_v160) S1x128.size cc12_transform_12 reads12_12 false true 1 stage12_12 sem12_12
    hrank12 hreads12_12 hinb12_12 nbuf12_12 (Memref.isWhole_whole _) hwx12_12 hstage12_12

abbrev win12_13 : Pipeline.Window sig grid12 :=
  Pipeline.Window.ofSpec (Memref.whole main_v165_0) S4096x128.size cc12_transform_13 reads12_13 true false 2 stage12_13 sem12_13
    hrank12 hreads12_13 hinb12_13 nbuf12_13 (Memref.isWhole_whole _) hwx12_13 hstage12_13

abbrev win12_14 : Pipeline.Window sig grid12 :=
  Pipeline.Window.ofSpec (Memref.whole main_v165_1) S1x1x128.size cc12_transform_14 reads12_14 true false 2 stage12_14 sem12_14
    hrank12 hreads12_14 hinb12_14 nbuf12_14 (Memref.isWhole_whole _) hwx12_14 hstage12_14

abbrev win12_15 : Pipeline.Window sig grid12 :=
  Pipeline.Window.ofSpec (Memref.whole main_v165_2) S1x1x128.size cc12_transform_15 reads12_15 true false 2 stage12_15 sem12_15
    hrank12 hreads12_15 hinb12_15 nbuf12_15 (Memref.isWhole_whole _) hwx12_15 hstage12_15

abbrev win12 : Fin 16 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | 12 => win12_12 | 13 => win12_13 | 14 => win12_14 | 15 => win12_15 | ⟨_ + 16, h⟩ => absurd h (Nat.not_lt.2 (Nat.le_add_left _ _))
abbrev spec12 : Fin 16 → Pipeline.WinSpec sig grid12.rank := fun w => (win12 w).toWinSpec

abbrev win13_0 : Pipeline.Window sig grid13 :=
  Pipeline.Window.ofSpec (Memref.whole main_v165_0) S4096x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v166) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v167) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v168) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v169) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v170) S4096x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_arg5) S8x64x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg3) S8x64x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v172) S8x64x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_arg7) S8x64x8.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg4) S8x8x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v174) S8x64x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_arg8) S8x64x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v171) S8x256x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v176) S8x64x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v173) S4096x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v178) S4096x128.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v180) S128x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v191) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v192_0) S4096x128.size cc17_transform_4 reads17_4 true false 1 stage17_4 sem17_4
    hrank17 hreads17_4 hinb17_4 nbuf17_4 (Memref.isWhole_whole _) hwx17_4 hstage17_4

abbrev win17_5 : Pipeline.Window sig grid17 :=
  Pipeline.Window.ofSpec (Memref.whole main_v192_1) S1x1x128.size cc17_transform_5 reads17_5 true false 1 stage17_5 sem17_5
    hrank17 hreads17_5 hinb17_5 nbuf17_5 (Memref.isWhole_whole _) hwx17_5 hstage17_5

abbrev win17_6 : Pipeline.Window sig grid17 :=
  Pipeline.Window.ofSpec (Memref.whole main_v192_2) S1x1x128.size cc17_transform_6 reads17_6 true false 1 stage17_6 sem17_6
    hrank17 hreads17_6 hinb17_6 nbuf17_6 (Memref.isWhole_whole _) hwx17_6 hstage17_6

abbrev win17 : Fin 7 → Pipeline.Window sig grid17 := fun | 0 => win17_0 | 1 => win17_1 | 2 => win17_2 | 3 => win17_3 | 4 => win17_4 | 5 => win17_5 | 6 => win17_6 | ⟨_ + 7, h⟩ => absurd h (Nat.not_lt.2 (Nat.le_add_left _ _))
abbrev spec17 : Fin 7 → Pipeline.WinSpec sig grid17.rank := fun w => (win17 w).toWinSpec

abbrev win18_0 : Pipeline.Window sig grid18 :=
  Pipeline.Window.ofSpec (Memref.whole main_v192_0) S4096x128.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v188) S128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v193) S1x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v194) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v196) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v197) S1x128.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v195) S1x128.size cc18_transform_6 reads18_6 false true 1 stage18_6 sem18_6
    hrank18 hreads18_6 hinb18_6 nbuf18_6 (Memref.isWhole_whole _) hwx18_6 hstage18_6

abbrev win18_7 : Pipeline.Window sig grid18 :=
  Pipeline.Window.ofSpec (Memref.whole main_v198_0) S4096x128.size cc18_transform_7 reads18_7 true false 1 stage18_7 sem18_7
    hrank18 hreads18_7 hinb18_7 nbuf18_7 (Memref.isWhole_whole _) hwx18_7 hstage18_7

abbrev win18_8 : Pipeline.Window sig grid18 :=
  Pipeline.Window.ofSpec (Memref.whole main_v198_1) S1x1x128.size cc18_transform_8 reads18_8 true false 1 stage18_8 sem18_8
    hrank18 hreads18_8 hinb18_8 nbuf18_8 (Memref.isWhole_whole _) hwx18_8 hstage18_8

abbrev win18_9 : Pipeline.Window sig grid18 :=
  Pipeline.Window.ofSpec (Memref.whole main_v198_2) S1x1x128.size cc18_transform_9 reads18_9 true false 1 stage18_9 sem18_9
    hrank18 hreads18_9 hinb18_9 nbuf18_9 (Memref.isWhole_whole _) hwx18_9 hstage18_9

abbrev win18 : Fin 10 → Pipeline.Window sig grid18 := fun | 0 => win18_0 | 1 => win18_1 | 2 => win18_2 | 3 => win18_3 | 4 => win18_4 | 5 => win18_5 | 6 => win18_6 | 7 => win18_7 | 8 => win18_8 | 9 => win18_9 | ⟨_ + 10, h⟩ => absurd h (Nat.not_lt.2 (Nat.le_add_left _ _))
abbrev spec18 : Fin 10 → Pipeline.WinSpec sig grid18.rank := fun w => (win18 w).toWinSpec

abbrev win19_0 : Pipeline.Window sig grid19 :=
  Pipeline.Window.ofSpec (Memref.whole main_v175) S4096x128.size cc19_transform_0 reads19_0 false false 1 stage19_0 sem19_0
    hrank19 hreads19_0 hinb19_0 nbuf19_0 (Memref.isWhole_whole _) hwx19_0 hstage19_0

abbrev win19_1 : Pipeline.Window sig grid19 :=
  Pipeline.Window.ofSpec (Memref.whole main_v178) S4096x128.size cc19_transform_1 reads19_1 false false 1 stage19_1 sem19_1
    hrank19 hreads19_1 hinb19_1 nbuf19_1 (Memref.isWhole_whole _) hwx19_1 hstage19_1

abbrev win19_2 : Pipeline.Window sig grid19 :=
  Pipeline.Window.ofSpec (Memref.whole main_v202) S128x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v213) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v214_0) S4096x128.size cc19_transform_4 reads19_4 true false 1 stage19_4 sem19_4
    hrank19 hreads19_4 hinb19_4 nbuf19_4 (Memref.isWhole_whole _) hwx19_4 hstage19_4

abbrev win19_5 : Pipeline.Window sig grid19 :=
  Pipeline.Window.ofSpec (Memref.whole main_v214_1) S1x1x128.size cc19_transform_5 reads19_5 true false 1 stage19_5 sem19_5
    hrank19 hreads19_5 hinb19_5 nbuf19_5 (Memref.isWhole_whole _) hwx19_5 hstage19_5

abbrev win19_6 : Pipeline.Window sig grid19 :=
  Pipeline.Window.ofSpec (Memref.whole main_v214_2) S1x1x128.size cc19_transform_6 reads19_6 true false 1 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v214_0) S4096x128.size cc20_transform_0 reads20_0 false false 1 stage20_0 sem20_0
    hrank20 hreads20_0 hinb20_0 nbuf20_0 (Memref.isWhole_whole _) hwx20_0 hstage20_0

abbrev win20_1 : Pipeline.Window sig grid20 :=
  Pipeline.Window.ofSpec (Memref.whole main_v210) S128x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v215) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v216) S1x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v218) S1x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v219) S1x128.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v217) S1x128.size cc20_transform_6 reads20_6 false true 1 stage20_6 sem20_6
    hrank20 hreads20_6 hinb20_6 nbuf20_6 (Memref.isWhole_whole _) hwx20_6 hstage20_6

abbrev win20_7 : Pipeline.Window sig grid20 :=
  Pipeline.Window.ofSpec (Memref.whole main_v220_0) S4096x128.size cc20_transform_7 reads20_7 true false 1 stage20_7 sem20_7
    hrank20 hreads20_7 hinb20_7 nbuf20_7 (Memref.isWhole_whole _) hwx20_7 hstage20_7

abbrev win20_8 : Pipeline.Window sig grid20 :=
  Pipeline.Window.ofSpec (Memref.whole main_v220_1) S1x1x128.size cc20_transform_8 reads20_8 true false 1 stage20_8 sem20_8
    hrank20 hreads20_8 hinb20_8 nbuf20_8 (Memref.isWhole_whole _) hwx20_8 hstage20_8

abbrev win20_9 : Pipeline.Window sig grid20 :=
  Pipeline.Window.ofSpec (Memref.whole main_v220_2) S1x1x128.size cc20_transform_9 reads20_9 true false 1 stage20_9 sem20_9
    hrank20 hreads20_9 hinb20_9 nbuf20_9 (Memref.isWhole_whole _) hwx20_9 hstage20_9

abbrev win20 : Fin 10 → Pipeline.Window sig grid20 := fun | 0 => win20_0 | 1 => win20_1 | 2 => win20_2 | 3 => win20_3 | 4 => win20_4 | 5 => win20_5 | 6 => win20_6 | 7 => win20_7 | 8 => win20_8 | 9 => win20_9 | ⟨_ + 10, h⟩ => absurd h (Nat.not_lt.2 (Nat.le_add_left _ _))
abbrev spec20 : Fin 10 → Pipeline.WinSpec sig grid20.rank := fun w => (win20 w).toWinSpec

abbrev win21_0 : Pipeline.Window sig grid21 :=
  Pipeline.Window.ofSpec (Memref.whole main_v177) S4096x128.size cc21_transform_0 reads21_0 false false 1 stage21_0 sem21_0
    hrank21 hreads21_0 hinb21_0 nbuf21_0 (Memref.isWhole_whole _) hwx21_0 hstage21_0

abbrev win21_1 : Pipeline.Window sig grid21 :=
  Pipeline.Window.ofSpec (Memref.whole main_v178) S4096x128.size cc21_transform_1 reads21_1 false false 1 stage21_1 sem21_1
    hrank21 hreads21_1 hinb21_1 nbuf21_1 (Memref.isWhole_whole _) hwx21_1 hstage21_1

abbrev win21_2 : Pipeline.Window sig grid21 :=
  Pipeline.Window.ofSpec (Memref.whole main_v224) S128x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v235) S1x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v236_0) S4096x128.size cc21_transform_4 reads21_4 true false 1 stage21_4 sem21_4
    hrank21 hreads21_4 hinb21_4 nbuf21_4 (Memref.isWhole_whole _) hwx21_4 hstage21_4

abbrev win21_5 : Pipeline.Window sig grid21 :=
  Pipeline.Window.ofSpec (Memref.whole main_v236_1) S1x1x128.size cc21_transform_5 reads21_5 true false 1 stage21_5 sem21_5
    hrank21 hreads21_5 hinb21_5 nbuf21_5 (Memref.isWhole_whole _) hwx21_5 hstage21_5

abbrev win21_6 : Pipeline.Window sig grid21 :=
  Pipeline.Window.ofSpec (Memref.whole main_v236_2) S1x1x128.size cc21_transform_6 reads21_6 true false 1 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

abbrev win22_0 : Pipeline.Window sig grid22 :=
  Pipeline.Window.ofSpec (Memref.whole main_v236_0) S4096x128.size cc22_transform_0 reads22_0 false false 1 stage22_0 sem22_0
    hrank22 hreads22_0 hinb22_0 nbuf22_0 (Memref.isWhole_whole _) hwx22_0 hstage22_0

abbrev win22_1 : Pipeline.Window sig grid22 :=
  Pipeline.Window.ofSpec (Memref.whole main_v232) S128x128.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v237) S1x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v238) S1x128.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v240) S1x128.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v241) S1x128.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v239) S1x128.size cc22_transform_6 reads22_6 false true 1 stage22_6 sem22_6
    hrank22 hreads22_6 hinb22_6 nbuf22_6 (Memref.isWhole_whole _) hwx22_6 hstage22_6

abbrev win22_7 : Pipeline.Window sig grid22 :=
  Pipeline.Window.ofSpec (Memref.whole main_v242_0) S4096x128.size cc22_transform_7 reads22_7 true false 1 stage22_7 sem22_7
    hrank22 hreads22_7 hinb22_7 nbuf22_7 (Memref.isWhole_whole _) hwx22_7 hstage22_7

abbrev win22_8 : Pipeline.Window sig grid22 :=
  Pipeline.Window.ofSpec (Memref.whole main_v242_1) S1x1x128.size cc22_transform_8 reads22_8 true false 1 stage22_8 sem22_8
    hrank22 hreads22_8 hinb22_8 nbuf22_8 (Memref.isWhole_whole _) hwx22_8 hstage22_8

abbrev win22_9 : Pipeline.Window sig grid22 :=
  Pipeline.Window.ofSpec (Memref.whole main_v242_2) S1x1x128.size cc22_transform_9 reads22_9 true false 1 stage22_9 sem22_9
    hrank22 hreads22_9 hinb22_9 nbuf22_9 (Memref.isWhole_whole _) hwx22_9 hstage22_9

abbrev win22 : Fin 10 → Pipeline.Window sig grid22 := fun | 0 => win22_0 | 1 => win22_1 | 2 => win22_2 | 3 => win22_3 | 4 => win22_4 | 5 => win22_5 | 6 => win22_6 | 7 => win22_7 | 8 => win22_8 | 9 => win22_9 | ⟨_ + 10, h⟩ => absurd h (Nat.not_lt.2 (Nat.le_add_left _ _))
abbrev spec22 : Fin 10 → Pipeline.WinSpec sig grid22.rank := fun w => (win22 w).toWinSpec

abbrev win23_0 : Pipeline.Window sig grid23 :=
  Pipeline.Window.ofSpec (Memref.whole main_v198_0) S4096x128.size cc23_transform_0 reads23_0 false false 1 stage23_0 sem23_0
    hrank23 hreads23_0 hinb23_0 nbuf23_0 (Memref.isWhole_whole _) hwx23_0 hstage23_0

abbrev win23_1 : Pipeline.Window sig grid23 :=
  Pipeline.Window.ofSpec (Memref.whole main_v245) S128x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v199) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v200) S1x128.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v261) S1x128.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v262) S1x128.size cc23_transform_5 reads23_5 false true 1 stage23_5 sem23_5
    hrank23 hreads23_5 hinb23_5 nbuf23_5 (Memref.isWhole_whole _) hwx23_5 hstage23_5

abbrev win23_6 : Pipeline.Window sig grid23 :=
  Pipeline.Window.ofSpec (Memref.whole main_v220_0) S4096x128.size cc23_transform_6 reads23_6 false false 1 stage23_6 sem23_6
    hrank23 hreads23_6 hinb23_6 nbuf23_6 (Memref.isWhole_whole _) hwx23_6 hstage23_6

abbrev win23_7 : Pipeline.Window sig grid23 :=
  Pipeline.Window.ofSpec (Memref.whole main_v250) S128x128.size cc23_transform_7 reads23_7 false true 1 stage23_7 sem23_7
    hrank23 hreads23_7 hinb23_7 nbuf23_7 (Memref.isWhole_whole _) hwx23_7 hstage23_7

abbrev win23_8 : Pipeline.Window sig grid23 :=
  Pipeline.Window.ofSpec (Memref.whole main_v221) S1x128.size cc23_transform_8 reads23_8 false true 1 stage23_8 sem23_8
    hrank23 hreads23_8 hinb23_8 nbuf23_8 (Memref.isWhole_whole _) hwx23_8 hstage23_8

abbrev win23_9 : Pipeline.Window sig grid23 :=
  Pipeline.Window.ofSpec (Memref.whole main_v222) S1x128.size cc23_transform_9 reads23_9 false true 1 stage23_9 sem23_9
    hrank23 hreads23_9 hinb23_9 nbuf23_9 (Memref.isWhole_whole _) hwx23_9 hstage23_9

abbrev win23_10 : Pipeline.Window sig grid23 :=
  Pipeline.Window.ofSpec (Memref.whole main_v263) S1x128.size cc23_transform_10 reads23_10 false true 1 stage23_10 sem23_10
    hrank23 hreads23_10 hinb23_10 nbuf23_10 (Memref.isWhole_whole _) hwx23_10 hstage23_10

abbrev win23_11 : Pipeline.Window sig grid23 :=
  Pipeline.Window.ofSpec (Memref.whole main_v264) S1x128.size cc23_transform_11 reads23_11 false true 1 stage23_11 sem23_11
    hrank23 hreads23_11 hinb23_11 nbuf23_11 (Memref.isWhole_whole _) hwx23_11 hstage23_11

abbrev win23_12 : Pipeline.Window sig grid23 :=
  Pipeline.Window.ofSpec (Memref.whole main_v242_0) S4096x128.size cc23_transform_12 reads23_12 false false 1 stage23_12 sem23_12
    hrank23 hreads23_12 hinb23_12 nbuf23_12 (Memref.isWhole_whole _) hwx23_12 hstage23_12

abbrev win23_13 : Pipeline.Window sig grid23 :=
  Pipeline.Window.ofSpec (Memref.whole main_v255) S128x128.size cc23_transform_13 reads23_13 false true 1 stage23_13 sem23_13
    hrank23 hreads23_13 hinb23_13 nbuf23_13 (Memref.isWhole_whole _) hwx23_13 hstage23_13

abbrev win23_14 : Pipeline.Window sig grid23 :=
  Pipeline.Window.ofSpec (Memref.whole main_v243) S1x128.size cc23_transform_14 reads23_14 false true 1 stage23_14 sem23_14
    hrank23 hreads23_14 hinb23_14 nbuf23_14 (Memref.isWhole_whole _) hwx23_14 hstage23_14

abbrev win23_15 : Pipeline.Window sig grid23 :=
  Pipeline.Window.ofSpec (Memref.whole main_v244) S1x128.size cc23_transform_15 reads23_15 false true 1 stage23_15 sem23_15
    hrank23 hreads23_15 hinb23_15 nbuf23_15 (Memref.isWhole_whole _) hwx23_15 hstage23_15

abbrev win23_16 : Pipeline.Window sig grid23 :=
  Pipeline.Window.ofSpec (Memref.whole main_v265) S1x128.size cc23_transform_16 reads23_16 false true 1 stage23_16 sem23_16
    hrank23 hreads23_16 hinb23_16 nbuf23_16 (Memref.isWhole_whole _) hwx23_16 hstage23_16

abbrev win23_17 : Pipeline.Window sig grid23 :=
  Pipeline.Window.ofSpec (Memref.whole main_v266) S1x128.size cc23_transform_17 reads23_17 false true 1 stage23_17 sem23_17
    hrank23 hreads23_17 hinb23_17 nbuf23_17 (Memref.isWhole_whole _) hwx23_17 hstage23_17

abbrev win23_18 : Pipeline.Window sig grid23 :=
  Pipeline.Window.ofSpec (Memref.whole main_v260) S1x128.size cc23_transform_18 reads23_18 false true 1 stage23_18 sem23_18
    hrank23 hreads23_18 hinb23_18 nbuf23_18 (Memref.isWhole_whole _) hwx23_18 hstage23_18

abbrev win23_19 : Pipeline.Window sig grid23 :=
  Pipeline.Window.ofSpec (Memref.whole main_v267_0) S4096x128.size cc23_transform_19 reads23_19 true false 1 stage23_19 sem23_19
    hrank23 hreads23_19 hinb23_19 nbuf23_19 (Memref.isWhole_whole _) hwx23_19 hstage23_19

abbrev win23_20 : Pipeline.Window sig grid23 :=
  Pipeline.Window.ofSpec (Memref.whole main_v267_1) S1x1x128.size cc23_transform_20 reads23_20 true false 1 stage23_20 sem23_20
    hrank23 hreads23_20 hinb23_20 nbuf23_20 (Memref.isWhole_whole _) hwx23_20 hstage23_20

abbrev win23_21 : Pipeline.Window sig grid23 :=
  Pipeline.Window.ofSpec (Memref.whole main_v267_2) S1x1x128.size cc23_transform_21 reads23_21 true false 1 stage23_21 sem23_21
    hrank23 hreads23_21 hinb23_21 nbuf23_21 (Memref.isWhole_whole _) hwx23_21 hstage23_21

abbrev win23 : Fin 22 → Pipeline.Window sig grid23 := fun | 0 => win23_0 | 1 => win23_1 | 2 => win23_2 | 3 => win23_3 | 4 => win23_4 | 5 => win23_5 | 6 => win23_6 | 7 => win23_7 | 8 => win23_8 | 9 => win23_9 | 10 => win23_10 | 11 => win23_11 | 12 => win23_12 | 13 => win23_13 | 14 => win23_14 | 15 => win23_15 | 16 => win23_16 | 17 => win23_17 | 18 => win23_18 | 19 => win23_19 | 20 => win23_20 | 21 => win23_21 | ⟨_ + 22, h⟩ => absurd h (Nat.not_lt.2 (Nat.le_add_left _ _))
abbrev spec23 : Fin 22 → Pipeline.WinSpec sig grid23.rank := fun w => (win23 w).toWinSpec

abbrev win24_0 : Pipeline.Window sig grid24 :=
  Pipeline.Window.ofSpec (Memref.whole main_v267_0) S4096x128.size cc24_transform_0 reads24_0 false false 1 stage24_0 sem24_0
    hrank24 hreads24_0 hinb24_0 nbuf24_0 (Memref.isWhole_whole _) hwx24_0 hstage24_0

abbrev win24_1 : Pipeline.Window sig grid24 :=
  Pipeline.Window.ofSpec (Memref.whole main_v268) S1x128.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v269) S1x128.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v270) S1x128.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v271) S1x128.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v272) S4096x128.size cc24_transform_5 reads24_5 true false 1 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

class Facts : Prop extends Facts₀ where

variable [Facts]
-- ==== ReferenceIdeal.lean ====
abbrev S16384x128 : Shape := ⟨2, ![16384, 128]⟩
abbrev S262144x128 : Shape := ⟨2, ![262144, 128]⟩
abbrev S2x262144 : Shape := ⟨2, ![2, 262144]⟩
abbrev S64x64x128 : Shape := ⟨3, ![64, 64, 128]⟩
abbrev S64x8x128 : Shape := ⟨3, ![64, 8, 128]⟩
abbrev S64x64x64 : Shape := ⟨3, ![64, 64, 64]⟩
abbrev S64x256x64 : Shape := ⟨3, ![64, 256, 64]⟩
abbrev S64x64x8 : Shape := ⟨3, ![64, 64, 8]⟩
abbrev S64x64x256 : Shape := ⟨3, ![64, 64, 256]⟩
abbrev S256x128 : Shape := ⟨2, ![256, 128]⟩
abbrev S128 : Shape := ⟨1, ![128]⟩
abbrev S7x128x128 : Shape := ⟨3, ![7, 128, 128]⟩
abbrev S7x128 : Shape := ⟨2, ![7, 128]⟩
abbrev S384x128 : Shape := ⟨2, ![384, 128]⟩
abbrev S1x262144 : Shape := ⟨2, ![1, 262144]⟩
abbrev S262144 : Shape := ⟨1, ![262144]⟩
abbrev S64x256x128 : Shape := ⟨3, ![64, 256, 128]⟩
abbrev S_ : Shape := ⟨0, ![]⟩
abbrev S262144x1 : Shape := ⟨2, ![262144, 1]⟩
abbrev S262144x256 : Shape := ⟨2, ![262144, 256]⟩
abbrev S1x128 : Shape := ⟨2, ![1, 128]⟩
abbrev S1x128x128 : Shape := ⟨3, ![1, 128, 128]⟩
abbrev S128x128 : Shape := ⟨2, ![128, 128]⟩
abbrev S16384x256 : Shape := ⟨2, ![16384, 256]⟩
abbrev S4096x128 : Shape := ⟨2, ![4096, 128]⟩
abbrev S4096x384 : Shape := ⟨2, ![4096, 384]⟩

abbrev nBuf : Space → Nat
  | .hbm => 855
  | .vmem => 0
  | .smem => 0
  | _ => 0

abbrev hbmTy0_0 (i : Nat) : BufTy := match i % 128 with
  | 0 => ⟨S16384x128, .f32⟩
  | 1 => ⟨S262144x128, .f32⟩
  | 2 => ⟨S2x262144, .i32⟩
  | 3 => ⟨S64x64x128, .f32⟩
  | 4 => ⟨S64x8x128, .f32⟩
  | 5 => ⟨S64x64x64, .f32⟩
  | 6 => ⟨S64x256x64, .f32⟩
  | 7 => ⟨S64x64x8, .f32⟩
  | 8 => ⟨S64x64x256, .f32⟩
  | 9 => ⟨S256x128, .f32⟩
  | 10 => ⟨S128, .f32⟩
  | 11 => ⟨S7x128x128, .f32⟩
  | 12 => ⟨S7x128, .f32⟩
  | 13 => ⟨S7x128, .f32⟩
  | 14 => ⟨S7x128, .f32⟩
  | 15 => ⟨S7x128x128, .f32⟩
  | 16 => ⟨S7x128, .f32⟩
  | 17 => ⟨S7x128, .f32⟩
  | 18 => ⟨S7x128, .f32⟩
  | 19 => ⟨S256x128, .f32⟩
  | 20 => ⟨S128, .f32⟩
  | 21 => ⟨S128, .f32⟩
  | 22 => ⟨S128, .f32⟩
  | 23 => ⟨S256x128, .f32⟩
  | 24 => ⟨S128, .f32⟩
  | 25 => ⟨S128, .f32⟩
  | 26 => ⟨S128, .f32⟩
  | 27 => ⟨S384x128, .f32⟩
  | 28 => ⟨S128, .f32⟩
  | 29 => ⟨S128, .f32⟩
  | 30 => ⟨S128, .f32⟩
  | 31 => ⟨S1x262144, .i32⟩
  | 32 => ⟨S262144, .i32⟩
  | 33 => ⟨S1x262144, .i32⟩
  | 34 => ⟨S262144, .i32⟩
  | 35 => ⟨S64x256x128, .f32⟩
  | 36 => ⟨S16384x128, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144x128, .f32⟩
  | 46 => ⟨S262144x256, .f32⟩
  | 47 => ⟨S262144x128, .f32⟩
  | 48 => ⟨S1x128, .f32⟩
  | 49 => ⟨S262144x128, .f32⟩
  | 50 => ⟨S262144x128, .f32⟩
  | 51 => ⟨S_, .f32⟩
  | 52 => ⟨S262144x128, .f32⟩
  | 53 => ⟨S262144x128, .f32⟩
  | 54 => ⟨S_, .f32⟩
  | 55 => ⟨S16384x128, .f32⟩
  | 56 => ⟨S262144x1, .i32⟩
  | 57 => ⟨S16384x128, .f32⟩
  | 58 => ⟨S16384x128, .f32⟩
  | 59 => ⟨S1x128x128, .f32⟩
  | 60 => ⟨S128x128, .f32⟩
  | 61 => ⟨S16384x128, .f32⟩
  | 62 => ⟨S1x128, .f32⟩
  | 63 => ⟨S128, .f32⟩
  | 64 => ⟨S1x128, .f32⟩
  | 65 => ⟨S16384x128, .f32⟩
  | 66 => ⟨S16384x128, .f32⟩
  | 67 => ⟨S1x128, .f32⟩
  | 68 => ⟨S128, .f32⟩
  | 69 => ⟨S1x128, .f32⟩
  | 70 => ⟨S128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S16384x128, .f32⟩
  | 78 => ⟨S16384x128, .f32⟩
  | 79 => ⟨S16384x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S16384x128, .f32⟩
  | 87 => ⟨S16384x128, .f32⟩
  | 88 => ⟨S_, .f32⟩
  | 89 => ⟨S128, .f32⟩
  | 90 => ⟨S128, .f32⟩
  | 91 => ⟨S128, .f32⟩
  | 92 => ⟨S1x128, .f32⟩
  | 93 => ⟨S16384x128, .f32⟩
  | 94 => ⟨S16384x128, .f32⟩
  | 95 => ⟨S1x128, .f32⟩
  | 96 => ⟨S16384x128, .f32⟩
  | 97 => ⟨S16384x128, .f32⟩
  | 98 => ⟨S1x128, .f32⟩
  | 99 => ⟨S16384x128, .f32⟩
  | 100 => ⟨S16384x128, .f32⟩
  | 101 => ⟨S_, .f32⟩
  | 102 => ⟨S16384x128, .f32⟩
  | 103 => ⟨S16384x128, .f32⟩
  | 104 => ⟨S1x128x128, .f32⟩
  | 105 => ⟨S128x128, .f32⟩
  | 106 => ⟨S16384x128, .f32⟩
  | 107 => ⟨S1x128, .f32⟩
  | 108 => ⟨S128, .f32⟩
  | 109 => ⟨S1x128, .f32⟩
  | 110 => ⟨S16384x128, .f32⟩
  | 111 => ⟨S16384x128, .f32⟩
  | 112 => ⟨S1x128, .f32⟩
  | 113 => ⟨S128, .f32⟩
  | 114 => ⟨S1x128, .f32⟩
  | 115 => ⟨S128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S16384x128, .f32⟩
  | 123 => ⟨S16384x128, .f32⟩
  | 124 => ⟨S16384x128, .f32⟩
  | 125 => ⟨S_, .f32⟩
  | 126 => ⟨S128, .f32⟩
  | 127 => ⟨S_, .f32⟩
  | _ => ⟨S16384x128, .f32⟩

abbrev hbmTy0_1 (i : Nat) : BufTy := match i % 128 with
  | 0 => ⟨S128, .f32⟩
  | 1 => ⟨S128, .f32⟩
  | 2 => ⟨S1x128, .f32⟩
  | 3 => ⟨S16384x128, .f32⟩
  | 4 => ⟨S16384x128, .f32⟩
  | 5 => ⟨S_, .f32⟩
  | 6 => ⟨S128, .f32⟩
  | 7 => ⟨S128, .f32⟩
  | 8 => ⟨S128, .f32⟩
  | 9 => ⟨S1x128, .f32⟩
  | 10 => ⟨S16384x128, .f32⟩
  | 11 => ⟨S16384x128, .f32⟩
  | 12 => ⟨S1x128, .f32⟩
  | 13 => ⟨S16384x128, .f32⟩
  | 14 => ⟨S16384x128, .f32⟩
  | 15 => ⟨S1x128, .f32⟩
  | 16 => ⟨S16384x128, .f32⟩
  | 17 => ⟨S16384x128, .f32⟩
  | 18 => ⟨S_, .f32⟩
  | 19 => ⟨S16384x128, .f32⟩
  | 20 => ⟨S16384x128, .f32⟩
  | 21 => ⟨S16384x128, .f32⟩
  | 22 => ⟨S1x128x128, .f32⟩
  | 23 => ⟨S128x128, .f32⟩
  | 24 => ⟨S16384x128, .f32⟩
  | 25 => ⟨S1x128, .f32⟩
  | 26 => ⟨S128, .f32⟩
  | 27 => ⟨S1x128, .f32⟩
  | 28 => ⟨S16384x128, .f32⟩
  | 29 => ⟨S16384x128, .f32⟩
  | 30 => ⟨S1x128, .f32⟩
  | 31 => ⟨S128, .f32⟩
  | 32 => ⟨S1x128, .f32⟩
  | 33 => ⟨S128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S16384x128, .f32⟩
  | 41 => ⟨S16384x128, .f32⟩
  | 42 => ⟨S16384x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S16384x128, .f32⟩
  | 50 => ⟨S16384x128, .f32⟩
  | 51 => ⟨S_, .f32⟩
  | 52 => ⟨S128, .f32⟩
  | 53 => ⟨S128, .f32⟩
  | 54 => ⟨S128, .f32⟩
  | 55 => ⟨S1x128, .f32⟩
  | 56 => ⟨S16384x128, .f32⟩
  | 57 => ⟨S16384x128, .f32⟩
  | 58 => ⟨S1x128, .f32⟩
  | 59 => ⟨S16384x128, .f32⟩
  | 60 => ⟨S16384x128, .f32⟩
  | 61 => ⟨S1x128, .f32⟩
  | 62 => ⟨S16384x128, .f32⟩
  | 63 => ⟨S16384x128, .f32⟩
  | 64 => ⟨S_, .f32⟩
  | 65 => ⟨S16384x128, .f32⟩
  | 66 => ⟨S16384x128, .f32⟩
  | 67 => ⟨S1x128x128, .f32⟩
  | 68 => ⟨S128x128, .f32⟩
  | 69 => ⟨S16384x128, .f32⟩
  | 70 => ⟨S1x128, .f32⟩
  | 71 => ⟨S128, .f32⟩
  | 72 => ⟨S1x128, .f32⟩
  | 73 => ⟨S16384x128, .f32⟩
  | 74 => ⟨S16384x128, .f32⟩
  | 75 => ⟨S1x128, .f32⟩
  | 76 => ⟨S128, .f32⟩
  | 77 => ⟨S1x128, .f32⟩
  | 78 => ⟨S128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S16384x128, .f32⟩
  | 86 => ⟨S16384x128, .f32⟩
  | 87 => ⟨S16384x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S16384x128, .f32⟩
  | 95 => ⟨S16384x128, .f32⟩
  | 96 => ⟨S_, .f32⟩
  | 97 => ⟨S128, .f32⟩
  | 98 => ⟨S128, .f32⟩
  | 99 => ⟨S128, .f32⟩
  | 100 => ⟨S1x128, .f32⟩
  | 101 => ⟨S16384x128, .f32⟩
  | 102 => ⟨S16384x128, .f32⟩
  | 103 => ⟨S1x128, .f32⟩
  | 104 => ⟨S16384x128, .f32⟩
  | 105 => ⟨S16384x128, .f32⟩
  | 106 => ⟨S1x128, .f32⟩
  | 107 => ⟨S16384x128, .f32⟩
  | 108 => ⟨S16384x128, .f32⟩
  | 109 => ⟨S_, .f32⟩
  | 110 => ⟨S16384x128, .f32⟩
  | 111 => ⟨S16384x128, .f32⟩
  | 112 => ⟨S16384x256, .f32⟩
  | 113 => ⟨S16384x128, .f32⟩
  | 114 => ⟨S1x128, .f32⟩
  | 115 => ⟨S16384x128, .f32⟩
  | 116 => ⟨S16384x128, .f32⟩
  | 117 => ⟨S_, .f32⟩
  | 118 => ⟨S128, .f32⟩
  | 119 => ⟨S_, .f32⟩
  | 120 => ⟨S128, .f32⟩
  | 121 => ⟨S128, .f32⟩
  | 122 => ⟨S1x128, .f32⟩
  | 123 => ⟨S16384x128, .f32⟩
  | 124 => ⟨S16384x128, .f32⟩
  | 125 => ⟨S16384x128, .f32⟩
  | 126 => ⟨S_, .f32⟩
  | 127 => ⟨S128, .f32⟩
  | _ => ⟨S16384x128, .f32⟩

abbrev hbmTy0_2 (i : Nat) : BufTy := match i % 128 with
  | 0 => ⟨S_, .f32⟩
  | 1 => ⟨S128, .f32⟩
  | 2 => ⟨S128, .f32⟩
  | 3 => ⟨S1x128, .f32⟩
  | 4 => ⟨S16384x128, .f32⟩
  | 5 => ⟨S16384x128, .f32⟩
  | 6 => ⟨S_, .f32⟩
  | 7 => ⟨S128, .f32⟩
  | 8 => ⟨S128, .f32⟩
  | 9 => ⟨S128, .f32⟩
  | 10 => ⟨S1x128, .f32⟩
  | 11 => ⟨S16384x128, .f32⟩
  | 12 => ⟨S16384x128, .f32⟩
  | 13 => ⟨S1x128, .f32⟩
  | 14 => ⟨S16384x128, .f32⟩
  | 15 => ⟨S16384x128, .f32⟩
  | 16 => ⟨S1x128, .f32⟩
  | 17 => ⟨S16384x128, .f32⟩
  | 18 => ⟨S16384x128, .f32⟩
  | 19 => ⟨S_, .f32⟩
  | 20 => ⟨S16384x128, .f32⟩
  | 21 => ⟨S16384x128, .f32⟩
  | 22 => ⟨S_, .i32⟩
  | 23 => ⟨S262144, .i32⟩
  | 24 => ⟨S262144, .i1⟩
  | 25 => ⟨S_, .i32⟩
  | 26 => ⟨S262144, .i32⟩
  | 27 => ⟨S262144, .i32⟩
  | 28 => ⟨S262144, .i32⟩
  | 29 => ⟨S262144x1, .i32⟩
  | 30 => ⟨S262144x128, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x128, .f32⟩
  | 40 => ⟨S262144x128, .f32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S262144x128, .f32⟩
  | 50 => ⟨S_, .i32⟩
  | 51 => ⟨S262144, .i32⟩
  | 52 => ⟨S262144, .i1⟩
  | 53 => ⟨S_, .i32⟩
  | 54 => ⟨S262144, .i32⟩
  | 55 => ⟨S262144, .i32⟩
  | 56 => ⟨S262144, .i32⟩
  | 57 => ⟨S262144x1, .i32⟩
  | 58 => ⟨S262144x128, .f32⟩
  | 59 => ⟨S262144x128, .f32⟩
  | 60 => ⟨S262144x128, .f32⟩
  | 61 => ⟨S1x128x128, .f32⟩
  | 62 => ⟨S128x128, .f32⟩
  | 63 => ⟨S262144x128, .f32⟩
  | 64 => ⟨S1x128, .f32⟩
  | 65 => ⟨S128, .f32⟩
  | 66 => ⟨S1x128, .f32⟩
  | 67 => ⟨S262144x128, .f32⟩
  | 68 => ⟨S262144x128, .f32⟩
  | 69 => ⟨S1x128, .f32⟩
  | 70 => ⟨S128, .f32⟩
  | 71 => ⟨S1x128, .f32⟩
  | 72 => ⟨S128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S262144x128, .f32⟩
  | 80 => ⟨S262144x128, .f32⟩
  | 81 => ⟨S262144x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S262144x128, .f32⟩
  | 89 => ⟨S262144x128, .f32⟩
  | 90 => ⟨S_, .f32⟩
  | 91 => ⟨S128, .f32⟩
  | 92 => ⟨S128, .f32⟩
  | 93 => ⟨S128, .f32⟩
  | 94 => ⟨S1x128, .f32⟩
  | 95 => ⟨S262144x128, .f32⟩
  | 96 => ⟨S262144x128, .f32⟩
  | 97 => ⟨S1x128, .f32⟩
  | 98 => ⟨S262144x128, .f32⟩
  | 99 => ⟨S262144x128, .f32⟩
  | 100 => ⟨S1x128, .f32⟩
  | 101 => ⟨S262144x128, .f32⟩
  | 102 => ⟨S262144x128, .f32⟩
  | 103 => ⟨S_, .f32⟩
  | 104 => ⟨S262144x128, .f32⟩
  | 105 => ⟨S262144x128, .f32⟩
  | 106 => ⟨S1x128x128, .f32⟩
  | 107 => ⟨S128x128, .f32⟩
  | 108 => ⟨S262144x128, .f32⟩
  | 109 => ⟨S1x128, .f32⟩
  | 110 => ⟨S128, .f32⟩
  | 111 => ⟨S1x128, .f32⟩
  | 112 => ⟨S262144x128, .f32⟩
  | 113 => ⟨S262144x128, .f32⟩
  | 114 => ⟨S1x128, .f32⟩
  | 115 => ⟨S128, .f32⟩
  | 116 => ⟨S1x128, .f32⟩
  | 117 => ⟨S128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S262144x128, .f32⟩
  | 125 => ⟨S262144x128, .f32⟩
  | 126 => ⟨S262144x128, .f32⟩
  | 127 => ⟨S_, .f32⟩
  | _ => ⟨S16384x128, .f32⟩

abbrev hbmTy0_3 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S262144x128, .f32⟩
  | 6 => ⟨S262144x128, .f32⟩
  | 7 => ⟨S_, .f32⟩
  | 8 => ⟨S128, .f32⟩
  | 9 => ⟨S128, .f32⟩
  | 10 => ⟨S128, .f32⟩
  | 11 => ⟨S1x128, .f32⟩
  | 12 => ⟨S262144x128, .f32⟩
  | 13 => ⟨S262144x128, .f32⟩
  | 14 => ⟨S1x128, .f32⟩
  | 15 => ⟨S262144x128, .f32⟩
  | 16 => ⟨S262144x128, .f32⟩
  | 17 => ⟨S1x128, .f32⟩
  | 18 => ⟨S262144x128, .f32⟩
  | 19 => ⟨S262144x128, .f32⟩
  | 20 => ⟨S_, .f32⟩
  | 21 => ⟨S262144x128, .f32⟩
  | 22 => ⟨S262144x128, .f32⟩
  | 23 => ⟨S262144x128, .f32⟩
  | 24 => ⟨S1x128x128, .f32⟩
  | 25 => ⟨S128x128, .f32⟩
  | 26 => ⟨S262144x128, .f32⟩
  | 27 => ⟨S1x128, .f32⟩
  | 28 => ⟨S128, .f32⟩
  | 29 => ⟨S1x128, .f32⟩
  | 30 => ⟨S262144x128, .f32⟩
  | 31 => ⟨S262144x128, .f32⟩
  | 32 => ⟨S1x128, .f32⟩
  | 33 => ⟨S128, .f32⟩
  | 34 => ⟨S1x128, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S262144x128, .f32⟩
  | 43 => ⟨S262144x128, .f32⟩
  | 44 => ⟨S262144x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S262144x128, .f32⟩
  | 52 => ⟨S262144x128, .f32⟩
  | 53 => ⟨S_, .f32⟩
  | 54 => ⟨S128, .f32⟩
  | 55 => ⟨S128, .f32⟩
  | 56 => ⟨S128, .f32⟩
  | 57 => ⟨S1x128, .f32⟩
  | 58 => ⟨S262144x128, .f32⟩
  | 59 => ⟨S262144x128, .f32⟩
  | 60 => ⟨S1x128, .f32⟩
  | 61 => ⟨S262144x128, .f32⟩
  | 62 => ⟨S262144x128, .f32⟩
  | 63 => ⟨S1x128, .f32⟩
  | 64 => ⟨S262144x128, .f32⟩
  | 65 => ⟨S262144x128, .f32⟩
  | 66 => ⟨S_, .f32⟩
  | 67 => ⟨S262144x128, .f32⟩
  | 68 => ⟨S262144x128, .f32⟩
  | 69 => ⟨S1x128x128, .f32⟩
  | 70 => ⟨S128x128, .f32⟩
  | 71 => ⟨S262144x128, .f32⟩
  | 72 => ⟨S1x128, .f32⟩
  | 73 => ⟨S128, .f32⟩
  | 74 => ⟨S1x128, .f32⟩
  | 75 => ⟨S262144x128, .f32⟩
  | 76 => ⟨S262144x128, .f32⟩
  | 77 => ⟨S1x128, .f32⟩
  | 78 => ⟨S128, .f32⟩
  | 79 => ⟨S1x128, .f32⟩
  | 80 => ⟨S128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S262144x128, .f32⟩
  | 88 => ⟨S262144x128, .f32⟩
  | 89 => ⟨S262144x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S262144x128, .f32⟩
  | 97 => ⟨S262144x128, .f32⟩
  | 98 => ⟨S_, .f32⟩
  | 99 => ⟨S128, .f32⟩
  | 100 => ⟨S128, .f32⟩
  | 101 => ⟨S128, .f32⟩
  | 102 => ⟨S1x128, .f32⟩
  | 103 => ⟨S262144x128, .f32⟩
  | 104 => ⟨S262144x128, .f32⟩
  | 105 => ⟨S1x128, .f32⟩
  | 106 => ⟨S262144x128, .f32⟩
  | 107 => ⟨S262144x128, .f32⟩
  | 108 => ⟨S1x128, .f32⟩
  | 109 => ⟨S262144x128, .f32⟩
  | 110 => ⟨S262144x128, .f32⟩
  | 111 => ⟨S_, .f32⟩
  | 112 => ⟨S262144x128, .f32⟩
  | 113 => ⟨S262144x128, .f32⟩
  | 114 => ⟨S262144x256, .f32⟩
  | 115 => ⟨S262144x128, .f32⟩
  | 116 => ⟨S1x128, .f32⟩
  | 117 => ⟨S262144x128, .f32⟩
  | 118 => ⟨S262144x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S262144x128, .f32⟩
  | 126 => ⟨S262144x128, .f32⟩
  | 127 => ⟨S262144x128, .f32⟩
  | _ => ⟨S16384x128, .f32⟩

abbrev hbmTy0_4 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S262144x128, .f32⟩
  | 7 => ⟨S262144x128, .f32⟩
  | 8 => ⟨S_, .f32⟩
  | 9 => ⟨S128, .f32⟩
  | 10 => ⟨S128, .f32⟩
  | 11 => ⟨S128, .f32⟩
  | 12 => ⟨S1x128, .f32⟩
  | 13 => ⟨S262144x128, .f32⟩
  | 14 => ⟨S262144x128, .f32⟩
  | 15 => ⟨S1x128, .f32⟩
  | 16 => ⟨S262144x128, .f32⟩
  | 17 => ⟨S262144x128, .f32⟩
  | 18 => ⟨S1x128, .f32⟩
  | 19 => ⟨S262144x128, .f32⟩
  | 20 => ⟨S262144x128, .f32⟩
  | 21 => ⟨S_, .f32⟩
  | 22 => ⟨S262144x128, .f32⟩
  | 23 => ⟨S262144x128, .f32⟩
  | 24 => ⟨S64x256x128, .f32⟩
  | 25 => ⟨S64x64x128, .f32⟩
  | 26 => ⟨S64x64x128, .f32⟩
  | 27 => ⟨S64x64x128, .f32⟩
  | 28 => ⟨S64x64x128, .f32⟩
  | 29 => ⟨S4096x128, .f32⟩
  | 30 => ⟨S1x128x128, .f32⟩
  | 31 => ⟨S128x128, .f32⟩
  | 32 => ⟨S4096x128, .f32⟩
  | 33 => ⟨S1x128, .f32⟩
  | 34 => ⟨S128, .f32⟩
  | 35 => ⟨S1x128, .f32⟩
  | 36 => ⟨S4096x128, .f32⟩
  | 37 => ⟨S4096x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S4096x128, .f32⟩
  | 49 => ⟨S4096x128, .f32⟩
  | 50 => ⟨S4096x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S4096x128, .f32⟩
  | 58 => ⟨S4096x128, .f32⟩
  | 59 => ⟨S_, .f32⟩
  | 60 => ⟨S128, .f32⟩
  | 61 => ⟨S128, .f32⟩
  | 62 => ⟨S128, .f32⟩
  | 63 => ⟨S1x128, .f32⟩
  | 64 => ⟨S4096x128, .f32⟩
  | 65 => ⟨S4096x128, .f32⟩
  | 66 => ⟨S1x128, .f32⟩
  | 67 => ⟨S4096x128, .f32⟩
  | 68 => ⟨S4096x128, .f32⟩
  | 69 => ⟨S1x128, .f32⟩
  | 70 => ⟨S4096x128, .f32⟩
  | 71 => ⟨S4096x128, .f32⟩
  | 72 => ⟨S_, .f32⟩
  | 73 => ⟨S4096x128, .f32⟩
  | 74 => ⟨S4096x128, .f32⟩
  | 75 => ⟨S1x128x128, .f32⟩
  | 76 => ⟨S128x128, .f32⟩
  | 77 => ⟨S4096x128, .f32⟩
  | 78 => ⟨S1x128, .f32⟩
  | 79 => ⟨S128, .f32⟩
  | 80 => ⟨S1x128, .f32⟩
  | 81 => ⟨S4096x128, .f32⟩
  | 82 => ⟨S4096x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S4096x128, .f32⟩
  | 94 => ⟨S4096x128, .f32⟩
  | 95 => ⟨S4096x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S4096x128, .f32⟩
  | 103 => ⟨S4096x128, .f32⟩
  | 104 => ⟨S_, .f32⟩
  | 105 => ⟨S128, .f32⟩
  | 106 => ⟨S128, .f32⟩
  | 107 => ⟨S128, .f32⟩
  | 108 => ⟨S1x128, .f32⟩
  | 109 => ⟨S4096x128, .f32⟩
  | 110 => ⟨S4096x128, .f32⟩
  | 111 => ⟨S1x128, .f32⟩
  | 112 => ⟨S4096x128, .f32⟩
  | 113 => ⟨S4096x128, .f32⟩
  | 114 => ⟨S1x128, .f32⟩
  | 115 => ⟨S4096x128, .f32⟩
  | 116 => ⟨S4096x128, .f32⟩
  | 117 => ⟨S_, .f32⟩
  | 118 => ⟨S4096x128, .f32⟩
  | 119 => ⟨S4096x128, .f32⟩
  | 120 => ⟨S64x64x128, .f32⟩
  | 121 => ⟨S4096x128, .f32⟩
  | 122 => ⟨S1x128x128, .f32⟩
  | 123 => ⟨S128x128, .f32⟩
  | 124 => ⟨S4096x128, .f32⟩
  | 125 => ⟨S1x128, .f32⟩
  | 126 => ⟨S128, .f32⟩
  | 127 => ⟨S1x128, .f32⟩
  | _ => ⟨S16384x128, .f32⟩

abbrev hbmTy0_5 (i : Nat) : BufTy := match i % 128 with
  | 0 => ⟨S4096x128, .f32⟩
  | 1 => ⟨S4096x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S4096x128, .f32⟩
  | 13 => ⟨S4096x128, .f32⟩
  | 14 => ⟨S4096x128, .f32⟩
  | 15 => ⟨S_, .f32⟩
  | 16 => ⟨S128, .f32⟩
  | 17 => ⟨S_, .f32⟩
  | 18 => ⟨S128, .f32⟩
  | 19 => ⟨S128, .f32⟩
  | 20 => ⟨S1x128, .f32⟩
  | 21 => ⟨S4096x128, .f32⟩
  | 22 => ⟨S4096x128, .f32⟩
  | 23 => ⟨S_, .f32⟩
  | 24 => ⟨S128, .f32⟩
  | 25 => ⟨S128, .f32⟩
  | 26 => ⟨S128, .f32⟩
  | 27 => ⟨S1x128, .f32⟩
  | 28 => ⟨S4096x128, .f32⟩
  | 29 => ⟨S4096x128, .f32⟩
  | 30 => ⟨S1x128, .f32⟩
  | 31 => ⟨S4096x128, .f32⟩
  | 32 => ⟨S4096x128, .f32⟩
  | 33 => ⟨S1x128, .f32⟩
  | 34 => ⟨S4096x128, .f32⟩
  | 35 => ⟨S4096x128, .f32⟩
  | 36 => ⟨S_, .f32⟩
  | 37 => ⟨S4096x128, .f32⟩
  | 38 => ⟨S4096x128, .f32⟩
  | 39 => ⟨S1x128x128, .f32⟩
  | 40 => ⟨S128x128, .f32⟩
  | 41 => ⟨S4096x128, .f32⟩
  | 42 => ⟨S1x128, .f32⟩
  | 43 => ⟨S128, .f32⟩
  | 44 => ⟨S1x128, .f32⟩
  | 45 => ⟨S4096x128, .f32⟩
  | 46 => ⟨S4096x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S4096x128, .f32⟩
  | 58 => ⟨S4096x128, .f32⟩
  | 59 => ⟨S4096x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S4096x128, .f32⟩
  | 67 => ⟨S4096x128, .f32⟩
  | 68 => ⟨S_, .f32⟩
  | 69 => ⟨S128, .f32⟩
  | 70 => ⟨S128, .f32⟩
  | 71 => ⟨S128, .f32⟩
  | 72 => ⟨S1x128, .f32⟩
  | 73 => ⟨S4096x128, .f32⟩
  | 74 => ⟨S4096x128, .f32⟩
  | 75 => ⟨S1x128, .f32⟩
  | 76 => ⟨S4096x128, .f32⟩
  | 77 => ⟨S4096x128, .f32⟩
  | 78 => ⟨S1x128, .f32⟩
  | 79 => ⟨S4096x128, .f32⟩
  | 80 => ⟨S4096x128, .f32⟩
  | 81 => ⟨S_, .f32⟩
  | 82 => ⟨S4096x128, .f32⟩
  | 83 => ⟨S4096x128, .f32⟩
  | 84 => ⟨S64x64x128, .f32⟩
  | 85 => ⟨S4096x128, .f32⟩
  | 86 => ⟨S1x128x128, .f32⟩
  | 87 => ⟨S128x128, .f32⟩
  | 88 => ⟨S4096x128, .f32⟩
  | 89 => ⟨S1x128, .f32⟩
  | 90 => ⟨S128, .f32⟩
  | 91 => ⟨S1x128, .f32⟩
  | 92 => ⟨S4096x128, .f32⟩
  | 93 => ⟨S4096x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S1x128, .f32⟩
  | 104 => ⟨S4096x128, .f32⟩
  | 105 => ⟨S4096x128, .f32⟩
  | 106 => ⟨S4096x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S4096x128, .f32⟩
  | 114 => ⟨S4096x128, .f32⟩
  | 115 => ⟨S_, .f32⟩
  | 116 => ⟨S128, .f32⟩
  | 117 => ⟨S128, .f32⟩
  | 118 => ⟨S128, .f32⟩
  | 119 => ⟨S1x128, .f32⟩
  | 120 => ⟨S4096x128, .f32⟩
  | 121 => ⟨S4096x128, .f32⟩
  | 122 => ⟨S1x128, .f32⟩
  | 123 => ⟨S4096x128, .f32⟩
  | 124 => ⟨S4096x128, .f32⟩
  | 125 => ⟨S1x128, .f32⟩
  | 126 => ⟨S4096x128, .f32⟩
  | 127 => ⟨S4096x128, .f32⟩
  | _ => ⟨S16384x128, .f32⟩

abbrev hbmTy0_6 (i : Nat) : BufTy := match i % 128 with
  | 0 => ⟨S_, .f32⟩
  | 1 => ⟨S4096x128, .f32⟩
  | 2 => ⟨S4096x128, .f32⟩
  | 3 => ⟨S1x128x128, .f32⟩
  | 4 => ⟨S128x128, .f32⟩
  | 5 => ⟨S4096x128, .f32⟩
  | 6 => ⟨S1x128, .f32⟩
  | 7 => ⟨S128, .f32⟩
  | 8 => ⟨S1x128, .f32⟩
  | 9 => ⟨S4096x128, .f32⟩
  | 10 => ⟨S4096x128, .f32⟩
  | 11 => ⟨S1x128, .f32⟩
  | 12 => ⟨S128, .f32⟩
  | 13 => ⟨S1x128, .f32⟩
  | 14 => ⟨S128, .f32⟩
  | 15 => ⟨S_, .f32⟩
  | 16 => ⟨S128, .f32⟩
  | 17 => ⟨S_, .f32⟩
  | 18 => ⟨S128, .f32⟩
  | 19 => ⟨S128, .f32⟩
  | 20 => ⟨S1x128, .f32⟩
  | 21 => ⟨S4096x128, .f32⟩
  | 22 => ⟨S4096x128, .f32⟩
  | 23 => ⟨S4096x128, .f32⟩
  | 24 => ⟨S_, .f32⟩
  | 25 => ⟨S128, .f32⟩
  | 26 => ⟨S_, .f32⟩
  | 27 => ⟨S128, .f32⟩
  | 28 => ⟨S128, .f32⟩
  | 29 => ⟨S1x128, .f32⟩
  | 30 => ⟨S4096x128, .f32⟩
  | 31 => ⟨S4096x128, .f32⟩
  | 32 => ⟨S_, .f32⟩
  | 33 => ⟨S128, .f32⟩
  | 34 => ⟨S128, .f32⟩
  | 35 => ⟨S128, .f32⟩
  | 36 => ⟨S1x128, .f32⟩
  | 37 => ⟨S4096x128, .f32⟩
  | 38 => ⟨S4096x128, .f32⟩
  | 39 => ⟨S1x128, .f32⟩
  | 40 => ⟨S4096x128, .f32⟩
  | 41 => ⟨S4096x128, .f32⟩
  | 42 => ⟨S1x128, .f32⟩
  | 43 => ⟨S4096x128, .f32⟩
  | 44 => ⟨S4096x128, .f32⟩
  | 45 => ⟨S_, .f32⟩
  | 46 => ⟨S4096x128, .f32⟩
  | 47 => ⟨S4096x128, .f32⟩
  | 48 => ⟨S4096x384, .f32⟩
  | 49 => ⟨S4096x128, .f32⟩
  | 50 => ⟨S1x128, .f32⟩
  | 51 => ⟨S4096x128, .f32⟩
  | 52 => ⟨S4096x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S4096x128, .f32⟩
  | 60 => ⟨S4096x128, .f32⟩
  | 61 => ⟨S4096x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S4096x128, .f32⟩
  | 69 => ⟨S4096x128, .f32⟩
  | 70 => ⟨S_, .f32⟩
  | 71 => ⟨S128, .f32⟩
  | 72 => ⟨S128, .f32⟩
  | 73 => ⟨S128, .f32⟩
  | 74 => ⟨S1x128, .f32⟩
  | 75 => ⟨S4096x128, .f32⟩
  | 76 => ⟨S4096x128, .f32⟩
  | 77 => ⟨S1x128, .f32⟩
  | 78 => ⟨S4096x128, .f32⟩
  | 79 => ⟨S4096x128, .f32⟩
  | 80 => ⟨S1x128, .f32⟩
  | 81 => ⟨S4096x128, .f32⟩
  | 82 => ⟨S4096x128, .f32⟩
  | 83 => ⟨S_, .f32⟩
  | 84 => ⟨S4096x128, .f32⟩
  | 85 => ⟨S4096x128, .f32⟩
  | 86 => ⟨S64x64x128, .f32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_c : Ref sig .tc := ⟨.hbm, 37, rfl⟩
abbrev main_v6 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call0_cst : Ref sig .tc := ⟨.hbm, 51, rfl⟩
abbrev main_call0_v0 : Ref sig .tc := ⟨.hbm, 52, rfl⟩
abbrev main_v18 : Ref sig .tc := ⟨.hbm, 53, rfl⟩
abbrev main_cst : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_1 : Ref sig .tc := ⟨.hbm, 71, rfl⟩
abbrev main_v35 : Ref sig .tc := ⟨.hbm, 72, rfl⟩
abbrev main_cst_2 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_3 : Ref sig .tc := ⟨.hbm, 80, rfl⟩
abbrev main_v42 : Ref sig .tc := ⟨.hbm, 81, rfl⟩
abbrev main_cst_4 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call1_cst : Ref sig .tc := ⟨.hbm, 101, rfl⟩
abbrev main_call1_v0 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_6 : Ref sig .tc := ⟨.hbm, 116, rfl⟩
abbrev main_v73 : Ref sig .tc := ⟨.hbm, 117, rfl⟩
abbrev main_cst_7 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_8 : Ref sig .tc := ⟨.hbm, 125, rfl⟩
abbrev main_v80 : Ref sig .tc := ⟨.hbm, 126, rfl⟩
abbrev main_cst_9 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_10 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call2_cst : Ref sig .tc := ⟨.hbm, 146, rfl⟩
abbrev main_call2_v0 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_11 : Ref sig .tc := ⟨.hbm, 162, rfl⟩
abbrev main_v112 : Ref sig .tc := ⟨.hbm, 163, rfl⟩
abbrev main_cst_12 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_13 : Ref sig .tc := ⟨.hbm, 171, rfl⟩
abbrev main_v119 : Ref sig .tc := ⟨.hbm, 172, rfl⟩
abbrev main_cst_14 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_15 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call3_cst : Ref sig .tc := ⟨.hbm, 192, rfl⟩
abbrev main_call3_v0 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_16 : Ref sig .tc := ⟨.hbm, 207, rfl⟩
abbrev main_v150 : Ref sig .tc := ⟨.hbm, 208, rfl⟩
abbrev main_cst_17 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_18 : Ref sig .tc := ⟨.hbm, 216, rfl⟩
abbrev main_v157 : Ref sig .tc := ⟨.hbm, 217, rfl⟩
abbrev main_cst_19 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_20 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_call4_cst : Ref sig .tc := ⟨.hbm, 237, rfl⟩
abbrev main_call4_v0 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_21 : Ref sig .tc := ⟨.hbm, 245, rfl⟩
abbrev main_v181 : Ref sig .tc := ⟨.hbm, 246, rfl⟩
abbrev main_cst_22 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_23 : Ref sig .tc := ⟨.hbm, 254, rfl⟩
abbrev main_v188 : Ref sig .tc := ⟨.hbm, 255, rfl⟩
abbrev main_cst_24 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_cst_25 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_call5_cst : Ref sig .tc := ⟨.hbm, 275, rfl⟩
abbrev main_call5_v0 : Ref sig .tc := ⟨.hbm, 276, rfl⟩
abbrev main_v206 : Ref sig .tc := ⟨.hbm, 277, rfl⟩
abbrev main_c_26 : Ref sig .tc := ⟨.hbm, 278, rfl⟩
abbrev main_v207 : Ref sig .tc := ⟨.hbm, 279, rfl⟩
abbrev main_v208 : Ref sig .tc := ⟨.hbm, 280, rfl⟩
abbrev main_c_27 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_c_28 : Ref sig .tc := ⟨.hbm, 287, rfl⟩
abbrev main_v214 : Ref sig .tc := ⟨.hbm, 288, rfl⟩
abbrev main_v215 : Ref sig .tc := ⟨.hbm, 289, rfl⟩
abbrev main_c_29 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_c_30 : Ref sig .tc := ⟨.hbm, 297, rfl⟩
abbrev main_v222 : Ref sig .tc := ⟨.hbm, 298, rfl⟩
abbrev main_v223 : Ref sig .tc := ⟨.hbm, 299, rfl⟩
abbrev main_c_31 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_c_32 : Ref sig .tc := ⟨.hbm, 306, rfl⟩
abbrev main_v229 : Ref sig .tc := ⟨.hbm, 307, rfl⟩
abbrev main_v230 : Ref sig .tc := ⟨.hbm, 308, rfl⟩
abbrev main_c_33 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_cst_34 : Ref sig .tc := ⟨.hbm, 329, rfl⟩
abbrev main_v250 : Ref sig .tc := ⟨.hbm, 330, rfl⟩
abbrev main_cst_35 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_cst_36 : Ref sig .tc := ⟨.hbm, 338, rfl⟩
abbrev main_v257 : Ref sig .tc := ⟨.hbm, 339, rfl⟩
abbrev main_cst_37 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_cst_38 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_call6_cst : Ref sig .tc := ⟨.hbm, 359, rfl⟩
abbrev main_call6_v0 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_cst_39 : Ref sig .tc := ⟨.hbm, 374, rfl⟩
abbrev main_v288 : Ref sig .tc := ⟨.hbm, 375, rfl⟩
abbrev main_cst_40 : Ref sig .tc := ⟨.hbm, 376, rfl⟩
abbrev main_v289 : Ref sig .tc := ⟨.hbm, 377, rfl⟩
abbrev main_v290 : Ref sig .tc := ⟨.hbm, 378, rfl⟩
abbrev main_v291 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_cst_41 : Ref sig .tc := ⟨.hbm, 383, rfl⟩
abbrev main_v295 : Ref sig .tc := ⟨.hbm, 384, rfl⟩
abbrev main_cst_42 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_cst_43 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_call7_cst : Ref sig .tc := ⟨.hbm, 404, rfl⟩
abbrev main_call7_v0 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_cst_44 : Ref sig .tc := ⟨.hbm, 420, rfl⟩
abbrev main_v327 : Ref sig .tc := ⟨.hbm, 421, rfl⟩
abbrev main_cst_45 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_cst_46 : Ref sig .tc := ⟨.hbm, 429, rfl⟩
abbrev main_v334 : Ref sig .tc := ⟨.hbm, 430, rfl⟩
abbrev main_cst_47 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_cst_48 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_call8_cst : Ref sig .tc := ⟨.hbm, 450, rfl⟩
abbrev main_call8_v0 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_cst_49 : Ref sig .tc := ⟨.hbm, 465, rfl⟩
abbrev main_v365 : Ref sig .tc := ⟨.hbm, 466, rfl⟩
abbrev main_cst_50 : Ref sig .tc := ⟨.hbm, 467, rfl⟩
abbrev main_v366 : Ref sig .tc := ⟨.hbm, 468, rfl⟩
abbrev main_v367 : Ref sig .tc := ⟨.hbm, 469, rfl⟩
abbrev main_v368 : Ref sig .tc := ⟨.hbm, 470, rfl⟩
abbrev main_v369 : Ref sig .tc := ⟨.hbm, 471, rfl⟩
abbrev main_v370 : Ref sig .tc := ⟨.hbm, 472, rfl⟩
abbrev main_v371 : Ref sig .tc := ⟨.hbm, 473, rfl⟩
abbrev main_cst_51 : Ref sig .tc := ⟨.hbm, 474, rfl⟩
abbrev main_v372 : Ref sig .tc := ⟨.hbm, 475, rfl⟩
abbrev main_cst_52 : Ref sig .tc := ⟨.hbm, 476, rfl⟩
abbrev main_v373 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_v377 : Ref sig .tc := ⟨.hbm, 481, rfl⟩
abbrev main_cst_53 : Ref sig .tc := ⟨.hbm, 482, rfl⟩
abbrev main_v378 : Ref sig .tc := ⟨.hbm, 483, rfl⟩
abbrev main_v379 : Ref sig .tc := ⟨.hbm, 484, rfl⟩
abbrev main_v380 : Ref sig .tc := ⟨.hbm, 485, rfl⟩
abbrev main_v381 : Ref sig .tc := ⟨.hbm, 486, rfl⟩
abbrev main_v382 : Ref sig .tc := ⟨.hbm, 487, rfl⟩
abbrev main_v383 : Ref sig .tc := ⟨.hbm, 488, rfl⟩
abbrev main_v384 : Ref sig .tc := ⟨.hbm, 489, rfl⟩
abbrev main_v385 : Ref sig .tc := ⟨.hbm, 490, rfl⟩
abbrev main_v386 : Ref sig .tc := ⟨.hbm, 491, rfl⟩
abbrev main_v387 : Ref sig .tc := ⟨.hbm, 492, rfl⟩
abbrev main_v388 : Ref sig .tc := ⟨.hbm, 493, rfl⟩
abbrev main_v389 : Ref sig .tc := ⟨.hbm, 494, rfl⟩
abbrev main_call9_cst : Ref sig .tc := ⟨.hbm, 495, rfl⟩
abbrev main_call9_v0 : Ref sig .tc := ⟨.hbm, 496, rfl⟩
abbrev main_v390 : Ref sig .tc := ⟨.hbm, 497, rfl⟩
abbrev main_v391 : Ref sig .tc := ⟨.hbm, 498, rfl⟩
abbrev main_v392 : Ref sig .tc := ⟨.hbm, 499, rfl⟩
abbrev main_v393 : Ref sig .tc := ⟨.hbm, 500, rfl⟩
abbrev main_v394 : Ref sig .tc := ⟨.hbm, 501, rfl⟩
abbrev main_v395 : Ref sig .tc := ⟨.hbm, 502, rfl⟩
abbrev main_cst_54 : Ref sig .tc := ⟨.hbm, 503, rfl⟩
abbrev main_v396 : Ref sig .tc := ⟨.hbm, 504, rfl⟩
abbrev main_cst_55 : Ref sig .tc := ⟨.hbm, 505, rfl⟩
abbrev main_v397 : Ref sig .tc := ⟨.hbm, 506, rfl⟩
abbrev main_v398 : Ref sig .tc := ⟨.hbm, 507, rfl⟩
abbrev main_v399 : Ref sig .tc := ⟨.hbm, 508, rfl⟩
abbrev main_v400 : Ref sig .tc := ⟨.hbm, 509, rfl⟩
abbrev main_v401 : Ref sig .tc := ⟨.hbm, 510, rfl⟩
abbrev main_v402 : Ref sig .tc := ⟨.hbm, 511, rfl⟩
abbrev main_cst_56 : Ref sig .tc := ⟨.hbm, 512, rfl⟩
abbrev main_v403 : Ref sig .tc := ⟨.hbm, 513, rfl⟩
abbrev main_cst_57 : Ref sig .tc := ⟨.hbm, 514, rfl⟩
abbrev main_v404 : Ref sig .tc := ⟨.hbm, 515, rfl⟩
abbrev main_v405 : Ref sig .tc := ⟨.hbm, 516, rfl⟩
abbrev main_v406 : Ref sig .tc := ⟨.hbm, 517, rfl⟩
abbrev main_v407 : Ref sig .tc := ⟨.hbm, 518, rfl⟩
abbrev main_v408 : Ref sig .tc := ⟨.hbm, 519, rfl⟩
abbrev main_cst_58 : Ref sig .tc := ⟨.hbm, 520, rfl⟩
abbrev main_v409 : Ref sig .tc := ⟨.hbm, 521, rfl⟩
abbrev main_v410 : Ref sig .tc := ⟨.hbm, 522, rfl⟩
abbrev main_v411 : Ref sig .tc := ⟨.hbm, 523, rfl⟩
abbrev main_v412 : Ref sig .tc := ⟨.hbm, 524, rfl⟩
abbrev main_v413 : Ref sig .tc := ⟨.hbm, 525, rfl⟩
abbrev main_v414 : Ref sig .tc := ⟨.hbm, 526, rfl⟩
abbrev main_v415 : Ref sig .tc := ⟨.hbm, 527, rfl⟩
abbrev main_v416 : Ref sig .tc := ⟨.hbm, 528, rfl⟩
abbrev main_v417 : Ref sig .tc := ⟨.hbm, 529, rfl⟩
abbrev main_v418 : Ref sig .tc := ⟨.hbm, 530, rfl⟩
abbrev main_v419 : Ref sig .tc := ⟨.hbm, 531, rfl⟩
abbrev main_v420 : Ref sig .tc := ⟨.hbm, 532, rfl⟩
abbrev main_call10_cst : Ref sig .tc := ⟨.hbm, 533, rfl⟩
abbrev main_call10_v0 : Ref sig .tc := ⟨.hbm, 534, rfl⟩
abbrev main_v421 : Ref sig .tc := ⟨.hbm, 535, rfl⟩
abbrev main_v422 : Ref sig .tc := ⟨.hbm, 536, rfl⟩
abbrev main_v423 : Ref sig .tc := ⟨.hbm, 537, rfl⟩
abbrev main_v424 : Ref sig .tc := ⟨.hbm, 538, rfl⟩
abbrev main_v425 : Ref sig .tc := ⟨.hbm, 539, rfl⟩
abbrev main_v426 : Ref sig .tc := ⟨.hbm, 540, rfl⟩
abbrev main_v427 : Ref sig .tc := ⟨.hbm, 541, rfl⟩
abbrev main_v428 : Ref sig .tc := ⟨.hbm, 542, rfl⟩
abbrev main_v429 : Ref sig .tc := ⟨.hbm, 543, rfl⟩
abbrev main_v430 : Ref sig .tc := ⟨.hbm, 544, rfl⟩
abbrev main_v431 : Ref sig .tc := ⟨.hbm, 545, rfl⟩
abbrev main_v432 : Ref sig .tc := ⟨.hbm, 546, rfl⟩
abbrev main_v433 : Ref sig .tc := ⟨.hbm, 547, rfl⟩
abbrev main_v434 : Ref sig .tc := ⟨.hbm, 548, rfl⟩
abbrev main_v435 : Ref sig .tc := ⟨.hbm, 549, rfl⟩
abbrev main_v436 : Ref sig .tc := ⟨.hbm, 550, rfl⟩
abbrev main_v437 : Ref sig .tc := ⟨.hbm, 551, rfl⟩
abbrev main_v438 : Ref sig .tc := ⟨.hbm, 552, rfl⟩
abbrev main_v439 : Ref sig .tc := ⟨.hbm, 553, rfl⟩
abbrev main_cst_59 : Ref sig .tc := ⟨.hbm, 554, rfl⟩
abbrev main_v440 : Ref sig .tc := ⟨.hbm, 555, rfl⟩
abbrev main_cst_60 : Ref sig .tc := ⟨.hbm, 556, rfl⟩
abbrev main_v441 : Ref sig .tc := ⟨.hbm, 557, rfl⟩
abbrev main_v442 : Ref sig .tc := ⟨.hbm, 558, rfl⟩
abbrev main_v443 : Ref sig .tc := ⟨.hbm, 559, rfl⟩
abbrev main_v444 : Ref sig .tc := ⟨.hbm, 560, rfl⟩
abbrev main_v445 : Ref sig .tc := ⟨.hbm, 561, rfl⟩
abbrev main_v446 : Ref sig .tc := ⟨.hbm, 562, rfl⟩
abbrev main_cst_61 : Ref sig .tc := ⟨.hbm, 563, rfl⟩
abbrev main_v447 : Ref sig .tc := ⟨.hbm, 564, rfl⟩
abbrev main_cst_62 : Ref sig .tc := ⟨.hbm, 565, rfl⟩
abbrev main_v448 : Ref sig .tc := ⟨.hbm, 566, rfl⟩
abbrev main_v449 : Ref sig .tc := ⟨.hbm, 567, rfl⟩
abbrev main_v450 : Ref sig .tc := ⟨.hbm, 568, rfl⟩
abbrev main_v451 : Ref sig .tc := ⟨.hbm, 569, rfl⟩
abbrev main_v452 : Ref sig .tc := ⟨.hbm, 570, rfl⟩
abbrev main_cst_63 : Ref sig .tc := ⟨.hbm, 571, rfl⟩
abbrev main_v453 : Ref sig .tc := ⟨.hbm, 572, rfl⟩
abbrev main_v454 : Ref sig .tc := ⟨.hbm, 573, rfl⟩
abbrev main_v455 : Ref sig .tc := ⟨.hbm, 574, rfl⟩
abbrev main_v456 : Ref sig .tc := ⟨.hbm, 575, rfl⟩
abbrev main_v457 : Ref sig .tc := ⟨.hbm, 576, rfl⟩
abbrev main_v458 : Ref sig .tc := ⟨.hbm, 577, rfl⟩
abbrev main_v459 : Ref sig .tc := ⟨.hbm, 578, rfl⟩
abbrev main_v460 : Ref sig .tc := ⟨.hbm, 579, rfl⟩
abbrev main_v461 : Ref sig .tc := ⟨.hbm, 580, rfl⟩
abbrev main_v462 : Ref sig .tc := ⟨.hbm, 581, rfl⟩
abbrev main_v463 : Ref sig .tc := ⟨.hbm, 582, rfl⟩
abbrev main_v464 : Ref sig .tc := ⟨.hbm, 583, rfl⟩
abbrev main_call11_cst : Ref sig .tc := ⟨.hbm, 584, rfl⟩
abbrev main_call11_v0 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_v468 : Ref sig .tc := ⟨.hbm, 589, rfl⟩
abbrev main_v469 : Ref sig .tc := ⟨.hbm, 590, rfl⟩
abbrev main_v470 : Ref sig .tc := ⟨.hbm, 591, rfl⟩
abbrev main_v471 : Ref sig .tc := ⟨.hbm, 592, rfl⟩
abbrev main_v472 : Ref sig .tc := ⟨.hbm, 593, rfl⟩
abbrev main_v473 : Ref sig .tc := ⟨.hbm, 594, rfl⟩
abbrev main_v474 : Ref sig .tc := ⟨.hbm, 595, rfl⟩
abbrev main_v475 : Ref sig .tc := ⟨.hbm, 596, rfl⟩
abbrev main_v476 : Ref sig .tc := ⟨.hbm, 597, rfl⟩
abbrev main_v477 : Ref sig .tc := ⟨.hbm, 598, rfl⟩
abbrev main_cst_64 : Ref sig .tc := ⟨.hbm, 599, rfl⟩
abbrev main_v478 : Ref sig .tc := ⟨.hbm, 600, rfl⟩
abbrev main_cst_65 : Ref sig .tc := ⟨.hbm, 601, rfl⟩
abbrev main_v479 : Ref sig .tc := ⟨.hbm, 602, rfl⟩
abbrev main_v480 : Ref sig .tc := ⟨.hbm, 603, rfl⟩
abbrev main_v481 : Ref sig .tc := ⟨.hbm, 604, rfl⟩
abbrev main_v482 : Ref sig .tc := ⟨.hbm, 605, rfl⟩
abbrev main_v483 : Ref sig .tc := ⟨.hbm, 606, rfl⟩
abbrev main_v484 : Ref sig .tc := ⟨.hbm, 607, rfl⟩
abbrev main_cst_66 : Ref sig .tc := ⟨.hbm, 608, rfl⟩
abbrev main_v485 : Ref sig .tc := ⟨.hbm, 609, rfl⟩
abbrev main_cst_67 : Ref sig .tc := ⟨.hbm, 610, rfl⟩
abbrev main_v486 : Ref sig .tc := ⟨.hbm, 611, rfl⟩
abbrev main_v487 : Ref sig .tc := ⟨.hbm, 612, rfl⟩
abbrev main_v488 : Ref sig .tc := ⟨.hbm, 613, rfl⟩
abbrev main_v489 : Ref sig .tc := ⟨.hbm, 614, rfl⟩
abbrev main_v490 : Ref sig .tc := ⟨.hbm, 615, rfl⟩
abbrev main_cst_68 : Ref sig .tc := ⟨.hbm, 616, rfl⟩
abbrev main_v491 : Ref sig .tc := ⟨.hbm, 617, rfl⟩
abbrev main_v492 : Ref sig .tc := ⟨.hbm, 618, rfl⟩
abbrev main_v493 : Ref sig .tc := ⟨.hbm, 619, rfl⟩
abbrev main_v494 : Ref sig .tc := ⟨.hbm, 620, rfl⟩
abbrev main_v495 : Ref sig .tc := ⟨.hbm, 621, rfl⟩
abbrev main_v496 : Ref sig .tc := ⟨.hbm, 622, rfl⟩
abbrev main_v497 : Ref sig .tc := ⟨.hbm, 623, rfl⟩
abbrev main_v498 : Ref sig .tc := ⟨.hbm, 624, rfl⟩
abbrev main_v499 : Ref sig .tc := ⟨.hbm, 625, rfl⟩
abbrev main_v500 : Ref sig .tc := ⟨.hbm, 626, rfl⟩
abbrev main_v501 : Ref sig .tc := ⟨.hbm, 627, rfl⟩
abbrev main_v502 : Ref sig .tc := ⟨.hbm, 628, rfl⟩
abbrev main_call12_cst : Ref sig .tc := ⟨.hbm, 629, rfl⟩
abbrev main_call12_v0 : Ref sig .tc := ⟨.hbm, 630, rfl⟩
abbrev main_v503 : Ref sig .tc := ⟨.hbm, 631, rfl⟩
abbrev main_v504 : Ref sig .tc := ⟨.hbm, 632, rfl⟩
abbrev main_v505 : Ref sig .tc := ⟨.hbm, 633, rfl⟩
abbrev main_v506 : Ref sig .tc := ⟨.hbm, 634, rfl⟩
abbrev main_v507 : Ref sig .tc := ⟨.hbm, 635, rfl⟩
abbrev main_v508 : Ref sig .tc := ⟨.hbm, 636, rfl⟩
abbrev main_v509 : Ref sig .tc := ⟨.hbm, 637, rfl⟩
abbrev main_v510 : Ref sig .tc := ⟨.hbm, 638, rfl⟩
abbrev main_v511 : Ref sig .tc := ⟨.hbm, 639, rfl⟩
abbrev main_v512 : Ref sig .tc := ⟨.hbm, 640, rfl⟩
abbrev main_v513 : Ref sig .tc := ⟨.hbm, 641, rfl⟩
abbrev main_v514 : Ref sig .tc := ⟨.hbm, 642, rfl⟩
abbrev main_v515 : Ref sig .tc := ⟨.hbm, 643, rfl⟩
abbrev main_v516 : Ref sig .tc := ⟨.hbm, 644, rfl⟩
abbrev main_v517 : Ref sig .tc := ⟨.hbm, 645, rfl⟩
abbrev main_cst_69 : Ref sig .tc := ⟨.hbm, 646, rfl⟩
abbrev main_v518 : Ref sig .tc := ⟨.hbm, 647, rfl⟩
abbrev main_cst_70 : Ref sig .tc := ⟨.hbm, 648, rfl⟩
abbrev main_v519 : Ref sig .tc := ⟨.hbm, 649, rfl⟩
abbrev main_v520 : Ref sig .tc := ⟨.hbm, 650, rfl⟩
abbrev main_v521 : Ref sig .tc := ⟨.hbm, 651, rfl⟩
abbrev main_v522 : Ref sig .tc := ⟨.hbm, 652, rfl⟩
abbrev main_v523 : Ref sig .tc := ⟨.hbm, 653, rfl⟩
abbrev main_v524 : Ref sig .tc := ⟨.hbm, 654, rfl⟩
abbrev main_cst_71 : Ref sig .tc := ⟨.hbm, 655, rfl⟩
abbrev main_v525 : Ref sig .tc := ⟨.hbm, 656, rfl⟩
abbrev main_cst_72 : Ref sig .tc := ⟨.hbm, 657, rfl⟩
abbrev main_v526 : Ref sig .tc := ⟨.hbm, 658, rfl⟩
abbrev main_v527 : Ref sig .tc := ⟨.hbm, 659, rfl⟩
abbrev main_v528 : Ref sig .tc := ⟨.hbm, 660, rfl⟩
abbrev main_v529 : Ref sig .tc := ⟨.hbm, 661, rfl⟩
abbrev main_v530 : Ref sig .tc := ⟨.hbm, 662, rfl⟩
abbrev main_cst_73 : Ref sig .tc := ⟨.hbm, 663, rfl⟩
abbrev main_v531 : Ref sig .tc := ⟨.hbm, 664, rfl⟩
abbrev main_v532 : Ref sig .tc := ⟨.hbm, 665, rfl⟩
abbrev main_v533 : Ref sig .tc := ⟨.hbm, 666, rfl⟩
abbrev main_v534 : Ref sig .tc := ⟨.hbm, 667, rfl⟩
abbrev main_v535 : Ref sig .tc := ⟨.hbm, 668, rfl⟩
abbrev main_v536 : Ref sig .tc := ⟨.hbm, 669, rfl⟩
abbrev main_v537 : Ref sig .tc := ⟨.hbm, 670, rfl⟩
abbrev main_v538 : Ref sig .tc := ⟨.hbm, 671, rfl⟩
abbrev main_v539 : Ref sig .tc := ⟨.hbm, 672, rfl⟩
abbrev main_v540 : Ref sig .tc := ⟨.hbm, 673, rfl⟩
abbrev main_v541 : Ref sig .tc := ⟨.hbm, 674, rfl⟩
abbrev main_v542 : Ref sig .tc := ⟨.hbm, 675, rfl⟩
abbrev main_call13_cst : Ref sig .tc := ⟨.hbm, 676, rfl⟩
abbrev main_call13_v0 : Ref sig .tc := ⟨.hbm, 677, rfl⟩
abbrev main_v543 : Ref sig .tc := ⟨.hbm, 678, rfl⟩
abbrev main_v544 : Ref sig .tc := ⟨.hbm, 679, rfl⟩
abbrev main_v545 : Ref sig .tc := ⟨.hbm, 680, rfl⟩
abbrev main_v546 : Ref sig .tc := ⟨.hbm, 681, rfl⟩
abbrev main_v547 : Ref sig .tc := ⟨.hbm, 682, rfl⟩
abbrev main_v548 : Ref sig .tc := ⟨.hbm, 683, rfl⟩
abbrev main_v549 : Ref sig .tc := ⟨.hbm, 684, rfl⟩
abbrev main_v550 : Ref sig .tc := ⟨.hbm, 685, rfl⟩
abbrev main_v551 : Ref sig .tc := ⟨.hbm, 686, rfl⟩
abbrev main_v552 : Ref sig .tc := ⟨.hbm, 687, rfl⟩
abbrev main_v553 : Ref sig .tc := ⟨.hbm, 688, rfl⟩
abbrev main_v554 : Ref sig .tc := ⟨.hbm, 689, rfl⟩
abbrev main_v555 : Ref sig .tc := ⟨.hbm, 690, rfl⟩
abbrev main_cst_74 : Ref sig .tc := ⟨.hbm, 691, rfl⟩
abbrev main_v556 : Ref sig .tc := ⟨.hbm, 692, rfl⟩
abbrev main_cst_75 : Ref sig .tc := ⟨.hbm, 693, rfl⟩
abbrev main_v557 : Ref sig .tc := ⟨.hbm, 694, rfl⟩
abbrev main_v558 : Ref sig .tc := ⟨.hbm, 695, rfl⟩
abbrev main_v559 : Ref sig .tc := ⟨.hbm, 696, rfl⟩
abbrev main_v560 : Ref sig .tc := ⟨.hbm, 697, rfl⟩
abbrev main_v561 : Ref sig .tc := ⟨.hbm, 698, rfl⟩
abbrev main_v562 : Ref sig .tc := ⟨.hbm, 699, rfl⟩
abbrev main_cst_76 : Ref sig .tc := ⟨.hbm, 700, rfl⟩
abbrev main_v563 : Ref sig .tc := ⟨.hbm, 701, rfl⟩
abbrev main_cst_77 : Ref sig .tc := ⟨.hbm, 702, rfl⟩
abbrev main_v564 : Ref sig .tc := ⟨.hbm, 703, rfl⟩
abbrev main_v565 : Ref sig .tc := ⟨.hbm, 704, rfl⟩
abbrev main_v566 : Ref sig .tc := ⟨.hbm, 705, rfl⟩
abbrev main_v567 : Ref sig .tc := ⟨.hbm, 706, rfl⟩
abbrev main_v568 : Ref sig .tc := ⟨.hbm, 707, rfl⟩
abbrev main_cst_78 : Ref sig .tc := ⟨.hbm, 708, rfl⟩
abbrev main_v569 : Ref sig .tc := ⟨.hbm, 709, rfl⟩
abbrev main_v570 : Ref sig .tc := ⟨.hbm, 710, rfl⟩
abbrev main_v571 : Ref sig .tc := ⟨.hbm, 711, rfl⟩
abbrev main_v572 : Ref sig .tc := ⟨.hbm, 712, rfl⟩
abbrev main_v573 : Ref sig .tc := ⟨.hbm, 713, rfl⟩
abbrev main_v574 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_v578 : Ref sig .tc := ⟨.hbm, 718, rfl⟩
abbrev main_v579 : Ref sig .tc := ⟨.hbm, 719, rfl⟩
abbrev main_v580 : Ref sig .tc := ⟨.hbm, 720, rfl⟩
abbrev main_call14_cst : Ref sig .tc := ⟨.hbm, 721, rfl⟩
abbrev main_call14_v0 : Ref sig .tc := ⟨.hbm, 722, rfl⟩
abbrev main_v581 : Ref sig .tc := ⟨.hbm, 723, rfl⟩
abbrev main_v582 : Ref sig .tc := ⟨.hbm, 724, rfl⟩
abbrev main_v583 : Ref sig .tc := ⟨.hbm, 725, rfl⟩
abbrev main_v584 : Ref sig .tc := ⟨.hbm, 726, rfl⟩
abbrev main_v585 : Ref sig .tc := ⟨.hbm, 727, rfl⟩
abbrev main_v586 : Ref sig .tc := ⟨.hbm, 728, rfl⟩
abbrev main_v587 : Ref sig .tc := ⟨.hbm, 729, rfl⟩
abbrev main_v588 : Ref sig .tc := ⟨.hbm, 730, rfl⟩
abbrev main_v589 : Ref sig .tc := ⟨.hbm, 731, rfl⟩
abbrev main_v590 : Ref sig .tc := ⟨.hbm, 732, rfl⟩
abbrev main_v591 : Ref sig .tc := ⟨.hbm, 733, rfl⟩
abbrev main_v592 : Ref sig .tc := ⟨.hbm, 734, rfl⟩
abbrev main_v593 : Ref sig .tc := ⟨.hbm, 735, rfl⟩
abbrev main_v594 : Ref sig .tc := ⟨.hbm, 736, rfl⟩
abbrev main_v595 : Ref sig .tc := ⟨.hbm, 737, rfl⟩
abbrev main_cst_79 : Ref sig .tc := ⟨.hbm, 738, rfl⟩
abbrev main_v596 : Ref sig .tc := ⟨.hbm, 739, rfl⟩
abbrev main_cst_80 : Ref sig .tc := ⟨.hbm, 740, rfl⟩
abbrev main_v597 : Ref sig .tc := ⟨.hbm, 741, rfl⟩
abbrev main_v598 : Ref sig .tc := ⟨.hbm, 742, rfl⟩
abbrev main_v599 : Ref sig .tc := ⟨.hbm, 743, rfl⟩
abbrev main_v600 : Ref sig .tc := ⟨.hbm, 744, rfl⟩
abbrev main_v601 : Ref sig .tc := ⟨.hbm, 745, rfl⟩
abbrev main_v602 : Ref sig .tc := ⟨.hbm, 746, rfl⟩
abbrev main_cst_81 : Ref sig .tc := ⟨.hbm, 747, rfl⟩
abbrev main_v603 : Ref sig .tc := ⟨.hbm, 748, rfl⟩
abbrev main_cst_82 : Ref sig .tc := ⟨.hbm, 749, rfl⟩
abbrev main_v604 : Ref sig .tc := ⟨.hbm, 750, rfl⟩
abbrev main_v605 : Ref sig .tc := ⟨.hbm, 751, rfl⟩
abbrev main_v606 : Ref sig .tc := ⟨.hbm, 752, rfl⟩
abbrev main_v607 : Ref sig .tc := ⟨.hbm, 753, rfl⟩
abbrev main_v608 : Ref sig .tc := ⟨.hbm, 754, rfl⟩
abbrev main_cst_83 : Ref sig .tc := ⟨.hbm, 755, rfl⟩
abbrev main_v609 : Ref sig .tc := ⟨.hbm, 756, rfl⟩
abbrev main_v610 : Ref sig .tc := ⟨.hbm, 757, rfl⟩
abbrev main_v611 : Ref sig .tc := ⟨.hbm, 758, rfl⟩
abbrev main_v612 : Ref sig .tc := ⟨.hbm, 759, rfl⟩
abbrev main_v613 : Ref sig .tc := ⟨.hbm, 760, rfl⟩
abbrev main_v614 : Ref sig .tc := ⟨.hbm, 761, rfl⟩
abbrev main_v615 : Ref sig .tc := ⟨.hbm, 762, rfl⟩
abbrev main_v616 : Ref sig .tc := ⟨.hbm, 763, rfl⟩
abbrev main_v617 : Ref sig .tc := ⟨.hbm, 764, rfl⟩
abbrev main_v618 : Ref sig .tc := ⟨.hbm, 765, rfl⟩
abbrev main_v619 : Ref sig .tc := ⟨.hbm, 766, rfl⟩
abbrev main_v620 : Ref sig .tc := ⟨.hbm, 767, rfl⟩
abbrev main_call15_cst : Ref sig .tc := ⟨.hbm, 768, rfl⟩
abbrev main_call15_v0 : Ref sig .tc := ⟨.hbm, 769, rfl⟩
abbrev main_v621 : Ref sig .tc := ⟨.hbm, 770, rfl⟩
abbrev main_v622 : Ref sig .tc := ⟨.hbm, 771, rfl⟩
abbrev main_v623 : Ref sig .tc := ⟨.hbm, 772, rfl⟩
abbrev main_v624 : Ref sig .tc := ⟨.hbm, 773, rfl⟩
abbrev main_v625 : Ref sig .tc := ⟨.hbm, 774, rfl⟩
abbrev main_v626 : Ref sig .tc := ⟨.hbm, 775, rfl⟩
abbrev main_v627 : Ref sig .tc := ⟨.hbm, 776, rfl⟩
abbrev main_v628 : Ref sig .tc := ⟨.hbm, 777, rfl⟩
abbrev main_v629 : Ref sig .tc := ⟨.hbm, 778, rfl⟩
abbrev main_v630 : Ref sig .tc := ⟨.hbm, 779, rfl⟩
abbrev main_v631 : Ref sig .tc := ⟨.hbm, 780, rfl⟩
abbrev main_v632 : Ref sig .tc := ⟨.hbm, 781, rfl⟩
abbrev main_v633 : Ref sig .tc := ⟨.hbm, 782, rfl⟩
abbrev main_cst_84 : Ref sig .tc := ⟨.hbm, 783, rfl⟩
abbrev main_v634 : Ref sig .tc := ⟨.hbm, 784, rfl⟩
abbrev main_cst_85 : Ref sig .tc := ⟨.hbm, 785, rfl⟩
abbrev main_v635 : Ref sig .tc := ⟨.hbm, 786, rfl⟩
abbrev main_v636 : Ref sig .tc := ⟨.hbm, 787, rfl⟩
abbrev main_v637 : Ref sig .tc := ⟨.hbm, 788, rfl⟩
abbrev main_v638 : Ref sig .tc := ⟨.hbm, 789, rfl⟩
abbrev main_v639 : Ref sig .tc := ⟨.hbm, 790, rfl⟩
abbrev main_v640 : Ref sig .tc := ⟨.hbm, 791, rfl⟩
abbrev main_cst_86 : Ref sig .tc := ⟨.hbm, 792, rfl⟩
abbrev main_v641 : Ref sig .tc := ⟨.hbm, 793, rfl⟩
abbrev main_cst_87 : Ref sig .tc := ⟨.hbm, 794, rfl⟩
abbrev main_v642 : Ref sig .tc := ⟨.hbm, 795, rfl⟩
abbrev main_v643 : Ref sig .tc := ⟨.hbm, 796, rfl⟩
abbrev main_v644 : Ref sig .tc := ⟨.hbm, 797, rfl⟩
abbrev main_v645 : Ref sig .tc := ⟨.hbm, 798, rfl⟩
abbrev main_v646 : Ref sig .tc := ⟨.hbm, 799, rfl⟩
abbrev main_cst_88 : Ref sig .tc := ⟨.hbm, 800, rfl⟩
abbrev main_v647 : Ref sig .tc := ⟨.hbm, 801, rfl⟩
abbrev main_v648 : Ref sig .tc := ⟨.hbm, 802, rfl⟩
abbrev main_v649 : Ref sig .tc := ⟨.hbm, 803, rfl⟩
abbrev main_v650 : Ref sig .tc := ⟨.hbm, 804, rfl⟩
abbrev main_v651 : Ref sig .tc := ⟨.hbm, 805, rfl⟩
abbrev main_v652 : Ref sig .tc := ⟨.hbm, 806, rfl⟩
abbrev main_v653 : Ref sig .tc := ⟨.hbm, 807, rfl⟩
abbrev main_v654 : Ref sig .tc := ⟨.hbm, 808, rfl⟩
abbrev main_v655 : Ref sig .tc := ⟨.hbm, 809, rfl⟩
abbrev main_v656 : Ref sig .tc := ⟨.hbm, 810, rfl⟩
abbrev main_v657 : Ref sig .tc := ⟨.hbm, 811, rfl⟩
abbrev main_v658 : Ref sig .tc := ⟨.hbm, 812, rfl⟩
abbrev main_call16_cst : Ref sig .tc := ⟨.hbm, 813, rfl⟩
abbrev main_call16_v0 : Ref sig .tc := ⟨.hbm, 814, rfl⟩
abbrev main_v659 : Ref sig .tc := ⟨.hbm, 815, rfl⟩
abbrev main_v660 : Ref sig .tc := ⟨.hbm, 816, rfl⟩
abbrev main_v661 : Ref sig .tc := ⟨.hbm, 817, rfl⟩
abbrev main_v662 : Ref sig .tc := ⟨.hbm, 818, rfl⟩
abbrev main_v663 : Ref sig .tc := ⟨.hbm, 819, rfl⟩
abbrev main_v664 : Ref sig .tc := ⟨.hbm, 820, rfl⟩
abbrev main_cst_89 : Ref sig .tc := ⟨.hbm, 821, rfl⟩
abbrev main_v665 : Ref sig .tc := ⟨.hbm, 822, rfl⟩
abbrev main_cst_90 : Ref sig .tc := ⟨.hbm, 823, rfl⟩
abbrev main_v666 : Ref sig .tc := ⟨.hbm, 824, rfl⟩
abbrev main_v667 : Ref sig .tc := ⟨.hbm, 825, rfl⟩
abbrev main_v668 : Ref sig .tc := ⟨.hbm, 826, rfl⟩
abbrev main_v669 : Ref sig .tc := ⟨.hbm, 827, rfl⟩
abbrev main_v670 : Ref sig .tc := ⟨.hbm, 828, rfl⟩
abbrev main_v671 : Ref sig .tc := ⟨.hbm, 829, rfl⟩
abbrev main_cst_91 : Ref sig .tc := ⟨.hbm, 830, rfl⟩
abbrev main_v672 : Ref sig .tc := ⟨.hbm, 831, rfl⟩
abbrev main_cst_92 : Ref sig .tc := ⟨.hbm, 832, rfl⟩
abbrev main_v673 : Ref sig .tc := ⟨.hbm, 833, rfl⟩
abbrev main_v674 : Ref sig .tc := ⟨.hbm, 834, rfl⟩
abbrev main_v675 : Ref sig .tc := ⟨.hbm, 835, rfl⟩
abbrev main_v676 : Ref sig .tc := ⟨.hbm, 836, rfl⟩
abbrev main_v677 : Ref sig .tc := ⟨.hbm, 837, rfl⟩
abbrev main_cst_93 : Ref sig .tc := ⟨.hbm, 838, rfl⟩
abbrev main_v678 : Ref sig .tc := ⟨.hbm, 839, rfl⟩
abbrev main_v679 : Ref sig .tc := ⟨.hbm, 840, rfl⟩
abbrev main_v680 : Ref sig .tc := ⟨.hbm, 841, rfl⟩
abbrev main_v681 : Ref sig .tc := ⟨.hbm, 842, rfl⟩
abbrev main_v682 : Ref sig .tc := ⟨.hbm, 843, rfl⟩
abbrev main_v683 : Ref sig .tc := ⟨.hbm, 844, rfl⟩
abbrev main_v684 : Ref sig .tc := ⟨.hbm, 845, rfl⟩
abbrev main_v685 : Ref sig .tc := ⟨.hbm, 846, rfl⟩
abbrev main_v686 : Ref sig .tc := ⟨.hbm, 847, rfl⟩
abbrev main_v687 : Ref sig .tc := ⟨.hbm, 848, rfl⟩
abbrev main_v688 : Ref sig .tc := ⟨.hbm, 849, rfl⟩
abbrev main_v689 : Ref sig .tc := ⟨.hbm, 850, rfl⟩
abbrev main_call17_cst : Ref sig .tc := ⟨.hbm, 851, rfl⟩
abbrev main_call17_v0 : Ref sig .tc := ⟨.hbm, 852, rfl⟩
abbrev main_v690 : Ref sig .tc := ⟨.hbm, 853, rfl⟩
abbrev main_v691 : Ref sig .tc := ⟨.hbm, 854, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  shapeCasts_S64x256x128_S16384x128 : S64x256x128.ShapeCasts S16384x128
  bcast_S_S262144 : S_.BroadcastsInDim S262144 (![] : Fin 0 → Fin S262144.rank)
  bcast_S262144_S262144x1_0 : S262144.BroadcastsInDim S262144x1 (![0] : Fin 1 → Fin S262144x1.rank)
  concatenates_S262144x128_S262144x128_S262144x256_d1 : Shape.Concatenates [S262144x128, S262144x128] S262144x256 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S16384x128 : S_.BroadcastsInDim S16384x128 (![] : Fin 0 → Fin S16384x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S1x128_S16384x128_0_1 : S1x128.BroadcastsInDim S16384x128 (![0, 1] : Fin 2 → Fin S16384x128.rank)
  reducesTo_S16384x128_S128_d0 : S16384x128.ReducesTo [0] S128
  h_S_ : 0 < S_.numel
  bcast_S_S128 : S_.BroadcastsInDim S128 (![] : Fin 0 → Fin S128.rank)
  slices_S7x128x128_S1x128x128_1_0_0 : S7x128x128.Slices ![1, 0, 0] S1x128x128
  slices_S7x128_S1x128_1_0 : S7x128.Slices ![1, 0] S1x128
  concatenates_S16384x128_S16384x128_S16384x256_d1 : Shape.Concatenates [S16384x128, S16384x128] S16384x256 1
  slices_S7x128x128_S1x128x128_2_0_0 : S7x128x128.Slices ![2, 0, 0] S1x128x128
  slices_S7x128_S1x128_2_0 : S7x128.Slices ![2, 0] S1x128
  reducesTo_S262144x128_S128_d0 : S262144x128.ReducesTo [0] S128
  slices_S7x128x128_S1x128x128_3_0_0 : S7x128x128.Slices ![3, 0, 0] S1x128x128
  slices_S7x128_S1x128_3_0 : S7x128.Slices ![3, 0] S1x128
  shapeCasts_S16384x128_S64x256x128 : S16384x128.ShapeCasts S64x256x128
  shapeCasts_S64x64x128_S4096x128 : S64x64x128.ShapeCasts S4096x128
  slices_S7x128x128_S1x128x128_4_0_0 : S7x128x128.Slices ![4, 0, 0] S1x128x128
  slices_S7x128_S1x128_4_0 : S7x128.Slices ![4, 0] S1x128
  bcast_S1x128_S4096x128_0_1 : S1x128.BroadcastsInDim S4096x128 (![0, 1] : Fin 2 → Fin S4096x128.rank)
  reducesTo_S4096x128_S128_d0 : S4096x128.ReducesTo [0] S128
  bcast_S_S4096x128 : S_.BroadcastsInDim S4096x128 (![] : Fin 0 → Fin S4096x128.rank)
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  concatenates_S4096x128_S4096x128_S4096x128_S4096x384_d1 : Shape.Concatenates [S4096x128, S4096x128, S4096x128] S4096x384 1
  shapeCasts_S4096x128_S64x64x128 : S4096x128.ShapeCasts S64x64x128
  dot_S64x256x64_S64x64x128_S64x256x128_2_1_1_2_0_0_wf : DotDims.WF S64x256x64 S64x64x128 S64x256x128 [2] [1] [1] [2] [0] [0]
  gather_S16384x128_S262144x1_S262144x128_1_0_n_n_0_1_1128_wf : GatherDims.WF S16384x128 S262144x1 S262144x128 [1] [0] [] [0] [] 1 ![1, 128]
  dot_S262144x256_S256x128_S262144x128_1_0_0_1_n_n_wf : DotDims.WF S262144x256 S256x128 S262144x128 [1] [0] [0] [1] [] []
  scatter_S16384x128_S262144x1_S262144x128_1_0_0_1_wf : ScatterDims.WF S16384x128 S262144x1 S262144x128 [1] [0] [0] 1
  dot_S16384x128_S128x128_S16384x128_1_0_0_1_n_n_wf : DotDims.WF S16384x128 S128x128 S16384x128 [1] [0] [0] [1] [] []
  dot_S16384x256_S256x128_S16384x128_1_0_0_1_n_n_wf : DotDims.WF S16384x256 S256x128 S16384x128 [1] [0] [0] [1] [] []
  dot_S262144x128_S128x128_S262144x128_1_0_0_1_n_n_wf : DotDims.WF S262144x128 S128x128 S262144x128 [1] [0] [0] [1] [] []
  dot_S64x64x64_S64x64x128_S64x64x128_2_1_1_2_0_0_wf : DotDims.WF S64x64x64 S64x64x128 S64x64x128 [2] [1] [1] [2] [0] [0]
  dot_S64x64x8_S64x8x128_S64x64x128_2_1_1_2_0_0_wf : DotDims.WF S64x64x8 S64x8x128 S64x64x128 [2] [1] [1] [2] [0] [0]
  dot_S64x64x256_S64x256x128_S64x64x128_2_1_1_2_0_0_wf : DotDims.WF S64x64x256 S64x256x128 S64x64x128 [2] [1] [1] [2] [0] [0]
  dot_S4096x128_S128x128_S4096x128_1_0_0_1_n_n_wf : DotDims.WF S4096x128 S128x128 S4096x128 [1] [0] [0] [1] [] []
  dot_S4096x384_S384x128_S4096x128_1_0_0_1_n_n_wf : DotDims.WF S4096x384 S384x128 S4096x128 [1] [0] [0] [1] [] []

variable [Facts₀]

def dot_S64x256x64_S64x64x128_S64x256x128_2_1_1_2_0_0 : DotDims S64x256x64 S64x64x128 S64x256x128 where
  lhsContracting := [2]
  rhsContracting := [1]
  lhsNonContracting := [1]
  rhsNonContracting := [2]
  lhsBatch := [0]
  rhsBatch := [0]
  wf := dot_S64x256x64_S64x64x128_S64x256x128_2_1_1_2_0_0_wf
def gather_S16384x128_S262144x1_S262144x128_1_0_n_n_0_1_1128 : GatherDims S16384x128 S262144x1 S262144x128 where
  offsetDims := [1]
  collapsedSliceDims := [0]
  operandBatchingDims := []
  startIndicesBatchingDims := []
  startIndexMap := [0]
  indexVectorDim := 1
  sliceSizes := ![1, 128]
  wf := gather_S16384x128_S262144x1_S262144x128_1_0_n_n_0_1_1128_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def scatter_S16384x128_S262144x1_S262144x128_1_0_0_1 : ScatterDims S16384x128 S262144x1 S262144x128 where
  updateWindowDims := [1]
  insertedWindowDims := [0]
  scatterDimsToOperandDims := [0]
  indexVectorDim := 1
  wf := scatter_S16384x128_S262144x1_S262144x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S64x64x64_S64x64x128_S64x64x128_2_1_1_2_0_0 : DotDims S64x64x64 S64x64x128 S64x64x128 where
  lhsContracting := [2]
  rhsContracting := [1]
  lhsNonContracting := [1]
  rhsNonContracting := [2]
  lhsBatch := [0]
  rhsBatch := [0]
  wf := dot_S64x64x64_S64x64x128_S64x64x128_2_1_1_2_0_0_wf
def dot_S64x64x8_S64x8x128_S64x64x128_2_1_1_2_0_0 : DotDims S64x64x8 S64x8x128 S64x64x128 where
  lhsContracting := [2]
  rhsContracting := [1]
  lhsNonContracting := [1]
  rhsNonContracting := [2]
  lhsBatch := [0]
  rhsBatch := [0]
  wf := dot_S64x64x8_S64x8x128_S64x64x128_2_1_1_2_0_0_wf
def dot_S64x64x256_S64x256x128_S64x64x128_2_1_1_2_0_0 : DotDims S64x64x256 S64x256x128 S64x64x128 where
  lhsContracting := [2]
  rhsContracting := [1]
  lhsNonContracting := [1]
  rhsNonContracting := [2]
  lhsBatch := [0]
  rhsBatch := [0]
  wf := dot_S64x64x256_S64x256x128_S64x64x128_2_1_1_2_0_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

class Facts : Prop extends Facts₀ where

variable [Facts]
-- ==== Proof.KH.H0.lean ====
/- Host stretch 0 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 0 writes. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw0_v1 (Wv : Valuation τ sig (Elt F)) :
    StableHlo.after hostOps0 Wv (Proc.devRef .tc main_v1) = (shapeCast S262144 (((extractStridedSlice S1x262144 ![0, 0] · slices_S2x262144_S1x262144_0_0) : (⟨S2x262144, .i32⟩ : BufTy).Contents (Elt F) → (⟨S1x262144, .i32⟩ : BufTy).Contents (Elt F)) (Wv (Proc.devRef .tc main_arg2))) shapeCasts_S1x262144_S262144) := by
  after_results_simp <;> rfl

set_option maxHeartbeats 4000000 in
theorem raw0_v3 (Wv : Valuation τ sig (Elt F)) :
    StableHlo.after hostOps0 Wv (Proc.devRef .tc main_v3) = (shapeCast S262144 (((extractStridedSlice S1x262144 ![1, 0] · slices_S2x262144_S1x262144_1_0) : (⟨S2x262144, .i32⟩ : BufTy).Contents (Elt F) → (⟨S1x262144, .i32⟩ : BufTy).Contents (Elt F)) (Wv (Proc.devRef .tc main_arg2))) shapeCasts_S1x262144_S262144) := by
  after_results_simp <;> rfl

end Cert.KernelIdeal.KH

end
-- ==== Proof.KH.H1.lean ====
/- Host stretch 1 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 1 writes. -/
abbrev hostOps1_W : List (Ref sig .tc) := [main_v5, main_c, main_v6, main_v7, main_c_0, main_v8, main_v9, main_v10, main_v11, main_v12, main_v13, main_v14, main_v15]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw1_v5 (Wv : Valuation τ sig (Elt F)) :
    StableHlo.after hostOps1 Wv (Proc.devRef .tc main_v5) = (shapeCast S16384x128 (Wv (Proc.devRef .tc main_v4)) shapeCasts_S64x256x128_S16384x128) := by
  after_results_simp <;> rfl

set_option maxHeartbeats 4000000 in
theorem raw1_v12 (Wv : Valuation τ sig (Elt F)) :
    StableHlo.after hostOps1 Wv (Proc.devRef .tc main_v12) = (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) (Wv (Proc.devRef .tc main_arg0)) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Wv (Proc.devRef .tc main_v1)) ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) (Wv (Proc.devRef .tc main_v1)) ((broadcastInDim S262144 ![] bcast_S_S262144 : (⟨S_, .i32⟩ : BufTy).Contents (Elt F) → (⟨S262144, .i32⟩ : BufTy).Contents (Elt F)) (constantI S_ 32 16384#32))) (Wv (Proc.devRef .tc main_v1))))) := by
  after_results_simp <;> rfl

set_option maxHeartbeats 4000000 in
theorem raw1_v13 (Wv : Valuation τ sig (Elt F)) :
    StableHlo.after hostOps1 Wv (Proc.devRef .tc main_v13) = (((extractStridedSlice S128x128 ![0, 0] · slices_S256x128_S128x128_0_0) : (⟨S256x128, .f32⟩ : BufTy).Contents (Elt F) → (⟨S128x128, .f32⟩ : BufTy).Contents (Elt F)) (Wv (Proc.devRef .tc main_arg9))) := by
  after_results_simp <;> rfl

set_option maxHeartbeats 4000000 in
theorem raw1_v14 (Wv : Valuation τ sig (Elt F)) :
    StableHlo.after hostOps1 Wv (Proc.devRef .tc main_v14) = (((extractStridedSlice S128x128 ![128, 0] · slices_S256x128_S128x128_128_0) : (⟨S256x128, .f32⟩ : BufTy).Contents (Elt F) → (⟨S128x128, .f32⟩ : BufTy).Contents (Elt F)) (Wv (Proc.devRef .tc main_arg9))) := by
  after_results_simp <;> rfl

set_option maxHeartbeats 4000000 in
theorem raw1_v15 (Wv : Valuation τ sig (Elt F)) :
    StableHlo.after hostOps1 Wv (Proc.devRef .tc main_v15) = (shapeCast S1x128 (Wv (Proc.devRef .tc main_arg10)) shapeCasts_S128_S1x128) := by
  after_results_simp <;> rfl

end Cert.KernelIdeal.KH

end
-- ==== Proof.KH.H2.lean ====
/- Host stretch 2 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 2 writes. -/
abbrev hostOps2_W : List (Ref sig .tc) := [main_cst, main_v17, main_v18, main_v19, main_v20, main_v21, main_v22, main_v23, main_v24, main_v25, main_v26, main_v27, main_v28, main_v29, main_v30, main_v31, main_v32]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw2_v19 (Wv : Valuation τ sig (Elt F)) :
    StableHlo.after hostOps2 Wv (Proc.devRef .tc main_v19) = (((fun x i u => Host.scatterAdd scatter_S16384x128_S262144x1_S262144x128_1_0_0_1 x i u) : (⟨S16384x128, .f32⟩ : BufTy).Contents (Elt F) → (⟨S262144x1, .i32⟩ : BufTy).Contents (Elt F) → (⟨S262144x128, .f32⟩ : BufTy).Contents (Elt F) → (⟨S16384x128, .f32⟩ : BufTy).Contents (Elt F)) ((broadcastInDim S16384x128 ![] bcast_S_S16384x128 : (⟨S_, .f32⟩ : BufTy).Contents (Elt F) → (⟨S16384x128, .f32⟩ : BufTy).Contents (Elt F)) (constant (F := F) S_ .f32 0x00000000#32)) ((broadcastInDim S262144x1 ![0] bcast_S262144_S262144x1_0 : (⟨S262144, .i32⟩ : BufTy).Contents (Elt F) → (⟨S262144x1, .i32⟩ : BufTy).Contents (Elt F)) (Wv (Proc.devRef .tc main_v3))) (Wv (Proc.devRef .tc main_v16))) := by
  after_results_simp <;> rfl

set_option maxHeartbeats 4000000 in
theorem raw2_v21 (Wv : Valuation τ sig (Elt F)) :
    StableHlo.after hostOps2 Wv (Proc.devRef .tc main_v21) = (shapeCast S128x128 (((extractStridedSlice S1x128x128 ![0, 0, 0] · slices_S7x128x128_S1x128x128_0_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw2_v25 (Wv : Valuation τ sig (Elt F)) :
    StableHlo.after hostOps2 Wv (Proc.devRef .tc main_v25) = (shapeCast S128 (((extractStridedSlice S1x128 ![0, 0] · slices_S7x128_S1x128_0_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw2_v27 (Wv : Valuation τ sig (Elt F)) :
    StableHlo.after hostOps2 Wv (Proc.devRef .tc main_v27) = (shapeCast S128 (((extractStridedSlice S1x128 ![0, 0] · slices_S7x128_S1x128_0_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw2_v29 (Wv : Valuation τ sig (Elt F)) :
    StableHlo.after hostOps2 Wv (Proc.devRef .tc main_v29) = (shapeCast S128x128 (((extractStridedSlice S1x128x128 ![0, 0, 0] · slices_S7x128x128_S1x128x128_0_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw2_v31 (Wv : Valuation τ sig (Elt F)) :
    StableHlo.after hostOps2 Wv (Proc.devRef .tc main_v31) = (shapeCast S128 (((extractStridedSlice S1x128 ![0, 0] · slices_S7x128_S1x128_0_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw2_v32 (Wv : Valuation τ sig (Elt F)) :
    StableHlo.after hostOps2 Wv (Proc.devRef .tc main_v32) = (shapeCast S1x128 (shapeCast S128 (((extractStridedSlice S1x128 ![0, 0] · slices_S7x128_S1x128_0_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H3.lean ====
/- Host stretch 3 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 3 writes. -/
abbrev hostOps3_W : List (Ref sig .tc) := [main_cst_1, main_v34, main_cst_2, main_v35, main_v36, main_v37, main_v38]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw3_v34 (Wv : Valuation τ sig (Elt F)) :
    StableHlo.after hostOps3 Wv (Proc.devRef .tc main_v34) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v33_1)) (constant (F := F) S_ .f32 0x00000000#32)) := by
  after_results_simp <;> rfl

set_option maxHeartbeats 4000000 in
theorem raw3_v35 (Wv : Valuation τ sig (Elt F)) :
    StableHlo.after hostOps3 Wv (Proc.devRef .tc main_v35) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v33_2)) (constant (F := F) S_ .f32 0x00000000#32)) := by
  after_results_simp <;> rfl

set_option maxHeartbeats 4000000 in
theorem raw3_v36 (Wv : Valuation τ sig (Elt F)) :
    StableHlo.after hostOps3 Wv (Proc.devRef .tc main_v36) = (shapeCast S1x128 (Wv (Proc.devRef .tc main_v31)) shapeCasts_S128_S1x128) := by
  after_results_simp <;> rfl

set_option maxHeartbeats 4000000 in
theorem raw3_v37 (Wv : Valuation τ sig (Elt F)) :
    StableHlo.after hostOps3 Wv (Proc.devRef .tc main_v37) = (shapeCast S1x128 (Wv (Proc.devRef .tc main_v25)) shapeCasts_S128_S1x128) := by
  after_results_simp <;> rfl

set_option maxHeartbeats 4000000 in
theorem raw3_v38 (Wv : Valuation τ sig (Elt F)) :
    StableHlo.after hostOps3 Wv (Proc.devRef .tc main_v38) = (shapeCast S1x128 (Wv (Proc.devRef .tc main_v27)) shapeCasts_S128_S1x128) := by
  after_results_simp <;> rfl

end Cert.KernelIdeal.KH

end
-- ==== Proof.KH.H4.lean ====
/- Host stretch 4 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 4 writes. -/
abbrev hostOps4_W : List (Ref sig .tc) := [main_cst_3, main_v40, main_cst_4, main_v41, main_v42, main_v43, main_v44, main_v45, main_v46, main_v47, main_v48, main_v49, main_v50, main_v51, main_v52, main_v53, main_v54]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw4_v40 (Wv : Valuation τ sig (Elt F)) :
    StableHlo.after hostOps4 Wv (Proc.devRef .tc main_v40) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v39_1)) (constant (F := F) S_ .f32 0x00000000#32)) := by
  after_results_simp <;> rfl

set_option maxHeartbeats 4000000 in
theorem raw4_v41 (Wv : Valuation τ sig (Elt F)) :
    StableHlo.after hostOps4 Wv (Proc.devRef .tc main_v41) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v39_2)) (constant (F := F) S_ .f32 0x00000000#32)) := by
  after_results_simp <;> rfl

set_option maxHeartbeats 4000000 in
theorem raw4_v43 (Wv : Valuation τ sig (Elt F)) :
    StableHlo.after hostOps4 Wv (Proc.devRef .tc main_v43) = (shapeCast S128x128 (((extractStridedSlice S1x128x128 ![1, 0, 0] · slices_S7x128x128_S1x128x128_1_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw4_v47 (Wv : Valuation τ sig (Elt F)) :
    StableHlo.after hostOps4 Wv (Proc.devRef .tc main_v47) = (shapeCast S128 (((extractStridedSlice S1x128 ![1, 0] · slices_S7x128_S1x128_1_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw4_v49 (Wv : Valuation τ sig (Elt F)) :
    StableHlo.after hostOps4 Wv (Proc.devRef .tc main_v49) = (shapeCast S128 (((extractStridedSlice S1x128 ![1, 0] · slices_S7x128_S1x128_1_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw4_v51 (Wv : Valuation τ sig (Elt F)) :
    StableHlo.after hostOps4 Wv (Proc.devRef .tc main_v51) = (shapeCast S128x128 (((extractStridedSlice S1x128x128 ![1, 0, 0] · slices_S7x128x128_S1x128x128_1_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw4_v53 (Wv : Valuation τ sig (Elt F)) :
    StableHlo.after hostOps4 Wv (Proc.devRef .tc main_v53) = (shapeCast S128 (((extractStridedSlice S1x128 ![1, 0] · slices_S7x128_S1x128_1_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw4_v54 (Wv : Valuation τ sig (Elt F)) :
    StableHlo.after hostOps4 Wv (Proc.devRef .tc main_v54) = (shapeCast S1x128 (shapeCast S128 (((extractStridedSlice S1x128 ![1, 0] · slices_S7x128_S1x128_1_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H5.lean ====
/- Host stretch 5 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 5 writes. -/
abbrev hostOps5_W : List (Ref sig .tc) := [main_cst_5, main_v56, main_cst_6, main_v57, main_v58, main_v59, main_v60]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw5_v56 (Wv : Valuation τ sig (Elt F)) :
    StableHlo.after hostOps5 Wv (Proc.devRef .tc main_v56) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v55_1)) (constant (F := F) S_ .f32 0x00000000#32)) := by
  after_results_simp <;> rfl

set_option maxHeartbeats 4000000 in
theorem raw5_v57 (Wv : Valuation τ sig (Elt F)) :
    StableHlo.after hostOps5 Wv (Proc.devRef .tc main_v57) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v55_2)) (constant (F := F) S_ .f32 0x00000000#32)) := by
  after_results_simp <;> rfl

set_option maxHeartbeats 4000000 in
theorem raw5_v58 (Wv : Valuation τ sig (Elt F)) :
    StableHlo.after hostOps5 Wv (Proc.devRef .tc main_v58) = (shapeCast S1x128 (Wv (Proc.devRef .tc main_v53)) shapeCasts_S128_S1x128) := by
  after_results_simp <;> rfl

set_option maxHeartbeats 4000000 in
theorem raw5_v59 (Wv : Valuation τ sig (Elt F)) :
    StableHlo.after hostOps5 Wv (Proc.devRef .tc main_v59) = (shapeCast S1x128 (Wv (Proc.devRef .tc main_v47)) shapeCasts_S128_S1x128) := by
  after_results_simp <;> rfl

set_option maxHeartbeats 4000000 in
theorem raw5_v60 (Wv : Valuation τ sig (Elt F)) :
    StableHlo.after hostOps5 Wv (Proc.devRef .tc main_v60) = (shapeCast S1x128 (Wv (Proc.devRef .tc main_v49)) shapeCasts_S128_S1x128) := by
  after_results_simp <;> rfl

end Cert.KernelIdeal.KH

end
-- ==== Proof.KH.H6.lean ====
/- Host stretch 6 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 6 writes. -/
abbrev hostOps6_W : List (Ref sig .tc) := [main_cst_7, main_v62, main_cst_8, main_v63, main_v64, main_v65, main_v66, main_v67, main_v68, main_v69, main_v70, main_v71, main_v72, main_v73, main_v74, main_v75, main_v76, main_v77, main_v78]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw6_v62 (Wv : Valuation τ sig (Elt F)) :
    StableHlo.after hostOps6 Wv (Proc.devRef .tc main_v62) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v61_1)) (constant (F := F) S_ .f32 0x00000000#32)) := by
  after_results_simp <;> rfl

set_option maxHeartbeats 4000000 in
theorem raw6_v63 (Wv : Valuation τ sig (Elt F)) :
    StableHlo.after hostOps6 Wv (Proc.devRef .tc main_v63) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v61_2)) (constant (F := F) S_ .f32 0x00000000#32)) := by
  after_results_simp <;> rfl

set_option maxHeartbeats 4000000 in
theorem raw6_v64 (Wv : Valuation τ sig (Elt F)) :
    StableHlo.after hostOps6 Wv (Proc.devRef .tc main_v64) = (((extractStridedSlice S128x128 ![0, 0] · slices_S256x128_S128x128_0_0) : (⟨S256x128, .f32⟩ : BufTy).Contents (Elt F) → (⟨S128x128, .f32⟩ : BufTy).Contents (Elt F)) (Wv (Proc.devRef .tc main_arg19))) := by
  after_results_simp <;> rfl

set_option maxHeartbeats 4000000 in
theorem raw6_v69 (Wv : Valuation τ sig (Elt F)) :
    StableHlo.after hostOps6 Wv (Proc.devRef .tc main_v69) = (((extractStridedSlice S128x128 ![128, 0] · slices_S256x128_S128x128_128_0) : (⟨S256x128, .f32⟩ : BufTy).Contents (Elt F) → (⟨S128x128, .f32⟩ : BufTy).Contents (Elt F)) (Wv (Proc.devRef .tc main_arg19))) := by
  after_results_simp <;> rfl

set_option maxHeartbeats 4000000 in
theorem raw6_v74 (Wv : Valuation τ sig (Elt F)) :
    StableHlo.after hostOps6 Wv (Proc.devRef .tc main_v74) = (shapeCast S1x128 (Wv (Proc.devRef .tc main_arg20)) shapeCasts_S128_S1x128) := by
  after_results_simp <;> rfl

set_option maxHeartbeats 4000000 in
theorem raw6_v75 (Wv : Valuation τ sig (Elt F)) :
    StableHlo.after hostOps6 Wv (Proc.devRef .tc main_v75) = (shapeCast S1x128 (shapeCast S128 (((extractStridedSlice S1x128 ![0, 0] · slices_S7x128_S1x128_0_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw6_v76 (Wv : Valuation τ sig (Elt F)) :
    StableHlo.after hostOps6 Wv (Proc.devRef .tc main_v76) = (shapeCast S1x128 (shapeCast S128 (((extractStridedSlice S1x128 ![0, 0] · slices_S7x128_S1x128_0_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

set_option maxHeartbeats 4000000 in
theorem raw6_v77 (Wv : Valuation τ sig (Elt F)) :
    StableHlo.after hostOps6 Wv (Proc.devRef .tc main_v77) = (shapeCast S1x128 (shapeCast S128 (((extractStridedSlice S1x128 ![1, 0] · slices_S7x128_S1x128_1_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw6_v78 (Wv : Valuation τ sig (Elt F)) :
    StableHlo.after hostOps6 Wv (Proc.devRef .tc main_v78) = (shapeCast S1x128 (shapeCast S128 (((extractStridedSlice S1x128 ![1, 0] · slices_S7x128_S1x128_1_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

end Cert.KernelIdeal.KH

end
-- ==== Proof.KH.H7.lean ====
/- Host stretch 7 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 7 writes. -/
abbrev hostOps7_W : List (Ref sig .tc) := [main_cst_9, main_v80, main_cst_10, main_v81, main_v82, main_v83]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw7_v80 (Wv : Valuation τ sig (Elt F)) :
    StableHlo.after hostOps7 Wv (Proc.devRef .tc main_v80) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v79_1)) (constant (F := F) S_ .f32 0x00000000#32)) := by
  after_results_simp <;> rfl

set_option maxHeartbeats 4000000 in
theorem raw7_v81 (Wv : Valuation τ sig (Elt F)) :
    StableHlo.after hostOps7 Wv (Proc.devRef .tc main_v81) = (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) (Wv (Proc.devRef .tc main_v79_2)) (constant (F := F) S_ .f32 0x00000000#32)) := by
  after_results_simp <;> rfl

set_option maxHeartbeats 4000000 in
theorem raw7_v82 (Wv : Valuation τ sig (Elt F)) :
    StableHlo.after hostOps7 Wv (Proc.devRef .tc main_v82) = (shapeCast S1x128 (Wv (Proc.devRef .tc main_arg21)) shapeCasts_S128_S1x128) := by
  after_results_simp <;> rfl

set_option maxHeartbeats 4000000 in
theorem raw7_v83 (Wv : Valuation τ sig (Elt F)) :
    StableHlo.after hostOps7 Wv (Proc.devRef .tc main_v83) = (shapeCast S1x128 (Wv (Proc.devRef .tc main_arg22)) shapeCasts_S128_S1x128) := by
  after_results_simp <;> rfl

end Cert.KernelIdeal.KH

end
-- ==== Proof.KH.H8.lean ====
/- Host stretch 8 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 8 writes. -/
abbrev hostOps8_W : List (Ref sig .tc) := [main_c_11, main_v85, main_v86, main_c_12, main_v87, main_v88, main_v89, main_v90, main_v91, main_c_13, main_v92, main_v93, main_c_14, main_v94, main_v95, main_v96, main_v97, main_v98, main_c_15, main_v99, main_v100, main_c_16, main_v101, main_v102, main_v103, main_v104, main_v105, main_v106, main_v107, main_v108, main_v109, main_v110, main_v111, main_v112, main_v113, main_v114, main_v115, main_v116, main_v117, main_v118]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw8_v91 (Wv : Valuation τ sig (Elt F)) :
    StableHlo.after hostOps8 Wv (Proc.devRef .tc main_v91) = (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) (Wv (Proc.devRef .tc main_arg0)) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Wv (Proc.devRef .tc main_v3)) ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) (Wv (Proc.devRef .tc main_v3)) ((broadcastInDim S262144 ![] bcast_S_S262144 : (⟨S_, .i32⟩ : BufTy).Contents (Elt F) → (⟨S262144, .i32⟩ : BufTy).Contents (Elt F)) (constantI S_ 32 16384#32))) (Wv (Proc.devRef .tc main_v3))))) := by
  after_results_simp <;> rfl

set_option maxHeartbeats 4000000 in
theorem raw8_v98 (Wv : Valuation τ sig (Elt F)) :
    StableHlo.after hostOps8 Wv (Proc.devRef .tc main_v98) = (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) (Wv (Proc.devRef .tc main_v5)) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Wv (Proc.devRef .tc main_v1)) ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) (Wv (Proc.devRef .tc main_v1)) ((broadcastInDim S262144 ![] bcast_S_S262144 : (⟨S_, .i32⟩ : BufTy).Contents (Elt F) → (⟨S262144, .i32⟩ : BufTy).Contents (Elt F)) (constantI S_ 32 16384#32))) (Wv (Proc.devRef .tc main_v1))))) := by
  after_results_simp <;> rfl

set_option maxHeartbeats 4000000 in
theorem raw8_v105 (Wv : Valuation τ sig (Elt F)) :
    StableHlo.after hostOps8 Wv (Proc.devRef .tc main_v105) = (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) (Wv (Proc.devRef .tc main_v5)) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Wv (Proc.devRef .tc main_v3)) ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) (Wv (Proc.devRef .tc main_v3)) ((broadcastInDim S262144 ![] bcast_S_S262144 : (⟨S_, .i32⟩ : BufTy).Contents (Elt F) → (⟨S262144, .i32⟩ : BufTy).Contents (Elt F)) (constantI S_ 32 16384#32))) (Wv (Proc.devRef .tc main_v3))))) := by
  after_results_simp <;> rfl

set_option maxHeartbeats 4000000 in
theorem raw8_v107 (Wv : Valuation τ sig (Elt F)) :
    StableHlo.after hostOps8 Wv (Proc.devRef .tc main_v107) = (shapeCast S128x128 (((extractStridedSlice S1x128x128 ![2, 0, 0] · slices_S7x128x128_S1x128x128_2_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw8_v111 (Wv : Valuation τ sig (Elt F)) :
    StableHlo.after hostOps8 Wv (Proc.devRef .tc main_v111) = (shapeCast S128 (((extractStridedSlice S1x128 ![2, 0] · slices_S7x128_S1x128_2_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw8_v113 (Wv : Valuation τ sig (Elt F)) :
    StableHlo.after hostOps8 Wv (Proc.devRef .tc main_v113) = (shapeCast S128 (((extractStridedSlice S1x128 ![2, 0] · slices_S7x128_S1x128_2_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw8_v115 (Wv : Valuation τ sig (Elt F)) :
    StableHlo.after hostOps8 Wv (Proc.devRef .tc main_v115) = (shapeCast S128x128 (((extractStridedSlice S1x128x128 ![2, 0, 0] · slices_S7x128x128_S1x128x128_2_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw8_v117 (Wv : Valuation τ sig (Elt F)) :
    StableHlo.after hostOps8 Wv (Proc.devRef .tc main_v117) = (shapeCast S128 (((extractStridedSlice S1x128 ![2, 0] · slices_S7x128_S1x128_2_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw8_v118 (Wv : Valuation τ sig (Elt F)) :
    StableHlo.after hostOps8 Wv (Proc.devRef .tc main_v118) = (shapeCast S1x128 (shapeCast S128 (((extractStridedSlice S1x128 ![2, 0] · slices_S7x128_S1x128_2_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H9.lean ====
/- Host stretch 9 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 9 writes. -/
abbrev hostOps9_W : List (Ref sig .tc) := [main_cst_17, main_v120, main_cst_18, main_v121, main_v122, main_v123, main_v124]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw9_v120 (Wv : Valuation τ sig (Elt F)) :
    StableHlo.after hostOps9 Wv (Proc.devRef .tc main_v120) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v119_1)) (constant (F := F) S_ .f32 0x00000000#32)) := by
  after_results_simp <;> rfl

set_option maxHeartbeats 4000000 in
theorem raw9_v121 (Wv : Valuation τ sig (Elt F)) :
    StableHlo.after hostOps9 Wv (Proc.devRef .tc main_v121) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v119_2)) (constant (F := F) S_ .f32 0x00000000#32)) := by
  after_results_simp <;> rfl

set_option maxHeartbeats 4000000 in
theorem raw9_v122 (Wv : Valuation τ sig (Elt F)) :
    StableHlo.after hostOps9 Wv (Proc.devRef .tc main_v122) = (shapeCast S1x128 (Wv (Proc.devRef .tc main_v117)) shapeCasts_S128_S1x128) := by
  after_results_simp <;> rfl

set_option maxHeartbeats 4000000 in
theorem raw9_v123 (Wv : Valuation τ sig (Elt F)) :
    StableHlo.after hostOps9 Wv (Proc.devRef .tc main_v123) = (shapeCast S1x128 (Wv (Proc.devRef .tc main_v111)) shapeCasts_S128_S1x128) := by
  after_results_simp <;> rfl

set_option maxHeartbeats 4000000 in
theorem raw9_v124 (Wv : Valuation τ sig (Elt F)) :
    StableHlo.after hostOps9 Wv (Proc.devRef .tc main_v124) = (shapeCast S1x128 (Wv (Proc.devRef .tc main_v113)) shapeCasts_S128_S1x128) := by
  after_results_simp <;> rfl

end Cert.KernelIdeal.KH

end
-- ==== Proof.KH.H10.lean ====
/- Host stretch 10 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 10 writes. -/
abbrev hostOps10_W : List (Ref sig .tc) := [main_cst_19, main_v126, main_cst_20, main_v127, main_v128, main_v129, main_v130, main_v131, main_v132, main_v133, main_v134, main_v135, main_v136, main_v137, main_v138, main_v139, main_v140]
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw10_v126 (Wv : Valuation τ sig (Elt F)) :
    StableHlo.after hostOps10 Wv (Proc.devRef .tc main_v126) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v125_1)) (constant (F := F) S_ .f32 0x00000000#32)) := by
  after_results_simp <;> rfl

set_option maxHeartbeats 4000000 in
theorem raw10_v127 (Wv : Valuation τ sig (Elt F)) :
    StableHlo.after hostOps10 Wv (Proc.devRef .tc main_v127) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v125_2)) (constant (F := F) S_ .f32 0x00000000#32)) := by
  after_results_simp <;> rfl

set_option maxHeartbeats 4000000 in
theorem raw10_v129 (Wv : Valuation τ sig (Elt F)) :
    StableHlo.after hostOps10 Wv (Proc.devRef .tc main_v129) = (shapeCast S128x128 (((extractStridedSlice S1x128x128 ![3, 0, 0] · slices_S7x128x128_S1x128x128_3_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw10_v133 (Wv : Valuation τ sig (Elt F)) :
    StableHlo.after hostOps10 Wv (Proc.devRef .tc main_v133) = (shapeCast S128 (((extractStridedSlice S1x128 ![3, 0] · slices_S7x128_S1x128_3_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw10_v135 (Wv : Valuation τ sig (Elt F)) :
    StableHlo.after hostOps10 Wv (Proc.devRef .tc main_v135) = (shapeCast S128 (((extractStridedSlice S1x128 ![3, 0] · slices_S7x128_S1x128_3_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw10_v137 (Wv : Valuation τ sig (Elt F)) :
    StableHlo.after hostOps10 Wv (Proc.devRef .tc main_v137) = (shapeCast S128x128 (((extractStridedSlice S1x128x128 ![3, 0, 0] · slices_S7x128x128_S1x128x128_3_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw10_v139 (Wv : Valuation τ sig (Elt F)) :
    StableHlo.after hostOps10 Wv (Proc.devRef .tc main_v139) = (shapeCast S128 (((extractStridedSlice S1x128 ![3, 0] · slices_S7x128_S1x128_3_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw10_v140 (Wv : Valuation τ sig (Elt F)) :
    StableHlo.after hostOps10 Wv (Proc.devRef .tc main_v140) = (shapeCast S1x128 (shapeCast S128 (((extractStridedSlice S1x128 ![3, 0] · slices_S7x128_S1x128_3_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H11.lean ====
/- Host stretch 11 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 11 writes. -/
abbrev hostOps11_W : List (Ref sig .tc) := [main_cst_21, main_v142, main_cst_22, main_v143, main_v144, main_v145, main_v146]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw11_v142 (Wv : Valuation τ sig (Elt F)) :
    StableHlo.after hostOps11 Wv (Proc.devRef .tc main_v142) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v141_1)) (constant (F := F) S_ .f32 0x00000000#32)) := by
  after_results_simp <;> rfl

set_option maxHeartbeats 4000000 in
theorem raw11_v143 (Wv : Valuation τ sig (Elt F)) :
    StableHlo.after hostOps11 Wv (Proc.devRef .tc main_v143) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v141_2)) (constant (F := F) S_ .f32 0x00000000#32)) := by
  after_results_simp <;> rfl

set_option maxHeartbeats 4000000 in
theorem raw11_v144 (Wv : Valuation τ sig (Elt F)) :
    StableHlo.after hostOps11 Wv (Proc.devRef .tc main_v144) = (shapeCast S1x128 (Wv (Proc.devRef .tc main_v139)) shapeCasts_S128_S1x128) := by
  after_results_simp <;> rfl

set_option maxHeartbeats 4000000 in
theorem raw11_v145 (Wv : Valuation τ sig (Elt F)) :
    StableHlo.after hostOps11 Wv (Proc.devRef .tc main_v145) = (shapeCast S1x128 (Wv (Proc.devRef .tc main_v133)) shapeCasts_S128_S1x128) := by
  after_results_simp <;> rfl

set_option maxHeartbeats 4000000 in
theorem raw11_v146 (Wv : Valuation τ sig (Elt F)) :
    StableHlo.after hostOps11 Wv (Proc.devRef .tc main_v146) = (shapeCast S1x128 (Wv (Proc.devRef .tc main_v135)) shapeCasts_S128_S1x128) := by
  after_results_simp <;> rfl

end Cert.KernelIdeal.KH

end
-- ==== Proof.KH.H12.lean ====
/- Host stretch 12 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 12 writes. -/
abbrev hostOps12_W : List (Ref sig .tc) := [main_cst_23, main_v148, main_cst_24, main_v149, main_v150, main_v151, main_v152, main_v153, main_v154, main_v155, main_v156, main_v157, main_v158, main_v159, main_v160, main_v161, main_v162, main_v163, main_v164]
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw12_v148 (Wv : Valuation τ sig (Elt F)) :
    StableHlo.after hostOps12 Wv (Proc.devRef .tc main_v148) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v147_1)) (constant (F := F) S_ .f32 0x00000000#32)) := by
  after_results_simp <;> rfl

set_option maxHeartbeats 4000000 in
theorem raw12_v149 (Wv : Valuation τ sig (Elt F)) :
    StableHlo.after hostOps12 Wv (Proc.devRef .tc main_v149) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v147_2)) (constant (F := F) S_ .f32 0x00000000#32)) := by
  after_results_simp <;> rfl

set_option maxHeartbeats 4000000 in
theorem raw12_v150 (Wv : Valuation τ sig (Elt F)) :
    StableHlo.after hostOps12 Wv (Proc.devRef .tc main_v150) = (((extractStridedSlice S128x128 ![0, 0] · slices_S256x128_S128x128_0_0) : (⟨S256x128, .f32⟩ : BufTy).Contents (Elt F) → (⟨S128x128, .f32⟩ : BufTy).Contents (Elt F)) (Wv (Proc.devRef .tc main_arg23))) := by
  after_results_simp <;> rfl

set_option maxHeartbeats 4000000 in
theorem raw12_v155 (Wv : Valuation τ sig (Elt F)) :
    StableHlo.after hostOps12 Wv (Proc.devRef .tc main_v155) = (((extractStridedSlice S128x128 ![128, 0] · slices_S256x128_S128x128_128_0) : (⟨S256x128, .f32⟩ : BufTy).Contents (Elt F) → (⟨S128x128, .f32⟩ : BufTy).Contents (Elt F)) (Wv (Proc.devRef .tc main_arg23))) := by
  after_results_simp <;> rfl

set_option maxHeartbeats 4000000 in
theorem raw12_v160 (Wv : Valuation τ sig (Elt F)) :
    StableHlo.after hostOps12 Wv (Proc.devRef .tc main_v160) = (shapeCast S1x128 (Wv (Proc.devRef .tc main_arg24)) shapeCasts_S128_S1x128) := by
  after_results_simp <;> rfl

set_option maxHeartbeats 4000000 in
theorem raw12_v161 (Wv : Valuation τ sig (Elt F)) :
    StableHlo.after hostOps12 Wv (Proc.devRef .tc main_v161) = (shapeCast S1x128 (shapeCast S128 (((extractStridedSlice S1x128 ![2, 0] · slices_S7x128_S1x128_2_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw12_v162 (Wv : Valuation τ sig (Elt F)) :
    StableHlo.after hostOps12 Wv (Proc.devRef .tc main_v162) = (shapeCast S1x128 (shapeCast S128 (((extractStridedSlice S1x128 ![2, 0] · slices_S7x128_S1x128_2_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

set_option maxHeartbeats 4000000 in
theorem raw12_v163 (Wv : Valuation τ sig (Elt F)) :
    StableHlo.after hostOps12 Wv (Proc.devRef .tc main_v163) = (shapeCast S1x128 (shapeCast S128 (((extractStridedSlice S1x128 ![3, 0] · slices_S7x128_S1x128_3_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw12_v164 (Wv : Valuation τ sig (Elt F)) :
    StableHlo.after hostOps12 Wv (Proc.devRef .tc main_v164) = (shapeCast S1x128 (shapeCast S128 (((extractStridedSlice S1x128 ![3, 0] · slices_S7x128_S1x128_3_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

end Cert.KernelIdeal.KH

end
-- ==== Proof.KH.H13.lean ====
/- Host stretch 13 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 13 writes. -/
abbrev hostOps13_W : List (Ref sig .tc) := [main_cst_25, main_v166, main_cst_26, main_v167, main_v168, main_v169]
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw13_v166 (Wv : Valuation τ sig (Elt F)) :
    StableHlo.after hostOps13 Wv (Proc.devRef .tc main_v166) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v165_1)) (constant (F := F) S_ .f32 0x00000000#32)) := by
  after_results_simp <;> rfl

set_option maxHeartbeats 4000000 in
theorem raw13_v167 (Wv : Valuation τ sig (Elt F)) :
    StableHlo.after hostOps13 Wv (Proc.devRef .tc main_v167) = (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) (Wv (Proc.devRef .tc main_v165_2)) (constant (F := F) S_ .f32 0x00000000#32)) := by
  after_results_simp <;> rfl

set_option maxHeartbeats 4000000 in
theorem raw13_v168 (Wv : Valuation τ sig (Elt F)) :
    StableHlo.after hostOps13 Wv (Proc.devRef .tc main_v168) = (shapeCast S1x128 (Wv (Proc.devRef .tc main_arg25)) shapeCasts_S128_S1x128) := by
  after_results_simp <;> rfl

set_option maxHeartbeats 4000000 in
theorem raw13_v169 (Wv : Valuation τ sig (Elt F)) :
    StableHlo.after hostOps13 Wv (Proc.devRef .tc main_v169) = (shapeCast S1x128 (Wv (Proc.devRef .tc main_arg26)) shapeCasts_S128_S1x128) := by
  after_results_simp <;> rfl

end Cert.KernelIdeal.KH

end
-- ==== Proof.KH.H14.lean ====
/- Host stretch 14 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 14 writes. -/
abbrev hostOps14_W : List (Ref sig .tc) := [main_v171]
theorem hostOps14_writes : (hostOps14 : List (HloOp τ sig (Elt F))).Forall fun op => op.writes ⊆ (hostOps14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem raw14_v171 (Wv : Valuation τ sig (Elt F)) :
    StableHlo.after hostOps14 Wv (Proc.devRef .tc main_v171) = (shapeCast S64x256x128 (Wv (Proc.devRef .tc main_arg0)) shapeCasts_S16384x128_S64x256x128) := by
  after_results_simp <;> rfl

end Cert.KernelIdeal.KH

end
-- ==== Proof.KH.H15.lean ====
/- Host stretch 15 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 15 writes. -/
abbrev hostOps15_W : List (Ref sig .tc) := [main_v173]
theorem hostOps15_writes : (hostOps15 : List (HloOp τ sig (Elt F))).Forall fun op => op.writes ⊆ (hostOps15_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem raw15_v173 (Wv : Valuation τ sig (Elt F)) :
    StableHlo.after hostOps15 Wv (Proc.devRef .tc main_v173) = (shapeCast S4096x128 (Wv (Proc.devRef .tc main_v172)) shapeCasts_S64x64x128_S4096x128) := by
  after_results_simp <;> rfl

end Cert.KernelIdeal.KH

end
-- ==== Proof.KH.H16.lean ====
/- Host stretch 16 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 16 writes. -/
abbrev hostOps16_W : List (Ref sig .tc) := [main_v175]
theorem hostOps16_writes : (hostOps16 : List (HloOp τ sig (Elt F))).Forall fun op => op.writes ⊆ (hostOps16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem raw16_v175 (Wv : Valuation τ sig (Elt F)) :
    StableHlo.after hostOps16 Wv (Proc.devRef .tc main_v175) = (shapeCast S4096x128 (Wv (Proc.devRef .tc main_v174)) shapeCasts_S64x64x128_S4096x128) := by
  after_results_simp <;> rfl

end Cert.KernelIdeal.KH

end
-- ==== Proof.KH.H17.lean ====
/- Host stretch 17 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 17 writes. -/
abbrev hostOps17_W : List (Ref sig .tc) := [main_v177, main_v178, main_v179, main_v180, main_v181, main_v182, main_v183, main_v184, main_v185, main_v186, main_v187, main_v188, main_v189, main_v190, main_v191]
theorem hostOps17_writes : (hostOps17 : List (HloOp τ sig (Elt F))).Forall fun op => op.writes ⊆ (hostOps17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw17_v177 (Wv : Valuation τ sig (Elt F)) :
    StableHlo.after hostOps17 Wv (Proc.devRef .tc main_v177) = (shapeCast S4096x128 (Wv (Proc.devRef .tc main_v176)) shapeCasts_S64x64x128_S4096x128) := by
  after_results_simp <;> rfl

set_option maxHeartbeats 4000000 in
theorem raw17_v178 (Wv : Valuation τ sig (Elt F)) :
    StableHlo.after hostOps17 Wv (Proc.devRef .tc main_v178) = (shapeCast S4096x128 (Wv (Proc.devRef .tc main_arg3)) shapeCasts_S64x64x128_S4096x128) := by
  after_results_simp <;> rfl

set_option maxHeartbeats 4000000 in
theorem raw17_v180 (Wv : Valuation τ sig (Elt F)) :
    StableHlo.after hostOps17 Wv (Proc.devRef .tc main_v180) = (shapeCast S128x128 (((extractStridedSlice S1x128x128 ![4, 0, 0] · slices_S7x128x128_S1x128x128_4_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw17_v184 (Wv : Valuation τ sig (Elt F)) :
    StableHlo.after hostOps17 Wv (Proc.devRef .tc main_v184) = (shapeCast S128 (((extractStridedSlice S1x128 ![4, 0] · slices_S7x128_S1x128_4_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw17_v186 (Wv : Valuation τ sig (Elt F)) :
    StableHlo.after hostOps17 Wv (Proc.devRef .tc main_v186) = (shapeCast S128 (((extractStridedSlice S1x128 ![4, 0] · slices_S7x128_S1x128_4_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw17_v188 (Wv : Valuation τ sig (Elt F)) :
    StableHlo.after hostOps17 Wv (Proc.devRef .tc main_v188) = (shapeCast S128x128 (((extractStridedSlice S1x128x128 ![4, 0, 0] · slices_S7x128x128_S1x128x128_4_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw17_v190 (Wv : Valuation τ sig (Elt F)) :
    StableHlo.after hostOps17 Wv (Proc.devRef .tc main_v190) = (shapeCast S128 (((extractStridedSlice S1x128 ![4, 0] · slices_S7x128_S1x128_4_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw17_v191 (Wv : Valuation τ sig (Elt F)) :
    StableHlo.after hostOps17 Wv (Proc.devRef .tc main_v191) = (shapeCast S1x128 (shapeCast S128 (((extractStridedSlice S1x128 ![4, 0] · slices_S7x128_S1x128_4_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H18.lean ====
/- Host stretch 18 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 18 writes. -/
abbrev hostOps18_W : List (Ref sig .tc) := [main_cst_27, main_v193, main_cst_28, main_v194, main_v195, main_v196, main_v197]
theorem hostOps18_writes : (hostOps18 : List (HloOp τ sig (Elt F))).Forall fun op => op.writes ⊆ (hostOps18_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw18_v193 (Wv : Valuation τ sig (Elt F)) :
    StableHlo.after hostOps18 Wv (Proc.devRef .tc main_v193) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v192_1)) (constant (F := F) S_ .f32 0x00000000#32)) := by
  after_results_simp <;> rfl

set_option maxHeartbeats 4000000 in
theorem raw18_v194 (Wv : Valuation τ sig (Elt F)) :
    StableHlo.after hostOps18 Wv (Proc.devRef .tc main_v194) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v192_2)) (constant (F := F) S_ .f32 0x00000000#32)) := by
  after_results_simp <;> rfl

set_option maxHeartbeats 4000000 in
theorem raw18_v195 (Wv : Valuation τ sig (Elt F)) :
    StableHlo.after hostOps18 Wv (Proc.devRef .tc main_v195) = (shapeCast S1x128 (Wv (Proc.devRef .tc main_v190)) shapeCasts_S128_S1x128) := by
  after_results_simp <;> rfl

set_option maxHeartbeats 4000000 in
theorem raw18_v196 (Wv : Valuation τ sig (Elt F)) :
    StableHlo.after hostOps18 Wv (Proc.devRef .tc main_v196) = (shapeCast S1x128 (Wv (Proc.devRef .tc main_v184)) shapeCasts_S128_S1x128) := by
  after_results_simp <;> rfl

set_option maxHeartbeats 4000000 in
theorem raw18_v197 (Wv : Valuation τ sig (Elt F)) :
    StableHlo.after hostOps18 Wv (Proc.devRef .tc main_v197) = (shapeCast S1x128 (Wv (Proc.devRef .tc main_v186)) shapeCasts_S128_S1x128) := by
  after_results_simp <;> rfl

end Cert.KernelIdeal.KH

end
-- ==== Proof.KH.H19.lean ====
/- Host stretch 19 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 19 writes. -/
abbrev hostOps19_W : List (Ref sig .tc) := [main_cst_29, main_v199, main_cst_30, main_v200, main_v201, main_v202, main_v203, main_v204, main_v205, main_v206, main_v207, main_v208, main_v209, main_v210, main_v211, main_v212, main_v213]
theorem hostOps19_writes : (hostOps19 : List (HloOp τ sig (Elt F))).Forall fun op => op.writes ⊆ (hostOps19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw19_v199 (Wv : Valuation τ sig (Elt F)) :
    StableHlo.after hostOps19 Wv (Proc.devRef .tc main_v199) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v198_1)) (constant (F := F) S_ .f32 0x00000000#32)) := by
  after_results_simp <;> rfl

set_option maxHeartbeats 4000000 in
theorem raw19_v200 (Wv : Valuation τ sig (Elt F)) :
    StableHlo.after hostOps19 Wv (Proc.devRef .tc main_v200) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v198_2)) (constant (F := F) S_ .f32 0x00000000#32)) := by
  after_results_simp <;> rfl

set_option maxHeartbeats 4000000 in
theorem raw19_v202 (Wv : Valuation τ sig (Elt F)) :
    StableHlo.after hostOps19 Wv (Proc.devRef .tc main_v202) = (shapeCast S128x128 (((extractStridedSlice S1x128x128 ![5, 0, 0] · slices_S7x128x128_S1x128x128_5_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw19_v206 (Wv : Valuation τ sig (Elt F)) :
    StableHlo.after hostOps19 Wv (Proc.devRef .tc main_v206) = (shapeCast S128 (((extractStridedSlice S1x128 ![5, 0] · slices_S7x128_S1x128_5_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw19_v208 (Wv : Valuation τ sig (Elt F)) :
    StableHlo.after hostOps19 Wv (Proc.devRef .tc main_v208) = (shapeCast S128 (((extractStridedSlice S1x128 ![5, 0] · slices_S7x128_S1x128_5_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw19_v210 (Wv : Valuation τ sig (Elt F)) :
    StableHlo.after hostOps19 Wv (Proc.devRef .tc main_v210) = (shapeCast S128x128 (((extractStridedSlice S1x128x128 ![5, 0, 0] · slices_S7x128x128_S1x128x128_5_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw19_v212 (Wv : Valuation τ sig (Elt F)) :
    StableHlo.after hostOps19 Wv (Proc.devRef .tc main_v212) = (shapeCast S128 (((extractStridedSlice S1x128 ![5, 0] · slices_S7x128_S1x128_5_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw19_v213 (Wv : Valuation τ sig (Elt F)) :
    StableHlo.after hostOps19 Wv (Proc.devRef .tc main_v213) = (shapeCast S1x128 (shapeCast S128 (((extractStridedSlice S1x128 ![5, 0] · slices_S7x128_S1x128_5_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H20.lean ====
/- Host stretch 20 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 20 writes. -/
abbrev hostOps20_W : List (Ref sig .tc) := [main_cst_31, main_v215, main_cst_32, main_v216, main_v217, main_v218, main_v219]
theorem hostOps20_writes : (hostOps20 : List (HloOp τ sig (Elt F))).Forall fun op => op.writes ⊆ (hostOps20_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw20_v215 (Wv : Valuation τ sig (Elt F)) :
    StableHlo.after hostOps20 Wv (Proc.devRef .tc main_v215) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v214_1)) (constant (F := F) S_ .f32 0x00000000#32)) := by
  after_results_simp <;> rfl

set_option maxHeartbeats 4000000 in
theorem raw20_v216 (Wv : Valuation τ sig (Elt F)) :
    StableHlo.after hostOps20 Wv (Proc.devRef .tc main_v216) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v214_2)) (constant (F := F) S_ .f32 0x00000000#32)) := by
  after_results_simp <;> rfl

set_option maxHeartbeats 4000000 in
theorem raw20_v217 (Wv : Valuation τ sig (Elt F)) :
    StableHlo.after hostOps20 Wv (Proc.devRef .tc main_v217) = (shapeCast S1x128 (Wv (Proc.devRef .tc main_v212)) shapeCasts_S128_S1x128) := by
  after_results_simp <;> rfl

set_option maxHeartbeats 4000000 in
theorem raw20_v218 (Wv : Valuation τ sig (Elt F)) :
    StableHlo.after hostOps20 Wv (Proc.devRef .tc main_v218) = (shapeCast S1x128 (Wv (Proc.devRef .tc main_v206)) shapeCasts_S128_S1x128) := by
  after_results_simp <;> rfl

set_option maxHeartbeats 4000000 in
theorem raw20_v219 (Wv : Valuation τ sig (Elt F)) :
    StableHlo.after hostOps20 Wv (Proc.devRef .tc main_v219) = (shapeCast S1x128 (Wv (Proc.devRef .tc main_v208)) shapeCasts_S128_S1x128) := by
  after_results_simp <;> rfl

end Cert.KernelIdeal.KH

end
-- ==== Proof.KH.H21.lean ====
/- Host stretch 21 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 21 writes. -/
abbrev hostOps21_W : List (Ref sig .tc) := [main_cst_33, main_v221, main_cst_34, main_v222, main_v223, main_v224, main_v225, main_v226, main_v227, main_v228, main_v229, main_v230, main_v231, main_v232, main_v233, main_v234, main_v235]
theorem hostOps21_writes : (hostOps21 : List (HloOp τ sig (Elt F))).Forall fun op => op.writes ⊆ (hostOps21_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw21_v221 (Wv : Valuation τ sig (Elt F)) :
    StableHlo.after hostOps21 Wv (Proc.devRef .tc main_v221) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v220_1)) (constant (F := F) S_ .f32 0x00000000#32)) := by
  after_results_simp <;> rfl

set_option maxHeartbeats 4000000 in
theorem raw21_v222 (Wv : Valuation τ sig (Elt F)) :
    StableHlo.after hostOps21 Wv (Proc.devRef .tc main_v222) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v220_2)) (constant (F := F) S_ .f32 0x00000000#32)) := by
  after_results_simp <;> rfl

set_option maxHeartbeats 4000000 in
theorem raw21_v224 (Wv : Valuation τ sig (Elt F)) :
    StableHlo.after hostOps21 Wv (Proc.devRef .tc main_v224) = (shapeCast S128x128 (((extractStridedSlice S1x128x128 ![6, 0, 0] · slices_S7x128x128_S1x128x128_6_0_0) : (⟨S7x128x128, .f32⟩ : BufTy).Contents (Elt F) → (⟨S1x128x128, .f32⟩ : BufTy).Contents (Elt F)) (Wv (Proc.devRef .tc main_arg11))) shapeCasts_S1x128x128_S128x128) := by
  after_results_simp <;> rfl

set_option maxHeartbeats 4000000 in
theorem raw21_v228 (Wv : Valuation τ sig (Elt F)) :
    StableHlo.after hostOps21 Wv (Proc.devRef .tc main_v228) = (shapeCast S128 (((extractStridedSlice S1x128 ![6, 0] · slices_S7x128_S1x128_6_0) : (⟨S7x128, .f32⟩ : BufTy).Contents (Elt F) → (⟨S1x128, .f32⟩ : BufTy).Contents (Elt F)) (Wv (Proc.devRef .tc main_arg13))) shapeCasts_S1x128_S128) := by
  after_results_simp <;> rfl

set_option maxHeartbeats 4000000 in
theorem raw21_v230 (Wv : Valuation τ sig (Elt F)) :
    StableHlo.after hostOps21 Wv (Proc.devRef .tc main_v230) = (shapeCast S128 (((extractStridedSlice S1x128 ![6, 0] · slices_S7x128_S1x128_6_0) : (⟨S7x128, .f32⟩ : BufTy).Contents (Elt F) → (⟨S1x128, .f32⟩ : BufTy).Contents (Elt F)) (Wv (Proc.devRef .tc main_arg14))) shapeCasts_S1x128_S128) := by
  after_results_simp <;> rfl

set_option maxHeartbeats 4000000 in
theorem raw21_v232 (Wv : Valuation τ sig (Elt F)) :
    StableHlo.after hostOps21 Wv (Proc.devRef .tc main_v232) = (shapeCast S128x128 (((extractStridedSlice S1x128x128 ![6, 0, 0] · slices_S7x128x128_S1x128x128_6_0_0) : (⟨S7x128x128, .f32⟩ : BufTy).Contents (Elt F) → (⟨S1x128x128, .f32⟩ : BufTy).Contents (Elt F)) (Wv (Proc.devRef .tc main_arg15))) shapeCasts_S1x128x128_S128x128) := by
  after_results_simp <;> rfl

set_option maxHeartbeats 4000000 in
theorem raw21_v234 (Wv : Valuation τ sig (Elt F)) :
    StableHlo.after hostOps21 Wv (Proc.devRef .tc main_v234) = (shapeCast S128 (((extractStridedSlice S1x128 ![6, 0] · slices_S7x128_S1x128_6_0) : (⟨S7x128, .f32⟩ : BufTy).Contents (Elt F) → (⟨S1x128, .f32⟩ : BufTy).Contents (Elt F)) (Wv (Proc.devRef .tc main_arg16))) shapeCasts_S1x128_S128) := by
  after_results_simp <;> rfl

set_option maxHeartbeats 4000000 in
theorem raw21_v235 (Wv : Valuation τ sig (Elt F)) :
    StableHlo.after hostOps21 Wv (Proc.devRef .tc main_v235) = (shapeCast S1x128 (shapeCast S128 (((extractStridedSlice S1x128 ![6, 0] · slices_S7x128_S1x128_6_0) : (⟨S7x128, .f32⟩ : BufTy).Contents (Elt F) → (⟨S1x128, .f32⟩ : BufTy).Contents (Elt F)) (Wv (Proc.devRef .tc main_arg12))) shapeCasts_S1x128_S128) shapeCasts_S128_S1x128) := by
  after_results_simp <;> rfl

end Cert.KernelIdeal.KH

end
-- ==== Proof.KH.H22.lean ====
/- Host stretch 22 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 22 writes. -/
abbrev hostOps22_W : List (Ref sig .tc) := [main_cst_35, main_v237, main_cst_36, main_v238, main_v239, main_v240, main_v241]
theorem hostOps22_writes : (hostOps22 : List (HloOp τ sig (Elt F))).Forall fun op => op.writes ⊆ (hostOps22_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw22_v237 (Wv : Valuation τ sig (Elt F)) :
    StableHlo.after hostOps22 Wv (Proc.devRef .tc main_v237) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v236_1)) (constant (F := F) S_ .f32 0x00000000#32)) := by
  after_results_simp <;> rfl

set_option maxHeartbeats 4000000 in
theorem raw22_v238 (Wv : Valuation τ sig (Elt F)) :
    StableHlo.after hostOps22 Wv (Proc.devRef .tc main_v238) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v236_2)) (constant (F := F) S_ .f32 0x00000000#32)) := by
  after_results_simp <;> rfl

set_option maxHeartbeats 4000000 in
theorem raw22_v239 (Wv : Valuation τ sig (Elt F)) :
    StableHlo.after hostOps22 Wv (Proc.devRef .tc main_v239) = (shapeCast S1x128 (Wv (Proc.devRef .tc main_v234)) shapeCasts_S128_S1x128) := by
  after_results_simp <;> rfl

set_option maxHeartbeats 4000000 in
theorem raw22_v240 (Wv : Valuation τ sig (Elt F)) :
    StableHlo.after hostOps22 Wv (Proc.devRef .tc main_v240) = (shapeCast S1x128 (Wv (Proc.devRef .tc main_v228)) shapeCasts_S128_S1x128) := by
  after_results_simp <;> rfl

set_option maxHeartbeats 4000000 in
theorem raw22_v241 (Wv : Valuation τ sig (Elt F)) :
    StableHlo.after hostOps22 Wv (Proc.devRef .tc main_v241) = (shapeCast S1x128 (Wv (Proc.devRef .tc main_v230)) shapeCasts_S128_S1x128) := by
  after_results_simp <;> rfl

end Cert.KernelIdeal.KH

end
-- ==== Proof.KH.H23.lean ====
/- Host stretch 23 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 23 writes. -/
abbrev hostOps23_W : List (Ref sig .tc) := [main_cst_37, main_v243, main_cst_38, main_v244, main_v245, main_v246, main_v247, main_v248, main_v249, main_v250, main_v251, main_v252, main_v253, main_v254, main_v255, main_v256, main_v257, main_v258, main_v259, main_v260, main_v261, main_v262, main_v263, main_v264, main_v265, main_v266]
theorem hostOps23_writes : (hostOps23 : List (HloOp τ sig (Elt F))).Forall fun op => op.writes ⊆ (hostOps23_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw23_v243 (Wv : Valuation τ sig (Elt F)) :
    StableHlo.after hostOps23 Wv (Proc.devRef .tc main_v243) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v242_1)) (constant (F := F) S_ .f32 0x00000000#32)) := by
  after_results_simp <;> rfl

set_option maxHeartbeats 4000000 in
theorem raw23_v244 (Wv : Valuation τ sig (Elt F)) :
    StableHlo.after hostOps23 Wv (Proc.devRef .tc main_v244) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v242_2)) (constant (F := F) S_ .f32 0x00000000#32)) := by
  after_results_simp <;> rfl

set_option maxHeartbeats 4000000 in
theorem raw23_v245 (Wv : Valuation τ sig (Elt F)) :
    StableHlo.after hostOps23 Wv (Proc.devRef .tc main_v245) = (((extractStridedSlice S128x128 ![0, 0] · slices_S384x128_S128x128_0_0) : (⟨S384x128, .f32⟩ : BufTy).Contents (Elt F) → (⟨S128x128, .f32⟩ : BufTy).Contents (Elt F)) (Wv (Proc.devRef .tc main_arg27))) := by
  after_results_simp <;> rfl

set_option maxHeartbeats 4000000 in
theorem raw23_v250 (Wv : Valuation τ sig (Elt F)) :
    StableHlo.after hostOps23 Wv (Proc.devRef .tc main_v250) = (((extractStridedSlice S128x128 ![128, 0] · slices_S384x128_S128x128_128_0) : (⟨S384x128, .f32⟩ : BufTy).Contents (Elt F) → (⟨S128x128, .f32⟩ : BufTy).Contents (Elt F)) (Wv (Proc.devRef .tc main_arg27))) := by
  after_results_simp <;> rfl

set_option maxHeartbeats 4000000 in
theorem raw23_v255 (Wv : Valuation τ sig (Elt F)) :
    StableHlo.after hostOps23 Wv (Proc.devRef .tc main_v255) = (((extractStridedSlice S128x128 ![256, 0] · slices_S384x128_S128x128_256_0) : (⟨S384x128, .f32⟩ : BufTy).Contents (Elt F) → (⟨S128x128, .f32⟩ : BufTy).Contents (Elt F)) (Wv (Proc.devRef .tc main_arg27))) := by
  after_results_simp <;> rfl

set_option maxHeartbeats 4000000 in
theorem raw23_v260 (Wv : Valuation τ sig (Elt F)) :
    StableHlo.after hostOps23 Wv (Proc.devRef .tc main_v260) = (shapeCast S1x128 (Wv (Proc.devRef .tc main_arg28)) shapeCasts_S128_S1x128) := by
  after_results_simp <;> rfl

set_option maxHeartbeats 4000000 in
theorem raw23_v261 (Wv : Valuation τ sig (Elt F)) :
    StableHlo.after hostOps23 Wv (Proc.devRef .tc main_v261) = (shapeCast S1x128 (shapeCast S128 (((extractStridedSlice S1x128 ![4, 0] · slices_S7x128_S1x128_4_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw23_v262 (Wv : Valuation τ sig (Elt F)) :
    StableHlo.after hostOps23 Wv (Proc.devRef .tc main_v262) = (shapeCast S1x128 (shapeCast S128 (((extractStridedSlice S1x128 ![4, 0] · slices_S7x128_S1x128_4_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

set_option maxHeartbeats 4000000 in
theorem raw23_v263 (Wv : Valuation τ sig (Elt F)) :
    StableHlo.after hostOps23 Wv (Proc.devRef .tc main_v263) = (shapeCast S1x128 (shapeCast S128 (((extractStridedSlice S1x128 ![5, 0] · slices_S7x128_S1x128_5_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw23_v264 (Wv : Valuation τ sig (Elt F)) :
    StableHlo.after hostOps23 Wv (Proc.devRef .tc main_v264) = (shapeCast S1x128 (shapeCast S128 (((extractStridedSlice S1x128 ![5, 0] · slices_S7x128_S1x128_5_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

set_option maxHeartbeats 4000000 in
theorem raw23_v265 (Wv : Valuation τ sig (Elt F)) :
    StableHlo.after hostOps23 Wv (Proc.devRef .tc main_v265) = (shapeCast S1x128 (shapeCast S128 (((extractStridedSlice S1x128 ![6, 0] · slices_S7x128_S1x128_6_0) : (⟨S7x128, .f32⟩ : BufTy).Contents (Elt F) → (⟨S1x128, .f32⟩ : BufTy).Contents (Elt F)) (Wv (Proc.devRef .tc main_arg17))) shapeCasts_S1x128_S128) shapeCasts_S128_S1x128) := by
  after_results_simp <;> rfl

set_option maxHeartbeats 4000000 in
theorem raw23_v266 (Wv : Valuation τ sig (Elt F)) :
    StableHlo.after hostOps23 Wv (Proc.devRef .tc main_v266) = (shapeCast S1x128 (shapeCast S128 (((extractStridedSlice S1x128 ![6, 0] · slices_S7x128_S1x128_6_0) : (⟨S7x128, .f32⟩ : BufTy).Contents (Elt F) → (⟨S1x128, .f32⟩ : BufTy).Contents (Elt F)) (Wv (Proc.devRef .tc main_arg18))) shapeCasts_S1x128_S128) shapeCasts_S128_S1x128) := by
  after_results_simp <;> rfl

end Cert.KernelIdeal.KH

end
-- ==== Proof.KH.H24.lean ====
/- Host stretch 24 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 24 writes. -/
abbrev hostOps24_W : List (Ref sig .tc) := [main_cst_39, main_v268, main_cst_40, main_v269, main_v270, main_v271]
theorem hostOps24_writes : (hostOps24 : List (HloOp τ sig (Elt F))).Forall fun op => op.writes ⊆ (hostOps24_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem raw24_v268 (Wv : Valuation τ sig (Elt F)) :
    StableHlo.after hostOps24 Wv (Proc.devRef .tc main_v268) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v267_1)) (constant (F := F) S_ .f32 0x00000000#32)) := by
  after_results_simp <;> rfl

set_option maxHeartbeats 4000000 in
theorem raw24_v269 (Wv : Valuation τ sig (Elt F)) :
    StableHlo.after hostOps24 Wv (Proc.devRef .tc main_v269) = (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) (Wv (Proc.devRef .tc main_v267_2)) (constant (F := F) S_ .f32 0x00000000#32)) := by
  after_results_simp <;> rfl

set_option maxHeartbeats 4000000 in
theorem raw24_v270 (Wv : Valuation τ sig (Elt F)) :
    StableHlo.after hostOps24 Wv (Proc.devRef .tc main_v270) = (shapeCast S1x128 (Wv (Proc.devRef .tc main_arg29)) shapeCasts_S128_S1x128) := by
  after_results_simp <;> rfl

set_option maxHeartbeats 4000000 in
theorem raw24_v271 (Wv : Valuation τ sig (Elt F)) :
    StableHlo.after hostOps24 Wv (Proc.devRef .tc main_v271) = (shapeCast S1x128 (Wv (Proc.devRef .tc main_arg30)) shapeCasts_S128_S1x128) := by
  after_results_simp <;> rfl

end Cert.KernelIdeal.KH

end
-- ==== Proof.KH.H25.lean ====
/- Host stretch 25 of the kernel program's @main. -/
import proofs.«427658_j89163521065156_2_alg».proof.Proof.Gen.KernelIdeal.Launch
import Idealize.ShloMosaic.Lib.StableHlo.Run

set_option maxRecDepth 16384

noncomputable section

namespace Cert.KernelIdeal.KH

open Cert.KernelIdeal Cert.KernelIdeal.Gen Idealize.ShloMosaic Idealize.ShloMosaic.TcCoe Idealize.SL.Sem

variable {F : FTy → Type} [FloatOps F]

/-- The buffers stretch 25 writes. -/
abbrev hostOps25_W : List (Ref sig .tc) := [main_v273]
theorem hostOps25_writes : (hostOps25 : List (HloOp τ sig (Elt F))).Forall fun op => op.writes ⊆ (hostOps25_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 4000000 in
theorem raw25_v273 (Wv : Valuation τ sig (Elt F)) :
    StableHlo.after hostOps25 Wv (Proc.devRef .tc main_v273) = (shapeCast S64x64x128 (Wv (Proc.devRef .tc main_v272)) shapeCasts_S4096x128_S64x64x128) := by
  after_results_simp <;> rfl

end Cert.KernelIdeal.KH

end
-- ==== Proof.KTerms.lean ====
/- The terms the kernel program's host stretches compute. -/
import proofs.«427658_j89163521065156_2_alg».proof.Proof.Gen.KernelIdeal

noncomputable section

namespace Cert.KernelIdeal.KT

open Cert.KernelIdeal Cert.KernelIdeal.Gen Idealize.ShloMosaic Idealize.SL.Sem

def KT0_v1 {F : FTy → Type} [FloatOps F] (x0 : IVec S2x262144 32) : IVec S262144 32 :=
  (shapeCast S262144 (((extractStridedSlice S1x262144 ![0, 0] · slices_S2x262144_S1x262144_0_0) : (⟨S2x262144, .i32⟩ : BufTy).Contents (Elt F) → (⟨S1x262144, .i32⟩ : BufTy).Contents (Elt F)) x0) shapeCasts_S1x262144_S262144)

def KT1_v3 {F : FTy → Type} [FloatOps F] (x0 : IVec S2x262144 32) : IVec S262144 32 :=
  (shapeCast S262144 (((extractStridedSlice S1x262144 ![1, 0] · slices_S2x262144_S1x262144_1_0) : (⟨S2x262144, .i32⟩ : BufTy).Contents (Elt F) → (⟨S1x262144, .i32⟩ : BufTy).Contents (Elt F)) x0) shapeCasts_S1x262144_S262144)

def KT2_v5 {F : FTy → Type} [FloatOps F] (x0 : FVec F S64x256x128 .f32) : FVec F S16384x128 .f32 :=
  (shapeCast S16384x128 x0 shapeCasts_S64x256x128_S16384x128)

def KT3_v12 {F : FTy → Type} [FloatOps F] (x0 : FVec F S16384x128 .f32) (x1 : IVec S262144 32) : FVec F S262144x128 .f32 :=
  (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) x0 ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) x1 ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) x1 ((broadcastInDim S262144 ![] bcast_S_S262144 : (⟨S_, .i32⟩ : BufTy).Contents (Elt F) → (⟨S262144, .i32⟩ : BufTy).Contents (Elt F)) (constantI S_ 32 16384#32))) x1)))

def KT4_v13 {F : FTy → Type} [FloatOps F] (x0 : FVec F S256x128 .f32) : FVec F S128x128 .f32 :=
  (((extractStridedSlice S128x128 ![0, 0] · slices_S256x128_S128x128_0_0) : (⟨S256x128, .f32⟩ : BufTy).Contents (Elt F) → (⟨S128x128, .f32⟩ : BufTy).Contents (Elt F)) x0)

def KT5_v14 {F : FTy → Type} [FloatOps F] (x0 : FVec F S256x128 .f32) : FVec F S128x128 .f32 :=
  (((extractStridedSlice S128x128 ![128, 0] · slices_S256x128_S128x128_128_0) : (⟨S256x128, .f32⟩ : BufTy).Contents (Elt F) → (⟨S128x128, .f32⟩ : BufTy).Contents (Elt F)) x0)

def KT6_v15 {F : FTy → Type} [FloatOps F] (x0 : FVec F S128 .f32) : FVec F S1x128 .f32 :=
  (shapeCast S1x128 x0 shapeCasts_S128_S1x128)

def KT7_v19 {F : FTy → Type} [FloatOps F] (x0 : IVec S262144 32) (x1 : FVec F S262144x128 .f32) : FVec F S16384x128 .f32 :=
  (((fun x i u => Host.scatterAdd scatter_S16384x128_S262144x1_S262144x128_1_0_0_1 x i u) : (⟨S16384x128, .f32⟩ : BufTy).Contents (Elt F) → (⟨S262144x1, .i32⟩ : BufTy).Contents (Elt F) → (⟨S262144x128, .f32⟩ : BufTy).Contents (Elt F) → (⟨S16384x128, .f32⟩ : BufTy).Contents (Elt F)) ((broadcastInDim S16384x128 ![] bcast_S_S16384x128 : (⟨S_, .f32⟩ : BufTy).Contents (Elt F) → (⟨S16384x128, .f32⟩ : BufTy).Contents (Elt F)) (constant (F := F) S_ .f32 0x00000000#32)) ((broadcastInDim S262144x1 ![0] bcast_S262144_S262144x1_0 : (⟨S262144, .i32⟩ : BufTy).Contents (Elt F) → (⟨S262144x1, .i32⟩ : BufTy).Contents (Elt F)) x0) x1)

def KT8_v21 {F : FTy → Type} [FloatOps F] (x0 : FVec F S7x128x128 .f32) : FVec F S128x128 .f32 :=
  (shapeCast S128x128 (((extractStridedSlice S1x128x128 ![0, 0, 0] · slices_S7x128x128_S1x128x128_0_0_0) : (⟨S7x128x128, .f32⟩ : BufTy).Contents (Elt F) → (⟨S1x128x128, .f32⟩ : BufTy).Contents (Elt F)) x0) shapeCasts_S1x128x128_S128x128)

def KT9_v25 {F : FTy → Type} [FloatOps F] (x0 : FVec F S7x128 .f32) : FVec F S128 .f32 :=
  (shapeCast S128 (((extractStridedSlice S1x128 ![0, 0] · slices_S7x128_S1x128_0_0) : (⟨S7x128, .f32⟩ : BufTy).Contents (Elt F) → (⟨S1x128, .f32⟩ : BufTy).Contents (Elt F)) x0) shapeCasts_S1x128_S128)

def KT10_v32 {F : FTy → Type} [FloatOps F] (x0 : FVec F S7x128 .f32) : FVec F S1x128 .f32 :=
  (shapeCast S1x128 (shapeCast S128 (((extractStridedSlice S1x128 ![0, 0] · slices_S7x128_S1x128_0_0) : (⟨S7x128, .f32⟩ : BufTy).Contents (Elt F) → (⟨S1x128, .f32⟩ : BufTy).Contents (Elt F)) x0) shapeCasts_S1x128_S128) shapeCasts_S128_S1x128)

def KT11_v34 {F : FTy → Type} [FloatOps F] (x0 : FVec F S4x1x128 .f32) : FVec F S1x128 .f32 :=
  (((fun x v => Host.reduceAdd x v reducesTo_S4x1x128_S1x128_d0 h_S_) : (⟨S4x1x128, .f32⟩ : BufTy).Contents (Elt F) → (⟨S_, .f32⟩ : BufTy).Contents (Elt F) → (⟨S1x128, .f32⟩ : BufTy).Contents (Elt F)) x0 (constant (F := F) S_ .f32 0x00000000#32))

def KT12_v43 {F : FTy → Type} [FloatOps F] (x0 : FVec F S7x128x128 .f32) : FVec F S128x128 .f32 :=
  (shapeCast S128x128 (((extractStridedSlice S1x128x128 ![1, 0, 0] · slices_S7x128x128_S1x128x128_1_0_0) : (⟨S7x128x128, .f32⟩ : BufTy).Contents (Elt F) → (⟨S1x128x128, .f32⟩ : BufTy).Contents (Elt F)) x0) shapeCasts_S1x128x128_S128x128)

def KT13_v47 {F : FTy → Type} [FloatOps F] (x0 : FVec F S7x128 .f32) : FVec F S128 .f32 :=
  (shapeCast S128 (((extractStridedSlice S1x128 ![1, 0] · slices_S7x128_S1x128_1_0) : (⟨S7x128, .f32⟩ : BufTy).Contents (Elt F) → (⟨S1x128, .f32⟩ : BufTy).Contents (Elt F)) x0) shapeCasts_S1x128_S128)

def KT14_v54 {F : FTy → Type} [FloatOps F] (x0 : FVec F S7x128 .f32) : FVec F S1x128 .f32 :=
  (shapeCast S1x128 (shapeCast S128 (((extractStridedSlice S1x128 ![1, 0] · slices_S7x128_S1x128_1_0) : (⟨S7x128, .f32⟩ : BufTy).Contents (Elt F) → (⟨S1x128, .f32⟩ : BufTy).Contents (Elt F)) x0) shapeCasts_S1x128_S128) shapeCasts_S128_S1x128)

def KT15_v107 {F : FTy → Type} [FloatOps F] (x0 : FVec F S7x128x128 .f32) : FVec F S128x128 .f32 :=
  (shapeCast S128x128 (((extractStridedSlice S1x128x128 ![2, 0, 0] · slices_S7x128x128_S1x128x128_2_0_0) : (⟨S7x128x128, .f32⟩ : BufTy).Contents (Elt F) → (⟨S1x128x128, .f32⟩ : BufTy).Contents (Elt F)) x0) shapeCasts_S1x128x128_S128x128)

def KT16_v111 {F : FTy → Type} [FloatOps F] (x0 : FVec F S7x128 .f32) : FVec F S128 .f32 :=
  (shapeCast S128 (((extractStridedSlice S1x128 ![2, 0] · slices_S7x128_S1x128_2_0) : (⟨S7x128, .f32⟩ : BufTy).Contents (Elt F) → (⟨S1x128, .f32⟩ : BufTy).Contents (Elt F)) x0) shapeCasts_S1x128_S128)

def KT17_v118 {F : FTy → Type} [FloatOps F] (x0 : FVec F S7x128 .f32) : FVec F S1x128 .f32 :=
  (shapeCast S1x128 (shapeCast S128 (((extractStridedSlice S1x128 ![2, 0] · slices_S7x128_S1x128_2_0) : (⟨S7x128, .f32⟩ : BufTy).Contents (Elt F) → (⟨S1x128, .f32⟩ : BufTy).Contents (Elt F)) x0) shapeCasts_S1x128_S128) shapeCasts_S128_S1x128)

def KT18_v120 {F : FTy → Type} [FloatOps F] (x0 : FVec F S64x1x128 .f32) : FVec F S1x128 .f32 :=
  (((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) x0 (constant (F := F) S_ .f32 0x00000000#32))

def KT19_v129 {F : FTy → Type} [FloatOps F] (x0 : FVec F S7x128x128 .f32) : FVec F S128x128 .f32 :=
  (shapeCast S128x128 (((extractStridedSlice S1x128x128 ![3, 0, 0] · slices_S7x128x128_S1x128x128_3_0_0) : (⟨S7x128x128, .f32⟩ : BufTy).Contents (Elt F) → (⟨S1x128x128, .f32⟩ : BufTy).Contents (Elt F)) x0) shapeCasts_S1x128x128_S128x128)

def KT20_v133 {F : FTy → Type} [FloatOps F] (x0 : FVec F S7x128 .f32) : FVec F S128 .f32 :=
  (shapeCast S128 (((extractStridedSlice S1x128 ![3, 0] · slices_S7x128_S1x128_3_0) : (⟨S7x128, .f32⟩ : BufTy).Contents (Elt F) → (⟨S1x128, .f32⟩ : BufTy).Contents (Elt F)) x0) shapeCasts_S1x128_S128)

def KT21_v140 {F : FTy → Type} [FloatOps F] (x0 : FVec F S7x128 .f32) : FVec F S1x128 .f32 :=
  (shapeCast S1x128 (shapeCast S128 (((extractStridedSlice S1x128 ![3, 0] · slices_S7x128_S1x128_3_0) : (⟨S7x128, .f32⟩ : BufTy).Contents (Elt F) → (⟨S1x128, .f32⟩ : BufTy).Contents (Elt F)) x0) shapeCasts_S1x128_S128) shapeCasts_S128_S1x128)

def KT22_v171 {F : FTy → Type} [FloatOps F] (x0 : FVec F S16384x128 .f32) : FVec F S64x256x128 .f32 :=
  (shapeCast S64x256x128 x0 shapeCasts_S16384x128_S64x256x128)

def KT23_v173 {F : FTy → Type} [FloatOps F] (x0 : FVec F S64x64x128 .f32) : FVec F S4096x128 .f32 :=
  (shapeCast S4096x128 x0 shapeCasts_S64x64x128_S4096x128)

def KT24_v180 {F : FTy → Type} [FloatOps F] (x0 : FVec F S7x128x128 .f32) : FVec F S128x128 .f32 :=
  (shapeCast S128x128 (((extractStridedSlice S1x128x128 ![4, 0, 0] · slices_S7x128x128_S1x128x128_4_0_0) : (⟨S7x128x128, .f32⟩ : BufTy).Contents (Elt F) → (⟨S1x128x128, .f32⟩ : BufTy).Contents (Elt F)) x0) shapeCasts_S1x128x128_S128x128)

def KT25_v184 {F : FTy → Type} [FloatOps F] (x0 : FVec F S7x128 .f32) : FVec F S128 .f32 :=
  (shapeCast S128 (((extractStridedSlice S1x128 ![4, 0] · slices_S7x128_S1x128_4_0) : (⟨S7x128, .f32⟩ : BufTy).Contents (Elt F) → (⟨S1x128, .f32⟩ : BufTy).Contents (Elt F)) x0) shapeCasts_S1x128_S128)

def KT26_v191 {F : FTy → Type} [FloatOps F] (x0 : FVec F S7x128 .f32) : FVec F S1x128 .f32 :=
  (shapeCast S1x128 (shapeCast S128 (((extractStridedSlice S1x128 ![4, 0] · slices_S7x128_S1x128_4_0) : (⟨S7x128, .f32⟩ : BufTy).Contents (Elt F) → (⟨S1x128, .f32⟩ : BufTy).Contents (Elt F)) x0) shapeCasts_S1x128_S128) shapeCasts_S128_S1x128)

def KT27_v193 {F : FTy → Type} [FloatOps F] (x0 : FVec F S1x1x128 .f32) : FVec F S1x128 .f32 :=
  (((fun x v => Host.reduceAdd x v reducesTo_S1x1x128_S1x128_d0 h_S_) : (⟨S1x1x128, .f32⟩ : BufTy).Contents (Elt F) → (⟨S_, .f32⟩ : BufTy).Contents (Elt F) → (⟨S1x128, .f32⟩ : BufTy).Contents (Elt F)) x0 (constant (F := F) S_ .f32 0x00000000#32))

def KT28_v202 {F : FTy → Type} [FloatOps F] (x0 : FVec F S7x128x128 .f32) : FVec F S128x128 .f32 :=
  (shapeCast S128x128 (((extractStridedSlice S1x128x128 ![5, 0, 0] · slices_S7x128x128_S1x128x128_5_0_0) : (⟨S7x128x128, .f32⟩ : BufTy).Contents (Elt F) → (⟨S1x128x128, .f32⟩ : BufTy).Contents (Elt F)) x0) shapeCasts_S1x128x128_S128x128)

def KT29_v206 {F : FTy → Type} [FloatOps F] (x0 : FVec F S7x128 .f32) : FVec F S128 .f32 :=
  (shapeCast S128 (((extractStridedSlice S1x128 ![5, 0] · slices_S7x128_S1x128_5_0) : (⟨S7x128, .f32⟩ : BufTy).Contents (Elt F) → (⟨S1x128, .f32⟩ : BufTy).Contents (Elt F)) x0) shapeCasts_S1x128_S128)

def KT30_v213 {F : FTy → Type} [FloatOps F] (x0 : FVec F S7x128 .f32) : FVec F S1x128 .f32 :=
  (shapeCast S1x128 (shapeCast S128 (((extractStridedSlice S1x128 ![5, 0] · slices_S7x128_S1x128_5_0) : (⟨S7x128, .f32⟩ : BufTy).Contents (Elt F) → (⟨S1x128, .f32⟩ : BufTy).Contents (Elt F)) x0) shapeCasts_S1x128_S128) shapeCasts_S128_S1x128)

def KT31_v224 {F : FTy → Type} [FloatOps F] (x0 : FVec F S7x128x128 .f32) : FVec F S128x128 .f32 :=
  (shapeCast S128x128 (((extractStridedSlice S1x128x128 ![6, 0, 0] · slices_S7x128x128_S1x128x128_6_0_0) : (⟨S7x128x128, .f32⟩ : BufTy).Contents (Elt F) → (⟨S1x128x128, .f32⟩ : BufTy).Contents (Elt F)) x0) shapeCasts_S1x128x128_S128x128)

def KT32_v228 {F : FTy → Type} [FloatOps F] (x0 : FVec F S7x128 .f32) : FVec F S128 .f32 :=
  (shapeCast S128 (((extractStridedSlice S1x128 ![6, 0] · slices_S7x128_S1x128_6_0) : (⟨S7x128, .f32⟩ : BufTy).Contents (Elt F) → (⟨S1x128, .f32⟩ : BufTy).Contents (Elt F)) x0) shapeCasts_S1x128_S128)

def KT33_v235 {F : FTy → Type} [FloatOps F] (x0 : FVec F S7x128 .f32) : FVec F S1x128 .f32 :=
  (shapeCast S1x128 (shapeCast S128 (((extractStridedSlice S1x128 ![6, 0] · slices_S7x128_S1x128_6_0) : (⟨S7x128, .f32⟩ : BufTy).Contents (Elt F) → (⟨S1x128, .f32⟩ : BufTy).Contents (Elt F)) x0) shapeCasts_S1x128_S128) shapeCasts_S128_S1x128)

def KT34_v245 {F : FTy → Type} [FloatOps F] (x0 : FVec F S384x128 .f32) : FVec F S128x128 .f32 :=
  (((extractStridedSlice S128x128 ![0, 0] · slices_S384x128_S128x128_0_0) : (⟨S384x128, .f32⟩ : BufTy).Contents (Elt F) → (⟨S128x128, .f32⟩ : BufTy).Contents (Elt F)) x0)

def KT35_v250 {F : FTy → Type} [FloatOps F] (x0 : FVec F S384x128 .f32) : FVec F S128x128 .f32 :=
  (((extractStridedSlice S128x128 ![128, 0] · slices_S384x128_S128x128_128_0) : (⟨S384x128, .f32⟩ : BufTy).Contents (Elt F) → (⟨S128x128, .f32⟩ : BufTy).Contents (Elt F)) x0)

def KT36_v255 {F : FTy → Type} [FloatOps F] (x0 : FVec F S384x128 .f32) : FVec F S128x128 .f32 :=
  (((extractStridedSlice S128x128 ![256, 0] · slices_S384x128_S128x128_256_0) : (⟨S384x128, .f32⟩ : BufTy).Contents (Elt F) → (⟨S128x128, .f32⟩ : BufTy).Contents (Elt F)) x0)

def KT37_v273 {F : FTy → Type} [FloatOps F] (x0 : FVec F S4096x128 .f32) : FVec F S64x64x128 .f32 :=
  (shapeCast S64x64x128 x0 shapeCasts_S4096x128_S64x64x128)

end Cert.KernelIdeal.KT

end
-- ==== Proof.KVal.lean ====
/- The kernel program's named values. -/
import proofs.«427658_j89163521065156_2_alg».proof.Proof.FrameKernelIdeal.Levels
import proofs.«427658_j89163521065156_2_alg».proof.Proof.KH.H0
import proofs.«427658_j89163521065156_2_alg».proof.Proof.KH.H1
import proofs.«427658_j89163521065156_2_alg».proof.Proof.KH.H2
import proofs.«427658_j89163521065156_2_alg».proof.Proof.KH.H3
import proofs.«427658_j89163521065156_2_alg».proof.Proof.KH.H4
import proofs.«427658_j89163521065156_2_alg».proof.Proof.KH.H5
import proofs.«427658_j89163521065156_2_alg».proof.Proof.KH.H6
import proofs.«427658_j89163521065156_2_alg».proof.Proof.KH.H7
import proofs.«427658_j89163521065156_2_alg».proof.Proof.KH.H8
import proofs.«427658_j89163521065156_2_alg».proof.Proof.KH.H9
import proofs.«427658_j89163521065156_2_alg».proof.Proof.KH.H10
import proofs.«427658_j89163521065156_2_alg».proof.Proof.KH.H11
import proofs.«427658_j89163521065156_2_alg».proof.Proof.KH.H12
import proofs.«427658_j89163521065156_2_alg».proof.Proof.KH.H13
import proofs.«427658_j89163521065156_2_alg».proof.Proof.KH.H14
import proofs.«427658_j89163521065156_2_alg».proof.Proof.KH.H15
import proofs.«427658_j89163521065156_2_alg».proof.Proof.KH.H16
import proofs.«427658_j89163521065156_2_alg».proof.Proof.KH.H17
import proofs.«427658_j89163521065156_2_alg».proof.Proof.KH.H18
import proofs.«427658_j89163521065156_2_alg».proof.Proof.KH.H19
import proofs.«427658_j89163521065156_2_alg».proof.Proof.KH.H20
import proofs.«427658_j89163521065156_2_alg».proof.Proof.KH.H21
import proofs.«427658_j89163521065156_2_alg».proof.Proof.KH.H22
import proofs.«427658_j89163521065156_2_alg».proof.Proof.KH.H23
import proofs.«427658_j89163521065156_2_alg».proof.Proof.KH.H24
import proofs.«427658_j89163521065156_2_alg».proof.Proof.KH.H25
import proofs.«427658_j89163521065156_2_alg».proof.Proof.KTerms

set_option maxRecDepth 16384

noncomputable section

namespace Cert.KernelIdeal.KVal

open Cert.KernelIdeal Cert.KernelIdeal.KH Cert.KernelIdeal.Gen Idealize.ShloMosaic Idealize.ShloMosaic.TcCoe Idealize.SL.Sem

variable {F : FTy → Type} [FloatOps F]

variable (m : (ℓ : Loc nD τ sig) → Buf (Elt F) ℓ) (ρ : Dev nD → PrngReg)

def v1 (c : Dev nD) : Buf (Elt F) ((c : Thread nD τ).loc main_v1) := W1 m ρ c (Proc.devRef .tc main_v1)
def v3 (c : Dev nD) : Buf (Elt F) ((c : Thread nD τ).loc main_v3) := W1 m ρ c (Proc.devRef .tc main_v3)
def v5 (c : Dev nD) : Buf (Elt F) ((c : Thread nD τ).loc main_v5) := W3 m ρ c (Proc.devRef .tc main_v5)
def v12 (c : Dev nD) : Buf (Elt F) ((c : Thread nD τ).loc main_v12) := W3 m ρ c (Proc.devRef .tc main_v12)
def v13 (c : Dev nD) : Buf (Elt F) ((c : Thread nD τ).loc main_v13) := W3 m ρ c (Proc.devRef .tc main_v13)
def v14 (c : Dev nD) : Buf (Elt F) ((c : Thread nD τ).loc main_v14) := W3 m ρ c (Proc.devRef .tc main_v14)
def v15 (c : Dev nD) : Buf (Elt F) ((c : Thread nD τ).loc main_v15) := W3 m ρ c (Proc.devRef .tc main_v15)
def v19 (c : Dev nD) : Buf (Elt F) ((c : Thread nD τ).loc main_v19) := W5 m ρ c (Proc.devRef .tc main_v19)
def v21 (c : Dev nD) : Buf (Elt F) ((c : Thread nD τ).loc main_v21) := W5 m ρ c (Proc.devRef .tc main_v21)
def v25 (c : Dev nD) : Buf (Elt F) ((c : Thread nD τ).loc main_v25) := W5 m ρ c (Proc.devRef .tc main_v25)
def v27 (c : Dev nD) : Buf (Elt F) ((c : Thread nD τ).loc main_v27) := W5 m ρ c (Proc.devRef .tc main_v27)
def v29 (c : Dev nD) : Buf (Elt F) ((c : Thread nD τ).loc main_v29) := W5 m ρ c (Proc.devRef .tc main_v29)
def v31 (c : Dev nD) : Buf (Elt F) ((c : Thread nD τ).loc main_v31) := W5 m ρ c (Proc.devRef .tc main_v31)
def v32 (c : Dev nD) : Buf (Elt F) ((c : Thread nD τ).loc main_v32) := W5 m ρ c (Proc.devRef .tc main_v32)
def v34 (c : Dev nD) : Buf (Elt F) ((c : Thread nD τ).loc main_v34) := W7 m ρ c (Proc.devRef .tc main_v34)
def v35 (c : Dev nD) : Buf (Elt F) ((c : Thread nD τ).loc main_v35) := W7 m ρ c (Proc.devRef .tc main_v35)
def v36 (c : Dev nD) : Buf (Elt F) ((c : Thread nD τ).loc main_v36) := W7 m ρ c (Proc.devRef .tc main_v36)
def v37 (c : Dev nD) : Buf (Elt F) ((c : Thread nD τ).loc main_v37) := W7 m ρ c (Proc.devRef .tc main_v37)
def v38 (c : Dev nD) : Buf (Elt F) ((c : Thread nD τ).loc main_v38) := W7 m ρ c (Proc.devRef .tc main_v38)
def v40 (c : Dev nD) : Buf (Elt F) ((c : Thread nD τ).loc main_v40) := W9 m ρ c (Proc.devRef .tc main_v40)
def v41 (c : Dev nD) : Buf (Elt F) ((c : Thread nD τ).loc main_v41) := W9 m ρ c (Proc.devRef .tc main_v41)
def v43 (c : Dev nD) : Buf (Elt F) ((c : Thread nD τ).loc main_v43) := W9 m ρ c (Proc.devRef .tc main_v43)
def v47 (c : Dev nD) : Buf (Elt F) ((c : Thread nD τ).loc main_v47) := W9 m ρ c (Proc.devRef .tc main_v47)
def v49 (c : Dev nD) : Buf (Elt F) ((c : Thread nD τ).loc main_v49) := W9 m ρ c (Proc.devRef .tc main_v49)
def v51 (c : Dev nD) : Buf (Elt F) ((c : Thread nD τ).loc main_v51) := W9 m ρ c (Proc.devRef .tc main_v51)
def v53 (c : Dev nD) : Buf (Elt F) ((c : Thread nD τ).loc main_v53) := W9 m ρ c (Proc.devRef .tc main_v53)
def v54 (c : Dev nD) : Buf (Elt F) ((c : Thread nD τ).loc main_v54) := W9 m ρ c (Proc.devRef .tc main_v54)
def v56 (c : Dev nD) : Buf (Elt F) ((c : Thread nD τ).loc main_v56) := W11 m ρ c (Proc.devRef .tc main_v56)
def v57 (c : Dev nD) : Buf (Elt F) ((c : Thread nD τ).loc main_v57) := W11 m ρ c (Proc.devRef .tc main_v57)
def v58 (c : Dev nD) : Buf (Elt F) ((c : Thread nD τ).loc main_v58) := W11 m ρ c (Proc.devRef .tc main_v58)
def v59 (c : Dev nD) : Buf (Elt F) ((c : Thread nD τ).loc main_v59) := W11 m ρ c (Proc.devRef .tc main_v59)
def v60 (c : Dev nD) : Buf (Elt F) ((c : Thread nD τ).loc main_v60) := W11 m ρ c (Proc.devRef .tc main_v60)
def v62 (c : Dev nD) : Buf (Elt F) ((c : Thread nD τ).loc main_v62) := W13 m ρ c (Proc.devRef .tc main_v62)
def v63 (c : Dev nD) : Buf (Elt F) ((c : Thread nD τ).loc main_v63) := W13 m ρ c (Proc.devRef .tc main_v63)
def v64 (c : Dev nD) : Buf (Elt F) ((c : Thread nD τ).loc main_v64) := W13 m ρ c (Proc.devRef .tc main_v64)
def v69 (c : Dev nD) : Buf (Elt F) ((c : Thread nD τ).loc main_v69) := W13 m ρ c (Proc.devRef .tc main_v69)
def v74 (c : Dev nD) : Buf (Elt F) ((c : Thread nD τ).loc main_v74) := W13 m ρ c (Proc.devRef .tc main_v74)
def v75 (c : Dev nD) : Buf (Elt F) ((c : Thread nD τ).loc main_v75) := W13 m ρ c (Proc.devRef .tc main_v75)
def v76 (c : Dev nD) : Buf (Elt F) ((c : Thread nD τ).loc main_v76) := W13 m ρ c (Proc.devRef .tc main_v76)
def v77 (c : Dev nD) : Buf (Elt F) ((c : Thread nD τ).loc main_v77) := W13 m ρ c (Proc.devRef .tc main_v77)
def v78 (c : Dev nD) : Buf (Elt F) ((c : Thread nD τ).loc main_v78) := W13 m ρ c (Proc.devRef .tc main_v78)
def v80 (c : Dev nD) : Buf (Elt F) ((c : Thread nD τ).loc main_v80) := W15 m ρ c (Proc.devRef .tc main_v80)
def v81 (c : Dev nD) : Buf (Elt F) ((c : Thread nD τ).loc main_v81) := W15 m ρ c (Proc.devRef .tc main_v81)
def v82 (c : Dev nD) : Buf (Elt F) ((c : Thread nD τ).loc main_v82) := W15 m ρ c (Proc.devRef .tc main_v82)
def v83 (c : Dev nD) : Buf (Elt F) ((c : Thread nD τ).loc main_v83) := W15 m ρ c (Proc.devRef .tc main_v83)
def v91 (c : Dev nD) : Buf (Elt F) ((c : Thread nD τ).loc main_v91) := W17 m ρ c (Proc.devRef .tc main_v91)
def v98 (c : Dev nD) : Buf (Elt F) ((c : Thread nD τ).loc main_v98) := W17 m ρ c (Proc.devRef .tc main_v98)
def v105 (c : Dev nD) : Buf (Elt F) ((c : Thread nD τ).loc main_v105) := W17 m ρ c (Proc.devRef .tc main_v105)
def v107 (c : Dev nD) : Buf (Elt F) ((c : Thread nD τ).loc main_v107) := W17 m ρ c (Proc.devRef .tc main_v107)
def v111 (c : Dev nD) : Buf (Elt F) ((c : Thread nD τ).loc main_v111) := W17 m ρ c (Proc.devRef .tc main_v111)
def v113 (c : Dev nD) : Buf (Elt F) ((c : Thread nD τ).loc main_v113) := W17 m ρ c (Proc.devRef .tc main_v113)
def v115 (c : Dev nD) : Buf (Elt F) ((c : Thread nD τ).loc main_v115) := W17 m ρ c (Proc.devRef .tc main_v115)
def v117 (c : Dev nD) : Buf (Elt F) ((c : Thread nD τ).loc main_v117) := W17 m ρ c (Proc.devRef .tc main_v117)
def v118 (c : Dev nD) : Buf (Elt F) ((c : Thread nD τ).loc main_v118) := W17 m ρ c (Proc.devRef .tc main_v118)
def v120 (c : Dev nD) : Buf (Elt F) ((c : Thread nD τ).loc main_v120) := W19 m ρ c (Proc.devRef .tc main_v120)
def v121 (c : Dev nD) : Buf (Elt F) ((c : Thread nD τ).loc main_v121) := W19 m ρ c (Proc.devRef .tc main_v121)
def v122 (c : Dev nD) : Buf (Elt F) ((c : Thread nD τ).loc main_v122) := W19 m ρ c (Proc.devRef .tc main_v122)
def v123 (c : Dev nD) : Buf (Elt F) ((c : Thread nD τ).loc main_v123) := W19 m ρ c (Proc.devRef .tc main_v123)
def v124 (c : Dev nD) : Buf (Elt F) ((c : Thread nD τ).loc main_v124) := W19 m ρ c (Proc.devRef .tc main_v124)
def v126 (c : Dev nD) : Buf (Elt F) ((c : Thread nD τ).loc main_v126) := W21 m ρ c (Proc.devRef .tc main_v126)
def v127 (c : Dev nD) : Buf (Elt F) ((c : Thread nD τ).loc main_v127) := W21 m ρ c (Proc.devRef .tc main_v127)
def v129 (c : Dev nD) : Buf (Elt F) ((c : Thread nD τ).loc main_v129) := W21 m ρ c (Proc.devRef .tc main_v129)
def v133 (c : Dev nD) : Buf (Elt F) ((c : Thread nD τ).loc main_v133) := W21 m ρ c (Proc.devRef .tc main_v133)
def v135 (c : Dev nD) : Buf (Elt F) ((c : Thread nD τ).loc main_v135) := W21 m ρ c (Proc.devRef .tc main_v135)
def v137 (c : Dev nD) : Buf (Elt F) ((c : Thread nD τ).loc main_v137) := W21 m ρ c (Proc.devRef .tc main_v137)
def v139 (c : Dev nD) : Buf (Elt F) ((c : Thread nD τ).loc main_v139) := W21 m ρ c (Proc.devRef .tc main_v139)
def v140 (c : Dev nD) : Buf (Elt F) ((c : Thread nD τ).loc main_v140) := W21 m ρ c (Proc.devRef .tc main_v140)
def v142 (c : Dev nD) : Buf (Elt F) ((c : Thread nD τ).loc main_v142) := W23 m ρ c (Proc.devRef .tc main_v142)
def v143 (c : Dev nD) : Buf (Elt F) ((c : Thread nD τ).loc main_v143) := W23 m ρ c (Proc.devRef .tc main_v143)
def v144 (c : Dev nD) : Buf (Elt F) ((c : Thread nD τ).loc main_v144) := W23 m ρ c (Proc.devRef .tc main_v144)
def v145 (c : Dev nD) : Buf (Elt F) ((c : Thread nD τ).loc main_v145) := W23 m ρ c (Proc.devRef .tc main_v145)
def v146 (c : Dev nD) : Buf (Elt F) ((c : Thread nD τ).loc main_v146) := W23 m ρ c (Proc.devRef .tc main_v146)
def v148 (c : Dev nD) : Buf (Elt F) ((c : Thread nD τ).loc main_v148) := W25 m ρ c (Proc.devRef .tc main_v148)
def v149 (c : Dev nD) : Buf (Elt F) ((c : Thread nD τ).loc main_v149) := W25 m ρ c (Proc.devRef .tc main_v149)
def v150 (c : Dev nD) : Buf (Elt F) ((c : Thread nD τ).loc main_v150) := W25 m ρ c (Proc.devRef .tc main_v150)
def v155 (c : Dev nD) : Buf (Elt F) ((c : Thread nD τ).loc main_v155) := W25 m ρ c (Proc.devRef .tc main_v155)
def v160 (c : Dev nD) : Buf (Elt F) ((c : Thread nD τ).loc main_v160) := W25 m ρ c (Proc.devRef .tc main_v160)
def v161 (c : Dev nD) : Buf (Elt F) ((c : Thread nD τ).loc main_v161) := W25 m ρ c (Proc.devRef .tc main_v161)
def v162 (c : Dev nD) : Buf (Elt F) ((c : Thread nD τ).loc main_v162) := W25 m ρ c (Proc.devRef .tc main_v162)
def v163 (c : Dev nD) : Buf (Elt F) ((c : Thread nD τ).loc main_v163) := W25 m ρ c (Proc.devRef .tc main_v163)
def v164 (c : Dev nD) : Buf (Elt F) ((c : Thread nD τ).loc main_v164) := W25 m ρ c (Proc.devRef .tc main_v164)
def v166 (c : Dev nD) : Buf (Elt F) ((c : Thread nD τ).loc main_v166) := W27 m ρ c (Proc.devRef .tc main_v166)
def v167 (c : Dev nD) : Buf (Elt F) ((c : Thread nD τ).loc main_v167) := W27 m ρ c (Proc.devRef .tc main_v167)
def v168 (c : Dev nD) : Buf (Elt F) ((c : Thread nD τ).loc main_v168) := W27 m ρ c (Proc.devRef .tc main_v168)
def v169 (c : Dev nD) : Buf (Elt F) ((c : Thread nD τ).loc main_v169) := W27 m ρ c (Proc.devRef .tc main_v169)
def v171 (c : Dev nD) : Buf (Elt F) ((c : Thread nD τ).loc main_v171) := W29 m ρ c (Proc.devRef .tc main_v171)
def v173 (c : Dev nD) : Buf (Elt F) ((c : Thread nD τ).loc main_v173) := W31 m ρ c (Proc.devRef .tc main_v173)
def v175 (c : Dev nD) : Buf (Elt F) ((c : Thread nD τ).loc main_v175) := W33 m ρ c (Proc.devRef .tc main_v175)
def v177 (c : Dev nD) : Buf (Elt F) ((c : Thread nD τ).loc main_v177) := W35 m ρ c (Proc.devRef .tc main_v177)
def v178 (c : Dev nD) : Buf (Elt F) ((c : Thread nD τ).loc main_v178) := W35 m ρ c (Proc.devRef .tc main_v178)
def v180 (c : Dev nD) : Buf (Elt F) ((c : Thread nD τ).loc main_v180) := W35 m ρ c (Proc.devRef .tc main_v180)
def v184 (c : Dev nD) : Buf (Elt F) ((c : Thread nD τ).loc main_v184) := W35 m ρ c (Proc.devRef .tc main_v184)
def v186 (c : Dev nD) : Buf (Elt F) ((c : Thread nD τ).loc main_v186) := W35 m ρ c (Proc.devRef .tc main_v186)
def v188 (c : Dev nD) : Buf (Elt F) ((c : Thread nD τ).loc main_v188) := W35 m ρ c (Proc.devRef .tc main_v188)
def v190 (c : Dev nD) : Buf (Elt F) ((c : Thread nD τ).loc main_v190) := W35 m ρ c (Proc.devRef .tc main_v190)
def v191 (c : Dev nD) : Buf (Elt F) ((c : Thread nD τ).loc main_v191) := W35 m ρ c (Proc.devRef .tc main_v191)
def v193 (c : Dev nD) : Buf (Elt F) ((c : Thread nD τ).loc main_v193) := W37 m ρ c (Proc.devRef .tc main_v193)
def v194 (c : Dev nD) : Buf (Elt F) ((c : Thread nD τ).loc main_v194) := W37 m ρ c (Proc.devRef .tc main_v194)
def v195 (c : Dev nD) : Buf (Elt F) ((c : Thread nD τ).loc main_v195) := W37 m ρ c (Proc.devRef .tc main_v195)
def v196 (c : Dev nD) : Buf (Elt F) ((c : Thread nD τ).loc main_v196) := W37 m ρ c (Proc.devRef .tc main_v196)
def v197 (c : Dev nD) : Buf (Elt F) ((c : Thread nD τ).loc main_v197) := W37 m ρ c (Proc.devRef .tc main_v197)
def v199 (c : Dev nD) : Buf (Elt F) ((c : Thread nD τ).loc main_v199) := W39 m ρ c (Proc.devRef .tc main_v199)
def v200 (c : Dev nD) : Buf (Elt F) ((c : Thread nD τ).loc main_v200) := W39 m ρ c (Proc.devRef .tc main_v200)
def v202 (c : Dev nD) : Buf (Elt F) ((c : Thread nD τ).loc main_v202) := W39 m ρ c (Proc.devRef .tc main_v202)
def v206 (c : Dev nD) : Buf (Elt F) ((c : Thread nD τ).loc main_v206) := W39 m ρ c (Proc.devRef .tc main_v206)
def v208 (c : Dev nD) : Buf (Elt F) ((c : Thread nD τ).loc main_v208) := W39 m ρ c (Proc.devRef .tc main_v208)
def v210 (c : Dev nD) : Buf (Elt F) ((c : Thread nD τ).loc main_v210) := W39 m ρ c (Proc.devRef .tc main_v210)
def v212 (c : Dev nD) : Buf (Elt F) ((c : Thread nD τ).loc main_v212) := W39 m ρ c (Proc.devRef .tc main_v212)
def v213 (c : Dev nD) : Buf (Elt F) ((c : Thread nD τ).loc main_v213) := W39 m ρ c (Proc.devRef .tc main_v213)
def v215 (c : Dev nD) : Buf (Elt F) ((c : Thread nD τ).loc main_v215) := W41 m ρ c (Proc.devRef .tc main_v215)
def v216 (c : Dev nD) : Buf (Elt F) ((c : Thread nD τ).loc main_v216) := W41 m ρ c (Proc.devRef .tc main_v216)
def v217 (c : Dev nD) : Buf (Elt F) ((c : Thread nD τ).loc main_v217) := W41 m ρ c (Proc.devRef .tc main_v217)
def v218 (c : Dev nD) : Buf (Elt F) ((c : Thread nD τ).loc main_v218) := W41 m ρ c (Proc.devRef .tc main_v218)
def v219 (c : Dev nD) : Buf (Elt F) ((c : Thread nD τ).loc main_v219) := W41 m ρ c (Proc.devRef .tc main_v219)
def v221 (c : Dev nD) : Buf (Elt F) ((c : Thread nD τ).loc main_v221) := W43 m ρ c (Proc.devRef .tc main_v221)
def v222 (c : Dev nD) : Buf (Elt F) ((c : Thread nD τ).loc main_v222) := W43 m ρ c (Proc.devRef .tc main_v222)
def v224 (c : Dev nD) : Buf (Elt F) ((c : Thread nD τ).loc main_v224) := W43 m ρ c (Proc.devRef .tc main_v224)
def v228 (c : Dev nD) : Buf (Elt F) ((c : Thread nD τ).loc main_v228) := W43 m ρ c (Proc.devRef .tc main_v228)
def v230 (c : Dev nD) : Buf (Elt F) ((c : Thread nD τ).loc main_v230) := W43 m ρ c (Proc.devRef .tc main_v230)
def v232 (c : Dev nD) : Buf (Elt F) ((c : Thread nD τ).loc main_v232) := W43 m ρ c (Proc.devRef .tc main_v232)
def v234 (c : Dev nD) : Buf (Elt F) ((c : Thread nD τ).loc main_v234) := W43 m ρ c (Proc.devRef .tc main_v234)
def v235 (c : Dev nD) : Buf (Elt F) ((c : Thread nD τ).loc main_v235) := W43 m ρ c (Proc.devRef .tc main_v235)
def v237 (c : Dev nD) : Buf (Elt F) ((c : Thread nD τ).loc main_v237) := W45 m ρ c (Proc.devRef .tc main_v237)
def v238 (c : Dev nD) : Buf (Elt F) ((c : Thread nD τ).loc main_v238) := W45 m ρ c (Proc.devRef .tc main_v238)
def v239 (c : Dev nD) : Buf (Elt F) ((c : Thread nD τ).loc main_v239) := W45 m ρ c (Proc.devRef .tc main_v239)
def v240 (c : Dev nD) : Buf (Elt F) ((c : Thread nD τ).loc main_v240) := W45 m ρ c (Proc.devRef .tc main_v240)
def v241 (c : Dev nD) : Buf (Elt F) ((c : Thread nD τ).loc main_v241) := W45 m ρ c (Proc.devRef .tc main_v241)
def v243 (c : Dev nD) : Buf (Elt F) ((c : Thread nD τ).loc main_v243) := W47 m ρ c (Proc.devRef .tc main_v243)
def v244 (c : Dev nD) : Buf (Elt F) ((c : Thread nD τ).loc main_v244) := W47 m ρ c (Proc.devRef .tc main_v244)
def v245 (c : Dev nD) : Buf (Elt F) ((c : Thread nD τ).loc main_v245) := W47 m ρ c (Proc.devRef .tc main_v245)
def v250 (c : Dev nD) : Buf (Elt F) ((c : Thread nD τ).loc main_v250) := W47 m ρ c (Proc.devRef .tc main_v250)
def v255 (c : Dev nD) : Buf (Elt F) ((c : Thread nD τ).loc main_v255) := W47 m ρ c (Proc.devRef .tc main_v255)
def v260 (c : Dev nD) : Buf (Elt F) ((c : Thread nD τ).loc main_v260) := W47 m ρ c (Proc.devRef .tc main_v260)
def v261 (c : Dev nD) : Buf (Elt F) ((c : Thread nD τ).loc main_v261) := W47 m ρ c (Proc.devRef .tc main_v261)
def v262 (c : Dev nD) : Buf (Elt F) ((c : Thread nD τ).loc main_v262) := W47 m ρ c (Proc.devRef .tc main_v262)
def v263 (c : Dev nD) : Buf (Elt F) ((c : Thread nD τ).loc main_v263) := W47 m ρ c (Proc.devRef .tc main_v263)
def v264 (c : Dev nD) : Buf (Elt F) ((c : Thread nD τ).loc main_v264) := W47 m ρ c (Proc.devRef .tc main_v264)
def v265 (c : Dev nD) : Buf (Elt F) ((c : Thread nD τ).loc main_v265) := W47 m ρ c (Proc.devRef .tc main_v265)
def v266 (c : Dev nD) : Buf (Elt F) ((c : Thread nD τ).loc main_v266) := W47 m ρ c (Proc.devRef .tc main_v266)
def v268 (c : Dev nD) : Buf (Elt F) ((c : Thread nD τ).loc main_v268) := W49 m ρ c (Proc.devRef .tc main_v268)
def v269 (c : Dev nD) : Buf (Elt F) ((c : Thread nD τ).loc main_v269) := W49 m ρ c (Proc.devRef .tc main_v269)
def v270 (c : Dev nD) : Buf (Elt F) ((c : Thread nD τ).loc main_v270) := W49 m ρ c (Proc.devRef .tc main_v270)
def v271 (c : Dev nD) : Buf (Elt F) ((c : Thread nD τ).loc main_v271) := W49 m ρ c (Proc.devRef .tc main_v271)
def v273 (c : Dev nD) : Buf (Elt F) ((c : Thread nD τ).loc main_v273) := W51 m ρ c (Proc.devRef .tc main_v273)
def v4 (c : Dev nD) : Buf (Elt F) ((c : Thread nD τ).loc main_v4) := W2 m ρ c (Proc.devRef .tc main_v4)
def v16 (c : Dev nD) : Buf (Elt F) ((c : Thread nD τ).loc main_v16) := W4 m ρ c (Proc.devRef .tc main_v16)
def v33_0 (c : Dev nD) : Buf (Elt F) ((c : Thread nD τ).loc main_v33_0) := W6 m ρ c (Proc.devRef .tc main_v33_0)
def v33_1 (c : Dev nD) : Buf (Elt F) ((c : Thread nD τ).loc main_v33_1) := W6 m ρ c (Proc.devRef .tc main_v33_1)
def v33_2 (c : Dev nD) : Buf (Elt F) ((c : Thread nD τ).loc main_v33_2) := W6 m ρ c (Proc.devRef .tc main_v33_2)
def v39_0 (c : Dev nD) : Buf (Elt F) ((c : Thread nD τ).loc main_v39_0) := W8 m ρ c (Proc.devRef .tc main_v39_0)
def v39_1 (c : Dev nD) : Buf (Elt F) ((c : Thread nD τ).loc main_v39_1) := W8 m ρ c (Proc.devRef .tc main_v39_1)
def v39_2 (c : Dev nD) : Buf (Elt F) ((c : Thread nD τ).loc main_v39_2) := W8 m ρ c (Proc.devRef .tc main_v39_2)
def v55_0 (c : Dev nD) : Buf (Elt F) ((c : Thread nD τ).loc main_v55_0) := W10 m ρ c (Proc.devRef .tc main_v55_0)
def v55_1 (c : Dev nD) : Buf (Elt F) ((c : Thread nD τ).loc main_v55_1) := W10 m ρ c (Proc.devRef .tc main_v55_1)
def v55_2 (c : Dev nD) : Buf (Elt F) ((c : Thread nD τ).loc main_v55_2) := W10 m ρ c (Proc.devRef .tc main_v55_2)
def v61_0 (c : Dev nD) : Buf (Elt F) ((c : Thread nD τ).loc main_v61_0) := W12 m ρ c (Proc.devRef .tc main_v61_0)
def v61_1 (c : Dev nD) : Buf (Elt F) ((c : Thread nD τ).loc main_v61_1) := W12 m ρ c (Proc.devRef .tc main_v61_1)
def v61_2 (c : Dev nD) : Buf (Elt F) ((c : Thread nD τ).loc main_v61_2) := W12 m ρ c (Proc.devRef .tc main_v61_2)
def v79_0 (c : Dev nD) : Buf (Elt F) ((c : Thread nD τ).loc main_v79_0) := W14 m ρ c (Proc.devRef .tc main_v79_0)
def v79_1 (c : Dev nD) : Buf (Elt F) ((c : Thread nD τ).loc main_v79_1) := W14 m ρ c (Proc.devRef .tc main_v79_1)
def v79_2 (c : Dev nD) : Buf (Elt F) ((c : Thread nD τ).loc main_v79_2) := W14 m ρ c (Proc.devRef .tc main_v79_2)
def v84 (c : Dev nD) : Buf (Elt F) ((c : Thread nD τ).loc main_v84) := W16 m ρ c (Proc.devRef .tc main_v84)
def v119_0 (c : Dev nD) : Buf (Elt F) ((c : Thread nD τ).loc main_v119_0) := W18 m ρ c (Proc.devRef .tc main_v119_0)
def v119_1 (c : Dev nD) : Buf (Elt F) ((c : Thread nD τ).loc main_v119_1) := W18 m ρ c (Proc.devRef .tc main_v119_1)
def v119_2 (c : Dev nD) : Buf (Elt F) ((c : Thread nD τ).loc main_v119_2) := W18 m ρ c (Proc.devRef .tc main_v119_2)
def v125_0 (c : Dev nD) : Buf (Elt F) ((c : Thread nD τ).loc main_v125_0) := W20 m ρ c (Proc.devRef .tc main_v125_0)
def v125_1 (c : Dev nD) : Buf (Elt F) ((c : Thread nD τ).loc main_v125_1) := W20 m ρ c (Proc.devRef .tc main_v125_1)
def v125_2 (c : Dev nD) : Buf (Elt F) ((c : Thread nD τ).loc main_v125_2) := W20 m ρ c (Proc.devRef .tc main_v125_2)
def v141_0 (c : Dev nD) : Buf (Elt F) ((c : Thread nD τ).loc main_v141_0) := W22 m ρ c (Proc.devRef .tc main_v141_0)
def v141_1 (c : Dev nD) : Buf (Elt F) ((c : Thread nD τ).loc main_v141_1) := W22 m ρ c (Proc.devRef .tc main_v141_1)
def v141_2 (c : Dev nD) : Buf (Elt F) ((c : Thread nD τ).loc main_v141_2) := W22 m ρ c (Proc.devRef .tc main_v141_2)
def v147_0 (c : Dev nD) : Buf (Elt F) ((c : Thread nD τ).loc main_v147_0) := W24 m ρ c (Proc.devRef .tc main_v147_0)
def v147_1 (c : Dev nD) : Buf (Elt F) ((c : Thread nD τ).loc main_v147_1) := W24 m ρ c (Proc.devRef .tc main_v147_1)
def v147_2 (c : Dev nD) : Buf (Elt F) ((c : Thread nD τ).loc main_v147_2) := W24 m ρ c (Proc.devRef .tc main_v147_2)
def v165_0 (c : Dev nD) : Buf (Elt F) ((c : Thread nD τ).loc main_v165_0) := W26 m ρ c (Proc.devRef .tc main_v165_0)
def v165_1 (c : Dev nD) : Buf (Elt F) ((c : Thread nD τ).loc main_v165_1) := W26 m ρ c (Proc.devRef .tc main_v165_1)
def v165_2 (c : Dev nD) : Buf (Elt F) ((c : Thread nD τ).loc main_v165_2) := W26 m ρ c (Proc.devRef .tc main_v165_2)
def v170 (c : Dev nD) : Buf (Elt F) ((c : Thread nD τ).loc main_v170) := W28 m ρ c (Proc.devRef .tc main_v170)
def v172 (c : Dev nD) : Buf (Elt F) ((c : Thread nD τ).loc main_v172) := W30 m ρ c (Proc.devRef .tc main_v172)
def v174 (c : Dev nD) : Buf (Elt F) ((c : Thread nD τ).loc main_v174) := W32 m ρ c (Proc.devRef .tc main_v174)
def v176 (c : Dev nD) : Buf (Elt F) ((c : Thread nD τ).loc main_v176) := W34 m ρ c (Proc.devRef .tc main_v176)
def v192_0 (c : Dev nD) : Buf (Elt F) ((c : Thread nD τ).loc main_v192_0) := W36 m ρ c (Proc.devRef .tc main_v192_0)
def v192_1 (c : Dev nD) : Buf (Elt F) ((c : Thread nD τ).loc main_v192_1) := W36 m ρ c (Proc.devRef .tc main_v192_1)
def v192_2 (c : Dev nD) : Buf (Elt F) ((c : Thread nD τ).loc main_v192_2) := W36 m ρ c (Proc.devRef .tc main_v192_2)
def v198_0 (c : Dev nD) : Buf (Elt F) ((c : Thread nD τ).loc main_v198_0) := W38 m ρ c (Proc.devRef .tc main_v198_0)
def v198_1 (c : Dev nD) : Buf (Elt F) ((c : Thread nD τ).loc main_v198_1) := W38 m ρ c (Proc.devRef .tc main_v198_1)
def v198_2 (c : Dev nD) : Buf (Elt F) ((c : Thread nD τ).loc main_v198_2) := W38 m ρ c (Proc.devRef .tc main_v198_2)
def v214_0 (c : Dev nD) : Buf (Elt F) ((c : Thread nD τ).loc main_v214_0) := W40 m ρ c (Proc.devRef .tc main_v214_0)
def v214_1 (c : Dev nD) : Buf (Elt F) ((c : Thread nD τ).loc main_v214_1) := W40 m ρ c (Proc.devRef .tc main_v214_1)
def v214_2 (c : Dev nD) : Buf (Elt F) ((c : Thread nD τ).loc main_v214_2) := W40 m ρ c (Proc.devRef .tc main_v214_2)
def v220_0 (c : Dev nD) : Buf (Elt F) ((c : Thread nD τ).loc main_v220_0) := W42 m ρ c (Proc.devRef .tc main_v220_0)
def v220_1 (c : Dev nD) : Buf (Elt F) ((c : Thread nD τ).loc main_v220_1) := W42 m ρ c (Proc.devRef .tc main_v220_1)
def v220_2 (c : Dev nD) : Buf (Elt F) ((c : Thread nD τ).loc main_v220_2) := W42 m ρ c (Proc.devRef .tc main_v220_2)
def v236_0 (c : Dev nD) : Buf (Elt F) ((c : Thread nD τ).loc main_v236_0) := W44 m ρ c (Proc.devRef .tc main_v236_0)
def v236_1 (c : Dev nD) : Buf (Elt F) ((c : Thread nD τ).loc main_v236_1) := W44 m ρ c (Proc.devRef .tc main_v236_1)
def v236_2 (c : Dev nD) : Buf (Elt F) ((c : Thread nD τ).loc main_v236_2) := W44 m ρ c (Proc.devRef .tc main_v236_2)
def v242_0 (c : Dev nD) : Buf (Elt F) ((c : Thread nD τ).loc main_v242_0) := W46 m ρ c (Proc.devRef .tc main_v242_0)
def v242_1 (c : Dev nD) : Buf (Elt F) ((c : Thread nD τ).loc main_v242_1) := W46 m ρ c (Proc.devRef .tc main_v242_1)
def v242_2 (c : Dev nD) : Buf (Elt F) ((c : Thread nD τ).loc main_v242_2) := W46 m ρ c (Proc.devRef .tc main_v242_2)
def v267_0 (c : Dev nD) : Buf (Elt F) ((c : Thread nD τ).loc main_v267_0) := W48 m ρ c (Proc.devRef .tc main_v267_0)
def v267_1 (c : Dev nD) : Buf (Elt F) ((c : Thread nD τ).loc main_v267_1) := W48 m ρ c (Proc.devRef .tc main_v267_1)
def v267_2 (c : Dev nD) : Buf (Elt F) ((c : Thread nD τ).loc main_v267_2) := W48 m ρ c (Proc.devRef .tc main_v267_2)
def v272 (c : Dev nD) : Buf (Elt F) ((c : Thread nD τ).loc main_v272) := W50 m ρ c (Proc.devRef .tc main_v272)

theorem arg2_at0 (c : Dev nD) : W0 m ρ c (Proc.devRef .tc main_arg2) = m ((c : Thread nD τ).loc main_arg2) :=
  rfl
theorem arg6_at1 (c : Dev nD) : W1 m ρ c (Proc.devRef .tc main_arg6) = m ((c : Thread nD τ).loc main_arg6) :=
  (StableHlo.after_of_writes_sub hostOps0 _ hostOps0_writes (by decide)).trans (rfl)
theorem arg3_at1 (c : Dev nD) : W1 m ρ c (Proc.devRef .tc main_arg3) = m ((c : Thread nD τ).loc main_arg3) :=
  (StableHlo.after_of_writes_sub hostOps0 _ hostOps0_writes (by decide)).trans (rfl)
theorem v4_at2 (c : Dev nD) : W2 m ρ c (Proc.devRef .tc main_v4) = v4 m ρ c :=
  rfl
theorem v1_at2 (c : Dev nD) : W2 m ρ c (Proc.devRef .tc main_v1) = v1 m ρ c :=
  (W2_of_ne m ρ c main_v1 (by decide)).trans (rfl)
theorem arg0_at2 (c : Dev nD) : W2 m ρ c (Proc.devRef .tc main_arg0) = m ((c : Thread nD τ).loc main_arg0) :=
  (W2_of_ne m ρ c main_arg0 (by decide)).trans ((StableHlo.after_of_writes_sub hostOps0 _ hostOps0_writes (by decide)).trans (rfl))
theorem arg9_at2 (c : Dev nD) : W2 m ρ c (Proc.devRef .tc main_arg9) = m ((c : Thread nD τ).loc main_arg9) :=
  (W2_of_ne m ρ c main_arg9 (by decide)).trans ((StableHlo.after_of_writes_sub hostOps0 _ hostOps0_writes (by decide)).trans (rfl))
theorem arg10_at2 (c : Dev nD) : W2 m ρ c (Proc.devRef .tc main_arg10) = m ((c : Thread nD τ).loc main_arg10) :=
  (W2_of_ne m ρ c main_arg10 (by decide)).trans ((StableHlo.after_of_writes_sub hostOps0 _ hostOps0_writes (by decide)).trans (rfl))
theorem v12_at3 (c : Dev nD) : W3 m ρ c (Proc.devRef .tc main_v12) = v12 m ρ c :=
  rfl
theorem arg1_at3 (c : Dev nD) : W3 m ρ c (Proc.devRef .tc main_arg1) = m ((c : Thread nD τ).loc main_arg1) :=
  (StableHlo.after_of_writes_sub hostOps1 _ hostOps1_writes (by decide)).trans ((W2_of_ne m ρ c main_arg1 (by decide)).trans ((StableHlo.after_of_writes_sub hostOps0 _ hostOps0_writes (by decide)).trans (rfl)))
theorem v13_at3 (c : Dev nD) : W3 m ρ c (Proc.devRef .tc main_v13) = v13 m ρ c :=
  rfl
theorem v14_at3 (c : Dev nD) : W3 m ρ c (Proc.devRef .tc main_v14) = v14 m ρ c :=
  rfl
theorem v15_at3 (c : Dev nD) : W3 m ρ c (Proc.devRef .tc main_v15) = v15 m ρ c :=
  rfl
theorem v3_at4 (c : Dev nD) : W4 m ρ c (Proc.devRef .tc main_v3) = v3 m ρ c :=
  (W4_of_ne m ρ c main_v3 (by decide)).trans ((StableHlo.after_of_writes_sub hostOps1 _ hostOps1_writes (by decide)).trans ((W2_of_ne m ρ c main_v3 (by decide)).trans (rfl)))
theorem v16_at4 (c : Dev nD) : W4 m ρ c (Proc.devRef .tc main_v16) = v16 m ρ c :=
  rfl
theorem arg11_at4 (c : Dev nD) : W4 m ρ c (Proc.devRef .tc main_arg11) = m ((c : Thread nD τ).loc main_arg11) :=
  (W4_of_ne m ρ c main_arg11 (by decide)).trans ((StableHlo.after_of_writes_sub hostOps1 _ hostOps1_writes (by decide)).trans ((W2_of_ne m ρ c main_arg11 (by decide)).trans ((StableHlo.after_of_writes_sub hostOps0 _ hostOps0_writes (by decide)).trans (rfl))))
theorem arg12_at4 (c : Dev nD) : W4 m ρ c (Proc.devRef .tc main_arg12) = m ((c : Thread nD τ).loc main_arg12) :=
  (W4_of_ne m ρ c main_arg12 (by decide)).trans ((StableHlo.after_of_writes_sub hostOps1 _ hostOps1_writes (by decide)).trans ((W2_of_ne m ρ c main_arg12 (by decide)).trans ((StableHlo.after_of_writes_sub hostOps0 _ hostOps0_writes (by decide)).trans (rfl))))
theorem arg13_at4 (c : Dev nD) : W4 m ρ c (Proc.devRef .tc main_arg13) = m ((c : Thread nD τ).loc main_arg13) :=
  (W4_of_ne m ρ c main_arg13 (by decide)).trans ((StableHlo.after_of_writes_sub hostOps1 _ hostOps1_writes (by decide)).trans ((W2_of_ne m ρ c main_arg13 (by decide)).trans ((StableHlo.after_of_writes_sub hostOps0 _ hostOps0_writes (by decide)).trans (rfl))))
theorem arg14_at4 (c : Dev nD) : W4 m ρ c (Proc.devRef .tc main_arg14) = m ((c : Thread nD τ).loc main_arg14) :=
  (W4_of_ne m ρ c main_arg14 (by decide)).trans ((StableHlo.after_of_writes_sub hostOps1 _ hostOps1_writes (by decide)).trans ((W2_of_ne m ρ c main_arg14 (by decide)).trans ((StableHlo.after_of_writes_sub hostOps0 _ hostOps0_writes (by decide)).trans (rfl))))
theorem arg15_at4 (c : Dev nD) : W4 m ρ c (Proc.devRef .tc main_arg15) = m ((c : Thread nD τ).loc main_arg15) :=
  (W4_of_ne m ρ c main_arg15 (by decide)).trans ((StableHlo.after_of_writes_sub hostOps1 _ hostOps1_writes (by decide)).trans ((W2_of_ne m ρ c main_arg15 (by decide)).trans ((StableHlo.after_of_writes_sub hostOps0 _ hostOps0_writes (by decide)).trans (rfl))))
theorem arg16_at4 (c : Dev nD) : W4 m ρ c (Proc.devRef .tc main_arg16) = m ((c : Thread nD τ).loc main_arg16) :=
  (W4_of_ne m ρ c main_arg16 (by decide)).trans ((StableHlo.after_of_writes_sub hostOps1 _ hostOps1_writes (by decide)).trans ((W2_of_ne m ρ c main_arg16 (by decide)).trans ((StableHlo.after_of_writes_sub hostOps0 _ hostOps0_writes (by decide)).trans (rfl))))
theorem v19_at5 (c : Dev nD) : W5 m ρ c (Proc.devRef .tc main_v19) = v19 m ρ c :=
  rfl
theorem arg0_at5 (c : Dev nD) : W5 m ρ c (Proc.devRef .tc main_arg0) = m ((c : Thread nD τ).loc main_arg0) :=
  (StableHlo.after_of_writes_sub hostOps2 _ hostOps2_writes (by decide)).trans ((W4_of_ne m ρ c main_arg0 (by decide)).trans ((StableHlo.after_of_writes_sub hostOps1 _ hostOps1_writes (by decide)).trans (arg0_at2 m ρ c)))
theorem v21_at5 (c : Dev nD) : W5 m ρ c (Proc.devRef .tc main_v21) = v21 m ρ c :=
  rfl
theorem v32_at5 (c : Dev nD) : W5 m ρ c (Proc.devRef .tc main_v32) = v32 m ρ c :=
  rfl
theorem v33_1_at6 (c : Dev nD) : W6 m ρ c (Proc.devRef .tc main_v33_1) = v33_1 m ρ c :=
  rfl
theorem v33_2_at6 (c : Dev nD) : W6 m ρ c (Proc.devRef .tc main_v33_2) = v33_2 m ρ c :=
  rfl
theorem v31_at6 (c : Dev nD) : W6 m ρ c (Proc.devRef .tc main_v31) = v31 m ρ c :=
  (W6_of_ne m ρ c main_v31 (by decide)).trans (rfl)
theorem v25_at6 (c : Dev nD) : W6 m ρ c (Proc.devRef .tc main_v25) = v25 m ρ c :=
  (W6_of_ne m ρ c main_v25 (by decide)).trans (rfl)
theorem v27_at6 (c : Dev nD) : W6 m ρ c (Proc.devRef .tc main_v27) = v27 m ρ c :=
  (W6_of_ne m ρ c main_v27 (by decide)).trans (rfl)
theorem v33_0_at7 (c : Dev nD) : W7 m ρ c (Proc.devRef .tc main_v33_0) = v33_0 m ρ c :=
  (StableHlo.after_of_writes_sub hostOps3 _ hostOps3_writes (by decide)).trans (rfl)
theorem v29_at7 (c : Dev nD) : W7 m ρ c (Proc.devRef .tc main_v29) = v29 m ρ c :=
  (StableHlo.after_of_writes_sub hostOps3 _ hostOps3_writes (by decide)).trans ((W6_of_ne m ρ c main_v29 (by decide)).trans (rfl))
theorem v34_at7 (c : Dev nD) : W7 m ρ c (Proc.devRef .tc main_v34) = v34 m ρ c :=
  rfl
theorem v35_at7 (c : Dev nD) : W7 m ρ c (Proc.devRef .tc main_v35) = v35 m ρ c :=
  rfl
theorem v37_at7 (c : Dev nD) : W7 m ρ c (Proc.devRef .tc main_v37) = v37 m ρ c :=
  rfl
theorem v38_at7 (c : Dev nD) : W7 m ρ c (Proc.devRef .tc main_v38) = v38 m ρ c :=
  rfl
theorem v36_at7 (c : Dev nD) : W7 m ρ c (Proc.devRef .tc main_v36) = v36 m ρ c :=
  rfl
theorem v39_1_at8 (c : Dev nD) : W8 m ρ c (Proc.devRef .tc main_v39_1) = v39_1 m ρ c :=
  rfl
theorem v39_2_at8 (c : Dev nD) : W8 m ρ c (Proc.devRef .tc main_v39_2) = v39_2 m ρ c :=
  rfl
theorem arg11_at8 (c : Dev nD) : W8 m ρ c (Proc.devRef .tc main_arg11) = m ((c : Thread nD τ).loc main_arg11) :=
  (W8_of_ne m ρ c main_arg11 (by decide)).trans ((StableHlo.after_of_writes_sub hostOps3 _ hostOps3_writes (by decide)).trans ((W6_of_ne m ρ c main_arg11 (by decide)).trans ((StableHlo.after_of_writes_sub hostOps2 _ hostOps2_writes (by decide)).trans (arg11_at4 m ρ c))))
theorem arg12_at8 (c : Dev nD) : W8 m ρ c (Proc.devRef .tc main_arg12) = m ((c : Thread nD τ).loc main_arg12) :=
  (W8_of_ne m ρ c main_arg12 (by decide)).trans ((StableHlo.after_of_writes_sub hostOps3 _ hostOps3_writes (by decide)).trans ((W6_of_ne m ρ c main_arg12 (by decide)).trans ((StableHlo.after_of_writes_sub hostOps2 _ hostOps2_writes (by decide)).trans (arg12_at4 m ρ c))))
theorem arg13_at8 (c : Dev nD) : W8 m ρ c (Proc.devRef .tc main_arg13) = m ((c : Thread nD τ).loc main_arg13) :=
  (W8_of_ne m ρ c main_arg13 (by decide)).trans ((StableHlo.after_of_writes_sub hostOps3 _ hostOps3_writes (by decide)).trans ((W6_of_ne m ρ c main_arg13 (by decide)).trans ((StableHlo.after_of_writes_sub hostOps2 _ hostOps2_writes (by decide)).trans (arg13_at4 m ρ c))))
theorem arg14_at8 (c : Dev nD) : W8 m ρ c (Proc.devRef .tc main_arg14) = m ((c : Thread nD τ).loc main_arg14) :=
  (W8_of_ne m ρ c main_arg14 (by decide)).trans ((StableHlo.after_of_writes_sub hostOps3 _ hostOps3_writes (by decide)).trans ((W6_of_ne m ρ c main_arg14 (by decide)).trans ((StableHlo.after_of_writes_sub hostOps2 _ hostOps2_writes (by decide)).trans (arg14_at4 m ρ c))))
theorem arg15_at8 (c : Dev nD) : W8 m ρ c (Proc.devRef .tc main_arg15) = m ((c : Thread nD τ).loc main_arg15) :=
  (W8_of_ne m ρ c main_arg15 (by decide)).trans ((StableHlo.after_of_writes_sub hostOps3 _ hostOps3_writes (by decide)).trans ((W6_of_ne m ρ c main_arg15 (by decide)).trans ((StableHlo.after_of_writes_sub hostOps2 _ hostOps2_writes (by decide)).trans (arg15_at4 m ρ c))))
theorem arg16_at8 (c : Dev nD) : W8 m ρ c (Proc.devRef .tc main_arg16) = m ((c : Thread nD τ).loc main_arg16) :=
  (W8_of_ne m ρ c main_arg16 (by decide)).trans ((StableHlo.after_of_writes_sub hostOps3 _ hostOps3_writes (by decide)).trans ((W6_of_ne m ρ c main_arg16 (by decide)).trans ((StableHlo.after_of_writes_sub hostOps2 _ hostOps2_writes (by decide)).trans (arg16_at4 m ρ c))))
theorem v5_at9 (c : Dev nD) : W9 m ρ c (Proc.devRef .tc main_v5) = v5 m ρ c :=
  (StableHlo.after_of_writes_sub hostOps4 _ hostOps4_writes (by decide)).trans ((W8_of_ne m ρ c main_v5 (by decide)).trans ((StableHlo.after_of_writes_sub hostOps3 _ hostOps3_writes (by decide)).trans ((W6_of_ne m ρ c main_v5 (by decide)).trans ((StableHlo.after_of_writes_sub hostOps2 _ hostOps2_writes (by decide)).trans ((W4_of_ne m ρ c main_v5 (by decide)).trans (rfl))))))
theorem arg0_at9 (c : Dev nD) : W9 m ρ c (Proc.devRef .tc main_arg0) = m ((c : Thread nD τ).loc main_arg0) :=
  (StableHlo.after_of_writes_sub hostOps4 _ hostOps4_writes (by decide)).trans ((W8_of_ne m ρ c main_arg0 (by decide)).trans ((StableHlo.after_of_writes_sub hostOps3 _ hostOps3_writes (by decide)).trans (((W6_arr m ρ c 1).trans (((dat2 (V5 m ρ) c).arrAt_in 1 rfl _).trans (A_eq2 (V5 m ρ) c 1))).trans (arg0_at5 m ρ c))))
theorem v43_at9 (c : Dev nD) : W9 m ρ c (Proc.devRef .tc main_v43) = v43 m ρ c :=
  rfl
theorem v54_at9 (c : Dev nD) : W9 m ρ c (Proc.devRef .tc main_v54) = v54 m ρ c :=
  rfl
theorem v55_1_at10 (c : Dev nD) : W10 m ρ c (Proc.devRef .tc main_v55_1) = v55_1 m ρ c :=
  rfl
theorem v55_2_at10 (c : Dev nD) : W10 m ρ c (Proc.devRef .tc main_v55_2) = v55_2 m ρ c :=
  rfl
theorem v53_at10 (c : Dev nD) : W10 m ρ c (Proc.devRef .tc main_v53) = v53 m ρ c :=
  (W10_of_ne m ρ c main_v53 (by decide)).trans (rfl)
theorem v47_at10 (c : Dev nD) : W10 m ρ c (Proc.devRef .tc main_v47) = v47 m ρ c :=
  (W10_of_ne m ρ c main_v47 (by decide)).trans (rfl)
theorem v49_at10 (c : Dev nD) : W10 m ρ c (Proc.devRef .tc main_v49) = v49 m ρ c :=
  (W10_of_ne m ρ c main_v49 (by decide)).trans (rfl)
theorem v55_0_at11 (c : Dev nD) : W11 m ρ c (Proc.devRef .tc main_v55_0) = v55_0 m ρ c :=
  (StableHlo.after_of_writes_sub hostOps5 _ hostOps5_writes (by decide)).trans (rfl)
theorem v51_at11 (c : Dev nD) : W11 m ρ c (Proc.devRef .tc main_v51) = v51 m ρ c :=
  (StableHlo.after_of_writes_sub hostOps5 _ hostOps5_writes (by decide)).trans ((W10_of_ne m ρ c main_v51 (by decide)).trans (rfl))
theorem v56_at11 (c : Dev nD) : W11 m ρ c (Proc.devRef .tc main_v56) = v56 m ρ c :=
  rfl
theorem v57_at11 (c : Dev nD) : W11 m ρ c (Proc.devRef .tc main_v57) = v57 m ρ c :=
  rfl
theorem v59_at11 (c : Dev nD) : W11 m ρ c (Proc.devRef .tc main_v59) = v59 m ρ c :=
  rfl
theorem v60_at11 (c : Dev nD) : W11 m ρ c (Proc.devRef .tc main_v60) = v60 m ρ c :=
  rfl
theorem v58_at11 (c : Dev nD) : W11 m ρ c (Proc.devRef .tc main_v58) = v58 m ρ c :=
  rfl
theorem v61_1_at12 (c : Dev nD) : W12 m ρ c (Proc.devRef .tc main_v61_1) = v61_1 m ρ c :=
  rfl
theorem v61_2_at12 (c : Dev nD) : W12 m ρ c (Proc.devRef .tc main_v61_2) = v61_2 m ρ c :=
  rfl
theorem arg19_at12 (c : Dev nD) : W12 m ρ c (Proc.devRef .tc main_arg19) = m ((c : Thread nD τ).loc main_arg19) :=
  (W12_of_ne m ρ c main_arg19 (by decide)).trans ((StableHlo.after_of_writes_sub hostOps5 _ hostOps5_writes (by decide)).trans ((W10_of_ne m ρ c main_arg19 (by decide)).trans ((StableHlo.after_of_writes_sub hostOps4 _ hostOps4_writes (by decide)).trans ((W8_of_ne m ρ c main_arg19 (by decide)).trans ((StableHlo.after_of_writes_sub hostOps3 _ hostOps3_writes (by decide)).trans ((W6_of_ne m ρ c main_arg19 (by decide)).trans ((StableHlo.after_of_writes_sub hostOps2 _ hostOps2_writes (by decide)).trans ((W4_of_ne m ρ c main_arg19 (by decide)).trans ((StableHlo.after_of_writes_sub hostOps1 _ hostOps1_writes (by decide)).trans ((W2_of_ne m ρ c main_arg19 (by decide)).trans ((StableHlo.after_of_writes_sub hostOps0 _ hostOps0_writes (by decide)).trans (rfl))))))))))))
theorem arg17_at12 (c : Dev nD) : W12 m ρ c (Proc.devRef .tc main_arg17) = m ((c : Thread nD τ).loc main_arg17) :=
  (W12_of_ne m ρ c main_arg17 (by decide)).trans ((StableHlo.after_of_writes_sub hostOps5 _ hostOps5_writes (by decide)).trans ((W10_of_ne m ρ c main_arg17 (by decide)).trans ((StableHlo.after_of_writes_sub hostOps4 _ hostOps4_writes (by decide)).trans ((W8_of_ne m ρ c main_arg17 (by decide)).trans ((StableHlo.after_of_writes_sub hostOps3 _ hostOps3_writes (by decide)).trans ((W6_of_ne m ρ c main_arg17 (by decide)).trans ((StableHlo.after_of_writes_sub hostOps2 _ hostOps2_writes (by decide)).trans ((W4_of_ne m ρ c main_arg17 (by decide)).trans ((StableHlo.after_of_writes_sub hostOps1 _ hostOps1_writes (by decide)).trans ((W2_of_ne m ρ c main_arg17 (by decide)).trans ((StableHlo.after_of_writes_sub hostOps0 _ hostOps0_writes (by decide)).trans (rfl))))))))))))
theorem arg18_at12 (c : Dev nD) : W12 m ρ c (Proc.devRef .tc main_arg18) = m ((c : Thread nD τ).loc main_arg18) :=
  (W12_of_ne m ρ c main_arg18 (by decide)).trans ((StableHlo.after_of_writes_sub hostOps5 _ hostOps5_writes (by decide)).trans ((W10_of_ne m ρ c main_arg18 (by decide)).trans ((StableHlo.after_of_writes_sub hostOps4 _ hostOps4_writes (by decide)).trans ((W8_of_ne m ρ c main_arg18 (by decide)).trans ((StableHlo.after_of_writes_sub hostOps3 _ hostOps3_writes (by decide)).trans ((W6_of_ne m ρ c main_arg18 (by decide)).trans ((StableHlo.after_of_writes_sub hostOps2 _ hostOps2_writes (by decide)).trans ((W4_of_ne m ρ c main_arg18 (by decide)).trans ((StableHlo.after_of_writes_sub hostOps1 _ hostOps1_writes (by decide)).trans ((W2_of_ne m ρ c main_arg18 (by decide)).trans ((StableHlo.after_of_writes_sub hostOps0 _ hostOps0_writes (by decide)).trans (rfl))))))))))))
theorem arg20_at12 (c : Dev nD) : W12 m ρ c (Proc.devRef .tc main_arg20) = m ((c : Thread nD τ).loc main_arg20) :=
  (W12_of_ne m ρ c main_arg20 (by decide)).trans ((StableHlo.after_of_writes_sub hostOps5 _ hostOps5_writes (by decide)).trans ((W10_of_ne m ρ c main_arg20 (by decide)).trans ((StableHlo.after_of_writes_sub hostOps4 _ hostOps4_writes (by decide)).trans ((W8_of_ne m ρ c main_arg20 (by decide)).trans ((StableHlo.after_of_writes_sub hostOps3 _ hostOps3_writes (by decide)).trans ((W6_of_ne m ρ c main_arg20 (by decide)).trans ((StableHlo.after_of_writes_sub hostOps2 _ hostOps2_writes (by decide)).trans ((W4_of_ne m ρ c main_arg20 (by decide)).trans ((StableHlo.after_of_writes_sub hostOps1 _ hostOps1_writes (by decide)).trans ((W2_of_ne m ρ c main_arg20 (by decide)).trans ((StableHlo.after_of_writes_sub hostOps0 _ hostOps0_writes (by decide)).trans (rfl))))))))))))
theorem v39_0_at13 (c : Dev nD) : W13 m ρ c (Proc.devRef .tc main_v39_0) = v39_0 m ρ c :=
  (StableHlo.after_of_writes_sub hostOps6 _ hostOps6_writes (by decide)).trans ((W12_of_ne m ρ c main_v39_0 (by decide)).trans ((StableHlo.after_of_writes_sub hostOps5 _ hostOps5_writes (by decide)).trans ((W10_of_ne m ρ c main_v39_0 (by decide)).trans ((StableHlo.after_of_writes_sub hostOps4 _ hostOps4_writes (by decide)).trans (rfl)))))
theorem v64_at13 (c : Dev nD) : W13 m ρ c (Proc.devRef .tc main_v64) = v64 m ρ c :=
  rfl
theorem v40_at13 (c : Dev nD) : W13 m ρ c (Proc.devRef .tc main_v40) = v40 m ρ c :=
  (StableHlo.after_of_writes_sub hostOps6 _ hostOps6_writes (by decide)).trans ((W12_of_ne m ρ c main_v40 (by decide)).trans ((StableHlo.after_of_writes_sub hostOps5 _ hostOps5_writes (by decide)).trans ((W10_of_ne m ρ c main_v40 (by decide)).trans (rfl))))
theorem v41_at13 (c : Dev nD) : W13 m ρ c (Proc.devRef .tc main_v41) = v41 m ρ c :=
  (StableHlo.after_of_writes_sub hostOps6 _ hostOps6_writes (by decide)).trans ((W12_of_ne m ρ c main_v41 (by decide)).trans ((StableHlo.after_of_writes_sub hostOps5 _ hostOps5_writes (by decide)).trans ((W10_of_ne m ρ c main_v41 (by decide)).trans (rfl))))
theorem v75_at13 (c : Dev nD) : W13 m ρ c (Proc.devRef .tc main_v75) = v75 m ρ c :=
  rfl
theorem v76_at13 (c : Dev nD) : W13 m ρ c (Proc.devRef .tc main_v76) = v76 m ρ c :=
  rfl
theorem v61_0_at13 (c : Dev nD) : W13 m ρ c (Proc.devRef .tc main_v61_0) = v61_0 m ρ c :=
  (StableHlo.after_of_writes_sub hostOps6 _ hostOps6_writes (by decide)).trans (rfl)
theorem v69_at13 (c : Dev nD) : W13 m ρ c (Proc.devRef .tc main_v69) = v69 m ρ c :=
  rfl
theorem v62_at13 (c : Dev nD) : W13 m ρ c (Proc.devRef .tc main_v62) = v62 m ρ c :=
  rfl
theorem v63_at13 (c : Dev nD) : W13 m ρ c (Proc.devRef .tc main_v63) = v63 m ρ c :=
  rfl
theorem v77_at13 (c : Dev nD) : W13 m ρ c (Proc.devRef .tc main_v77) = v77 m ρ c :=
  rfl
theorem v78_at13 (c : Dev nD) : W13 m ρ c (Proc.devRef .tc main_v78) = v78 m ρ c :=
  rfl
theorem v74_at13 (c : Dev nD) : W13 m ρ c (Proc.devRef .tc main_v74) = v74 m ρ c :=
  rfl
theorem v79_1_at14 (c : Dev nD) : W14 m ρ c (Proc.devRef .tc main_v79_1) = v79_1 m ρ c :=
  rfl
theorem v79_2_at14 (c : Dev nD) : W14 m ρ c (Proc.devRef .tc main_v79_2) = v79_2 m ρ c :=
  rfl
theorem arg21_at14 (c : Dev nD) : W14 m ρ c (Proc.devRef .tc main_arg21) = m ((c : Thread nD τ).loc main_arg21) :=
  (W14_of_ne m ρ c main_arg21 (by decide)).trans ((StableHlo.after_of_writes_sub hostOps6 _ hostOps6_writes (by decide)).trans ((W12_of_ne m ρ c main_arg21 (by decide)).trans ((StableHlo.after_of_writes_sub hostOps5 _ hostOps5_writes (by decide)).trans ((W10_of_ne m ρ c main_arg21 (by decide)).trans ((StableHlo.after_of_writes_sub hostOps4 _ hostOps4_writes (by decide)).trans ((W8_of_ne m ρ c main_arg21 (by decide)).trans ((StableHlo.after_of_writes_sub hostOps3 _ hostOps3_writes (by decide)).trans ((W6_of_ne m ρ c main_arg21 (by decide)).trans ((StableHlo.after_of_writes_sub hostOps2 _ hostOps2_writes (by decide)).trans ((W4_of_ne m ρ c main_arg21 (by decide)).trans ((StableHlo.after_of_writes_sub hostOps1 _ hostOps1_writes (by decide)).trans ((W2_of_ne m ρ c main_arg21 (by decide)).trans ((StableHlo.after_of_writes_sub hostOps0 _ hostOps0_writes (by decide)).trans (rfl))))))))))))))
theorem arg22_at14 (c : Dev nD) : W14 m ρ c (Proc.devRef .tc main_arg22) = m ((c : Thread nD τ).loc main_arg22) :=
  (W14_of_ne m ρ c main_arg22 (by decide)).trans ((StableHlo.after_of_writes_sub hostOps6 _ hostOps6_writes (by decide)).trans ((W12_of_ne m ρ c main_arg22 (by decide)).trans ((StableHlo.after_of_writes_sub hostOps5 _ hostOps5_writes (by decide)).trans ((W10_of_ne m ρ c main_arg22 (by decide)).trans ((StableHlo.after_of_writes_sub hostOps4 _ hostOps4_writes (by decide)).trans ((W8_of_ne m ρ c main_arg22 (by decide)).trans ((StableHlo.after_of_writes_sub hostOps3 _ hostOps3_writes (by decide)).trans ((W6_of_ne m ρ c main_arg22 (by decide)).trans ((StableHlo.after_of_writes_sub hostOps2 _ hostOps2_writes (by decide)).trans ((W4_of_ne m ρ c main_arg22 (by decide)).trans ((StableHlo.after_of_writes_sub hostOps1 _ hostOps1_writes (by decide)).trans ((W2_of_ne m ρ c main_arg22 (by decide)).trans ((StableHlo.after_of_writes_sub hostOps0 _ hostOps0_writes (by decide)).trans (rfl))))))))))))))
theorem v79_0_at15 (c : Dev nD) : W15 m ρ c (Proc.devRef .tc main_v79_0) = v79_0 m ρ c :=
  (StableHlo.after_of_writes_sub hostOps7 _ hostOps7_writes (by decide)).trans (rfl)
theorem v80_at15 (c : Dev nD) : W15 m ρ c (Proc.devRef .tc main_v80) = v80 m ρ c :=
  rfl
theorem v81_at15 (c : Dev nD) : W15 m ρ c (Proc.devRef .tc main_v81) = v81 m ρ c :=
  rfl
theorem v82_at15 (c : Dev nD) : W15 m ρ c (Proc.devRef .tc main_v82) = v82 m ρ c :=
  rfl
theorem v83_at15 (c : Dev nD) : W15 m ρ c (Proc.devRef .tc main_v83) = v83 m ρ c :=
  rfl
theorem v3_at16 (c : Dev nD) : W16 m ρ c (Proc.devRef .tc main_v3) = v3 m ρ c :=
  (W16_of_ne m ρ c main_v3 (by decide)).trans ((StableHlo.after_of_writes_sub hostOps7 _ hostOps7_writes (by decide)).trans ((W14_of_ne m ρ c main_v3 (by decide)).trans ((StableHlo.after_of_writes_sub hostOps6 _ hostOps6_writes (by decide)).trans ((W12_of_ne m ρ c main_v3 (by decide)).trans ((StableHlo.after_of_writes_sub hostOps5 _ hostOps5_writes (by decide)).trans ((W10_of_ne m ρ c main_v3 (by decide)).trans ((StableHlo.after_of_writes_sub hostOps4 _ hostOps4_writes (by decide)).trans ((W8_of_ne m ρ c main_v3 (by decide)).trans ((StableHlo.after_of_writes_sub hostOps3 _ hostOps3_writes (by decide)).trans ((W6_of_ne m ρ c main_v3 (by decide)).trans ((StableHlo.after_of_writes_sub hostOps2 _ hostOps2_writes (by decide)).trans (v3_at4 m ρ c))))))))))))
theorem arg0_at16 (c : Dev nD) : W16 m ρ c (Proc.devRef .tc main_arg0) = m ((c : Thread nD τ).loc main_arg0) :=
  (W16_of_ne m ρ c main_arg0 (by decide)).trans ((StableHlo.after_of_writes_sub hostOps7 _ hostOps7_writes (by decide)).trans ((W14_of_ne m ρ c main_arg0 (by decide)).trans ((StableHlo.after_of_writes_sub hostOps6 _ hostOps6_writes (by decide)).trans ((W12_of_ne m ρ c main_arg0 (by decide)).trans ((StableHlo.after_of_writes_sub hostOps5 _ hostOps5_writes (by decide)).trans (((W10_arr m ρ c 1).trans (((dat4 (V9 m ρ) c).arrAt_in 1 rfl _).trans (A_eq4 (V9 m ρ) c 1))).trans (arg0_at9 m ρ c)))))))
theorem v1_at16 (c : Dev nD) : W16 m ρ c (Proc.devRef .tc main_v1) = v1 m ρ c :=
  (W16_of_ne m ρ c main_v1 (by decide)).trans ((StableHlo.after_of_writes_sub hostOps7 _ hostOps7_writes (by decide)).trans ((W14_of_ne m ρ c main_v1 (by decide)).trans ((StableHlo.after_of_writes_sub hostOps6 _ hostOps6_writes (by decide)).trans ((W12_of_ne m ρ c main_v1 (by decide)).trans ((StableHlo.after_of_writes_sub hostOps5 _ hostOps5_writes (by decide)).trans ((W10_of_ne m ρ c main_v1 (by decide)).trans ((StableHlo.after_of_writes_sub hostOps4 _ hostOps4_writes (by decide)).trans ((W8_of_ne m ρ c main_v1 (by decide)).trans ((StableHlo.after_of_writes_sub hostOps3 _ hostOps3_writes (by decide)).trans ((W6_of_ne m ρ c main_v1 (by decide)).trans ((StableHlo.after_of_writes_sub hostOps2 _ hostOps2_writes (by decide)).trans ((W4_of_ne m ρ c main_v1 (by decide)).trans ((StableHlo.after_of_writes_sub hostOps1 _ hostOps1_writes (by decide)).trans (v1_at2 m ρ c))))))))))))))
theorem v5_at16 (c : Dev nD) : W16 m ρ c (Proc.devRef .tc main_v5) = v5 m ρ c :=
  (W16_of_ne m ρ c main_v5 (by decide)).trans ((StableHlo.after_of_writes_sub hostOps7 _ hostOps7_writes (by decide)).trans ((W14_of_ne m ρ c main_v5 (by decide)).trans ((StableHlo.after_of_writes_sub hostOps6 _ hostOps6_writes (by decide)).trans ((W12_of_ne m ρ c main_v5 (by decide)).trans ((StableHlo.after_of_writes_sub hostOps5 _ hostOps5_writes (by decide)).trans (((W10_arr m ρ c 0).trans (((dat4 (V9 m ρ) c).arrAt_in 0 rfl _).trans (A_eq4 (V9 m ρ) c 0))).trans (v5_at9 m ρ c)))))))
theorem arg11_at16 (c : Dev nD) : W16 m ρ c (Proc.devRef .tc main_arg11) = m ((c : Thread nD τ).loc main_arg11) :=
  (W16_of_ne m ρ c main_arg11 (by decide)).trans ((StableHlo.after_of_writes_sub hostOps7 _ hostOps7_writes (by decide)).trans ((W14_of_ne m ρ c main_arg11 (by decide)).trans ((StableHlo.after_of_writes_sub hostOps6 _ hostOps6_writes (by decide)).trans ((W12_of_ne m ρ c main_arg11 (by decide)).trans ((StableHlo.after_of_writes_sub hostOps5 _ hostOps5_writes (by decide)).trans ((W10_of_ne m ρ c main_arg11 (by decide)).trans ((StableHlo.after_of_writes_sub hostOps4 _ hostOps4_writes (by decide)).trans (arg11_at8 m ρ c))))))))
theorem arg12_at16 (c : Dev nD) : W16 m ρ c (Proc.devRef .tc main_arg12) = m ((c : Thread nD τ).loc main_arg12) :=
  (W16_of_ne m ρ c main_arg12 (by decide)).trans ((StableHlo.after_of_writes_sub hostOps7 _ hostOps7_writes (by decide)).trans ((W14_of_ne m ρ c main_arg12 (by decide)).trans ((StableHlo.after_of_writes_sub hostOps6 _ hostOps6_writes (by decide)).trans ((W12_of_ne m ρ c main_arg12 (by decide)).trans ((StableHlo.after_of_writes_sub hostOps5 _ hostOps5_writes (by decide)).trans ((W10_of_ne m ρ c main_arg12 (by decide)).trans ((StableHlo.after_of_writes_sub hostOps4 _ hostOps4_writes (by decide)).trans (arg12_at8 m ρ c))))))))
theorem arg13_at16 (c : Dev nD) : W16 m ρ c (Proc.devRef .tc main_arg13) = m ((c : Thread nD τ).loc main_arg13) :=
  (W16_of_ne m ρ c main_arg13 (by decide)).trans ((StableHlo.after_of_writes_sub hostOps7 _ hostOps7_writes (by decide)).trans ((W14_of_ne m ρ c main_arg13 (by decide)).trans ((StableHlo.after_of_writes_sub hostOps6 _ hostOps6_writes (by decide)).trans ((W12_of_ne m ρ c main_arg13 (by decide)).trans ((StableHlo.after_of_writes_sub hostOps5 _ hostOps5_writes (by decide)).trans ((W10_of_ne m ρ c main_arg13 (by decide)).trans ((StableHlo.after_of_writes_sub hostOps4 _ hostOps4_writes (by decide)).trans (arg13_at8 m ρ c))))))))
theorem arg14_at16 (c : Dev nD) : W16 m ρ c (Proc.devRef .tc main_arg14) = m ((c : Thread nD τ).loc main_arg14) :=
  (W16_of_ne m ρ c main_arg14 (by decide)).trans ((StableHlo.after_of_writes_sub hostOps7 _ hostOps7_writes (by decide)).trans ((W14_of_ne m ρ c main_arg14 (by decide)).trans ((StableHlo.after_of_writes_sub hostOps6 _ hostOps6_writes (by decide)).trans ((W12_of_ne m ρ c main_arg14 (by decide)).trans ((StableHlo.after_of_writes_sub hostOps5 _ hostOps5_writes (by decide)).trans ((W10_of_ne m ρ c main_arg14 (by decide)).trans ((StableHlo.after_of_writes_sub hostOps4 _ hostOps4_writes (by decide)).trans (arg14_at8 m ρ c))))))))
theorem arg15_at16 (c : Dev nD) : W16 m ρ c (Proc.devRef .tc main_arg15) = m ((c : Thread nD τ).loc main_arg15) :=
  (W16_of_ne m ρ c main_arg15 (by decide)).trans ((StableHlo.after_of_writes_sub hostOps7 _ hostOps7_writes (by decide)).trans ((W14_of_ne m ρ c main_arg15 (by decide)).trans ((StableHlo.after_of_writes_sub hostOps6 _ hostOps6_writes (by decide)).trans ((W12_of_ne m ρ c main_arg15 (by decide)).trans ((StableHlo.after_of_writes_sub hostOps5 _ hostOps5_writes (by decide)).trans ((W10_of_ne m ρ c main_arg15 (by decide)).trans ((StableHlo.after_of_writes_sub hostOps4 _ hostOps4_writes (by decide)).trans (arg15_at8 m ρ c))))))))
theorem arg16_at16 (c : Dev nD) : W16 m ρ c (Proc.devRef .tc main_arg16) = m ((c : Thread nD τ).loc main_arg16) :=
  (W16_of_ne m ρ c main_arg16 (by decide)).trans ((StableHlo.after_of_writes_sub hostOps7 _ hostOps7_writes (by decide)).trans ((W14_of_ne m ρ c main_arg16 (by decide)).trans ((StableHlo.after_of_writes_sub hostOps6 _ hostOps6_writes (by decide)).trans ((W12_of_ne m ρ c main_arg16 (by decide)).trans ((StableHlo.after_of_writes_sub hostOps5 _ hostOps5_writes (by decide)).trans ((W10_of_ne m ρ c main_arg16 (by decide)).trans ((StableHlo.after_of_writes_sub hostOps4 _ hostOps4_writes (by decide)).trans (arg16_at8 m ρ c))))))))
theorem v91_at17 (c : Dev nD) : W17 m ρ c (Proc.devRef .tc main_v91) = v91 m ρ c :=
  rfl
theorem v12_at17 (c : Dev nD) : W17 m ρ c (Proc.devRef .tc main_v12) = v12 m ρ c :=
  (StableHlo.after_of_writes_sub hostOps8 _ hostOps8_writes (by decide)).trans ((W16_of_ne m ρ c main_v12 (by decide)).trans ((StableHlo.after_of_writes_sub hostOps7 _ hostOps7_writes (by decide)).trans ((W14_of_ne m ρ c main_v12 (by decide)).trans ((StableHlo.after_of_writes_sub hostOps6 _ hostOps6_writes (by decide)).trans ((W12_of_ne m ρ c main_v12 (by decide)).trans ((StableHlo.after_of_writes_sub hostOps5 _ hostOps5_writes (by decide)).trans ((W10_of_ne m ρ c main_v12 (by decide)).trans ((StableHlo.after_of_writes_sub hostOps4 _ hostOps4_writes (by decide)).trans ((W8_of_ne m ρ c main_v12 (by decide)).trans ((StableHlo.after_of_writes_sub hostOps3 _ hostOps3_writes (by decide)).trans ((W6_of_ne m ρ c main_v12 (by decide)).trans ((StableHlo.after_of_writes_sub hostOps2 _ hostOps2_writes (by decide)).trans (((W4_arr m ρ c 0).trans (((dat1 (V3 m ρ) c).arrAt_in 0 rfl _).trans (A_eq1 (V3 m ρ) c 0))).trans (v12_at3 m ρ c))))))))))))))
theorem arg1_at17 (c : Dev nD) : W17 m ρ c (Proc.devRef .tc main_arg1) = m ((c : Thread nD τ).loc main_arg1) :=
  (StableHlo.after_of_writes_sub hostOps8 _ hostOps8_writes (by decide)).trans ((W16_of_ne m ρ c main_arg1 (by decide)).trans ((StableHlo.after_of_writes_sub hostOps7 _ hostOps7_writes (by decide)).trans ((W14_of_ne m ρ c main_arg1 (by decide)).trans ((StableHlo.after_of_writes_sub hostOps6 _ hostOps6_writes (by decide)).trans ((W12_of_ne m ρ c main_arg1 (by decide)).trans ((StableHlo.after_of_writes_sub hostOps5 _ hostOps5_writes (by decide)).trans ((W10_of_ne m ρ c main_arg1 (by decide)).trans ((StableHlo.after_of_writes_sub hostOps4 _ hostOps4_writes (by decide)).trans ((W8_of_ne m ρ c main_arg1 (by decide)).trans ((StableHlo.after_of_writes_sub hostOps3 _ hostOps3_writes (by decide)).trans ((W6_of_ne m ρ c main_arg1 (by decide)).trans ((StableHlo.after_of_writes_sub hostOps2 _ hostOps2_writes (by decide)).trans (((W4_arr m ρ c 1).trans (((dat1 (V3 m ρ) c).arrAt_in 1 rfl _).trans (A_eq1 (V3 m ρ) c 1))).trans (arg1_at3 m ρ c))))))))))))))
theorem v107_at17 (c : Dev nD) : W17 m ρ c (Proc.devRef .tc main_v107) = v107 m ρ c :=
  rfl
theorem v118_at17 (c : Dev nD) : W17 m ρ c (Proc.devRef .tc main_v118) = v118 m ρ c :=
  rfl
theorem v119_1_at18 (c : Dev nD) : W18 m ρ c (Proc.devRef .tc main_v119_1) = v119_1 m ρ c :=
  rfl
theorem v119_2_at18 (c : Dev nD) : W18 m ρ c (Proc.devRef .tc main_v119_2) = v119_2 m ρ c :=
  rfl
theorem v117_at18 (c : Dev nD) : W18 m ρ c (Proc.devRef .tc main_v117) = v117 m ρ c :=
  (W18_of_ne m ρ c main_v117 (by decide)).trans (rfl)
theorem v111_at18 (c : Dev nD) : W18 m ρ c (Proc.devRef .tc main_v111) = v111 m ρ c :=
  (W18_of_ne m ρ c main_v111 (by decide)).trans (rfl)
theorem v113_at18 (c : Dev nD) : W18 m ρ c (Proc.devRef .tc main_v113) = v113 m ρ c :=
  (W18_of_ne m ρ c main_v113 (by decide)).trans (rfl)
theorem v119_0_at19 (c : Dev nD) : W19 m ρ c (Proc.devRef .tc main_v119_0) = v119_0 m ρ c :=
  (StableHlo.after_of_writes_sub hostOps9 _ hostOps9_writes (by decide)).trans (rfl)
theorem v115_at19 (c : Dev nD) : W19 m ρ c (Proc.devRef .tc main_v115) = v115 m ρ c :=
  (StableHlo.after_of_writes_sub hostOps9 _ hostOps9_writes (by decide)).trans ((W18_of_ne m ρ c main_v115 (by decide)).trans (rfl))
theorem v120_at19 (c : Dev nD) : W19 m ρ c (Proc.devRef .tc main_v120) = v120 m ρ c :=
  rfl
theorem v121_at19 (c : Dev nD) : W19 m ρ c (Proc.devRef .tc main_v121) = v121 m ρ c :=
  rfl
theorem v123_at19 (c : Dev nD) : W19 m ρ c (Proc.devRef .tc main_v123) = v123 m ρ c :=
  rfl
theorem v124_at19 (c : Dev nD) : W19 m ρ c (Proc.devRef .tc main_v124) = v124 m ρ c :=
  rfl
theorem v122_at19 (c : Dev nD) : W19 m ρ c (Proc.devRef .tc main_v122) = v122 m ρ c :=
  rfl
theorem v125_1_at20 (c : Dev nD) : W20 m ρ c (Proc.devRef .tc main_v125_1) = v125_1 m ρ c :=
  rfl
theorem v125_2_at20 (c : Dev nD) : W20 m ρ c (Proc.devRef .tc main_v125_2) = v125_2 m ρ c :=
  rfl
theorem arg11_at20 (c : Dev nD) : W20 m ρ c (Proc.devRef .tc main_arg11) = m ((c : Thread nD τ).loc main_arg11) :=
  (W20_of_ne m ρ c main_arg11 (by decide)).trans ((StableHlo.after_of_writes_sub hostOps9 _ hostOps9_writes (by decide)).trans ((W18_of_ne m ρ c main_arg11 (by decide)).trans ((StableHlo.after_of_writes_sub hostOps8 _ hostOps8_writes (by decide)).trans (arg11_at16 m ρ c))))
theorem arg12_at20 (c : Dev nD) : W20 m ρ c (Proc.devRef .tc main_arg12) = m ((c : Thread nD τ).loc main_arg12) :=
  (W20_of_ne m ρ c main_arg12 (by decide)).trans ((StableHlo.after_of_writes_sub hostOps9 _ hostOps9_writes (by decide)).trans ((W18_of_ne m ρ c main_arg12 (by decide)).trans ((StableHlo.after_of_writes_sub hostOps8 _ hostOps8_writes (by decide)).trans (arg12_at16 m ρ c))))
theorem arg13_at20 (c : Dev nD) : W20 m ρ c (Proc.devRef .tc main_arg13) = m ((c : Thread nD τ).loc main_arg13) :=
  (W20_of_ne m ρ c main_arg13 (by decide)).trans ((StableHlo.after_of_writes_sub hostOps9 _ hostOps9_writes (by decide)).trans ((W18_of_ne m ρ c main_arg13 (by decide)).trans ((StableHlo.after_of_writes_sub hostOps8 _ hostOps8_writes (by decide)).trans (arg13_at16 m ρ c))))
theorem arg14_at20 (c : Dev nD) : W20 m ρ c (Proc.devRef .tc main_arg14) = m ((c : Thread nD τ).loc main_arg14) :=
  (W20_of_ne m ρ c main_arg14 (by decide)).trans ((StableHlo.after_of_writes_sub hostOps9 _ hostOps9_writes (by decide)).trans ((W18_of_ne m ρ c main_arg14 (by decide)).trans ((StableHlo.after_of_writes_sub hostOps8 _ hostOps8_writes (by decide)).trans (arg14_at16 m ρ c))))
theorem arg15_at20 (c : Dev nD) : W20 m ρ c (Proc.devRef .tc main_arg15) = m ((c : Thread nD τ).loc main_arg15) :=
  (W20_of_ne m ρ c main_arg15 (by decide)).trans ((StableHlo.after_of_writes_sub hostOps9 _ hostOps9_writes (by decide)).trans ((W18_of_ne m ρ c main_arg15 (by decide)).trans ((StableHlo.after_of_writes_sub hostOps8 _ hostOps8_writes (by decide)).trans (arg15_at16 m ρ c))))
theorem arg16_at20 (c : Dev nD) : W20 m ρ c (Proc.devRef .tc main_arg16) = m ((c : Thread nD τ).loc main_arg16) :=
  (W20_of_ne m ρ c main_arg16 (by decide)).trans ((StableHlo.after_of_writes_sub hostOps9 _ hostOps9_writes (by decide)).trans ((W18_of_ne m ρ c main_arg16 (by decide)).trans ((StableHlo.after_of_writes_sub hostOps8 _ hostOps8_writes (by decide)).trans (arg16_at16 m ρ c))))
theorem v105_at21 (c : Dev nD) : W21 m ρ c (Proc.devRef .tc main_v105) = v105 m ρ c :=
  (StableHlo.after_of_writes_sub hostOps10 _ hostOps10_writes (by decide)).trans ((W20_of_ne m ρ c main_v105 (by decide)).trans ((StableHlo.after_of_writes_sub hostOps9 _ hostOps9_writes (by decide)).trans ((W18_of_ne m ρ c main_v105 (by decide)).trans (rfl))))
theorem v98_at21 (c : Dev nD) : W21 m ρ c (Proc.devRef .tc main_v98) = v98 m ρ c :=
  (StableHlo.after_of_writes_sub hostOps10 _ hostOps10_writes (by decide)).trans ((W20_of_ne m ρ c main_v98 (by decide)).trans ((StableHlo.after_of_writes_sub hostOps9 _ hostOps9_writes (by decide)).trans ((W18_of_ne m ρ c main_v98 (by decide)).trans (rfl))))
theorem arg1_at21 (c : Dev nD) : W21 m ρ c (Proc.devRef .tc main_arg1) = m ((c : Thread nD τ).loc main_arg1) :=
  (StableHlo.after_of_writes_sub hostOps10 _ hostOps10_writes (by decide)).trans ((W20_of_ne m ρ c main_arg1 (by decide)).trans ((StableHlo.after_of_writes_sub hostOps9 _ hostOps9_writes (by decide)).trans (((W18_arr m ρ c 2).trans (((dat8 (V17 m ρ) c).arrAt_in 2 rfl _).trans (A_eq8 (V17 m ρ) c 2))).trans (arg1_at17 m ρ c))))
theorem v129_at21 (c : Dev nD) : W21 m ρ c (Proc.devRef .tc main_v129) = v129 m ρ c :=
  rfl
theorem v140_at21 (c : Dev nD) : W21 m ρ c (Proc.devRef .tc main_v140) = v140 m ρ c :=
  rfl
theorem v141_1_at22 (c : Dev nD) : W22 m ρ c (Proc.devRef .tc main_v141_1) = v141_1 m ρ c :=
  rfl
theorem v141_2_at22 (c : Dev nD) : W22 m ρ c (Proc.devRef .tc main_v141_2) = v141_2 m ρ c :=
  rfl
theorem v139_at22 (c : Dev nD) : W22 m ρ c (Proc.devRef .tc main_v139) = v139 m ρ c :=
  (W22_of_ne m ρ c main_v139 (by decide)).trans (rfl)
theorem v133_at22 (c : Dev nD) : W22 m ρ c (Proc.devRef .tc main_v133) = v133 m ρ c :=
  (W22_of_ne m ρ c main_v133 (by decide)).trans (rfl)
theorem v135_at22 (c : Dev nD) : W22 m ρ c (Proc.devRef .tc main_v135) = v135 m ρ c :=
  (W22_of_ne m ρ c main_v135 (by decide)).trans (rfl)
theorem v141_0_at23 (c : Dev nD) : W23 m ρ c (Proc.devRef .tc main_v141_0) = v141_0 m ρ c :=
  (StableHlo.after_of_writes_sub hostOps11 _ hostOps11_writes (by decide)).trans (rfl)
theorem v137_at23 (c : Dev nD) : W23 m ρ c (Proc.devRef .tc main_v137) = v137 m ρ c :=
  (StableHlo.after_of_writes_sub hostOps11 _ hostOps11_writes (by decide)).trans ((W22_of_ne m ρ c main_v137 (by decide)).trans (rfl))
theorem v142_at23 (c : Dev nD) : W23 m ρ c (Proc.devRef .tc main_v142) = v142 m ρ c :=
  rfl
theorem v143_at23 (c : Dev nD) : W23 m ρ c (Proc.devRef .tc main_v143) = v143 m ρ c :=
  rfl
theorem v145_at23 (c : Dev nD) : W23 m ρ c (Proc.devRef .tc main_v145) = v145 m ρ c :=
  rfl
theorem v146_at23 (c : Dev nD) : W23 m ρ c (Proc.devRef .tc main_v146) = v146 m ρ c :=
  rfl
theorem v144_at23 (c : Dev nD) : W23 m ρ c (Proc.devRef .tc main_v144) = v144 m ρ c :=
  rfl
theorem v147_1_at24 (c : Dev nD) : W24 m ρ c (Proc.devRef .tc main_v147_1) = v147_1 m ρ c :=
  rfl
theorem v147_2_at24 (c : Dev nD) : W24 m ρ c (Proc.devRef .tc main_v147_2) = v147_2 m ρ c :=
  rfl
theorem arg23_at24 (c : Dev nD) : W24 m ρ c (Proc.devRef .tc main_arg23) = m ((c : Thread nD τ).loc main_arg23) :=
  (W24_of_ne m ρ c main_arg23 (by decide)).trans ((StableHlo.after_of_writes_sub hostOps11 _ hostOps11_writes (by decide)).trans ((W22_of_ne m ρ c main_arg23 (by decide)).trans ((StableHlo.after_of_writes_sub hostOps10 _ hostOps10_writes (by decide)).trans ((W20_of_ne m ρ c main_arg23 (by decide)).trans ((StableHlo.after_of_writes_sub hostOps9 _ hostOps9_writes (by decide)).trans ((W18_of_ne m ρ c main_arg23 (by decide)).trans ((StableHlo.after_of_writes_sub hostOps8 _ hostOps8_writes (by decide)).trans ((W16_of_ne m ρ c main_arg23 (by decide)).trans ((StableHlo.after_of_writes_sub hostOps7 _ hostOps7_writes (by decide)).trans ((W14_of_ne m ρ c main_arg23 (by decide)).trans ((StableHlo.after_of_writes_sub hostOps6 _ hostOps6_writes (by decide)).trans ((W12_of_ne m ρ c main_arg23 (by decide)).trans ((StableHlo.after_of_writes_sub hostOps5 _ hostOps5_writes (by decide)).trans ((W10_of_ne m ρ c main_arg23 (by decide)).trans ((StableHlo.after_of_writes_sub hostOps4 _ hostOps4_writes (by decide)).trans ((W8_of_ne m ρ c main_arg23 (by decide)).trans ((StableHlo.after_of_writes_sub hostOps3 _ hostOps3_writes (by decide)).trans ((W6_of_ne m ρ c main_arg23 (by decide)).trans ((StableHlo.after_of_writes_sub hostOps2 _ hostOps2_writes (by decide)).trans ((W4_of_ne m ρ c main_arg23 (by decide)).trans ((StableHlo.after_of_writes_sub hostOps1 _ hostOps1_writes (by decide)).trans ((W2_of_ne m ρ c main_arg23 (by decide)).trans ((StableHlo.after_of_writes_sub hostOps0 _ hostOps0_writes (by decide)).trans (rfl))))))))))))))))))))))))
theorem arg17_at24 (c : Dev nD) : W24 m ρ c (Proc.devRef .tc main_arg17) = m ((c : Thread nD τ).loc main_arg17) :=
  (W24_of_ne m ρ c main_arg17 (by decide)).trans ((StableHlo.after_of_writes_sub hostOps11 _ hostOps11_writes (by decide)).trans ((W22_of_ne m ρ c main_arg17 (by decide)).trans ((StableHlo.after_of_writes_sub hostOps10 _ hostOps10_writes (by decide)).trans ((W20_of_ne m ρ c main_arg17 (by decide)).trans ((StableHlo.after_of_writes_sub hostOps9 _ hostOps9_writes (by decide)).trans ((W18_of_ne m ρ c main_arg17 (by decide)).trans ((StableHlo.after_of_writes_sub hostOps8 _ hostOps8_writes (by decide)).trans ((W16_of_ne m ρ c main_arg17 (by decide)).trans ((StableHlo.after_of_writes_sub hostOps7 _ hostOps7_writes (by decide)).trans ((W14_of_ne m ρ c main_arg17 (by decide)).trans ((StableHlo.after_of_writes_sub hostOps6 _ hostOps6_writes (by decide)).trans (arg17_at12 m ρ c))))))))))))
theorem arg18_at24 (c : Dev nD) : W24 m ρ c (Proc.devRef .tc main_arg18) = m ((c : Thread nD τ).loc main_arg18) :=
  (W24_of_ne m ρ c main_arg18 (by decide)).trans ((StableHlo.after_of_writes_sub hostOps11 _ hostOps11_writes (by decide)).trans ((W22_of_ne m ρ c main_arg18 (by decide)).trans ((StableHlo.after_of_writes_sub hostOps10 _ hostOps10_writes (by decide)).trans ((W20_of_ne m ρ c main_arg18 (by decide)).trans ((StableHlo.after_of_writes_sub hostOps9 _ hostOps9_writes (by decide)).trans ((W18_of_ne m ρ c main_arg18 (by decide)).trans ((StableHlo.after_of_writes_sub hostOps8 _ hostOps8_writes (by decide)).trans ((W16_of_ne m ρ c main_arg18 (by decide)).trans ((StableHlo.after_of_writes_sub hostOps7 _ hostOps7_writes (by decide)).trans ((W14_of_ne m ρ c main_arg18 (by decide)).trans ((StableHlo.after_of_writes_sub hostOps6 _ hostOps6_writes (by decide)).trans (arg18_at12 m ρ c))))))))))))
theorem arg24_at24 (c : Dev nD) : W24 m ρ c (Proc.devRef .tc main_arg24) = m ((c : Thread nD τ).loc main_arg24) :=
  (W24_of_ne m ρ c main_arg24 (by decide)).trans ((StableHlo.after_of_writes_sub hostOps11 _ hostOps11_writes (by decide)).trans ((W22_of_ne m ρ c main_arg24 (by decide)).trans ((StableHlo.after_of_writes_sub hostOps10 _ hostOps10_writes (by decide)).trans ((W20_of_ne m ρ c main_arg24 (by decide)).trans ((StableHlo.after_of_writes_sub hostOps9 _ hostOps9_writes (by decide)).trans ((W18_of_ne m ρ c main_arg24 (by decide)).trans ((StableHlo.after_of_writes_sub hostOps8 _ hostOps8_writes (by decide)).trans ((W16_of_ne m ρ c main_arg24 (by decide)).trans ((StableHlo.after_of_writes_sub hostOps7 _ hostOps7_writes (by decide)).trans ((W14_of_ne m ρ c main_arg24 (by decide)).trans ((StableHlo.after_of_writes_sub hostOps6 _ hostOps6_writes (by decide)).trans ((W12_of_ne m ρ c main_arg24 (by decide)).trans ((StableHlo.after_of_writes_sub hostOps5 _ hostOps5_writes (by decide)).trans ((W10_of_ne m ρ c main_arg24 (by decide)).trans ((StableHlo.after_of_writes_sub hostOps4 _ hostOps4_writes (by decide)).trans ((W8_of_ne m ρ c main_arg24 (by decide)).trans ((StableHlo.after_of_writes_sub hostOps3 _ hostOps3_writes (by decide)).trans ((W6_of_ne m ρ c main_arg24 (by decide)).trans ((StableHlo.after_of_writes_sub hostOps2 _ hostOps2_writes (by decide)).trans ((W4_of_ne m ρ c main_arg24 (by decide)).trans ((StableHlo.after_of_writes_sub hostOps1 _ hostOps1_writes (by decide)).trans ((W2_of_ne m ρ c main_arg24 (by decide)).trans ((StableHlo.after_of_writes_sub hostOps0 _ hostOps0_writes (by decide)).trans (rfl))))))))))))))))))))))))
theorem v125_0_at25 (c : Dev nD) : W25 m ρ c (Proc.devRef .tc main_v125_0) = v125_0 m ρ c :=
  (StableHlo.after_of_writes_sub hostOps12 _ hostOps12_writes (by decide)).trans ((W24_of_ne m ρ c main_v125_0 (by decide)).trans ((StableHlo.after_of_writes_sub hostOps11 _ hostOps11_writes (by decide)).trans ((W22_of_ne m ρ c main_v125_0 (by decide)).trans ((StableHlo.after_of_writes_sub hostOps10 _ hostOps10_writes (by decide)).trans (rfl)))))
theorem v150_at25 (c : Dev nD) : W25 m ρ c (Proc.devRef .tc main_v150) = v150 m ρ c :=
  rfl
theorem v126_at25 (c : Dev nD) : W25 m ρ c (Proc.devRef .tc main_v126) = v126 m ρ c :=
  (StableHlo.after_of_writes_sub hostOps12 _ hostOps12_writes (by decide)).trans ((W24_of_ne m ρ c main_v126 (by decide)).trans ((StableHlo.after_of_writes_sub hostOps11 _ hostOps11_writes (by decide)).trans ((W22_of_ne m ρ c main_v126 (by decide)).trans (rfl))))
theorem v127_at25 (c : Dev nD) : W25 m ρ c (Proc.devRef .tc main_v127) = v127 m ρ c :=
  (StableHlo.after_of_writes_sub hostOps12 _ hostOps12_writes (by decide)).trans ((W24_of_ne m ρ c main_v127 (by decide)).trans ((StableHlo.after_of_writes_sub hostOps11 _ hostOps11_writes (by decide)).trans ((W22_of_ne m ρ c main_v127 (by decide)).trans (rfl))))
theorem v161_at25 (c : Dev nD) : W25 m ρ c (Proc.devRef .tc main_v161) = v161 m ρ c :=
  rfl
theorem v162_at25 (c : Dev nD) : W25 m ρ c (Proc.devRef .tc main_v162) = v162 m ρ c :=
  rfl
theorem v147_0_at25 (c : Dev nD) : W25 m ρ c (Proc.devRef .tc main_v147_0) = v147_0 m ρ c :=
  (StableHlo.after_of_writes_sub hostOps12 _ hostOps12_writes (by decide)).trans (rfl)
theorem v155_at25 (c : Dev nD) : W25 m ρ c (Proc.devRef .tc main_v155) = v155 m ρ c :=
  rfl
theorem v148_at25 (c : Dev nD) : W25 m ρ c (Proc.devRef .tc main_v148) = v148 m ρ c :=
  rfl
theorem v149_at25 (c : Dev nD) : W25 m ρ c (Proc.devRef .tc main_v149) = v149 m ρ c :=
  rfl
theorem v163_at25 (c : Dev nD) : W25 m ρ c (Proc.devRef .tc main_v163) = v163 m ρ c :=
  rfl
theorem v164_at25 (c : Dev nD) : W25 m ρ c (Proc.devRef .tc main_v164) = v164 m ρ c :=
  rfl
theorem v160_at25 (c : Dev nD) : W25 m ρ c (Proc.devRef .tc main_v160) = v160 m ρ c :=
  rfl
theorem v165_1_at26 (c : Dev nD) : W26 m ρ c (Proc.devRef .tc main_v165_1) = v165_1 m ρ c :=
  rfl
theorem v165_2_at26 (c : Dev nD) : W26 m ρ c (Proc.devRef .tc main_v165_2) = v165_2 m ρ c :=
  rfl
theorem arg25_at26 (c : Dev nD) : W26 m ρ c (Proc.devRef .tc main_arg25) = m ((c : Thread nD τ).loc main_arg25) :=
  (W26_of_ne m ρ c main_arg25 (by decide)).trans ((StableHlo.after_of_writes_sub hostOps12 _ hostOps12_writes (by decide)).trans ((W24_of_ne m ρ c main_arg25 (by decide)).trans ((StableHlo.after_of_writes_sub hostOps11 _ hostOps11_writes (by decide)).trans ((W22_of_ne m ρ c main_arg25 (by decide)).trans ((StableHlo.after_of_writes_sub hostOps10 _ hostOps10_writes (by decide)).trans ((W20_of_ne m ρ c main_arg25 (by decide)).trans ((StableHlo.after_of_writes_sub hostOps9 _ hostOps9_writes (by decide)).trans ((W18_of_ne m ρ c main_arg25 (by decide)).trans ((StableHlo.after_of_writes_sub hostOps8 _ hostOps8_writes (by decide)).trans ((W16_of_ne m ρ c main_arg25 (by decide)).trans ((StableHlo.after_of_writes_sub hostOps7 _ hostOps7_writes (by decide)).trans ((W14_of_ne m ρ c main_arg25 (by decide)).trans ((StableHlo.after_of_writes_sub hostOps6 _ hostOps6_writes (by decide)).trans ((W12_of_ne m ρ c main_arg25 (by decide)).trans ((StableHlo.after_of_writes_sub hostOps5 _ hostOps5_writes (by decide)).trans ((W10_of_ne m ρ c main_arg25 (by decide)).trans ((StableHlo.after_of_writes_sub hostOps4 _ hostOps4_writes (by decide)).trans ((W8_of_ne m ρ c main_arg25 (by decide)).trans ((StableHlo.after_of_writes_sub hostOps3 _ hostOps3_writes (by decide)).trans ((W6_of_ne m ρ c main_arg25 (by decide)).trans ((StableHlo.after_of_writes_sub hostOps2 _ hostOps2_writes (by decide)).trans ((W4_of_ne m ρ c main_arg25 (by decide)).trans ((StableHlo.after_of_writes_sub hostOps1 _ hostOps1_writes (by decide)).trans ((W2_of_ne m ρ c main_arg25 (by decide)).trans ((StableHlo.after_of_writes_sub hostOps0 _ hostOps0_writes (by decide)).trans (rfl))))))))))))))))))))))))))
theorem arg26_at26 (c : Dev nD) : W26 m ρ c (Proc.devRef .tc main_arg26) = m ((c : Thread nD τ).loc main_arg26) :=
  (W26_of_ne m ρ c main_arg26 (by decide)).trans ((StableHlo.after_of_writes_sub hostOps12 _ hostOps12_writes (by decide)).trans ((W24_of_ne m ρ c main_arg26 (by decide)).trans ((StableHlo.after_of_writes_sub hostOps11 _ hostOps11_writes (by decide)).trans ((W22_of_ne m ρ c main_arg26 (by decide)).trans ((StableHlo.after_of_writes_sub hostOps10 _ hostOps10_writes (by decide)).trans ((W20_of_ne m ρ c main_arg26 (by decide)).trans ((StableHlo.after_of_writes_sub hostOps9 _ hostOps9_writes (by decide)).trans ((W18_of_ne m ρ c main_arg26 (by decide)).trans ((StableHlo.after_of_writes_sub hostOps8 _ hostOps8_writes (by decide)).trans ((W16_of_ne m ρ c main_arg26 (by decide)).trans ((StableHlo.after_of_writes_sub hostOps7 _ hostOps7_writes (by decide)).trans ((W14_of_ne m ρ c main_arg26 (by decide)).trans ((StableHlo.after_of_writes_sub hostOps6 _ hostOps6_writes (by decide)).trans ((W12_of_ne m ρ c main_arg26 (by decide)).trans ((StableHlo.after_of_writes_sub hostOps5 _ hostOps5_writes (by decide)).trans ((W10_of_ne m ρ c main_arg26 (by decide)).trans ((StableHlo.after_of_writes_sub hostOps4 _ hostOps4_writes (by decide)).trans ((W8_of_ne m ρ c main_arg26 (by decide)).trans ((StableHlo.after_of_writes_sub hostOps3 _ hostOps3_writes (by decide)).trans ((W6_of_ne m ρ c main_arg26 (by decide)).trans ((StableHlo.after_of_writes_sub hostOps2 _ hostOps2_writes (by decide)).trans ((W4_of_ne m ρ c main_arg26 (by decide)).trans ((StableHlo.after_of_writes_sub hostOps1 _ hostOps1_writes (by decide)).trans ((W2_of_ne m ρ c main_arg26 (by decide)).trans ((StableHlo.after_of_writes_sub hostOps0 _ hostOps0_writes (by decide)).trans (rfl))))))))))))))))))))))))))
theorem v165_0_at27 (c : Dev nD) : W27 m ρ c (Proc.devRef .tc main_v165_0) = v165_0 m ρ c :=
  (StableHlo.after_of_writes_sub hostOps13 _ hostOps13_writes (by decide)).trans (rfl)
theorem v166_at27 (c : Dev nD) : W27 m ρ c (Proc.devRef .tc main_v166) = v166 m ρ c :=
  rfl
theorem v167_at27 (c : Dev nD) : W27 m ρ c (Proc.devRef .tc main_v167) = v167 m ρ c :=
  rfl
theorem v168_at27 (c : Dev nD) : W27 m ρ c (Proc.devRef .tc main_v168) = v168 m ρ c :=
  rfl
theorem v169_at27 (c : Dev nD) : W27 m ρ c (Proc.devRef .tc main_v169) = v169 m ρ c :=
  rfl
theorem arg0_at28 (c : Dev nD) : W28 m ρ c (Proc.devRef .tc main_arg0) = m ((c : Thread nD τ).loc main_arg0) :=
  (W28_of_ne m ρ c main_arg0 (by decide)).trans ((StableHlo.after_of_writes_sub hostOps13 _ hostOps13_writes (by decide)).trans ((W26_of_ne m ρ c main_arg0 (by decide)).trans ((StableHlo.after_of_writes_sub hostOps12 _ hostOps12_writes (by decide)).trans ((W24_of_ne m ρ c main_arg0 (by decide)).trans ((StableHlo.after_of_writes_sub hostOps11 _ hostOps11_writes (by decide)).trans ((W22_of_ne m ρ c main_arg0 (by decide)).trans ((StableHlo.after_of_writes_sub hostOps10 _ hostOps10_writes (by decide)).trans ((W20_of_ne m ρ c main_arg0 (by decide)).trans ((StableHlo.after_of_writes_sub hostOps9 _ hostOps9_writes (by decide)).trans ((W18_of_ne m ρ c main_arg0 (by decide)).trans ((StableHlo.after_of_writes_sub hostOps8 _ hostOps8_writes (by decide)).trans (arg0_at16 m ρ c))))))))))))
theorem arg5_at29 (c : Dev nD) : W29 m ρ c (Proc.devRef .tc main_arg5) = m ((c : Thread nD τ).loc main_arg5) :=
  (StableHlo.after_of_writes_sub hostOps14 _ hostOps14_writes (by decide)).trans ((W28_of_ne m ρ c main_arg5 (by decide)).trans ((StableHlo.after_of_writes_sub hostOps13 _ hostOps13_writes (by decide)).trans ((W26_of_ne m ρ c main_arg5 (by decide)).trans ((StableHlo.after_of_writes_sub hostOps12 _ hostOps12_writes (by decide)).trans ((W24_of_ne m ρ c main_arg5 (by decide)).trans ((StableHlo.after_of_writes_sub hostOps11 _ hostOps11_writes (by decide)).trans ((W22_of_ne m ρ c main_arg5 (by decide)).trans ((StableHlo.after_of_writes_sub hostOps10 _ hostOps10_writes (by decide)).trans ((W20_of_ne m ρ c main_arg5 (by decide)).trans ((StableHlo.after_of_writes_sub hostOps9 _ hostOps9_writes (by decide)).trans ((W18_of_ne m ρ c main_arg5 (by decide)).trans ((StableHlo.after_of_writes_sub hostOps8 _ hostOps8_writes (by decide)).trans ((W16_of_ne m ρ c main_arg5 (by decide)).trans ((StableHlo.after_of_writes_sub hostOps7 _ hostOps7_writes (by decide)).trans ((W14_of_ne m ρ c main_arg5 (by decide)).trans ((StableHlo.after_of_writes_sub hostOps6 _ hostOps6_writes (by decide)).trans ((W12_of_ne m ρ c main_arg5 (by decide)).trans ((StableHlo.after_of_writes_sub hostOps5 _ hostOps5_writes (by decide)).trans ((W10_of_ne m ρ c main_arg5 (by decide)).trans ((StableHlo.after_of_writes_sub hostOps4 _ hostOps4_writes (by decide)).trans ((W8_of_ne m ρ c main_arg5 (by decide)).trans ((StableHlo.after_of_writes_sub hostOps3 _ hostOps3_writes (by decide)).trans ((W6_of_ne m ρ c main_arg5 (by decide)).trans ((StableHlo.after_of_writes_sub hostOps2 _ hostOps2_writes (by decide)).trans ((W4_of_ne m ρ c main_arg5 (by decide)).trans ((StableHlo.after_of_writes_sub hostOps1 _ hostOps1_writes (by decide)).trans ((W2_of_ne m ρ c main_arg5 (by decide)).trans ((StableHlo.after_of_writes_sub hostOps0 _ hostOps0_writes (by decide)).trans (rfl)))))))))))))))))))))))))))))
theorem arg3_at29 (c : Dev nD) : W29 m ρ c (Proc.devRef .tc main_arg3) = m ((c : Thread nD τ).loc main_arg3) :=
  (StableHlo.after_of_writes_sub hostOps14 _ hostOps14_writes (by decide)).trans ((W28_of_ne m ρ c main_arg3 (by decide)).trans ((StableHlo.after_of_writes_sub hostOps13 _ hostOps13_writes (by decide)).trans ((W26_of_ne m ρ c main_arg3 (by decide)).trans ((StableHlo.after_of_writes_sub hostOps12 _ hostOps12_writes (by decide)).trans ((W24_of_ne m ρ c main_arg3 (by decide)).trans ((StableHlo.after_of_writes_sub hostOps11 _ hostOps11_writes (by decide)).trans ((W22_of_ne m ρ c main_arg3 (by decide)).trans ((StableHlo.after_of_writes_sub hostOps10 _ hostOps10_writes (by decide)).trans ((W20_of_ne m ρ c main_arg3 (by decide)).trans ((StableHlo.after_of_writes_sub hostOps9 _ hostOps9_writes (by decide)).trans ((W18_of_ne m ρ c main_arg3 (by decide)).trans ((StableHlo.after_of_writes_sub hostOps8 _ hostOps8_writes (by decide)).trans ((W16_of_ne m ρ c main_arg3 (by decide)).trans ((StableHlo.after_of_writes_sub hostOps7 _ hostOps7_writes (by decide)).trans ((W14_of_ne m ρ c main_arg3 (by decide)).trans ((StableHlo.after_of_writes_sub hostOps6 _ hostOps6_writes (by decide)).trans ((W12_of_ne m ρ c main_arg3 (by decide)).trans ((StableHlo.after_of_writes_sub hostOps5 _ hostOps5_writes (by decide)).trans ((W10_of_ne m ρ c main_arg3 (by decide)).trans ((StableHlo.after_of_writes_sub hostOps4 _ hostOps4_writes (by decide)).trans ((W8_of_ne m ρ c main_arg3 (by decide)).trans ((StableHlo.after_of_writes_sub hostOps3 _ hostOps3_writes (by decide)).trans ((W6_of_ne m ρ c main_arg3 (by decide)).trans ((StableHlo.after_of_writes_sub hostOps2 _ hostOps2_writes (by decide)).trans ((W4_of_ne m ρ c main_arg3 (by decide)).trans ((StableHlo.after_of_writes_sub hostOps1 _ hostOps1_writes (by decide)).trans (((W2_arr m ρ c 1).trans (((dat0 (V1 m ρ) c).arrAt_in 1 rfl _).trans (A_eq0 (V1 m ρ) c 1))).trans (arg3_at1 m ρ c))))))))))))))))))))))))))))
theorem v172_at30 (c : Dev nD) : W30 m ρ c (Proc.devRef .tc main_v172) = v172 m ρ c :=
  rfl
theorem arg7_at31 (c : Dev nD) : W31 m ρ c (Proc.devRef .tc main_arg7) = m ((c : Thread nD τ).loc main_arg7) :=
  (StableHlo.after_of_writes_sub hostOps15 _ hostOps15_writes (by decide)).trans ((W30_of_ne m ρ c main_arg7 (by decide)).trans ((StableHlo.after_of_writes_sub hostOps14 _ hostOps14_writes (by decide)).trans ((W28_of_ne m ρ c main_arg7 (by decide)).trans ((StableHlo.after_of_writes_sub hostOps13 _ hostOps13_writes (by decide)).trans ((W26_of_ne m ρ c main_arg7 (by decide)).trans ((StableHlo.after_of_writes_sub hostOps12 _ hostOps12_writes (by decide)).trans ((W24_of_ne m ρ c main_arg7 (by decide)).trans ((StableHlo.after_of_writes_sub hostOps11 _ hostOps11_writes (by decide)).trans ((W22_of_ne m ρ c main_arg7 (by decide)).trans ((StableHlo.after_of_writes_sub hostOps10 _ hostOps10_writes (by decide)).trans ((W20_of_ne m ρ c main_arg7 (by decide)).trans ((StableHlo.after_of_writes_sub hostOps9 _ hostOps9_writes (by decide)).trans ((W18_of_ne m ρ c main_arg7 (by decide)).trans ((StableHlo.after_of_writes_sub hostOps8 _ hostOps8_writes (by decide)).trans ((W16_of_ne m ρ c main_arg7 (by decide)).trans ((StableHlo.after_of_writes_sub hostOps7 _ hostOps7_writes (by decide)).trans ((W14_of_ne m ρ c main_arg7 (by decide)).trans ((StableHlo.after_of_writes_sub hostOps6 _ hostOps6_writes (by decide)).trans ((W12_of_ne m ρ c main_arg7 (by decide)).trans ((StableHlo.after_of_writes_sub hostOps5 _ hostOps5_writes (by decide)).trans ((W10_of_ne m ρ c main_arg7 (by decide)).trans ((StableHlo.after_of_writes_sub hostOps4 _ hostOps4_writes (by decide)).trans ((W8_of_ne m ρ c main_arg7 (by decide)).trans ((StableHlo.after_of_writes_sub hostOps3 _ hostOps3_writes (by decide)).trans ((W6_of_ne m ρ c main_arg7 (by decide)).trans ((StableHlo.after_of_writes_sub hostOps2 _ hostOps2_writes (by decide)).trans ((W4_of_ne m ρ c main_arg7 (by decide)).trans ((StableHlo.after_of_writes_sub hostOps1 _ hostOps1_writes (by decide)).trans ((W2_of_ne m ρ c main_arg7 (by decide)).trans ((StableHlo.after_of_writes_sub hostOps0 _ hostOps0_writes (by decide)).trans (rfl)))))))))))))))))))))))))))))))
theorem arg4_at31 (c : Dev nD) : W31 m ρ c (Proc.devRef .tc main_arg4) = m ((c : Thread nD τ).loc main_arg4) :=
  (StableHlo.after_of_writes_sub hostOps15 _ hostOps15_writes (by decide)).trans ((W30_of_ne m ρ c main_arg4 (by decide)).trans ((StableHlo.after_of_writes_sub hostOps14 _ hostOps14_writes (by decide)).trans ((W28_of_ne m ρ c main_arg4 (by decide)).trans ((StableHlo.after_of_writes_sub hostOps13 _ hostOps13_writes (by decide)).trans ((W26_of_ne m ρ c main_arg4 (by decide)).trans ((StableHlo.after_of_writes_sub hostOps12 _ hostOps12_writes (by decide)).trans ((W24_of_ne m ρ c main_arg4 (by decide)).trans ((StableHlo.after_of_writes_sub hostOps11 _ hostOps11_writes (by decide)).trans ((W22_of_ne m ρ c main_arg4 (by decide)).trans ((StableHlo.after_of_writes_sub hostOps10 _ hostOps10_writes (by decide)).trans ((W20_of_ne m ρ c main_arg4 (by decide)).trans ((StableHlo.after_of_writes_sub hostOps9 _ hostOps9_writes (by decide)).trans ((W18_of_ne m ρ c main_arg4 (by decide)).trans ((StableHlo.after_of_writes_sub hostOps8 _ hostOps8_writes (by decide)).trans ((W16_of_ne m ρ c main_arg4 (by decide)).trans ((StableHlo.after_of_writes_sub hostOps7 _ hostOps7_writes (by decide)).trans ((W14_of_ne m ρ c main_arg4 (by decide)).trans ((StableHlo.after_of_writes_sub hostOps6 _ hostOps6_writes (by decide)).trans ((W12_of_ne m ρ c main_arg4 (by decide)).trans ((StableHlo.after_of_writes_sub hostOps5 _ hostOps5_writes (by decide)).trans ((W10_of_ne m ρ c main_arg4 (by decide)).trans ((StableHlo.after_of_writes_sub hostOps4 _ hostOps4_writes (by decide)).trans ((W8_of_ne m ρ c main_arg4 (by decide)).trans ((StableHlo.after_of_writes_sub hostOps3 _ hostOps3_writes (by decide)).trans ((W6_of_ne m ρ c main_arg4 (by decide)).trans ((StableHlo.after_of_writes_sub hostOps2 _ hostOps2_writes (by decide)).trans ((W4_of_ne m ρ c main_arg4 (by decide)).trans ((StableHlo.after_of_writes_sub hostOps1 _ hostOps1_writes (by decide)).trans ((W2_of_ne m ρ c main_arg4 (by decide)).trans ((StableHlo.after_of_writes_sub hostOps0 _ hostOps0_writes (by decide)).trans (rfl)))))))))))))))))))))))))))))))
theorem v174_at32 (c : Dev nD) : W32 m ρ c (Proc.devRef .tc main_v174) = v174 m ρ c :=
  rfl
theorem arg8_at33 (c : Dev nD) : W33 m ρ c (Proc.devRef .tc main_arg8) = m ((c : Thread nD τ).loc main_arg8) :=
  (StableHlo.after_of_writes_sub hostOps16 _ hostOps16_writes (by decide)).trans ((W32_of_ne m ρ c main_arg8 (by decide)).trans ((StableHlo.after_of_writes_sub hostOps15 _ hostOps15_writes (by decide)).trans ((W30_of_ne m ρ c main_arg8 (by decide)).trans ((StableHlo.after_of_writes_sub hostOps14 _ hostOps14_writes (by decide)).trans ((W28_of_ne m ρ c main_arg8 (by decide)).trans ((StableHlo.after_of_writes_sub hostOps13 _ hostOps13_writes (by decide)).trans ((W26_of_ne m ρ c main_arg8 (by decide)).trans ((StableHlo.after_of_writes_sub hostOps12 _ hostOps12_writes (by decide)).trans ((W24_of_ne m ρ c main_arg8 (by decide)).trans ((StableHlo.after_of_writes_sub hostOps11 _ hostOps11_writes (by decide)).trans ((W22_of_ne m ρ c main_arg8 (by decide)).trans ((StableHlo.after_of_writes_sub hostOps10 _ hostOps10_writes (by decide)).trans ((W20_of_ne m ρ c main_arg8 (by decide)).trans ((StableHlo.after_of_writes_sub hostOps9 _ hostOps9_writes (by decide)).trans ((W18_of_ne m ρ c main_arg8 (by decide)).trans ((StableHlo.after_of_writes_sub hostOps8 _ hostOps8_writes (by decide)).trans ((W16_of_ne m ρ c main_arg8 (by decide)).trans ((StableHlo.after_of_writes_sub hostOps7 _ hostOps7_writes (by decide)).trans ((W14_of_ne m ρ c main_arg8 (by decide)).trans ((StableHlo.after_of_writes_sub hostOps6 _ hostOps6_writes (by decide)).trans ((W12_of_ne m ρ c main_arg8 (by decide)).trans ((StableHlo.after_of_writes_sub hostOps5 _ hostOps5_writes (by decide)).trans ((W10_of_ne m ρ c main_arg8 (by decide)).trans ((StableHlo.after_of_writes_sub hostOps4 _ hostOps4_writes (by decide)).trans ((W8_of_ne m ρ c main_arg8 (by decide)).trans ((StableHlo.after_of_writes_sub hostOps3 _ hostOps3_writes (by decide)).trans ((W6_of_ne m ρ c main_arg8 (by decide)).trans ((StableHlo.after_of_writes_sub hostOps2 _ hostOps2_writes (by decide)).trans ((W4_of_ne m ρ c main_arg8 (by decide)).trans ((StableHlo.after_of_writes_sub hostOps1 _ hostOps1_writes (by decide)).trans ((W2_of_ne m ρ c main_arg8 (by decide)).trans ((StableHlo.after_of_writes_sub hostOps0 _ hostOps0_writes (by decide)).trans (rfl)))))))))))))))))))))))))))))))))
theorem v171_at33 (c : Dev nD) : W33 m ρ c (Proc.devRef .tc main_v171) = v171 m ρ c :=
  (StableHlo.after_of_writes_sub hostOps16 _ hostOps16_writes (by decide)).trans ((W32_of_ne m ρ c main_v171 (by decide)).trans ((StableHlo.after_of_writes_sub hostOps15 _ hostOps15_writes (by decide)).trans ((W30_of_ne m ρ c main_v171 (by decide)).trans (rfl))))
theorem v176_at34 (c : Dev nD) : W34 m ρ c (Proc.devRef .tc main_v176) = v176 m ρ c :=
  rfl
theorem arg3_at34 (c : Dev nD) : W34 m ρ c (Proc.devRef .tc main_arg3) = m ((c : Thread nD τ).loc main_arg3) :=
  (W34_of_ne m ρ c main_arg3 (by decide)).trans ((StableHlo.after_of_writes_sub hostOps16 _ hostOps16_writes (by decide)).trans ((W32_of_ne m ρ c main_arg3 (by decide)).trans ((StableHlo.after_of_writes_sub hostOps15 _ hostOps15_writes (by decide)).trans (((W30_arr m ρ c 1).trans (((dat14 (V29 m ρ) c).arrAt_in 1 rfl _).trans (A_eq14 (V29 m ρ) c 1))).trans (arg3_at29 m ρ c)))))
theorem arg11_at34 (c : Dev nD) : W34 m ρ c (Proc.devRef .tc main_arg11) = m ((c : Thread nD τ).loc main_arg11) :=
  (W34_of_ne m ρ c main_arg11 (by decide)).trans ((StableHlo.after_of_writes_sub hostOps16 _ hostOps16_writes (by decide)).trans ((W32_of_ne m ρ c main_arg11 (by decide)).trans ((StableHlo.after_of_writes_sub hostOps15 _ hostOps15_writes (by decide)).trans ((W30_of_ne m ρ c main_arg11 (by decide)).trans ((StableHlo.after_of_writes_sub hostOps14 _ hostOps14_writes (by decide)).trans ((W28_of_ne m ρ c main_arg11 (by decide)).trans ((StableHlo.after_of_writes_sub hostOps13 _ hostOps13_writes (by decide)).trans ((W26_of_ne m ρ c main_arg11 (by decide)).trans ((StableHlo.after_of_writes_sub hostOps12 _ hostOps12_writes (by decide)).trans ((W24_of_ne m ρ c main_arg11 (by decide)).trans ((StableHlo.after_of_writes_sub hostOps11 _ hostOps11_writes (by decide)).trans ((W22_of_ne m ρ c main_arg11 (by decide)).trans ((StableHlo.after_of_writes_sub hostOps10 _ hostOps10_writes (by decide)).trans (arg11_at20 m ρ c))))))))))))))
theorem arg12_at34 (c : Dev nD) : W34 m ρ c (Proc.devRef .tc main_arg12) = m ((c : Thread nD τ).loc main_arg12) :=
  (W34_of_ne m ρ c main_arg12 (by decide)).trans ((StableHlo.after_of_writes_sub hostOps16 _ hostOps16_writes (by decide)).trans ((W32_of_ne m ρ c main_arg12 (by decide)).trans ((StableHlo.after_of_writes_sub hostOps15 _ hostOps15_writes (by decide)).trans ((W30_of_ne m ρ c main_arg12 (by decide)).trans ((StableHlo.after_of_writes_sub hostOps14 _ hostOps14_writes (by decide)).trans ((W28_of_ne m ρ c main_arg12 (by decide)).trans ((StableHlo.after_of_writes_sub hostOps13 _ hostOps13_writes (by decide)).trans ((W26_of_ne m ρ c main_arg12 (by decide)).trans ((StableHlo.after_of_writes_sub hostOps12 _ hostOps12_writes (by decide)).trans ((W24_of_ne m ρ c main_arg12 (by decide)).trans ((StableHlo.after_of_writes_sub hostOps11 _ hostOps11_writes (by decide)).trans ((W22_of_ne m ρ c main_arg12 (by decide)).trans ((StableHlo.after_of_writes_sub hostOps10 _ hostOps10_writes (by decide)).trans (arg12_at20 m ρ c))))))))))))))
theorem arg13_at34 (c : Dev nD) : W34 m ρ c (Proc.devRef .tc main_arg13) = m ((c : Thread nD τ).loc main_arg13) :=
  (W34_of_ne m ρ c main_arg13 (by decide)).trans ((StableHlo.after_of_writes_sub hostOps16 _ hostOps16_writes (by decide)).trans ((W32_of_ne m ρ c main_arg13 (by decide)).trans ((StableHlo.after_of_writes_sub hostOps15 _ hostOps15_writes (by decide)).trans ((W30_of_ne m ρ c main_arg13 (by decide)).trans ((StableHlo.after_of_writes_sub hostOps14 _ hostOps14_writes (by decide)).trans ((W28_of_ne m ρ c main_arg13 (by decide)).trans ((StableHlo.after_of_writes_sub hostOps13 _ hostOps13_writes (by decide)).trans ((W26_of_ne m ρ c main_arg13 (by decide)).trans ((StableHlo.after_of_writes_sub hostOps12 _ hostOps12_writes (by decide)).trans ((W24_of_ne m ρ c main_arg13 (by decide)).trans ((StableHlo.after_of_writes_sub hostOps11 _ hostOps11_writes (by decide)).trans ((W22_of_ne m ρ c main_arg13 (by decide)).trans ((StableHlo.after_of_writes_sub hostOps10 _ hostOps10_writes (by decide)).trans (arg13_at20 m ρ c))))))))))))))
theorem arg14_at34 (c : Dev nD) : W34 m ρ c (Proc.devRef .tc main_arg14) = m ((c : Thread nD τ).loc main_arg14) :=
  (W34_of_ne m ρ c main_arg14 (by decide)).trans ((StableHlo.after_of_writes_sub hostOps16 _ hostOps16_writes (by decide)).trans ((W32_of_ne m ρ c main_arg14 (by decide)).trans ((StableHlo.after_of_writes_sub hostOps15 _ hostOps15_writes (by decide)).trans ((W30_of_ne m ρ c main_arg14 (by decide)).trans ((StableHlo.after_of_writes_sub hostOps14 _ hostOps14_writes (by decide)).trans ((W28_of_ne m ρ c main_arg14 (by decide)).trans ((StableHlo.after_of_writes_sub hostOps13 _ hostOps13_writes (by decide)).trans ((W26_of_ne m ρ c main_arg14 (by decide)).trans ((StableHlo.after_of_writes_sub hostOps12 _ hostOps12_writes (by decide)).trans ((W24_of_ne m ρ c main_arg14 (by decide)).trans ((StableHlo.after_of_writes_sub hostOps11 _ hostOps11_writes (by decide)).trans ((W22_of_ne m ρ c main_arg14 (by decide)).trans ((StableHlo.after_of_writes_sub hostOps10 _ hostOps10_writes (by decide)).trans (arg14_at20 m ρ c))))))))))))))
theorem arg15_at34 (c : Dev nD) : W34 m ρ c (Proc.devRef .tc main_arg15) = m ((c : Thread nD τ).loc main_arg15) :=
  (W34_of_ne m ρ c main_arg15 (by decide)).trans ((StableHlo.after_of_writes_sub hostOps16 _ hostOps16_writes (by decide)).trans ((W32_of_ne m ρ c main_arg15 (by decide)).trans ((StableHlo.after_of_writes_sub hostOps15 _ hostOps15_writes (by decide)).trans ((W30_of_ne m ρ c main_arg15 (by decide)).trans ((StableHlo.after_of_writes_sub hostOps14 _ hostOps14_writes (by decide)).trans ((W28_of_ne m ρ c main_arg15 (by decide)).trans ((StableHlo.after_of_writes_sub hostOps13 _ hostOps13_writes (by decide)).trans ((W26_of_ne m ρ c main_arg15 (by decide)).trans ((StableHlo.after_of_writes_sub hostOps12 _ hostOps12_writes (by decide)).trans ((W24_of_ne m ρ c main_arg15 (by decide)).trans ((StableHlo.after_of_writes_sub hostOps11 _ hostOps11_writes (by decide)).trans ((W22_of_ne m ρ c main_arg15 (by decide)).trans ((StableHlo.after_of_writes_sub hostOps10 _ hostOps10_writes (by decide)).trans (arg15_at20 m ρ c))))))))))))))
theorem arg16_at34 (c : Dev nD) : W34 m ρ c (Proc.devRef .tc main_arg16) = m ((c : Thread nD τ).loc main_arg16) :=
  (W34_of_ne m ρ c main_arg16 (by decide)).trans ((StableHlo.after_of_writes_sub hostOps16 _ hostOps16_writes (by decide)).trans ((W32_of_ne m ρ c main_arg16 (by decide)).trans ((StableHlo.after_of_writes_sub hostOps15 _ hostOps15_writes (by decide)).trans ((W30_of_ne m ρ c main_arg16 (by decide)).trans ((StableHlo.after_of_writes_sub hostOps14 _ hostOps14_writes (by decide)).trans ((W28_of_ne m ρ c main_arg16 (by decide)).trans ((StableHlo.after_of_writes_sub hostOps13 _ hostOps13_writes (by decide)).trans ((W26_of_ne m ρ c main_arg16 (by decide)).trans ((StableHlo.after_of_writes_sub hostOps12 _ hostOps12_writes (by decide)).trans ((W24_of_ne m ρ c main_arg16 (by decide)).trans ((StableHlo.after_of_writes_sub hostOps11 _ hostOps11_writes (by decide)).trans ((W22_of_ne m ρ c main_arg16 (by decide)).trans ((StableHlo.after_of_writes_sub hostOps10 _ hostOps10_writes (by decide)).trans (arg16_at20 m ρ c))))))))))))))
theorem v173_at35 (c : Dev nD) : W35 m ρ c (Proc.devRef .tc main_v173) = v173 m ρ c :=
  (StableHlo.after_of_writes_sub hostOps17 _ hostOps17_writes (by decide)).trans ((W34_of_ne m ρ c main_v173 (by decide)).trans ((StableHlo.after_of_writes_sub hostOps16 _ hostOps16_writes (by decide)).trans ((W32_of_ne m ρ c main_v173 (by decide)).trans (rfl))))
theorem v178_at35 (c : Dev nD) : W35 m ρ c (Proc.devRef .tc main_v178) = v178 m ρ c :=
  rfl
theorem v180_at35 (c : Dev nD) : W35 m ρ c (Proc.devRef .tc main_v180) = v180 m ρ c :=
  rfl
theorem v191_at35 (c : Dev nD) : W35 m ρ c (Proc.devRef .tc main_v191) = v191 m ρ c :=
  rfl
theorem v192_1_at36 (c : Dev nD) : W36 m ρ c (Proc.devRef .tc main_v192_1) = v192_1 m ρ c :=
  rfl
theorem v192_2_at36 (c : Dev nD) : W36 m ρ c (Proc.devRef .tc main_v192_2) = v192_2 m ρ c :=
  rfl
theorem v190_at36 (c : Dev nD) : W36 m ρ c (Proc.devRef .tc main_v190) = v190 m ρ c :=
  (W36_of_ne m ρ c main_v190 (by decide)).trans (rfl)
theorem v184_at36 (c : Dev nD) : W36 m ρ c (Proc.devRef .tc main_v184) = v184 m ρ c :=
  (W36_of_ne m ρ c main_v184 (by decide)).trans (rfl)
theorem v186_at36 (c : Dev nD) : W36 m ρ c (Proc.devRef .tc main_v186) = v186 m ρ c :=
  (W36_of_ne m ρ c main_v186 (by decide)).trans (rfl)
theorem v192_0_at37 (c : Dev nD) : W37 m ρ c (Proc.devRef .tc main_v192_0) = v192_0 m ρ c :=
  (StableHlo.after_of_writes_sub hostOps18 _ hostOps18_writes (by decide)).trans (rfl)
theorem v188_at37 (c : Dev nD) : W37 m ρ c (Proc.devRef .tc main_v188) = v188 m ρ c :=
  (StableHlo.after_of_writes_sub hostOps18 _ hostOps18_writes (by decide)).trans ((W36_of_ne m ρ c main_v188 (by decide)).trans (rfl))
theorem v193_at37 (c : Dev nD) : W37 m ρ c (Proc.devRef .tc main_v193) = v193 m ρ c :=
  rfl
theorem v194_at37 (c : Dev nD) : W37 m ρ c (Proc.devRef .tc main_v194) = v194 m ρ c :=
  rfl
theorem v196_at37 (c : Dev nD) : W37 m ρ c (Proc.devRef .tc main_v196) = v196 m ρ c :=
  rfl
theorem v197_at37 (c : Dev nD) : W37 m ρ c (Proc.devRef .tc main_v197) = v197 m ρ c :=
  rfl
theorem v195_at37 (c : Dev nD) : W37 m ρ c (Proc.devRef .tc main_v195) = v195 m ρ c :=
  rfl
theorem v198_1_at38 (c : Dev nD) : W38 m ρ c (Proc.devRef .tc main_v198_1) = v198_1 m ρ c :=
  rfl
theorem v198_2_at38 (c : Dev nD) : W38 m ρ c (Proc.devRef .tc main_v198_2) = v198_2 m ρ c :=
  rfl
theorem arg11_at38 (c : Dev nD) : W38 m ρ c (Proc.devRef .tc main_arg11) = m ((c : Thread nD τ).loc main_arg11) :=
  (W38_of_ne m ρ c main_arg11 (by decide)).trans ((StableHlo.after_of_writes_sub hostOps18 _ hostOps18_writes (by decide)).trans ((W36_of_ne m ρ c main_arg11 (by decide)).trans ((StableHlo.after_of_writes_sub hostOps17 _ hostOps17_writes (by decide)).trans (arg11_at34 m ρ c))))
theorem arg12_at38 (c : Dev nD) : W38 m ρ c (Proc.devRef .tc main_arg12) = m ((c : Thread nD τ).loc main_arg12) :=
  (W38_of_ne m ρ c main_arg12 (by decide)).trans ((StableHlo.after_of_writes_sub hostOps18 _ hostOps18_writes (by decide)).trans ((W36_of_ne m ρ c main_arg12 (by decide)).trans ((StableHlo.after_of_writes_sub hostOps17 _ hostOps17_writes (by decide)).trans (arg12_at34 m ρ c))))
theorem arg13_at38 (c : Dev nD) : W38 m ρ c (Proc.devRef .tc main_arg13) = m ((c : Thread nD τ).loc main_arg13) :=
  (W38_of_ne m ρ c main_arg13 (by decide)).trans ((StableHlo.after_of_writes_sub hostOps18 _ hostOps18_writes (by decide)).trans ((W36_of_ne m ρ c main_arg13 (by decide)).trans ((StableHlo.after_of_writes_sub hostOps17 _ hostOps17_writes (by decide)).trans (arg13_at34 m ρ c))))
theorem arg14_at38 (c : Dev nD) : W38 m ρ c (Proc.devRef .tc main_arg14) = m ((c : Thread nD τ).loc main_arg14) :=
  (W38_of_ne m ρ c main_arg14 (by decide)).trans ((StableHlo.after_of_writes_sub hostOps18 _ hostOps18_writes (by decide)).trans ((W36_of_ne m ρ c main_arg14 (by decide)).trans ((StableHlo.after_of_writes_sub hostOps17 _ hostOps17_writes (by decide)).trans (arg14_at34 m ρ c))))
theorem arg15_at38 (c : Dev nD) : W38 m ρ c (Proc.devRef .tc main_arg15) = m ((c : Thread nD τ).loc main_arg15) :=
  (W38_of_ne m ρ c main_arg15 (by decide)).trans ((StableHlo.after_of_writes_sub hostOps18 _ hostOps18_writes (by decide)).trans ((W36_of_ne m ρ c main_arg15 (by decide)).trans ((StableHlo.after_of_writes_sub hostOps17 _ hostOps17_writes (by decide)).trans (arg15_at34 m ρ c))))
theorem arg16_at38 (c : Dev nD) : W38 m ρ c (Proc.devRef .tc main_arg16) = m ((c : Thread nD τ).loc main_arg16) :=
  (W38_of_ne m ρ c main_arg16 (by decide)).trans ((StableHlo.after_of_writes_sub hostOps18 _ hostOps18_writes (by decide)).trans ((W36_of_ne m ρ c main_arg16 (by decide)).trans ((StableHlo.after_of_writes_sub hostOps17 _ hostOps17_writes (by decide)).trans (arg16_at34 m ρ c))))
theorem v175_at39 (c : Dev nD) : W39 m ρ c (Proc.devRef .tc main_v175) = v175 m ρ c :=
  (StableHlo.after_of_writes_sub hostOps19 _ hostOps19_writes (by decide)).trans ((W38_of_ne m ρ c main_v175 (by decide)).trans ((StableHlo.after_of_writes_sub hostOps18 _ hostOps18_writes (by decide)).trans ((W36_of_ne m ρ c main_v175 (by decide)).trans ((StableHlo.after_of_writes_sub hostOps17 _ hostOps17_writes (by decide)).trans ((W34_of_ne m ρ c main_v175 (by decide)).trans (rfl))))))
theorem v178_at39 (c : Dev nD) : W39 m ρ c (Proc.devRef .tc main_v178) = v178 m ρ c :=
  (StableHlo.after_of_writes_sub hostOps19 _ hostOps19_writes (by decide)).trans ((W38_of_ne m ρ c main_v178 (by decide)).trans ((StableHlo.after_of_writes_sub hostOps18 _ hostOps18_writes (by decide)).trans (((W36_arr m ρ c 1).trans (((dat17 (V35 m ρ) c).arrAt_in 1 rfl _).trans (A_eq17 (V35 m ρ) c 1))).trans (v178_at35 m ρ c))))
theorem v202_at39 (c : Dev nD) : W39 m ρ c (Proc.devRef .tc main_v202) = v202 m ρ c :=
  rfl
theorem v213_at39 (c : Dev nD) : W39 m ρ c (Proc.devRef .tc main_v213) = v213 m ρ c :=
  rfl
theorem v214_1_at40 (c : Dev nD) : W40 m ρ c (Proc.devRef .tc main_v214_1) = v214_1 m ρ c :=
  rfl
theorem v214_2_at40 (c : Dev nD) : W40 m ρ c (Proc.devRef .tc main_v214_2) = v214_2 m ρ c :=
  rfl
theorem v212_at40 (c : Dev nD) : W40 m ρ c (Proc.devRef .tc main_v212) = v212 m ρ c :=
  (W40_of_ne m ρ c main_v212 (by decide)).trans (rfl)
theorem v206_at40 (c : Dev nD) : W40 m ρ c (Proc.devRef .tc main_v206) = v206 m ρ c :=
  (W40_of_ne m ρ c main_v206 (by decide)).trans (rfl)
theorem v208_at40 (c : Dev nD) : W40 m ρ c (Proc.devRef .tc main_v208) = v208 m ρ c :=
  (W40_of_ne m ρ c main_v208 (by decide)).trans (rfl)
theorem v214_0_at41 (c : Dev nD) : W41 m ρ c (Proc.devRef .tc main_v214_0) = v214_0 m ρ c :=
  (StableHlo.after_of_writes_sub hostOps20 _ hostOps20_writes (by decide)).trans (rfl)
theorem v210_at41 (c : Dev nD) : W41 m ρ c (Proc.devRef .tc main_v210) = v210 m ρ c :=
  (StableHlo.after_of_writes_sub hostOps20 _ hostOps20_writes (by decide)).trans ((W40_of_ne m ρ c main_v210 (by decide)).trans (rfl))
theorem v215_at41 (c : Dev nD) : W41 m ρ c (Proc.devRef .tc main_v215) = v215 m ρ c :=
  rfl
theorem v216_at41 (c : Dev nD) : W41 m ρ c (Proc.devRef .tc main_v216) = v216 m ρ c :=
  rfl
theorem v218_at41 (c : Dev nD) : W41 m ρ c (Proc.devRef .tc main_v218) = v218 m ρ c :=
  rfl
theorem v219_at41 (c : Dev nD) : W41 m ρ c (Proc.devRef .tc main_v219) = v219 m ρ c :=
  rfl
theorem v217_at41 (c : Dev nD) : W41 m ρ c (Proc.devRef .tc main_v217) = v217 m ρ c :=
  rfl
theorem v220_1_at42 (c : Dev nD) : W42 m ρ c (Proc.devRef .tc main_v220_1) = v220_1 m ρ c :=
  rfl
theorem v220_2_at42 (c : Dev nD) : W42 m ρ c (Proc.devRef .tc main_v220_2) = v220_2 m ρ c :=
  rfl
theorem arg11_at42 (c : Dev nD) : W42 m ρ c (Proc.devRef .tc main_arg11) = m ((c : Thread nD τ).loc main_arg11) :=
  (W42_of_ne m ρ c main_arg11 (by decide)).trans ((StableHlo.after_of_writes_sub hostOps20 _ hostOps20_writes (by decide)).trans ((W40_of_ne m ρ c main_arg11 (by decide)).trans ((StableHlo.after_of_writes_sub hostOps19 _ hostOps19_writes (by decide)).trans (arg11_at38 m ρ c))))
theorem arg12_at42 (c : Dev nD) : W42 m ρ c (Proc.devRef .tc main_arg12) = m ((c : Thread nD τ).loc main_arg12) :=
  (W42_of_ne m ρ c main_arg12 (by decide)).trans ((StableHlo.after_of_writes_sub hostOps20 _ hostOps20_writes (by decide)).trans ((W40_of_ne m ρ c main_arg12 (by decide)).trans ((StableHlo.after_of_writes_sub hostOps19 _ hostOps19_writes (by decide)).trans (arg12_at38 m ρ c))))
theorem arg13_at42 (c : Dev nD) : W42 m ρ c (Proc.devRef .tc main_arg13) = m ((c : Thread nD τ).loc main_arg13) :=
  (W42_of_ne m ρ c main_arg13 (by decide)).trans ((StableHlo.after_of_writes_sub hostOps20 _ hostOps20_writes (by decide)).trans ((W40_of_ne m ρ c main_arg13 (by decide)).trans ((StableHlo.after_of_writes_sub hostOps19 _ hostOps19_writes (by decide)).trans (arg13_at38 m ρ c))))
theorem arg14_at42 (c : Dev nD) : W42 m ρ c (Proc.devRef .tc main_arg14) = m ((c : Thread nD τ).loc main_arg14) :=
  (W42_of_ne m ρ c main_arg14 (by decide)).trans ((StableHlo.after_of_writes_sub hostOps20 _ hostOps20_writes (by decide)).trans ((W40_of_ne m ρ c main_arg14 (by decide)).trans ((StableHlo.after_of_writes_sub hostOps19 _ hostOps19_writes (by decide)).trans (arg14_at38 m ρ c))))
theorem arg15_at42 (c : Dev nD) : W42 m ρ c (Proc.devRef .tc main_arg15) = m ((c : Thread nD τ).loc main_arg15) :=
  (W42_of_ne m ρ c main_arg15 (by decide)).trans ((StableHlo.after_of_writes_sub hostOps20 _ hostOps20_writes (by decide)).trans ((W40_of_ne m ρ c main_arg15 (by decide)).trans ((StableHlo.after_of_writes_sub hostOps19 _ hostOps19_writes (by decide)).trans (arg15_at38 m ρ c))))
theorem arg16_at42 (c : Dev nD) : W42 m ρ c (Proc.devRef .tc main_arg16) = m ((c : Thread nD τ).loc main_arg16) :=
  (W42_of_ne m ρ c main_arg16 (by decide)).trans ((StableHlo.after_of_writes_sub hostOps20 _ hostOps20_writes (by decide)).trans ((W40_of_ne m ρ c main_arg16 (by decide)).trans ((StableHlo.after_of_writes_sub hostOps19 _ hostOps19_writes (by decide)).trans (arg16_at38 m ρ c))))
theorem v177_at43 (c : Dev nD) : W43 m ρ c (Proc.devRef .tc main_v177) = v177 m ρ c :=
  (StableHlo.after_of_writes_sub hostOps21 _ hostOps21_writes (by decide)).trans ((W42_of_ne m ρ c main_v177 (by decide)).trans ((StableHlo.after_of_writes_sub hostOps20 _ hostOps20_writes (by decide)).trans ((W40_of_ne m ρ c main_v177 (by decide)).trans ((StableHlo.after_of_writes_sub hostOps19 _ hostOps19_writes (by decide)).trans ((W38_of_ne m ρ c main_v177 (by decide)).trans ((StableHlo.after_of_writes_sub hostOps18 _ hostOps18_writes (by decide)).trans ((W36_of_ne m ρ c main_v177 (by decide)).trans (rfl))))))))
theorem v178_at43 (c : Dev nD) : W43 m ρ c (Proc.devRef .tc main_v178) = v178 m ρ c :=
  (StableHlo.after_of_writes_sub hostOps21 _ hostOps21_writes (by decide)).trans ((W42_of_ne m ρ c main_v178 (by decide)).trans ((StableHlo.after_of_writes_sub hostOps20 _ hostOps20_writes (by decide)).trans (((W40_arr m ρ c 1).trans (((dat19 (V39 m ρ) c).arrAt_in 1 rfl _).trans (A_eq19 (V39 m ρ) c 1))).trans (v178_at39 m ρ c))))
theorem v224_at43 (c : Dev nD) : W43 m ρ c (Proc.devRef .tc main_v224) = v224 m ρ c :=
  rfl
theorem v235_at43 (c : Dev nD) : W43 m ρ c (Proc.devRef .tc main_v235) = v235 m ρ c :=
  rfl
theorem v236_1_at44 (c : Dev nD) : W44 m ρ c (Proc.devRef .tc main_v236_1) = v236_1 m ρ c :=
  rfl
theorem v236_2_at44 (c : Dev nD) : W44 m ρ c (Proc.devRef .tc main_v236_2) = v236_2 m ρ c :=
  rfl
theorem v234_at44 (c : Dev nD) : W44 m ρ c (Proc.devRef .tc main_v234) = v234 m ρ c :=
  (W44_of_ne m ρ c main_v234 (by decide)).trans (rfl)
theorem v228_at44 (c : Dev nD) : W44 m ρ c (Proc.devRef .tc main_v228) = v228 m ρ c :=
  (W44_of_ne m ρ c main_v228 (by decide)).trans (rfl)
theorem v230_at44 (c : Dev nD) : W44 m ρ c (Proc.devRef .tc main_v230) = v230 m ρ c :=
  (W44_of_ne m ρ c main_v230 (by decide)).trans (rfl)
theorem v236_0_at45 (c : Dev nD) : W45 m ρ c (Proc.devRef .tc main_v236_0) = v236_0 m ρ c :=
  (StableHlo.after_of_writes_sub hostOps22 _ hostOps22_writes (by decide)).trans (rfl)
theorem v232_at45 (c : Dev nD) : W45 m ρ c (Proc.devRef .tc main_v232) = v232 m ρ c :=
  (StableHlo.after_of_writes_sub hostOps22 _ hostOps22_writes (by decide)).trans ((W44_of_ne m ρ c main_v232 (by decide)).trans (rfl))
theorem v237_at45 (c : Dev nD) : W45 m ρ c (Proc.devRef .tc main_v237) = v237 m ρ c :=
  rfl
theorem v238_at45 (c : Dev nD) : W45 m ρ c (Proc.devRef .tc main_v238) = v238 m ρ c :=
  rfl
theorem v240_at45 (c : Dev nD) : W45 m ρ c (Proc.devRef .tc main_v240) = v240 m ρ c :=
  rfl
theorem v241_at45 (c : Dev nD) : W45 m ρ c (Proc.devRef .tc main_v241) = v241 m ρ c :=
  rfl
theorem v239_at45 (c : Dev nD) : W45 m ρ c (Proc.devRef .tc main_v239) = v239 m ρ c :=
  rfl
theorem v242_1_at46 (c : Dev nD) : W46 m ρ c (Proc.devRef .tc main_v242_1) = v242_1 m ρ c :=
  rfl
theorem v242_2_at46 (c : Dev nD) : W46 m ρ c (Proc.devRef .tc main_v242_2) = v242_2 m ρ c :=
  rfl
theorem arg27_at46 (c : Dev nD) : W46 m ρ c (Proc.devRef .tc main_arg27) = m ((c : Thread nD τ).loc main_arg27) :=
  (W46_of_ne m ρ c main_arg27 (by decide)).trans ((StableHlo.after_of_writes_sub hostOps22 _ hostOps22_writes (by decide)).trans ((W44_of_ne m ρ c main_arg27 (by decide)).trans ((StableHlo.after_of_writes_sub hostOps21 _ hostOps21_writes (by decide)).trans ((W42_of_ne m ρ c main_arg27 (by decide)).trans ((StableHlo.after_of_writes_sub hostOps20 _ hostOps20_writes (by decide)).trans ((W40_of_ne m ρ c main_arg27 (by decide)).trans ((StableHlo.after_of_writes_sub hostOps19 _ hostOps19_writes (by decide)).trans ((W38_of_ne m ρ c main_arg27 (by decide)).trans ((StableHlo.after_of_writes_sub hostOps18 _ hostOps18_writes (by decide)).trans ((W36_of_ne m ρ c main_arg27 (by decide)).trans ((StableHlo.after_of_writes_sub hostOps17 _ hostOps17_writes (by decide)).trans ((W34_of_ne m ρ c main_arg27 (by decide)).trans ((StableHlo.after_of_writes_sub hostOps16 _ hostOps16_writes (by decide)).trans ((W32_of_ne m ρ c main_arg27 (by decide)).trans ((StableHlo.after_of_writes_sub hostOps15 _ hostOps15_writes (by decide)).trans ((W30_of_ne m ρ c main_arg27 (by decide)).trans ((StableHlo.after_of_writes_sub hostOps14 _ hostOps14_writes (by decide)).trans ((W28_of_ne m ρ c main_arg27 (by decide)).trans ((StableHlo.after_of_writes_sub hostOps13 _ hostOps13_writes (by decide)).trans ((W26_of_ne m ρ c main_arg27 (by decide)).trans ((StableHlo.after_of_writes_sub hostOps12 _ hostOps12_writes (by decide)).trans ((W24_of_ne m ρ c main_arg27 (by decide)).trans ((StableHlo.after_of_writes_sub hostOps11 _ hostOps11_writes (by decide)).trans ((W22_of_ne m ρ c main_arg27 (by decide)).trans ((StableHlo.after_of_writes_sub hostOps10 _ hostOps10_writes (by decide)).trans ((W20_of_ne m ρ c main_arg27 (by decide)).trans ((StableHlo.after_of_writes_sub hostOps9 _ hostOps9_writes (by decide)).trans ((W18_of_ne m ρ c main_arg27 (by decide)).trans ((StableHlo.after_of_writes_sub hostOps8 _ hostOps8_writes (by decide)).trans ((W16_of_ne m ρ c main_arg27 (by decide)).trans ((StableHlo.after_of_writes_sub hostOps7 _ hostOps7_writes (by decide)).trans ((W14_of_ne m ρ c main_arg27 (by decide)).trans ((StableHlo.after_of_writes_sub hostOps6 _ hostOps6_writes (by decide)).trans ((W12_of_ne m ρ c main_arg27 (by decide)).trans ((StableHlo.after_of_writes_sub hostOps5 _ hostOps5_writes (by decide)).trans ((W10_of_ne m ρ c main_arg27 (by decide)).trans ((StableHlo.after_of_writes_sub hostOps4 _ hostOps4_writes (by decide)).trans ((W8_of_ne m ρ c main_arg27 (by decide)).trans ((StableHlo.after_of_writes_sub hostOps3 _ hostOps3_writes (by decide)).trans ((W6_of_ne m ρ c main_arg27 (by decide)).trans ((StableHlo.after_of_writes_sub hostOps2 _ hostOps2_writes (by decide)).trans ((W4_of_ne m ρ c main_arg27 (by decide)).trans ((StableHlo.after_of_writes_sub hostOps1 _ hostOps1_writes (by decide)).trans ((W2_of_ne m ρ c main_arg27 (by decide)).trans ((StableHlo.after_of_writes_sub hostOps0 _ hostOps0_writes (by decide)).trans (rfl))))))))))))))))))))))))))))))))))))))))))))))
theorem arg17_at46 (c : Dev nD) : W46 m ρ c (Proc.devRef .tc main_arg17) = m ((c : Thread nD τ).loc main_arg17) :=
  (W46_of_ne m ρ c main_arg17 (by decide)).trans ((StableHlo.after_of_writes_sub hostOps22 _ hostOps22_writes (by decide)).trans ((W44_of_ne m ρ c main_arg17 (by decide)).trans ((StableHlo.after_of_writes_sub hostOps21 _ hostOps21_writes (by decide)).trans ((W42_of_ne m ρ c main_arg17 (by decide)).trans ((StableHlo.after_of_writes_sub hostOps20 _ hostOps20_writes (by decide)).trans ((W40_of_ne m ρ c main_arg17 (by decide)).trans ((StableHlo.after_of_writes_sub hostOps19 _ hostOps19_writes (by decide)).trans ((W38_of_ne m ρ c main_arg17 (by decide)).trans ((StableHlo.after_of_writes_sub hostOps18 _ hostOps18_writes (by decide)).trans ((W36_of_ne m ρ c main_arg17 (by decide)).trans ((StableHlo.after_of_writes_sub hostOps17 _ hostOps17_writes (by decide)).trans ((W34_of_ne m ρ c main_arg17 (by decide)).trans ((StableHlo.after_of_writes_sub hostOps16 _ hostOps16_writes (by decide)).trans ((W32_of_ne m ρ c main_arg17 (by decide)).trans ((StableHlo.after_of_writes_sub hostOps15 _ hostOps15_writes (by decide)).trans ((W30_of_ne m ρ c main_arg17 (by decide)).trans ((StableHlo.after_of_writes_sub hostOps14 _ hostOps14_writes (by decide)).trans ((W28_of_ne m ρ c main_arg17 (by decide)).trans ((StableHlo.after_of_writes_sub hostOps13 _ hostOps13_writes (by decide)).trans ((W26_of_ne m ρ c main_arg17 (by decide)).trans ((StableHlo.after_of_writes_sub hostOps12 _ hostOps12_writes (by decide)).trans (arg17_at24 m ρ c))))))))))))))))))))))
theorem arg18_at46 (c : Dev nD) : W46 m ρ c (Proc.devRef .tc main_arg18) = m ((c : Thread nD τ).loc main_arg18) :=
  (W46_of_ne m ρ c main_arg18 (by decide)).trans ((StableHlo.after_of_writes_sub hostOps22 _ hostOps22_writes (by decide)).trans ((W44_of_ne m ρ c main_arg18 (by decide)).trans ((StableHlo.after_of_writes_sub hostOps21 _ hostOps21_writes (by decide)).trans ((W42_of_ne m ρ c main_arg18 (by decide)).trans ((StableHlo.after_of_writes_sub hostOps20 _ hostOps20_writes (by decide)).trans ((W40_of_ne m ρ c main_arg18 (by decide)).trans ((StableHlo.after_of_writes_sub hostOps19 _ hostOps19_writes (by decide)).trans ((W38_of_ne m ρ c main_arg18 (by decide)).trans ((StableHlo.after_of_writes_sub hostOps18 _ hostOps18_writes (by decide)).trans ((W36_of_ne m ρ c main_arg18 (by decide)).trans ((StableHlo.after_of_writes_sub hostOps17 _ hostOps17_writes (by decide)).trans ((W34_of_ne m ρ c main_arg18 (by decide)).trans ((StableHlo.after_of_writes_sub hostOps16 _ hostOps16_writes (by decide)).trans ((W32_of_ne m ρ c main_arg18 (by decide)).trans ((StableHlo.after_of_writes_sub hostOps15 _ hostOps15_writes (by decide)).trans ((W30_of_ne m ρ c main_arg18 (by decide)).trans ((StableHlo.after_of_writes_sub hostOps14 _ hostOps14_writes (by decide)).trans ((W28_of_ne m ρ c main_arg18 (by decide)).trans ((StableHlo.after_of_writes_sub hostOps13 _ hostOps13_writes (by decide)).trans ((W26_of_ne m ρ c main_arg18 (by decide)).trans ((StableHlo.after_of_writes_sub hostOps12 _ hostOps12_writes (by decide)).trans (arg18_at24 m ρ c))))))))))))))))))))))
theorem arg28_at46 (c : Dev nD) : W46 m ρ c (Proc.devRef .tc main_arg28) = m ((c : Thread nD τ).loc main_arg28) :=
  (W46_of_ne m ρ c main_arg28 (by decide)).trans ((StableHlo.after_of_writes_sub hostOps22 _ hostOps22_writes (by decide)).trans ((W44_of_ne m ρ c main_arg28 (by decide)).trans ((StableHlo.after_of_writes_sub hostOps21 _ hostOps21_writes (by decide)).trans ((W42_of_ne m ρ c main_arg28 (by decide)).trans ((StableHlo.after_of_writes_sub hostOps20 _ hostOps20_writes (by decide)).trans ((W40_of_ne m ρ c main_arg28 (by decide)).trans ((StableHlo.after_of_writes_sub hostOps19 _ hostOps19_writes (by decide)).trans ((W38_of_ne m ρ c main_arg28 (by decide)).trans ((StableHlo.after_of_writes_sub hostOps18 _ hostOps18_writes (by decide)).trans ((W36_of_ne m ρ c main_arg28 (by decide)).trans ((StableHlo.after_of_writes_sub hostOps17 _ hostOps17_writes (by decide)).trans ((W34_of_ne m ρ c main_arg28 (by decide)).trans ((StableHlo.after_of_writes_sub hostOps16 _ hostOps16_writes (by decide)).trans ((W32_of_ne m ρ c main_arg28 (by decide)).trans ((StableHlo.after_of_writes_sub hostOps15 _ hostOps15_writes (by decide)).trans ((W30_of_ne m ρ c main_arg28 (by decide)).trans ((StableHlo.after_of_writes_sub hostOps14 _ hostOps14_writes (by decide)).trans ((W28_of_ne m ρ c main_arg28 (by decide)).trans ((StableHlo.after_of_writes_sub hostOps13 _ hostOps13_writes (by decide)).trans ((W26_of_ne m ρ c main_arg28 (by decide)).trans ((StableHlo.after_of_writes_sub hostOps12 _ hostOps12_writes (by decide)).trans ((W24_of_ne m ρ c main_arg28 (by decide)).trans ((StableHlo.after_of_writes_sub hostOps11 _ hostOps11_writes (by decide)).trans ((W22_of_ne m ρ c main_arg28 (by decide)).trans ((StableHlo.after_of_writes_sub hostOps10 _ hostOps10_writes (by decide)).trans ((W20_of_ne m ρ c main_arg28 (by decide)).trans ((StableHlo.after_of_writes_sub hostOps9 _ hostOps9_writes (by decide)).trans ((W18_of_ne m ρ c main_arg28 (by decide)).trans ((StableHlo.after_of_writes_sub hostOps8 _ hostOps8_writes (by decide)).trans ((W16_of_ne m ρ c main_arg28 (by decide)).trans ((StableHlo.after_of_writes_sub hostOps7 _ hostOps7_writes (by decide)).trans ((W14_of_ne m ρ c main_arg28 (by decide)).trans ((StableHlo.after_of_writes_sub hostOps6 _ hostOps6_writes (by decide)).trans ((W12_of_ne m ρ c main_arg28 (by decide)).trans ((StableHlo.after_of_writes_sub hostOps5 _ hostOps5_writes (by decide)).trans ((W10_of_ne m ρ c main_arg28 (by decide)).trans ((StableHlo.after_of_writes_sub hostOps4 _ hostOps4_writes (by decide)).trans ((W8_of_ne m ρ c main_arg28 (by decide)).trans ((StableHlo.after_of_writes_sub hostOps3 _ hostOps3_writes (by decide)).trans ((W6_of_ne m ρ c main_arg28 (by decide)).trans ((StableHlo.after_of_writes_sub hostOps2 _ hostOps2_writes (by decide)).trans ((W4_of_ne m ρ c main_arg28 (by decide)).trans ((StableHlo.after_of_writes_sub hostOps1 _ hostOps1_writes (by decide)).trans ((W2_of_ne m ρ c main_arg28 (by decide)).trans ((StableHlo.after_of_writes_sub hostOps0 _ hostOps0_writes (by decide)).trans (rfl))))))))))))))))))))))))))))))))))))))))))))))
theorem v198_0_at47 (c : Dev nD) : W47 m ρ c (Proc.devRef .tc main_v198_0) = v198_0 m ρ c :=
  (StableHlo.after_of_writes_sub hostOps23 _ hostOps23_writes (by decide)).trans ((W46_of_ne m ρ c main_v198_0 (by decide)).trans ((StableHlo.after_of_writes_sub hostOps22 _ hostOps22_writes (by decide)).trans ((W44_of_ne m ρ c main_v198_0 (by decide)).trans ((StableHlo.after_of_writes_sub hostOps21 _ hostOps21_writes (by decide)).trans ((W42_of_ne m ρ c main_v198_0 (by decide)).trans ((StableHlo.after_of_writes_sub hostOps20 _ hostOps20_writes (by decide)).trans ((W40_of_ne m ρ c main_v198_0 (by decide)).trans ((StableHlo.after_of_writes_sub hostOps19 _ hostOps19_writes (by decide)).trans (rfl)))))))))
theorem v245_at47 (c : Dev nD) : W47 m ρ c (Proc.devRef .tc main_v245) = v245 m ρ c :=
  rfl
theorem v199_at47 (c : Dev nD) : W47 m ρ c (Proc.devRef .tc main_v199) = v199 m ρ c :=
  (StableHlo.after_of_writes_sub hostOps23 _ hostOps23_writes (by decide)).trans ((W46_of_ne m ρ c main_v199 (by decide)).trans ((StableHlo.after_of_writes_sub hostOps22 _ hostOps22_writes (by decide)).trans ((W44_of_ne m ρ c main_v199 (by decide)).trans ((StableHlo.after_of_writes_sub hostOps21 _ hostOps21_writes (by decide)).trans ((W42_of_ne m ρ c main_v199 (by decide)).trans ((StableHlo.after_of_writes_sub hostOps20 _ hostOps20_writes (by decide)).trans ((W40_of_ne m ρ c main_v199 (by decide)).trans (rfl))))))))
theorem v200_at47 (c : Dev nD) : W47 m ρ c (Proc.devRef .tc main_v200) = v200 m ρ c :=
  (StableHlo.after_of_writes_sub hostOps23 _ hostOps23_writes (by decide)).trans ((W46_of_ne m ρ c main_v200 (by decide)).trans ((StableHlo.after_of_writes_sub hostOps22 _ hostOps22_writes (by decide)).trans ((W44_of_ne m ρ c main_v200 (by decide)).trans ((StableHlo.after_of_writes_sub hostOps21 _ hostOps21_writes (by decide)).trans ((W42_of_ne m ρ c main_v200 (by decide)).trans ((StableHlo.after_of_writes_sub hostOps20 _ hostOps20_writes (by decide)).trans ((W40_of_ne m ρ c main_v200 (by decide)).trans (rfl))))))))
theorem v261_at47 (c : Dev nD) : W47 m ρ c (Proc.devRef .tc main_v261) = v261 m ρ c :=
  rfl
theorem v262_at47 (c : Dev nD) : W47 m ρ c (Proc.devRef .tc main_v262) = v262 m ρ c :=
  rfl
theorem v220_0_at47 (c : Dev nD) : W47 m ρ c (Proc.devRef .tc main_v220_0) = v220_0 m ρ c :=
  (StableHlo.after_of_writes_sub hostOps23 _ hostOps23_writes (by decide)).trans ((W46_of_ne m ρ c main_v220_0 (by decide)).trans ((StableHlo.after_of_writes_sub hostOps22 _ hostOps22_writes (by decide)).trans ((W44_of_ne m ρ c main_v220_0 (by decide)).trans ((StableHlo.after_of_writes_sub hostOps21 _ hostOps21_writes (by decide)).trans (rfl)))))
theorem v250_at47 (c : Dev nD) : W47 m ρ c (Proc.devRef .tc main_v250) = v250 m ρ c :=
  rfl
theorem v221_at47 (c : Dev nD) : W47 m ρ c (Proc.devRef .tc main_v221) = v221 m ρ c :=
  (StableHlo.after_of_writes_sub hostOps23 _ hostOps23_writes (by decide)).trans ((W46_of_ne m ρ c main_v221 (by decide)).trans ((StableHlo.after_of_writes_sub hostOps22 _ hostOps22_writes (by decide)).trans ((W44_of_ne m ρ c main_v221 (by decide)).trans (rfl))))
theorem v222_at47 (c : Dev nD) : W47 m ρ c (Proc.devRef .tc main_v222) = v222 m ρ c :=
  (StableHlo.after_of_writes_sub hostOps23 _ hostOps23_writes (by decide)).trans ((W46_of_ne m ρ c main_v222 (by decide)).trans ((StableHlo.after_of_writes_sub hostOps22 _ hostOps22_writes (by decide)).trans ((W44_of_ne m ρ c main_v222 (by decide)).trans (rfl))))
theorem v263_at47 (c : Dev nD) : W47 m ρ c (Proc.devRef .tc main_v263) = v263 m ρ c :=
  rfl
theorem v264_at47 (c : Dev nD) : W47 m ρ c (Proc.devRef .tc main_v264) = v264 m ρ c :=
  rfl
theorem v242_0_at47 (c : Dev nD) : W47 m ρ c (Proc.devRef .tc main_v242_0) = v242_0 m ρ c :=
  (StableHlo.after_of_writes_sub hostOps23 _ hostOps23_writes (by decide)).trans (rfl)
theorem v255_at47 (c : Dev nD) : W47 m ρ c (Proc.devRef .tc main_v255) = v255 m ρ c :=
  rfl
theorem v243_at47 (c : Dev nD) : W47 m ρ c (Proc.devRef .tc main_v243) = v243 m ρ c :=
  rfl
theorem v244_at47 (c : Dev nD) : W47 m ρ c (Proc.devRef .tc main_v244) = v244 m ρ c :=
  rfl
theorem v265_at47 (c : Dev nD) : W47 m ρ c (Proc.devRef .tc main_v265) = v265 m ρ c :=
  rfl
theorem v266_at47 (c : Dev nD) : W47 m ρ c (Proc.devRef .tc main_v266) = v266 m ρ c :=
  rfl
theorem v260_at47 (c : Dev nD) : W47 m ρ c (Proc.devRef .tc main_v260) = v260 m ρ c :=
  rfl
theorem v267_1_at48 (c : Dev nD) : W48 m ρ c (Proc.devRef .tc main_v267_1) = v267_1 m ρ c :=
  rfl
theorem v267_2_at48 (c : Dev nD) : W48 m ρ c (Proc.devRef .tc main_v267_2) = v267_2 m ρ c :=
  rfl
theorem arg29_at48 (c : Dev nD) : W48 m ρ c (Proc.devRef .tc main_arg29) = m ((c : Thread nD τ).loc main_arg29) :=
  (W48_of_ne m ρ c main_arg29 (by decide)).trans ((StableHlo.after_of_writes_sub hostOps23 _ hostOps23_writes (by decide)).trans ((W46_of_ne m ρ c main_arg29 (by decide)).trans ((StableHlo.after_of_writes_sub hostOps22 _ hostOps22_writes (by decide)).trans ((W44_of_ne m ρ c main_arg29 (by decide)).trans ((StableHlo.after_of_writes_sub hostOps21 _ hostOps21_writes (by decide)).trans ((W42_of_ne m ρ c main_arg29 (by decide)).trans ((StableHlo.after_of_writes_sub hostOps20 _ hostOps20_writes (by decide)).trans ((W40_of_ne m ρ c main_arg29 (by decide)).trans ((StableHlo.after_of_writes_sub hostOps19 _ hostOps19_writes (by decide)).trans ((W38_of_ne m ρ c main_arg29 (by decide)).trans ((StableHlo.after_of_writes_sub hostOps18 _ hostOps18_writes (by decide)).trans ((W36_of_ne m ρ c main_arg29 (by decide)).trans ((StableHlo.after_of_writes_sub hostOps17 _ hostOps17_writes (by decide)).trans ((W34_of_ne m ρ c main_arg29 (by decide)).trans ((StableHlo.after_of_writes_sub hostOps16 _ hostOps16_writes (by decide)).trans ((W32_of_ne m ρ c main_arg29 (by decide)).trans ((StableHlo.after_of_writes_sub hostOps15 _ hostOps15_writes (by decide)).trans ((W30_of_ne m ρ c main_arg29 (by decide)).trans ((StableHlo.after_of_writes_sub hostOps14 _ hostOps14_writes (by decide)).trans ((W28_of_ne m ρ c main_arg29 (by decide)).trans ((StableHlo.after_of_writes_sub hostOps13 _ hostOps13_writes (by decide)).trans ((W26_of_ne m ρ c main_arg29 (by decide)).trans ((StableHlo.after_of_writes_sub hostOps12 _ hostOps12_writes (by decide)).trans ((W24_of_ne m ρ c main_arg29 (by decide)).trans ((StableHlo.after_of_writes_sub hostOps11 _ hostOps11_writes (by decide)).trans ((W22_of_ne m ρ c main_arg29 (by decide)).trans ((StableHlo.after_of_writes_sub hostOps10 _ hostOps10_writes (by decide)).trans ((W20_of_ne m ρ c main_arg29 (by decide)).trans ((StableHlo.after_of_writes_sub hostOps9 _ hostOps9_writes (by decide)).trans ((W18_of_ne m ρ c main_arg29 (by decide)).trans ((StableHlo.after_of_writes_sub hostOps8 _ hostOps8_writes (by decide)).trans ((W16_of_ne m ρ c main_arg29 (by decide)).trans ((StableHlo.after_of_writes_sub hostOps7 _ hostOps7_writes (by decide)).trans ((W14_of_ne m ρ c main_arg29 (by decide)).trans ((StableHlo.after_of_writes_sub hostOps6 _ hostOps6_writes (by decide)).trans ((W12_of_ne m ρ c main_arg29 (by decide)).trans ((StableHlo.after_of_writes_sub hostOps5 _ hostOps5_writes (by decide)).trans ((W10_of_ne m ρ c main_arg29 (by decide)).trans ((StableHlo.after_of_writes_sub hostOps4 _ hostOps4_writes (by decide)).trans ((W8_of_ne m ρ c main_arg29 (by decide)).trans ((StableHlo.after_of_writes_sub hostOps3 _ hostOps3_writes (by decide)).trans ((W6_of_ne m ρ c main_arg29 (by decide)).trans ((StableHlo.after_of_writes_sub hostOps2 _ hostOps2_writes (by decide)).trans ((W4_of_ne m ρ c main_arg29 (by decide)).trans ((StableHlo.after_of_writes_sub hostOps1 _ hostOps1_writes (by decide)).trans ((W2_of_ne m ρ c main_arg29 (by decide)).trans ((StableHlo.after_of_writes_sub hostOps0 _ hostOps0_writes (by decide)).trans (rfl))))))))))))))))))))))))))))))))))))))))))))))))
theorem arg30_at48 (c : Dev nD) : W48 m ρ c (Proc.devRef .tc main_arg30) = m ((c : Thread nD τ).loc main_arg30) :=
  (W48_of_ne m ρ c main_arg30 (by decide)).trans ((StableHlo.after_of_writes_sub hostOps23 _ hostOps23_writes (by decide)).trans ((W46_of_ne m ρ c main_arg30 (by decide)).trans ((StableHlo.after_of_writes_sub hostOps22 _ hostOps22_writes (by decide)).trans ((W44_of_ne m ρ c main_arg30 (by decide)).trans ((StableHlo.after_of_writes_sub hostOps21 _ hostOps21_writes (by decide)).trans ((W42_of_ne m ρ c main_arg30 (by decide)).trans ((StableHlo.after_of_writes_sub hostOps20 _ hostOps20_writes (by decide)).trans ((W40_of_ne m ρ c main_arg30 (by decide)).trans ((StableHlo.after_of_writes_sub hostOps19 _ hostOps19_writes (by decide)).trans ((W38_of_ne m ρ c main_arg30 (by decide)).trans ((StableHlo.after_of_writes_sub hostOps18 _ hostOps18_writes (by decide)).trans ((W36_of_ne m ρ c main_arg30 (by decide)).trans ((StableHlo.after_of_writes_sub hostOps17 _ hostOps17_writes (by decide)).trans ((W34_of_ne m ρ c main_arg30 (by decide)).trans ((StableHlo.after_of_writes_sub hostOps16 _ hostOps16_writes (by decide)).trans ((W32_of_ne m ρ c main_arg30 (by decide)).trans ((StableHlo.after_of_writes_sub hostOps15 _ hostOps15_writes (by decide)).trans ((W30_of_ne m ρ c main_arg30 (by decide)).trans ((StableHlo.after_of_writes_sub hostOps14 _ hostOps14_writes (by decide)).trans ((W28_of_ne m ρ c main_arg30 (by decide)).trans ((StableHlo.after_of_writes_sub hostOps13 _ hostOps13_writes (by decide)).trans ((W26_of_ne m ρ c main_arg30 (by decide)).trans ((StableHlo.after_of_writes_sub hostOps12 _ hostOps12_writes (by decide)).trans ((W24_of_ne m ρ c main_arg30 (by decide)).trans ((StableHlo.after_of_writes_sub hostOps11 _ hostOps11_writes (by decide)).trans ((W22_of_ne m ρ c main_arg30 (by decide)).trans ((StableHlo.after_of_writes_sub hostOps10 _ hostOps10_writes (by decide)).trans ((W20_of_ne m ρ c main_arg30 (by decide)).trans ((StableHlo.after_of_writes_sub hostOps9 _ hostOps9_writes (by decide)).trans ((W18_of_ne m ρ c main_arg30 (by decide)).trans ((StableHlo.after_of_writes_sub hostOps8 _ hostOps8_writes (by decide)).trans ((W16_of_ne m ρ c main_arg30 (by decide)).trans ((StableHlo.after_of_writes_sub hostOps7 _ hostOps7_writes (by decide)).trans ((W14_of_ne m ρ c main_arg30 (by decide)).trans ((StableHlo.after_of_writes_sub hostOps6 _ hostOps6_writes (by decide)).trans ((W12_of_ne m ρ c main_arg30 (by decide)).trans ((StableHlo.after_of_writes_sub hostOps5 _ hostOps5_writes (by decide)).trans ((W10_of_ne m ρ c main_arg30 (by decide)).trans ((StableHlo.after_of_writes_sub hostOps4 _ hostOps4_writes (by decide)).trans ((W8_of_ne m ρ c main_arg30 (by decide)).trans ((StableHlo.after_of_writes_sub hostOps3 _ hostOps3_writes (by decide)).trans ((W6_of_ne m ρ c main_arg30 (by decide)).trans ((StableHlo.after_of_writes_sub hostOps2 _ hostOps2_writes (by decide)).trans ((W4_of_ne m ρ c main_arg30 (by decide)).trans ((StableHlo.after_of_writes_sub hostOps1 _ hostOps1_writes (by decide)).trans ((W2_of_ne m ρ c main_arg30 (by decide)).trans ((StableHlo.after_of_writes_sub hostOps0 _ hostOps0_writes (by decide)).trans (rfl))))))))))))))))))))))))))))))))))))))))))))))))
theorem v267_0_at49 (c : Dev nD) : W49 m ρ c (Proc.devRef .tc main_v267_0) = v267_0 m ρ c :=
  (StableHlo.after_of_writes_sub hostOps24 _ hostOps24_writes (by decide)).trans (rfl)
theorem v268_at49 (c : Dev nD) : W49 m ρ c (Proc.devRef .tc main_v268) = v268 m ρ c :=
  rfl
theorem v269_at49 (c : Dev nD) : W49 m ρ c (Proc.devRef .tc main_v269) = v269 m ρ c :=
  rfl
theorem v270_at49 (c : Dev nD) : W49 m ρ c (Proc.devRef .tc main_v270) = v270 m ρ c :=
  rfl
theorem v271_at49 (c : Dev nD) : W49 m ρ c (Proc.devRef .tc main_v271) = v271 m ρ c :=
  rfl
theorem v272_at50 (c : Dev nD) : W50 m ρ c (Proc.devRef .tc main_v272) = v272 m ρ c :=
  rfl
theorem v84_at51 (c : Dev nD) : W51 m ρ c (Proc.devRef .tc main_v84) = v84 m ρ c :=
  (StableHlo.after_of_writes_sub hostOps25 _ hostOps25_writes (by decide)).trans ((W50_of_ne m ρ c main_v84 (by decide)).trans ((StableHlo.after_of_writes_sub hostOps24 _ hostOps24_writes (by decide)).trans ((W48_of_ne m ρ c main_v84 (by decide)).trans ((StableHlo.after_of_writes_sub hostOps23 _ hostOps23_writes (by decide)).trans ((W46_of_ne m ρ c main_v84 (by decide)).trans ((StableHlo.after_of_writes_sub hostOps22 _ hostOps22_writes (by decide)).trans ((W44_of_ne m ρ c main_v84 (by decide)).trans ((StableHlo.after_of_writes_sub hostOps21 _ hostOps21_writes (by decide)).trans ((W42_of_ne m ρ c main_v84 (by decide)).trans ((StableHlo.after_of_writes_sub hostOps20 _ hostOps20_writes (by decide)).trans ((W40_of_ne m ρ c main_v84 (by decide)).trans ((StableHlo.after_of_writes_sub hostOps19 _ hostOps19_writes (by decide)).trans ((W38_of_ne m ρ c main_v84 (by decide)).trans ((StableHlo.after_of_writes_sub hostOps18 _ hostOps18_writes (by decide)).trans ((W36_of_ne m ρ c main_v84 (by decide)).trans ((StableHlo.after_of_writes_sub hostOps17 _ hostOps17_writes (by decide)).trans ((W34_of_ne m ρ c main_v84 (by decide)).trans ((StableHlo.after_of_writes_sub hostOps16 _ hostOps16_writes (by decide)).trans ((W32_of_ne m ρ c main_v84 (by decide)).trans ((StableHlo.after_of_writes_sub hostOps15 _ hostOps15_writes (by decide)).trans ((W30_of_ne m ρ c main_v84 (by decide)).trans ((StableHlo.after_of_writes_sub hostOps14 _ hostOps14_writes (by decide)).trans ((W28_of_ne m ρ c main_v84 (by decide)).trans ((StableHlo.after_of_writes_sub hostOps13 _ hostOps13_writes (by decide)).trans ((W26_of_ne m ρ c main_v84 (by decide)).trans ((StableHlo.after_of_writes_sub hostOps12 _ hostOps12_writes (by decide)).trans ((W24_of_ne m ρ c main_v84 (by decide)).trans ((StableHlo.after_of_writes_sub hostOps11 _ hostOps11_writes (by decide)).trans ((W22_of_ne m ρ c main_v84 (by decide)).trans ((StableHlo.after_of_writes_sub hostOps10 _ hostOps10_writes (by decide)).trans ((W20_of_ne m ρ c main_v84 (by decide)).trans ((StableHlo.after_of_writes_sub hostOps9 _ hostOps9_writes (by decide)).trans ((W18_of_ne m ρ c main_v84 (by decide)).trans ((StableHlo.after_of_writes_sub hostOps8 _ hostOps8_writes (by decide)).trans (rfl)))))))))))))))))))))))))))))))))))
theorem v170_at51 (c : Dev nD) : W51 m ρ c (Proc.devRef .tc main_v170) = v170 m ρ c :=
  (StableHlo.after_of_writes_sub hostOps25 _ hostOps25_writes (by decide)).trans ((W50_of_ne m ρ c main_v170 (by decide)).trans ((StableHlo.after_of_writes_sub hostOps24 _ hostOps24_writes (by decide)).trans ((W48_of_ne m ρ c main_v170 (by decide)).trans ((StableHlo.after_of_writes_sub hostOps23 _ hostOps23_writes (by decide)).trans ((W46_of_ne m ρ c main_v170 (by decide)).trans ((StableHlo.after_of_writes_sub hostOps22 _ hostOps22_writes (by decide)).trans ((W44_of_ne m ρ c main_v170 (by decide)).trans ((StableHlo.after_of_writes_sub hostOps21 _ hostOps21_writes (by decide)).trans ((W42_of_ne m ρ c main_v170 (by decide)).trans ((StableHlo.after_of_writes_sub hostOps20 _ hostOps20_writes (by decide)).trans ((W40_of_ne m ρ c main_v170 (by decide)).trans ((StableHlo.after_of_writes_sub hostOps19 _ hostOps19_writes (by decide)).trans ((W38_of_ne m ρ c main_v170 (by decide)).trans ((StableHlo.after_of_writes_sub hostOps18 _ hostOps18_writes (by decide)).trans ((W36_of_ne m ρ c main_v170 (by decide)).trans ((StableHlo.after_of_writes_sub hostOps17 _ hostOps17_writes (by decide)).trans ((W34_of_ne m ρ c main_v170 (by decide)).trans ((StableHlo.after_of_writes_sub hostOps16 _ hostOps16_writes (by decide)).trans ((W32_of_ne m ρ c main_v170 (by decide)).trans ((StableHlo.after_of_writes_sub hostOps15 _ hostOps15_writes (by decide)).trans ((W30_of_ne m ρ c main_v170 (by decide)).trans ((StableHlo.after_of_writes_sub hostOps14 _ hostOps14_writes (by decide)).trans (rfl)))))))))))))))))))))))
theorem v273_at51 (c : Dev nD) : W51 m ρ c (Proc.devRef .tc main_v273) = v273 m ρ c :=
  rfl

theorem v1_eq (c : Dev nD) : v1 m ρ c = KT.KT0_v1 (F := F) (m ((c : Thread nD τ).loc main_arg2)) :=
  (raw0_v1 (W0 m ρ c)).trans (by rw [arg2_at0 m ρ c] <;> try rfl)

theorem v3_eq (c : Dev nD) : v3 m ρ c = KT.KT1_v3 (F := F) (m ((c : Thread nD τ).loc main_arg2)) :=
  (raw0_v3 (W0 m ρ c)).trans (by rw [arg2_at0 m ρ c] <;> try rfl)

theorem v5_eq (c : Dev nD) : v5 m ρ c = KT.KT2_v5 (F := F) (v4 m ρ c) :=
  (raw1_v5 (W2 m ρ c)).trans (by rw [v4_at2 m ρ c] <;> try rfl)

theorem v12_eq (c : Dev nD) : v12 m ρ c = KT.KT3_v12 (F := F) (m ((c : Thread nD τ).loc main_arg0)) (v1 m ρ c) :=
  (raw1_v12 (W2 m ρ c)).trans (by rw [arg0_at2 m ρ c, v1_at2 m ρ c] <;> try rfl)

theorem v13_eq (c : Dev nD) : v13 m ρ c = KT.KT4_v13 (F := F) (m ((c : Thread nD τ).loc main_arg9)) :=
  (raw1_v13 (W2 m ρ c)).trans (by rw [arg9_at2 m ρ c] <;> try rfl)

theorem v14_eq (c : Dev nD) : v14 m ρ c = KT.KT5_v14 (F := F) (m ((c : Thread nD τ).loc main_arg9)) :=
  (raw1_v14 (W2 m ρ c)).trans (by rw [arg9_at2 m ρ c] <;> try rfl)

theorem v15_eq (c : Dev nD) : v15 m ρ c = KT.KT6_v15 (F := F) (m ((c : Thread nD τ).loc main_arg10)) :=
  (raw1_v15 (W2 m ρ c)).trans (by rw [arg10_at2 m ρ c] <;> try rfl)

theorem v19_eq (c : Dev nD) : v19 m ρ c = KT.KT7_v19 (F := F) (v3 m ρ c) (v16 m ρ c) :=
  (raw2_v19 (W4 m ρ c)).trans (by rw [v3_at4 m ρ c, v16_at4 m ρ c] <;> try rfl)

theorem v21_eq (c : Dev nD) : v21 m ρ c = KT.KT8_v21 (F := F) (m ((c : Thread nD τ).loc main_arg11)) :=
  (raw2_v21 (W4 m ρ c)).trans (by rw [arg11_at4 m ρ c] <;> try rfl)

theorem v25_eq (c : Dev nD) : v25 m ρ c = KT.KT9_v25 (F := F) (m ((c : Thread nD τ).loc main_arg13)) :=
  (raw2_v25 (W4 m ρ c)).trans (by rw [arg13_at4 m ρ c] <;> try rfl)

theorem v27_eq (c : Dev nD) : v27 m ρ c = KT.KT9_v25 (F := F) (m ((c : Thread nD τ).loc main_arg14)) :=
  (raw2_v27 (W4 m ρ c)).trans (by rw [arg14_at4 m ρ c] <;> try rfl)

theorem v29_eq (c : Dev nD) : v29 m ρ c = KT.KT8_v21 (F := F) (m ((c : Thread nD τ).loc main_arg15)) :=
  (raw2_v29 (W4 m ρ c)).trans (by rw [arg15_at4 m ρ c] <;> try rfl)

theorem v31_eq (c : Dev nD) : v31 m ρ c = KT.KT9_v25 (F := F) (m ((c : Thread nD τ).loc main_arg16)) :=
  (raw2_v31 (W4 m ρ c)).trans (by rw [arg16_at4 m ρ c] <;> try rfl)

theorem v32_eq (c : Dev nD) : v32 m ρ c = KT.KT10_v32 (F := F) (m ((c : Thread nD τ).loc main_arg12)) :=
  (raw2_v32 (W4 m ρ c)).trans (by rw [arg12_at4 m ρ c] <;> try rfl)

theorem v34_eq (c : Dev nD) : v34 m ρ c = KT.KT11_v34 (F := F) (v33_1 m ρ c) :=
  (raw3_v34 (W6 m ρ c)).trans (by rw [v33_1_at6 m ρ c] <;> try rfl)

theorem v35_eq (c : Dev nD) : v35 m ρ c = KT.KT11_v34 (F := F) (v33_2 m ρ c) :=
  (raw3_v35 (W6 m ρ c)).trans (by rw [v33_2_at6 m ρ c] <;> try rfl)

theorem v36_eq (c : Dev nD) : v36 m ρ c = KT.KT6_v15 (F := F) (v31 m ρ c) :=
  (raw3_v36 (W6 m ρ c)).trans (by rw [v31_at6 m ρ c] <;> try rfl)

theorem v37_eq (c : Dev nD) : v37 m ρ c = KT.KT6_v15 (F := F) (v25 m ρ c) :=
  (raw3_v37 (W6 m ρ c)).trans (by rw [v25_at6 m ρ c] <;> try rfl)

theorem v38_eq (c : Dev nD) : v38 m ρ c = KT.KT6_v15 (F := F) (v27 m ρ c) :=
  (raw3_v38 (W6 m ρ c)).trans (by rw [v27_at6 m ρ c] <;> try rfl)

theorem v40_eq (c : Dev nD) : v40 m ρ c = KT.KT11_v34 (F := F) (v39_1 m ρ c) :=
  (raw4_v40 (W8 m ρ c)).trans (by rw [v39_1_at8 m ρ c] <;> try rfl)

theorem v41_eq (c : Dev nD) : v41 m ρ c = KT.KT11_v34 (F := F) (v39_2 m ρ c) :=
  (raw4_v41 (W8 m ρ c)).trans (by rw [v39_2_at8 m ρ c] <;> try rfl)

theorem v43_eq (c : Dev nD) : v43 m ρ c = KT.KT12_v43 (F := F) (m ((c : Thread nD τ).loc main_arg11)) :=
  (raw4_v43 (W8 m ρ c)).trans (by rw [arg11_at8 m ρ c] <;> try rfl)

theorem v47_eq (c : Dev nD) : v47 m ρ c = KT.KT13_v47 (F := F) (m ((c : Thread nD τ).loc main_arg13)) :=
  (raw4_v47 (W8 m ρ c)).trans (by rw [arg13_at8 m ρ c] <;> try rfl)

theorem v49_eq (c : Dev nD) : v49 m ρ c = KT.KT13_v47 (F := F) (m ((c : Thread nD τ).loc main_arg14)) :=
  (raw4_v49 (W8 m ρ c)).trans (by rw [arg14_at8 m ρ c] <;> try rfl)

theorem v51_eq (c : Dev nD) : v51 m ρ c = KT.KT12_v43 (F := F) (m ((c : Thread nD τ).loc main_arg15)) :=
  (raw4_v51 (W8 m ρ c)).trans (by rw [arg15_at8 m ρ c] <;> try rfl)

theorem v53_eq (c : Dev nD) : v53 m ρ c = KT.KT13_v47 (F := F) (m ((c : Thread nD τ).loc main_arg16)) :=
  (raw4_v53 (W8 m ρ c)).trans (by rw [arg16_at8 m ρ c] <;> try rfl)

theorem v54_eq (c : Dev nD) : v54 m ρ c = KT.KT14_v54 (F := F) (m ((c : Thread nD τ).loc main_arg12)) :=
  (raw4_v54 (W8 m ρ c)).trans (by rw [arg12_at8 m ρ c] <;> try rfl)

theorem v56_eq (c : Dev nD) : v56 m ρ c = KT.KT11_v34 (F := F) (v55_1 m ρ c) :=
  (raw5_v56 (W10 m ρ c)).trans (by rw [v55_1_at10 m ρ c] <;> try rfl)

theorem v57_eq (c : Dev nD) : v57 m ρ c = KT.KT11_v34 (F := F) (v55_2 m ρ c) :=
  (raw5_v57 (W10 m ρ c)).trans (by rw [v55_2_at10 m ρ c] <;> try rfl)

theorem v58_eq (c : Dev nD) : v58 m ρ c = KT.KT6_v15 (F := F) (v53 m ρ c) :=
  (raw5_v58 (W10 m ρ c)).trans (by rw [v53_at10 m ρ c] <;> try rfl)

theorem v59_eq (c : Dev nD) : v59 m ρ c = KT.KT6_v15 (F := F) (v47 m ρ c) :=
  (raw5_v59 (W10 m ρ c)).trans (by rw [v47_at10 m ρ c] <;> try rfl)

theorem v60_eq (c : Dev nD) : v60 m ρ c = KT.KT6_v15 (F := F) (v49 m ρ c) :=
  (raw5_v60 (W10 m ρ c)).trans (by rw [v49_at10 m ρ c] <;> try rfl)

theorem v62_eq (c : Dev nD) : v62 m ρ c = KT.KT11_v34 (F := F) (v61_1 m ρ c) :=
  (raw6_v62 (W12 m ρ c)).trans (by rw [v61_1_at12 m ρ c] <;> try rfl)

theorem v63_eq (c : Dev nD) : v63 m ρ c = KT.KT11_v34 (F := F) (v61_2 m ρ c) :=
  (raw6_v63 (W12 m ρ c)).trans (by rw [v61_2_at12 m ρ c] <;> try rfl)

theorem v64_eq (c : Dev nD) : v64 m ρ c = KT.KT4_v13 (F := F) (m ((c : Thread nD τ).loc main_arg19)) :=
  (raw6_v64 (W12 m ρ c)).trans (by rw [arg19_at12 m ρ c] <;> try rfl)

theorem v69_eq (c : Dev nD) : v69 m ρ c = KT.KT5_v14 (F := F) (m ((c : Thread nD τ).loc main_arg19)) :=
  (raw6_v69 (W12 m ρ c)).trans (by rw [arg19_at12 m ρ c] <;> try rfl)

theorem v74_eq (c : Dev nD) : v74 m ρ c = KT.KT6_v15 (F := F) (m ((c : Thread nD τ).loc main_arg20)) :=
  (raw6_v74 (W12 m ρ c)).trans (by rw [arg20_at12 m ρ c] <;> try rfl)

theorem v75_eq (c : Dev nD) : v75 m ρ c = KT.KT10_v32 (F := F) (m ((c : Thread nD τ).loc main_arg17)) :=
  (raw6_v75 (W12 m ρ c)).trans (by rw [arg17_at12 m ρ c] <;> try rfl)

theorem v76_eq (c : Dev nD) : v76 m ρ c = KT.KT10_v32 (F := F) (m ((c : Thread nD τ).loc main_arg18)) :=
  (raw6_v76 (W12 m ρ c)).trans (by rw [arg18_at12 m ρ c] <;> try rfl)

theorem v77_eq (c : Dev nD) : v77 m ρ c = KT.KT14_v54 (F := F) (m ((c : Thread nD τ).loc main_arg17)) :=
  (raw6_v77 (W12 m ρ c)).trans (by rw [arg17_at12 m ρ c] <;> try rfl)

theorem v78_eq (c : Dev nD) : v78 m ρ c = KT.KT14_v54 (F := F) (m ((c : Thread nD τ).loc main_arg18)) :=
  (raw6_v78 (W12 m ρ c)).trans (by rw [arg18_at12 m ρ c] <;> try rfl)

theorem v80_eq (c : Dev nD) : v80 m ρ c = KT.KT11_v34 (F := F) (v79_1 m ρ c) :=
  (raw7_v80 (W14 m ρ c)).trans (by rw [v79_1_at14 m ρ c] <;> try rfl)

theorem v81_eq (c : Dev nD) : v81 m ρ c = KT.KT11_v34 (F := F) (v79_2 m ρ c) :=
  (raw7_v81 (W14 m ρ c)).trans (by rw [v79_2_at14 m ρ c] <;> try rfl)

theorem v82_eq (c : Dev nD) : v82 m ρ c = KT.KT6_v15 (F := F) (m ((c : Thread nD τ).loc main_arg21)) :=
  (raw7_v82 (W14 m ρ c)).trans (by rw [arg21_at14 m ρ c] <;> try rfl)

theorem v83_eq (c : Dev nD) : v83 m ρ c = KT.KT6_v15 (F := F) (m ((c : Thread nD τ).loc main_arg22)) :=
  (raw7_v83 (W14 m ρ c)).trans (by rw [arg22_at14 m ρ c] <;> try rfl)

theorem v91_eq (c : Dev nD) : v91 m ρ c = KT.KT3_v12 (F := F) (m ((c : Thread nD τ).loc main_arg0)) (v3 m ρ c) :=
  (raw8_v91 (W16 m ρ c)).trans (by rw [arg0_at16 m ρ c, v3_at16 m ρ c] <;> try rfl)

theorem v98_eq (c : Dev nD) : v98 m ρ c = KT.KT3_v12 (F := F) (v5 m ρ c) (v1 m ρ c) :=
  (raw8_v98 (W16 m ρ c)).trans (by rw [v5_at16 m ρ c, v1_at16 m ρ c] <;> try rfl)

theorem v105_eq (c : Dev nD) : v105 m ρ c = KT.KT3_v12 (F := F) (v5 m ρ c) (v3 m ρ c) :=
  (raw8_v105 (W16 m ρ c)).trans (by rw [v5_at16 m ρ c, v3_at16 m ρ c] <;> try rfl)

theorem v107_eq (c : Dev nD) : v107 m ρ c = KT.KT15_v107 (F := F) (m ((c : Thread nD τ).loc main_arg11)) :=
  (raw8_v107 (W16 m ρ c)).trans (by rw [arg11_at16 m ρ c] <;> try rfl)

theorem v111_eq (c : Dev nD) : v111 m ρ c = KT.KT16_v111 (F := F) (m ((c : Thread nD τ).loc main_arg13)) :=
  (raw8_v111 (W16 m ρ c)).trans (by rw [arg13_at16 m ρ c] <;> try rfl)

theorem v113_eq (c : Dev nD) : v113 m ρ c = KT.KT16_v111 (F := F) (m ((c : Thread nD τ).loc main_arg14)) :=
  (raw8_v113 (W16 m ρ c)).trans (by rw [arg14_at16 m ρ c] <;> try rfl)

theorem v115_eq (c : Dev nD) : v115 m ρ c = KT.KT15_v107 (F := F) (m ((c : Thread nD τ).loc main_arg15)) :=
  (raw8_v115 (W16 m ρ c)).trans (by rw [arg15_at16 m ρ c] <;> try rfl)

theorem v117_eq (c : Dev nD) : v117 m ρ c = KT.KT16_v111 (F := F) (m ((c : Thread nD τ).loc main_arg16)) :=
  (raw8_v117 (W16 m ρ c)).trans (by rw [arg16_at16 m ρ c] <;> try rfl)

theorem v118_eq (c : Dev nD) : v118 m ρ c = KT.KT17_v118 (F := F) (m ((c : Thread nD τ).loc main_arg12)) :=
  (raw8_v118 (W16 m ρ c)).trans (by rw [arg12_at16 m ρ c] <;> try rfl)

theorem v120_eq (c : Dev nD) : v120 m ρ c = KT.KT18_v120 (F := F) (v119_1 m ρ c) :=
  (raw9_v120 (W18 m ρ c)).trans (by rw [v119_1_at18 m ρ c] <;> try rfl)

theorem v121_eq (c : Dev nD) : v121 m ρ c = KT.KT18_v120 (F := F) (v119_2 m ρ c) :=
  (raw9_v121 (W18 m ρ c)).trans (by rw [v119_2_at18 m ρ c] <;> try rfl)

theorem v122_eq (c : Dev nD) : v122 m ρ c = KT.KT6_v15 (F := F) (v117 m ρ c) :=
  (raw9_v122 (W18 m ρ c)).trans (by rw [v117_at18 m ρ c] <;> try rfl)

theorem v123_eq (c : Dev nD) : v123 m ρ c = KT.KT6_v15 (F := F) (v111 m ρ c) :=
  (raw9_v123 (W18 m ρ c)).trans (by rw [v111_at18 m ρ c] <;> try rfl)

theorem v124_eq (c : Dev nD) : v124 m ρ c = KT.KT6_v15 (F := F) (v113 m ρ c) :=
  (raw9_v124 (W18 m ρ c)).trans (by rw [v113_at18 m ρ c] <;> try rfl)

theorem v126_eq (c : Dev nD) : v126 m ρ c = KT.KT18_v120 (F := F) (v125_1 m ρ c) :=
  (raw10_v126 (W20 m ρ c)).trans (by rw [v125_1_at20 m ρ c] <;> try rfl)

theorem v127_eq (c : Dev nD) : v127 m ρ c = KT.KT18_v120 (F := F) (v125_2 m ρ c) :=
  (raw10_v127 (W20 m ρ c)).trans (by rw [v125_2_at20 m ρ c] <;> try rfl)

theorem v129_eq (c : Dev nD) : v129 m ρ c = KT.KT19_v129 (F := F) (m ((c : Thread nD τ).loc main_arg11)) :=
  (raw10_v129 (W20 m ρ c)).trans (by rw [arg11_at20 m ρ c] <;> try rfl)

theorem v133_eq (c : Dev nD) : v133 m ρ c = KT.KT20_v133 (F := F) (m ((c : Thread nD τ).loc main_arg13)) :=
  (raw10_v133 (W20 m ρ c)).trans (by rw [arg13_at20 m ρ c] <;> try rfl)

theorem v135_eq (c : Dev nD) : v135 m ρ c = KT.KT20_v133 (F := F) (m ((c : Thread nD τ).loc main_arg14)) :=
  (raw10_v135 (W20 m ρ c)).trans (by rw [arg14_at20 m ρ c] <;> try rfl)

theorem v137_eq (c : Dev nD) : v137 m ρ c = KT.KT19_v129 (F := F) (m ((c : Thread nD τ).loc main_arg15)) :=
  (raw10_v137 (W20 m ρ c)).trans (by rw [arg15_at20 m ρ c] <;> try rfl)

theorem v139_eq (c : Dev nD) : v139 m ρ c = KT.KT20_v133 (F := F) (m ((c : Thread nD τ).loc main_arg16)) :=
  (raw10_v139 (W20 m ρ c)).trans (by rw [arg16_at20 m ρ c] <;> try rfl)

theorem v140_eq (c : Dev nD) : v140 m ρ c = KT.KT21_v140 (F := F) (m ((c : Thread nD τ).loc main_arg12)) :=
  (raw10_v140 (W20 m ρ c)).trans (by rw [arg12_at20 m ρ c] <;> try rfl)

theorem v142_eq (c : Dev nD) : v142 m ρ c = KT.KT18_v120 (F := F) (v141_1 m ρ c) :=
  (raw11_v142 (W22 m ρ c)).trans (by rw [v141_1_at22 m ρ c] <;> try rfl)

theorem v143_eq (c : Dev nD) : v143 m ρ c = KT.KT18_v120 (F := F) (v141_2 m ρ c) :=
  (raw11_v143 (W22 m ρ c)).trans (by rw [v141_2_at22 m ρ c] <;> try rfl)

theorem v144_eq (c : Dev nD) : v144 m ρ c = KT.KT6_v15 (F := F) (v139 m ρ c) :=
  (raw11_v144 (W22 m ρ c)).trans (by rw [v139_at22 m ρ c] <;> try rfl)

theorem v145_eq (c : Dev nD) : v145 m ρ c = KT.KT6_v15 (F := F) (v133 m ρ c) :=
  (raw11_v145 (W22 m ρ c)).trans (by rw [v133_at22 m ρ c] <;> try rfl)

theorem v146_eq (c : Dev nD) : v146 m ρ c = KT.KT6_v15 (F := F) (v135 m ρ c) :=
  (raw11_v146 (W22 m ρ c)).trans (by rw [v135_at22 m ρ c] <;> try rfl)

theorem v148_eq (c : Dev nD) : v148 m ρ c = KT.KT18_v120 (F := F) (v147_1 m ρ c) :=
  (raw12_v148 (W24 m ρ c)).trans (by rw [v147_1_at24 m ρ c] <;> try rfl)

theorem v149_eq (c : Dev nD) : v149 m ρ c = KT.KT18_v120 (F := F) (v147_2 m ρ c) :=
  (raw12_v149 (W24 m ρ c)).trans (by rw [v147_2_at24 m ρ c] <;> try rfl)

theorem v150_eq (c : Dev nD) : v150 m ρ c = KT.KT4_v13 (F := F) (m ((c : Thread nD τ).loc main_arg23)) :=
  (raw12_v150 (W24 m ρ c)).trans (by rw [arg23_at24 m ρ c] <;> try rfl)

theorem v155_eq (c : Dev nD) : v155 m ρ c = KT.KT5_v14 (F := F) (m ((c : Thread nD τ).loc main_arg23)) :=
  (raw12_v155 (W24 m ρ c)).trans (by rw [arg23_at24 m ρ c] <;> try rfl)

theorem v160_eq (c : Dev nD) : v160 m ρ c = KT.KT6_v15 (F := F) (m ((c : Thread nD τ).loc main_arg24)) :=
  (raw12_v160 (W24 m ρ c)).trans (by rw [arg24_at24 m ρ c] <;> try rfl)

theorem v161_eq (c : Dev nD) : v161 m ρ c = KT.KT17_v118 (F := F) (m ((c : Thread nD τ).loc main_arg17)) :=
  (raw12_v161 (W24 m ρ c)).trans (by rw [arg17_at24 m ρ c] <;> try rfl)

theorem v162_eq (c : Dev nD) : v162 m ρ c = KT.KT17_v118 (F := F) (m ((c : Thread nD τ).loc main_arg18)) :=
  (raw12_v162 (W24 m ρ c)).trans (by rw [arg18_at24 m ρ c] <;> try rfl)

theorem v163_eq (c : Dev nD) : v163 m ρ c = KT.KT21_v140 (F := F) (m ((c : Thread nD τ).loc main_arg17)) :=
  (raw12_v163 (W24 m ρ c)).trans (by rw [arg17_at24 m ρ c] <;> try rfl)

theorem v164_eq (c : Dev nD) : v164 m ρ c = KT.KT21_v140 (F := F) (m ((c : Thread nD τ).loc main_arg18)) :=
  (raw12_v164 (W24 m ρ c)).trans (by rw [arg18_at24 m ρ c] <;> try rfl)

theorem v166_eq (c : Dev nD) : v166 m ρ c = KT.KT18_v120 (F := F) (v165_1 m ρ c) :=
  (raw13_v166 (W26 m ρ c)).trans (by rw [v165_1_at26 m ρ c] <;> try rfl)

theorem v167_eq (c : Dev nD) : v167 m ρ c = KT.KT18_v120 (F := F) (v165_2 m ρ c) :=
  (raw13_v167 (W26 m ρ c)).trans (by rw [v165_2_at26 m ρ c] <;> try rfl)

theorem v168_eq (c : Dev nD) : v168 m ρ c = KT.KT6_v15 (F := F) (m ((c : Thread nD τ).loc main_arg25)) :=
  (raw13_v168 (W26 m ρ c)).trans (by rw [arg25_at26 m ρ c] <;> try rfl)

theorem v169_eq (c : Dev nD) : v169 m ρ c = KT.KT6_v15 (F := F) (m ((c : Thread nD τ).loc main_arg26)) :=
  (raw13_v169 (W26 m ρ c)).trans (by rw [arg26_at26 m ρ c] <;> try rfl)

theorem v171_eq (c : Dev nD) : v171 m ρ c = KT.KT22_v171 (F := F) (m ((c : Thread nD τ).loc main_arg0)) :=
  (raw14_v171 (W28 m ρ c)).trans (by rw [arg0_at28 m ρ c] <;> try rfl)

theorem v173_eq (c : Dev nD) : v173 m ρ c = KT.KT23_v173 (F := F) (v172 m ρ c) :=
  (raw15_v173 (W30 m ρ c)).trans (by rw [v172_at30 m ρ c] <;> try rfl)

theorem v175_eq (c : Dev nD) : v175 m ρ c = KT.KT23_v173 (F := F) (v174 m ρ c) :=
  (raw16_v175 (W32 m ρ c)).trans (by rw [v174_at32 m ρ c] <;> try rfl)

theorem v177_eq (c : Dev nD) : v177 m ρ c = KT.KT23_v173 (F := F) (v176 m ρ c) :=
  (raw17_v177 (W34 m ρ c)).trans (by rw [v176_at34 m ρ c] <;> try rfl)

theorem v178_eq (c : Dev nD) : v178 m ρ c = KT.KT23_v173 (F := F) (m ((c : Thread nD τ).loc main_arg3)) :=
  (raw17_v178 (W34 m ρ c)).trans (by rw [arg3_at34 m ρ c] <;> try rfl)

theorem v180_eq (c : Dev nD) : v180 m ρ c = KT.KT24_v180 (F := F) (m ((c : Thread nD τ).loc main_arg11)) :=
  (raw17_v180 (W34 m ρ c)).trans (by rw [arg11_at34 m ρ c] <;> try rfl)

theorem v184_eq (c : Dev nD) : v184 m ρ c = KT.KT25_v184 (F := F) (m ((c : Thread nD τ).loc main_arg13)) :=
  (raw17_v184 (W34 m ρ c)).trans (by rw [arg13_at34 m ρ c] <;> try rfl)

theorem v186_eq (c : Dev nD) : v186 m ρ c = KT.KT25_v184 (F := F) (m ((c : Thread nD τ).loc main_arg14)) :=
  (raw17_v186 (W34 m ρ c)).trans (by rw [arg14_at34 m ρ c] <;> try rfl)

theorem v188_eq (c : Dev nD) : v188 m ρ c = KT.KT24_v180 (F := F) (m ((c : Thread nD τ).loc main_arg15)) :=
  (raw17_v188 (W34 m ρ c)).trans (by rw [arg15_at34 m ρ c] <;> try rfl)

theorem v190_eq (c : Dev nD) : v190 m ρ c = KT.KT25_v184 (F := F) (m ((c : Thread nD τ).loc main_arg16)) :=
  (raw17_v190 (W34 m ρ c)).trans (by rw [arg16_at34 m ρ c] <;> try rfl)

theorem v191_eq (c : Dev nD) : v191 m ρ c = KT.KT26_v191 (F := F) (m ((c : Thread nD τ).loc main_arg12)) :=
  (raw17_v191 (W34 m ρ c)).trans (by rw [arg12_at34 m ρ c] <;> try rfl)

theorem v193_eq (c : Dev nD) : v193 m ρ c = KT.KT27_v193 (F := F) (v192_1 m ρ c) :=
  (raw18_v193 (W36 m ρ c)).trans (by rw [v192_1_at36 m ρ c] <;> try rfl)

theorem v194_eq (c : Dev nD) : v194 m ρ c = KT.KT27_v193 (F := F) (v192_2 m ρ c) :=
  (raw18_v194 (W36 m ρ c)).trans (by rw [v192_2_at36 m ρ c] <;> try rfl)

theorem v195_eq (c : Dev nD) : v195 m ρ c = KT.KT6_v15 (F := F) (v190 m ρ c) :=
  (raw18_v195 (W36 m ρ c)).trans (by rw [v190_at36 m ρ c] <;> try rfl)

theorem v196_eq (c : Dev nD) : v196 m ρ c = KT.KT6_v15 (F := F) (v184 m ρ c) :=
  (raw18_v196 (W36 m ρ c)).trans (by rw [v184_at36 m ρ c] <;> try rfl)

theorem v197_eq (c : Dev nD) : v197 m ρ c = KT.KT6_v15 (F := F) (v186 m ρ c) :=
  (raw18_v197 (W36 m ρ c)).trans (by rw [v186_at36 m ρ c] <;> try rfl)

theorem v199_eq (c : Dev nD) : v199 m ρ c = KT.KT27_v193 (F := F) (v198_1 m ρ c) :=
  (raw19_v199 (W38 m ρ c)).trans (by rw [v198_1_at38 m ρ c] <;> try rfl)

theorem v200_eq (c : Dev nD) : v200 m ρ c = KT.KT27_v193 (F := F) (v198_2 m ρ c) :=
  (raw19_v200 (W38 m ρ c)).trans (by rw [v198_2_at38 m ρ c] <;> try rfl)

theorem v202_eq (c : Dev nD) : v202 m ρ c = KT.KT28_v202 (F := F) (m ((c : Thread nD τ).loc main_arg11)) :=
  (raw19_v202 (W38 m ρ c)).trans (by rw [arg11_at38 m ρ c] <;> try rfl)

theorem v206_eq (c : Dev nD) : v206 m ρ c = KT.KT29_v206 (F := F) (m ((c : Thread nD τ).loc main_arg13)) :=
  (raw19_v206 (W38 m ρ c)).trans (by rw [arg13_at38 m ρ c] <;> try rfl)

theorem v208_eq (c : Dev nD) : v208 m ρ c = KT.KT29_v206 (F := F) (m ((c : Thread nD τ).loc main_arg14)) :=
  (raw19_v208 (W38 m ρ c)).trans (by rw [arg14_at38 m ρ c] <;> try rfl)

theorem v210_eq (c : Dev nD) : v210 m ρ c = KT.KT28_v202 (F := F) (m ((c : Thread nD τ).loc main_arg15)) :=
  (raw19_v210 (W38 m ρ c)).trans (by rw [arg15_at38 m ρ c] <;> try rfl)

theorem v212_eq (c : Dev nD) : v212 m ρ c = KT.KT29_v206 (F := F) (m ((c : Thread nD τ).loc main_arg16)) :=
  (raw19_v212 (W38 m ρ c)).trans (by rw [arg16_at38 m ρ c] <;> try rfl)

theorem v213_eq (c : Dev nD) : v213 m ρ c = KT.KT30_v213 (F := F) (m ((c : Thread nD τ).loc main_arg12)) :=
  (raw19_v213 (W38 m ρ c)).trans (by rw [arg12_at38 m ρ c] <;> try rfl)

theorem v215_eq (c : Dev nD) : v215 m ρ c = KT.KT27_v193 (F := F) (v214_1 m ρ c) :=
  (raw20_v215 (W40 m ρ c)).trans (by rw [v214_1_at40 m ρ c] <;> try rfl)

theorem v216_eq (c : Dev nD) : v216 m ρ c = KT.KT27_v193 (F := F) (v214_2 m ρ c) :=
  (raw20_v216 (W40 m ρ c)).trans (by rw [v214_2_at40 m ρ c] <;> try rfl)

theorem v217_eq (c : Dev nD) : v217 m ρ c = KT.KT6_v15 (F := F) (v212 m ρ c) :=
  (raw20_v217 (W40 m ρ c)).trans (by rw [v212_at40 m ρ c] <;> try rfl)

theorem v218_eq (c : Dev nD) : v218 m ρ c = KT.KT6_v15 (F := F) (v206 m ρ c) :=
  (raw20_v218 (W40 m ρ c)).trans (by rw [v206_at40 m ρ c] <;> try rfl)

theorem v219_eq (c : Dev nD) : v219 m ρ c = KT.KT6_v15 (F := F) (v208 m ρ c) :=
  (raw20_v219 (W40 m ρ c)).trans (by rw [v208_at40 m ρ c] <;> try rfl)

theorem v221_eq (c : Dev nD) : v221 m ρ c = KT.KT27_v193 (F := F) (v220_1 m ρ c) :=
  (raw21_v221 (W42 m ρ c)).trans (by rw [v220_1_at42 m ρ c] <;> try rfl)

theorem v222_eq (c : Dev nD) : v222 m ρ c = KT.KT27_v193 (F := F) (v220_2 m ρ c) :=
  (raw21_v222 (W42 m ρ c)).trans (by rw [v220_2_at42 m ρ c] <;> try rfl)

theorem v224_eq (c : Dev nD) : v224 m ρ c = KT.KT31_v224 (F := F) (m ((c : Thread nD τ).loc main_arg11)) :=
  (raw21_v224 (W42 m ρ c)).trans (by rw [arg11_at42 m ρ c] <;> try rfl)

theorem v228_eq (c : Dev nD) : v228 m ρ c = KT.KT32_v228 (F := F) (m ((c : Thread nD τ).loc main_arg13)) :=
  (raw21_v228 (W42 m ρ c)).trans (by rw [arg13_at42 m ρ c] <;> try rfl)

theorem v230_eq (c : Dev nD) : v230 m ρ c = KT.KT32_v228 (F := F) (m ((c : Thread nD τ).loc main_arg14)) :=
  (raw21_v230 (W42 m ρ c)).trans (by rw [arg14_at42 m ρ c] <;> try rfl)

theorem v232_eq (c : Dev nD) : v232 m ρ c = KT.KT31_v224 (F := F) (m ((c : Thread nD τ).loc main_arg15)) :=
  (raw21_v232 (W42 m ρ c)).trans (by rw [arg15_at42 m ρ c] <;> try rfl)

theorem v234_eq (c : Dev nD) : v234 m ρ c = KT.KT32_v228 (F := F) (m ((c : Thread nD τ).loc main_arg16)) :=
  (raw21_v234 (W42 m ρ c)).trans (by rw [arg16_at42 m ρ c] <;> try rfl)

theorem v235_eq (c : Dev nD) : v235 m ρ c = KT.KT33_v235 (F := F) (m ((c : Thread nD τ).loc main_arg12)) :=
  (raw21_v235 (W42 m ρ c)).trans (by rw [arg12_at42 m ρ c] <;> try rfl)

theorem v237_eq (c : Dev nD) : v237 m ρ c = KT.KT27_v193 (F := F) (v236_1 m ρ c) :=
  (raw22_v237 (W44 m ρ c)).trans (by rw [v236_1_at44 m ρ c] <;> try rfl)

theorem v238_eq (c : Dev nD) : v238 m ρ c = KT.KT27_v193 (F := F) (v236_2 m ρ c) :=
  (raw22_v238 (W44 m ρ c)).trans (by rw [v236_2_at44 m ρ c] <;> try rfl)

theorem v239_eq (c : Dev nD) : v239 m ρ c = KT.KT6_v15 (F := F) (v234 m ρ c) :=
  (raw22_v239 (W44 m ρ c)).trans (by rw [v234_at44 m ρ c] <;> try rfl)

theorem v240_eq (c : Dev nD) : v240 m ρ c = KT.KT6_v15 (F := F) (v228 m ρ c) :=
  (raw22_v240 (W44 m ρ c)).trans (by rw [v228_at44 m ρ c] <;> try rfl)

theorem v241_eq (c : Dev nD) : v241 m ρ c = KT.KT6_v15 (F := F) (v230 m ρ c) :=
  (raw22_v241 (W44 m ρ c)).trans (by rw [v230_at44 m ρ c] <;> try rfl)

theorem v243_eq (c : Dev nD) : v243 m ρ c = KT.KT27_v193 (F := F) (v242_1 m ρ c) :=
  (raw23_v243 (W46 m ρ c)).trans (by rw [v242_1_at46 m ρ c] <;> try rfl)

theorem v244_eq (c : Dev nD) : v244 m ρ c = KT.KT27_v193 (F := F) (v242_2 m ρ c) :=
  (raw23_v244 (W46 m ρ c)).trans (by rw [v242_2_at46 m ρ c] <;> try rfl)

theorem v245_eq (c : Dev nD) : v245 m ρ c = KT.KT34_v245 (F := F) (m ((c : Thread nD τ).loc main_arg27)) :=
  (raw23_v245 (W46 m ρ c)).trans (by rw [arg27_at46 m ρ c] <;> try rfl)

theorem v250_eq (c : Dev nD) : v250 m ρ c = KT.KT35_v250 (F := F) (m ((c : Thread nD τ).loc main_arg27)) :=
  (raw23_v250 (W46 m ρ c)).trans (by rw [arg27_at46 m ρ c] <;> try rfl)

theorem v255_eq (c : Dev nD) : v255 m ρ c = KT.KT36_v255 (F := F) (m ((c : Thread nD τ).loc main_arg27)) :=
  (raw23_v255 (W46 m ρ c)).trans (by rw [arg27_at46 m ρ c] <;> try rfl)

theorem v260_eq (c : Dev nD) : v260 m ρ c = KT.KT6_v15 (F := F) (m ((c : Thread nD τ).loc main_arg28)) :=
  (raw23_v260 (W46 m ρ c)).trans (by rw [arg28_at46 m ρ c] <;> try rfl)

theorem v261_eq (c : Dev nD) : v261 m ρ c = KT.KT26_v191 (F := F) (m ((c : Thread nD τ).loc main_arg17)) :=
  (raw23_v261 (W46 m ρ c)).trans (by rw [arg17_at46 m ρ c] <;> try rfl)

theorem v262_eq (c : Dev nD) : v262 m ρ c = KT.KT26_v191 (F := F) (m ((c : Thread nD τ).loc main_arg18)) :=
  (raw23_v262 (W46 m ρ c)).trans (by rw [arg18_at46 m ρ c] <;> try rfl)

theorem v263_eq (c : Dev nD) : v263 m ρ c = KT.KT30_v213 (F := F) (m ((c : Thread nD τ).loc main_arg17)) :=
  (raw23_v263 (W46 m ρ c)).trans (by rw [arg17_at46 m ρ c] <;> try rfl)

theorem v264_eq (c : Dev nD) : v264 m ρ c = KT.KT30_v213 (F := F) (m ((c : Thread nD τ).loc main_arg18)) :=
  (raw23_v264 (W46 m ρ c)).trans (by rw [arg18_at46 m ρ c] <;> try rfl)

theorem v265_eq (c : Dev nD) : v265 m ρ c = KT.KT33_v235 (F := F) (m ((c : Thread nD τ).loc main_arg17)) :=
  (raw23_v265 (W46 m ρ c)).trans (by rw [arg17_at46 m ρ c] <;> try rfl)

theorem v266_eq (c : Dev nD) : v266 m ρ c = KT.KT33_v235 (F := F) (m ((c : Thread nD τ).loc main_arg18)) :=
  (raw23_v266 (W46 m ρ c)).trans (by rw [arg18_at46 m ρ c] <;> try rfl)

theorem v268_eq (c : Dev nD) : v268 m ρ c = KT.KT27_v193 (F := F) (v267_1 m ρ c) :=
  (raw24_v268 (W48 m ρ c)).trans (by rw [v267_1_at48 m ρ c] <;> try rfl)

theorem v269_eq (c : Dev nD) : v269 m ρ c = KT.KT27_v193 (F := F) (v267_2 m ρ c) :=
  (raw24_v269 (W48 m ρ c)).trans (by rw [v267_2_at48 m ρ c] <;> try rfl)

theorem v270_eq (c : Dev nD) : v270 m ρ c = KT.KT6_v15 (F := F) (m ((c : Thread nD τ).loc main_arg29)) :=
  (raw24_v270 (W48 m ρ c)).trans (by rw [arg29_at48 m ρ c] <;> try rfl)

theorem v271_eq (c : Dev nD) : v271 m ρ c = KT.KT6_v15 (F := F) (m ((c : Thread nD τ).loc main_arg30)) :=
  (raw24_v271 (W48 m ρ c)).trans (by rw [arg30_at48 m ρ c] <;> try rfl)

theorem v273_eq (c : Dev nD) : v273 m ρ c = KT.KT37_v273 (F := F) (v272 m ρ c) :=
  (raw25_v273 (W50 m ρ c)).trans (by rw [v272_at50 m ρ c] <;> try rfl)

end Cert.KernelIdeal.KVal

end
-- ==== Proof.Spec.lean ====
/-
  The mathematics both programs compute, index by index on the extended reals, over arrays of any number of rows.

  A graph layer is built from four things: a LINEAR map of the rows (a matrix product plus a bias), BATCH NORMALISATION
  over the rows followed by the ramp max(·, 0), row GATHERS / a scatter-add (kept as the host's own functions), and small
  BATCHED matrix products. Batch normalisation appears in two spellings. The centred one takes the column mean m and
  then the mean of (z − m)²; the raw-moment one takes the column sums s = Σ z and q = Σ z², sets m = s/n and the variance
  to max(q/n − m², 0). Over the reals these agree, Σ(z − m)² / n = Σ z² / n − m² ≥ 0, so the clamp is idle; on the
  extended reals the identity needs every z to be a real number, which is why finiteness is carried along
  ('AllReal'). The other laws here are regroupings of finite sums: a product against a matrix of 2·K (3·K) rows is the
  sum of the products against its K-row pieces, and a sum over T·B rows is the sum over T tiles of the tile sums.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- A matrix of R rows and C columns of extended reals, indexed as the programs' rank-2 arrays are. -/
abbrev Mat (R C : Nat) : Type := (⟨2, ![R, C]⟩ : Shape).Idx → EReal
/-- A vector of C extended reals. -/
abbrev Row (C : Nat) : Type := (⟨1, ![C]⟩ : Shape).Idx → EReal
/-- A stack of A matrices of B rows and C columns. -/
abbrev Cube (A B C : Nat) : Type := (⟨3, ![A, B, C]⟩ : Shape).Idx → EReal

/-- Every entry is a real number (neither infinity). -/
def AllReal {S : Shape} (a : S.Idx → EReal) : Prop := ∀ i, a i ≠ ⊤ ∧ a i ≠ ⊥

/-! ## The linear map of the rows -/

/-- The matrix product v·W, no bias. -/
def mm {R K C : Nat} (v : Mat R K) (W : Mat K C) : Mat R C :=
  fun j => ∑ k : Fin K, v (ix2 (j 0) k) * W (ix2 k (j 1))

/-- v·W + b, the bias a vector (the reference's spelling). -/
def lin {R K C : Nat} (v : Mat R K) (W : Mat K C) (b : Row C) : Mat R C :=
  fun j => mm v W j + b (ix1 (j 1))

/-- b + v·W, the bias a one-row matrix added first (the kernel's spelling). -/
def klin {R K C : Nat} (v : Mat R K) (W : Mat K C) (b : Mat 1 C) : Mat R C :=
  fun j => b (ix2 0 (j 1)) + mm v W j

/-- (b + v₀·W₀) + v₁·W₁. -/
def klin2 {R K C : Nat} (v0 : Mat R K) (W0 : Mat K C) (v1 : Mat R K) (W1 : Mat K C) (b : Mat 1 C) : Mat R C :=
  fun j => (b (ix2 0 (j 1)) + mm v0 W0 j) + mm v1 W1 j

/-- ((b + v₀·W₀) + v₁·W₁) + v₂·W₂. -/
def klin3 {R K C : Nat} (v0 : Mat R K) (W0 : Mat K C) (v1 : Mat R K) (W1 : Mat K C) (v2 : Mat R K) (W2 : Mat K C)
    (b : Mat 1 C) : Mat R C :=
  fun j => ((b (ix2 0 (j 1)) + mm v0 W0 j) + mm v1 W1 j) + mm v2 W2 j

/-- The ramp, entry by entry. -/
def relu {S : Shape} (z : S.Idx → EReal) : S.Idx → EReal := fun j => max (z j) 0

/-- Two matrices side by side: K columns then K more. -/
def hcat2 {R K K2 : Nat} (hK : K + K = K2) (u0 u1 : Mat R K) : Mat R K2 :=
  fun j => if h : (j 1).val < K then u0 (ix2 (j 0) ⟨(j 1).val, h⟩)
    else u1 (ix2 (j 0) ⟨(j 1).val - K, by have h1 : (j 1).val < K2 := idx2_lt1 j; omega⟩)

/-- Three matrices side by side. -/
def hcat3 {R K K3 : Nat} (hK : K + K + K = K3) (u0 u1 u2 : Mat R K) : Mat R K3 :=
  fun j => if h : (j 1).val < K then u0 (ix2 (j 0) ⟨(j 1).val, h⟩)
    else if h' : (j 1).val < K + K then u1 (ix2 (j 0) ⟨(j 1).val - K, by omega⟩)
    else u2 (ix2 (j 0) ⟨(j 1).val - (K + K), by have h1 : (j 1).val < K3 := idx2_lt1 j; omega⟩)

/-- Rows off .. off+K of a matrix. -/
def rowsFrom {N K C : Nat} (off : Nat) (h : off + K ≤ N) (W : Mat N C) : Mat K C :=
  fun j => W (ix2 ⟨off + (j 0).val, by have h0 : (j 0).val < K := idx2_lt0 j; omega⟩ (j 1))

/-- A vector as a one-row matrix. -/
def asRow {C : Nat} (b : Row C) : Mat 1 C := fun j => b (ix1 (j 1))

/-! ## Column statistics -/

/-- The column sums. -/
def colsum {R C : Nat} (z : Mat R C) : Row C := fun j => ∑ r : Fin R, z (ix2 r (j 0))
/-- The column sums of squares. -/
def colsumsq {R C : Nat} (z : Mat R C) : Row C := fun j => ∑ r : Fin R, z (ix2 r (j 0)) * z (ix2 r (j 0))

/-- Tile t's column sums, for a matrix of R = T·B rows cut into T tiles of B rows (the kernel's per-tile partials). -/
def tilesum {R C : Nat} (T B : Nat) (hR : T * B = R) (z : Mat R C) : Cube T 1 C :=
  fun j => ∑ i : Fin B, z (ix2 ⟨(j 0).val * B + i.val, by
    have h0 : (j 0).val < T := (j 0).isLt
    have h1 := i.isLt
    calc (j 0).val * B + i.val < (j 0).val * B + B := by omega
      _ = ((j 0).val + 1) * B := by ring
      _ ≤ T * B := Nat.mul_le_mul_right _ h0
      _ = R := hR⟩ (j 2))
/-- Tile t's column sums of squares. -/
def tilesumsq {R C : Nat} (T B : Nat) (hR : T * B = R) (z : Mat R C) : Cube T 1 C := tilesum T B hR (fun j => z j * z j)

/-- The tiles' partials added up: init + Σₜ p[t, 0, c], as a one-row matrix. -/
def addTiles {T C : Nat} (init : EReal) (p : Cube T 1 C) : Mat 1 C := fun j => init + ∑ t : Fin T, p (ix3 t 0 (j 1))

/-! ## Batch normalisation and the ramp -/

/-- The centred spelling: m = (i₀ + Σ z)/n, v = (i₀ + Σ (z − m)²)/n, then max(((z − m)·rsqrt(v + ε))·g + b, 0). -/
def bnrelu {R C : Nat} (i0 n eps : EReal) (z : Mat R C) (g b : Row C) : Mat R C := fun j =>
  let m : EReal := Ideal.div (i0 + colsum z (ix1 (j 1))) n
  let v : EReal := Ideal.div (i0 + ∑ r : Fin R, (z (ix2 r (j 1)) - m) * (z (ix2 r (j 1)) - m)) n
  max ((z j - m) * Ideal.rsqrt (v + eps) * g (ix1 (j 1)) + b (ix1 (j 1))) 0

/-- The raw-moment spelling from given column sums s and sums of squares q (one-row matrices): m = s·k,
    v = max(q·k − m·m, 0), then max(((z − m)·rsqrt(v + ε))·g + b, 0). -/
def kbnrelu {R C : Nat} (k eps : EReal) (s q : Mat 1 C) (z : Mat R C) (g b : Mat 1 C) : Mat R C := fun j =>
  let c := ix2 (0 : Fin 1) (j 1)
  let m : EReal := s c * k
  let v : EReal := max (q c * k - m * m) 0
  max ((z j - m) * Ideal.rsqrt (v + eps) * g c + b c) 0

/-! ## Batched products -/

/-- out[g] = a[g]·b[g]. -/
def bmm {G M K N : Nat} (a : Cube G M K) (b : Cube G K N) : Cube G M N :=
  fun j => ∑ k : Fin K, a (ix3 (j 0) (j 1) k) * b (ix3 (j 0) k (j 2))

/-- A stack of G matrices of M rows laid out as one matrix of R = G·M rows (row-major: row g·M + r). -/
def flat {G M C R : Nat} (hR : G * M = R) (a : Cube G M C) : Mat R C :=
  fun j => a (ix3 ⟨(j 0).val / M, by
      have h : (j 0).val < G * M := lt_of_lt_of_eq (idx2_lt0 j) hR.symm
      rcases Nat.eq_zero_or_pos M with hM | hM
      · subst hM; simp at h
      · exact Nat.div_lt_of_lt_mul (lt_of_lt_of_eq h (Nat.mul_comm G M))⟩
    ⟨(j 0).val % M, by
      have h : (j 0).val < G * M := lt_of_lt_of_eq (idx2_lt0 j) hR.symm
      rcases Nat.eq_zero_or_pos M with hM | hM
      · subst hM; simp at h
      · exact Nat.mod_lt _ hM⟩ (j 1))

end Cert.Spec

end
-- ==== Proof.Consts.lean ====
/-
  The float constants the two programs spell, as the extended reals their bit patterns denote. The row counts 16384,
  262144 and 4096 are powers of two, so their reciprocals 2⁻¹⁴, 2⁻¹⁸ and 2⁻¹² are exact binary floats: multiplying by the
  reciprocal and dividing by the count are the same operation on every extended real. The ε of the normalisation is
  the binary float nearest 10⁻⁵, a positive real; both programs carry the same word, so only its sign matters.
-/
import Idealize.ShloMosaic.PureOps.Ideal

noncomputable section

namespace Cert.Consts

open Idealize.ShloMosaic

/-- The word of +0.0. -/
theorem ofBits_zero : Ideal.ofBits .f32 0x00000000#32 = 0 := by
  simp [Ideal.ofBits, Ideal.ieee]

/-- 2⁻¹⁴ = 1/16384. -/
abbrev k14 : EReal := Ideal.ofBits .f32 0x38800000#32
/-- 2⁻¹⁸ = 1/262144. -/
abbrev k18 : EReal := Ideal.ofBits .f32 0x36800000#32
/-- 2⁻¹² = 1/4096. -/
abbrev k12 : EReal := Ideal.ofBits .f32 0x39800000#32
/-- The normalisation's ε (the float nearest 10⁻⁵). -/
abbrev eps : EReal := Ideal.ofBits .f32 0x3727C5AC#32
/-- 16384.0. -/
abbrev n14 : EReal := Ideal.ofBits .f32 0x46800000#32
/-- 262144.0. -/
abbrev n18 : EReal := Ideal.ofBits .f32 0x48800000#32
/-- 4096.0. -/
abbrev n12 : EReal := Ideal.ofBits .f32 0x45800000#32

theorem k14_eq : k14 = ((((16384 : Nat) : ℝ)⁻¹ : ℝ) : EReal) := by
  simp [k14, Ideal.ofBits, Ideal.ieee, -EReal.coe_mul]; norm_num
theorem k18_eq : k18 = ((((262144 : Nat) : ℝ)⁻¹ : ℝ) : EReal) := by
  simp [k18, Ideal.ofBits, Ideal.ieee, -EReal.coe_mul]; norm_num
theorem k12_eq : k12 = ((((4096 : Nat) : ℝ)⁻¹ : ℝ) : EReal) := by
  simp [k12, Ideal.ofBits, Ideal.ieee, -EReal.coe_mul]; norm_num
theorem n14_eq : n14 = (((16384 : Nat) : ℝ) : EReal) := by
  simp [n14, Ideal.ofBits, Ideal.ieee, -EReal.coe_mul]; norm_num
theorem n18_eq : n18 = (((262144 : Nat) : ℝ) : EReal) := by
  simp [n18, Ideal.ofBits, Ideal.ieee, -EReal.coe_mul]; norm_num
theorem n12_eq : n12 = (((4096 : Nat) : ℝ) : EReal) := by
  simp [n12, Ideal.ofBits, Ideal.ieee, -EReal.coe_mul]; norm_num

/-- ε is a positive real. -/
theorem eps_pos : ∃ e : ℝ, eps = (e : EReal) ∧ 0 < e := by
  refine ⟨(10995116 : ℝ) / 2 ^ 40, ?_, by positivity⟩
  simp [eps, Ideal.ofBits, Ideal.ieee, -EReal.coe_mul]; norm_num

end Cert.Consts

end
-- ==== Proof.SpecNet.lean ====
/-
  The layer both programs compute, once, on the extended reals: a graph-network layer with three convolutions.
  Node branch: messages max(0, [x[src] | e]·W + b) are scatter-added to their destination nodes; two two-layer
  normalised perceptrons ("updates") act on (aggregate + x) and on (pooled clusters + x); their outputs side by side go
  through a combining linear layer and a last normalisation. Edge branch: the same with (x[dst] + x[src]) + e and
  (up[dst] + up[src]) + e. Cluster branch: three updates on the pooled products plus the cluster attributes, combined.
  The row gathers and the scatter-add are kept as given maps of matrices (both programs apply the same host
  operations there); all that is used of them is that they keep real entries real.
-/
import proofs.«427658_j89163521065156_2_alg».proof.Proof.Spec
import proofs.«427658_j89163521065156_2_alg».proof.Proof.Consts

noncomputable section

open scoped BigOperators
open Idealize.ShloMosaic Idealize.ShloMosaic.ValueIdx

namespace Cert.Spec

/-- The sum of two matrices (arrays of any one shape), entry by entry. -/
def addM {S : Shape} (a x : S.Idx → EReal) : S.Idx → EReal := fun j => a j + x j

/-- A matrix of R = G·M rows cut into a stack of G matrices of M rows (the inverse of 'flat'). -/
def unflat {G M C R : Nat} (hR : G * M = R) (a : Mat R C) : Cube G M C :=
  fun j => a (ix2 ⟨(j 0).val * M + (j 1).val, by
    have h0 : (j 0).val < G := (j 0).isLt
    have h1 : (j 1).val < M := (j 1).isLt
    calc (j 0).val * M + (j 1).val < (j 0).val * M + M := by omega
      _ = ((j 0).val + 1) * M := by ring
      _ ≤ G * M := Nat.mul_le_mul_right _ h0
      _ = R := hR⟩ (j 2))

/-- Everything the layer is given. The seven updates' parameters are families over the update's number
    (0, 1: node branch; 2, 3: edge branch; 4, 5, 6: cluster branch). -/
structure Inp where
  x : Mat 16384 128
  e : Mat 262144 128
  attr1 : Cube 64 64 128
  attr2 : Cube 64 8 128
  adj1 : Cube 64 64 64
  nc1 : Cube 64 256 64
  nc2 : Cube 64 64 8
  cn1 : Cube 64 64 256
  msgW : Mat 256 128
  msgb : Row 128
  W1 : Fin 7 → Mat 128 128
  b1 : Fin 7 → Row 128
  g1 : Fin 7 → Row 128
  be1 : Fin 7 → Row 128
  W2 : Fin 7 → Mat 128 128
  b2 : Fin 7 → Row 128
  g2 : Fin 7 → Row 128
  be2 : Fin 7 → Row 128
  nW : Mat 256 128
  nb : Row 128
  ng : Row 128
  nbe : Row 128
  eW : Mat 256 128
  eb : Row 128
  eg : Row 128
  ebe : Row 128
  sW : Mat 384 128
  sb : Row 128
  sg : Row 128
  sbe : Row 128
  /-- rows gathered by the edges' source nodes -/
  gatS : Mat 16384 128 → Mat 262144 128
  /-- rows gathered by the edges' destination nodes -/
  gatD : Mat 16384 128 → Mat 262144 128
  /-- edge rows scatter-added onto zeros at their destination nodes -/
  scaD : Mat 262144 128 → Mat 16384 128

namespace Net

variable (I : Inp)

/-- Batch normalisation and ramp at R rows: the count n as the float the programs carry. -/
def bn16384 (z : Mat 16384 128) (g b : Row 128) : Mat 16384 128 := bnrelu 0 Cert.Consts.n14 Cert.Consts.eps z g b
def bn262144 (z : Mat 262144 128) (g b : Row 128) : Mat 262144 128 := bnrelu 0 Cert.Consts.n18 Cert.Consts.eps z g b
def bn4096 (z : Mat 4096 128) (g b : Row 128) : Mat 4096 128 := bnrelu 0 Cert.Consts.n12 Cert.Consts.eps z g b

/-- The pooled clusters as node rows. -/
def up : Mat 16384 128 := flat (G := 64) (M := 256) rfl (bmm I.nc1 I.attr1)
def xsrc : Mat 262144 128 := I.gatS I.x
def xdst : Mat 262144 128 := I.gatD I.x
def upsrc : Mat 262144 128 := I.gatS (up I)
def updst : Mat 262144 128 := I.gatD (up I)
/-- The edge messages before and after the ramp, and their sums at the destination nodes. -/
def msgPre : Mat 262144 128 := lin (hcat2 (K := 128) (K2 := 256) rfl (xsrc I) I.e) I.msgW I.msgb
def msg : Mat 262144 128 := relu (msgPre I)
def agg : Mat 16384 128 := I.scaD (msg I)

/-- The three kinds of update input. -/
def inN0 : Mat 16384 128 := addM (agg I) I.x
def inN1 : Mat 16384 128 := addM (up I) I.x
def inE2 : Mat 262144 128 := addM (addM (xdst I) (xsrc I)) I.e
def inE3 : Mat 262144 128 := addM (addM (updst I) (upsrc I)) I.e
def inS4 : Mat 4096 128 := flat (G := 64) (M := 64) rfl (addM (bmm I.adj1 I.attr1) I.attr1)
def inS5 : Mat 4096 128 := flat (G := 64) (M := 64) rfl (addM (bmm I.nc2 I.attr2) I.attr1)
def inS6 : Mat 4096 128 := flat (G := 64) (M := 64) rfl (addM (bmm I.cn1 (unflat (G := 64) (M := 256) rfl I.x)) I.attr1)

/-- Update i's first pre-activation, first activation, second pre-activation and output, at each row count. -/
def z1N (i : Fin 7) (v : Mat 16384 128) : Mat 16384 128 := lin v (I.W1 i) (I.b1 i)
def h1N (i : Fin 7) (v : Mat 16384 128) : Mat 16384 128 := bn16384 (z1N I i v) (I.g1 i) (I.be1 i)
def z2N (i : Fin 7) (v : Mat 16384 128) : Mat 16384 128 := lin (h1N I i v) (I.W2 i) (I.b2 i)
def uN (i : Fin 7) (v : Mat 16384 128) : Mat 16384 128 := bn16384 (z2N I i v) (I.g2 i) (I.be2 i)
def z1E (i : Fin 7) (v : Mat 262144 128) : Mat 262144 128 := lin v (I.W1 i) (I.b1 i)
def h1E (i : Fin 7) (v : Mat 262144 128) : Mat 262144 128 := bn262144 (z1E I i v) (I.g1 i) (I.be1 i)
def z2E (i : Fin 7) (v : Mat 262144 128) : Mat 262144 128 := lin (h1E I i v) (I.W2 i) (I.b2 i)
def uE (i : Fin 7) (v : Mat 262144 128) : Mat 262144 128 := bn262144 (z2E I i v) (I.g2 i) (I.be2 i)
def z1S (i : Fin 7) (v : Mat 4096 128) : Mat 4096 128 := lin v (I.W1 i) (I.b1 i)
def h1S (i : Fin 7) (v : Mat 4096 128) : Mat 4096 128 := bn4096 (z1S I i v) (I.g1 i) (I.be1 i)
def z2S (i : Fin 7) (v : Mat 4096 128) : Mat 4096 128 := lin (h1S I i v) (I.W2 i) (I.b2 i)
def uS (i : Fin 7) (v : Mat 4096 128) : Mat 4096 128 := bn4096 (z2S I i v) (I.g2 i) (I.be2 i)

/-- The combining layers' pre-activations and the three results. -/
def zcN : Mat 16384 128 := lin (hcat2 (K := 128) (K2 := 256) rfl (uN I 0 (inN0 I)) (uN I 1 (inN1 I))) I.nW I.nb
def xOut : Mat 16384 128 := bn16384 (zcN I) I.ng I.nbe
def zcE : Mat 262144 128 := lin (hcat2 (K := 128) (K2 := 256) rfl (uE I 2 (inE2 I)) (uE I 3 (inE3 I))) I.eW I.eb
def eOut : Mat 262144 128 := bn262144 (zcE I) I.eg I.ebe
def zcS : Mat 4096 128 := lin (hcat3 (K := 128) (K3 := 384) rfl (uS I 4 (inS4 I)) (uS I 5 (inS5 I)) (uS I 6 (inS6 I))) I.sW I.sb
def sFlat : Mat 4096 128 := bn4096 (zcS I) I.sg I.sbe
def sOut : Cube 64 64 128 := unflat (G := 64) (M := 64) rfl (sFlat I)

end Net

end Cert.Spec

end
-- ==== Proof.SpecReal.lean ====
/-
  Real entries stay real: sums, products, the ramp, matrix products, side-by-side layouts, and batch normalisation
  with a positive ε (there the variance is a real ≥ 0, so v + ε > 0 and its reciprocal square root is a real).
-/
import proofs.«427658_j89163521065156_2_alg».proof.Proof.Spec

noncomputable section

open scoped BigOperators
open Idealize.ShloMosaic Idealize.ShloMosaic.ValueIdx

namespace Cert.Spec

/-! ## Scalars: an extended real that is neither infinity is a real number, and the arithmetic keeps it so -/

/-- "Is a real number": neither infinity. -/
private abbrev IsReal (a : EReal) : Prop := a ≠ ⊤ ∧ a ≠ ⊥

/-- Such an extended real is the image of a real number. -/
private theorem exists_real {a : EReal} (h : IsReal a) : ∃ x : ℝ, a = (x : EReal) :=
  ⟨a.toReal, (EReal.coe_toReal h.1 h.2).symm⟩

/-- The image of a real number is neither infinity. -/
private theorem real_coe (x : ℝ) : IsReal (x : EReal) := ⟨EReal.coe_ne_top x, EReal.coe_ne_bot x⟩

private theorem real_zero : IsReal (0 : EReal) := real_coe 0

/-- x + y of reals is the real x + y. -/
private theorem real_add {a b : EReal} (ha : IsReal a) (hb : IsReal b) : IsReal (a + b) := by
  obtain ⟨x, rfl⟩ := exists_real ha
  obtain ⟨y, rfl⟩ := exists_real hb
  rw [← EReal.coe_add]
  exact real_coe _

/-- x · y of reals is the real x · y. -/
private theorem real_mul {a b : EReal} (ha : IsReal a) (hb : IsReal b) : IsReal (a * b) := by
  obtain ⟨x, rfl⟩ := exists_real ha
  obtain ⟨y, rfl⟩ := exists_real hb
  rw [← EReal.coe_mul]
  exact real_coe _

/-- x − y of reals is the real x − y. -/
private theorem real_sub {a b : EReal} (ha : IsReal a) (hb : IsReal b) : IsReal (a - b) := by
  obtain ⟨x, rfl⟩ := exists_real ha
  obtain ⟨y, rfl⟩ := exists_real hb
  rw [← EReal.coe_sub]
  exact real_coe _

/-- max(a, 0) is one of a and 0, both real. -/
private theorem real_max0 {a : EReal} (ha : IsReal a) : IsReal (max a 0) := by
  rcases max_choice a 0 with h | h
  · rw [h]; exact ha
  · rw [h]; exact real_zero

/-- A choice between two real values is real whichever way the test falls. -/
private theorem real_dite {p : Prop} [Decidable p] {f : p → EReal} {g : ¬p → EReal}
    (hf : ∀ h, IsReal (f h)) (hg : ∀ h, IsReal (g h)) : IsReal (dite p f g) := by
  by_cases h : p
  · rw [dif_pos h]; exact hf h
  · rw [dif_neg h]; exact hg h

/-- A finite sum of reals is real: add one term at a time. -/
private theorem real_sum_aux {ι : Type} (s : Finset ι) (f : ι → EReal) (hf : ∀ i ∈ s, IsReal (f i)) :
    IsReal (∑ i ∈ s, f i) := by
  classical
  induction s using Finset.induction_on with
  | empty => rw [Finset.sum_empty]; exact real_zero
  | insert a s ha ih =>
    rw [Finset.sum_insert ha]
    exact real_add (hf a (Finset.mem_insert_self a s))
      (ih (fun i hi => hf i (Finset.mem_insert_of_mem hi)))

/-- The image of a finite sum of real numbers is the sum of the images. -/
private theorem coe_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Dividing a real x by a positive count R gives the real x · (1/R). -/
private theorem div_nat_coe {R : Nat} (hR : 0 < R) (x : ℝ) :
    Ideal.div (x : EReal) (((R : ℝ)) : EReal) = ((x * (1 / (R : ℝ)) : ℝ) : EReal) := by
  have h : (R : ℝ) ≠ 0 := by exact_mod_cast hR.ne'
  rw [Ideal.div_coe h, ← EReal.coe_mul]

private theorem real_div_nat {R : Nat} (hR : 0 < R) {a : EReal} (ha : IsReal a) :
    IsReal (Ideal.div a (((R : ℝ)) : EReal)) := by
  obtain ⟨x, rfl⟩ := exists_real ha
  rw [div_nat_coe hR]
  exact real_coe _

/-- The reciprocal square root of a positive real r is the real 1/√r. -/
private theorem real_rsqrt_pos {r : ℝ} (hr : 0 < r) : IsReal (Ideal.rsqrt (r : EReal)) := by
  rw [Ideal.rsqrt_coe, if_neg (not_lt.mpr hr.le), if_neg hr.ne']
  exact real_coe _

/-- Column sums of a real matrix are real. -/
private theorem allReal_colsum {R C : Nat} {z : Mat R C} (hz : AllReal z) : AllReal (colsum z) := by
  intro j
  unfold colsum
  exact real_sum_aux Finset.univ _ (fun r _ => hz _)

/-! ## Arrays -/

theorem allReal_add {S : Shape} {a b : S.Idx → EReal} (ha : AllReal a) (hb : AllReal b) : AllReal (fun j => a j + b j) := by
  intro j
  exact real_add (ha j) (hb j)
theorem allReal_relu {S : Shape} {a : S.Idx → EReal} (ha : AllReal a) : AllReal (relu a) := by
  intro j
  unfold relu
  exact real_max0 (ha j)
theorem allReal_mm {R K C : Nat} {v : Mat R K} {W : Mat K C} (hv : AllReal v) (hW : AllReal W) : AllReal (mm v W) := by
  intro j
  unfold mm
  exact real_sum_aux Finset.univ _ (fun k _ => real_mul (hv _) (hW _))
theorem allReal_lin {R K C : Nat} {v : Mat R K} {W : Mat K C} {b : Row C} (hv : AllReal v) (hW : AllReal W) (hb : AllReal b) :
    AllReal (lin v W b) := by
  intro j
  unfold lin
  exact real_add (allReal_mm hv hW j) (hb _)
theorem allReal_hcat2 {R K K2 : Nat} (hK : K + K = K2) {u0 u1 : Mat R K} (h0 : AllReal u0) (h1 : AllReal u1) : AllReal (hcat2 hK u0 u1) := by
  intro j
  unfold hcat2
  exact real_dite (fun _ => h0 _) (fun _ => h1 _)
theorem allReal_hcat3 {R K K3 : Nat} (hK : K + K + K = K3) {u0 u1 u2 : Mat R K} (h0 : AllReal u0) (h1 : AllReal u1) (h2 : AllReal u2) :
    AllReal (hcat3 hK u0 u1 u2) := by
  intro j
  unfold hcat3
  exact real_dite (fun _ => h0 _) (fun _ => real_dite (fun _ => h1 _) (fun _ => h2 _))
theorem allReal_bmm {G M K N : Nat} {a : Cube G M K} {b : Cube G K N} (ha : AllReal a) (hb : AllReal b) : AllReal (bmm a b) := by
  intro j
  unfold bmm
  exact real_sum_aux Finset.univ _ (fun k _ => real_mul (ha _) (hb _))
theorem allReal_flat {G M C R : Nat} (hR : G * M = R) {a : Cube G M C} (ha : AllReal a) : AllReal (flat hR a) := by
  intro j
  unfold flat
  exact ha _
/-- With a positive real ε the normalised, scaled and ramped entries are real: the variance is a real ≥ 0, so
    v + ε > 0 and its reciprocal root is a real. -/
theorem allReal_bnrelu {R C : Nat} (hR : 0 < R) (n eps : EReal) (e : ℝ) (hn : n = ((R : ℝ) : EReal)) (he : eps = (e : EReal))
    (hpos : 0 < e) {z : Mat R C} (hz : AllReal z) {g b : Row C} (hg : AllReal g) (hb : AllReal b) :
    AllReal (bnrelu 0 n eps z g b) := by
  intro j
  subst hn he
  have hRpos : (0 : ℝ) < 1 / (R : ℝ) := by
    have : (0 : ℝ) < (R : ℝ) := by exact_mod_cast hR
    positivity
  -- the column's entries as real numbers x r, and the mean as a real number mr
  have hcol : ∀ r : Fin R, ∃ x : ℝ, z (ix2 r (j 1)) = (x : EReal) := fun r => exists_real (hz _)
  choose x hx using hcol
  obtain ⟨mr, hm⟩ := exists_real (real_div_nat hR (real_add real_zero (allReal_colsum hz (ix1 (j 1)))))
  -- the variance is the real (Σ (x r − mr)²) · (1/R), a sum of squares over a positive count
  have hsq : ∀ r : Fin R, (z (ix2 r (j 1)) - (mr : EReal)) * (z (ix2 r (j 1)) - (mr : EReal))
      = (((x r - mr) * (x r - mr) : ℝ) : EReal) := by
    intro r
    rw [hx r, ← EReal.coe_sub, ← EReal.coe_mul]
  have hv : Ideal.div (0 + ∑ r : Fin R, (z (ix2 r (j 1)) - (mr : EReal)) * (z (ix2 r (j 1)) - (mr : EReal)))
      (((R : ℝ)) : EReal) = (((∑ r : Fin R, (x r - mr) * (x r - mr)) * (1 / (R : ℝ)) : ℝ) : EReal) := by
    rw [Finset.sum_congr rfl (fun r _ => hsq r), coe_sum, zero_add, div_nat_coe hR]
  have hvpos : 0 < (∑ r : Fin R, (x r - mr) * (x r - mr)) * (1 / (R : ℝ)) + e :=
    add_pos_of_nonneg_of_pos
      (mul_nonneg (Finset.sum_nonneg (fun r _ => mul_self_nonneg _)) hRpos.le) hpos
  simp only [bnrelu]
  rw [hm, hv, ← EReal.coe_add]
  exact real_max0 (real_add (real_mul (real_mul (real_sub (hz j) (real_coe mr)) (real_rsqrt_pos hvpos)) (hg _)) (hb _))
/-- A sum of real entries over any finite set is real. -/
theorem real_sum {ι : Type} (s : Finset ι) (f : ι → EReal) (hf : ∀ i ∈ s, f i ≠ ⊤ ∧ f i ≠ ⊥) :
    (∑ i ∈ s, f i) ≠ ⊤ ∧ (∑ i ∈ s, f i) ≠ ⊥ :=
  real_sum_aux s f hf

end Cert.Spec

end
-- ==== Proof.KLaw.lean ====
/-
  The kernel program's host stretches as functions of the specification: the per-tile partial sums added over the tiles;
  a vector reshaped to one row; the upper, lower (and middle) row blocks of a combining weight; a stack of matrices laid
  out as rows and back; and the row gather and scatter-add, which are the same host operations the reference applies.
-/
import proofs.«427658_j89163521065156_2_alg».proof.Proof.Gen.KernelIdeal
import proofs.«427658_j89163521065156_2_alg».proof.Proof.Spec
import proofs.«427658_j89163521065156_2_alg».proof.Proof.SpecNet
import proofs.«427658_j89163521065156_2_alg».proof.Proof.KTerms
import proofs.«427658_j89163521065156_2_alg».proof.Proof.SpecReal
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout

set_option maxRecDepth 8192

noncomputable section

open scoped BigOperators
open Idealize.ShloMosaic Idealize.ShloMosaic.ValueIdx Idealize.SL.Sem
open Cert.KernelIdeal Cert.KernelIdeal.Gen Cert.Spec

namespace Cert.KernelIdeal.KLaw
open Cert.KernelIdeal.KT

/-! ## Adding the tiles -/

/-- The host's sum over the leading axis of a stack `[T, 1, 128]` from the zero word is `0 + Σₜ p[t, 0, c]`. -/
private theorem tiles_eq {T : Nat}
    (h' : (⟨3, ![T, 1, 128]⟩ : Shape).ReducesTo [0] (⟨2, ![1, 128]⟩ : Shape))
    (h : (⟨3, ![T, 1, 128]⟩ : Shape).Reduces [0] (⟨2, ![1, 128]⟩ : Shape)) (p : Cube T 1 128) :
    Ideal.hostReduceAdd h' p (Ideal.ofBits .f32 0x00000000#32) = addTiles 0 p := by
  funext j
  rw [Ideal.hostReduceAdd_single h' h, Cert.Consts.ofBits_zero]
  show (0 : EReal) + ∑ k : Fin T, p (h.lift j k) = 0 + ∑ t : Fin T, p (ix3 t 0 (j 1))
  congr 1
  refine Finset.sum_congr rfl fun t _ => ?_
  congr 1
  funext c
  refine Fin.ext ?_
  match c with
  | ⟨0, _⟩ => rfl
  | ⟨1, _⟩ =>
    have h0 : (j 0).val < 1 := idx2_lt0 j
    show (j 0).val = 0
    omega
  | ⟨2, _⟩ => rfl

/-! ## A block of 128 rows of a weight -/

/-- The slice of 128 rows at offset `off` (all 128 columns) is the rows `off .. off + 128`. -/
private theorem rows_eq {N : Nat} (off : Nat) (hle : off + 128 ≤ N)
    (h : (⟨2, ![N, 128]⟩ : Shape).Slices ![off, 0] (⟨2, ![128, 128]⟩ : Shape)) (W : Mat N 128) :
    extractStridedSlice (⟨2, ![128, 128]⟩ : Shape) ![off, 0] W h = rowsFrom off hle W := by
  funext j
  refine extractStridedSlice_apply ![off, 0] W h j
    (ix2 ⟨off + (j 0).val, by have := idx2_lt0 j; omega⟩ (j 1)) (fun a => ?_)
  match a with
  | ⟨0, _⟩ => rfl
  | ⟨1, _⟩ => exact (Nat.zero_add _).symm

theorem tiles4_eq (p : FVec Ideal S4x1x128 .f32) : KT11_v34 (F := Ideal) p = addTiles 0 p := by
  unfold KT11_v34
  exact tiles_eq reducesTo_S4x1x128_S1x128_d0 (by decide) p
theorem tiles64_eq (p : FVec Ideal S64x1x128 .f32) : KT18_v120 (F := Ideal) p = addTiles 0 p := by
  unfold KT18_v120
  exact tiles_eq reducesTo_S64x1x128_S1x128_d0 (by decide) p
theorem tiles1_eq (p : FVec Ideal S1x1x128 .f32) : KT27_v193 (F := Ideal) p = addTiles 0 p := by
  unfold KT27_v193
  exact tiles_eq reducesTo_S1x1x128_S1x128_d0 (by decide) p
theorem asRow_eq (g : FVec Ideal S128 .f32) : KT6_v15 (F := Ideal) g = asRow g := by
  funext j
  unfold KT6_v15
  refine shapeCast_apply g _ j (ix1 (j 1)) ?_
  rw [Shape.rowMajor_val_one, Shape.rowMajor_val_two]
  have h0 : (j 0).val < 1 := idx2_lt0 j
  show (j 1).val = (j 0).val * 128 + (j 1).val
  omega
theorem rows256_0_eq (W : FVec Ideal S256x128 .f32) : KT4_v13 (F := Ideal) W = rowsFrom (N := 256) (K := 128) 0 (by omega) W := by
  unfold KT4_v13
  exact rows_eq 0 _ _ W
theorem rows256_1_eq (W : FVec Ideal S256x128 .f32) : KT5_v14 (F := Ideal) W = rowsFrom (N := 256) (K := 128) 128 (by omega) W := by
  unfold KT5_v14
  exact rows_eq 128 _ _ W
theorem rows384_0_eq (W : FVec Ideal S384x128 .f32) : KT34_v245 (F := Ideal) W = rowsFrom (N := 384) (K := 128) 0 (by omega) W := by
  unfold KT34_v245
  exact rows_eq 0 _ _ W
theorem rows384_1_eq (W : FVec Ideal S384x128 .f32) : KT35_v250 (F := Ideal) W = rowsFrom (N := 384) (K := 128) 128 (by omega) W := by
  unfold KT35_v250
  exact rows_eq 128 _ _ W
theorem rows384_2_eq (W : FVec Ideal S384x128 .f32) : KT36_v255 (F := Ideal) W = rowsFrom (N := 384) (K := 128) 256 (by omega) W := by
  unfold KT36_v255
  exact rows_eq 256 _ _ W
theorem flat16384_eq (a : FVec Ideal S64x256x128 .f32) : KT2_v5 (F := Ideal) a = flat (G := 64) (M := 256) rfl a := by
  funext j
  unfold KT2_v5
  have h0 : (j 0).val < 16384 := idx2_lt0 j
  refine shapeCast_apply a _ j (ix3 ⟨(j 0).val / 256, by omega⟩ ⟨(j 0).val % 256, by omega⟩ (j 1)) ?_
  rw [Shape.rowMajor_val_three, Shape.rowMajor_val_two]
  show ((j 0).val / 256 * 256 + (j 0).val % 256) * 128 + (j 1).val = (j 0).val * 128 + (j 1).val
  omega
theorem flat4096_eq (a : FVec Ideal S64x64x128 .f32) : KT23_v173 (F := Ideal) a = flat (G := 64) (M := 64) rfl a := by
  funext j
  unfold KT23_v173
  have h0 : (j 0).val < 4096 := idx2_lt0 j
  refine shapeCast_apply a _ j (ix3 ⟨(j 0).val / 64, by omega⟩ ⟨(j 0).val % 64, by omega⟩ (j 1)) ?_
  rw [Shape.rowMajor_val_three, Shape.rowMajor_val_two]
  show ((j 0).val / 64 * 64 + (j 0).val % 64) * 128 + (j 1).val = (j 0).val * 128 + (j 1).val
  omega
theorem unflat16384_eq (x : FVec Ideal S16384x128 .f32) : KT22_v171 (F := Ideal) x = unflat (G := 64) (M := 256) rfl x := by
  funext j
  unfold KT22_v171
  have h0 : (j 0).val < 64 := (j 0).isLt
  have h1 : (j 1).val < 256 := (j 1).isLt
  refine shapeCast_apply x _ j (ix2 ⟨(j 0).val * 256 + (j 1).val, by omega⟩ (j 2)) ?_
  rw [Shape.rowMajor_val_two, Shape.rowMajor_val_three]
  rfl
theorem unflat4096_eq (x : FVec Ideal S4096x128 .f32) : KT37_v273 (F := Ideal) x = unflat (G := 64) (M := 64) rfl x := by
  funext j
  unfold KT37_v273
  have h0 : (j 0).val < 64 := (j 0).isLt
  have h1 : (j 1).val < 64 := (j 1).isLt
  refine shapeCast_apply x _ j (ix2 ⟨(j 0).val * 64 + (j 1).val, by omega⟩ (j 2)) ?_
  rw [Shape.rowMajor_val_two, Shape.rowMajor_val_three]
  rfl

/-- The index column the gathers use: negative indices moved up by 16384. -/
def wrapIdx (idx : IVec S262144 32) : IVec S262144x1 32 :=
  broadcastInDim S262144x1 ![0] bcast_S262144_S262144x1_0
    (select (cmpi .slt idx (broadcastInDim S262144 ![] bcast_S_S262144 (constantI S_ 32 0#32)))
      (addi idx (broadcastInDim S262144 ![] bcast_S_S262144 (constantI S_ 32 16384#32))) idx)
/-- The rows of a gathered by idx. -/
def gatherRows (idx : IVec S262144 32) (a : Mat 16384 128) : Mat 262144 128 :=
  Host.gather gather_S16384x128_S262144x1_S262144x128_1_0_n_n_0_1_1128 a (wrapIdx idx)
/-- The rows of u scatter-added onto zeros at idx. -/
def scatterRows (idx : IVec S262144 32) (u : Mat 262144 128) : Mat 16384 128 :=
  Host.scatterAdd (F := Ideal) scatter_S16384x128_S262144x1_S262144x128_1_0_0_1
    (broadcastInDim S16384x128 ![] bcast_S_S16384x128 (constant (F := Ideal) S_ .f32 0x00000000#32))
    (broadcastInDim S262144x1 ![0] bcast_S262144_S262144x1_0 idx) u

theorem gather_eq (x : FVec Ideal S16384x128 .f32) (idx : IVec S262144 32) : KT3_v12 (F := Ideal) x idx = gatherRows idx x := by
  rfl
theorem scatter_eq (idx : IVec S262144 32) (u : FVec Ideal S262144x128 .f32) : KT7_v19 (F := Ideal) idx u = scatterRows idx u := by
  rfl
/-- Summing the per-tile column sums of a matrix gives its column sums (and likewise the squares), at the three row counts. -/
theorem flat_addM {G M C R : Nat} (hR : G * M = R) (a b : Cube G M C) : flat hR (addM a b) = addM (flat hR a) (flat hR b) := by
  funext j
  rfl

end Cert.KernelIdeal.KLaw

end
-- ==== Proof.KInp.lean ====
/-
  The layer's inputs as the kernel program reads them off a core's launch memory: the argument arrays, the i-th slices of
  the stacked weight arrays for update i, and the host's own row gathers and scatter-add by the two rows of the edge list.
-/
import proofs.«427658_j89163521065156_2_alg».proof.Proof.Gen.KernelIdeal
import proofs.«427658_j89163521065156_2_alg».proof.Proof.KLaw
import proofs.«427658_j89163521065156_2_alg».proof.Proof.SpecNet

set_option maxRecDepth 16384

noncomputable section

open Idealize.ShloMosaic Idealize.ShloMosaic.ValueIdx Idealize.ShloMosaic.TcCoe Idealize.SL.Sem
open Cert.KernelIdeal Cert.KernelIdeal.Gen Cert.KernelIdeal.KLaw Cert.Spec

namespace Cert.KernelIdeal.KChain

variable (m : (ℓ : Loc nD τ sig) → Buf (Elt Ideal) ℓ) (ρ : Dev nD → PrngReg)

/-- The edge list's source row and destination row. -/
def srcIdx (c : Dev nD) : IVec S262144 32 := shapeCast S262144 (extractStridedSlice S1x262144 ![0, 0] (m ((c : Thread nD τ).loc main_arg2)) slices_S2x262144_S1x262144_0_0) shapeCasts_S1x262144_S262144
def dstIdx (c : Dev nD) : IVec S262144 32 := shapeCast S262144 (extractStridedSlice S1x262144 ![1, 0] (m ((c : Thread nD τ).loc main_arg2)) slices_S2x262144_S1x262144_1_0) shapeCasts_S1x262144_S262144

/-- The layer's inputs as the kernel program reads them off core c's launch memory. -/
def inp (c : Dev nD) : Inp where
  x := m ((c : Thread nD τ).loc main_arg0)
  e := m ((c : Thread nD τ).loc main_arg1)
  attr1 := m ((c : Thread nD τ).loc main_arg3)
  attr2 := m ((c : Thread nD τ).loc main_arg4)
  adj1 := m ((c : Thread nD τ).loc main_arg5)
  nc1 := m ((c : Thread nD τ).loc main_arg6)
  nc2 := m ((c : Thread nD τ).loc main_arg7)
  cn1 := m ((c : Thread nD τ).loc main_arg8)
  msgW := m ((c : Thread nD τ).loc main_arg9)
  msgb := m ((c : Thread nD τ).loc main_arg10)
  W1 := fun i => (![(shapeCast S128x128 (extractStridedSlice S1x128x128 ![0, 0, 0] (m ((c : Thread nD τ).loc main_arg11)) slices_S7x128x128_S1x128x128_0_0_0) shapeCasts_S1x128x128_S128x128),
      (shapeCast S128x128 (extractStridedSlice S1x128x128 ![1, 0, 0] (m ((c : Thread nD τ).loc main_arg11)) slices_S7x128x128_S1x128x128_1_0_0) shapeCasts_S1x128x128_S128x128),
      (shapeCast S128x128 (extractStridedSlice S1x128x128 ![2, 0, 0] (m ((c : Thread nD τ).loc main_arg11)) slices_S7x128x128_S1x128x128_2_0_0) shapeCasts_S1x128x128_S128x128),
      (shapeCast S128x128 (extractStridedSlice S1x128x128 ![3, 0, 0] (m ((c : Thread nD τ).loc main_arg11)) slices_S7x128x128_S1x128x128_3_0_0) shapeCasts_S1x128x128_S128x128),
      (shapeCast S128x128 (extractStridedSlice S1x128x128 ![4, 0, 0] (m ((c : Thread nD τ).loc main_arg11)) slices_S7x128x128_S1x128x128_4_0_0) shapeCasts_S1x128x128_S128x128),
      (shapeCast S128x128 (extractStridedSlice S1x128x128 ![5, 0, 0] (m ((c : Thread nD τ).loc main_arg11)) slices_S7x128x128_S1x128x128_5_0_0) shapeCasts_S1x128x128_S128x128),
      (shapeCast S128x128 (extractStridedSlice S1x128x128 ![6, 0, 0] (m ((c : Thread nD τ).loc main_arg11)) slices_S7x128x128_S1x128x128_6_0_0) shapeCasts_S1x128x128_S128x128)] : Fin 7 → _) i
  b1 := fun i => (![(shapeCast S128 (extractStridedSlice S1x128 ![0, 0] (m ((c : Thread nD τ).loc main_arg12)) slices_S7x128_S1x128_0_0) shapeCasts_S1x128_S128),
      (shapeCast S128 (extractStridedSlice S1x128 ![1, 0] (m ((c : Thread nD τ).loc main_arg12)) slices_S7x128_S1x128_1_0) shapeCasts_S1x128_S128),
      (shapeCast S128 (extractStridedSlice S1x128 ![2, 0] (m ((c : Thread nD τ).loc main_arg12)) slices_S7x128_S1x128_2_0) shapeCasts_S1x128_S128),
      (shapeCast S128 (extractStridedSlice S1x128 ![3, 0] (m ((c : Thread nD τ).loc main_arg12)) slices_S7x128_S1x128_3_0) shapeCasts_S1x128_S128),
      (shapeCast S128 (extractStridedSlice S1x128 ![4, 0] (m ((c : Thread nD τ).loc main_arg12)) slices_S7x128_S1x128_4_0) shapeCasts_S1x128_S128),
      (shapeCast S128 (extractStridedSlice S1x128 ![5, 0] (m ((c : Thread nD τ).loc main_arg12)) slices_S7x128_S1x128_5_0) shapeCasts_S1x128_S128),
      (shapeCast S128 (extractStridedSlice S1x128 ![6, 0] (m ((c : Thread nD τ).loc main_arg12)) slices_S7x128_S1x128_6_0) shapeCasts_S1x128_S128)] : Fin 7 → _) i
  g1 := fun i => (![(shapeCast S128 (extractStridedSlice S1x128 ![0, 0] (m ((c : Thread nD τ).loc main_arg13)) slices_S7x128_S1x128_0_0) shapeCasts_S1x128_S128),
      (shapeCast S128 (extractStridedSlice S1x128 ![1, 0] (m ((c : Thread nD τ).loc main_arg13)) slices_S7x128_S1x128_1_0) shapeCasts_S1x128_S128),
      (shapeCast S128 (extractStridedSlice S1x128 ![2, 0] (m ((c : Thread nD τ).loc main_arg13)) slices_S7x128_S1x128_2_0) shapeCasts_S1x128_S128),
      (shapeCast S128 (extractStridedSlice S1x128 ![3, 0] (m ((c : Thread nD τ).loc main_arg13)) slices_S7x128_S1x128_3_0) shapeCasts_S1x128_S128),
      (shapeCast S128 (extractStridedSlice S1x128 ![4, 0] (m ((c : Thread nD τ).loc main_arg13)) slices_S7x128_S1x128_4_0) shapeCasts_S1x128_S128),
      (shapeCast S128 (extractStridedSlice S1x128 ![5, 0] (m ((c : Thread nD τ).loc main_arg13)) slices_S7x128_S1x128_5_0) shapeCasts_S1x128_S128),
      (shapeCast S128 (extractStridedSlice S1x128 ![6, 0] (m ((c : Thread nD τ).loc main_arg13)) slices_S7x128_S1x128_6_0) shapeCasts_S1x128_S128)] : Fin 7 → _) i
  be1 := fun i => (![(shapeCast S128 (extractStridedSlice S1x128 ![0, 0] (m ((c : Thread nD τ).loc main_arg14)) slices_S7x128_S1x128_0_0) shapeCasts_S1x128_S128),
      (shapeCast S128 (extractStridedSlice S1x128 ![1, 0] (m ((c : Thread nD τ).loc main_arg14)) slices_S7x128_S1x128_1_0) shapeCasts_S1x128_S128),
      (shapeCast S128 (extractStridedSlice S1x128 ![2, 0] (m ((c : Thread nD τ).loc main_arg14)) slices_S7x128_S1x128_2_0) shapeCasts_S1x128_S128),
      (shapeCast S128 (extractStridedSlice S1x128 ![3, 0] (m ((c : Thread nD τ).loc main_arg14)) slices_S7x128_S1x128_3_0) shapeCasts_S1x128_S128),
      (shapeCast S128 (extractStridedSlice S1x128 ![4, 0] (m ((c : Thread nD τ).loc main_arg14)) slices_S7x128_S1x128_4_0) shapeCasts_S1x128_S128),
      (shapeCast S128 (extractStridedSlice S1x128 ![5, 0] (m ((c : Thread nD τ).loc main_arg14)) slices_S7x128_S1x128_5_0) shapeCasts_S1x128_S128),
      (shapeCast S128 (extractStridedSlice S1x128 ![6, 0] (m ((c : Thread nD τ).loc main_arg14)) slices_S7x128_S1x128_6_0) shapeCasts_S1x128_S128)] : Fin 7 → _) i
  W2 := fun i => (![(shapeCast S128x128 (extractStridedSlice S1x128x128 ![0, 0, 0] (m ((c : Thread nD τ).loc main_arg15)) slices_S7x128x128_S1x128x128_0_0_0) shapeCasts_S1x128x128_S128x128),
      (shapeCast S128x128 (extractStridedSlice S1x128x128 ![1, 0, 0] (m ((c : Thread nD τ).loc main_arg15)) slices_S7x128x128_S1x128x128_1_0_0) shapeCasts_S1x128x128_S128x128),
      (shapeCast S128x128 (extractStridedSlice S1x128x128 ![2, 0, 0] (m ((c : Thread nD τ).loc main_arg15)) slices_S7x128x128_S1x128x128_2_0_0) shapeCasts_S1x128x128_S128x128),
      (shapeCast S128x128 (extractStridedSlice S1x128x128 ![3, 0, 0] (m ((c : Thread nD τ).loc main_arg15)) slices_S7x128x128_S1x128x128_3_0_0) shapeCasts_S1x128x128_S128x128),
      (shapeCast S128x128 (extractStridedSlice S1x128x128 ![4, 0, 0] (m ((c : Thread nD τ).loc main_arg15)) slices_S7x128x128_S1x128x128_4_0_0) shapeCasts_S1x128x128_S128x128),
      (shapeCast S128x128 (extractStridedSlice S1x128x128 ![5, 0, 0] (m ((c : Thread nD τ).loc main_arg15)) slices_S7x128x128_S1x128x128_5_0_0) shapeCasts_S1x128x128_S128x128),
      (shapeCast S128x128 (extractStridedSlice S1x128x128 ![6, 0, 0] (m ((c : Thread nD τ).loc main_arg15)) slices_S7x128x128_S1x128x128_6_0_0) shapeCasts_S1x128x128_S128x128)] : Fin 7 → _) i
  b2 := fun i => (![(shapeCast S128 (extractStridedSlice S1x128 ![0, 0] (m ((c : Thread nD τ).loc main_arg16)) slices_S7x128_S1x128_0_0) shapeCasts_S1x128_S128),
      (shapeCast S128 (extractStridedSlice S1x128 ![1, 0] (m ((c : Thread nD τ).loc main_arg16)) slices_S7x128_S1x128_1_0) shapeCasts_S1x128_S128),
      (shapeCast S128 (extractStridedSlice S1x128 ![2, 0] (m ((c : Thread nD τ).loc main_arg16)) slices_S7x128_S1x128_2_0) shapeCasts_S1x128_S128),
      (shapeCast S128 (extractStridedSlice S1x128 ![3, 0] (m ((c : Thread nD τ).loc main_arg16)) slices_S7x128_S1x128_3_0) shapeCasts_S1x128_S128),
      (shapeCast S128 (extractStridedSlice S1x128 ![4, 0] (m ((c : Thread nD τ).loc main_arg16)) slices_S7x128_S1x128_4_0) shapeCasts_S1x128_S128),
      (shapeCast S128 (extractStridedSlice S1x128 ![5, 0] (m ((c : Thread nD τ).loc main_arg16)) slices_S7x128_S1x128_5_0) shapeCasts_S1x128_S128),
      (shapeCast S128 (extractStridedSlice S1x128 ![6, 0] (m ((c : Thread nD τ).loc main_arg16)) slices_S7x128_S1x128_6_0) shapeCasts_S1x128_S128)] : Fin 7 → _) i
  g2 := fun i => (![(shapeCast S128 (extractStridedSlice S1x128 ![0, 0] (m ((c : Thread nD τ).loc main_arg17)) slices_S7x128_S1x128_0_0) shapeCasts_S1x128_S128),
      (shapeCast S128 (extractStridedSlice S1x128 ![1, 0] (m ((c : Thread nD τ).loc main_arg17)) slices_S7x128_S1x128_1_0) shapeCasts_S1x128_S128),
      (shapeCast S128 (extractStridedSlice S1x128 ![2, 0] (m ((c : Thread nD τ).loc main_arg17)) slices_S7x128_S1x128_2_0) shapeCasts_S1x128_S128),
      (shapeCast S128 (extractStridedSlice S1x128 ![3, 0] (m ((c : Thread nD τ).loc main_arg17)) slices_S7x128_S1x128_3_0) shapeCasts_S1x128_S128),
      (shapeCast S128 (extractStridedSlice S1x128 ![4, 0] (m ((c : Thread nD τ).loc main_arg17)) slices_S7x128_S1x128_4_0) shapeCasts_S1x128_S128),
      (shapeCast S128 (extractStridedSlice S1x128 ![5, 0] (m ((c : Thread nD τ).loc main_arg17)) slices_S7x128_S1x128_5_0) shapeCasts_S1x128_S128),
      (shapeCast S128 (extractStridedSlice S1x128 ![6, 0] (m ((c : Thread nD τ).loc main_arg17)) slices_S7x128_S1x128_6_0) shapeCasts_S1x128_S128)] : Fin 7 → _) i
  be2 := fun i => (![(shapeCast S128 (extractStridedSlice S1x128 ![0, 0] (m ((c : Thread nD τ).loc main_arg18)) slices_S7x128_S1x128_0_0) shapeCasts_S1x128_S128),
      (shapeCast S128 (extractStridedSlice S1x128 ![1, 0] (m ((c : Thread nD τ).loc main_arg18)) slices_S7x128_S1x128_1_0) shapeCasts_S1x128_S128),
      (shapeCast S128 (extractStridedSlice S1x128 ![2, 0] (m ((c : Thread nD τ).loc main_arg18)) slices_S7x128_S1x128_2_0) shapeCasts_S1x128_S128),
      (shapeCast S128 (extractStridedSlice S1x128 ![3, 0] (m ((c : Thread nD τ).loc main_arg18)) slices_S7x128_S1x128_3_0) shapeCasts_S1x128_S128),
      (shapeCast S128 (extractStridedSlice S1x128 ![4, 0] (m ((c : Thread nD τ).loc main_arg18)) slices_S7x128_S1x128_4_0) shapeCasts_S1x128_S128),
      (shapeCast S128 (extractStridedSlice S1x128 ![5, 0] (m ((c : Thread nD τ).loc main_arg18)) slices_S7x128_S1x128_5_0) shapeCasts_S1x128_S128),
      (shapeCast S128 (extractStridedSlice S1x128 ![6, 0] (m ((c : Thread nD τ).loc main_arg18)) slices_S7x128_S1x128_6_0) shapeCasts_S1x128_S128)] : Fin 7 → _) i
  nW := m ((c : Thread nD τ).loc main_arg19)
  nb := m ((c : Thread nD τ).loc main_arg20)
  ng := m ((c : Thread nD τ).loc main_arg21)
  nbe := m ((c : Thread nD τ).loc main_arg22)
  eW := m ((c : Thread nD τ).loc main_arg23)
  eb := m ((c : Thread nD τ).loc main_arg24)
  eg := m ((c : Thread nD τ).loc main_arg25)
  ebe := m ((c : Thread nD τ).loc main_arg26)
  sW := m ((c : Thread nD τ).loc main_arg27)
  sb := m ((c : Thread nD τ).loc main_arg28)
  sg := m ((c : Thread nD τ).loc main_arg29)
  sbe := m ((c : Thread nD τ).loc main_arg30)
  gatS := gatherRows (srcIdx m c)
  gatD := gatherRows (dstIdx m c)
  scaD := scatterRows (dstIdx m c)

end Cert.KernelIdeal.KChain

end
-- ==== Proof.SpecNetReal.lean ====
/-
  With real inputs, and gathers / a scatter-add that keep real entries real, every intermediate of the layer has real
  entries: sums, products and matrix products of reals are real, the ramp of a real is real, and batch normalisation
  with the positive ε keeps reals real (its variance is a real ≥ 0, so the reciprocal root of variance + ε is a real).
  These are the facts the raw-moment spelling of the normalisation needs to agree with the centred one.
-/
import proofs.«427658_j89163521065156_2_alg».proof.Proof.SpecNet
import proofs.«427658_j89163521065156_2_alg».proof.Proof.SpecReal

noncomputable section

open scoped BigOperators
open Idealize.ShloMosaic Idealize.ShloMosaic.ValueIdx

namespace Cert.Spec

/-- The inputs are real, and the given row maps keep real entries real. -/
structure Inp.Real (I : Inp) : Prop where
  x : AllReal I.x
  e : AllReal I.e
  attr1 : AllReal I.attr1
  attr2 : AllReal I.attr2
  adj1 : AllReal I.adj1
  nc1 : AllReal I.nc1
  nc2 : AllReal I.nc2
  cn1 : AllReal I.cn1
  msgW : AllReal I.msgW
  msgb : AllReal I.msgb
  W1 : ∀ i, AllReal (I.W1 i)
  b1 : ∀ i, AllReal (I.b1 i)
  g1 : ∀ i, AllReal (I.g1 i)
  be1 : ∀ i, AllReal (I.be1 i)
  W2 : ∀ i, AllReal (I.W2 i)
  b2 : ∀ i, AllReal (I.b2 i)
  g2 : ∀ i, AllReal (I.g2 i)
  be2 : ∀ i, AllReal (I.be2 i)
  nW : AllReal I.nW
  nb : AllReal I.nb
  ng : AllReal I.ng
  nbe : AllReal I.nbe
  eW : AllReal I.eW
  eb : AllReal I.eb
  eg : AllReal I.eg
  ebe : AllReal I.ebe
  sW : AllReal I.sW
  sb : AllReal I.sb
  sg : AllReal I.sg
  sbe : AllReal I.sbe
  gatS : ∀ a, AllReal a → AllReal (I.gatS a)
  gatD : ∀ a, AllReal a → AllReal (I.gatD a)
  scaD : ∀ a, AllReal a → AllReal (I.scaD a)

namespace Net

variable {I : Inp} (hI : I.Real)

/-- An entrywise sum of two real arrays is real. -/
theorem real_addM {S : Shape} {a x : S.Idx → EReal} (ha : AllReal a) (hx : AllReal x) : AllReal (addM a x) := by
  unfold addM
  exact allReal_add ha hx
/-- Cutting a real matrix into a stack only re-indexes its entries. -/
theorem real_unflat {G M C R : Nat} (hR : G * M = R) {a : Mat R C} (ha : AllReal a) : AllReal (unflat hR a) := by
  intro j
  unfold unflat
  exact ha _
/-- The normalisation at each of the three row counts: the count is the real 16384 / 262144 / 4096, a positive
    number of rows, and ε is a positive real, so real entries stay real. -/
theorem real_bn16384 {z : Mat 16384 128} {g b : Row 128} (hz : AllReal z) (hg : AllReal g) (hb : AllReal b) : AllReal (bn16384 z g b) := by
  obtain ⟨e, he, hpos⟩ := Cert.Consts.eps_pos
  unfold bn16384
  exact allReal_bnrelu (by omega) Cert.Consts.n14 Cert.Consts.eps e Cert.Consts.n14_eq he hpos hz hg hb
theorem real_bn262144 {z : Mat 262144 128} {g b : Row 128} (hz : AllReal z) (hg : AllReal g) (hb : AllReal b) : AllReal (bn262144 z g b) := by
  obtain ⟨e, he, hpos⟩ := Cert.Consts.eps_pos
  unfold bn262144
  exact allReal_bnrelu (by omega) Cert.Consts.n18 Cert.Consts.eps e Cert.Consts.n18_eq he hpos hz hg hb
theorem real_bn4096 {z : Mat 4096 128} {g b : Row 128} (hz : AllReal z) (hg : AllReal g) (hb : AllReal b) : AllReal (bn4096 z g b) := by
  obtain ⟨e, he, hpos⟩ := Cert.Consts.eps_pos
  unfold bn4096
  exact allReal_bnrelu (by omega) Cert.Consts.n12 Cert.Consts.eps e Cert.Consts.n12_eq he hpos hz hg hb

/- From here on the inputs are real (hI). -/
include hI

/-- The pooled clusters: a batched product of real stacks, laid out as rows. -/
theorem real_up : AllReal (up I) := by
  unfold up
  exact allReal_flat _ (allReal_bmm hI.nc1 hI.attr1)
/-- The messages: gathered real rows beside real edge rows, a linear map, the ramp. -/
theorem real_msg : AllReal (msg I) := by
  unfold msg msgPre xsrc
  exact allReal_relu (allReal_lin (allReal_hcat2 _ (hI.gatS _ hI.x) hI.e) hI.msgW hI.msgb)
/-- Their scatter-added sums at the nodes. -/
theorem real_agg : AllReal (agg I) := by
  unfold agg
  exact hI.scaD _ (real_msg hI)
theorem real_inN0 : AllReal (inN0 I) := by
  unfold inN0
  exact real_addM (real_agg hI) hI.x
theorem real_inN1 : AllReal (inN1 I) := by
  unfold inN1
  exact real_addM (real_up hI) hI.x
theorem real_inE2 : AllReal (inE2 I) := by
  unfold inE2 xdst xsrc
  exact real_addM (real_addM (hI.gatD _ hI.x) (hI.gatS _ hI.x)) hI.e
theorem real_inE3 : AllReal (inE3 I) := by
  unfold inE3 updst upsrc
  exact real_addM (real_addM (hI.gatD _ (real_up hI)) (hI.gatS _ (real_up hI))) hI.e
theorem real_inS4 : AllReal (inS4 I) := by
  unfold inS4
  exact allReal_flat _ (real_addM (allReal_bmm hI.adj1 hI.attr1) hI.attr1)
theorem real_inS5 : AllReal (inS5 I) := by
  unfold inS5
  exact allReal_flat _ (real_addM (allReal_bmm hI.nc2 hI.attr2) hI.attr1)
theorem real_inS6 : AllReal (inS6 I) := by
  unfold inS6
  exact allReal_flat _ (real_addM (allReal_bmm hI.cn1 (real_unflat _ hI.x)) hI.attr1)

/-- Update i at 16384 rows: a linear map of real rows is real, and the normalisation keeps it so; twice. -/
theorem real_z1N (i : Fin 7) {v : Mat 16384 128} (hv : AllReal v) : AllReal (z1N I i v) := by
  unfold z1N
  exact allReal_lin hv (hI.W1 i) (hI.b1 i)
theorem real_h1N (i : Fin 7) {v : Mat 16384 128} (hv : AllReal v) : AllReal (h1N I i v) := by
  unfold h1N
  exact real_bn16384 (real_z1N hI i hv) (hI.g1 i) (hI.be1 i)
theorem real_z2N (i : Fin 7) {v : Mat 16384 128} (hv : AllReal v) : AllReal (z2N I i v) := by
  unfold z2N
  exact allReal_lin (real_h1N hI i hv) (hI.W2 i) (hI.b2 i)
theorem real_uN (i : Fin 7) {v : Mat 16384 128} (hv : AllReal v) : AllReal (uN I i v) := by
  unfold uN
  exact real_bn16384 (real_z2N hI i hv) (hI.g2 i) (hI.be2 i)
/-- Update i at 262144 rows: a linear map of real rows is real, and the normalisation keeps it so; twice. -/
theorem real_z1E (i : Fin 7) {v : Mat 262144 128} (hv : AllReal v) : AllReal (z1E I i v) := by
  unfold z1E
  exact allReal_lin hv (hI.W1 i) (hI.b1 i)
theorem real_h1E (i : Fin 7) {v : Mat 262144 128} (hv : AllReal v) : AllReal (h1E I i v) := by
  unfold h1E
  exact real_bn262144 (real_z1E hI i hv) (hI.g1 i) (hI.be1 i)
theorem real_z2E (i : Fin 7) {v : Mat 262144 128} (hv : AllReal v) : AllReal (z2E I i v) := by
  unfold z2E
  exact allReal_lin (real_h1E hI i hv) (hI.W2 i) (hI.b2 i)
theorem real_uE (i : Fin 7) {v : Mat 262144 128} (hv : AllReal v) : AllReal (uE I i v) := by
  unfold uE
  exact real_bn262144 (real_z2E hI i hv) (hI.g2 i) (hI.be2 i)
/-- Update i at 4096 rows: a linear map of real rows is real, and the normalisation keeps it so; twice. -/
theorem real_z1S (i : Fin 7) {v : Mat 4096 128} (hv : AllReal v) : AllReal (z1S I i v) := by
  unfold z1S
  exact allReal_lin hv (hI.W1 i) (hI.b1 i)
theorem real_h1S (i : Fin 7) {v : Mat 4096 128} (hv : AllReal v) : AllReal (h1S I i v) := by
  unfold h1S
  exact real_bn4096 (real_z1S hI i hv) (hI.g1 i) (hI.be1 i)
theorem real_z2S (i : Fin 7) {v : Mat 4096 128} (hv : AllReal v) : AllReal (z2S I i v) := by
  unfold z2S
  exact allReal_lin (real_h1S hI i hv) (hI.W2 i) (hI.b2 i)
theorem real_uS (i : Fin 7) {v : Mat 4096 128} (hv : AllReal v) : AllReal (uS I i v) := by
  unfold uS
  exact real_bn4096 (real_z2S hI i hv) (hI.g2 i) (hI.be2 i)

/-- The combining layers: the updates' real outputs side by side, then a linear map. -/
theorem real_zcN : AllReal (zcN I) := by
  unfold zcN
  exact allReal_lin (allReal_hcat2 _ (real_uN hI 0 (real_inN0 hI)) (real_uN hI 1 (real_inN1 hI))) hI.nW hI.nb
theorem real_zcE : AllReal (zcE I) := by
  unfold zcE
  exact allReal_lin (allReal_hcat2 _ (real_uE hI 2 (real_inE2 hI)) (real_uE hI 3 (real_inE3 hI))) hI.eW hI.eb
theorem real_zcS : AllReal (zcS I) := by
  unfold zcS
  exact allReal_lin (allReal_hcat3 _ (real_uS hI 4 (real_inS4 hI)) (real_uS hI 5 (real_inS5 hI)) (real_uS hI 6 (real_inS6 hI))) hI.sW hI.sb

end Net

end Cert.Spec

end
-- ==== Proof.SpecSums.lean ====
/-
  Regroupings of finite sums on the extended reals (addition there is commutative and associative, so none of these
  needs the entries to be real): the bias added first or last; a product against a matrix of 2K or 3K rows as the sum of
  the products against its K-row pieces; the tiles' partial column sums adding up to the column sums.
-/
import proofs.«427658_j89163521065156_2_alg».proof.Proof.Spec
import Mathlib.Algebra.BigOperators.Fin
import Mathlib.Logic.Equiv.Fin.Basic

noncomputable section

open scoped BigOperators
open Idealize.ShloMosaic Idealize.ShloMosaic.ValueIdx

namespace Cert.Spec

/-! ## Two regroupings in a commutative monoid -/

/-- (s₀ + s₁) + b = (b + s₀) + s₁. -/
private theorem add_regroup2 {M : Type*} [AddCommMonoid M] (s0 s1 b : M) : (s0 + s1) + b = (b + s0) + s1 := by
  rw [add_comm (s0 + s1) b, ← add_assoc]

/-- (s₀ + s₁ + s₂) + b = ((b + s₀) + s₁) + s₂. -/
private theorem add_regroup3 {M : Type*} [AddCommMonoid M] (s0 s1 s2 b : M) :
    (s0 + s1 + s2) + b = ((b + s0) + s1) + s2 := by
  rw [add_comm (s0 + s1 + s2) b, ← add_assoc, ← add_assoc]

/-! ## The side-by-side matrices and the row pieces, read at an index given by its coordinates -/

/-- Entry (r, c) of two matrices side by side: the left one for c < K, else the right one at c − K. -/
private theorem hcat2_apply {R K K2 : Nat} (hK : K + K = K2) (u0 u1 : Mat R K) (r : Fin R) (c : Fin K2) :
    hcat2 hK u0 u1 (ix2 r c)
      = if h : c.val < K then u0 (ix2 r ⟨c.val, h⟩) else u1 (ix2 r ⟨c.val - K, by have := c.isLt; omega⟩) := rfl

/-- Entry (r, c) of three matrices side by side. -/
private theorem hcat3_apply {R K K3 : Nat} (hK : K + K + K = K3) (u0 u1 u2 : Mat R K) (r : Fin R) (c : Fin K3) :
    hcat3 hK u0 u1 u2 (ix2 r c)
      = if h : c.val < K then u0 (ix2 r ⟨c.val, h⟩)
        else if h' : c.val < K + K then u1 (ix2 r ⟨c.val - K, by omega⟩)
        else u2 (ix2 r ⟨c.val - (K + K), by have := c.isLt; omega⟩) := rfl

/-- Entry (k, c) of the rows off .. off+K of W is W's entry (off + k, c). -/
private theorem rowsFrom_apply {N K C : Nat} (off : Nat) (h : off + K ≤ N) (W : Mat N C) (k : Fin K) (c : Fin C) :
    rowsFrom off h W (ix2 k c) = W (ix2 ⟨off + k.val, by have := k.isLt; omega⟩ c) := rfl

/-! ## The linear map -/

/-- The bias first or last. -/
theorem klin_eq_lin {R K C : Nat} (v : Mat R K) (W : Mat K C) (b : Row C) : klin v W (asRow b) = lin v W b := by
  funext j
  simp only [klin, lin, asRow]
  exact add_comm _ _

/-- One entry's sum over the 2K columns splits at K: the first K terms read the left matrix against rows 0 .. K of W,
    the last K read the right matrix against rows K .. 2K. -/
private theorem sum_hcat2 {R K C : Nat} (u0 u1 : Mat R K) (W : Mat (K + K) C) (r : Fin R) (c : Fin C) :
    ∑ k : Fin (K + K), hcat2 rfl u0 u1 (ix2 r k) * W (ix2 k c)
      = ∑ k : Fin K, u0 (ix2 r k) * rowsFrom 0 (by omega) W (ix2 k c)
        + ∑ k : Fin K, u1 (ix2 r k) * rowsFrom K (by omega) W (ix2 k c) := by
  rw [Fin.sum_univ_add]
  congr 1
  · refine Finset.sum_congr rfl (fun k _ => ?_)
    have hk : (Fin.castAdd K k).val < K := k.isLt
    rw [hcat2_apply, dif_pos hk, rowsFrom_apply]
    have e1 : (⟨(Fin.castAdd K k).val, hk⟩ : Fin K) = k := Fin.ext rfl
    have e2 : (⟨0 + k.val, by have := k.isLt; omega⟩ : Fin (K + K)) = Fin.castAdd K k := Fin.ext (Nat.zero_add _)
    rw [e1, e2]
  · refine Finset.sum_congr rfl (fun k _ => ?_)
    have hk : ¬ (Fin.natAdd K k).val < K := by simp
    rw [hcat2_apply, dif_neg hk, rowsFrom_apply]
    have e1 : (⟨(Fin.natAdd K k).val - K, by have := k.isLt; simp⟩ : Fin K) = k := Fin.ext (by simp)
    have e2 : (⟨K + k.val, by have := k.isLt; omega⟩ : Fin (K + K)) = Fin.natAdd K k := Fin.ext rfl
    rw [e1, e2]

/-- A product against 2K rows is the sum of the products against the two K-row halves. -/
theorem lin_hcat2 {R K K2 C : Nat} (hK : K + K = K2) (u0 u1 : Mat R K) (W : Mat K2 C) (b : Row C) :
    lin (hcat2 hK u0 u1) W b = klin2 u0 (rowsFrom 0 (by omega) W) u1 (rowsFrom K (by omega) W) (asRow b) := by
  subst hK
  funext j
  have h := sum_hcat2 u0 u1 W (j 0) (j 1)
  simp only [lin, klin2, mm, asRow]
  rw [h]
  exact add_regroup2 _ _ _

/-- One entry's sum over the 3K columns splits at K and 2K into the three K-term sums. -/
private theorem sum_hcat3 {R K C : Nat} (u0 u1 u2 : Mat R K) (W : Mat (K + K + K) C) (r : Fin R) (c : Fin C) :
    ∑ k : Fin (K + K + K), hcat3 rfl u0 u1 u2 (ix2 r k) * W (ix2 k c)
      = (∑ k : Fin K, u0 (ix2 r k) * rowsFrom 0 (by omega) W (ix2 k c)
          + ∑ k : Fin K, u1 (ix2 r k) * rowsFrom K (by omega) W (ix2 k c))
        + ∑ k : Fin K, u2 (ix2 r k) * rowsFrom (K + K) (by omega) W (ix2 k c) := by
  rw [Fin.sum_univ_add, Fin.sum_univ_add]
  congr 1
  · congr 1
    · refine Finset.sum_congr rfl (fun k _ => ?_)
      have hk : (Fin.castAdd K (Fin.castAdd K k)).val < K := k.isLt
      rw [hcat3_apply, dif_pos hk, rowsFrom_apply]
      have e1 : (⟨(Fin.castAdd K (Fin.castAdd K k)).val, hk⟩ : Fin K) = k := Fin.ext rfl
      have e2 : (⟨0 + k.val, by have := k.isLt; omega⟩ : Fin (K + K + K)) = Fin.castAdd K (Fin.castAdd K k) :=
        Fin.ext (Nat.zero_add _)
      rw [e1, e2]
    · refine Finset.sum_congr rfl (fun k _ => ?_)
      have hv : (Fin.castAdd K (Fin.natAdd K k)).val = K + k.val := rfl
      have hk : ¬ (Fin.castAdd K (Fin.natAdd K k)).val < K := by omega
      have hk' : (Fin.castAdd K (Fin.natAdd K k)).val < K + K := by have := k.isLt; omega
      rw [hcat3_apply, dif_neg hk, dif_pos hk', rowsFrom_apply]
      have e1 : (⟨(Fin.castAdd K (Fin.natAdd K k)).val - K, by have := k.isLt; omega⟩ : Fin K) = k :=
        Fin.ext (by show (Fin.castAdd K (Fin.natAdd K k)).val - K = k.val; omega)
      have e2 : (⟨K + k.val, by have := k.isLt; omega⟩ : Fin (K + K + K)) = Fin.castAdd K (Fin.natAdd K k) := Fin.ext rfl
      rw [e1, e2]
  · refine Finset.sum_congr rfl (fun k _ => ?_)
    have hv : (Fin.natAdd (K + K) k).val = K + K + k.val := rfl
    have hk : ¬ (Fin.natAdd (K + K) k).val < K := by omega
    have hk' : ¬ (Fin.natAdd (K + K) k).val < K + K := by omega
    rw [hcat3_apply, dif_neg hk, dif_neg hk', rowsFrom_apply]
    have e1 : (⟨(Fin.natAdd (K + K) k).val - (K + K), by have := k.isLt; omega⟩ : Fin K) = k :=
      Fin.ext (by show (Fin.natAdd (K + K) k).val - (K + K) = k.val; omega)
    have e2 : (⟨K + K + k.val, by have := k.isLt; omega⟩ : Fin (K + K + K)) = Fin.natAdd (K + K) k := Fin.ext rfl
    rw [e1, e2]

/-- A product against 3K rows is the sum of the products against the three K-row pieces. -/
theorem lin_hcat3 {R K K3 C : Nat} (hK : K + K + K = K3) (u0 u1 u2 : Mat R K) (W : Mat K3 C) (b : Row C) :
    lin (hcat3 hK u0 u1 u2) W b
      = klin3 u0 (rowsFrom 0 (by omega) W) u1 (rowsFrom K (by omega) W) u2 (rowsFrom (K + K) (by omega) W) (asRow b) := by
  subst hK
  funext j
  have h := sum_hcat3 u0 u1 u2 W (j 0) (j 1)
  simp only [lin, klin3, mm, asRow]
  rw [h]
  exact add_regroup3 _ _ _ _

/-! ## Tiles -/

/-- Row t·B + i lies below T·B when t < T and i < B. -/
private theorem tile_lt {T B : Nat} (t : Fin T) (i : Fin B) : t.val * B + i.val < T * B := by
  have h0 := t.isLt
  have h1 := i.isLt
  calc t.val * B + i.val < t.val * B + B := by omega
    _ = (t.val + 1) * B := by ring
    _ ≤ T * B := Nat.mul_le_mul_right _ h0

/-- A sum over T·B rows is the sum over the T tiles of the sums over each tile's B rows: the rows t·B + i, t < T, i < B,
    are all the rows, each once. -/
private theorem sum_tiles {M : Type*} [AddCommMonoid M] (T B : Nat) (f : Fin (T * B) → M) :
    ∑ r : Fin (T * B), f r = ∑ t : Fin T, ∑ i : Fin B, f ⟨t.val * B + i.val, tile_lt t i⟩ := by
  rw [← Equiv.sum_comp finProdFinEquiv f, Fintype.sum_prod_type]
  refine Finset.sum_congr rfl (fun t _ => Finset.sum_congr rfl (fun i _ => ?_))
  congr 1
  exact Fin.ext (by show i.val + B * t.val = t.val * B + i.val; rw [Nat.mul_comm, Nat.add_comm])

/-- The tiles' partial sums add up to the column sums. -/
theorem addTiles_tilesum {R C : Nat} (T B : Nat) (hR : T * B = R) (z : Mat R C) : addTiles 0 (tilesum T B hR z) = asRow (colsum z) := by
  subst hR
  funext j
  simp only [addTiles, asRow, colsum]
  rw [zero_add]
  exact (sum_tiles T B (fun r => z (ix2 r (j 1)))).symm
/-- The same for the sums of squares. -/
theorem addTiles_tilesumsq {R C : Nat} (T B : Nat) (hR : T * B = R) (z : Mat R C) : addTiles 0 (tilesumsq T B hR z) = asRow (colsumsq z) := by
  unfold tilesumsq
  rw [addTiles_tilesum]
  rfl

end Cert.Spec

end
-- ==== Proof.SpecVar.lean ====
/-
  The law of the variance: for real entries z₁ … z_R with mean m = (Σ z)/R, the mean of the squared deviations
  Σ (z − m)² / R equals Σ z² / R − m², and it is ≥ 0, so clamping the raw-moment variance at zero changes nothing.
  Hence batch normalisation from the column sums and sums of squares is batch normalisation by centring.
-/
import proofs.«427658_j89163521065156_2_alg».proof.Proof.Spec

noncomputable section

open scoped BigOperators
open Idealize.ShloMosaic Idealize.ShloMosaic.ValueIdx

namespace Cert.Spec

/-! ## The identity over the reals -/

/-- Expanding the squares: Σ (x − m)² = Σ x² − 2·m·Σ x + R·m², for any number m. -/
private theorem sum_sq_dev {R : Nat} (x : Fin R → ℝ) (m : ℝ) :
    ∑ r, (x r - m) * (x r - m) = (∑ r, x r * x r) - 2 * m * (∑ r, x r) + (R : ℝ) * (m * m) := by
  have h1 : ∀ r, (x r - m) * (x r - m) = x r * x r - 2 * m * x r + m * m := fun r => by ring
  simp only [h1]
  rw [Finset.sum_add_distrib, Finset.sum_sub_distrib, ← Finset.mul_sum, Finset.sum_const, Finset.card_univ,
    Fintype.card_fin, nsmul_eq_mul]

/-- With m the mean (Σ x)/R the cross term cancels one of the two m²: Σ (x − m)² / R = Σ x² / R − m². -/
private theorem var_real {R : Nat} (hR : 0 < R) (x : Fin R → ℝ) :
    (∑ r, (x r - (∑ i, x i) * (R : ℝ)⁻¹) * (x r - (∑ i, x i) * (R : ℝ)⁻¹)) * (1 / (R : ℝ))
      = (∑ r, x r * x r) * (R : ℝ)⁻¹ - ((∑ i, x i) * (R : ℝ)⁻¹) * ((∑ i, x i) * (R : ℝ)⁻¹) := by
  have hR' : (R : ℝ) ≠ 0 := by exact_mod_cast hR.ne'
  rw [sum_sq_dev]
  field_simp
  ring

/-- A mean of squares is not negative. -/
private theorem var_nonneg {R : Nat} (x : Fin R → ℝ) (m : ℝ) :
    0 ≤ (∑ r, (x r - m) * (x r - m)) * (1 / (R : ℝ)) :=
  mul_nonneg (Finset.sum_nonneg fun r _ => mul_self_nonneg _) (by positivity)

/-! ## From the reals to the extended reals -/

/-- The inclusion of the reals in the extended reals carries finite sums to finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law of the variance for one column of real numbers, written on the extended reals: the clamped raw-moment
    variance is the mean of the squared deviations from m, where m is the column's mean. -/
private theorem var_core {R : Nat} (hR : 0 < R) (x : Fin R → ℝ) (m : EReal)
    (hm : m = (∑ r, (x r : EReal)) * (((R : ℝ)⁻¹ : ℝ) : EReal)) :
    max ((∑ r, (x r : EReal) * (x r : EReal)) * (((R : ℝ)⁻¹ : ℝ) : EReal) - m * m) 0
      = Ideal.div (0 + ∑ r, ((x r : EReal) - m) * ((x r : EReal) - m)) ((R : ℝ) : EReal) := by
  have hR' : (R : ℝ) ≠ 0 := by exact_mod_cast hR.ne'
  have hmr : m = (((∑ r, x r) * (R : ℝ)⁻¹ : ℝ) : EReal) := by
    rw [hm, EReal.coe_mul, coe_sum]
  rw [Ideal.div_coe hR', zero_add, hmr]
  simp only [← EReal.coe_mul, ← EReal.coe_sub, ← coe_sum]
  rw [← var_real hR x]
  exact max_eq_left (EReal.coe_nonneg.2 (var_nonneg x _))

/-- The same for a column of extended reals none of which is an infinity: name the real numbers and apply the law. -/
private theorem var_col {R : Nat} (hR : 0 < R) (y : Fin R → EReal) (hy : ∀ r, y r ≠ ⊤ ∧ y r ≠ ⊥) :
    max ((∑ r, y r * y r) * (((R : ℝ)⁻¹ : ℝ) : EReal)
        - ((∑ r, y r) * (((R : ℝ)⁻¹ : ℝ) : EReal)) * ((∑ r, y r) * (((R : ℝ)⁻¹ : ℝ) : EReal))) 0
      = Ideal.div (0 + ∑ r, (y r - (∑ r, y r) * (((R : ℝ)⁻¹ : ℝ) : EReal))
          * (y r - (∑ r, y r) * (((R : ℝ)⁻¹ : ℝ) : EReal))) ((R : ℝ) : EReal) := by
  obtain ⟨x, rfl⟩ : ∃ x : Fin R → ℝ, y = fun r => (x r : EReal) :=
    ⟨fun r => (y r).toReal, funext fun r => (EReal.coe_toReal (hy r).1 (hy r).2).symm⟩
  exact var_core hR x _ rfl

/-- The two spellings of the mean: (Σ y)·R⁻¹ is (0 + Σ y) divided by R. -/
private theorem mean_col {R : Nat} (hR : 0 < R) (S : EReal) :
    S * (((R : ℝ)⁻¹ : ℝ) : EReal) = Ideal.div (0 + S) ((R : ℝ) : EReal) := by
  have hR' : (R : ℝ) ≠ 0 := by exact_mod_cast hR.ne'
  rw [Ideal.div_coe hR', zero_add, one_div]

/-- THE LAW OF THE VARIANCE: on real entries, with n the number of rows and k its reciprocal, the raw-moment spelling
    from the true column sums is the centred spelling (the clamp at zero is idle because a mean of squares is ≥ 0). -/
theorem kbnrelu_eq_bnrelu {R C : Nat} (hR : 0 < R) (n k eps : EReal) (hn : n = ((R : ℝ) : EReal))
    (hk : k = (((R : ℝ)⁻¹ : ℝ) : EReal)) (z : Mat R C) (hz : AllReal z) (g b : Row C) :
    kbnrelu k eps (asRow (colsum z)) (asRow (colsumsq z)) z (asRow g) (asRow b) = bnrelu 0 n eps z g b := by
  funext j
  subst hn hk
  -- the column of j, its mean in both spellings, and its variance in both spellings
  have hm := mean_col hR (∑ r : Fin R, z (ix2 r (j 1)))
  have hv := var_col hR (fun r => z (ix2 r (j 1))) (fun r => hz _)
  -- both sides, written out at j: the same expression in the entry, the mean and the variance
  show max ((z j - (∑ r : Fin R, z (ix2 r (j 1))) * (((R : ℝ)⁻¹ : ℝ) : EReal))
        * Ideal.rsqrt (max ((∑ r : Fin R, z (ix2 r (j 1)) * z (ix2 r (j 1))) * (((R : ℝ)⁻¹ : ℝ) : EReal)
            - ((∑ r : Fin R, z (ix2 r (j 1))) * (((R : ℝ)⁻¹ : ℝ) : EReal))
              * ((∑ r : Fin R, z (ix2 r (j 1))) * (((R : ℝ)⁻¹ : ℝ) : EReal))) 0 + eps)
        * g (ix1 (j 1)) + b (ix1 (j 1))) 0
    = max ((z j - Ideal.div (0 + ∑ r : Fin R, z (ix2 r (j 1))) ((R : ℝ) : EReal))
        * Ideal.rsqrt (Ideal.div (0 + ∑ r : Fin R,
            (z (ix2 r (j 1)) - Ideal.div (0 + ∑ r : Fin R, z (ix2 r (j 1))) ((R : ℝ) : EReal))
              * (z (ix2 r (j 1)) - Ideal.div (0 + ∑ r : Fin R, z (ix2 r (j 1))) ((R : ℝ) : EReal)))
            ((R : ℝ) : EReal) + eps)
        * g (ix1 (j 1)) + b (ix1 (j 1))) 0
  rw [← hm, hv]

end Cert.Spec

end
-- ==== Proof.BlkLin.lean ====
/-
  A first linear layer on one tile of 4096 rows: the bias row plus the product of the summed input rows with the
  128×128 weight, and that tile's column sums and column sums of squares (the partial statistics of the batch
  normalisation that follows). The rounding to bf16 on the way into the product is the identity on the extended reals.
-/
import proofs.«427658_j89163521065156_2_alg».proof.Proof.Gen.KernelIdeal.Skeleton
import proofs.«427658_j89163521065156_2_alg».proof.Proof.Spec
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx Idealize.SL.Sem
open Cert.KernelIdeal Cert.KernelIdeal.Gen Cert.Spec

namespace Cert.KernelIdeal.Blk

/-! ### Where the product reads its operands

The product contracts the row block's columns against the weight's rows: at the output index (p, q) and the
contraction position k the left operand is read at (p, k) and the right operand at (k, q). -/

private theorem lhs_ax0 (j : S4096x128.Idx) (k : dot_S4096x128_S128x128_S4096x128_1_0_0_1_n_n.contr.Idx) :
    (dot_S4096x128_S128x128_S4096x128_1_0_0_1_n_n.lhsIdx j k 0).val = (j 0).val := rfl

private theorem lhs_ax1 (j : S4096x128.Idx) (k : dot_S4096x128_S128x128_S4096x128_1_0_0_1_n_n.contr.Idx) :
    (dot_S4096x128_S128x128_S4096x128_1_0_0_1_n_n.lhsIdx j k 1).val = (k ⟨0, by decide⟩).val :=
  DotDims.lhsIdx_val_of_single _ rfl j k

private theorem rhs_ax0 (j : S4096x128.Idx) (k : dot_S4096x128_S128x128_S4096x128_1_0_0_1_n_n.contr.Idx) :
    (dot_S4096x128_S128x128_S4096x128_1_0_0_1_n_n.rhsIdx j k 0).val = (k ⟨0, by decide⟩).val :=
  DotDims.rhsIdx_val_of_single _ rfl j k

private theorem rhs_ax1 (j : S4096x128.Idx) (k : dot_S4096x128_S128x128_S4096x128_1_0_0_1_n_n.contr.Idx) :
    (dot_S4096x128_S128x128_S4096x128_1_0_0_1_n_n.rhsIdx j k 1).val = (j 1).val := rfl

/-- The left operand's index at output (p, q) and contraction position k is (p, k). -/
private theorem lhs_at (p : Fin 4096) (q : Fin 128) (k : Fin 128) :
    dot_S4096x128_S128x128_S4096x128_1_0_0_1_n_n.lhsIdx (ix2 p q)
      ((contrEquiv1 dot_S4096x128_S128x128_S4096x128_1_0_0_1_n_n 128 rfl rfl).symm k) = ix2 p k := by
  funext a
  refine Fin.ext ?_
  match a with
  | ⟨0, _⟩ => exact lhs_ax0 _ _
  | ⟨1, _⟩ => exact (lhs_ax1 _ _).trans (contrEquiv1_symm_val _ 128 rfl rfl k)

/-- The right operand's index at output (p, q) and contraction position k is (k, q). -/
private theorem rhs_at (p : Fin 4096) (q : Fin 128) (k : Fin 128) :
    dot_S4096x128_S128x128_S4096x128_1_0_0_1_n_n.rhsIdx (ix2 p q)
      ((contrEquiv1 dot_S4096x128_S128x128_S4096x128_1_0_0_1_n_n 128 rfl rfl).symm k) = ix2 k q := by
  funext a
  refine Fin.ext ?_
  match a with
  | ⟨0, _⟩ => exact (rhs_ax0 _ _).trans (contrEquiv1_symm_val _ 128 rfl rfl k)
  | ⟨1, _⟩ => exact rhs_ax1 _ _

/-- The product into the zero block, at (p, q): the sum over the 128 columns of the row block times the weight. -/
private theorem mm_apply (u : FVec Ideal S4096x128 .bf16) (W : FVec Ideal S128x128 .bf16) (p : Fin 4096) (q : Fin 128) :
    matmul dot_S4096x128_S128x128_S4096x128_1_0_0_1_n_n none u W (constant (F := Ideal) S4096x128 .f32 0x00000000#32) (ix2 p q)
      = ∑ k : Fin 128, u (ix2 p k) * W (ix2 k q) := by
  refine (Ideal.matmul_constant_zero_apply dot_S4096x128_S128x128_S4096x128_1_0_0_1_n_n none u W (ix2 p q)).trans ?_
  rw [← Equiv.sum_comp (contrEquiv1 dot_S4096x128_S128x128_S4096x128_1_0_0_1_n_n 128 rfl rfl).symm]
  refine Finset.sum_congr rfl fun k _ => ?_
  rw [lhs_at, rhs_at]

/-- The bias row over every row plus the product of the (rounded) rows with the (rounded) weight is the linear map
    of the rows: on the extended reals the rounding changes nothing. -/
private theorem lin_eq (b : Vec Ideal S1x128 .f32) (u : FVec Ideal S4096x128 .f32) (W : Vec Ideal S128x128 .f32) :
    addf (broadcastTo S4096x128 b broadcasts_S1x128_S4096x128)
      (matmul dot_S4096x128_S128x128_S4096x128_1_0_0_1_n_n none (truncf .bf16 u bitsLt_bf16_f32)
        (truncf .bf16 W bitsLt_bf16_f32) (constant (F := Ideal) S4096x128 .f32 0x00000000#32)) = klin u W b := by
  funext j
  obtain ⟨p, q, rfl⟩ : ∃ (p : Fin 4096) (q : Fin 128), j = ix2 p q := ⟨j 0, j 1, eq_ix2 j⟩
  rw [addf_apply, broadcastTo_1b_ab_apply, mm_apply]
  rfl

/-! ### The tile's column sums

The reduction over the rows leaves a vector of 128 sums; the two casts put it in a [1, 1, 128] block. The tile is
the whole block of 4096 rows (one tile), so tile row i is row i. -/

/-- The column sums of a block of 4096 rows, cast to a [1, 1, 128] block, are the block's one tile's column sums. -/
private theorem colsum_eq (z : FVec Ideal S4096x128 .f32) :
    shapeCast S1x1x128 (shapeCast S1x128
      (multiReduction (F := Ideal) .add [0] S128 z 0x00000000#32 reduces_S4096x128_S128 (.inl rfl) rfl)
      shapeCasts_S128_S1x128) shapeCasts_S1x128_S1x1x128 = tilesum 1 4096 rfl z := by
  funext j
  obtain ⟨t, o, c, rfl⟩ : ∃ (t : Fin 1) (o : Fin 1) (c : Fin 128), j = ix3 t o c := ⟨j 0, j 1, j 2, eq_ix3 j⟩
  obtain rfl : t = 0 := Subsingleton.elim _ _
  rw [shapeCast_ab_1ab_apply, shapeCast_a_1a_apply]
  refine (Ideal.multiReduction_add_single z _ reduces_S4096x128_S128 _ _ (ix1 c)).trans ?_
  refine Finset.sum_congr rfl fun i _ => ?_
  refine congrArg z ?_
  funext a
  refine Fin.ext ?_
  match a with
  | ⟨0, _⟩ => exact (Nat.zero_add _).symm.trans (congrArg (· + i.val) (Nat.zero_mul 4096).symm)
  | ⟨1, _⟩ => rfl

/-- The same of the squares. -/
private theorem colsumsq_eq (z : FVec Ideal S4096x128 .f32) :
    shapeCast S1x1x128 (shapeCast S1x128
      (multiReduction (F := Ideal) .add [0] S128 (mulf z z) 0x00000000#32 reduces_S4096x128_S128 (.inl rfl) rfl)
      shapeCasts_S128_S1x128) shapeCasts_S1x128_S1x1x128 = tilesumsq 1 4096 rfl z :=
  colsum_eq (mulf z z)

/-! ## A first linear layer over the sum of two (three) row blocks: b + (a + x)·W, and its tile's column sums -/

theorem k2_pay1_eq (b : Vec Ideal S1x128 .f32) (a x : Vec Ideal S4096x128 .f32) (W : Vec Ideal S128x128 .f32) :
    k2_pay1 (F := Ideal) b a x W = klin (fun j => a j + x j) W b := by
  unfold k2_pay1
  simp only [shapeCast_self]
  exact lin_eq b (addf a x) W
theorem k2_pay2_eq (b : Vec Ideal S1x128 .f32) (a x : Vec Ideal S4096x128 .f32) (W : Vec Ideal S128x128 .f32) :
    k2_pay2 (F := Ideal) b a x W = tilesum 1 4096 rfl (klin (fun j => a j + x j) W b) := by
  unfold k2_pay2
  rw [k2_pay1_eq]
  exact colsum_eq _
theorem k2_pay3_eq (b : Vec Ideal S1x128 .f32) (a x : Vec Ideal S4096x128 .f32) (W : Vec Ideal S128x128 .f32) :
    k2_pay3 (F := Ideal) b a x W = tilesumsq 1 4096 rfl (klin (fun j => a j + x j) W b) := by
  unfold k2_pay3
  rw [k2_pay1_eq]
  exact colsumsq_eq _
theorem k4_pay1_eq (b : Vec Ideal S1x128 .f32) (a x : Vec Ideal S4096x128 .f32) (W : Vec Ideal S128x128 .f32) :
    k4_pay1 (F := Ideal) b a x W = klin (fun j => a j + x j) W b := by
  unfold k4_pay1
  simp only [shapeCast_self]
  exact lin_eq b (addf a x) W
theorem k4_pay2_eq (b : Vec Ideal S1x128 .f32) (a x : Vec Ideal S4096x128 .f32) (W : Vec Ideal S128x128 .f32) :
    k4_pay2 (F := Ideal) b a x W = tilesum 1 4096 rfl (klin (fun j => a j + x j) W b) := by
  unfold k4_pay2
  rw [k4_pay1_eq]
  exact colsum_eq _
theorem k4_pay3_eq (b : Vec Ideal S1x128 .f32) (a x : Vec Ideal S4096x128 .f32) (W : Vec Ideal S128x128 .f32) :
    k4_pay3 (F := Ideal) b a x W = tilesumsq 1 4096 rfl (klin (fun j => a j + x j) W b) := by
  unfold k4_pay3
  rw [k4_pay1_eq]
  exact colsumsq_eq _
theorem k17_pay1_eq (b : Vec Ideal S1x128 .f32) (a x : Vec Ideal S4096x128 .f32) (W : Vec Ideal S128x128 .f32) :
    k17_pay1 (F := Ideal) b a x W = klin (fun j => a j + x j) W b := by
  unfold k17_pay1
  simp only [shapeCast_self]
  exact lin_eq b (addf a x) W
theorem k17_pay2_eq (b : Vec Ideal S1x128 .f32) (a x : Vec Ideal S4096x128 .f32) (W : Vec Ideal S128x128 .f32) :
    k17_pay2 (F := Ideal) b a x W = tilesum 1 4096 rfl (klin (fun j => a j + x j) W b) := by
  unfold k17_pay2
  rw [k17_pay1_eq]
  exact colsum_eq _
theorem k17_pay3_eq (b : Vec Ideal S1x128 .f32) (a x : Vec Ideal S4096x128 .f32) (W : Vec Ideal S128x128 .f32) :
    k17_pay3 (F := Ideal) b a x W = tilesumsq 1 4096 rfl (klin (fun j => a j + x j) W b) := by
  unfold k17_pay3
  rw [k17_pay1_eq]
  exact colsumsq_eq _
theorem k19_pay1_eq (b : Vec Ideal S1x128 .f32) (a x : Vec Ideal S4096x128 .f32) (W : Vec Ideal S128x128 .f32) :
    k19_pay1 (F := Ideal) b a x W = klin (fun j => a j + x j) W b := by
  unfold k19_pay1
  simp only [shapeCast_self]
  exact lin_eq b (addf a x) W
theorem k19_pay2_eq (b : Vec Ideal S1x128 .f32) (a x : Vec Ideal S4096x128 .f32) (W : Vec Ideal S128x128 .f32) :
    k19_pay2 (F := Ideal) b a x W = tilesum 1 4096 rfl (klin (fun j => a j + x j) W b) := by
  unfold k19_pay2
  rw [k19_pay1_eq]
  exact colsum_eq _
theorem k19_pay3_eq (b : Vec Ideal S1x128 .f32) (a x : Vec Ideal S4096x128 .f32) (W : Vec Ideal S128x128 .f32) :
    k19_pay3 (F := Ideal) b a x W = tilesumsq 1 4096 rfl (klin (fun j => a j + x j) W b) := by
  unfold k19_pay3
  rw [k19_pay1_eq]
  exact colsumsq_eq _
theorem k21_pay1_eq (b : Vec Ideal S1x128 .f32) (a x : Vec Ideal S4096x128 .f32) (W : Vec Ideal S128x128 .f32) :
    k21_pay1 (F := Ideal) b a x W = klin (fun j => a j + x j) W b := by
  unfold k21_pay1
  simp only [shapeCast_self]
  exact lin_eq b (addf a x) W
theorem k21_pay2_eq (b : Vec Ideal S1x128 .f32) (a x : Vec Ideal S4096x128 .f32) (W : Vec Ideal S128x128 .f32) :
    k21_pay2 (F := Ideal) b a x W = tilesum 1 4096 rfl (klin (fun j => a j + x j) W b) := by
  unfold k21_pay2
  rw [k21_pay1_eq]
  exact colsum_eq _
theorem k21_pay3_eq (b : Vec Ideal S1x128 .f32) (a x : Vec Ideal S4096x128 .f32) (W : Vec Ideal S128x128 .f32) :
    k21_pay3 (F := Ideal) b a x W = tilesumsq 1 4096 rfl (klin (fun j => a j + x j) W b) := by
  unfold k21_pay3
  rw [k21_pay1_eq]
  exact colsumsq_eq _
theorem k8_pay1_eq (b : Vec Ideal S1x128 .f32) (p0 p1 p2 : Vec Ideal S4096x128 .f32) (W : Vec Ideal S128x128 .f32) :
    k8_pay1 (F := Ideal) b p0 p1 p2 W = klin (fun j => (p0 j + p1 j) + p2 j) W b := by
  unfold k8_pay1
  simp only [shapeCast_self]
  exact lin_eq b (addf (addf p0 p1) p2) W
theorem k8_pay2_eq (b : Vec Ideal S1x128 .f32) (p0 p1 p2 : Vec Ideal S4096x128 .f32) (W : Vec Ideal S128x128 .f32) :
    k8_pay2 (F := Ideal) b p0 p1 p2 W = tilesum 1 4096 rfl (klin (fun j => (p0 j + p1 j) + p2 j) W b) := by
  unfold k8_pay2
  rw [k8_pay1_eq]
  exact colsum_eq _
theorem k8_pay3_eq (b : Vec Ideal S1x128 .f32) (p0 p1 p2 : Vec Ideal S4096x128 .f32) (W : Vec Ideal S128x128 .f32) :
    k8_pay3 (F := Ideal) b p0 p1 p2 W = tilesumsq 1 4096 rfl (klin (fun j => (p0 j + p1 j) + p2 j) W b) := by
  unfold k8_pay3
  rw [k8_pay1_eq]
  exact colsumsq_eq _
theorem k10_pay1_eq (b : Vec Ideal S1x128 .f32) (p0 p1 p2 : Vec Ideal S4096x128 .f32) (W : Vec Ideal S128x128 .f32) :
    k10_pay1 (F := Ideal) b p0 p1 p2 W = klin (fun j => (p0 j + p1 j) + p2 j) W b := by
  unfold k10_pay1
  simp only [shapeCast_self]
  exact lin_eq b (addf (addf p0 p1) p2) W
theorem k10_pay2_eq (b : Vec Ideal S1x128 .f32) (p0 p1 p2 : Vec Ideal S4096x128 .f32) (W : Vec Ideal S128x128 .f32) :
    k10_pay2 (F := Ideal) b p0 p1 p2 W = tilesum 1 4096 rfl (klin (fun j => (p0 j + p1 j) + p2 j) W b) := by
  unfold k10_pay2
  rw [k10_pay1_eq]
  exact colsum_eq _
theorem k10_pay3_eq (b : Vec Ideal S1x128 .f32) (p0 p1 p2 : Vec Ideal S4096x128 .f32) (W : Vec Ideal S128x128 .f32) :
    k10_pay3 (F := Ideal) b p0 p1 p2 W = tilesumsq 1 4096 rfl (klin (fun j => (p0 j + p1 j) + p2 j) W b) := by
  unfold k10_pay3
  rw [k10_pay1_eq]
  exact colsumsq_eq _

end Cert.KernelIdeal.Blk

end
-- ==== Proof.SpecRows.lean ====
/-
  Row selection. Every layer here acts on the rows of a matrix independently: the linear maps, the ramp, and batch
  normalisation once the column statistics are given. So taking a set of rows of the result is the same as applying the
  layer to those rows of the input; and tile t's partial column sums are the column sums of the rows of tile t.
  This is what lets a result computed tile by tile be read as one whole-array function.
-/
import proofs.«427658_j89163521065156_2_alg».proof.Proof.Spec

noncomputable section

open scoped BigOperators
open Idealize.ShloMosaic Idealize.ShloMosaic.ValueIdx

namespace Cert.Spec

/-- The rows f 0, f 1, … of a matrix. -/
def selRows {R B C : Nat} (f : Fin B → Fin R) (v : Mat R C) : Mat B C := fun y => v (ix2 (f (y 0)) (y 1))

/-- The rows of tile t (rows t·B … t·B + B − 1) of a matrix of R = T·B rows. -/
def tileRow {R : Nat} (T B : Nat) (hR : T * B = R) (t : Fin T) : Fin B → Fin R := fun i => ⟨t.val * B + i.val, by
  have h0 := t.isLt
  have h1 := i.isLt
  calc t.val * B + i.val < t.val * B + B := by omega
    _ = (t.val + 1) * B := by ring
    _ ≤ T * B := Nat.mul_le_mul_right _ h0
    _ = R := hR⟩

theorem selRows_add {R B C : Nat} (f : Fin B → Fin R) (a x : Mat R C) :
    selRows f (fun j => a j + x j) = fun j => selRows f a j + selRows f x j := by
  funext y
  rfl
theorem selRows_relu {R B C : Nat} (f : Fin B → Fin R) (z : Mat R C) : selRows f (relu z) = relu (selRows f z) := by
  funext y
  rfl
theorem selRows_mm {R B K C : Nat} (f : Fin B → Fin R) (v : Mat R K) (W : Mat K C) : selRows f (mm v W) = mm (selRows f v) W := by
  funext y
  rfl
theorem selRows_klin {R B K C : Nat} (f : Fin B → Fin R) (v : Mat R K) (W : Mat K C) (b : Mat 1 C) :
    selRows f (klin v W b) = klin (selRows f v) W b := by
  funext y
  rfl
theorem selRows_klin2 {R B K C : Nat} (f : Fin B → Fin R) (v0 : Mat R K) (W0 : Mat K C) (v1 : Mat R K) (W1 : Mat K C) (b : Mat 1 C) :
    selRows f (klin2 v0 W0 v1 W1 b) = klin2 (selRows f v0) W0 (selRows f v1) W1 b := by
  funext y
  rfl
theorem selRows_klin3 {R B K C : Nat} (f : Fin B → Fin R) (v0 : Mat R K) (W0 : Mat K C) (v1 : Mat R K) (W1 : Mat K C)
    (v2 : Mat R K) (W2 : Mat K C) (b : Mat 1 C) :
    selRows f (klin3 v0 W0 v1 W1 v2 W2 b) = klin3 (selRows f v0) W0 (selRows f v1) W1 (selRows f v2) W2 b := by
  funext y
  rfl
theorem selRows_kbnrelu {R B C : Nat} (f : Fin B → Fin R) (k eps : EReal) (s q : Mat 1 C) (z : Mat R C) (g b : Mat 1 C) :
    selRows f (kbnrelu k eps s q z g b) = kbnrelu k eps s q (selRows f z) g b := by
  funext y
  rfl

/-- Tile t's entry of the per-tile column sums is the column sum over the rows of tile t. -/
theorem tilesum_tile {R C : Nat} (T B : Nat) (hR : T * B = R) (z : Mat R C) (t : Fin T) :
    (fun y : (⟨3, ![1, 1, C]⟩ : Shape).Idx => tilesum T B hR z (ix3 t 0 (y 2)))
      = tilesum 1 B (Nat.one_mul B) (selRows (tileRow T B hR t) z) := by
  funext y
  -- the one tile of the right-hand side has index 0, so its row i is row t·B + i of z
  have hy : (y 0).val = 0 := by
    have h : (y 0).val < 1 := (y 0).isLt
    omega
  simp only [tilesum, selRows, tileRow]
  refine Finset.sum_congr rfl (fun i _ => congrArg z ?_)
  congr 1
  apply Fin.ext
  show t.val * B + i.val = t.val * B + ((y 0).val * B + i.val)
  rw [hy, Nat.zero_mul, Nat.zero_add]
theorem tilesumsq_tile {R C : Nat} (T B : Nat) (hR : T * B = R) (z : Mat R C) (t : Fin T) :
    (fun y : (⟨3, ![1, 1, C]⟩ : Shape).Idx => tilesumsq T B hR z (ix3 t 0 (y 2)))
      = tilesumsq 1 B (Nat.one_mul B) (selRows (tileRow T B hR t) z) := by
  exact tilesum_tile T B hR (fun j => z j * z j) t

end Cert.Spec

end
-- ==== Proof.Reg.R2.lean ====
/-
  Region 2: a first linear layer over 16384 rows in 4 tiles of 4096. Each grid point takes one tile of the
  two summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg2
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 4 points, one per tile of 4096 rows. -/
private theorem hN : cfg2.N = 4 := rfl

/-- A grid point as a tile number. -/
private def tile (t : Fin cfg2.N) : Fin 4 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 3) = t.val ∧ win2_5.index t (1 : Fin 3) = 0 ∧ win2_5.index t (2 : Fin 3) = 0)
    ∧ (win2_6.index t (0 : Fin 3) = t.val ∧ win2_6.index t (1 : Fin 3) = 0 ∧ win2_6.index t (2 : Fin 3) = 0) :=
  (by decide +kernel : ∀ t : Fin grid2.N, _)

/-! ## The blocks, read off their arrays -/

/-- Window 0's block at point t holds the rows of tile t of its array. -/
private theorem rows_0 (X : S16384x128.Idx → EReal) (t : Fin cfg2.N) :
    ((cfg2.win 0).blk t).view.read (Elt Ideal) X = selRows (tileRow 4 4096 rfl (tile t)) X := by
  obtain ⟨⟨e0, e1⟩, -⟩ := idx_facts t
  funext y
  show X (((cfg2.win 0).blk t).view.emb y) = X (ix2 (tileRow 4 4096 rfl (tile t) (y 0)) (y 1))
  refine congrArg X ?_
  funext a
  apply Fin.ext
  match a with
  | ⟨0, _⟩ => show win2_0.index t (0 : Fin 2) * 4096 + 1 * (y 0).val = t.val * 4096 + (y 0).val; rw [e0]; omega
  | ⟨1, _⟩ => show win2_0.index t (1 : Fin 2) * 128 + 1 * (y 1).val = (y 1).val; rw [e1]; omega

/-- Window 1's block at point t holds the rows of tile t of its array. -/
private theorem rows_1 (X : S16384x128.Idx → EReal) (t : Fin cfg2.N) :
    ((cfg2.win 1).blk t).view.read (Elt Ideal) X = selRows (tileRow 4 4096 rfl (tile t)) X := by
  obtain ⟨-, ⟨e0, e1⟩, -⟩ := idx_facts t
  funext y
  show X (((cfg2.win 1).blk t).view.emb y) = X (ix2 (tileRow 4 4096 rfl (tile t) (y 0)) (y 1))
  refine congrArg X ?_
  funext a
  apply Fin.ext
  match a with
  | ⟨0, _⟩ => show win2_1.index t (0 : Fin 2) * 4096 + 1 * (y 0).val = t.val * 4096 + (y 0).val; rw [e0]; omega
  | ⟨1, _⟩ => show win2_1.index t (1 : Fin 2) * 128 + 1 * (y 1).val = (y 1).val; rw [e1]; omega

/-- Window 2's block is its whole array at every point. -/
private theorem whole_2 (X : S128x128.Idx → EReal) (t : Fin cfg2.N) :
    ((cfg2.win 2).blk t).view.read (Elt Ideal) X = X := by
  obtain ⟨-, -, ⟨e0, e1⟩, -⟩ := idx_facts t
  funext y
  show X (((cfg2.win 2).blk t).view.emb y) = X y
  refine congrArg X ?_
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Window 3's block is its whole array at every point. -/
private theorem whole_3 (X : S1x128.Idx → EReal) (t : Fin cfg2.N) :
    ((cfg2.win 3).blk t).view.read (Elt Ideal) X = X := by
  obtain ⟨-, -, -, ⟨e0, e1⟩, -⟩ := idx_facts t
  funext y
  show X (((cfg2.win 3).blk t).view.emb y) = X y
  refine congrArg X ?_
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Window 4's block at point t holds the rows of tile t of its array. -/
private theorem rows_4 (X : S16384x128.Idx → EReal) (t : Fin cfg2.N) :
    ((cfg2.win 4).blk t).view.read (Elt Ideal) X = selRows (tileRow 4 4096 rfl (tile t)) X := by
  obtain ⟨-, -, -, -, ⟨e0, e1⟩, -⟩ := idx_facts t
  funext y
  show X (((cfg2.win 4).blk t).view.emb y) = X (ix2 (tileRow 4 4096 rfl (tile t) (y 0)) (y 1))
  refine congrArg X ?_
  funext a
  apply Fin.ext
  match a with
  | ⟨0, _⟩ => show win2_4.index t (0 : Fin 2) * 4096 + 1 * (y 0).val = t.val * 4096 + (y 0).val; rw [e0]; omega
  | ⟨1, _⟩ => show win2_4.index t (1 : Fin 2) * 128 + 1 * (y 1).val = (y 1).val; rw [e1]; omega

/-- Window 5's block at point t is tile t's row of the per-tile statistics. -/
private theorem stat_5 (P : S4x1x128.Idx → EReal) (t : Fin cfg2.N) :
    ((cfg2.win 5).blk t).view.read (Elt Ideal) P = fun y : (⟨3, ![1, 1, 128]⟩ : Shape).Idx => P (ix3 (tile t) 0 (y 2)) := by
  obtain ⟨-, -, -, -, -, ⟨e0, e1, e2⟩, -⟩ := idx_facts t
  funext y
  show P (((cfg2.win 5).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win2_5.index t (0 : Fin 3) * 1 + 1 * (y 0).val = t.val; rw [e0]; omega
  | ⟨1, _⟩ => show win2_5.index t (1 : Fin 3) * 1 + 1 * (y 1).val = 0; rw [e1]; omega
  | ⟨2, _⟩ => show win2_5.index t (2 : Fin 3) * 128 + 1 * (y 2).val = (y 2).val; rw [e2]; omega

/-- Window 6's block at point t is tile t's row of the per-tile statistics. -/
private theorem stat_6 (P : S4x1x128.Idx → EReal) (t : Fin cfg2.N) :
    ((cfg2.win 6).blk t).view.read (Elt Ideal) P = fun y : (⟨3, ![1, 1, 128]⟩ : Shape).Idx => P (ix3 (tile t) 0 (y 2)) := by
  obtain ⟨-, -, -, -, -, -, ⟨e0, e1, e2⟩⟩ := idx_facts t
  funext y
  show P (((cfg2.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win2_6.index t (0 : Fin 3) * 1 + 1 * (y 0).val = t.val; rw [e0]; omega
  | ⟨1, _⟩ => show win2_6.index t (1 : Fin 3) * 1 + 1 * (y 1).val = 0; rw [e1]; omega
  | ⟨2, _⟩ => show win2_6.index t (2 : Fin 3) * 128 + 1 * (y 2).val = (y 2).val; rw [e2]; omega

private theorem iblk_0 (c : Dev nD) (t : Fin cfg2.N) :
    iblk2 (F := Ideal) V c 0 t = selRows (tileRow 4 4096 rfl (tile t)) (V c main_v19) := rows_0 _ t
private theorem iblk_1 (c : Dev nD) (t : Fin cfg2.N) :
    iblk2 (F := Ideal) V c 1 t = selRows (tileRow 4 4096 rfl (tile t)) (V c main_arg0) := rows_1 _ t
private theorem iblk_2 (c : Dev nD) (t : Fin cfg2.N) : iblk2 (F := Ideal) V c 2 t = V c main_v21 := whole_2 _ t
private theorem iblk_3 (c : Dev nD) (t : Fin cfg2.N) : iblk2 (F := Ideal) V c 3 t = V c main_v32 := whole_3 _ t

/-- Selecting rows commutes with the layer: the linear map acts on each row by itself. -/
private theorem sel_lin {R B : Nat} (f : Fin B → Fin R) (p0 p1 : Mat R 128) (W : Mat 128 128) (b : Mat 1 128) :
    selRows f (klin (fun j => p0 j + p1 j) W b) = klin (fun j => selRows f p0 j + selRows f p1 j) W b := by
  rw [selRows_klin]
  rfl

/-! ## What each point writes back -/

/-- What point t writes back to the layer's output: the rows of tile t of the whole-array linear map. -/
private theorem flushed_lin (c : Dev nD) (t : Fin cfg2.N) :
    (dat2 (F := Ideal) V c).flushed 4 t = ((cfg2.win 4).blk t).view.read (Elt Ideal)
      (klin (fun j => V c main_v19 j +ᵉ V c main_arg0 j) (V c main_v21) (V c main_v32)) := by
  show (cfg2.win 4).cut (grid2.coords t) ((dat2 V c).after 4 t) = _
  rw [after2_4]
  unfold out2_4
  rw [View.canon_unit_zero hz2]
  simp only [View.ld_unit_zero (S := S4096x128) hz2, View.ld_unit_zero (S := S128x128) hz2, View.ld_unit_zero (S := S1x128) hz2]
  rw [Blk.k2_pay1_eq, rows_4, sel_lin, iblk_0 V c t, iblk_1 V c t, iblk_2 V c t, iblk_3 V c t]
  rfl

/-- What point t writes back to the column sums: tile t's row of the whole array's per-tile column sums. -/
private theorem flushed_psum (c : Dev nD) (t : Fin cfg2.N) :
    (dat2 (F := Ideal) V c).flushed 5 t = ((cfg2.win 5).blk t).view.read (Elt Ideal)
      (tilesum 4 4096 rfl (klin (fun j => V c main_v19 j +ᵉ V c main_arg0 j) (V c main_v21) (V c main_v32))) := by
  show (cfg2.win 5).cut (grid2.coords t) ((dat2 V c).after 5 t) = _
  rw [after2_5]
  unfold out2_5
  rw [View.canon_unit_zero hz3]
  simp only [View.ld_unit_zero (S := S4096x128) hz2, View.ld_unit_zero (S := S128x128) hz2, View.ld_unit_zero (S := S1x128) hz2]
  rw [Blk.k2_pay2_eq, stat_5, tilesum_tile, sel_lin, iblk_0 V c t, iblk_1 V c t, iblk_2 V c t, iblk_3 V c t]
  rfl

/-- What point t writes back to the column sums of squares: tile t's row of the whole array's per-tile column sums of squares. -/
private theorem flushed_psumsq (c : Dev nD) (t : Fin cfg2.N) :
    (dat2 (F := Ideal) V c).flushed 6 t = ((cfg2.win 6).blk t).view.read (Elt Ideal)
      (tilesumsq 4 4096 rfl (klin (fun j => V c main_v19 j +ᵉ V c main_arg0 j) (V c main_v21) (V c main_v32))) := by
  show (cfg2.win 6).cut (grid2.coords t) ((dat2 V c).after 6 t) = _
  rw [after2_6]
  unfold out2_6
  rw [View.canon_unit_zero hz3]
  simp only [View.ld_unit_zero (S := S4096x128) hz2, View.ld_unit_zero (S := S128x128) hz2, View.ld_unit_zero (S := S1x128) hz2]
  rw [Blk.k2_pay3_eq, stat_6, tilesumsq_tile, sel_lin, iblk_0 V c t, iblk_1 V c t, iblk_2 V c t, iblk_3 V c t]
  rfl

/-! ## The blocks cover the arrays -/

/-- An index of the array is in point t's block iff each coordinate is in the block's range on its axis. -/
private theorem mem_4 (t : Fin cfg2.N) (i : S16384x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v33_0).slice (win2_4.rect t)).set ↔ _
  rw [View.set_slice_whole, Rect.mem_set_unit]
  exact Iff.rfl

/-- Row r lies in the block of tile r / 4096. -/
private theorem cover_4 (i : S16384x128.Idx) : ∃ t : Fin cfg2.N, (cfg2.win 4).flush t = true ∧ i ∈ ((cfg2.win 4).blk t).view.set := by
  have hi0 : (i 0).val < 16384 := (i 0).isLt
  have hi1 : (i 1).val < 128 := (i 1).isLt
  have ht : (i 0).val / 4096 < cfg2.N := by rw [hN]; omega
  obtain ⟨-, -, -, -, ⟨e0, e1⟩, -⟩ := idx_facts ⟨(i 0).val / 4096, ht⟩
  refine ⟨⟨(i 0).val / 4096, ht⟩, flush2_4 _, ?_⟩
  rw [mem_4]
  intro a
  match a with
  | ⟨0, _⟩ =>
    show win2_4.index ⟨(i 0).val / 4096, ht⟩ (0 : Fin 2) * 4096 ≤ (i 0).val ∧ (i 0).val < win2_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win2_4.index ⟨(i 0).val / 4096, ht⟩ (1 : Fin 2) * 128 ≤ (i 1).val ∧ (i 1).val < win2_4.index ⟨(i 0).val / 4096, ht⟩ (1 : Fin 2) * 128 + 128
    rw [e1]; omega

/-- An index of the statistics array is in point t's block iff each coordinate is in the block's range on its axis. -/
private theorem mem_5 (t : Fin cfg2.N) (i : S4x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v33_1).slice (win2_5.rect t)).set ↔ _
  rw [View.set_slice_whole, Rect.mem_set_unit]
  exact Iff.rfl

/-- Tile r's row lies in the block of point r. -/
private theorem cover_5 (i : S4x1x128.Idx) : ∃ t : Fin cfg2.N, (cfg2.win 5).flush t = true ∧ i ∈ ((cfg2.win 5).blk t).view.set := by
  have hi0 : (i 0).val < 4 := (i 0).isLt
  have hi1 : (i 1).val < 1 := (i 1).isLt
  have hi2 : (i 2).val < 128 := (i 2).isLt
  have ht : (i 0).val < cfg2.N := by rw [hN]; omega
  obtain ⟨-, -, -, -, -, ⟨e0, e1, e2⟩, -⟩ := idx_facts ⟨(i 0).val, ht⟩
  refine ⟨⟨(i 0).val, ht⟩, flush2_5 _, ?_⟩
  rw [mem_5]
  intro a
  match a with
  | ⟨0, _⟩ =>
    show win2_5.index ⟨(i 0).val, ht⟩ (0 : Fin 3) * 1 ≤ (i 0).val ∧ (i 0).val < win2_5.index ⟨(i 0).val, ht⟩ (0 : Fin 3) * 1 + 1
    rw [e0]; show (i 0).val * 1 ≤ (i 0).val ∧ (i 0).val < (i 0).val * 1 + 1; omega
  | ⟨1, _⟩ =>
    show win2_5.index ⟨(i 0).val, ht⟩ (1 : Fin 3) * 1 ≤ (i 1).val ∧ (i 1).val < win2_5.index ⟨(i 0).val, ht⟩ (1 : Fin 3) * 1 + 1
    rw [e1]; omega
  | ⟨2, _⟩ =>
    show win2_5.index ⟨(i 0).val, ht⟩ (2 : Fin 3) * 128 ≤ (i 2).val ∧ (i 2).val < win2_5.index ⟨(i 0).val, ht⟩ (2 : Fin 3) * 128 + 128
    rw [e2]; omega

/-- An index of the statistics array is in point t's block iff each coordinate is in the block's range on its axis. -/
private theorem mem_6 (t : Fin cfg2.N) (i : S4x1x128.Idx) :
    i ∈ ((cfg2.win 6).blk t).view.set ↔ ∀ a : Fin 3, win2_6.index t a * S1x1x128.size a ≤ (i a).val ∧ (i a).val < win2_6.index t a * S1x1x128.size a + S1x1x128.size a := by
  show i ∈ ((View.whole main_v33_2).slice (win2_6.rect t)).set ↔ _
  rw [View.set_slice_whole, Rect.mem_set_unit]
  exact Iff.rfl

/-- Tile r's row lies in the block of point r. -/
private theorem cover_6 (i : S4x1x128.Idx) : ∃ t : Fin cfg2.N, (cfg2.win 6).flush t = true ∧ i ∈ ((cfg2.win 6).blk t).view.set := by
  have hi0 : (i 0).val < 4 := (i 0).isLt
  have hi1 : (i 1).val < 1 := (i 1).isLt
  have hi2 : (i 2).val < 128 := (i 2).isLt
  have ht : (i 0).val < cfg2.N := by rw [hN]; omega
  obtain ⟨-, -, -, -, -, -, ⟨e0, e1, e2⟩⟩ := idx_facts ⟨(i 0).val, ht⟩
  refine ⟨⟨(i 0).val, ht⟩, flush2_6 _, ?_⟩
  rw [mem_6]
  intro a
  match a with
  | ⟨0, _⟩ =>
    show win2_6.index ⟨(i 0).val, ht⟩ (0 : Fin 3) * 1 ≤ (i 0).val ∧ (i 0).val < win2_6.index ⟨(i 0).val, ht⟩ (0 : Fin 3) * 1 + 1
    rw [e0]; show (i 0).val * 1 ≤ (i 0).val ∧ (i 0).val < (i 0).val * 1 + 1; omega
  | ⟨1, _⟩ =>
    show win2_6.index ⟨(i 0).val, ht⟩ (1 : Fin 3) * 1 ≤ (i 1).val ∧ (i 1).val < win2_6.index ⟨(i 0).val, ht⟩ (1 : Fin 3) * 1 + 1
    rw [e1]; omega
  | ⟨2, _⟩ =>
    show win2_6.index ⟨(i 0).val, ht⟩ (2 : Fin 3) * 128 ≤ (i 2).val ∧ (i 2).val < win2_6.index ⟨(i 0).val, ht⟩ (2 : Fin 3) * 128 + 128
    rw [e2]; omega

/-! ## The arrays after the region -/

/-- The layer's output array: the bias row plus the product of the summed input rows with the weight. -/
theorem r2_lin (c : Dev nD) : (dat2 (F := Ideal) V c).arrAt 4 cfg2.N
    = klin (fun j => V c main_v19 j +ᵉ V c main_arg0 j) (V c main_v21) (V c main_v32) :=
  (dat2 V c).arrAt_eq_of_cover 4 _ (fun t _ => flushed_lin V c t) cover_4

/-- The per-tile column sums of the layer's output. -/
theorem r2_psum (c : Dev nD) : (dat2 (F := Ideal) V c).arrAt 5 cfg2.N
    = tilesum 4 4096 rfl (klin (fun j => V c main_v19 j +ᵉ V c main_arg0 j) (V c main_v21) (V c main_v32)) :=
  (dat2 V c).arrAt_eq_of_cover 5 _ (fun t _ => flushed_psum V c t) cover_5

/-- The per-tile column sums of squares of the layer's output. -/
theorem r2_psumsq (c : Dev nD) : (dat2 (F := Ideal) V c).arrAt 6 cfg2.N
    = tilesumsq 4 4096 rfl (klin (fun j => V c main_v19 j +ᵉ V c main_arg0 j) (V c main_v21) (V c main_v32)) :=
  (dat2 V c).arrAt_eq_of_cover 6 _ (fun t _ => flushed_psumsq V c t) cover_6

end Cert.KernelIdeal.Reg

end
-- ==== Proof.BlkBn.lean ====
/-
  Batch normalisation in its raw-moment form on one tile of 4096 rows: from the column sums s and sums of squares q
  of the WHOLE array (given as one-row blocks), the mean is s·(1/n), the variance max(q·(1/n) − mean², 0), and each entry
  becomes max((z − mean)·rsqrt(var + ε)·γ + β, 0); then, for the inner layers, the bias row plus its product with the
  128×128 weight and that tile's column statistics.
-/
import proofs.«427658_j89163521065156_2_alg».proof.Proof.Gen.KernelIdeal.Skeleton
import proofs.«427658_j89163521065156_2_alg».proof.Proof.Spec
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx Idealize.SL.Sem
open Cert.KernelIdeal Cert.KernelIdeal.Gen Cert.Spec

namespace Cert.KernelIdeal.Blk

/-! ## The product of a 4096×128 block with a 128×128 weight, read at an entry

The product contracts the block's column axis against the weight's row axis. Its operand indices at an output entry (p, c)
and a contraction position are read one axis at a time; the contraction index set has one axis of extent 128, so the
sum is re-indexed over the 128 positions. -/

private theorem lhs_ax0 (p : Fin 4096) (c : Fin 128) (k : dot_S4096x128_S128x128_S4096x128_1_0_0_1_n_n.contr.Idx) :
    (dot_S4096x128_S128x128_S4096x128_1_0_0_1_n_n.lhsIdx (ix2 p c) k 0).val = p.val := by
  simp [DotDims.lhsIdx, dot_S4096x128_S128x128_S4096x128_1_0_0_1_n_n]; rfl

private theorem lhs_ax1 (p : Fin 4096) (c : Fin 128) (k : dot_S4096x128_S128x128_S4096x128_1_0_0_1_n_n.contr.Idx) :
    (dot_S4096x128_S128x128_S4096x128_1_0_0_1_n_n.lhsIdx (ix2 p c) k 1).val = (k ⟨0, by decide⟩).val :=
  dot_S4096x128_S128x128_S4096x128_1_0_0_1_n_n.lhsIdx_val_of_single rfl _ _

private theorem rhs_ax0 (p : Fin 4096) (c : Fin 128) (k : dot_S4096x128_S128x128_S4096x128_1_0_0_1_n_n.contr.Idx) :
    (dot_S4096x128_S128x128_S4096x128_1_0_0_1_n_n.rhsIdx (ix2 p c) k 0).val = (k ⟨0, by decide⟩).val :=
  dot_S4096x128_S128x128_S4096x128_1_0_0_1_n_n.rhsIdx_val_of_single rfl _ _

private theorem rhs_ax1 (p : Fin 4096) (c : Fin 128) (k : dot_S4096x128_S128x128_S4096x128_1_0_0_1_n_n.contr.Idx) :
    (dot_S4096x128_S128x128_S4096x128_1_0_0_1_n_n.rhsIdx (ix2 p c) k 1).val = c.val := by
  simp [DotDims.rhsIdx, dot_S4096x128_S128x128_S4096x128_1_0_0_1_n_n]; rfl

/-- Onto a zero accumulator the product at (p, c) is Σₖ A[p, k] · B[k, c]. -/
private theorem mm_apply (A : FVec Ideal S4096x128 .bf16) (B : FVec Ideal S128x128 .bf16) (p : Fin 4096) (c : Fin 128) :
    matmul dot_S4096x128_S128x128_S4096x128_1_0_0_1_n_n none A B (constant (F := Ideal) S4096x128 .f32 0x00000000#32) (ix2 p c)
      = ∑ k : Fin 128, A (ix2 p k) * B (ix2 k c) := by
  refine (Ideal.matmul_constant_zero_apply dot_S4096x128_S128x128_S4096x128_1_0_0_1_n_n none A B (ix2 p c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have hl : dot_S4096x128_S128x128_S4096x128_1_0_0_1_n_n.lhsIdx (ix2 p c) ((contrEquiv1 dot_S4096x128_S128x128_S4096x128_1_0_0_1_n_n 128 rfl rfl).symm k) = ix2 p k :=
    Shape.idx_ext₂ (lhs_ax0 p c _) ((lhs_ax1 p c _).trans hk)
  have hr : dot_S4096x128_S128x128_S4096x128_1_0_0_1_n_n.rhsIdx (ix2 p c) ((contrEquiv1 dot_S4096x128_S128x128_S4096x128_1_0_0_1_n_n 128 rfl rfl).symm k) = ix2 k c :=
    Shape.idx_ext₂ ((rhs_ax0 p c _).trans hk) (rhs_ax1 p c _)
  rw [hl, hr]

/-! ## A row laid along every row of the tile, and a tile's column sums -/

/-- A one-row block broadcast to 4096 rows reads, at (p, c), the row's entry c. -/
private theorem row_apply (v : FVec Ideal S1x128 .f32) (h : S1x128.Broadcasts S4096x128) (p : Fin 4096) (c : Fin 128) :
    broadcastTo S4096x128 v h (ix2 p c) = v (ix2 (0 : Fin 1) c) :=
  broadcastTo_1b_ab_apply v h p c

/-- Summing out the row axis: the source index over column c with row r put back is (r, c). -/
private theorem lift_col (h : S4096x128.Reduces [0] S128) (c : Fin 128) (r : Fin 4096) :
    h.lift (ix1 c) r = ix2 r c := by
  refine Shape.idx_ext₂ ?_ ?_
  · show h.liftVal (ix1 c) r.val 0 = r.val
    simp [Shape.Reduces.liftVal]
  · show h.liftVal (ix1 c) r.val 1 = c.val
    simp [Shape.Reduces.liftVal]

/-- The sum over the 4096 rows of a tile, kept as a 1×1×128 block, is the one tile's column sums. -/
private theorem tile_colsum (X : FVec Ideal S4096x128 .f32) :
    shapeCast S1x1x128 (shapeCast S1x128
        (multiReduction (F := Ideal) .add [0] S128 X 0x00000000#32 reduces_S4096x128_S128 (.inl rfl) rfl)
        shapeCasts_S128_S1x128) shapeCasts_S1x128_S1x1x128
      = tilesum 1 4096 rfl X := by
  funext j
  obtain ⟨u, v, c, rfl⟩ : ∃ (u : Fin 1) (v : Fin 1) (c : Fin 128), j = ix3 u v c := ⟨j 0, j 1, j 2, eq_ix3 j⟩
  have hu : u.val = 0 := by omega
  refine (shapeCast_ab_1ab_apply _ _ u v c).trans ?_
  refine (shapeCast_a_1a_apply _ _ v c).trans ?_
  refine (Ideal.multiReduction_add_single X _ reduces_S4096x128_S128 _ _ (ix1 c)).trans ?_
  unfold tilesum
  refine Finset.sum_congr rfl fun r _ => ?_
  refine (congrArg X (lift_col reduces_S4096x128_S128 c r)).trans ?_
  exact congrArg X (congrArg (fun t => ix2 t c) (Fin.ext (by show r.val = u.val * 4096 + r.val; omega)))

/-! ## The normalisation and ramp of one tile -/

/-- A reciprocal root taken entry by entry. -/
private theorem rsqrt_apply (a : FVec Ideal S1x128 .f32) (i : S1x128.Idx) : rsqrt a i = Ideal.rsqrt (a i) := rfl

/-- One tile's normalisation in raw-moment form, the reciprocal of the row count given by its word w: the mean row is
    s·k, the variance row max(q·k − mean·mean, 0), its reciprocal root taken after adding ε, and the tile becomes
    max(((z − mean)·root)·γ + β, 0), each row laid along the 4096 rows. -/
private def bnTile (w : BitVec 32) (z : Vec Ideal S4096x128 .f32) (s q g be : Vec Ideal S1x128 .f32) :
    FVec Ideal S4096x128 .f32 :=
  have m : FVec Ideal S1x128 .f32 :=
    mulf (shapeCast S1x128 s shapeCasts_S1x128_S1x128) (broadcast S1x128 (Scalar.ofBits (F := Ideal) .f32 w))
  have v : FVec Ideal S1x128 .f32 :=
    maximumf
      (subf (mulf (shapeCast S1x128 q shapeCasts_S1x128_S1x128) (broadcast S1x128 (Scalar.ofBits (F := Ideal) .f32 w)))
        (mulf m m))
      (broadcast S1x128 (Scalar.ofBits (F := Ideal) .f32 0x00000000#32))
  have r : FVec Ideal S1x128 .f32 :=
    rsqrt (addf v (broadcast S1x128 (Scalar.ofBits (F := Ideal) .f32 0x3727C5AC#32)))
  maximumf
    (addf
      (mulf
        (mulf
          (subf (shapeCast S4096x128 z shapeCasts_S4096x128_S4096x128)
            (broadcastTo S4096x128 m broadcasts_S1x128_S4096x128))
          (broadcastTo S4096x128 r broadcasts_S1x128_S4096x128))
        (broadcastTo S4096x128 (shapeCast S1x128 g shapeCasts_S1x128_S1x128) broadcasts_S1x128_S4096x128))
      (broadcastTo S4096x128 (shapeCast S1x128 be shapeCasts_S1x128_S1x128) broadcasts_S1x128_S4096x128))
    (broadcast S4096x128 (Scalar.ofBits (F := Ideal) .f32 0x00000000#32))

/-- Entry by entry that is the raw-moment normalisation with k the real the word w denotes and ε the program's. -/
private theorem bnTile_eq (w : BitVec 32) (z : Vec Ideal S4096x128 .f32) (s q g be : Vec Ideal S1x128 .f32) :
    bnTile w z s q g be = kbnrelu (Ideal.ofBits .f32 w) Cert.Consts.eps s q z g be := by
  funext j
  obtain ⟨p, c, rfl⟩ : ∃ (p : Fin 4096) (c : Fin 128), j = ix2 p c := ⟨j 0, j 1, eq_ix2 j⟩
  unfold bnTile
  simp only [shapeCast_self]
  simp only [maximumf_apply, addf_apply, mulf_apply, subf_apply, row_apply, rsqrt_apply, broadcast_apply,
    Ideal.ofBits_def, Ideal.ofBits_zero_f32]
  rfl

/-! ## The bias row plus the product, and the tile's statistics of the result -/

/-- The bias row laid along the rows plus the product of a tile Y with the weight is b + Y·W. -/
private theorem lin_eq (Y : FVec Ideal S4096x128 .f32) (W : Vec Ideal S128x128 .f32) (b : Vec Ideal S1x128 .f32) :
    addf (broadcastTo S4096x128 (shapeCast S1x128 b shapeCasts_S1x128_S1x128) broadcasts_S1x128_S4096x128)
        (matmul dot_S4096x128_S128x128_S4096x128_1_0_0_1_n_n none (truncf .bf16 Y bitsLt_bf16_f32)
          (truncf .bf16 (shapeCast S128x128 W shapeCasts_S128x128_S128x128) bitsLt_bf16_f32)
          (constant (F := Ideal) S4096x128 .f32 0x00000000#32))
      = klin Y W b := by
  funext j
  obtain ⟨p, c, rfl⟩ : ∃ (p : Fin 4096) (c : Fin 128), j = ix2 p c := ⟨j 0, j 1, eq_ix2 j⟩
  simp only [shapeCast_self]
  refine (addf_apply _ _ _).trans ?_
  rw [row_apply, mm_apply]
  rfl

/-- The second layer's tile: the bias plus the normalised, ramped first layer's product with the weight. -/
private theorem out_eq (w : BitVec 32) (z : Vec Ideal S4096x128 .f32) (W : Vec Ideal S128x128 .f32)
    (s q g be b : Vec Ideal S1x128 .f32) :
    addf (broadcastTo S4096x128 (shapeCast S1x128 b shapeCasts_S1x128_S1x128) broadcasts_S1x128_S4096x128)
        (matmul dot_S4096x128_S128x128_S4096x128_1_0_0_1_n_n none (truncf .bf16 (bnTile w z s q g be) bitsLt_bf16_f32)
          (truncf .bf16 (shapeCast S128x128 W shapeCasts_S128x128_S128x128) bitsLt_bf16_f32)
          (constant (F := Ideal) S4096x128 .f32 0x00000000#32))
      = klin (kbnrelu (Ideal.ofBits .f32 w) Cert.Consts.eps s q z g be) W b :=
  (lin_eq _ W b).trans (by rw [bnTile_eq])

/-- A tile's sums down its 4096 rows, kept as a 1×1×128 block. -/
private def tileSums (X : FVec Ideal S4096x128 .f32) : FVec Ideal S1x1x128 .f32 :=
  shapeCast S1x1x128 (shapeCast S1x128
      (multiReduction (F := Ideal) .add [0] S128 X 0x00000000#32 reduces_S4096x128_S128 (.inl rfl) rfl)
      shapeCasts_S128_S1x128) shapeCasts_S1x128_S1x1x128

private theorem tileSums_eq (X : FVec Ideal S4096x128 .f32) : tileSums X = tilesum 1 4096 rfl X :=
  tile_colsum X

/-- The same sums of the entrywise squares are the tile's column sums of squares. -/
private theorem tileSums_sq_eq (X : FVec Ideal S4096x128 .f32) : tileSums (mulf X X) = tilesumsq 1 4096 rfl X :=
  (tile_colsum (mulf X X)).trans rfl

/-! ## A second linear layer fed by the normalised, ramped first layer (raw-moment form), its tile statistics, and the closing normalisation -/

theorem k3_out_eq (z : Vec Ideal S4096x128 .f32) (W : Vec Ideal S128x128 .f32) (s q g be b : Vec Ideal S1x128 .f32) :
    k3_pay1 (F := Ideal) (k3_pay4 z s q g be W) (k3_pay5 b) = klin (kbnrelu Cert.Consts.k14 Cert.Consts.eps s q z g be) W b :=
  out_eq 0x38800000#32 z W s q g be b
theorem k3_psum_eq (z : Vec Ideal S4096x128 .f32) (W : Vec Ideal S128x128 .f32) (s q g be b : Vec Ideal S1x128 .f32) :
    k3_pay2 (F := Ideal) (k3_pay4 z s q g be W) (k3_pay5 b) = tilesum 1 4096 rfl (klin (kbnrelu Cert.Consts.k14 Cert.Consts.eps s q z g be) W b) :=
  (congrArg tileSums (k3_out_eq z W s q g be b)).trans (tileSums_eq _)
theorem k3_psumsq_eq (z : Vec Ideal S4096x128 .f32) (W : Vec Ideal S128x128 .f32) (s q g be b : Vec Ideal S1x128 .f32) :
    k3_pay3 (F := Ideal) (k3_pay4 z s q g be W) (k3_pay5 b) = tilesumsq 1 4096 rfl (klin (kbnrelu Cert.Consts.k14 Cert.Consts.eps s q z g be) W b) :=
  (congrArg (fun X => tileSums (mulf X X)) (k3_out_eq z W s q g be b)).trans (tileSums_sq_eq _)
theorem k5_out_eq (z : Vec Ideal S4096x128 .f32) (W : Vec Ideal S128x128 .f32) (s q g be b : Vec Ideal S1x128 .f32) :
    k5_pay1 (F := Ideal) (k5_pay4 z s q g be W) (k5_pay5 b) = klin (kbnrelu Cert.Consts.k14 Cert.Consts.eps s q z g be) W b :=
  out_eq 0x38800000#32 z W s q g be b
theorem k5_psum_eq (z : Vec Ideal S4096x128 .f32) (W : Vec Ideal S128x128 .f32) (s q g be b : Vec Ideal S1x128 .f32) :
    k5_pay2 (F := Ideal) (k5_pay4 z s q g be W) (k5_pay5 b) = tilesum 1 4096 rfl (klin (kbnrelu Cert.Consts.k14 Cert.Consts.eps s q z g be) W b) :=
  (congrArg tileSums (k5_out_eq z W s q g be b)).trans (tileSums_eq _)
theorem k5_psumsq_eq (z : Vec Ideal S4096x128 .f32) (W : Vec Ideal S128x128 .f32) (s q g be b : Vec Ideal S1x128 .f32) :
    k5_pay3 (F := Ideal) (k5_pay4 z s q g be W) (k5_pay5 b) = tilesumsq 1 4096 rfl (klin (kbnrelu Cert.Consts.k14 Cert.Consts.eps s q z g be) W b) :=
  (congrArg (fun X => tileSums (mulf X X)) (k5_out_eq z W s q g be b)).trans (tileSums_sq_eq _)
theorem k9_out_eq (z : Vec Ideal S4096x128 .f32) (W : Vec Ideal S128x128 .f32) (s q g be b : Vec Ideal S1x128 .f32) :
    k9_pay1 (F := Ideal) (k9_pay4 z s q g be W) (k9_pay5 b) = klin (kbnrelu Cert.Consts.k18 Cert.Consts.eps s q z g be) W b :=
  out_eq 0x36800000#32 z W s q g be b
theorem k9_psum_eq (z : Vec Ideal S4096x128 .f32) (W : Vec Ideal S128x128 .f32) (s q g be b : Vec Ideal S1x128 .f32) :
    k9_pay2 (F := Ideal) (k9_pay4 z s q g be W) (k9_pay5 b) = tilesum 1 4096 rfl (klin (kbnrelu Cert.Consts.k18 Cert.Consts.eps s q z g be) W b) :=
  (congrArg tileSums (k9_out_eq z W s q g be b)).trans (tileSums_eq _)
theorem k9_psumsq_eq (z : Vec Ideal S4096x128 .f32) (W : Vec Ideal S128x128 .f32) (s q g be b : Vec Ideal S1x128 .f32) :
    k9_pay3 (F := Ideal) (k9_pay4 z s q g be W) (k9_pay5 b) = tilesumsq 1 4096 rfl (klin (kbnrelu Cert.Consts.k18 Cert.Consts.eps s q z g be) W b) :=
  (congrArg (fun X => tileSums (mulf X X)) (k9_out_eq z W s q g be b)).trans (tileSums_sq_eq _)
theorem k11_out_eq (z : Vec Ideal S4096x128 .f32) (W : Vec Ideal S128x128 .f32) (s q g be b : Vec Ideal S1x128 .f32) :
    k11_pay1 (F := Ideal) (k11_pay4 z s q g be W) (k11_pay5 b) = klin (kbnrelu Cert.Consts.k18 Cert.Consts.eps s q z g be) W b :=
  out_eq 0x36800000#32 z W s q g be b
theorem k11_psum_eq (z : Vec Ideal S4096x128 .f32) (W : Vec Ideal S128x128 .f32) (s q g be b : Vec Ideal S1x128 .f32) :
    k11_pay2 (F := Ideal) (k11_pay4 z s q g be W) (k11_pay5 b) = tilesum 1 4096 rfl (klin (kbnrelu Cert.Consts.k18 Cert.Consts.eps s q z g be) W b) :=
  (congrArg tileSums (k11_out_eq z W s q g be b)).trans (tileSums_eq _)
theorem k11_psumsq_eq (z : Vec Ideal S4096x128 .f32) (W : Vec Ideal S128x128 .f32) (s q g be b : Vec Ideal S1x128 .f32) :
    k11_pay3 (F := Ideal) (k11_pay4 z s q g be W) (k11_pay5 b) = tilesumsq 1 4096 rfl (klin (kbnrelu Cert.Consts.k18 Cert.Consts.eps s q z g be) W b) :=
  (congrArg (fun X => tileSums (mulf X X)) (k11_out_eq z W s q g be b)).trans (tileSums_sq_eq _)
theorem k18_out_eq (z : Vec Ideal S4096x128 .f32) (W : Vec Ideal S128x128 .f32) (s q g be b : Vec Ideal S1x128 .f32) :
    k18_pay1 (F := Ideal) (k18_pay4 z s q g be W) (k18_pay5 b) = klin (kbnrelu Cert.Consts.k12 Cert.Consts.eps s q z g be) W b :=
  out_eq 0x39800000#32 z W s q g be b
theorem k18_psum_eq (z : Vec Ideal S4096x128 .f32) (W : Vec Ideal S128x128 .f32) (s q g be b : Vec Ideal S1x128 .f32) :
    k18_pay2 (F := Ideal) (k18_pay4 z s q g be W) (k18_pay5 b) = tilesum 1 4096 rfl (klin (kbnrelu Cert.Consts.k12 Cert.Consts.eps s q z g be) W b) :=
  (congrArg tileSums (k18_out_eq z W s q g be b)).trans (tileSums_eq _)
theorem k18_psumsq_eq (z : Vec Ideal S4096x128 .f32) (W : Vec Ideal S128x128 .f32) (s q g be b : Vec Ideal S1x128 .f32) :
    k18_pay3 (F := Ideal) (k18_pay4 z s q g be W) (k18_pay5 b) = tilesumsq 1 4096 rfl (klin (kbnrelu Cert.Consts.k12 Cert.Consts.eps s q z g be) W b) :=
  (congrArg (fun X => tileSums (mulf X X)) (k18_out_eq z W s q g be b)).trans (tileSums_sq_eq _)
theorem k20_out_eq (z : Vec Ideal S4096x128 .f32) (W : Vec Ideal S128x128 .f32) (s q g be b : Vec Ideal S1x128 .f32) :
    k20_pay1 (F := Ideal) (k20_pay4 z s q g be W) (k20_pay5 b) = klin (kbnrelu Cert.Consts.k12 Cert.Consts.eps s q z g be) W b :=
  out_eq 0x39800000#32 z W s q g be b
theorem k20_psum_eq (z : Vec Ideal S4096x128 .f32) (W : Vec Ideal S128x128 .f32) (s q g be b : Vec Ideal S1x128 .f32) :
    k20_pay2 (F := Ideal) (k20_pay4 z s q g be W) (k20_pay5 b) = tilesum 1 4096 rfl (klin (kbnrelu Cert.Consts.k12 Cert.Consts.eps s q z g be) W b) :=
  (congrArg tileSums (k20_out_eq z W s q g be b)).trans (tileSums_eq _)
theorem k20_psumsq_eq (z : Vec Ideal S4096x128 .f32) (W : Vec Ideal S128x128 .f32) (s q g be b : Vec Ideal S1x128 .f32) :
    k20_pay3 (F := Ideal) (k20_pay4 z s q g be W) (k20_pay5 b) = tilesumsq 1 4096 rfl (klin (kbnrelu Cert.Consts.k12 Cert.Consts.eps s q z g be) W b) :=
  (congrArg (fun X => tileSums (mulf X X)) (k20_out_eq z W s q g be b)).trans (tileSums_sq_eq _)
theorem k22_out_eq (z : Vec Ideal S4096x128 .f32) (W : Vec Ideal S128x128 .f32) (s q g be b : Vec Ideal S1x128 .f32) :
    k22_pay1 (F := Ideal) (k22_pay4 z s q g be W) (k22_pay5 b) = klin (kbnrelu Cert.Consts.k12 Cert.Consts.eps s q z g be) W b :=
  out_eq 0x39800000#32 z W s q g be b
theorem k22_psum_eq (z : Vec Ideal S4096x128 .f32) (W : Vec Ideal S128x128 .f32) (s q g be b : Vec Ideal S1x128 .f32) :
    k22_pay2 (F := Ideal) (k22_pay4 z s q g be W) (k22_pay5 b) = tilesum 1 4096 rfl (klin (kbnrelu Cert.Consts.k12 Cert.Consts.eps s q z g be) W b) :=
  (congrArg tileSums (k22_out_eq z W s q g be b)).trans (tileSums_eq _)
theorem k22_psumsq_eq (z : Vec Ideal S4096x128 .f32) (W : Vec Ideal S128x128 .f32) (s q g be b : Vec Ideal S1x128 .f32) :
    k22_pay3 (F := Ideal) (k22_pay4 z s q g be W) (k22_pay5 b) = tilesumsq 1 4096 rfl (klin (kbnrelu Cert.Consts.k12 Cert.Consts.eps s q z g be) W b) :=
  (congrArg (fun X => tileSums (mulf X X)) (k22_out_eq z W s q g be b)).trans (tileSums_sq_eq _)
theorem k7_pay1_eq (s q : Vec Ideal S1x128 .f32) (z : Vec Ideal S4096x128 .f32) (g be : Vec Ideal S1x128 .f32) :
    k7_pay1 (F := Ideal) s q z g be = kbnrelu Cert.Consts.k14 Cert.Consts.eps s q z g be :=
  bnTile_eq 0x38800000#32 z s q g be
theorem k13_pay1_eq (s q : Vec Ideal S1x128 .f32) (z : Vec Ideal S4096x128 .f32) (g be : Vec Ideal S1x128 .f32) :
    k13_pay1 (F := Ideal) s q z g be = kbnrelu Cert.Consts.k18 Cert.Consts.eps s q z g be :=
  bnTile_eq 0x36800000#32 z s q g be
theorem k24_pay1_eq (s q : Vec Ideal S1x128 .f32) (z : Vec Ideal S4096x128 .f32) (g be : Vec Ideal S1x128 .f32) :
    k24_pay1 (F := Ideal) s q z g be = kbnrelu Cert.Consts.k12 Cert.Consts.eps s q z g be :=
  bnTile_eq 0x39800000#32 z s q g be

end Cert.KernelIdeal.Blk

end
-- ==== Proof.Reg.R3.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg3
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 16384 rows, tile by tile: the bias plus the normalised, ramped first layer times the weight, and each tile's column statistics -/

private theorem zero2_3 : (![0, 0] : Fin 2 → Nat) = fun _ => 0 := funext fun a => by fin_cases a <;> rfl
private theorem zero3_3 : (![0, 0, 0] : Fin 3 → Nat) = fun _ => 0 := funext fun a => by fin_cases a <;> rfl

/-! ## Which block each window holds at a grid point -/

/-- The tiled input and the result move with the grid point: block (t, 0). -/
private theorem idx3_rows : ∀ t : Fin cfg3.N,
    win3_0.index t (0 : Fin 2) = t.val ∧ win3_0.index t (1 : Fin 2) = 0
    ∧ win3_7.index t (0 : Fin 2) = t.val ∧ win3_7.index t (1 : Fin 2) = 0 :=
  (by decide +kernel : ∀ t : Fin grid3.N, _)

/-- The weight, the two moment rows, the scale, the shift and the bias stay at block (0, 0). -/
private theorem idx3_whole : ∀ t : Fin cfg3.N,
    win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The two statistics move with the grid point: block (t, 0, 0). -/
private theorem idx3_stats : ∀ t : Fin cfg3.N,
    win3_8.index t (0 : Fin 3) = t.val ∧ win3_8.index t (1 : Fin 3) = 0 ∧ win3_8.index t (2 : Fin 3) = 0
    ∧ win3_9.index t (0 : Fin 3) = t.val ∧ win3_9.index t (1 : Fin 3) = 0 ∧ win3_9.index t (2 : Fin 3) = 0 :=
  (by decide +kernel : ∀ t : Fin grid3.N, _)

/-! ## A window's block read off an array -/

/-- Window 0's block at grid point t is the 4096 rows of tile t. -/
private theorem read3_0 (t : Fin cfg3.N) (X : Mat 16384 128) :
    ((cfg3.win 0).blk t).view.read (Elt Ideal) X = selRows (tileRow 4 4096 rfl ⟨t.val, t.isLt⟩) X := by
  obtain ⟨a0, a1, -, -⟩ := idx3_rows t
  funext j
  show X (((cfg3.win 0).blk t).view.emb j) = X (ix2 (tileRow 4 4096 rfl ⟨t.val, t.isLt⟩ (j 0)) (j 1))
  refine congrArg X (funext fun a => Fin.ext ?_)
  match a with
  | ⟨0, _⟩ =>
    show win3_0.index t (0 : Fin 2) * 4096 + 1 * (j 0).val = t.val * 4096 + (j 0).val
    omega
  | ⟨1, _⟩ =>
    show win3_0.index t (1 : Fin 2) * 128 + 1 * (j 1).val = (j 1).val
    omega

/-- Window 7's block at grid point t is the 4096 rows of tile t. -/
private theorem read3_7 (t : Fin cfg3.N) (X : Mat 16384 128) :
    ((cfg3.win 7).blk t).view.read (Elt Ideal) X = selRows (tileRow 4 4096 rfl ⟨t.val, t.isLt⟩) X := by
  obtain ⟨-, -, b0, b1⟩ := idx3_rows t
  funext j
  show X (((cfg3.win 7).blk t).view.emb j) = X (ix2 (tileRow 4 4096 rfl ⟨t.val, t.isLt⟩ (j 0)) (j 1))
  refine congrArg X (funext fun a => Fin.ext ?_)
  match a with
  | ⟨0, _⟩ =>
    show win3_7.index t (0 : Fin 2) * 4096 + 1 * (j 0).val = t.val * 4096 + (j 0).val
    omega
  | ⟨1, _⟩ =>
    show win3_7.index t (1 : Fin 2) * 128 + 1 * (j 1).val = (j 1).val
    omega

/-- Window 1 holds its whole 128×128 array at every grid point. -/
private theorem read3_1 (t : Fin cfg3.N) (X : Mat 128 128) :
    ((cfg3.win 1).blk t).view.read (Elt Ideal) X = X := by
  obtain ⟨e0, e1, -, -, -, -, -, -, -, -, -, -⟩ := idx3_whole t
  funext j
  show X (((cfg3.win 1).blk t).view.emb j) = X j
  refine congrArg X (funext fun a => Fin.ext ?_)
  match a with
  | ⟨0, _⟩ =>
    show win3_1.index t (0 : Fin 2) * 128 + 1 * (j 0).val = (j 0).val
    omega
  | ⟨1, _⟩ =>
    show win3_1.index t (1 : Fin 2) * 128 + 1 * (j 1).val = (j 1).val
    omega

/-- Window 2 holds its whole 1×128 array at every grid point. -/
private theorem read3_2 (t : Fin cfg3.N) (X : Mat 1 128) :
    ((cfg3.win 2).blk t).view.read (Elt Ideal) X = X := by
  obtain ⟨-, -, e0, e1, -, -, -, -, -, -, -, -⟩ := idx3_whole t
  funext j
  show X (((cfg3.win 2).blk t).view.emb j) = X j
  refine congrArg X (funext fun a => Fin.ext ?_)
  match a with
  | ⟨0, _⟩ =>
    show win3_2.index t (0 : Fin 2) * 1 + 1 * (j 0).val = (j 0).val
    omega
  | ⟨1, _⟩ =>
    show win3_2.index t (1 : Fin 2) * 128 + 1 * (j 1).val = (j 1).val
    omega

/-- Window 3 holds its whole 1×128 array at every grid point. -/
private theorem read3_3 (t : Fin cfg3.N) (X : Mat 1 128) :
    ((cfg3.win 3).blk t).view.read (Elt Ideal) X = X := by
  obtain ⟨-, -, -, -, e0, e1, -, -, -, -, -, -⟩ := idx3_whole t
  funext j
  show X (((cfg3.win 3).blk t).view.emb j) = X j
  refine congrArg X (funext fun a => Fin.ext ?_)
  match a with
  | ⟨0, _⟩ =>
    show win3_3.index t (0 : Fin 2) * 1 + 1 * (j 0).val = (j 0).val
    omega
  | ⟨1, _⟩ =>
    show win3_3.index t (1 : Fin 2) * 128 + 1 * (j 1).val = (j 1).val
    omega

/-- Window 4 holds its whole 1×128 array at every grid point. -/
private theorem read3_4 (t : Fin cfg3.N) (X : Mat 1 128) :
    ((cfg3.win 4).blk t).view.read (Elt Ideal) X = X := by
  obtain ⟨-, -, -, -, -, -, e0, e1, -, -, -, -⟩ := idx3_whole t
  funext j
  show X (((cfg3.win 4).blk t).view.emb j) = X j
  refine congrArg X (funext fun a => Fin.ext ?_)
  match a with
  | ⟨0, _⟩ =>
    show win3_4.index t (0 : Fin 2) * 1 + 1 * (j 0).val = (j 0).val
    omega
  | ⟨1, _⟩ =>
    show win3_4.index t (1 : Fin 2) * 128 + 1 * (j 1).val = (j 1).val
    omega

/-- Window 5 holds its whole 1×128 array at every grid point. -/
private theorem read3_5 (t : Fin cfg3.N) (X : Mat 1 128) :
    ((cfg3.win 5).blk t).view.read (Elt Ideal) X = X := by
  obtain ⟨-, -, -, -, -, -, -, -, e0, e1, -, -⟩ := idx3_whole t
  funext j
  show X (((cfg3.win 5).blk t).view.emb j) = X j
  refine congrArg X (funext fun a => Fin.ext ?_)
  match a with
  | ⟨0, _⟩ =>
    show win3_5.index t (0 : Fin 2) * 1 + 1 * (j 0).val = (j 0).val
    omega
  | ⟨1, _⟩ =>
    show win3_5.index t (1 : Fin 2) * 128 + 1 * (j 1).val = (j 1).val
    omega

/-- Window 6 holds its whole 1×128 array at every grid point. -/
private theorem read3_6 (t : Fin cfg3.N) (X : Mat 1 128) :
    ((cfg3.win 6).blk t).view.read (Elt Ideal) X = X := by
  obtain ⟨-, -, -, -, -, -, -, -, -, -, e0, e1⟩ := idx3_whole t
  funext j
  show X (((cfg3.win 6).blk t).view.emb j) = X j
  refine congrArg X (funext fun a => Fin.ext ?_)
  match a with
  | ⟨0, _⟩ =>
    show win3_6.index t (0 : Fin 2) * 1 + 1 * (j 0).val = (j 0).val
    omega
  | ⟨1, _⟩ =>
    show win3_6.index t (1 : Fin 2) * 128 + 1 * (j 1).val = (j 1).val
    omega

/-- Window 8's block at grid point t is tile t's slot of the 4×1×128 statistics. -/
private theorem read3_8 (t : Fin cfg3.N) (X : Cube 4 1 128) :
    ((cfg3.win 8).blk t).view.read (Elt Ideal) X
      = fun y : (⟨3, ![1, 1, 128]⟩ : Shape).Idx => X (ix3 (⟨t.val, t.isLt⟩ : Fin 4) 0 (y 2)) := by
  obtain ⟨a0, a1, a2, -, -, -⟩ := idx3_stats t
  funext y
  show X (((cfg3.win 8).blk t).view.emb y) = X (ix3 (⟨t.val, t.isLt⟩ : Fin 4) 0 (y 2))
  refine congrArg X (funext fun a => Fin.ext ?_)
  have h0 : (y 0).val < 1 := (y 0).isLt
  have h1 : (y 1).val < 1 := (y 1).isLt
  match a with
  | ⟨0, _⟩ =>
    show win3_8.index t (0 : Fin 3) * 1 + 1 * (y 0).val = t.val
    omega
  | ⟨1, _⟩ =>
    show win3_8.index t (1 : Fin 3) * 1 + 1 * (y 1).val = 0
    omega
  | ⟨2, _⟩ =>
    show win3_8.index t (2 : Fin 3) * 128 + 1 * (y 2).val = (y 2).val
    omega

/-- Window 9's block at grid point t is tile t's slot of the 4×1×128 statistics. -/
private theorem read3_9 (t : Fin cfg3.N) (X : Cube 4 1 128) :
    ((cfg3.win 9).blk t).view.read (Elt Ideal) X
      = fun y : (⟨3, ![1, 1, 128]⟩ : Shape).Idx => X (ix3 (⟨t.val, t.isLt⟩ : Fin 4) 0 (y 2)) := by
  obtain ⟨-, -, -, b0, b1, b2⟩ := idx3_stats t
  funext y
  show X (((cfg3.win 9).blk t).view.emb y) = X (ix3 (⟨t.val, t.isLt⟩ : Fin 4) 0 (y 2))
  refine congrArg X (funext fun a => Fin.ext ?_)
  have h0 : (y 0).val < 1 := (y 0).isLt
  have h1 : (y 1).val < 1 := (y 1).isLt
  match a with
  | ⟨0, _⟩ =>
    show win3_9.index t (0 : Fin 3) * 1 + 1 * (y 0).val = t.val
    omega
  | ⟨1, _⟩ =>
    show win3_9.index t (1 : Fin 3) * 1 + 1 * (y 1).val = 0
    omega
  | ⟨2, _⟩ =>
    show win3_9.index t (2 : Fin 3) * 128 + 1 * (y 2).val = (y 2).val
    omega

/-! ## The input blocks at a grid point -/

private theorem in3_0 (c : Dev nD) (t : Fin cfg3.N) :
    iblk3 (F := Ideal) V c 0 t = selRows (tileRow 4 4096 rfl ⟨t.val, t.isLt⟩) (V c main_v33_0) := by
  unfold iblk3
  exact read3_0 t (V c main_v33_0)
private theorem in3_1 (c : Dev nD) (t : Fin cfg3.N) :
    iblk3 (F := Ideal) V c 1 t = V c main_v29 := by
  unfold iblk3
  exact read3_1 t (V c main_v29)
private theorem in3_2 (c : Dev nD) (t : Fin cfg3.N) :
    iblk3 (F := Ideal) V c 2 t = V c main_v34 := by
  unfold iblk3
  exact read3_2 t (V c main_v34)
private theorem in3_3 (c : Dev nD) (t : Fin cfg3.N) :
    iblk3 (F := Ideal) V c 3 t = V c main_v35 := by
  unfold iblk3
  exact read3_3 t (V c main_v35)
private theorem in3_4 (c : Dev nD) (t : Fin cfg3.N) :
    iblk3 (F := Ideal) V c 4 t = V c main_v37 := by
  unfold iblk3
  exact read3_4 t (V c main_v37)
private theorem in3_5 (c : Dev nD) (t : Fin cfg3.N) :
    iblk3 (F := Ideal) V c 5 t = V c main_v38 := by
  unfold iblk3
  exact read3_5 t (V c main_v38)
private theorem in3_6 (c : Dev nD) (t : Fin cfg3.N) :
    iblk3 (F := Ideal) V c 6 t = V c main_v36 := by
  unfold iblk3
  exact read3_6 t (V c main_v36)

/-! ## What grid point t writes back -/

/-- Tile t of the result is the second layer of tile t of the input. -/
private theorem wrote3_7 (c : Dev nD) (t : Fin cfg3.N) :
    (dat3 (F := Ideal) V c).flushed 7 t
      = ((cfg3.win 7).blk t).view.read (Elt Ideal) (klin (kbnrelu Cert.Consts.k14 Cert.Consts.eps (V c main_v34) (V c main_v35) (V c main_v33_0) (V c main_v37) (V c main_v38)) (V c main_v29) (V c main_v36)) := by
  show (cfg3.win 7).cut (grid3.coords t) ((dat3 (F := Ideal) V c).after 7 t) = _
  rw [after3_7]
  unfold out3_7
  rw [View.canon_unit_zero zero2_3]
  simp only [View.ld_unit_zero (S := S4096x128) zero2_3, View.ld_unit_zero (S := S1x128) zero2_3,
    View.ld_unit_zero (S := S128x128) zero2_3]
  rw [Blk.k3_out_eq (iblk3 V c 0 t) (iblk3 V c 1 t) (iblk3 V c 2 t) (iblk3 V c 3 t) (iblk3 V c 4 t) (iblk3 V c 5 t) (iblk3 V c 6 t)]
  rw [in3_0 V c t, in3_1 V c t, in3_2 V c t, in3_3 V c t, in3_4 V c t, in3_5 V c t, in3_6 V c t]
  rw [read3_7, selRows_klin, selRows_kbnrelu]
  rfl

/-- Tile t's slot of the column sums is the column sums of tile t of the result. -/
private theorem wrote3_8 (c : Dev nD) (t : Fin cfg3.N) :
    (dat3 (F := Ideal) V c).flushed 8 t
      = ((cfg3.win 8).blk t).view.read (Elt Ideal) (tilesum 4 4096 rfl (klin (kbnrelu Cert.Consts.k14 Cert.Consts.eps (V c main_v34) (V c main_v35) (V c main_v33_0) (V c main_v37) (V c main_v38)) (V c main_v29) (V c main_v36))) := by
  show (cfg3.win 8).cut (grid3.coords t) ((dat3 (F := Ideal) V c).after 8 t) = _
  rw [after3_8]
  unfold out3_8
  rw [View.canon_unit_zero zero3_3]
  simp only [View.ld_unit_zero (S := S4096x128) zero2_3, View.ld_unit_zero (S := S1x128) zero2_3,
    View.ld_unit_zero (S := S128x128) zero2_3]
  rw [Blk.k3_psum_eq (iblk3 V c 0 t) (iblk3 V c 1 t) (iblk3 V c 2 t) (iblk3 V c 3 t) (iblk3 V c 4 t) (iblk3 V c 5 t) (iblk3 V c 6 t)]
  rw [in3_0 V c t, in3_1 V c t, in3_2 V c t, in3_3 V c t, in3_4 V c t, in3_5 V c t, in3_6 V c t]
  rw [read3_8, ← selRows_kbnrelu, ← selRows_klin]
  exact (tilesum_tile 4 4096 rfl (klin (kbnrelu Cert.Consts.k14 Cert.Consts.eps (V c main_v34) (V c main_v35) (V c main_v33_0) (V c main_v37) (V c main_v38)) (V c main_v29) (V c main_v36)) ⟨t.val, t.isLt⟩).symm

/-- Tile t's slot of the column sums of squares is those of tile t of the result. -/
private theorem wrote3_9 (c : Dev nD) (t : Fin cfg3.N) :
    (dat3 (F := Ideal) V c).flushed 9 t
      = ((cfg3.win 9).blk t).view.read (Elt Ideal) (tilesumsq 4 4096 rfl (klin (kbnrelu Cert.Consts.k14 Cert.Consts.eps (V c main_v34) (V c main_v35) (V c main_v33_0) (V c main_v37) (V c main_v38)) (V c main_v29) (V c main_v36))) := by
  show (cfg3.win 9).cut (grid3.coords t) ((dat3 (F := Ideal) V c).after 9 t) = _
  rw [after3_9]
  unfold out3_9
  rw [View.canon_unit_zero zero3_3]
  simp only [View.ld_unit_zero (S := S4096x128) zero2_3, View.ld_unit_zero (S := S1x128) zero2_3,
    View.ld_unit_zero (S := S128x128) zero2_3]
  rw [Blk.k3_psumsq_eq (iblk3 V c 0 t) (iblk3 V c 1 t) (iblk3 V c 2 t) (iblk3 V c 3 t) (iblk3 V c 4 t) (iblk3 V c 5 t) (iblk3 V c 6 t)]
  rw [in3_0 V c t, in3_1 V c t, in3_2 V c t, in3_3 V c t, in3_4 V c t, in3_5 V c t, in3_6 V c t]
  rw [read3_9, ← selRows_kbnrelu, ← selRows_klin]
  exact (tilesumsq_tile 4 4096 rfl (klin (kbnrelu Cert.Consts.k14 Cert.Consts.eps (V c main_v34) (V c main_v35) (V c main_v33_0) (V c main_v37) (V c main_v38)) (V c main_v29) (V c main_v36)) ⟨t.val, t.isLt⟩).symm

/-! ## Every entry of each result array is written by some grid point -/

private theorem mem3_7 (t : Fin cfg3.N) (i : S16384x128.Idx) :
    i ∈ ((cfg3.win 7).blk t).view.set ↔ ∀ a : Fin 2, win3_7.index t a * S4096x128.size a ≤ (i a).val ∧ (i a).val < win3_7.index t a * S4096x128.size a + S4096x128.size a := by
  show i ∈ ((View.whole main_v39_0).slice (win3_7.rect t)).set ↔ _
  rw [View.set_slice_whole, Rect.mem_set_unit]
  exact Iff.rfl

/-- Row r lies in tile r / 4096. -/
private theorem covered3_7 (i : S16384x128.Idx) :
    ∃ t : Fin cfg3.N, (cfg3.win 7).flush t = true ∧ i ∈ ((cfg3.win 7).blk t).view.set := by
  have hi0 : (i 0).val < 16384 := (i 0).isLt
  have hi1 : (i 1).val < 128 := (i 1).isLt
  have ht : (i 0).val / 4096 < grid3.N := by show _ < 4; omega
  obtain ⟨-, -, b0, b1⟩ := idx3_rows ⟨(i 0).val / 4096, ht⟩
  refine ⟨⟨(i 0).val / 4096, ht⟩, flush3_7 _, ?_⟩
  rw [mem3_7]
  intro a
  match a with
  | ⟨0, _⟩ =>
    show win3_7.index ⟨(i 0).val / 4096, ht⟩ (0 : Fin 2) * 4096 ≤ (i 0).val ∧ (i 0).val < win3_7.index ⟨(i 0).val / 4096, ht⟩ (0 : Fin 2) * 4096 + 4096
    have e : win3_7.index ⟨(i 0).val / 4096, ht⟩ (0 : Fin 2) = (i 0).val / 4096 := b0
    omega
  | ⟨1, _⟩ =>
    show win3_7.index ⟨(i 0).val / 4096, ht⟩ (1 : Fin 2) * 128 ≤ (i 1).val ∧ (i 1).val < win3_7.index ⟨(i 0).val / 4096, ht⟩ (1 : Fin 2) * 128 + 128
    have e : win3_7.index ⟨(i 0).val / 4096, ht⟩ (1 : Fin 2) = 0 := b1
    omega

private theorem mem3_8 (t : Fin cfg3.N) (i : S4x1x128.Idx) :
    i ∈ ((cfg3.win 8).blk t).view.set ↔ ∀ a : Fin 3, win3_8.index t a * S1x1x128.size a ≤ (i a).val ∧ (i a).val < win3_8.index t a * S1x1x128.size a + S1x1x128.size a := by
  show i ∈ ((View.whole main_v39_1).slice (win3_8.rect t)).set ↔ _
  rw [View.set_slice_whole, Rect.mem_set_unit]
  exact Iff.rfl

/-- Slot u is written at grid point u. -/
private theorem covered3_8 (i : S4x1x128.Idx) :
    ∃ t : Fin cfg3.N, (cfg3.win 8).flush t = true ∧ i ∈ ((cfg3.win 8).blk t).view.set := by
  have hi0 : (i 0).val < 4 := (i 0).isLt
  have hi1 : (i 1).val < 1 := (i 1).isLt
  have hi2 : (i 2).val < 128 := (i 2).isLt
  have ht : (i 0).val < grid3.N := hi0
  obtain ⟨a0, a1, a2, -, -, -⟩ := idx3_stats ⟨(i 0).val, ht⟩
  refine ⟨⟨(i 0).val, ht⟩, flush3_8 _, ?_⟩
  rw [mem3_8]
  intro a
  match a with
  | ⟨0, _⟩ =>
    show win3_8.index ⟨(i 0).val, ht⟩ (0 : Fin 3) * 1 ≤ (i 0).val ∧ (i 0).val < win3_8.index ⟨(i 0).val, ht⟩ (0 : Fin 3) * 1 + 1
    have e : win3_8.index ⟨(i 0).val, ht⟩ (0 : Fin 3) = (i 0).val := a0
    omega
  | ⟨1, _⟩ =>
    show win3_8.index ⟨(i 0).val, ht⟩ (1 : Fin 3) * 1 ≤ (i 1).val ∧ (i 1).val < win3_8.index ⟨(i 0).val, ht⟩ (1 : Fin 3) * 1 + 1
    have e : win3_8.index ⟨(i 0).val, ht⟩ (1 : Fin 3) = 0 := a1
    omega
  | ⟨2, _⟩ =>
    show win3_8.index ⟨(i 0).val, ht⟩ (2 : Fin 3) * 128 ≤ (i 2).val ∧ (i 2).val < win3_8.index ⟨(i 0).val, ht⟩ (2 : Fin 3) * 128 + 128
    have e : win3_8.index ⟨(i 0).val, ht⟩ (2 : Fin 3) = 0 := a2
    omega

private theorem mem3_9 (t : Fin cfg3.N) (i : S4x1x128.Idx) :
    i ∈ ((cfg3.win 9).blk t).view.set ↔ ∀ a : Fin 3, win3_9.index t a * S1x1x128.size a ≤ (i a).val ∧ (i a).val < win3_9.index t a * S1x1x128.size a + S1x1x128.size a := by
  show i ∈ ((View.whole main_v39_2).slice (win3_9.rect t)).set ↔ _
  rw [View.set_slice_whole, Rect.mem_set_unit]
  exact Iff.rfl

/-- Slot u is written at grid point u. -/
private theorem covered3_9 (i : S4x1x128.Idx) :
    ∃ t : Fin cfg3.N, (cfg3.win 9).flush t = true ∧ i ∈ ((cfg3.win 9).blk t).view.set := by
  have hi0 : (i 0).val < 4 := (i 0).isLt
  have hi1 : (i 1).val < 1 := (i 1).isLt
  have hi2 : (i 2).val < 128 := (i 2).isLt
  have ht : (i 0).val < grid3.N := hi0
  obtain ⟨-, -, -, a0, a1, a2⟩ := idx3_stats ⟨(i 0).val, ht⟩
  refine ⟨⟨(i 0).val, ht⟩, flush3_9 _, ?_⟩
  rw [mem3_9]
  intro a
  match a with
  | ⟨0, _⟩ =>
    show win3_9.index ⟨(i 0).val, ht⟩ (0 : Fin 3) * 1 ≤ (i 0).val ∧ (i 0).val < win3_9.index ⟨(i 0).val, ht⟩ (0 : Fin 3) * 1 + 1
    have e : win3_9.index ⟨(i 0).val, ht⟩ (0 : Fin 3) = (i 0).val := a0
    omega
  | ⟨1, _⟩ =>
    show win3_9.index ⟨(i 0).val, ht⟩ (1 : Fin 3) * 1 ≤ (i 1).val ∧ (i 1).val < win3_9.index ⟨(i 0).val, ht⟩ (1 : Fin 3) * 1 + 1
    have e : win3_9.index ⟨(i 0).val, ht⟩ (1 : Fin 3) = 0 := a1
    omega
  | ⟨2, _⟩ =>
    show win3_9.index ⟨(i 0).val, ht⟩ (2 : Fin 3) * 128 ≤ (i 2).val ∧ (i 2).val < win3_9.index ⟨(i 0).val, ht⟩ (2 : Fin 3) * 128 + 128
    have e : win3_9.index ⟨(i 0).val, ht⟩ (2 : Fin 3) = 0 := a2
    omega

/-! ## The arrays the region leaves -/

/-- The result array: the second layer of the whole input. -/
theorem r3_lin (c : Dev nD) :
    (dat3 (F := Ideal) V c).arrAt 7 cfg3.N = klin (kbnrelu Cert.Consts.k14 Cert.Consts.eps (V c main_v34) (V c main_v35) (V c main_v33_0) (V c main_v37) (V c main_v38)) (V c main_v29) (V c main_v36) :=
  (dat3 (F := Ideal) V c).arrAt_eq_of_cover 7 _ (fun t _ => wrote3_7 V c t) covered3_7

/-- Its per-tile column sums. -/
theorem r3_psum (c : Dev nD) :
    (dat3 (F := Ideal) V c).arrAt 8 cfg3.N = tilesum 4 4096 rfl (klin (kbnrelu Cert.Consts.k14 Cert.Consts.eps (V c main_v34) (V c main_v35) (V c main_v33_0) (V c main_v37) (V c main_v38)) (V c main_v29) (V c main_v36)) :=
  (dat3 (F := Ideal) V c).arrAt_eq_of_cover 8 _ (fun t _ => wrote3_8 V c t) covered3_8

/-- Its per-tile column sums of squares. -/
theorem r3_psumsq (c : Dev nD) :
    (dat3 (F := Ideal) V c).arrAt 9 cfg3.N = tilesumsq 4 4096 rfl (klin (kbnrelu Cert.Consts.k14 Cert.Consts.eps (V c main_v34) (V c main_v35) (V c main_v33_0) (V c main_v37) (V c main_v38)) (V c main_v29) (V c main_v36)) :=
  (dat3 (F := Ideal) V c).arrAt_eq_of_cover 9 _ (fun t _ => wrote3_9 V c t) covered3_9

end Cert.KernelIdeal.Reg

end
-- ==== Proof.Reg.R4.lean ====
/-
  Region 4: a first linear layer over 16384 rows in 4 tiles of 4096. Each grid point takes one tile of the
  two summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg4
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 4 points, one per tile of 4096 rows. -/
private theorem hN : cfg4.N = 4 := rfl

/-- A grid point as a tile number. -/
private def tile (t : Fin cfg4.N) : Fin 4 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 3) = t.val ∧ win4_5.index t (1 : Fin 3) = 0 ∧ win4_5.index t (2 : Fin 3) = 0)
    ∧ (win4_6.index t (0 : Fin 3) = t.val ∧ win4_6.index t (1 : Fin 3) = 0 ∧ win4_6.index t (2 : Fin 3) = 0) :=
  (by decide +kernel : ∀ t : Fin grid4.N, _)

/-! ## The blocks, read off their arrays -/

/-- Window 0's block at point t holds the rows of tile t of its array. -/
private theorem rows_0 (X : S16384x128.Idx → EReal) (t : Fin cfg4.N) :
    ((cfg4.win 0).blk t).view.read (Elt Ideal) X = selRows (tileRow 4 4096 rfl (tile t)) X := by
  obtain ⟨⟨e0, e1⟩, -⟩ := idx_facts t
  funext y
  show X (((cfg4.win 0).blk t).view.emb y) = X (ix2 (tileRow 4 4096 rfl (tile t) (y 0)) (y 1))
  refine congrArg X ?_
  funext a
  apply Fin.ext
  match a with
  | ⟨0, _⟩ => show win4_0.index t (0 : Fin 2) * 4096 + 1 * (y 0).val = t.val * 4096 + (y 0).val; rw [e0]; omega
  | ⟨1, _⟩ => show win4_0.index t (1 : Fin 2) * 128 + 1 * (y 1).val = (y 1).val; rw [e1]; omega

/-- Window 1's block at point t holds the rows of tile t of its array. -/
private theorem rows_1 (X : S16384x128.Idx → EReal) (t : Fin cfg4.N) :
    ((cfg4.win 1).blk t).view.read (Elt Ideal) X = selRows (tileRow 4 4096 rfl (tile t)) X := by
  obtain ⟨-, ⟨e0, e1⟩, -⟩ := idx_facts t
  funext y
  show X (((cfg4.win 1).blk t).view.emb y) = X (ix2 (tileRow 4 4096 rfl (tile t) (y 0)) (y 1))
  refine congrArg X ?_
  funext a
  apply Fin.ext
  match a with
  | ⟨0, _⟩ => show win4_1.index t (0 : Fin 2) * 4096 + 1 * (y 0).val = t.val * 4096 + (y 0).val; rw [e0]; omega
  | ⟨1, _⟩ => show win4_1.index t (1 : Fin 2) * 128 + 1 * (y 1).val = (y 1).val; rw [e1]; omega

/-- Window 2's block is its whole array at every point. -/
private theorem whole_2 (X : S128x128.Idx → EReal) (t : Fin cfg4.N) :
    ((cfg4.win 2).blk t).view.read (Elt Ideal) X = X := by
  obtain ⟨-, -, ⟨e0, e1⟩, -⟩ := idx_facts t
  funext y
  show X (((cfg4.win 2).blk t).view.emb y) = X y
  refine congrArg X ?_
  funext a
  apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

/-- Window 3's block is its whole array at every point. -/
private theorem whole_3 (X : S1x128.Idx → EReal) (t : Fin cfg4.N) :
    ((cfg4.win 3).blk t).view.read (Elt Ideal) X = X := by
  obtain ⟨-, -, -, ⟨e0, e1⟩, -⟩ := idx_facts t
  funext y
  show X (((cfg4.win 3).blk t).view.emb y) = X y
  refine congrArg X ?_
  funext a
  apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- Window 4's block at point t holds the rows of tile t of its array. -/
private theorem rows_4 (X : S16384x128.Idx → EReal) (t : Fin cfg4.N) :
    ((cfg4.win 4).blk t).view.read (Elt Ideal) X = selRows (tileRow 4 4096 rfl (tile t)) X := by
  obtain ⟨-, -, -, -, ⟨e0, e1⟩, -⟩ := idx_facts t
  funext y
  show X (((cfg4.win 4).blk t).view.emb y) = X (ix2 (tileRow 4 4096 rfl (tile t) (y 0)) (y 1))
  refine congrArg X ?_
  funext a
  apply Fin.ext
  match a with
  | ⟨0, _⟩ => show win4_4.index t (0 : Fin 2) * 4096 + 1 * (y 0).val = t.val * 4096 + (y 0).val; rw [e0]; omega
  | ⟨1, _⟩ => show win4_4.index t (1 : Fin 2) * 128 + 1 * (y 1).val = (y 1).val; rw [e1]; omega

/-- Window 5's block at point t is tile t's row of the per-tile statistics. -/
private theorem stat_5 (P : S4x1x128.Idx → EReal) (t : Fin cfg4.N) :
    ((cfg4.win 5).blk t).view.read (Elt Ideal) P = fun y : (⟨3, ![1, 1, 128]⟩ : Shape).Idx => P (ix3 (tile t) 0 (y 2)) := by
  obtain ⟨-, -, -, -, -, ⟨e0, e1, e2⟩, -⟩ := idx_facts t
  funext y
  show P (((cfg4.win 5).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win4_5.index t (0 : Fin 3) * 1 + 1 * (y 0).val = t.val; rw [e0]; omega
  | ⟨1, _⟩ => show win4_5.index t (1 : Fin 3) * 1 + 1 * (y 1).val = 0; rw [e1]; omega
  | ⟨2, _⟩ => show win4_5.index t (2 : Fin 3) * 128 + 1 * (y 2).val = (y 2).val; rw [e2]; omega

/-- Window 6's block at point t is tile t's row of the per-tile statistics. -/
private theorem stat_6 (P : S4x1x128.Idx → EReal) (t : Fin cfg4.N) :
    ((cfg4.win 6).blk t).view.read (Elt Ideal) P = fun y : (⟨3, ![1, 1, 128]⟩ : Shape).Idx => P (ix3 (tile t) 0 (y 2)) := by
  obtain ⟨-, -, -, -, -, -, ⟨e0, e1, e2⟩⟩ := idx_facts t
  funext y
  show P (((cfg4.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win4_6.index t (0 : Fin 3) * 1 + 1 * (y 0).val = t.val; rw [e0]; omega
  | ⟨1, _⟩ => show win4_6.index t (1 : Fin 3) * 1 + 1 * (y 1).val = 0; rw [e1]; omega
  | ⟨2, _⟩ => show win4_6.index t (2 : Fin 3) * 128 + 1 * (y 2).val = (y 2).val; rw [e2]; omega

private theorem iblk_0 (c : Dev nD) (t : Fin cfg4.N) :
    iblk4 (F := Ideal) V c 0 t = selRows (tileRow 4 4096 rfl (tile t)) (V c main_v5) := rows_0 _ t
private theorem iblk_1 (c : Dev nD) (t : Fin cfg4.N) :
    iblk4 (F := Ideal) V c 1 t = selRows (tileRow 4 4096 rfl (tile t)) (V c main_arg0) := rows_1 _ t
private theorem iblk_2 (c : Dev nD) (t : Fin cfg4.N) : iblk4 (F := Ideal) V c 2 t = V c main_v43 := whole_2 _ t
private theorem iblk_3 (c : Dev nD) (t : Fin cfg4.N) : iblk4 (F := Ideal) V c 3 t = V c main_v54 := whole_3 _ t

/-- Selecting rows commutes with the layer: the linear map acts on each row by itself. -/
private theorem sel_lin {R B : Nat} (f : Fin B → Fin R) (p0 p1 : Mat R 128) (W : Mat 128 128) (b : Mat 1 128) :
    selRows f (klin (fun j => p0 j + p1 j) W b) = klin (fun j => selRows f p0 j + selRows f p1 j) W b := by
  rw [selRows_klin]
  rfl

/-! ## What each point writes back -/

/-- What point t writes back to the layer's output: the rows of tile t of the whole-array linear map. -/
private theorem flushed_lin (c : Dev nD) (t : Fin cfg4.N) :
    (dat4 (F := Ideal) V c).flushed 4 t = ((cfg4.win 4).blk t).view.read (Elt Ideal)
      (klin (fun j => V c main_v5 j +ᵉ V c main_arg0 j) (V c main_v43) (V c main_v54)) := by
  show (cfg4.win 4).cut (grid4.coords t) ((dat4 V c).after 4 t) = _
  rw [after4_4]
  unfold out4_4
  rw [View.canon_unit_zero hz2]
  simp only [View.ld_unit_zero (S := S4096x128) hz2, View.ld_unit_zero (S := S128x128) hz2, View.ld_unit_zero (S := S1x128) hz2]
  rw [Blk.k4_pay1_eq, rows_4, sel_lin, iblk_0 V c t, iblk_1 V c t, iblk_2 V c t, iblk_3 V c t]
  rfl

/-- What point t writes back to the column sums: tile t's row of the whole array's per-tile column sums. -/
private theorem flushed_psum (c : Dev nD) (t : Fin cfg4.N) :
    (dat4 (F := Ideal) V c).flushed 5 t = ((cfg4.win 5).blk t).view.read (Elt Ideal)
      (tilesum 4 4096 rfl (klin (fun j => V c main_v5 j +ᵉ V c main_arg0 j) (V c main_v43) (V c main_v54))) := by
  show (cfg4.win 5).cut (grid4.coords t) ((dat4 V c).after 5 t) = _
  rw [after4_5]
  unfold out4_5
  rw [View.canon_unit_zero hz3]
  simp only [View.ld_unit_zero (S := S4096x128) hz2, View.ld_unit_zero (S := S128x128) hz2, View.ld_unit_zero (S := S1x128) hz2]
  rw [Blk.k4_pay2_eq, stat_5, tilesum_tile, sel_lin, iblk_0 V c t, iblk_1 V c t, iblk_2 V c t, iblk_3 V c t]
  rfl

/-- What point t writes back to the column sums of squares: tile t's row of the whole array's per-tile column sums of squares. -/
private theorem flushed_psumsq (c : Dev nD) (t : Fin cfg4.N) :
    (dat4 (F := Ideal) V c).flushed 6 t = ((cfg4.win 6).blk t).view.read (Elt Ideal)
      (tilesumsq 4 4096 rfl (klin (fun j => V c main_v5 j +ᵉ V c main_arg0 j) (V c main_v43) (V c main_v54))) := by
  show (cfg4.win 6).cut (grid4.coords t) ((dat4 V c).after 6 t) = _
  rw [after4_6]
  unfold out4_6
  rw [View.canon_unit_zero hz3]
  simp only [View.ld_unit_zero (S := S4096x128) hz2, View.ld_unit_zero (S := S128x128) hz2, View.ld_unit_zero (S := S1x128) hz2]
  rw [Blk.k4_pay3_eq, stat_6, tilesumsq_tile, sel_lin, iblk_0 V c t, iblk_1 V c t, iblk_2 V c t, iblk_3 V c t]
  rfl

/-! ## The blocks cover the arrays -/

/-- An index of the array is in point t's block iff each coordinate is in the block's range on its axis. -/
private theorem mem_4 (t : Fin cfg4.N) (i : S16384x128.Idx) :
    i ∈ ((cfg4.win 4).blk t).view.set ↔ ∀ a : Fin 2, win4_4.index t a * S4096x128.size a ≤ (i a).val ∧ (i a).val < win4_4.index t a * S4096x128.size a + S4096x128.size a := by
  show i ∈ ((View.whole main_v55_0).slice (win4_4.rect t)).set ↔ _
  rw [View.set_slice_whole, Rect.mem_set_unit]
  exact Iff.rfl

/-- Row r lies in the block of tile r / 4096. -/
private theorem cover_4 (i : S16384x128.Idx) : ∃ t : Fin cfg4.N, (cfg4.win 4).flush t = true ∧ i ∈ ((cfg4.win 4).blk t).view.set := by
  have hi0 : (i 0).val < 16384 := (i 0).isLt
  have hi1 : (i 1).val < 128 := (i 1).isLt
  have ht : (i 0).val / 4096 < cfg4.N := by rw [hN]; omega
  obtain ⟨-, -, -, -, ⟨e0, e1⟩, -⟩ := idx_facts ⟨(i 0).val / 4096, ht⟩
  refine ⟨⟨(i 0).val / 4096, ht⟩, flush4_4 _, ?_⟩
  rw [mem_4]
  intro a
  match a with
  | ⟨0, _⟩ =>
    show win4_4.index ⟨(i 0).val / 4096, ht⟩ (0 : Fin 2) * 4096 ≤ (i 0).val ∧ (i 0).val < win4_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win4_4.index ⟨(i 0).val / 4096, ht⟩ (1 : Fin 2) * 128 ≤ (i 1).val ∧ (i 1).val < win4_4.index ⟨(i 0).val / 4096, ht⟩ (1 : Fin 2) * 128 + 128
    rw [e1]; omega

/-- An index of the statistics array is in point t's block iff each coordinate is in the block's range on its axis. -/
private theorem mem_5 (t : Fin cfg4.N) (i : S4x1x128.Idx) :
    i ∈ ((cfg4.win 5).blk t).view.set ↔ ∀ a : Fin 3, win4_5.index t a * S1x1x128.size a ≤ (i a).val ∧ (i a).val < win4_5.index t a * S1x1x128.size a + S1x1x128.size a := by
  show i ∈ ((View.whole main_v55_1).slice (win4_5.rect t)).set ↔ _
  rw [View.set_slice_whole, Rect.mem_set_unit]
  exact Iff.rfl

/-- Tile r's row lies in the block of point r. -/
private theorem cover_5 (i : S4x1x128.Idx) : ∃ t : Fin cfg4.N, (cfg4.win 5).flush t = true ∧ i ∈ ((cfg4.win 5).blk t).view.set := by
  have hi0 : (i 0).val < 4 := (i 0).isLt
  have hi1 : (i 1).val < 1 := (i 1).isLt
  have hi2 : (i 2).val < 128 := (i 2).isLt
  have ht : (i 0).val < cfg4.N := by rw [hN]; omega
  obtain ⟨-, -, -, -, -, ⟨e0, e1, e2⟩, -⟩ := idx_facts ⟨(i 0).val, ht⟩
  refine ⟨⟨(i 0).val, ht⟩, flush4_5 _, ?_⟩
  rw [mem_5]
  intro a
  match a with
  | ⟨0, _⟩ =>
    show win4_5.index ⟨(i 0).val, ht⟩ (0 : Fin 3) * 1 ≤ (i 0).val ∧ (i 0).val < win4_5.index ⟨(i 0).val, ht⟩ (0 : Fin 3) * 1 + 1
    rw [e0]; show (i 0).val * 1 ≤ (i 0).val ∧ (i 0).val < (i 0).val * 1 + 1; omega
  | ⟨1, _⟩ =>
    show win4_5.index ⟨(i 0).val, ht⟩ (1 : Fin 3) * 1 ≤ (i 1).val ∧ (i 1).val < win4_5.index ⟨(i 0).val, ht⟩ (1 : Fin 3) * 1 + 1
    rw [e1]; omega
  | ⟨2, _⟩ =>
    show win4_5.index ⟨(i 0).val, ht⟩ (2 : Fin 3) * 128 ≤ (i 2).val ∧ (i 2).val < win4_5.index ⟨(i 0).val, ht⟩ (2 : Fin 3) * 128 + 128
    rw [e2]; omega

/-- An index of the statistics array is in point t's block iff each coordinate is in the block's range on its axis. -/
private theorem mem_6 (t : Fin cfg4.N) (i : S4x1x128.Idx) :
    i ∈ ((cfg4.win 6).blk t).view.set ↔ ∀ a : Fin 3, win4_6.index t a * S1x1x128.size a ≤ (i a).val ∧ (i a).val < win4_6.index t a * S1x1x128.size a + S1x1x128.size a := by
  show i ∈ ((View.whole main_v55_2).slice (win4_6.rect t)).set ↔ _
  rw [View.set_slice_whole, Rect.mem_set_unit]
  exact Iff.rfl

/-- Tile r's row lies in the block of point r. -/
private theorem cover_6 (i : S4x1x128.Idx) : ∃ t : Fin cfg4.N, (cfg4.win 6).flush t = true ∧ i ∈ ((cfg4.win 6).blk t).view.set := by
  have hi0 : (i 0).val < 4 := (i 0).isLt
  have hi1 : (i 1).val < 1 := (i 1).isLt
  have hi2 : (i 2).val < 128 := (i 2).isLt
  have ht : (i 0).val < cfg4.N := by rw [hN]; omega
  obtain ⟨-, -, -, -, -, -, ⟨e0, e1, e2⟩⟩ := idx_facts ⟨(i 0).val, ht⟩
  refine ⟨⟨(i 0).val, ht⟩, flush4_6 _, ?_⟩
  rw [mem_6]
  intro a
  match a with
  | ⟨0, _⟩ =>
    show win4_6.index ⟨(i 0).val, ht⟩ (0 : Fin 3) * 1 ≤ (i 0).val ∧ (i 0).val < win4_6.index ⟨(i 0).val, ht⟩ (0 : Fin 3) * 1 + 1
    rw [e0]; show (i 0).val * 1 ≤ (i 0).val ∧ (i 0).val < (i 0).val * 1 + 1; omega
  | ⟨1, _⟩ =>
    show win4_6.index ⟨(i 0).val, ht⟩ (1 : Fin 3) * 1 ≤ (i 1).val ∧ (i 1).val < win4_6.index ⟨(i 0).val, ht⟩ (1 : Fin 3) * 1 + 1
    rw [e1]; omega
  | ⟨2, _⟩ =>
    show win4_6.index ⟨(i 0).val, ht⟩ (2 : Fin 3) * 128 ≤ (i 2).val ∧ (i 2).val < win4_6.index ⟨(i 0).val, ht⟩ (2 : Fin 3) * 128 + 128
    rw [e2]; omega

/-! ## The arrays after the region -/

/-- The layer's output array: the bias row plus the product of the summed input rows with the weight. -/
theorem r4_lin (c : Dev nD) : (dat4 (F := Ideal) V c).arrAt 4 cfg4.N
    = klin (fun j => V c main_v5 j +ᵉ V c main_arg0 j) (V c main_v43) (V c main_v54) :=
  (dat4 V c).arrAt_eq_of_cover 4 _ (fun t _ => flushed_lin V c t) cover_4

/-- The per-tile column sums of the layer's output. -/
theorem r4_psum (c : Dev nD) : (dat4 (F := Ideal) V c).arrAt 5 cfg4.N
    = tilesum 4 4096 rfl (klin (fun j => V c main_v5 j +ᵉ V c main_arg0 j) (V c main_v43) (V c main_v54)) :=
  (dat4 V c).arrAt_eq_of_cover 5 _ (fun t _ => flushed_psum V c t) cover_5

/-- The per-tile column sums of squares of the layer's output. -/
theorem r4_psumsq (c : Dev nD) : (dat4 (F := Ideal) V c).arrAt 6 cfg4.N
    = tilesumsq 4 4096 rfl (klin (fun j => V c main_v5 j +ᵉ V c main_arg0 j) (V c main_v43) (V c main_v54)) :=
  (dat4 V c).arrAt_eq_of_cover 6 _ (fun t _ => flushed_psumsq V c t) cover_6

end Cert.KernelIdeal.Reg

end
-- ==== Proof.Reg.R5.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg5
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 16384 rows, tile by tile: the bias plus the normalised, ramped first layer times the weight, and each tile's column statistics -/

private theorem zero2_5 : (![0, 0] : Fin 2 → Nat) = fun _ => 0 := funext fun a => by fin_cases a <;> rfl
private theorem zero3_5 : (![0, 0, 0] : Fin 3 → Nat) = fun _ => 0 := funext fun a => by fin_cases a <;> rfl

/-! ## Which block each window holds at a grid point -/

/-- The tiled input and the result move with the grid point: block (t, 0). -/
private theorem idx5_rows : ∀ t : Fin cfg5.N,
    win5_0.index t (0 : Fin 2) = t.val ∧ win5_0.index t (1 : Fin 2) = 0
    ∧ win5_7.index t (0 : Fin 2) = t.val ∧ win5_7.index t (1 : Fin 2) = 0 :=
  (by decide +kernel : ∀ t : Fin grid5.N, _)

/-- The weight, the two moment rows, the scale, the shift and the bias stay at block (0, 0). -/
private theorem idx5_whole : ∀ t : Fin cfg5.N,
    win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- The two statistics move with the grid point: block (t, 0, 0). -/
private theorem idx5_stats : ∀ t : Fin cfg5.N,
    win5_8.index t (0 : Fin 3) = t.val ∧ win5_8.index t (1 : Fin 3) = 0 ∧ win5_8.index t (2 : Fin 3) = 0
    ∧ win5_9.index t (0 : Fin 3) = t.val ∧ win5_9.index t (1 : Fin 3) = 0 ∧ win5_9.index t (2 : Fin 3) = 0 :=
  (by decide +kernel : ∀ t : Fin grid5.N, _)

/-! ## A window's block read off an array -/

/-- Window 0's block at grid point t is the 4096 rows of tile t. -/
private theorem read5_0 (t : Fin cfg5.N) (X : Mat 16384 128) :
    ((cfg5.win 0).blk t).view.read (Elt Ideal) X = selRows (tileRow 4 4096 rfl ⟨t.val, t.isLt⟩) X := by
  obtain ⟨a0, a1, -, -⟩ := idx5_rows t
  funext j
  show X (((cfg5.win 0).blk t).view.emb j) = X (ix2 (tileRow 4 4096 rfl ⟨t.val, t.isLt⟩ (j 0)) (j 1))
  refine congrArg X (funext fun a => Fin.ext ?_)
  match a with
  | ⟨0, _⟩ =>
    show win5_0.index t (0 : Fin 2) * 4096 + 1 * (j 0).val = t.val * 4096 + (j 0).val
    omega
  | ⟨1, _⟩ =>
    show win5_0.index t (1 : Fin 2) * 128 + 1 * (j 1).val = (j 1).val
    omega

/-- Window 7's block at grid point t is the 4096 rows of tile t. -/
private theorem read5_7 (t : Fin cfg5.N) (X : Mat 16384 128) :
    ((cfg5.win 7).blk t).view.read (Elt Ideal) X = selRows (tileRow 4 4096 rfl ⟨t.val, t.isLt⟩) X := by
  obtain ⟨-, -, b0, b1⟩ := idx5_rows t
  funext j
  show X (((cfg5.win 7).blk t).view.emb j) = X (ix2 (tileRow 4 4096 rfl ⟨t.val, t.isLt⟩ (j 0)) (j 1))
  refine congrArg X (funext fun a => Fin.ext ?_)
  match a with
  | ⟨0, _⟩ =>
    show win5_7.index t (0 : Fin 2) * 4096 + 1 * (j 0).val = t.val * 4096 + (j 0).val
    omega
  | ⟨1, _⟩ =>
    show win5_7.index t (1 : Fin 2) * 128 + 1 * (j 1).val = (j 1).val
    omega

/-- Window 1 holds its whole 128×128 array at every grid point. -/
private theorem read5_1 (t : Fin cfg5.N) (X : Mat 128 128) :
    ((cfg5.win 1).blk t).view.read (Elt Ideal) X = X := by
  obtain ⟨e0, e1, -, -, -, -, -, -, -, -, -, -⟩ := idx5_whole t
  funext j
  show X (((cfg5.win 1).blk t).view.emb j) = X j
  refine congrArg X (funext fun a => Fin.ext ?_)
  match a with
  | ⟨0, _⟩ =>
    show win5_1.index t (0 : Fin 2) * 128 + 1 * (j 0).val = (j 0).val
    omega
  | ⟨1, _⟩ =>
    show win5_1.index t (1 : Fin 2) * 128 + 1 * (j 1).val = (j 1).val
    omega

/-- Window 2 holds its whole 1×128 array at every grid point. -/
private theorem read5_2 (t : Fin cfg5.N) (X : Mat 1 128) :
    ((cfg5.win 2).blk t).view.read (Elt Ideal) X = X := by
  obtain ⟨-, -, e0, e1, -, -, -, -, -, -, -, -⟩ := idx5_whole t
  funext j
  show X (((cfg5.win 2).blk t).view.emb j) = X j
  refine congrArg X (funext fun a => Fin.ext ?_)
  match a with
  | ⟨0, _⟩ =>
    show win5_2.index t (0 : Fin 2) * 1 + 1 * (j 0).val = (j 0).val
    omega
  | ⟨1, _⟩ =>
    show win5_2.index t (1 : Fin 2) * 128 + 1 * (j 1).val = (j 1).val
    omega

/-- Window 3 holds its whole 1×128 array at every grid point. -/
private theorem read5_3 (t : Fin cfg5.N) (X : Mat 1 128) :
    ((cfg5.win 3).blk t).view.read (Elt Ideal) X = X := by
  obtain ⟨-, -, -, -, e0, e1, -, -, -, -, -, -⟩ := idx5_whole t
  funext j
  show X (((cfg5.win 3).blk t).view.emb j) = X j
  refine congrArg X (funext fun a => Fin.ext ?_)
  match a with
  | ⟨0, _⟩ =>
    show win5_3.index t (0 : Fin 2) * 1 + 1 * (j 0).val = (j 0).val
    omega
  | ⟨1, _⟩ =>
    show win5_3.index t (1 : Fin 2) * 128 + 1 * (j 1).val = (j 1).val
    omega

/-- Window 4 holds its whole 1×128 array at every grid point. -/
private theorem read5_4 (t : Fin cfg5.N) (X : Mat 1 128) :
    ((cfg5.win 4).blk t).view.read (Elt Ideal) X = X := by
  obtain ⟨-, -, -, -, -, -, e0, e1, -, -, -, -⟩ := idx5_whole t
  funext j
  show X (((cfg5.win 4).blk t).view.emb j) = X j
  refine congrArg X (funext fun a => Fin.ext ?_)
  match a with
  | ⟨0, _⟩ =>
    show win5_4.index t (0 : Fin 2) * 1 + 1 * (j 0).val = (j 0).val
    omega
  | ⟨1, _⟩ =>
    show win5_4.index t (1 : Fin 2) * 128 + 1 * (j 1).val = (j 1).val
    omega

/-- Window 5 holds its whole 1×128 array at every grid point. -/
private theorem read5_5 (t : Fin cfg5.N) (X : Mat 1 128) :
    ((cfg5.win 5).blk t).view.read (Elt Ideal) X = X := by
  obtain ⟨-, -, -, -, -, -, -, -, e0, e1, -, -⟩ := idx5_whole t
  funext j
  show X (((cfg5.win 5).blk t).view.emb j) = X j
  refine congrArg X (funext fun a => Fin.ext ?_)
  match a with
  | ⟨0, _⟩ =>
    show win5_5.index t (0 : Fin 2) * 1 + 1 * (j 0).val = (j 0).val
    omega
  | ⟨1, _⟩ =>
    show win5_5.index t (1 : Fin 2) * 128 + 1 * (j 1).val = (j 1).val
    omega

/-- Window 6 holds its whole 1×128 array at every grid point. -/
private theorem read5_6 (t : Fin cfg5.N) (X : Mat 1 128) :
    ((cfg5.win 6).blk t).view.read (Elt Ideal) X = X := by
  obtain ⟨-, -, -, -, -, -, -, -, -, -, e0, e1⟩ := idx5_whole t
  funext j
  show X (((cfg5.win 6).blk t).view.emb j) = X j
  refine congrArg X (funext fun a => Fin.ext ?_)
  match a with
  | ⟨0, _⟩ =>
    show win5_6.index t (0 : Fin 2) * 1 + 1 * (j 0).val = (j 0).val
    omega
  | ⟨1, _⟩ =>
    show win5_6.index t (1 : Fin 2) * 128 + 1 * (j 1).val = (j 1).val
    omega

/-- Window 8's block at grid point t is tile t's slot of the 4×1×128 statistics. -/
private theorem read5_8 (t : Fin cfg5.N) (X : Cube 4 1 128) :
    ((cfg5.win 8).blk t).view.read (Elt Ideal) X
      = fun y : (⟨3, ![1, 1, 128]⟩ : Shape).Idx => X (ix3 (⟨t.val, t.isLt⟩ : Fin 4) 0 (y 2)) := by
  obtain ⟨a0, a1, a2, -, -, -⟩ := idx5_stats t
  funext y
  show X (((cfg5.win 8).blk t).view.emb y) = X (ix3 (⟨t.val, t.isLt⟩ : Fin 4) 0 (y 2))
  refine congrArg X (funext fun a => Fin.ext ?_)
  have h0 : (y 0).val < 1 := (y 0).isLt
  have h1 : (y 1).val < 1 := (y 1).isLt
  match a with
  | ⟨0, _⟩ =>
    show win5_8.index t (0 : Fin 3) * 1 + 1 * (y 0).val = t.val
    omega
  | ⟨1, _⟩ =>
    show win5_8.index t (1 : Fin 3) * 1 + 1 * (y 1).val = 0
    omega
  | ⟨2, _⟩ =>
    show win5_8.index t (2 : Fin 3) * 128 + 1 * (y 2).val = (y 2).val
    omega

/-- Window 9's block at grid point t is tile t's slot of the 4×1×128 statistics. -/
private theorem read5_9 (t : Fin cfg5.N) (X : Cube 4 1 128) :
    ((cfg5.win 9).blk t).view.read (Elt Ideal) X
      = fun y : (⟨3, ![1, 1, 128]⟩ : Shape).Idx => X (ix3 (⟨t.val, t.isLt⟩ : Fin 4) 0 (y 2)) := by
  obtain ⟨-, -, -, b0, b1, b2⟩ := idx5_stats t
  funext y
  show X (((cfg5.win 9).blk t).view.emb y) = X (ix3 (⟨t.val, t.isLt⟩ : Fin 4) 0 (y 2))
  refine congrArg X (funext fun a => Fin.ext ?_)
  have h0 : (y 0).val < 1 := (y 0).isLt
  have h1 : (y 1).val < 1 := (y 1).isLt
  match a with
  | ⟨0, _⟩ =>
    show win5_9.index t (0 : Fin 3) * 1 + 1 * (y 0).val = t.val
    omega
  | ⟨1, _⟩ =>
    show win5_9.index t (1 : Fin 3) * 1 + 1 * (y 1).val = 0
    omega
  | ⟨2, _⟩ =>
    show win5_9.index t (2 : Fin 3) * 128 + 1 * (y 2).val = (y 2).val
    omega

/-! ## The input blocks at a grid point -/

private theorem in5_0 (c : Dev nD) (t : Fin cfg5.N) :
    iblk5 (F := Ideal) V c 0 t = selRows (tileRow 4 4096 rfl ⟨t.val, t.isLt⟩) (V c main_v55_0) := by
  unfold iblk5
  exact read5_0 t (V c main_v55_0)
private theorem in5_1 (c : Dev nD) (t : Fin cfg5.N) :
    iblk5 (F := Ideal) V c 1 t = V c main_v51 := by
  unfold iblk5
  exact read5_1 t (V c main_v51)
private theorem in5_2 (c : Dev nD) (t : Fin cfg5.N) :
    iblk5 (F := Ideal) V c 2 t = V c main_v56 := by
  unfold iblk5
  exact read5_2 t (V c main_v56)
private theorem in5_3 (c : Dev nD) (t : Fin cfg5.N) :
    iblk5 (F := Ideal) V c 3 t = V c main_v57 := by
  unfold iblk5
  exact read5_3 t (V c main_v57)
private theorem in5_4 (c : Dev nD) (t : Fin cfg5.N) :
    iblk5 (F := Ideal) V c 4 t = V c main_v59 := by
  unfold iblk5
  exact read5_4 t (V c main_v59)
private theorem in5_5 (c : Dev nD) (t : Fin cfg5.N) :
    iblk5 (F := Ideal) V c 5 t = V c main_v60 := by
  unfold iblk5
  exact read5_5 t (V c main_v60)
private theorem in5_6 (c : Dev nD) (t : Fin cfg5.N) :
    iblk5 (F := Ideal) V c 6 t = V c main_v58 := by
  unfold iblk5
  exact read5_6 t (V c main_v58)

/-! ## What grid point t writes back -/

/-- Tile t of the result is the second layer of tile t of the input. -/
private theorem wrote5_7 (c : Dev nD) (t : Fin cfg5.N) :
    (dat5 (F := Ideal) V c).flushed 7 t
      = ((cfg5.win 7).blk t).view.read (Elt Ideal) (klin (kbnrelu Cert.Consts.k14 Cert.Consts.eps (V c main_v56) (V c main_v57) (V c main_v55_0) (V c main_v59) (V c main_v60)) (V c main_v51) (V c main_v58)) := by
  show (cfg5.win 7).cut (grid5.coords t) ((dat5 (F := Ideal) V c).after 7 t) = _
  rw [after5_7]
  unfold out5_7
  rw [View.canon_unit_zero zero2_5]
  simp only [View.ld_unit_zero (S := S4096x128) zero2_5, View.ld_unit_zero (S := S1x128) zero2_5,
    View.ld_unit_zero (S := S128x128) zero2_5]
  rw [Blk.k5_out_eq (iblk5 V c 0 t) (iblk5 V c 1 t) (iblk5 V c 2 t) (iblk5 V c 3 t) (iblk5 V c 4 t) (iblk5 V c 5 t) (iblk5 V c 6 t)]
  rw [in5_0 V c t, in5_1 V c t, in5_2 V c t, in5_3 V c t, in5_4 V c t, in5_5 V c t, in5_6 V c t]
  rw [read5_7, selRows_klin, selRows_kbnrelu]
  rfl

/-- Tile t's slot of the column sums is the column sums of tile t of the result. -/
private theorem wrote5_8 (c : Dev nD) (t : Fin cfg5.N) :
    (dat5 (F := Ideal) V c).flushed 8 t
      = ((cfg5.win 8).blk t).view.read (Elt Ideal) (tilesum 4 4096 rfl (klin (kbnrelu Cert.Consts.k14 Cert.Consts.eps (V c main_v56) (V c main_v57) (V c main_v55_0) (V c main_v59) (V c main_v60)) (V c main_v51) (V c main_v58))) := by
  show (cfg5.win 8).cut (grid5.coords t) ((dat5 (F := Ideal) V c).after 8 t) = _
  rw [after5_8]
  unfold out5_8
  rw [View.canon_unit_zero zero3_5]
  simp only [View.ld_unit_zero (S := S4096x128) zero2_5, View.ld_unit_zero (S := S1x128) zero2_5,
    View.ld_unit_zero (S := S128x128) zero2_5]
  rw [Blk.k5_psum_eq (iblk5 V c 0 t) (iblk5 V c 1 t) (iblk5 V c 2 t) (iblk5 V c 3 t) (iblk5 V c 4 t) (iblk5 V c 5 t) (iblk5 V c 6 t)]
  rw [in5_0 V c t, in5_1 V c t, in5_2 V c t, in5_3 V c t, in5_4 V c t, in5_5 V c t, in5_6 V c t]
  rw [read5_8, ← selRows_kbnrelu, ← selRows_klin]
  exact (tilesum_tile 4 4096 rfl (klin (kbnrelu Cert.Consts.k14 Cert.Consts.eps (V c main_v56) (V c main_v57) (V c main_v55_0) (V c main_v59) (V c main_v60)) (V c main_v51) (V c main_v58)) ⟨t.val, t.isLt⟩).symm

/-- Tile t's slot of the column sums of squares is those of tile t of the result. -/
private theorem wrote5_9 (c : Dev nD) (t : Fin cfg5.N) :
    (dat5 (F := Ideal) V c).flushed 9 t
      = ((cfg5.win 9).blk t).view.read (Elt Ideal) (tilesumsq 4 4096 rfl (klin (kbnrelu Cert.Consts.k14 Cert.Consts.eps (V c main_v56) (V c main_v57) (V c main_v55_0) (V c main_v59) (V c main_v60)) (V c main_v51) (V c main_v58))) := by
  show (cfg5.win 9).cut (grid5.coords t) ((dat5 (F := Ideal) V c).after 9 t) = _
  rw [after5_9]
  unfold out5_9
  rw [View.canon_unit_zero zero3_5]
  simp only [View.ld_unit_zero (S := S4096x128) zero2_5, View.ld_unit_zero (S := S1x128) zero2_5,
    View.ld_unit_zero (S := S128x128) zero2_5]
  rw [Blk.k5_psumsq_eq (iblk5 V c 0 t) (iblk5 V c 1 t) (iblk5 V c 2 t) (iblk5 V c 3 t) (iblk5 V c 4 t) (iblk5 V c 5 t) (iblk5 V c 6 t)]
  rw [in5_0 V c t, in5_1 V c t, in5_2 V c t, in5_3 V c t, in5_4 V c t, in5_5 V c t, in5_6 V c t]
  rw [read5_9, ← selRows_kbnrelu, ← selRows_klin]
  exact (tilesumsq_tile 4 4096 rfl (klin (kbnrelu Cert.Consts.k14 Cert.Consts.eps (V c main_v56) (V c main_v57) (V c main_v55_0) (V c main_v59) (V c main_v60)) (V c main_v51) (V c main_v58)) ⟨t.val, t.isLt⟩).symm

/-! ## Every entry of each result array is written by some grid point -/

private theorem mem5_7 (t : Fin cfg5.N) (i : S16384x128.Idx) :
    i ∈ ((cfg5.win 7).blk t).view.set ↔ ∀ a : Fin 2, win5_7.index t a * S4096x128.size a ≤ (i a).val ∧ (i a).val < win5_7.index t a * S4096x128.size a + S4096x128.size a := by
  show i ∈ ((View.whole main_v61_0).slice (win5_7.rect t)).set ↔ _
  rw [View.set_slice_whole, Rect.mem_set_unit]
  exact Iff.rfl

/-- Row r lies in tile r / 4096. -/
private theorem covered5_7 (i : S16384x128.Idx) :
    ∃ t : Fin cfg5.N, (cfg5.win 7).flush t = true ∧ i ∈ ((cfg5.win 7).blk t).view.set := by
  have hi0 : (i 0).val < 16384 := (i 0).isLt
  have hi1 : (i 1).val < 128 := (i 1).isLt
  have ht : (i 0).val / 4096 < grid5.N := by show _ < 4; omega
  obtain ⟨-, -, b0, b1⟩ := idx5_rows ⟨(i 0).val / 4096, ht⟩
  refine ⟨⟨(i 0).val / 4096, ht⟩, flush5_7 _, ?_⟩
  rw [mem5_7]
  intro a
  match a with
  | ⟨0, _⟩ =>
    show win5_7.index ⟨(i 0).val / 4096, ht⟩ (0 : Fin 2) * 4096 ≤ (i 0).val ∧ (i 0).val < win5_7.index ⟨(i 0).val / 4096, ht⟩ (0 : Fin 2) * 4096 + 4096
    have e : win5_7.index ⟨(i 0).val / 4096, ht⟩ (0 : Fin 2) = (i 0).val / 4096 := b0
    omega
  | ⟨1, _⟩ =>
    show win5_7.index ⟨(i 0).val / 4096, ht⟩ (1 : Fin 2) * 128 ≤ (i 1).val ∧ (i 1).val < win5_7.index ⟨(i 0).val / 4096, ht⟩ (1 : Fin 2) * 128 + 128
    have e : win5_7.index ⟨(i 0).val / 4096, ht⟩ (1 : Fin 2) = 0 := b1
    omega

private theorem mem5_8 (t : Fin cfg5.N) (i : S4x1x128.Idx) :
    i ∈ ((cfg5.win 8).blk t).view.set ↔ ∀ a : Fin 3, win5_8.index t a * S1x1x128.size a ≤ (i a).val ∧ (i a).val < win5_8.index t a * S1x1x128.size a + S1x1x128.size a := by
  show i ∈ ((View.whole main_v61_1).slice (win5_8.rect t)).set ↔ _
  rw [View.set_slice_whole, Rect.mem_set_unit]
  exact Iff.rfl

/-- Slot u is written at grid point u. -/
private theorem covered5_8 (i : S4x1x128.Idx) :
    ∃ t : Fin cfg5.N, (cfg5.win 8).flush t = true ∧ i ∈ ((cfg5.win 8).blk t).view.set := by
  have hi0 : (i 0).val < 4 := (i 0).isLt
  have hi1 : (i 1).val < 1 := (i 1).isLt
  have hi2 : (i 2).val < 128 := (i 2).isLt
  have ht : (i 0).val < grid5.N := hi0
  obtain ⟨a0, a1, a2, -, -, -⟩ := idx5_stats ⟨(i 0).val, ht⟩
  refine ⟨⟨(i 0).val, ht⟩, flush5_8 _, ?_⟩
  rw [mem5_8]
  intro a
  match a with
  | ⟨0, _⟩ =>
    show win5_8.index ⟨(i 0).val, ht⟩ (0 : Fin 3) * 1 ≤ (i 0).val ∧ (i 0).val < win5_8.index ⟨(i 0).val, ht⟩ (0 : Fin 3) * 1 + 1
    have e : win5_8.index ⟨(i 0).val, ht⟩ (0 : Fin 3) = (i 0).val := a0
    omega
  | ⟨1, _⟩ =>
    show win5_8.index ⟨(i 0).val, ht⟩ (1 : Fin 3) * 1 ≤ (i 1).val ∧ (i 1).val < win5_8.index ⟨(i 0).val, ht⟩ (1 : Fin 3) * 1 + 1
    have e : win5_8.index ⟨(i 0).val, ht⟩ (1 : Fin 3) = 0 := a1
    omega
  | ⟨2, _⟩ =>
    show win5_8.index ⟨(i 0).val, ht⟩ (2 : Fin 3) * 128 ≤ (i 2).val ∧ (i 2).val < win5_8.index ⟨(i 0).val, ht⟩ (2 : Fin 3) * 128 + 128
    have e : win5_8.index ⟨(i 0).val, ht⟩ (2 : Fin 3) = 0 := a2
    omega

private theorem mem5_9 (t : Fin cfg5.N) (i : S4x1x128.Idx) :
    i ∈ ((cfg5.win 9).blk t).view.set ↔ ∀ a : Fin 3, win5_9.index t a * S1x1x128.size a ≤ (i a).val ∧ (i a).val < win5_9.index t a * S1x1x128.size a + S1x1x128.size a := by
  show i ∈ ((View.whole main_v61_2).slice (win5_9.rect t)).set ↔ _
  rw [View.set_slice_whole, Rect.mem_set_unit]
  exact Iff.rfl

/-- Slot u is written at grid point u. -/
private theorem covered5_9 (i : S4x1x128.Idx) :
    ∃ t : Fin cfg5.N, (cfg5.win 9).flush t = true ∧ i ∈ ((cfg5.win 9).blk t).view.set := by
  have hi0 : (i 0).val < 4 := (i 0).isLt
  have hi1 : (i 1).val < 1 := (i 1).isLt
  have hi2 : (i 2).val < 128 := (i 2).isLt
  have ht : (i 0).val < grid5.N := hi0
  obtain ⟨-, -, -, a0, a1, a2⟩ := idx5_stats ⟨(i 0).val, ht⟩
  refine ⟨⟨(i 0).val, ht⟩, flush5_9 _, ?_⟩
  rw [mem5_9]
  intro a
  match a with
  | ⟨0, _⟩ =>
    show win5_9.index ⟨(i 0).val, ht⟩ (0 : Fin 3) * 1 ≤ (i 0).val ∧ (i 0).val < win5_9.index ⟨(i 0).val, ht⟩ (0 : Fin 3) * 1 + 1
    have e : win5_9.index ⟨(i 0).val, ht⟩ (0 : Fin 3) = (i 0).val := a0
    omega
  | ⟨1, _⟩ =>
    show win5_9.index ⟨(i 0).val, ht⟩ (1 : Fin 3) * 1 ≤ (i 1).val ∧ (i 1).val < win5_9.index ⟨(i 0).val, ht⟩ (1 : Fin 3) * 1 + 1
    have e : win5_9.index ⟨(i 0).val, ht⟩ (1 : Fin 3) = 0 := a1
    omega
  | ⟨2, _⟩ =>
    show win5_9.index ⟨(i 0).val, ht⟩ (2 : Fin 3) * 128 ≤ (i 2).val ∧ (i 2).val < win5_9.index ⟨(i 0).val, ht⟩ (2 : Fin 3) * 128 + 128
    have e : win5_9.index ⟨(i 0).val, ht⟩ (2 : Fin 3) = 0 := a2
    omega

/-! ## The arrays the region leaves -/

/-- The result array: the second layer of the whole input. -/
theorem r5_lin (c : Dev nD) :
    (dat5 (F := Ideal) V c).arrAt 7 cfg5.N = klin (kbnrelu Cert.Consts.k14 Cert.Consts.eps (V c main_v56) (V c main_v57) (V c main_v55_0) (V c main_v59) (V c main_v60)) (V c main_v51) (V c main_v58) :=
  (dat5 (F := Ideal) V c).arrAt_eq_of_cover 7 _ (fun t _ => wrote5_7 V c t) covered5_7

/-- Its per-tile column sums. -/
theorem r5_psum (c : Dev nD) :
    (dat5 (F := Ideal) V c).arrAt 8 cfg5.N = tilesum 4 4096 rfl (klin (kbnrelu Cert.Consts.k14 Cert.Consts.eps (V c main_v56) (V c main_v57) (V c main_v55_0) (V c main_v59) (V c main_v60)) (V c main_v51) (V c main_v58)) :=
  (dat5 (F := Ideal) V c).arrAt_eq_of_cover 8 _ (fun t _ => wrote5_8 V c t) covered5_8

/-- Its per-tile column sums of squares. -/
theorem r5_psumsq (c : Dev nD) :
    (dat5 (F := Ideal) V c).arrAt 9 cfg5.N = tilesumsq 4 4096 rfl (klin (kbnrelu Cert.Consts.k14 Cert.Consts.eps (V c main_v56) (V c main_v57) (V c main_v55_0) (V c main_v59) (V c main_v60)) (V c main_v51) (V c main_v58)) :=
  (dat5 (F := Ideal) V c).arrAt_eq_of_cover 9 _ (fun t _ => wrote5_9 V c t) covered5_9

end Cert.KernelIdeal.Reg

end
-- ==== Proof.BlkComb.lean ====
/-
  The combining layer on one tile of 4096 rows: each branch's pre-activation is normalised in raw-moment form and
  ramped, multiplied by its 128×128 slice of the combining weight, and the products are added to the bias row one
  after another; then the tile's column sums and sums of squares of the result.
-/
import proofs.«427658_j89163521065156_2_alg».proof.Proof.Gen.KernelIdeal.Skeleton
import proofs.«427658_j89163521065156_2_alg».proof.Proof.Spec
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx Idealize.SL.Sem
open Cert.KernelIdeal Cert.KernelIdeal.Gen Cert.Spec

namespace Cert.KernelIdeal.Blk

/-! ## The 4096×128 by 128×128 product read at an index -/

private theorem lhs_dot_0 (j : S4096x128.Idx) (k : dot_S4096x128_S128x128_S4096x128_1_0_0_1_n_n.contr.Idx) :
    (dot_S4096x128_S128x128_S4096x128_1_0_0_1_n_n.lhsIdx j k 0 : ℕ) = j 0 := by
  simp [DotDims.lhsIdx, dot_S4096x128_S128x128_S4096x128_1_0_0_1_n_n]; rfl
private theorem lhs_dot_1 (j : S4096x128.Idx) (k : dot_S4096x128_S128x128_S4096x128_1_0_0_1_n_n.contr.Idx) :
    (dot_S4096x128_S128x128_S4096x128_1_0_0_1_n_n.lhsIdx j k 1 : ℕ) = k ⟨0, by decide⟩ := by
  simp [DotDims.lhsIdx, dot_S4096x128_S128x128_S4096x128_1_0_0_1_n_n]; rfl
private theorem rhs_dot_0 (j : S4096x128.Idx) (k : dot_S4096x128_S128x128_S4096x128_1_0_0_1_n_n.contr.Idx) :
    (dot_S4096x128_S128x128_S4096x128_1_0_0_1_n_n.rhsIdx j k 0 : ℕ) = k ⟨0, by decide⟩ := by
  simp [DotDims.rhsIdx, dot_S4096x128_S128x128_S4096x128_1_0_0_1_n_n]; rfl
private theorem rhs_dot_1 (j : S4096x128.Idx) (k : dot_S4096x128_S128x128_S4096x128_1_0_0_1_n_n.contr.Idx) :
    (dot_S4096x128_S128x128_S4096x128_1_0_0_1_n_n.rhsIdx j k 1 : ℕ) = j 1 := by
  simp [DotDims.rhsIdx, dot_S4096x128_S128x128_S4096x128_1_0_0_1_n_n]; rfl

/-- The product into the zero accumulator, read at (p, c): the sum over the 128 contracted coordinates. -/
private theorem matmul_at (X : FVec Ideal S4096x128 .bf16) (W : FVec Ideal S128x128 .bf16) (p : Fin 4096) (c : Fin 128) :
    matmul dot_S4096x128_S128x128_S4096x128_1_0_0_1_n_n none X W (constant (F := Ideal) S4096x128 .f32 0x00000000#32) (ix2 p c)
      = ∑ k : Fin 128, X (ix2 p k) * W (ix2 k c) := by
  refine (Ideal.matmul_constant_zero_apply dot_S4096x128_S128x128_S4096x128_1_0_0_1_n_n none X W (ix2 p c)).trans ?_
  rw [← Equiv.sum_comp (contrEquiv1 dot_S4096x128_S128x128_S4096x128_1_0_0_1_n_n 128 rfl rfl).symm]
  refine Finset.sum_congr rfl fun k _ => ?_
  have ck := contrEquiv1_symm_val dot_S4096x128_S128x128_S4096x128_1_0_0_1_n_n 128 rfl rfl k
  have hl : dot_S4096x128_S128x128_S4096x128_1_0_0_1_n_n.lhsIdx (ix2 p c)
      ((contrEquiv1 dot_S4096x128_S128x128_S4096x128_1_0_0_1_n_n 128 rfl rfl).symm k) = ix2 p k := by
    funext ax; apply Fin.ext
    match ax with
    | ⟨0, _⟩ => exact lhs_dot_0 _ _
    | ⟨1, _⟩ => exact (lhs_dot_1 _ _).trans ck
  have hr : dot_S4096x128_S128x128_S4096x128_1_0_0_1_n_n.rhsIdx (ix2 p c)
      ((contrEquiv1 dot_S4096x128_S128x128_S4096x128_1_0_0_1_n_n 128 rfl rfl).symm k) = ix2 k c := by
    funext ax; apply Fin.ext
    match ax with
    | ⟨0, _⟩ => exact (rhs_dot_0 _ _).trans ck
    | ⟨1, _⟩ => exact rhs_dot_1 _ _
  rw [hl, hr]

/-- The product of a 4096×128 block with a 128×128 weight, as the programs spell it: both operands through a format
    change, into the zero accumulator. -/
private def prod (X : FVec Ideal S4096x128 .f32) (W : Vec Ideal S128x128 .f32) : FVec Ideal S4096x128 .f32 :=
  matmul dot_S4096x128_S128x128_S4096x128_1_0_0_1_n_n none (truncf .bf16 X bitsLt_bf16_f32)
    (truncf .bf16 (shapeCast S128x128 W shapeCasts_S128x128_S128x128) bitsLt_bf16_f32)
    (constant S4096x128 .f32 0x00000000#32)

/-- On the extended reals the format changes are the identity, so it is the matrix product. -/
private theorem prod_eq (X : FVec Ideal S4096x128 .f32) (W : Vec Ideal S128x128 .f32) : prod X W = mm X W := by
  funext j
  obtain ⟨p, c, rfl⟩ : ∃ (p : Fin 4096) (c : Fin 128), j = ix2 p c := ⟨j 0, j 1, eq_ix2 j⟩
  unfold prod
  refine (matmul_at _ _ p c).trans ?_
  simp only [truncf_apply, shapeCast_self]
  rfl

/-! ## One branch: normalise in raw-moment form, ramp -/

/-- A root's reciprocal read at an index. -/
private theorem rsqrt_at {s : Shape} {φ : FTy} (a : FVec Ideal s φ) (i : s.Idx) : rsqrt a i = Ideal.rsqrt (a i) := rfl

/-- One branch's normalised, ramped block: the mean row m = s·k, the reciprocal deviation row
    r = rsqrt(max(q·k − m·m, 0) + ε), then max(((z − m)·r)·γ + β, 0) with the rows spread over the 4096 rows; the
    reciprocal count k is given by its word. -/
private def nblk (kw : BitVec 32) (z : Vec Ideal S4096x128 .f32) (s q g be : Vec Ideal S1x128 .f32) : FVec Ideal S4096x128 .f32 :=
  have m : FVec Ideal S1x128 .f32 := mulf (shapeCast S1x128 s shapeCasts_S1x128_S1x128) (broadcast S1x128 (Scalar.ofBits .f32 kw))
  have r : FVec Ideal S1x128 .f32 := rsqrt (addf (maximumf (subf (mulf (shapeCast S1x128 q shapeCasts_S1x128_S1x128)
    (broadcast S1x128 (Scalar.ofBits .f32 kw))) (mulf m m)) (broadcast S1x128 (Scalar.ofBits .f32 0x00000000#32)))
    (broadcast S1x128 (Scalar.ofBits .f32 0x3727C5AC#32)))
  maximumf (addf (mulf (mulf (subf (shapeCast S4096x128 z shapeCasts_S4096x128_S4096x128)
      (broadcastTo S4096x128 m broadcasts_S1x128_S4096x128)) (broadcastTo S4096x128 r broadcasts_S1x128_S4096x128))
      (broadcastTo S4096x128 (shapeCast S1x128 g shapeCasts_S1x128_S1x128) broadcasts_S1x128_S4096x128))
      (broadcastTo S4096x128 (shapeCast S1x128 be shapeCasts_S1x128_S1x128) broadcasts_S1x128_S4096x128))
    (broadcast S4096x128 (Scalar.ofBits .f32 0x00000000#32))

/-- It is the raw-moment normalisation followed by the ramp. -/
private theorem nblk_eq (kw : BitVec 32) (z : Vec Ideal S4096x128 .f32) (s q g be : Vec Ideal S1x128 .f32) :
    nblk kw z s q g be = kbnrelu (Ideal.ofBits .f32 kw) Cert.Consts.eps s q z g be := by
  funext j
  obtain ⟨p, c, rfl⟩ : ∃ (p : Fin 4096) (c : Fin 128), j = ix2 p c := ⟨j 0, j 1, eq_ix2 j⟩
  have h0 : (Scalar.ofBits (F := Ideal) .f32 0x00000000#32) = (0 : EReal) := Ideal.ofBits_zero_f32
  unfold nblk kbnrelu
  simp only [maximumf_apply, addf_apply, mulf_apply, subf_apply, broadcast_apply, broadcastTo_1b_ab_apply, shapeCast_self,
    rsqrt_at, h0]
  rfl

/-! ## The bias row, and the combinations -/

/-- The bias row spread over the 4096 rows. -/
private def brow (b : Vec Ideal S1x128 .f32) : FVec Ideal S4096x128 .f32 :=
  broadcastTo S4096x128 (shapeCast S1x128 b shapeCasts_S1x128_S1x128) broadcasts_S1x128_S4096x128

private theorem brow_at (b : Vec Ideal S1x128 .f32) (p : Fin 4096) (c : Fin 128) : brow b (ix2 p c) = b (ix2 0 c) := by
  unfold brow
  rw [broadcastTo_1b_ab_apply, shapeCast_self]

/-- Two branches: (bias + first product) + second product. -/
private theorem comb2 (kw : BitVec 32) (z0 : Vec Ideal S4096x128 .f32) (W0 : Vec Ideal S128x128 .f32) (s0 q0 g0 be0 : Vec Ideal S1x128 .f32)
    (z1 : Vec Ideal S4096x128 .f32) (W1 : Vec Ideal S128x128 .f32) (s1 q1 g1 be1 b : Vec Ideal S1x128 .f32) :
    addf (addf (brow b) (prod (nblk kw z0 s0 q0 g0 be0) W0)) (prod (nblk kw z1 s1 q1 g1 be1) W1)
      = klin2 (kbnrelu (Ideal.ofBits .f32 kw) Cert.Consts.eps s0 q0 z0 g0 be0) W0
          (kbnrelu (Ideal.ofBits .f32 kw) Cert.Consts.eps s1 q1 z1 g1 be1) W1 b := by
  rw [prod_eq, prod_eq, nblk_eq, nblk_eq]
  funext j
  obtain ⟨p, c, rfl⟩ : ∃ (p : Fin 4096) (c : Fin 128), j = ix2 p c := ⟨j 0, j 1, eq_ix2 j⟩
  unfold klin2
  simp only [addf_apply, brow_at]

/-- Three branches: ((bias + first product) + second product) + third product. -/
private theorem comb3 (kw : BitVec 32) (z0 : Vec Ideal S4096x128 .f32) (W0 : Vec Ideal S128x128 .f32) (s0 q0 g0 be0 : Vec Ideal S1x128 .f32)
    (z1 : Vec Ideal S4096x128 .f32) (W1 : Vec Ideal S128x128 .f32) (s1 q1 g1 be1 : Vec Ideal S1x128 .f32)
    (z2 : Vec Ideal S4096x128 .f32) (W2 : Vec Ideal S128x128 .f32) (s2 q2 g2 be2 b : Vec Ideal S1x128 .f32) :
    addf (addf (addf (brow b) (prod (nblk kw z0 s0 q0 g0 be0) W0)) (prod (nblk kw z1 s1 q1 g1 be1) W1))
        (prod (nblk kw z2 s2 q2 g2 be2) W2)
      = klin3 (kbnrelu (Ideal.ofBits .f32 kw) Cert.Consts.eps s0 q0 z0 g0 be0) W0
          (kbnrelu (Ideal.ofBits .f32 kw) Cert.Consts.eps s1 q1 z1 g1 be1) W1
          (kbnrelu (Ideal.ofBits .f32 kw) Cert.Consts.eps s2 q2 z2 g2 be2) W2 b := by
  rw [prod_eq, prod_eq, prod_eq, nblk_eq, nblk_eq, nblk_eq]
  funext j
  obtain ⟨p, c, rfl⟩ : ∃ (p : Fin 4096) (c : Fin 128), j = ix2 p c := ⟨j 0, j 1, eq_ix2 j⟩
  unfold klin3
  simp only [addf_apply, brow_at]

/-! ## The tile's column sums -/

/-- The sum over the 4096 rows, kept as a 1×1×128 block. -/
private def csum (y : FVec Ideal S4096x128 .f32) : FVec Ideal S1x1x128 .f32 :=
  shapeCast S1x1x128 (shapeCast S1x128
    (multiReduction (F := Ideal) .add [0] S128 y 0x00000000#32 reduces_S4096x128_S128 (.inl rfl) rfl)
    shapeCasts_S128_S1x128) shapeCasts_S1x128_S1x1x128

/-- It is the one tile's column sums. -/
private theorem csum_eq (y : FVec Ideal S4096x128 .f32) : csum y = tilesum 1 4096 rfl y := by
  funext j
  obtain ⟨u, v, c, rfl⟩ : ∃ (u : Fin 1) (v : Fin 1) (c : Fin 128), j = ix3 u v c := ⟨j 0, j 1, j 2, eq_ix3 j⟩
  unfold csum tilesum
  rw [shapeCast_ab_1ab_apply, shapeCast_a_1a_apply]
  refine (Ideal.multiReduction_add_single y 0x00000000#32 reduces_S4096x128_S128 (.inl rfl) rfl (ix1 c)).trans ?_
  refine Finset.sum_congr rfl fun i _ => congrArg y ?_
  funext a
  apply Fin.ext
  have hu : u.val = 0 := by omega
  match a with
  | ⟨0, _⟩ => show i.val = u.val * 4096 + i.val; omega
  | ⟨1, _⟩ => rfl

/-! ## The combining layer: the bias row plus the products of two (three) normalised, ramped inputs with their weights, and its tile statistics -/

theorem k6_out_eq (z0 : Vec Ideal S4096x128 .f32) (W0 : Vec Ideal S128x128 .f32) (s0 q0 g0 be0 : Vec Ideal S1x128 .f32)
    (z1 : Vec Ideal S4096x128 .f32) (W1 : Vec Ideal S128x128 .f32) (s1 q1 g1 be1 b : Vec Ideal S1x128 .f32) :
    k6_pay5 (F := Ideal) (k6_pay3 z0 s0 q0 g0 be0 W0) (k6_pay4 b) z1 s1 q1 g1 be1 W1
      = klin2 (kbnrelu Cert.Consts.k14 Cert.Consts.eps s0 q0 z0 g0 be0) W0 (kbnrelu Cert.Consts.k14 Cert.Consts.eps s1 q1 z1 g1 be1) W1 b := by
  unfold k6_pay5 k6_pay3 k6_pay4
  exact comb2 0x38800000#32 z0 W0 s0 q0 g0 be0 z1 W1 s1 q1 g1 be1 b
theorem k6_psum_eq (y : FVec Ideal S4096x128 .f32) : k6_pay1 (F := Ideal) y = tilesum 1 4096 rfl y := by
  unfold k6_pay1
  exact csum_eq y
theorem k6_psumsq_eq (y : FVec Ideal S4096x128 .f32) : k6_pay2 (F := Ideal) y = tilesumsq 1 4096 rfl y := by
  unfold k6_pay2
  exact csum_eq (mulf y y)
theorem k12_out_eq (z0 : Vec Ideal S4096x128 .f32) (W0 : Vec Ideal S128x128 .f32) (s0 q0 g0 be0 : Vec Ideal S1x128 .f32)
    (z1 : Vec Ideal S4096x128 .f32) (W1 : Vec Ideal S128x128 .f32) (s1 q1 g1 be1 b : Vec Ideal S1x128 .f32) :
    k12_pay5 (F := Ideal) (k12_pay3 z0 s0 q0 g0 be0 W0) (k12_pay4 b) z1 s1 q1 g1 be1 W1
      = klin2 (kbnrelu Cert.Consts.k18 Cert.Consts.eps s0 q0 z0 g0 be0) W0 (kbnrelu Cert.Consts.k18 Cert.Consts.eps s1 q1 z1 g1 be1) W1 b := by
  unfold k12_pay5 k12_pay3 k12_pay4
  exact comb2 0x36800000#32 z0 W0 s0 q0 g0 be0 z1 W1 s1 q1 g1 be1 b
theorem k12_psum_eq (y : FVec Ideal S4096x128 .f32) : k12_pay1 (F := Ideal) y = tilesum 1 4096 rfl y := by
  unfold k12_pay1
  exact csum_eq y
theorem k12_psumsq_eq (y : FVec Ideal S4096x128 .f32) : k12_pay2 (F := Ideal) y = tilesumsq 1 4096 rfl y := by
  unfold k12_pay2
  exact csum_eq (mulf y y)

/-- The three-input combining layer: ((bias + first product) + second product) + third product. -/
theorem k23_out_eq (z0 : Vec Ideal S4096x128 .f32) (W0 : Vec Ideal S128x128 .f32) (s0 q0 g0 be0 : Vec Ideal S1x128 .f32)
    (z1 : Vec Ideal S4096x128 .f32) (W1 : Vec Ideal S128x128 .f32) (s1 q1 g1 be1 : Vec Ideal S1x128 .f32)
    (z2 : Vec Ideal S4096x128 .f32) (W2 : Vec Ideal S128x128 .f32) (s2 q2 g2 be2 b : Vec Ideal S1x128 .f32) :
    k23_pay7 (F := Ideal) (k23_pay5 (k23_pay3 z0 s0 q0 g0 be0 W0) (k23_pay4 b) z1 s1 q1 g1 be1 W1) (k23_pay6 z2) s2 q2 g2 be2 W2
      = klin3 (kbnrelu Cert.Consts.k12 Cert.Consts.eps s0 q0 z0 g0 be0) W0 (kbnrelu Cert.Consts.k12 Cert.Consts.eps s1 q1 z1 g1 be1) W1
          (kbnrelu Cert.Consts.k12 Cert.Consts.eps s2 q2 z2 g2 be2) W2 b := by
  unfold k23_pay7 k23_pay6 k23_pay5 k23_pay3 k23_pay4
  exact comb3 0x39800000#32 z0 W0 s0 q0 g0 be0 z1 W1 s1 q1 g1 be1 z2 W2 s2 q2 g2 be2 b
/-- Its column sums are taken of the combined block itself. -/
theorem k23_psum_eq (v76 v78 : FVec Ideal S4096x128 .f32) (s2 q2 g2 be2 : Vec Ideal S1x128 .f32) (W2 : Vec Ideal S128x128 .f32) :
    k23_pay1 (F := Ideal) (k23_pay8 v76 v78 s2 q2 g2 be2 W2) = tilesum 1 4096 rfl (k23_pay7 v76 v78 s2 q2 g2 be2 W2) := by
  unfold k23_pay1 k23_pay8
  exact csum_eq (k23_pay7 v76 v78 s2 q2 g2 be2 W2)
theorem k23_psumsq_eq (y : FVec Ideal S4096x128 .f32) : k23_pay2 (F := Ideal) y = tilesumsq 1 4096 rfl y := by
  unfold k23_pay2
  exact csum_eq (mulf y y)

end Cert.KernelIdeal.Blk

end
-- ==== Proof.Reg.R6.lean ====
/-
  The combining layer over all 16384 rows. The grid runs over the 4 tiles of 4096 rows; at tile t the two inputs' rows
  of that tile are normalised in raw-moment form with the given column statistics, ramped, multiplied by their 128×128
  weights and added to the bias row, and the tile's column sums and sums of squares of the result are taken. Every
  step acts on the rows independently, so the tiles' results are the rows of one whole-array function, and the per-tile
  statistics are that function's tile sums.
-/
import proofs.«427658_j89163521065156_2_alg».proof.Proof.FrameKernelIdeal.Reg6
import proofs.«427658_j89163521065156_2_alg».proof.Proof.BlkComb
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open scoped BigOperators
open Cert.KernelIdeal Cert.KernelIdeal.Gen Cert.Spec Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The grid's index maps -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The grid has 4 points, one per tile of 4096 rows. -/
private theorem lt6 (t : Fin cfg6.N) : t.val < 4 := lt_of_lt_of_eq t.isLt N_6
/-- The tile of a grid point. -/
private abbrev tile6 (t : Fin cfg6.N) : Fin 4 := ⟨t.val, lt6 t⟩

private theorem idx6_0 : ∀ t : Fin cfg6.N, win6_0.index t (0 : Fin 2) = t.val ∧ win6_0.index t (1 : Fin 2) = 0 :=
  (by decide +kernel : ∀ t : Fin grid6.N, _)
private theorem idx6_6 : ∀ t : Fin cfg6.N, win6_6.index t (0 : Fin 2) = t.val ∧ win6_6.index t (1 : Fin 2) = 0 :=
  (by decide +kernel : ∀ t : Fin grid6.N, _)
private theorem idx6_13 : ∀ t : Fin cfg6.N, win6_13.index t (0 : Fin 2) = t.val ∧ win6_13.index t (1 : Fin 2) = 0 :=
  (by decide +kernel : ∀ t : Fin grid6.N, _)
private theorem idx6_1 : ∀ t : Fin cfg6.N, win6_1.index t (0 : Fin 2) = 0 ∧ win6_1.index t (1 : Fin 2) = 0 :=
  (by decide +kernel : ∀ t : Fin grid6.N, _)
private theorem idx6_7 : ∀ t : Fin cfg6.N, win6_7.index t (0 : Fin 2) = 0 ∧ win6_7.index t (1 : Fin 2) = 0 :=
  (by decide +kernel : ∀ t : Fin grid6.N, _)
private theorem idx6_2 : ∀ t : Fin cfg6.N, win6_2.index t (0 : Fin 2) = 0 ∧ win6_2.index t (1 : Fin 2) = 0 :=
  (by decide +kernel : ∀ t : Fin grid6.N, _)
private theorem idx6_3 : ∀ t : Fin cfg6.N, win6_3.index t (0 : Fin 2) = 0 ∧ win6_3.index t (1 : Fin 2) = 0 :=
  (by decide +kernel : ∀ t : Fin grid6.N, _)
private theorem idx6_4 : ∀ t : Fin cfg6.N, win6_4.index t (0 : Fin 2) = 0 ∧ win6_4.index t (1 : Fin 2) = 0 :=
  (by decide +kernel : ∀ t : Fin grid6.N, _)
private theorem idx6_5 : ∀ t : Fin cfg6.N, win6_5.index t (0 : Fin 2) = 0 ∧ win6_5.index t (1 : Fin 2) = 0 :=
  (by decide +kernel : ∀ t : Fin grid6.N, _)
private theorem idx6_8 : ∀ t : Fin cfg6.N, win6_8.index t (0 : Fin 2) = 0 ∧ win6_8.index t (1 : Fin 2) = 0 :=
  (by decide +kernel : ∀ t : Fin grid6.N, _)
private theorem idx6_9 : ∀ t : Fin cfg6.N, win6_9.index t (0 : Fin 2) = 0 ∧ win6_9.index t (1 : Fin 2) = 0 :=
  (by decide +kernel : ∀ t : Fin grid6.N, _)
private theorem idx6_10 : ∀ t : Fin cfg6.N, win6_10.index t (0 : Fin 2) = 0 ∧ win6_10.index t (1 : Fin 2) = 0 :=
  (by decide +kernel : ∀ t : Fin grid6.N, _)
private theorem idx6_11 : ∀ t : Fin cfg6.N, win6_11.index t (0 : Fin 2) = 0 ∧ win6_11.index t (1 : Fin 2) = 0 :=
  (by decide +kernel : ∀ t : Fin grid6.N, _)
private theorem idx6_12 : ∀ t : Fin cfg6.N, win6_12.index t (0 : Fin 2) = 0 ∧ win6_12.index t (1 : Fin 2) = 0 :=
  (by decide +kernel : ∀ t : Fin grid6.N, _)
private theorem idx6_14 : ∀ t : Fin cfg6.N, win6_14.index t (0 : Fin 3) = t.val ∧ win6_14.index t (1 : Fin 3) = 0 ∧ win6_14.index t (2 : Fin 3) = 0 :=
  (by decide +kernel : ∀ t : Fin grid6.N, _)
private theorem idx6_15 : ∀ t : Fin cfg6.N, win6_15.index t (0 : Fin 3) = t.val ∧ win6_15.index t (1 : Fin 3) = 0 ∧ win6_15.index t (2 : Fin 3) = 0 :=
  (by decide +kernel : ∀ t : Fin grid6.N, _)

/-! ## Each window's block, read off an array -/

/-- Window 0 moves with the tile: its block at a point is the tile's 4096 rows. -/
private theorem read6_0 (t : Fin cfg6.N) (X : S16384x128.Idx → EReal) :
    ((cfg6.win 0).blk t).view.read (Elt Ideal) X = selRows (tileRow 4 4096 rfl (tile6 t)) X := by
  funext y
  show X (((cfg6.win 0).blk t).view.emb y) = X (ix2 (tileRow 4 4096 rfl (tile6 t) (y 0)) (y 1))
  refine congrArg X ?_
  funext a; apply Fin.ext
  match a with
  | ⟨0, _⟩ =>
    show win6_0.index t (0 : Fin 2) * 4096 + 1 * (y 0).val = t.val * 4096 + (y 0).val
    rw [(idx6_0 t).1]; omega
  | ⟨1, _⟩ =>
    show win6_0.index t (1 : Fin 2) * 128 + 1 * (y 1).val = (y 1).val
    rw [(idx6_0 t).2]; omega
/-- Window 6 moves with the tile: its block at a point is the tile's 4096 rows. -/
private theorem read6_6 (t : Fin cfg6.N) (X : S16384x128.Idx → EReal) :
    ((cfg6.win 6).blk t).view.read (Elt Ideal) X = selRows (tileRow 4 4096 rfl (tile6 t)) X := by
  funext y
  show X (((cfg6.win 6).blk t).view.emb y) = X (ix2 (tileRow 4 4096 rfl (tile6 t) (y 0)) (y 1))
  refine congrArg X ?_
  funext a; apply Fin.ext
  match a with
  | ⟨0, _⟩ =>
    show win6_6.index t (0 : Fin 2) * 4096 + 1 * (y 0).val = t.val * 4096 + (y 0).val
    rw [(idx6_6 t).1]; omega
  | ⟨1, _⟩ =>
    show win6_6.index t (1 : Fin 2) * 128 + 1 * (y 1).val = (y 1).val
    rw [(idx6_6 t).2]; omega
/-- Window 13 moves with the tile: its block at a point is the tile's 4096 rows. -/
private theorem read6_13 (t : Fin cfg6.N) (X : S16384x128.Idx → EReal) :
    ((cfg6.win 13).blk t).view.read (Elt Ideal) X = selRows (tileRow 4 4096 rfl (tile6 t)) X := by
  funext y
  show X (((cfg6.win 13).blk t).view.emb y) = X (ix2 (tileRow 4 4096 rfl (tile6 t) (y 0)) (y 1))
  refine congrArg X ?_
  funext a; apply Fin.ext
  match a with
  | ⟨0, _⟩ =>
    show win6_13.index t (0 : Fin 2) * 4096 + 1 * (y 0).val = t.val * 4096 + (y 0).val
    rw [(idx6_13 t).1]; omega
  | ⟨1, _⟩ =>
    show win6_13.index t (1 : Fin 2) * 128 + 1 * (y 1).val = (y 1).val
    rw [(idx6_13 t).2]; omega
/-- Window 1 does not move: its block is the whole weight. -/
private theorem read6_1 (t : Fin cfg6.N) (X : S128x128.Idx → EReal) :
    ((cfg6.win 1).blk t).view.read (Elt Ideal) X = X := by
  funext y
  show X (((cfg6.win 1).blk t).view.emb y) = X y
  refine congrArg X ?_
  funext a; apply Fin.ext
  match a with
  | ⟨0, _⟩ =>
    show win6_1.index t (0 : Fin 2) * 128 + 1 * (y 0).val = (y 0).val
    rw [(idx6_1 t).1]; omega
  | ⟨1, _⟩ =>
    show win6_1.index t (1 : Fin 2) * 128 + 1 * (y 1).val = (y 1).val
    rw [(idx6_1 t).2]; omega
/-- Window 7 does not move: its block is the whole weight. -/
private theorem read6_7 (t : Fin cfg6.N) (X : S128x128.Idx → EReal) :
    ((cfg6.win 7).blk t).view.read (Elt Ideal) X = X := by
  funext y
  show X (((cfg6.win 7).blk t).view.emb y) = X y
  refine congrArg X ?_
  funext a; apply Fin.ext
  match a with
  | ⟨0, _⟩ =>
    show win6_7.index t (0 : Fin 2) * 128 + 1 * (y 0).val = (y 0).val
    rw [(idx6_7 t).1]; omega
  | ⟨1, _⟩ =>
    show win6_7.index t (1 : Fin 2) * 128 + 1 * (y 1).val = (y 1).val
    rw [(idx6_7 t).2]; omega
/-- Window 2 does not move: its block is the whole row. -/
private theorem read6_2 (t : Fin cfg6.N) (X : S1x128.Idx → EReal) :
    ((cfg6.win 2).blk t).view.read (Elt Ideal) X = X := by
  funext y
  show X (((cfg6.win 2).blk t).view.emb y) = X y
  refine congrArg X ?_
  funext a; apply Fin.ext
  match a with
  | ⟨0, _⟩ =>
    show win6_2.index t (0 : Fin 2) * 1 + 1 * (y 0).val = (y 0).val
    rw [(idx6_2 t).1]; omega
  | ⟨1, _⟩ =>
    show win6_2.index t (1 : Fin 2) * 128 + 1 * (y 1).val = (y 1).val
    rw [(idx6_2 t).2]; omega
/-- Window 3 does not move: its block is the whole row. -/
private theorem read6_3 (t : Fin cfg6.N) (X : S1x128.Idx → EReal) :
    ((cfg6.win 3).blk t).view.read (Elt Ideal) X = X := by
  funext y
  show X (((cfg6.win 3).blk t).view.emb y) = X y
  refine congrArg X ?_
  funext a; apply Fin.ext
  match a with
  | ⟨0, _⟩ =>
    show win6_3.index t (0 : Fin 2) * 1 + 1 * (y 0).val = (y 0).val
    rw [(idx6_3 t).1]; omega
  | ⟨1, _⟩ =>
    show win6_3.index t (1 : Fin 2) * 128 + 1 * (y 1).val = (y 1).val
    rw [(idx6_3 t).2]; omega
/-- Window 4 does not move: its block is the whole row. -/
private theorem read6_4 (t : Fin cfg6.N) (X : S1x128.Idx → EReal) :
    ((cfg6.win 4).blk t).view.read (Elt Ideal) X = X := by
  funext y
  show X (((cfg6.win 4).blk t).view.emb y) = X y
  refine congrArg X ?_
  funext a; apply Fin.ext
  match a with
  | ⟨0, _⟩ =>
    show win6_4.index t (0 : Fin 2) * 1 + 1 * (y 0).val = (y 0).val
    rw [(idx6_4 t).1]; omega
  | ⟨1, _⟩ =>
    show win6_4.index t (1 : Fin 2) * 128 + 1 * (y 1).val = (y 1).val
    rw [(idx6_4 t).2]; omega
/-- Window 5 does not move: its block is the whole row. -/
private theorem read6_5 (t : Fin cfg6.N) (X : S1x128.Idx → EReal) :
    ((cfg6.win 5).blk t).view.read (Elt Ideal) X = X := by
  funext y
  show X (((cfg6.win 5).blk t).view.emb y) = X y
  refine congrArg X ?_
  funext a; apply Fin.ext
  match a with
  | ⟨0, _⟩ =>
    show win6_5.index t (0 : Fin 2) * 1 + 1 * (y 0).val = (y 0).val
    rw [(idx6_5 t).1]; omega
  | ⟨1, _⟩ =>
    show win6_5.index t (1 : Fin 2) * 128 + 1 * (y 1).val = (y 1).val
    rw [(idx6_5 t).2]; omega
/-- Window 8 does not move: its block is the whole row. -/
private theorem read6_8 (t : Fin cfg6.N) (X : S1x128.Idx → EReal) :
    ((cfg6.win 8).blk t).view.read (Elt Ideal) X = X := by
  funext y
  show X (((cfg6.win 8).blk t).view.emb y) = X y
  refine congrArg X ?_
  funext a; apply Fin.ext
  match a with
  | ⟨0, _⟩ =>
    show win6_8.index t (0 : Fin 2) * 1 + 1 * (y 0).val = (y 0).val
    rw [(idx6_8 t).1]; omega
  | ⟨1, _⟩ =>
    show win6_8.index t (1 : Fin 2) * 128 + 1 * (y 1).val = (y 1).val
    rw [(idx6_8 t).2]; omega
/-- Window 9 does not move: its block is the whole row. -/
private theorem read6_9 (t : Fin cfg6.N) (X : S1x128.Idx → EReal) :
    ((cfg6.win 9).blk t).view.read (Elt Ideal) X = X := by
  funext y
  show X (((cfg6.win 9).blk t).view.emb y) = X y
  refine congrArg X ?_
  funext a; apply Fin.ext
  match a with
  | ⟨0, _⟩ =>
    show win6_9.index t (0 : Fin 2) * 1 + 1 * (y 0).val = (y 0).val
    rw [(idx6_9 t).1]; omega
  | ⟨1, _⟩ =>
    show win6_9.index t (1 : Fin 2) * 128 + 1 * (y 1).val = (y 1).val
    rw [(idx6_9 t).2]; omega
/-- Window 10 does not move: its block is the whole row. -/
private theorem read6_10 (t : Fin cfg6.N) (X : S1x128.Idx → EReal) :
    ((cfg6.win 10).blk t).view.read (Elt Ideal) X = X := by
  funext y
  show X (((cfg6.win 10).blk t).view.emb y) = X y
  refine congrArg X ?_
  funext a; apply Fin.ext
  match a with
  | ⟨0, _⟩ =>
    show win6_10.index t (0 : Fin 2) * 1 + 1 * (y 0).val = (y 0).val
    rw [(idx6_10 t).1]; omega
  | ⟨1, _⟩ =>
    show win6_10.index t (1 : Fin 2) * 128 + 1 * (y 1).val = (y 1).val
    rw [(idx6_10 t).2]; omega
/-- Window 11 does not move: its block is the whole row. -/
private theorem read6_11 (t : Fin cfg6.N) (X : S1x128.Idx → EReal) :
    ((cfg6.win 11).blk t).view.read (Elt Ideal) X = X := by
  funext y
  show X (((cfg6.win 11).blk t).view.emb y) = X y
  refine congrArg X ?_
  funext a; apply Fin.ext
  match a with
  | ⟨0, _⟩ =>
    show win6_11.index t (0 : Fin 2) * 1 + 1 * (y 0).val = (y 0).val
    rw [(idx6_11 t).1]; omega
  | ⟨1, _⟩ =>
    show win6_11.index t (1 : Fin 2) * 128 + 1 * (y 1).val = (y 1).val
    rw [(idx6_11 t).2]; omega
/-- Window 12 does not move: its block is the whole row. -/
private theorem read6_12 (t : Fin cfg6.N) (X : S1x128.Idx → EReal) :
    ((cfg6.win 12).blk t).view.read (Elt Ideal) X = X := by
  funext y
  show X (((cfg6.win 12).blk t).view.emb y) = X y
  refine congrArg X ?_
  funext a; apply Fin.ext
  match a with
  | ⟨0, _⟩ =>
    show win6_12.index t (0 : Fin 2) * 1 + 1 * (y 0).val = (y 0).val
    rw [(idx6_12 t).1]; omega
  | ⟨1, _⟩ =>
    show win6_12.index t (1 : Fin 2) * 128 + 1 * (y 1).val = (y 1).val
    rw [(idx6_12 t).2]; omega
/-- Window 14 moves with the tile: its block at a point is the tile's entry of the per-tile statistics. -/
private theorem read6_14 (t : Fin cfg6.N) (P : S4x1x128.Idx → EReal) :
    ((cfg6.win 14).blk t).view.read (Elt Ideal) P = fun y : S1x1x128.Idx => P (ix3 (tile6 t) 0 (y 2)) := by
  funext y
  show P (((cfg6.win 14).blk t).view.emb y) = P (ix3 (tile6 t) 0 (y 2))
  refine congrArg P ?_
  funext a; apply Fin.ext
  have h0 : (y 0).val < 1 := (y 0).isLt
  have h1 : (y 1).val < 1 := (y 1).isLt
  match a with
  | ⟨0, _⟩ =>
    show win6_14.index t (0 : Fin 3) * 1 + 1 * (y 0).val = t.val
    rw [(idx6_14 t).1]; omega
  | ⟨1, _⟩ =>
    show win6_14.index t (1 : Fin 3) * 1 + 1 * (y 1).val = 0
    rw [(idx6_14 t).2.1]; omega
  | ⟨2, _⟩ =>
    show win6_14.index t (2 : Fin 3) * 128 + 1 * (y 2).val = (y 2).val
    rw [(idx6_14 t).2.2]; omega
/-- Window 15 moves with the tile: its block at a point is the tile's entry of the per-tile statistics. -/
private theorem read6_15 (t : Fin cfg6.N) (P : S4x1x128.Idx → EReal) :
    ((cfg6.win 15).blk t).view.read (Elt Ideal) P = fun y : S1x1x128.Idx => P (ix3 (tile6 t) 0 (y 2)) := by
  funext y
  show P (((cfg6.win 15).blk t).view.emb y) = P (ix3 (tile6 t) 0 (y 2))
  refine congrArg P ?_
  funext a; apply Fin.ext
  have h0 : (y 0).val < 1 := (y 0).isLt
  have h1 : (y 1).val < 1 := (y 1).isLt
  match a with
  | ⟨0, _⟩ =>
    show win6_15.index t (0 : Fin 3) * 1 + 1 * (y 0).val = t.val
    rw [(idx6_15 t).1]; omega
  | ⟨1, _⟩ =>
    show win6_15.index t (1 : Fin 3) * 1 + 1 * (y 1).val = 0
    rw [(idx6_15 t).2.1]; omega
  | ⟨2, _⟩ =>
    show win6_15.index t (2 : Fin 3) * 128 + 1 * (y 2).val = (y 2).val
    rw [(idx6_15 t).2.2]; omega

/-! ## The input blocks at a point -/

private theorem blk6_0 (c : Dev nD) (t : Fin cfg6.N) :
    iblk6 V c 0 t = selRows (tileRow 4 4096 rfl (tile6 t)) (V c main_v39_0) := by
  unfold iblk6
  exact read6_0 t (V c main_v39_0)
private theorem blk6_6 (c : Dev nD) (t : Fin cfg6.N) :
    iblk6 V c 6 t = selRows (tileRow 4 4096 rfl (tile6 t)) (V c main_v61_0) := by
  unfold iblk6
  exact read6_6 t (V c main_v61_0)
private theorem blk6_1 (c : Dev nD) (t : Fin cfg6.N) : iblk6 V c 1 t = V c main_v64 := by
  unfold iblk6
  exact read6_1 t (V c main_v64)
private theorem blk6_7 (c : Dev nD) (t : Fin cfg6.N) : iblk6 V c 7 t = V c main_v69 := by
  unfold iblk6
  exact read6_7 t (V c main_v69)
private theorem blk6_2 (c : Dev nD) (t : Fin cfg6.N) : iblk6 V c 2 t = V c main_v40 := by
  unfold iblk6
  exact read6_2 t (V c main_v40)
private theorem blk6_3 (c : Dev nD) (t : Fin cfg6.N) : iblk6 V c 3 t = V c main_v41 := by
  unfold iblk6
  exact read6_3 t (V c main_v41)
private theorem blk6_4 (c : Dev nD) (t : Fin cfg6.N) : iblk6 V c 4 t = V c main_v75 := by
  unfold iblk6
  exact read6_4 t (V c main_v75)
private theorem blk6_5 (c : Dev nD) (t : Fin cfg6.N) : iblk6 V c 5 t = V c main_v76 := by
  unfold iblk6
  exact read6_5 t (V c main_v76)
private theorem blk6_8 (c : Dev nD) (t : Fin cfg6.N) : iblk6 V c 8 t = V c main_v62 := by
  unfold iblk6
  exact read6_8 t (V c main_v62)
private theorem blk6_9 (c : Dev nD) (t : Fin cfg6.N) : iblk6 V c 9 t = V c main_v63 := by
  unfold iblk6
  exact read6_9 t (V c main_v63)
private theorem blk6_10 (c : Dev nD) (t : Fin cfg6.N) : iblk6 V c 10 t = V c main_v77 := by
  unfold iblk6
  exact read6_10 t (V c main_v77)
private theorem blk6_11 (c : Dev nD) (t : Fin cfg6.N) : iblk6 V c 11 t = V c main_v78 := by
  unfold iblk6
  exact read6_11 t (V c main_v78)
private theorem blk6_12 (c : Dev nD) (t : Fin cfg6.N) : iblk6 V c 12 t = V c main_v74 := by
  unfold iblk6
  exact read6_12 t (V c main_v74)

/-! ## The combining layer on the whole arrays -/

/-- The bias row plus the products of the two normalised, ramped inputs with their weights, on all 16384 rows. -/
private def comb6 (c : Dev nD) : S16384x128.Idx → EReal :=
  klin2 (kbnrelu Cert.Consts.k14 Cert.Consts.eps (V c main_v40) (V c main_v41) (V c main_v39_0 : S16384x128.Idx → EReal) (V c main_v75) (V c main_v76)) (V c main_v64)
      (kbnrelu Cert.Consts.k14 Cert.Consts.eps (V c main_v62) (V c main_v63) (V c main_v61_0 : S16384x128.Idx → EReal) (V c main_v77) (V c main_v78)) (V c main_v69) (V c main_v74)

/-! ## What a grid point writes back -/

/-- The point of tile t writes the tile's rows of the combined array. -/
private theorem wb6_lin (c : Dev nD) (t : Fin cfg6.N) :
    (dat6 (F := Ideal) V c).flushed 13 t = ((cfg6.win 13).blk t).view.read (Elt Ideal) (comb6 V c) := by
  show (cfg6.win 13).cut (grid6.coords t) ((dat6 V c).after 13 t) = _
  rw [after6_13]
  unfold out6_13
  rw [View.canon_unit_zero zeros2]
  simp only [View.ld_unit_zero (S := S4096x128) zeros2, View.ld_unit_zero (S := S128x128) zeros2, View.ld_unit_zero (S := S1x128) zeros2]
  rw [Blk.k6_out_eq]
  rw [blk6_0, blk6_1, blk6_2, blk6_3, blk6_4, blk6_5, blk6_6, blk6_7, blk6_8, blk6_9, blk6_10, blk6_11, blk6_12]
  rw [read6_13]
  unfold comb6
  rw [selRows_klin2, selRows_kbnrelu, selRows_kbnrelu]
  rfl

/-- … its entry of the per-tile column sums of the combined array … -/
private theorem wb6_psum (c : Dev nD) (t : Fin cfg6.N) :
    (dat6 (F := Ideal) V c).flushed 14 t
      = ((cfg6.win 14).blk t).view.read (Elt Ideal) (tilesum 4 4096 rfl (comb6 V c)) := by
  show (cfg6.win 14).cut (grid6.coords t) ((dat6 V c).after 14 t) = _
  rw [after6_14]
  unfold out6_14
  rw [View.canon_unit_zero zeros3]
  simp only [View.ld_unit_zero (S := S4096x128) zeros2, View.ld_unit_zero (S := S128x128) zeros2, View.ld_unit_zero (S := S1x128) zeros2]
  rw [Blk.k6_psum_eq, Blk.k6_out_eq]
  rw [blk6_0, blk6_1, blk6_2, blk6_3, blk6_4, blk6_5, blk6_6, blk6_7, blk6_8, blk6_9, blk6_10, blk6_11, blk6_12]
  rw [read6_14, tilesum_tile]
  unfold comb6
  rw [selRows_klin2, selRows_kbnrelu, selRows_kbnrelu]
  rfl

/-- … and its entry of the per-tile column sums of squares. -/
private theorem wb6_psumsq (c : Dev nD) (t : Fin cfg6.N) :
    (dat6 (F := Ideal) V c).flushed 15 t
      = ((cfg6.win 15).blk t).view.read (Elt Ideal) (tilesumsq 4 4096 rfl (comb6 V c)) := by
  show (cfg6.win 15).cut (grid6.coords t) ((dat6 V c).after 15 t) = _
  rw [after6_15]
  unfold out6_15
  rw [View.canon_unit_zero zeros3]
  simp only [View.ld_unit_zero (S := S4096x128) zeros2, View.ld_unit_zero (S := S128x128) zeros2, View.ld_unit_zero (S := S1x128) zeros2]
  rw [Blk.k6_psumsq_eq, Blk.k6_out_eq]
  rw [blk6_0, blk6_1, blk6_2, blk6_3, blk6_4, blk6_5, blk6_6, blk6_7, blk6_8, blk6_9, blk6_10, blk6_11, blk6_12]
  rw [read6_15, tilesumsq_tile]
  unfold comb6
  rw [selRows_klin2, selRows_kbnrelu, selRows_kbnrelu]
  rfl

/-! ## The blocks cover the arrays -/

private theorem mem6_13 (t : Fin cfg6.N) (i : S16384x128.Idx) :
    i ∈ ((cfg6.win 13).blk t).view.set ↔ ∀ a : Fin 2, win6_13.index t a * S4096x128.size a ≤ (i a).val
      ∧ (i a).val < win6_13.index t a * S4096x128.size a + S4096x128.size a := by
  show i ∈ ((View.whole main_v79_0).slice (win6_13.rect t)).set ↔ _
  rw [View.set_slice_whole, Rect.mem_set_unit]
  exact Iff.rfl

/-- Row r lies in tile r / 4096. -/
private theorem covers6_lin (i : S16384x128.Idx) :
    ∃ t : Fin cfg6.N, (cfg6.win 13).flush t = true ∧ i ∈ ((cfg6.win 13).blk t).view.set := by
  have hi0 : (i 0).val < 16384 := (i 0).isLt
  have hi1 : (i 1).val < 128 := (i 1).isLt
  have hN : cfg6.N = 4 := N_6
  have ht : (i 0).val / 4096 < cfg6.N := by rw [hN]; omega
  refine ⟨⟨(i 0).val / 4096, ht⟩, flush6_13 _, ?_⟩
  rw [mem6_13]
  intro a
  match a with
  | ⟨0, _⟩ =>
    show win6_13.index ⟨(i 0).val / 4096, ht⟩ (0 : Fin 2) * 4096 ≤ (i 0).val
      ∧ (i 0).val < win6_13.index ⟨(i 0).val / 4096, ht⟩ (0 : Fin 2) * 4096 + 4096
    rw [(idx6_13 ⟨(i 0).val / 4096, ht⟩).1]
    show (i 0).val / 4096 * 4096 ≤ (i 0).val ∧ (i 0).val < (i 0).val / 4096 * 4096 + 4096
    omega
  | ⟨1, _⟩ =>
    show win6_13.index ⟨(i 0).val / 4096, ht⟩ (1 : Fin 2) * 128 ≤ (i 1).val
      ∧ (i 1).val < win6_13.index ⟨(i 0).val / 4096, ht⟩ (1 : Fin 2) * 128 + 128
    rw [(idx6_13 ⟨(i 0).val / 4096, ht⟩).2]
    omega

private theorem mem6_14 (t : Fin cfg6.N) (i : S4x1x128.Idx) :
    i ∈ ((cfg6.win 14).blk t).view.set ↔ ∀ a : Fin 3, win6_14.index t a * S1x1x128.size a ≤ (i a).val
      ∧ (i a).val < win6_14.index t a * S1x1x128.size a + S1x1x128.size a := by
  show i ∈ ((View.whole main_v79_1).slice (win6_14.rect t)).set ↔ _
  rw [View.set_slice_whole, Rect.mem_set_unit]
  exact Iff.rfl

/-- Tile t's entry lies in the block of point t. -/
private theorem covers6_psum (i : S4x1x128.Idx) :
    ∃ t : Fin cfg6.N, (cfg6.win 14).flush t = true ∧ i ∈ ((cfg6.win 14).blk t).view.set := by
  have hi0 : (i 0).val < 4 := (i 0).isLt
  have hi1 : (i 1).val < 1 := (i 1).isLt
  have hi2 : (i 2).val < 128 := (i 2).isLt
  have hN : cfg6.N = 4 := N_6
  have ht : (i 0).val < cfg6.N := by rw [hN]; exact hi0
  refine ⟨⟨(i 0).val, ht⟩, flush6_14 _, ?_⟩
  rw [mem6_14]
  intro a
  match a with
  | ⟨0, _⟩ =>
    show win6_14.index ⟨(i 0).val, ht⟩ (0 : Fin 3) * 1 ≤ (i 0).val
      ∧ (i 0).val < win6_14.index ⟨(i 0).val, ht⟩ (0 : Fin 3) * 1 + 1
    rw [(idx6_14 ⟨(i 0).val, ht⟩).1]
    show (i 0).val * 1 ≤ (i 0).val ∧ (i 0).val < (i 0).val * 1 + 1
    omega
  | ⟨1, _⟩ =>
    show win6_14.index ⟨(i 0).val, ht⟩ (1 : Fin 3) * 1 ≤ (i 1).val
      ∧ (i 1).val < win6_14.index ⟨(i 0).val, ht⟩ (1 : Fin 3) * 1 + 1
    rw [(idx6_14 ⟨(i 0).val, ht⟩).2.1]
    omega
  | ⟨2, _⟩ =>
    show win6_14.index ⟨(i 0).val, ht⟩ (2 : Fin 3) * 128 ≤ (i 2).val
      ∧ (i 2).val < win6_14.index ⟨(i 0).val, ht⟩ (2 : Fin 3) * 128 + 128
    rw [(idx6_14 ⟨(i 0).val, ht⟩).2.2]
    omega

private theorem mem6_15 (t : Fin cfg6.N) (i : S4x1x128.Idx) :
    i ∈ ((cfg6.win 15).blk t).view.set ↔ ∀ a : Fin 3, win6_15.index t a * S1x1x128.size a ≤ (i a).val
      ∧ (i a).val < win6_15.index t a * S1x1x128.size a + S1x1x128.size a := by
  show i ∈ ((View.whole main_v79_2).slice (win6_15.rect t)).set ↔ _
  rw [View.set_slice_whole, Rect.mem_set_unit]
  exact Iff.rfl

/-- Tile t's entry lies in the block of point t. -/
private theorem covers6_psumsq (i : S4x1x128.Idx) :
    ∃ t : Fin cfg6.N, (cfg6.win 15).flush t = true ∧ i ∈ ((cfg6.win 15).blk t).view.set := by
  have hi0 : (i 0).val < 4 := (i 0).isLt
  have hi1 : (i 1).val < 1 := (i 1).isLt
  have hi2 : (i 2).val < 128 := (i 2).isLt
  have hN : cfg6.N = 4 := N_6
  have ht : (i 0).val < cfg6.N := by rw [hN]; exact hi0
  refine ⟨⟨(i 0).val, ht⟩, flush6_15 _, ?_⟩
  rw [mem6_15]
  intro a
  match a with
  | ⟨0, _⟩ =>
    show win6_15.index ⟨(i 0).val, ht⟩ (0 : Fin 3) * 1 ≤ (i 0).val
      ∧ (i 0).val < win6_15.index ⟨(i 0).val, ht⟩ (0 : Fin 3) * 1 + 1
    rw [(idx6_15 ⟨(i 0).val, ht⟩).1]
    show (i 0).val * 1 ≤ (i 0).val ∧ (i 0).val < (i 0).val * 1 + 1
    omega
  | ⟨1, _⟩ =>
    show win6_15.index ⟨(i 0).val, ht⟩ (1 : Fin 3) * 1 ≤ (i 1).val
      ∧ (i 1).val < win6_15.index ⟨(i 0).val, ht⟩ (1 : Fin 3) * 1 + 1
    rw [(idx6_15 ⟨(i 0).val, ht⟩).2.1]
    omega
  | ⟨2, _⟩ =>
    show win6_15.index ⟨(i 0).val, ht⟩ (2 : Fin 3) * 128 ≤ (i 2).val
      ∧ (i 2).val < win6_15.index ⟨(i 0).val, ht⟩ (2 : Fin 3) * 128 + 128
    rw [(idx6_15 ⟨(i 0).val, ht⟩).2.2]
    omega

/-! ## The region's arrays -/

/-- The combining layer's output array. -/
theorem r6_lin (c : Dev nD) : (dat6 (F := Ideal) V c).arrAt 13 cfg6.N
    = klin2 (kbnrelu Cert.Consts.k14 Cert.Consts.eps (V c main_v40) (V c main_v41) (V c main_v39_0 : S16384x128.Idx → EReal) (V c main_v75) (V c main_v76)) (V c main_v64)
        (kbnrelu Cert.Consts.k14 Cert.Consts.eps (V c main_v62) (V c main_v63) (V c main_v61_0 : S16384x128.Idx → EReal) (V c main_v77) (V c main_v78)) (V c main_v69) (V c main_v74) :=
  (dat6 V c).arrAt_eq_of_cover 13 (comb6 V c) (fun t _ => wb6_lin V c t) covers6_lin

/-- Its per-tile column sums. -/
theorem r6_psum (c : Dev nD) : (dat6 (F := Ideal) V c).arrAt 14 cfg6.N
    = tilesum 4 4096 rfl (klin2 (kbnrelu Cert.Consts.k14 Cert.Consts.eps (V c main_v40) (V c main_v41) (V c main_v39_0 : S16384x128.Idx → EReal) (V c main_v75) (V c main_v76)) (V c main_v64)
        (kbnrelu Cert.Consts.k14 Cert.Consts.eps (V c main_v62) (V c main_v63) (V c main_v61_0 : S16384x128.Idx → EReal) (V c main_v77) (V c main_v78)) (V c main_v69) (V c main_v74)) :=
  (dat6 V c).arrAt_eq_of_cover 14 (tilesum 4 4096 rfl (comb6 V c)) (fun t _ => wb6_psum V c t) covers6_psum

/-- Its per-tile column sums of squares. -/
theorem r6_psumsq (c : Dev nD) : (dat6 (F := Ideal) V c).arrAt 15 cfg6.N
    = tilesumsq 4 4096 rfl (klin2 (kbnrelu Cert.Consts.k14 Cert.Consts.eps (V c main_v40) (V c main_v41) (V c main_v39_0 : S16384x128.Idx → EReal) (V c main_v75) (V c main_v76)) (V c main_v64)
        (kbnrelu Cert.Consts.k14 Cert.Consts.eps (V c main_v62) (V c main_v63) (V c main_v61_0 : S16384x128.Idx → EReal) (V c main_v77) (V c main_v78)) (V c main_v69) (V c main_v74)) :=
  (dat6 V c).arrAt_eq_of_cover 15 (tilesumsq 4 4096 rfl (comb6 V c)) (fun t _ => wb6_psumsq V c t) covers6_psumsq

end Cert.KernelIdeal.Reg

end
-- ==== Proof.Reg.R7.lean ====
/-
  Batch normalisation followed by the ramp, of the 16384 rows of a matrix, computed by tiles of 4096 rows: what the
  region leaves in its output array. Every grid point normalises one tile of rows with the SAME column statistics,
  scale and shift. The layer acts on each row by itself once the statistics are given, so the tiles together are the
  layer applied to the whole array.
-/
import proofs.«427658_j89163521065156_2_alg».proof.Proof.FrameKernelIdeal.Reg7
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The grid and the index maps -/

/-- A whole-buffer access starts at offset zero on both axes. -/
private theorem zero_off7 : (![0, 0] : Fin 2 → Nat) = fun _ => 0 := funext fun a => by fin_cases a <;> rfl

/-- The grid has 4 points. -/
private theorem npts7 : cfg7.N = 4 := by decide
private theorem npoints7 (t : Fin cfg7.N) : t.val < 4 := lt_of_lt_of_eq t.isLt npts7

/-- The index maps over the grid. The rows and the result move with the point: block (t, 0) at point t. -/
private theorem idx_maps7_0 : ∀ t : Fin cfg7.N,
    win7_0.index t (0 : Fin 2) = t.val ∧ win7_0.index t (1 : Fin 2) = 0 :=
  (by decide +kernel : ∀ t : Fin grid7.N, _)
private theorem idx_maps7_5 : ∀ t : Fin cfg7.N,
    win7_5.index t (0 : Fin 2) = t.val ∧ win7_5.index t (1 : Fin 2) = 0 :=
  (by decide +kernel : ∀ t : Fin grid7.N, _)

/-- The column sums, sums of squares, scale and shift are whole windows: block (0, 0) at every point. -/
private theorem idx_maps7_1 : ∀ t : Fin cfg7.N,
    win7_1.index t (0 : Fin 2) = 0 ∧ win7_1.index t (1 : Fin 2) = 0 :=
  (by decide +kernel : ∀ t : Fin grid7.N, _)
private theorem idx_maps7_2 : ∀ t : Fin cfg7.N,
    win7_2.index t (0 : Fin 2) = 0 ∧ win7_2.index t (1 : Fin 2) = 0 :=
  (by decide +kernel : ∀ t : Fin grid7.N, _)
private theorem idx_maps7_3 : ∀ t : Fin cfg7.N,
    win7_3.index t (0 : Fin 2) = 0 ∧ win7_3.index t (1 : Fin 2) = 0 :=
  (by decide +kernel : ∀ t : Fin grid7.N, _)
private theorem idx_maps7_4 : ∀ t : Fin cfg7.N,
    win7_4.index t (0 : Fin 2) = 0 ∧ win7_4.index t (1 : Fin 2) = 0 :=
  (by decide +kernel : ∀ t : Fin grid7.N, _)

/-! ## The blocks at a point -/

/-- Block t of a 16384-row array read through a row-tiled window is the array's rows of tile t. -/
private theorem rows_blk7_0 (t : Fin cfg7.N) (G : S16384x128.Idx → EReal) :
    ((cfg7.win 0).blk t).view.read (Elt Ideal) G = selRows (tileRow 4 4096 rfl ⟨t.val, npoints7 t⟩) G := by
  have e := idx_maps7_0 t
  funext y
  show G (((cfg7.win 0).blk t).view.emb y) = G (ix2 ⟨t.val * 4096 + (y 0).val, _⟩ (y 1))
  refine congrArg G ?_
  funext a; apply Fin.ext
  match a with
  | ⟨0, _⟩ => show win7_0.index t (0 : Fin 2) * 4096 + 1 * (y 0).val = t.val * 4096 + (y 0).val; omega
  | ⟨1, _⟩ => show win7_0.index t (1 : Fin 2) * 128 + 1 * (y 1).val = (y 1).val; omega
private theorem rows_blk7_5 (t : Fin cfg7.N) (G : S16384x128.Idx → EReal) :
    ((cfg7.win 5).blk t).view.read (Elt Ideal) G = selRows (tileRow 4 4096 rfl ⟨t.val, npoints7 t⟩) G := by
  have e := idx_maps7_5 t
  funext y
  show G (((cfg7.win 5).blk t).view.emb y) = G (ix2 ⟨t.val * 4096 + (y 0).val, _⟩ (y 1))
  refine congrArg G ?_
  funext a; apply Fin.ext
  match a with
  | ⟨0, _⟩ => show win7_5.index t (0 : Fin 2) * 4096 + 1 * (y 0).val = t.val * 4096 + (y 0).val; omega
  | ⟨1, _⟩ => show win7_5.index t (1 : Fin 2) * 128 + 1 * (y 1).val = (y 1).val; omega

/-- A one-row array read through a whole window is the array itself, at every point. -/
private theorem whole_blk7_1 (t : Fin cfg7.N) (G : S1x128.Idx → EReal) :
    ((cfg7.win 1).blk t).view.read (Elt Ideal) G = G := by
  have e := idx_maps7_1 t
  funext y
  show G (((cfg7.win 1).blk t).view.emb y) = G y
  refine congrArg G ?_
  funext a; apply Fin.ext
  match a with
  | ⟨0, _⟩ => show win7_1.index t (0 : Fin 2) * 1 + 1 * (y 0).val = (y 0).val; omega
  | ⟨1, _⟩ => show win7_1.index t (1 : Fin 2) * 128 + 1 * (y 1).val = (y 1).val; omega
private theorem whole_blk7_2 (t : Fin cfg7.N) (G : S1x128.Idx → EReal) :
    ((cfg7.win 2).blk t).view.read (Elt Ideal) G = G := by
  have e := idx_maps7_2 t
  funext y
  show G (((cfg7.win 2).blk t).view.emb y) = G y
  refine congrArg G ?_
  funext a; apply Fin.ext
  match a with
  | ⟨0, _⟩ => show win7_2.index t (0 : Fin 2) * 1 + 1 * (y 0).val = (y 0).val; omega
  | ⟨1, _⟩ => show win7_2.index t (1 : Fin 2) * 128 + 1 * (y 1).val = (y 1).val; omega
private theorem whole_blk7_3 (t : Fin cfg7.N) (G : S1x128.Idx → EReal) :
    ((cfg7.win 3).blk t).view.read (Elt Ideal) G = G := by
  have e := idx_maps7_3 t
  funext y
  show G (((cfg7.win 3).blk t).view.emb y) = G y
  refine congrArg G ?_
  funext a; apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega
private theorem whole_blk7_4 (t : Fin cfg7.N) (G : S1x128.Idx → EReal) :
    ((cfg7.win 4).blk t).view.read (Elt Ideal) G = G := by
  have e := idx_maps7_4 t
  funext y
  show G (((cfg7.win 4).blk t).view.emb y) = G y
  refine congrArg G ?_
  funext a; apply Fin.ext
  match a with
  | ⟨0, _⟩ => show win7_4.index t (0 : Fin 2) * 1 + 1 * (y 0).val = (y 0).val; omega
  | ⟨1, _⟩ => show win7_4.index t (1 : Fin 2) * 128 + 1 * (y 1).val = (y 1).val; omega

/-! ## What a point writes back -/

/-- WHAT POINT t WRITES BACK is block t of the layer applied to the whole array: the body normalises the rows of tile
    t, and taking rows commutes with the layer. -/
private theorem wrote7 (c : Dev nD) (t : Fin cfg7.N) :
    (dat7 (F := Ideal) V c).flushed 5 t = ((cfg7.win 5).blk t).view.read (Elt Ideal)
      (kbnrelu Cert.Consts.k14 Cert.Consts.eps (V c main_v80 : S1x128.Idx → EReal) (V c main_v81 : S1x128.Idx → EReal) (V c main_v79_0 : S16384x128.Idx → EReal) (V c main_v82 : S1x128.Idx → EReal) (V c main_v83 : S1x128.Idx → EReal)) := by
  show (cfg7.win 5).cut (grid7.coords t) ((dat7 (F := Ideal) V c).after 5 t) = _
  rw [after7_5]
  unfold out7_5
  rw [View.canon_unit_zero zero_off7]
  simp only [View.ld_unit_zero (S := S4096x128) zero_off7, View.ld_unit_zero (S := S1x128) zero_off7]
  rw [Blk.k7_pay1_eq]
  rw [show iblk7 V c 0 t = selRows (tileRow 4 4096 rfl ⟨t.val, npoints7 t⟩) (V c main_v79_0 : S16384x128.Idx → EReal) from rows_blk7_0 t _,
    show iblk7 V c 1 t = (V c main_v80 : S1x128.Idx → EReal) from whole_blk7_1 t _,
    show iblk7 V c 2 t = (V c main_v81 : S1x128.Idx → EReal) from whole_blk7_2 t _,
    show iblk7 V c 3 t = (V c main_v82 : S1x128.Idx → EReal) from whole_blk7_3 t _,
    show iblk7 V c 4 t = (V c main_v83 : S1x128.Idx → EReal) from whole_blk7_4 t _]
  exact ((rows_blk7_5 t _).trans (selRows_kbnrelu _ _ _ _ _ _ _ _)).symm

/-! ## The tiles fill the array -/

/-- An index of the array is in point t's block iff each coordinate is in the block's range on its axis. -/
private theorem mem_tile7 (t : Fin cfg7.N) (i : S16384x128.Idx) :
    i ∈ ((cfg7.win 5).blk t).view.set ↔ ∀ a : Fin 2, win7_5.index t a * S4096x128.size a ≤ (i a).val
      ∧ (i a).val < win7_5.index t a * S4096x128.size a + S4096x128.size a := by
  show i ∈ ((View.whole main_v84).slice (win7_5.rect t)).set ↔ _
  rw [View.set_slice_whole, Rect.mem_set_unit]
  exact Iff.rfl

/-- Row r lies in tile r / 4096, and every point writes its block back. -/
private theorem tiles_cover7 (i : S16384x128.Idx) :
    ∃ t : Fin cfg7.N, (cfg7.win 5).flush t = true ∧ i ∈ ((cfg7.win 5).blk t).view.set := by
  have hi0 : (i 0).val < 16384 := (i 0).isLt
  have hi1 : (i 1).val < 128 := (i 1).isLt
  obtain ⟨t, ht⟩ : ∃ t : Fin cfg7.N, t.val = (i 0).val / 4096 :=
    ⟨⟨(i 0).val / 4096, lt_of_lt_of_eq (show (i 0).val / 4096 < 4 by omega) npts7.symm⟩, rfl⟩
  obtain ⟨e0, e1⟩ := idx_maps7_5 t
  refine ⟨t, flush7_5 t, ?_⟩
  rw [mem_tile7]
  intro a
  match a with
  | ⟨0, _⟩ => show win7_5.index t (0 : Fin 2) * 4096 ≤ (i 0).val ∧ (i 0).val < win7_5.index t (0 : Fin 2) * 4096 + 4096; omega
  | ⟨1, _⟩ => show win7_5.index t (1 : Fin 2) * 128 ≤ (i 1).val ∧ (i 1).val < win7_5.index t (1 : Fin 2) * 128 + 128; omega

/-! ## The array after the region -/

/-- THE ARRAY the region leaves: the normalised and ramped rows, from the column statistics, scale and shift it was
    given. -/
theorem r7_bn (c : Dev nD) :
    (dat7 (F := Ideal) V c).arrAt 5 cfg7.N
      = kbnrelu Cert.Consts.k14 Cert.Consts.eps (V c main_v80 : S1x128.Idx → EReal) (V c main_v81 : S1x128.Idx → EReal) (V c main_v79_0 : S16384x128.Idx → EReal) (V c main_v82 : S1x128.Idx → EReal) (V c main_v83 : S1x128.Idx → EReal) :=
  (dat7 (F := Ideal) V c).arrAt_eq_of_cover 5 _ (fun t _ => wrote7 V c t) tiles_cover7

end Cert.KernelIdeal.Reg

end
-- ==== Proof.BlkMisc.lean ====
/-
  The edge message on one tile of 4096 edges: the bias row plus the gathered source rows times the upper half of the
  message weight plus the edge rows times the lower half, ramped. And the pooling products, eight graphs at a time: out[g] = a[g]·b[g].

  On the extended reals the rounding to bf16 on the way into a product is the identity and the zero block a product
  accumulates into adds nothing, so each product read at an entry is the plain sum over the contracted coordinate of the
  products of the entries: Σₖ A[p, k]·B[k, q] for a matrix product, Σₖ A[g, m, k]·B[g, k, n] for a stack of them.
-/
import proofs.«427658_j89163521065156_2_alg».proof.Proof.Gen.KernelIdeal.Skeleton
import proofs.«427658_j89163521065156_2_alg».proof.Proof.Spec
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember

noncomputable section

open scoped BigOperators
open Idealize.ShloMosaic Idealize.ShloMosaic.ValueIdx Idealize.SL.Sem
open Cert.KernelIdeal Cert.KernelIdeal.Gen Cert.Spec

namespace Cert.KernelIdeal.Blk

/-! ## A product into the zero block, read at an entry -/

/-- A plain product of an R×K by a K×C matrix accumulated into the zero block, read at (p, q), is the sum over the
    contracted coordinate of the products of the entries. -/
private theorem matmul_plain_zero {R K C : Nat} {φ₁ φ₂ : FTy}
    (d : DotDims ⟨2, ![R, K]⟩ ⟨2, ![K, C]⟩ ⟨2, ![R, C]⟩) (hd : d = DotDims.plain R K C)
    (A : FVec Ideal ⟨2, ![R, K]⟩ φ₁) (B : FVec Ideal ⟨2, ![K, C]⟩ φ₂) (p : Fin R) (q : Fin C) :
    matmul d none A B (constant (F := Ideal) ⟨2, ![R, C]⟩ .f32 0x00000000#32) (ix2 p q) = ∑ k : Fin K, A (ix2 p k) * B (ix2 k q) := by
  subst hd
  rw [matmul_zero_eq_dotGeneral]
  exact StackMember.dotGeneral_plain_apply none A B p q

/-- The edge message's two products use the plain dimension numbers: rows × contraction by contraction × columns. -/
private theorem dot_edge_plain : dot_S4096x128_S128x128_S4096x128_1_0_0_1_n_n = DotDims.plain 4096 128 128 := rfl

/-- A stack of G products, matrix by matrix (batch axis 0, the left operand's axis 2 contracted with the right
    operand's axis 1), accumulated into the zero block: out[g] = A[g]·B[g]. -/
private theorem matmul_stack_zero {G M K N : Nat} {φ₁ φ₂ : FTy}
    (w : DotDims.WF ⟨3, ![G, M, K]⟩ ⟨3, ![G, K, N]⟩ ⟨3, ![G, M, N]⟩ [2] [1] [1] [2] [0] [0])
    (A : FVec Ideal ⟨3, ![G, M, K]⟩ φ₁) (B : FVec Ideal ⟨3, ![G, K, N]⟩ φ₂) :
    matmul (⟨[2], [1], [1], [2], [0], [0], w⟩ : DotDims _ _ _) none A B (constant (F := Ideal) ⟨3, ![G, M, N]⟩ .f32 0x00000000#32)
      = fun j => ∑ k : Fin K, A (ix3 (j 0) (j 1) k) * B (ix3 (j 0) k (j 2)) := by
  funext j
  obtain ⟨g, a, c, rfl⟩ : ∃ (g : Fin G) (a : Fin M) (c : Fin N), j = ix3 g a c := ⟨j 0, j 1, j 2, eq_ix3 j⟩
  rw [matmul_zero_eq_dotGeneral]
  exact StackMember.dotGeneral_stack_apply w none A B g a c

/-! ## The edge message (two products, bias, ramp) and the four batched pooling products -/

theorem k1_pay1_eq (b : Vec Ideal S1x128 .f32) (x1 : Vec Ideal S4096x128 .f32) (W1 : Vec Ideal S128x128 .f32) (x2 : Vec Ideal S4096x128 .f32) (W2 : Vec Ideal S128x128 .f32) :
    k1_pay1 (F := Ideal) b x1 W1 x2 W2 = relu (klin2 x1 W1 x2 W2 b) := by
  funext j
  obtain ⟨p, q, rfl⟩ : ∃ (p : Fin 4096) (q : Fin 128), j = ix2 p q := ⟨j 0, j 1, eq_ix2 j⟩
  unfold k1_pay1
  simp only [shapeCast_self, maximumf_apply, addf_apply, broadcast_apply]
  rw [matmul_plain_zero _ dot_edge_plain, matmul_plain_zero _ dot_edge_plain, broadcastTo_1b_ab_apply]
  show max _ (Ideal.ofBits .f32 0x00000000#32) = max _ 0
  rw [Ideal.ofBits_zero_f32]
  rfl
theorem k0_pay1_eq (a : Vec Ideal S8x256x64 .f32) (b : Vec Ideal S8x64x128 .f32) : k0_pay1 (F := Ideal) a b = bmm a b := by
  unfold k0_pay1
  exact matmul_stack_zero _ _ _
theorem k14_pay1_eq (a : Vec Ideal S8x64x64 .f32) (b : Vec Ideal S8x64x128 .f32) : k14_pay1 (F := Ideal) a b = bmm a b := by
  unfold k14_pay1
  exact matmul_stack_zero _ _ _
theorem k15_pay1_eq (a : Vec Ideal S8x64x8 .f32) (b : Vec Ideal S8x8x128 .f32) : k15_pay1 (F := Ideal) a b = bmm a b := by
  unfold k15_pay1
  exact matmul_stack_zero _ _ _
theorem k16_pay1_eq (a : Vec Ideal S8x64x256 .f32) (b : Vec Ideal S8x256x128 .f32) : k16_pay1 (F := Ideal) a b = bmm a b := by
  unfold k16_pay1
  simp only [shapeCast_self]
  exact matmul_stack_zero _ _ _

end Cert.KernelIdeal.Blk

end
-- ==== Proof.Reg.R0.lean ====
/-
  The pooling product of region 0, as one function of its two arrays. The region visits the 64 graphs eight at a
  time: at point t it reads graphs 8t … 8t + 7 of both stacks, multiplies them graph by graph, and writes the eight
  products back to graphs 8t … 8t + 7 of the result. The batched product acts on each graph by itself, so the eight
  products are graphs 8t … 8t + 7 of the product of the whole stacks; and every graph g lies in exactly the block of
  point g / 8. So the result array ends holding out[g] = a[g]·b[g] for all 64 graphs.
-/
import proofs.«427658_j89163521065156_2_alg».proof.Proof.FrameKernelIdeal.Reg0
import proofs.«427658_j89163521065156_2_alg».proof.Proof.BlkMisc
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe Idealize.SL.Sem

namespace Cert.KernelIdeal.Reg

variable (V : (c : Dev nD) → (b : Ref sig .tc) → Buf (Elt Ideal) ((c : Thread nD τ).loc b))

/-- The zero offsets of an access to a whole block. -/
private theorem zero3 : (![0, 0, 0] : Fin 3 → Nat) = fun _ => 0 := funext fun a => by fin_cases a <;> rfl

/-- Graphs f 0, f 1, … of a stack. -/
private def selGraphs {G B M K : Nat} (f : Fin B → Fin G) (a : Cube G M K) : Cube B M K :=
  fun y => a (ix3 (f (y 0)) (y 1) (y 2))

/-- Graphs 8n … 8n + 7 of a stack of 64. -/
private def tileGraphs (n : Nat) (hn : n < 8) : Fin 8 → Fin 64 := fun i => ⟨n * 8 + i.val, by have := i.isLt; omega⟩

/-- The batched product acts on each graph by itself: a selection of graphs of the product is the product of the
    selections. -/
private theorem selGraphs_bmm {G B M K N : Nat} (f : Fin B → Fin G) (a : Cube G M K) (b : Cube G K N) :
    selGraphs f (bmm a b) = bmm (selGraphs f a) (selGraphs f b) := by
  funext y
  rfl

/-- Each window moves along the graphs only: at point t its block starts at graph 8t, row 0, column 0. -/
theorem r0_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The left operand's block at point t is graphs 8t … 8t + 7 of its array. -/
theorem r0_read_a (t : Fin cfg0.N) (ht : t.val < 8) (X : S64x256x64.Idx → EReal) :
    ((cfg0.win 0).blk t).view.read (Elt Ideal) X = selGraphs (tileGraphs t.val ht) X := by
  obtain ⟨e0, e1, e2, -, -, -, -, -, -⟩ := r0_index t
  funext y
  show X (((cfg0.win 0).blk t).view.emb y) = X _
  refine congrArg X (funext fun a => Fin.ext ?_)
  match a with
  | ⟨0, _⟩ => show win0_0.index t (0 : Fin 3) * 8 + 1 * (y 0).val = t.val * 8 + (y 0).val; rw [e0]; omega
  | ⟨1, _⟩ => show win0_0.index t (1 : Fin 3) * 256 + 1 * (y 1).val = (y 1).val; rw [e1]; omega
  | ⟨2, _⟩ => show win0_0.index t (2 : Fin 3) * 64 + 1 * (y 2).val = (y 2).val; rw [e2]; omega

/-- The right operand's block at point t is graphs 8t … 8t + 7 of its array. -/
theorem r0_read_b (t : Fin cfg0.N) (ht : t.val < 8) (X : S64x64x128.Idx → EReal) :
    ((cfg0.win 1).blk t).view.read (Elt Ideal) X = selGraphs (tileGraphs t.val ht) X := by
  obtain ⟨-, -, -, e0, e1, e2, -, -, -⟩ := r0_index t
  funext y
  show X (((cfg0.win 1).blk t).view.emb y) = X _
  refine congrArg X (funext fun a => Fin.ext ?_)
  match a with
  | ⟨0, _⟩ => show win0_1.index t (0 : Fin 3) * 8 + 1 * (y 0).val = t.val * 8 + (y 0).val; rw [e0]; omega
  | ⟨1, _⟩ => show win0_1.index t (1 : Fin 3) * 64 + 1 * (y 1).val = (y 1).val; rw [e1]; omega
  | ⟨2, _⟩ => show win0_1.index t (2 : Fin 3) * 128 + 1 * (y 2).val = (y 2).val; rw [e2]; omega

/-- The result's block at point t is graphs 8t … 8t + 7 of its array. -/
theorem r0_read_out (t : Fin cfg0.N) (ht : t.val < 8) (X : S64x256x128.Idx → EReal) :
    ((cfg0.win 2).blk t).view.read (Elt Ideal) X = selGraphs (tileGraphs t.val ht) X := by
  obtain ⟨-, -, -, -, -, -, e0, e1, e2⟩ := r0_index t
  funext y
  show X (((cfg0.win 2).blk t).view.emb y) = X _
  refine congrArg X (funext fun a => Fin.ext ?_)
  match a with
  | ⟨0, _⟩ => show win0_2.index t (0 : Fin 3) * 8 + 1 * (y 0).val = t.val * 8 + (y 0).val; rw [e0]; omega
  | ⟨1, _⟩ => show win0_2.index t (1 : Fin 3) * 256 + 1 * (y 1).val = (y 1).val; rw [e1]; omega
  | ⟨2, _⟩ => show win0_2.index t (2 : Fin 3) * 128 + 1 * (y 2).val = (y 2).val; rw [e2]; omega

/-- What point t writes back is graphs 8t … 8t + 7 of the batched product of the two arrays. -/
theorem r0_flushed (c : Dev nD) (t : Fin cfg0.N) :
    (dat0 (F := Ideal) V c).flushed 2 t
      = ((cfg0.win 2).blk t).view.read (Elt Ideal) (bmm (V c main_arg6) (V c main_arg3)) := by
  have ht : t.val < 8 := lt_of_lt_of_eq t.isLt N_0
  show (cfg0.win 2).cut (grid0.coords t) ((dat0 V c).after 2 t) = _
  rw [after0_2]
  unfold out0_2
  rw [View.canon_unit_zero zero3]
  simp only [View.ld_unit_zero (S := S8x256x64) zero3, View.ld_unit_zero (S := S8x64x128) zero3]
  rw [Blk.k0_pay1_eq, r0_read_out t ht]
  unfold iblk0
  rw [r0_read_a t ht, r0_read_b t ht, selGraphs_bmm]
  rfl

/-- An entry of the result array is in point t's block iff each coordinate is in the block's range on its axis. -/
theorem r0_mem (t : Fin cfg0.N) (i : S64x256x128.Idx) :
    i ∈ ((cfg0.win 2).blk t).view.set ↔ ∀ a : Fin 3, win0_2.index t a * S8x256x128.size a ≤ (i a).val
      ∧ (i a).val < win0_2.index t a * S8x256x128.size a + S8x256x128.size a := by
  show i ∈ ((View.whole main_v4).slice (win0_2.rect t)).set ↔ _
  rw [View.set_slice_whole, Rect.mem_set_unit]
  exact Iff.rfl

/-- Every entry of the result array is written back by some point: graph g by point g / 8. -/
theorem r0_cover (i : S64x256x128.Idx) :
    ∃ t : Fin cfg0.N, (cfg0.win 2).flush t = true ∧ i ∈ ((cfg0.win 2).blk t).view.set := by
  have h0 : (i 0).val < 64 := (i 0).isLt
  have h1 : (i 1).val < 256 := (i 1).isLt
  have h2 : (i 2).val < 128 := (i 2).isLt
  have hN : cfg0.N = 8 := N_0
  refine ⟨⟨(i 0).val / 8, by rw [hN]; omega⟩, flush0_2 _, ?_⟩
  rw [r0_mem]
  obtain ⟨-, -, -, -, -, -, e0, e1, e2⟩ := r0_index ⟨(i 0).val / 8, by rw [hN]; omega⟩
  intro a
  match a with
  | ⟨0, _⟩ =>
    show win0_2.index _ (0 : Fin 3) * 8 ≤ (i 0).val ∧ (i 0).val < win0_2.index _ (0 : Fin 3) * 8 + 8
    rw [e0]
    show (i 0).val / 8 * 8 ≤ (i 0).val ∧ (i 0).val < (i 0).val / 8 * 8 + 8
    omega
  | ⟨1, _⟩ =>
    show win0_2.index _ (1 : Fin 3) * 256 ≤ (i 1).val ∧ (i 1).val < win0_2.index _ (1 : Fin 3) * 256 + 256
    rw [e1]
    omega
  | ⟨2, _⟩ =>
    show win0_2.index _ (2 : Fin 3) * 128 ≤ (i 2).val ∧ (i 2).val < win0_2.index _ (2 : Fin 3) * 128 + 128
    rw [e2]
    omega

/-- THE RESULT ARRAY after the region: the batched product of the two arrays as the region finds them,
    out[g] = a[g]·b[g] for every one of the 64 graphs. -/
theorem r0_bmm (c : Dev nD) : (dat0 (F := Ideal) V c).arrAt 2 cfg0.N = bmm (V c main_arg6) (V c main_arg3) :=
  (dat0 V c).arrAt_eq_of_cover 2 (bmm (V c main_arg6) (V c main_arg3)) (fun t _ => r0_flushed V c t) r0_cover

end Cert.KernelIdeal.Reg

end
-- ==== Proof.Reg.R1.lean ====
/-
  The edge message: two matrices of 262144 rows, each multiplied by its own 128 × 128 matrix, the products added to a
  bias row and the ramp applied, computed by tiles of 4096 rows: what the region leaves in its output array. The linear
  map and the ramp act on each row by itself, so the tiles together are the same map applied to the whole arrays.
-/
import proofs.«427658_j89163521065156_2_alg».proof.Proof.FrameKernelIdeal.Reg1
import proofs.«427658_j89163521065156_2_alg».proof.Proof.BlkMisc
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The grid and the index maps -/

/-- A whole-buffer access starts at offset zero on both axes. -/
private theorem zero_off1 : (![0, 0] : Fin 2 → Nat) = fun _ => 0 := funext fun a => by fin_cases a <;> rfl

/-- The grid has 64 points. -/
private theorem npts1 : cfg1.N = 64 := by decide
private theorem npoints1 (t : Fin cfg1.N) : t.val < 64 := lt_of_lt_of_eq t.isLt npts1

/-- The index maps over the grid. The two row arrays and the result move with the point: block (t, 0) at point t. -/
private theorem idx_maps1_0 : ∀ t : Fin cfg1.N,
    win1_0.index t (0 : Fin 2) = t.val ∧ win1_0.index t (1 : Fin 2) = 0 :=
  (by decide +kernel : ∀ t : Fin grid1.N, _)
private theorem idx_maps1_1 : ∀ t : Fin cfg1.N,
    win1_1.index t (0 : Fin 2) = t.val ∧ win1_1.index t (1 : Fin 2) = 0 :=
  (by decide +kernel : ∀ t : Fin grid1.N, _)
private theorem idx_maps1_5 : ∀ t : Fin cfg1.N,
    win1_5.index t (0 : Fin 2) = t.val ∧ win1_5.index t (1 : Fin 2) = 0 :=
  (by decide +kernel : ∀ t : Fin grid1.N, _)

/-- The two square matrices and the bias row are whole windows: block (0, 0) at every point. -/
private theorem idx_maps1_2 : ∀ t : Fin cfg1.N,
    win1_2.index t (0 : Fin 2) = 0 ∧ win1_2.index t (1 : Fin 2) = 0 :=
  (by decide +kernel : ∀ t : Fin grid1.N, _)
private theorem idx_maps1_3 : ∀ t : Fin cfg1.N,
    win1_3.index t (0 : Fin 2) = 0 ∧ win1_3.index t (1 : Fin 2) = 0 :=
  (by decide +kernel : ∀ t : Fin grid1.N, _)
private theorem idx_maps1_4 : ∀ t : Fin cfg1.N,
    win1_4.index t (0 : Fin 2) = 0 ∧ win1_4.index t (1 : Fin 2) = 0 :=
  (by decide +kernel : ∀ t : Fin grid1.N, _)

/-! ## The blocks at a point -/

/-- Block t of a 262144-row array read through a row-tiled window is the array's rows of tile t. -/
private theorem rows_blk1_0 (t : Fin cfg1.N) (G : S262144x128.Idx → EReal) :
    ((cfg1.win 0).blk t).view.read (Elt Ideal) G = selRows (tileRow 64 4096 rfl ⟨t.val, npoints1 t⟩) G := by
  have e := idx_maps1_0 t
  funext y
  show G (((cfg1.win 0).blk t).view.emb y) = G (ix2 ⟨t.val * 4096 + (y 0).val, _⟩ (y 1))
  refine congrArg G ?_
  funext a; apply Fin.ext
  match a with
  | ⟨0, _⟩ => show win1_0.index t (0 : Fin 2) * 4096 + 1 * (y 0).val = t.val * 4096 + (y 0).val; omega
  | ⟨1, _⟩ => show win1_0.index t (1 : Fin 2) * 128 + 1 * (y 1).val = (y 1).val; omega
private theorem rows_blk1_1 (t : Fin cfg1.N) (G : S262144x128.Idx → EReal) :
    ((cfg1.win 1).blk t).view.read (Elt Ideal) G = selRows (tileRow 64 4096 rfl ⟨t.val, npoints1 t⟩) G := by
  have e := idx_maps1_1 t
  funext y
  show G (((cfg1.win 1).blk t).view.emb y) = G (ix2 ⟨t.val * 4096 + (y 0).val, _⟩ (y 1))
  refine congrArg G ?_
  funext a; apply Fin.ext
  match a with
  | ⟨0, _⟩ => show win1_1.index t (0 : Fin 2) * 4096 + 1 * (y 0).val = t.val * 4096 + (y 0).val; omega
  | ⟨1, _⟩ => show win1_1.index t (1 : Fin 2) * 128 + 1 * (y 1).val = (y 1).val; omega
private theorem rows_blk1_5 (t : Fin cfg1.N) (G : S262144x128.Idx → EReal) :
    ((cfg1.win 5).blk t).view.read (Elt Ideal) G = selRows (tileRow 64 4096 rfl ⟨t.val, npoints1 t⟩) G := by
  have e := idx_maps1_5 t
  funext y
  show G (((cfg1.win 5).blk t).view.emb y) = G (ix2 ⟨t.val * 4096 + (y 0).val, _⟩ (y 1))
  refine congrArg G ?_
  funext a; apply Fin.ext
  match a with
  | ⟨0, _⟩ => show win1_5.index t (0 : Fin 2) * 4096 + 1 * (y 0).val = t.val * 4096 + (y 0).val; omega
  | ⟨1, _⟩ => show win1_5.index t (1 : Fin 2) * 128 + 1 * (y 1).val = (y 1).val; omega

/-- A square matrix, or the bias row, read through a whole window is the array itself, at every point. -/
private theorem whole_blk1_2 (t : Fin cfg1.N) (G : S128x128.Idx → EReal) :
    ((cfg1.win 2).blk t).view.read (Elt Ideal) G = G := by
  have e := idx_maps1_2 t
  funext y
  show G (((cfg1.win 2).blk t).view.emb y) = G y
  refine congrArg G ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega
private theorem whole_blk1_3 (t : Fin cfg1.N) (G : S128x128.Idx → EReal) :
    ((cfg1.win 3).blk t).view.read (Elt Ideal) G = G := by
  have e := idx_maps1_3 t
  funext y
  show G (((cfg1.win 3).blk t).view.emb y) = G y
  refine congrArg G ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega
private theorem whole_blk1_4 (t : Fin cfg1.N) (G : S1x128.Idx → EReal) :
    ((cfg1.win 4).blk t).view.read (Elt Ideal) G = G := by
  have e := idx_maps1_4 t
  funext y
  show G (((cfg1.win 4).blk t).view.emb y) = G y
  refine congrArg G ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## What a point writes back -/

/-- WHAT POINT t WRITES BACK is block t of the message of the whole arrays: the body computes the message of the rows
    of tile t, and taking rows commutes with the linear map and with the ramp. -/
private theorem wrote1 (c : Dev nD) (t : Fin cfg1.N) :
    (dat1 (F := Ideal) V c).flushed 5 t = ((cfg1.win 5).blk t).view.read (Elt Ideal)
      (relu (klin2 (V c main_v12 : S262144x128.Idx → EReal) (V c main_v13 : S128x128.Idx → EReal) (V c main_arg1 : S262144x128.Idx → EReal) (V c main_v14 : S128x128.Idx → EReal) (V c main_v15 : S1x128.Idx → EReal))) := by
  show (cfg1.win 5).cut (grid1.coords t) ((dat1 (F := Ideal) V c).after 5 t) = _
  rw [after1_5]
  unfold out1_5
  rw [View.canon_unit_zero zero_off1]
  simp only [View.ld_unit_zero (S := S4096x128) zero_off1, View.ld_unit_zero (S := S128x128) zero_off1,
    View.ld_unit_zero (S := S1x128) zero_off1]
  rw [Blk.k1_pay1_eq]
  rw [show iblk1 V c 0 t = selRows (tileRow 64 4096 rfl ⟨t.val, npoints1 t⟩) (V c main_v12 : S262144x128.Idx → EReal) from rows_blk1_0 t _,
    show iblk1 V c 1 t = selRows (tileRow 64 4096 rfl ⟨t.val, npoints1 t⟩) (V c main_arg1 : S262144x128.Idx → EReal) from rows_blk1_1 t _,
    show iblk1 V c 2 t = (V c main_v13 : S128x128.Idx → EReal) from whole_blk1_2 t _,
    show iblk1 V c 3 t = (V c main_v14 : S128x128.Idx → EReal) from whole_blk1_3 t _,
    show iblk1 V c 4 t = (V c main_v15 : S1x128.Idx → EReal) from whole_blk1_4 t _]
  exact ((rows_blk1_5 t _).trans ((selRows_relu _ _).trans (congrArg relu (selRows_klin2 _ _ _ _ _ _)))).symm

/-! ## The tiles fill the array -/

/-- An index of the array is in point t's block iff each coordinate is in the block's range on its axis. -/
private theorem mem_tile1 (t : Fin cfg1.N) (i : S262144x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole main_v16).slice (win1_5.rect t)).set ↔ _
  rw [View.set_slice_whole, Rect.mem_set_unit]
  exact Iff.rfl

/-- Row r lies in tile r / 4096, and every point writes its block back. -/
private theorem tiles_cover1 (i : S262144x128.Idx) :
    ∃ t : Fin cfg1.N, (cfg1.win 5).flush t = true ∧ i ∈ ((cfg1.win 5).blk t).view.set := by
  have hi0 : (i 0).val < 262144 := (i 0).isLt
  have hi1 : (i 1).val < 128 := (i 1).isLt
  obtain ⟨t, ht⟩ : ∃ t : Fin cfg1.N, t.val = (i 0).val / 4096 :=
    ⟨⟨(i 0).val / 4096, lt_of_lt_of_eq (show (i 0).val / 4096 < 64 by omega) npts1.symm⟩, rfl⟩
  obtain ⟨e0, e1⟩ := idx_maps1_5 t
  refine ⟨t, flush1_5 t, ?_⟩
  rw [mem_tile1]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-! ## The array after the region -/

/-- THE ARRAY the region leaves: the ramp of the bias plus the two products, row by row. -/
theorem r1_msg (c : Dev nD) :
    (dat1 (F := Ideal) V c).arrAt 5 cfg1.N
      = relu (klin2 (V c main_v12 : S262144x128.Idx → EReal) (V c main_v13 : S128x128.Idx → EReal) (V c main_arg1 : S262144x128.Idx → EReal) (V c main_v14 : S128x128.Idx → EReal) (V c main_v15 : S1x128.Idx → EReal)) :=
  (dat1 (F := Ideal) V c).arrAt_eq_of_cover 5 _ (fun t _ => wrote1 V c t) tiles_cover1

end Cert.KernelIdeal.Reg

end
-- ==== Proof.Reg.R14.lean ====
/-
  The pooling product of region 14, as one function of its two arrays. The region visits the 64 graphs eight at a
  time: at point t it reads graphs 8t … 8t + 7 of both stacks, multiplies them graph by graph, and writes the eight
  products back to graphs 8t … 8t + 7 of the result. The batched product acts on each graph by itself, so the eight
  products are graphs 8t … 8t + 7 of the product of the whole stacks; and every graph g lies in exactly the block of
  point g / 8. So the result array ends holding out[g] = a[g]·b[g] for all 64 graphs.
-/
import proofs.«427658_j89163521065156_2_alg».proof.Proof.FrameKernelIdeal.Reg14
import proofs.«427658_j89163521065156_2_alg».proof.Proof.BlkMisc
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe Idealize.SL.Sem

namespace Cert.KernelIdeal.Reg

variable (V : (c : Dev nD) → (b : Ref sig .tc) → Buf (Elt Ideal) ((c : Thread nD τ).loc b))

/-- The zero offsets of an access to a whole block. -/
private theorem zero3 : (![0, 0, 0] : Fin 3 → Nat) = fun _ => 0 := funext fun a => by fin_cases a <;> rfl

/-- Graphs f 0, f 1, … of a stack. -/
private def selGraphs {G B M K : Nat} (f : Fin B → Fin G) (a : Cube G M K) : Cube B M K :=
  fun y => a (ix3 (f (y 0)) (y 1) (y 2))

/-- Graphs 8n … 8n + 7 of a stack of 64. -/
private def tileGraphs (n : Nat) (hn : n < 8) : Fin 8 → Fin 64 := fun i => ⟨n * 8 + i.val, by have := i.isLt; omega⟩

/-- The batched product acts on each graph by itself: a selection of graphs of the product is the product of the
    selections. -/
private theorem selGraphs_bmm {G B M K N : Nat} (f : Fin B → Fin G) (a : Cube G M K) (b : Cube G K N) :
    selGraphs f (bmm a b) = bmm (selGraphs f a) (selGraphs f b) := by
  funext y
  rfl

/-- Each window moves along the graphs only: at point t its block starts at graph 8t, row 0, column 0. -/
theorem r14_index : ∀ t : Fin cfg14.N,
    win14_0.index t (0 : Fin 3) = t.val ∧ win14_0.index t (1 : Fin 3) = 0 ∧ win14_0.index t (2 : Fin 3) = 0
    ∧ win14_1.index t (0 : Fin 3) = t.val ∧ win14_1.index t (1 : Fin 3) = 0 ∧ win14_1.index t (2 : Fin 3) = 0
    ∧ win14_2.index t (0 : Fin 3) = t.val ∧ win14_2.index t (1 : Fin 3) = 0 ∧ win14_2.index t (2 : Fin 3) = 0 :=
  (by decide +kernel : ∀ t : Fin grid14.N, _)

/-- The left operand's block at point t is graphs 8t … 8t + 7 of its array. -/
theorem r14_read_a (t : Fin cfg14.N) (ht : t.val < 8) (X : S64x64x64.Idx → EReal) :
    ((cfg14.win 0).blk t).view.read (Elt Ideal) X = selGraphs (tileGraphs t.val ht) X := by
  obtain ⟨e0, e1, e2, -, -, -, -, -, -⟩ := r14_index t
  funext y
  show X (((cfg14.win 0).blk t).view.emb y) = X _
  refine congrArg X (funext fun a => Fin.ext ?_)
  match a with
  | ⟨0, _⟩ => show win14_0.index t (0 : Fin 3) * 8 + 1 * (y 0).val = t.val * 8 + (y 0).val; rw [e0]; omega
  | ⟨1, _⟩ => show win14_0.index t (1 : Fin 3) * 64 + 1 * (y 1).val = (y 1).val; rw [e1]; omega
  | ⟨2, _⟩ => show win14_0.index t (2 : Fin 3) * 64 + 1 * (y 2).val = (y 2).val; rw [e2]; omega

/-- The right operand's block at point t is graphs 8t … 8t + 7 of its array. -/
theorem r14_read_b (t : Fin cfg14.N) (ht : t.val < 8) (X : S64x64x128.Idx → EReal) :
    ((cfg14.win 1).blk t).view.read (Elt Ideal) X = selGraphs (tileGraphs t.val ht) X := by
  obtain ⟨-, -, -, e0, e1, e2, -, -, -⟩ := r14_index t
  funext y
  show X (((cfg14.win 1).blk t).view.emb y) = X _
  refine congrArg X (funext fun a => Fin.ext ?_)
  match a with
  | ⟨0, _⟩ => show win14_1.index t (0 : Fin 3) * 8 + 1 * (y 0).val = t.val * 8 + (y 0).val; rw [e0]; omega
  | ⟨1, _⟩ => show win14_1.index t (1 : Fin 3) * 64 + 1 * (y 1).val = (y 1).val; rw [e1]; omega
  | ⟨2, _⟩ => show win14_1.index t (2 : Fin 3) * 128 + 1 * (y 2).val = (y 2).val; rw [e2]; omega

/-- The result's block at point t is graphs 8t … 8t + 7 of its array. -/
theorem r14_read_out (t : Fin cfg14.N) (ht : t.val < 8) (X : S64x64x128.Idx → EReal) :
    ((cfg14.win 2).blk t).view.read (Elt Ideal) X = selGraphs (tileGraphs t.val ht) X := by
  obtain ⟨-, -, -, -, -, -, e0, e1, e2⟩ := r14_index t
  funext y
  show X (((cfg14.win 2).blk t).view.emb y) = X _
  refine congrArg X (funext fun a => Fin.ext ?_)
  match a with
  | ⟨0, _⟩ => show win14_2.index t (0 : Fin 3) * 8 + 1 * (y 0).val = t.val * 8 + (y 0).val; rw [e0]; omega
  | ⟨1, _⟩ => show win14_2.index t (1 : Fin 3) * 64 + 1 * (y 1).val = (y 1).val; rw [e1]; omega
  | ⟨2, _⟩ => show win14_2.index t (2 : Fin 3) * 128 + 1 * (y 2).val = (y 2).val; rw [e2]; omega

/-- What point t writes back is graphs 8t … 8t + 7 of the batched product of the two arrays. -/
theorem r14_flushed (c : Dev nD) (t : Fin cfg14.N) :
    (dat14 (F := Ideal) V c).flushed 2 t
      = ((cfg14.win 2).blk t).view.read (Elt Ideal) (bmm (V c main_arg5) (V c main_arg3)) := by
  have ht : t.val < 8 := lt_of_lt_of_eq t.isLt N_14
  show (cfg14.win 2).cut (grid14.coords t) ((dat14 V c).after 2 t) = _
  rw [after14_2]
  unfold out14_2
  rw [View.canon_unit_zero zero3]
  simp only [View.ld_unit_zero (S := S8x64x64) zero3, View.ld_unit_zero (S := S8x64x128) zero3]
  rw [Blk.k14_pay1_eq, r14_read_out t ht]
  unfold iblk14
  rw [r14_read_a t ht, r14_read_b t ht, selGraphs_bmm]
  rfl

/-- An entry of the result array is in point t's block iff each coordinate is in the block's range on its axis. -/
theorem r14_mem (t : Fin cfg14.N) (i : S64x64x128.Idx) :
    i ∈ ((cfg14.win 2).blk t).view.set ↔ ∀ a : Fin 3, win14_2.index t a * S8x64x128.size a ≤ (i a).val
      ∧ (i a).val < win14_2.index t a * S8x64x128.size a + S8x64x128.size a := by
  show i ∈ ((View.whole main_v172).slice (win14_2.rect t)).set ↔ _
  rw [View.set_slice_whole, Rect.mem_set_unit]
  exact Iff.rfl

/-- Every entry of the result array is written back by some point: graph g by point g / 8. -/
theorem r14_cover (i : S64x64x128.Idx) :
    ∃ t : Fin cfg14.N, (cfg14.win 2).flush t = true ∧ i ∈ ((cfg14.win 2).blk t).view.set := by
  have h0 : (i 0).val < 64 := (i 0).isLt
  have h1 : (i 1).val < 64 := (i 1).isLt
  have h2 : (i 2).val < 128 := (i 2).isLt
  have hN : cfg14.N = 8 := N_14
  refine ⟨⟨(i 0).val / 8, by rw [hN]; omega⟩, flush14_2 _, ?_⟩
  rw [r14_mem]
  obtain ⟨-, -, -, -, -, -, e0, e1, e2⟩ := r14_index ⟨(i 0).val / 8, by rw [hN]; omega⟩
  intro a
  match a with
  | ⟨0, _⟩ =>
    show win14_2.index _ (0 : Fin 3) * 8 ≤ (i 0).val ∧ (i 0).val < win14_2.index _ (0 : Fin 3) * 8 + 8
    rw [e0]
    show (i 0).val / 8 * 8 ≤ (i 0).val ∧ (i 0).val < (i 0).val / 8 * 8 + 8
    omega
  | ⟨1, _⟩ =>
    show win14_2.index _ (1 : Fin 3) * 64 ≤ (i 1).val ∧ (i 1).val < win14_2.index _ (1 : Fin 3) * 64 + 64
    rw [e1]
    omega
  | ⟨2, _⟩ =>
    show win14_2.index _ (2 : Fin 3) * 128 ≤ (i 2).val ∧ (i 2).val < win14_2.index _ (2 : Fin 3) * 128 + 128
    rw [e2]
    omega

/-- THE RESULT ARRAY after the region: the batched product of the two arrays as the region finds them,
    out[g] = a[g]·b[g] for every one of the 64 graphs. -/
theorem r14_bmm (c : Dev nD) : (dat14 (F := Ideal) V c).arrAt 2 cfg14.N = bmm (V c main_arg5) (V c main_arg3) :=
  (dat14 V c).arrAt_eq_of_cover 2 (bmm (V c main_arg5) (V c main_arg3)) (fun t _ => r14_flushed V c t) r14_cover

end Cert.KernelIdeal.Reg

end
-- ==== Proof.Reg.R15.lean ====
/-
  The pooling product of region 15, as one function of its two arrays. The region visits the 64 graphs eight at a
  time: at point t it reads graphs 8t … 8t + 7 of both stacks, multiplies them graph by graph, and writes the eight
  products back to graphs 8t … 8t + 7 of the result. The batched product acts on each graph by itself, so the eight
  products are graphs 8t … 8t + 7 of the product of the whole stacks; and every graph g lies in exactly the block of
  point g / 8. So the result array ends holding out[g] = a[g]·b[g] for all 64 graphs.
-/
import proofs.«427658_j89163521065156_2_alg».proof.Proof.FrameKernelIdeal.Reg15
import proofs.«427658_j89163521065156_2_alg».proof.Proof.BlkMisc
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe Idealize.SL.Sem

namespace Cert.KernelIdeal.Reg

variable (V : (c : Dev nD) → (b : Ref sig .tc) → Buf (Elt Ideal) ((c : Thread nD τ).loc b))

/-- The zero offsets of an access to a whole block. -/
private theorem zero3 : (![0, 0, 0] : Fin 3 → Nat) = fun _ => 0 := funext fun a => by fin_cases a <;> rfl

/-- Graphs f 0, f 1, … of a stack. -/
private def selGraphs {G B M K : Nat} (f : Fin B → Fin G) (a : Cube G M K) : Cube B M K :=
  fun y => a (ix3 (f (y 0)) (y 1) (y 2))

/-- Graphs 8n … 8n + 7 of a stack of 64. -/
private def tileGraphs (n : Nat) (hn : n < 8) : Fin 8 → Fin 64 := fun i => ⟨n * 8 + i.val, by have := i.isLt; omega⟩

/-- The batched product acts on each graph by itself: a selection of graphs of the product is the product of the
    selections. -/
private theorem selGraphs_bmm {G B M K N : Nat} (f : Fin B → Fin G) (a : Cube G M K) (b : Cube G K N) :
    selGraphs f (bmm a b) = bmm (selGraphs f a) (selGraphs f b) := by
  funext y
  rfl

/-- Each window moves along the graphs only: at point t its block starts at graph 8t, row 0, column 0. -/
theorem r15_index : ∀ t : Fin cfg15.N,
    win15_0.index t (0 : Fin 3) = t.val ∧ win15_0.index t (1 : Fin 3) = 0 ∧ win15_0.index t (2 : Fin 3) = 0
    ∧ win15_1.index t (0 : Fin 3) = t.val ∧ win15_1.index t (1 : Fin 3) = 0 ∧ win15_1.index t (2 : Fin 3) = 0
    ∧ win15_2.index t (0 : Fin 3) = t.val ∧ win15_2.index t (1 : Fin 3) = 0 ∧ win15_2.index t (2 : Fin 3) = 0 :=
  (by decide +kernel : ∀ t : Fin grid15.N, _)

/-- The left operand's block at point t is graphs 8t … 8t + 7 of its array. -/
theorem r15_read_a (t : Fin cfg15.N) (ht : t.val < 8) (X : S64x64x8.Idx → EReal) :
    ((cfg15.win 0).blk t).view.read (Elt Ideal) X = selGraphs (tileGraphs t.val ht) X := by
  obtain ⟨e0, e1, e2, -, -, -, -, -, -⟩ := r15_index t
  funext y
  show X (((cfg15.win 0).blk t).view.emb y) = X _
  refine congrArg X (funext fun a => Fin.ext ?_)
  match a with
  | ⟨0, _⟩ => show win15_0.index t (0 : Fin 3) * 8 + 1 * (y 0).val = t.val * 8 + (y 0).val; rw [e0]; omega
  | ⟨1, _⟩ => show win15_0.index t (1 : Fin 3) * 64 + 1 * (y 1).val = (y 1).val; rw [e1]; omega
  | ⟨2, _⟩ => show win15_0.index t (2 : Fin 3) * 8 + 1 * (y 2).val = (y 2).val; rw [e2]; omega

/-- The right operand's block at point t is graphs 8t … 8t + 7 of its array. -/
theorem r15_read_b (t : Fin cfg15.N) (ht : t.val < 8) (X : S64x8x128.Idx → EReal) :
    ((cfg15.win 1).blk t).view.read (Elt Ideal) X = selGraphs (tileGraphs t.val ht) X := by
  obtain ⟨-, -, -, e0, e1, e2, -, -, -⟩ := r15_index t
  funext y
  show X (((cfg15.win 1).blk t).view.emb y) = X _
  refine congrArg X (funext fun a => Fin.ext ?_)
  match a with
  | ⟨0, _⟩ => show win15_1.index t (0 : Fin 3) * 8 + 1 * (y 0).val = t.val * 8 + (y 0).val; rw [e0]; omega
  | ⟨1, _⟩ => show win15_1.index t (1 : Fin 3) * 8 + 1 * (y 1).val = (y 1).val; rw [e1]; omega
  | ⟨2, _⟩ => show win15_1.index t (2 : Fin 3) * 128 + 1 * (y 2).val = (y 2).val; rw [e2]; omega

/-- The result's block at point t is graphs 8t … 8t + 7 of its array. -/
theorem r15_read_out (t : Fin cfg15.N) (ht : t.val < 8) (X : S64x64x128.Idx → EReal) :
    ((cfg15.win 2).blk t).view.read (Elt Ideal) X = selGraphs (tileGraphs t.val ht) X := by
  obtain ⟨-, -, -, -, -, -, e0, e1, e2⟩ := r15_index t
  funext y
  show X (((cfg15.win 2).blk t).view.emb y) = X _
  refine congrArg X (funext fun a => Fin.ext ?_)
  match a with
  | ⟨0, _⟩ => show win15_2.index t (0 : Fin 3) * 8 + 1 * (y 0).val = t.val * 8 + (y 0).val; rw [e0]; omega
  | ⟨1, _⟩ => show win15_2.index t (1 : Fin 3) * 64 + 1 * (y 1).val = (y 1).val; rw [e1]; omega
  | ⟨2, _⟩ => show win15_2.index t (2 : Fin 3) * 128 + 1 * (y 2).val = (y 2).val; rw [e2]; omega

/-- What point t writes back is graphs 8t … 8t + 7 of the batched product of the two arrays. -/
theorem r15_flushed (c : Dev nD) (t : Fin cfg15.N) :
    (dat15 (F := Ideal) V c).flushed 2 t
      = ((cfg15.win 2).blk t).view.read (Elt Ideal) (bmm (V c main_arg7) (V c main_arg4)) := by
  have ht : t.val < 8 := lt_of_lt_of_eq t.isLt N_15
  show (cfg15.win 2).cut (grid15.coords t) ((dat15 V c).after 2 t) = _
  rw [after15_2]
  unfold out15_2
  rw [View.canon_unit_zero zero3]
  simp only [View.ld_unit_zero (S := S8x64x8) zero3, View.ld_unit_zero (S := S8x8x128) zero3]
  rw [Blk.k15_pay1_eq, r15_read_out t ht]
  unfold iblk15
  rw [r15_read_a t ht, r15_read_b t ht, selGraphs_bmm]
  rfl

/-- An entry of the result array is in point t's block iff each coordinate is in the block's range on its axis. -/
theorem r15_mem (t : Fin cfg15.N) (i : S64x64x128.Idx) :
    i ∈ ((cfg15.win 2).blk t).view.set ↔ ∀ a : Fin 3, win15_2.index t a * S8x64x128.size a ≤ (i a).val
      ∧ (i a).val < win15_2.index t a * S8x64x128.size a + S8x64x128.size a := by
  show i ∈ ((View.whole main_v174).slice (win15_2.rect t)).set ↔ _
  rw [View.set_slice_whole, Rect.mem_set_unit]
  exact Iff.rfl

/-- Every entry of the result array is written back by some point: graph g by point g / 8. -/
theorem r15_cover (i : S64x64x128.Idx) :
    ∃ t : Fin cfg15.N, (cfg15.win 2).flush t = true ∧ i ∈ ((cfg15.win 2).blk t).view.set := by
  have h0 : (i 0).val < 64 := (i 0).isLt
  have h1 : (i 1).val < 64 := (i 1).isLt
  have h2 : (i 2).val < 128 := (i 2).isLt
  have hN : cfg15.N = 8 := N_15
  refine ⟨⟨(i 0).val / 8, by rw [hN]; omega⟩, flush15_2 _, ?_⟩
  rw [r15_mem]
  obtain ⟨-, -, -, -, -, -, e0, e1, e2⟩ := r15_index ⟨(i 0).val / 8, by rw [hN]; omega⟩
  intro a
  match a with
  | ⟨0, _⟩ =>
    show win15_2.index _ (0 : Fin 3) * 8 ≤ (i 0).val ∧ (i 0).val < win15_2.index _ (0 : Fin 3) * 8 + 8
    rw [e0]
    show (i 0).val / 8 * 8 ≤ (i 0).val ∧ (i 0).val < (i 0).val / 8 * 8 + 8
    omega
  | ⟨1, _⟩ =>
    show win15_2.index _ (1 : Fin 3) * 64 ≤ (i 1).val ∧ (i 1).val < win15_2.index _ (1 : Fin 3) * 64 + 64
    rw [e1]
    omega
  | ⟨2, _⟩ =>
    show win15_2.index _ (2 : Fin 3) * 128 ≤ (i 2).val ∧ (i 2).val < win15_2.index _ (2 : Fin 3) * 128 + 128
    rw [e2]
    omega

/-- THE RESULT ARRAY after the region: the batched product of the two arrays as the region finds them,
    out[g] = a[g]·b[g] for every one of the 64 graphs. -/
theorem r15_bmm (c : Dev nD) : (dat15 (F := Ideal) V c).arrAt 2 cfg15.N = bmm (V c main_arg7) (V c main_arg4) :=
  (dat15 V c).arrAt_eq_of_cover 2 (bmm (V c main_arg7) (V c main_arg4)) (fun t _ => r15_flushed V c t) r15_cover

end Cert.KernelIdeal.Reg

end
-- ==== Proof.Reg.R16.lean ====
/-
  The pooling product of region 16, as one function of its two arrays. The region visits the 64 graphs eight at a
  time: at point t it reads graphs 8t … 8t + 7 of both stacks, multiplies them graph by graph, and writes the eight
  products back to graphs 8t … 8t + 7 of the result. The batched product acts on each graph by itself, so the eight
  products are graphs 8t … 8t + 7 of the product of the whole stacks; and every graph g lies in exactly the block of
  point g / 8. So the result array ends holding out[g] = a[g]·b[g] for all 64 graphs.
-/
import proofs.«427658_j89163521065156_2_alg».proof.Proof.FrameKernelIdeal.Reg16
import proofs.«427658_j89163521065156_2_alg».proof.Proof.BlkMisc
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe Idealize.SL.Sem

namespace Cert.KernelIdeal.Reg

variable (V : (c : Dev nD) → (b : Ref sig .tc) → Buf (Elt Ideal) ((c : Thread nD τ).loc b))

/-- The zero offsets of an access to a whole block. -/
private theorem zero3 : (![0, 0, 0] : Fin 3 → Nat) = fun _ => 0 := funext fun a => by fin_cases a <;> rfl

/-- Graphs f 0, f 1, … of a stack. -/
private def selGraphs {G B M K : Nat} (f : Fin B → Fin G) (a : Cube G M K) : Cube B M K :=
  fun y => a (ix3 (f (y 0)) (y 1) (y 2))

/-- Graphs 8n … 8n + 7 of a stack of 64. -/
private def tileGraphs (n : Nat) (hn : n < 8) : Fin 8 → Fin 64 := fun i => ⟨n * 8 + i.val, by have := i.isLt; omega⟩

/-- The batched product acts on each graph by itself: a selection of graphs of the product is the product of the
    selections. -/
private theorem selGraphs_bmm {G B M K N : Nat} (f : Fin B → Fin G) (a : Cube G M K) (b : Cube G K N) :
    selGraphs f (bmm a b) = bmm (selGraphs f a) (selGraphs f b) := by
  funext y
  rfl

/-- Each window moves along the graphs only: at point t its block starts at graph 8t, row 0, column 0. -/
theorem r16_index : ∀ t : Fin cfg16.N,
    win16_0.index t (0 : Fin 3) = t.val ∧ win16_0.index t (1 : Fin 3) = 0 ∧ win16_0.index t (2 : Fin 3) = 0
    ∧ win16_1.index t (0 : Fin 3) = t.val ∧ win16_1.index t (1 : Fin 3) = 0 ∧ win16_1.index t (2 : Fin 3) = 0
    ∧ win16_2.index t (0 : Fin 3) = t.val ∧ win16_2.index t (1 : Fin 3) = 0 ∧ win16_2.index t (2 : Fin 3) = 0 :=
  (by decide +kernel : ∀ t : Fin grid16.N, _)

/-- The left operand's block at point t is graphs 8t … 8t + 7 of its array. -/
theorem r16_read_a (t : Fin cfg16.N) (ht : t.val < 8) (X : S64x64x256.Idx → EReal) :
    ((cfg16.win 0).blk t).view.read (Elt Ideal) X = selGraphs (tileGraphs t.val ht) X := by
  obtain ⟨e0, e1, e2, -, -, -, -, -, -⟩ := r16_index t
  funext y
  show X (((cfg16.win 0).blk t).view.emb y) = X _
  refine congrArg X (funext fun a => Fin.ext ?_)
  match a with
  | ⟨0, _⟩ => show win16_0.index t (0 : Fin 3) * 8 + 1 * (y 0).val = t.val * 8 + (y 0).val; rw [e0]; omega
  | ⟨1, _⟩ => show win16_0.index t (1 : Fin 3) * 64 + 1 * (y 1).val = (y 1).val; rw [e1]; omega
  | ⟨2, _⟩ => show win16_0.index t (2 : Fin 3) * 256 + 1 * (y 2).val = (y 2).val; rw [e2]; omega

/-- The right operand's block at point t is graphs 8t … 8t + 7 of its array. -/
theorem r16_read_b (t : Fin cfg16.N) (ht : t.val < 8) (X : S64x256x128.Idx → EReal) :
    ((cfg16.win 1).blk t).view.read (Elt Ideal) X = selGraphs (tileGraphs t.val ht) X := by
  obtain ⟨-, -, -, e0, e1, e2, -, -, -⟩ := r16_index t
  funext y
  show X (((cfg16.win 1).blk t).view.emb y) = X _
  refine congrArg X (funext fun a => Fin.ext ?_)
  match a with
  | ⟨0, _⟩ => show win16_1.index t (0 : Fin 3) * 8 + 1 * (y 0).val = t.val * 8 + (y 0).val; rw [e0]; omega
  | ⟨1, _⟩ => show win16_1.index t (1 : Fin 3) * 256 + 1 * (y 1).val = (y 1).val; rw [e1]; omega
  | ⟨2, _⟩ => show win16_1.index t (2 : Fin 3) * 128 + 1 * (y 2).val = (y 2).val; rw [e2]; omega

/-- The result's block at point t is graphs 8t … 8t + 7 of its array. -/
theorem r16_read_out (t : Fin cfg16.N) (ht : t.val < 8) (X : S64x64x128.Idx → EReal) :
    ((cfg16.win 2).blk t).view.read (Elt Ideal) X = selGraphs (tileGraphs t.val ht) X := by
  obtain ⟨-, -, -, -, -, -, e0, e1, e2⟩ := r16_index t
  funext y
  show X (((cfg16.win 2).blk t).view.emb y) = X _
  refine congrArg X (funext fun a => Fin.ext ?_)
  match a with
  | ⟨0, _⟩ => show win16_2.index t (0 : Fin 3) * 8 + 1 * (y 0).val = t.val * 8 + (y 0).val; rw [e0]; omega
  | ⟨1, _⟩ => show win16_2.index t (1 : Fin 3) * 64 + 1 * (y 1).val = (y 1).val; rw [e1]; omega
  | ⟨2, _⟩ => show win16_2.index t (2 : Fin 3) * 128 + 1 * (y 2).val = (y 2).val; rw [e2]; omega

/-- What point t writes back is graphs 8t … 8t + 7 of the batched product of the two arrays. -/
theorem r16_flushed (c : Dev nD) (t : Fin cfg16.N) :
    (dat16 (F := Ideal) V c).flushed 2 t
      = ((cfg16.win 2).blk t).view.read (Elt Ideal) (bmm (V c main_arg8) (V c main_v171)) := by
  have ht : t.val < 8 := lt_of_lt_of_eq t.isLt N_16
  show (cfg16.win 2).cut (grid16.coords t) ((dat16 V c).after 2 t) = _
  rw [after16_2]
  unfold out16_2
  rw [View.canon_unit_zero zero3]
  simp only [View.ld_unit_zero (S := S8x64x256) zero3, View.ld_unit_zero (S := S8x256x128) zero3]
  rw [Blk.k16_pay1_eq, r16_read_out t ht]
  unfold iblk16
  rw [r16_read_a t ht, r16_read_b t ht, selGraphs_bmm]
  rfl

/-- An entry of the result array is in point t's block iff each coordinate is in the block's range on its axis. -/
theorem r16_mem (t : Fin cfg16.N) (i : S64x64x128.Idx) :
    i ∈ ((cfg16.win 2).blk t).view.set ↔ ∀ a : Fin 3, win16_2.index t a * S8x64x128.size a ≤ (i a).val
      ∧ (i a).val < win16_2.index t a * S8x64x128.size a + S8x64x128.size a := by
  show i ∈ ((View.whole main_v176).slice (win16_2.rect t)).set ↔ _
  rw [View.set_slice_whole, Rect.mem_set_unit]
  exact Iff.rfl

/-- Every entry of the result array is written back by some point: graph g by point g / 8. -/
theorem r16_cover (i : S64x64x128.Idx) :
    ∃ t : Fin cfg16.N, (cfg16.win 2).flush t = true ∧ i ∈ ((cfg16.win 2).blk t).view.set := by
  have h0 : (i 0).val < 64 := (i 0).isLt
  have h1 : (i 1).val < 64 := (i 1).isLt
  have h2 : (i 2).val < 128 := (i 2).isLt
  have hN : cfg16.N = 8 := N_16
  refine ⟨⟨(i 0).val / 8, by rw [hN]; omega⟩, flush16_2 _, ?_⟩
  rw [r16_mem]
  obtain ⟨-, -, -, -, -, -, e0, e1, e2⟩ := r16_index ⟨(i 0).val / 8, by rw [hN]; omega⟩
  intro a
  match a with
  | ⟨0, _⟩ =>
    show win16_2.index _ (0 : Fin 3) * 8 ≤ (i 0).val ∧ (i 0).val < win16_2.index _ (0 : Fin 3) * 8 + 8
    rw [e0]
    show (i 0).val / 8 * 8 ≤ (i 0).val ∧ (i 0).val < (i 0).val / 8 * 8 + 8
    omega
  | ⟨1, _⟩ =>
    show win16_2.index _ (1 : Fin 3) * 64 ≤ (i 1).val ∧ (i 1).val < win16_2.index _ (1 : Fin 3) * 64 + 64
    rw [e1]
    omega
  | ⟨2, _⟩ =>
    show win16_2.index _ (2 : Fin 3) * 128 ≤ (i 2).val ∧ (i 2).val < win16_2.index _ (2 : Fin 3) * 128 + 128
    rw [e2]
    omega

/-- THE RESULT ARRAY after the region: the batched product of the two arrays as the region finds them,
    out[g] = a[g]·b[g] for every one of the 64 graphs. -/
theorem r16_bmm (c : Dev nD) : (dat16 (F := Ideal) V c).arrAt 2 cfg16.N = bmm (V c main_arg8) (V c main_v171) :=
  (dat16 V c).arrAt_eq_of_cover 2 (bmm (V c main_arg8) (V c main_v171)) (fun t _ => r16_flushed V c t) r16_cover

end Cert.KernelIdeal.Reg

end
-- ==== Proof.KChainC.lean ====
/-
  The kernel program computes the layer — the edge list's rows, the pooled products, the gathers, the edge messages and their scatter-added sums: each named intermediate value is the corresponding value of the
  specification's network at the inputs read off the launch memory; the per-tile partial sums are the tile sums of that value, their totals
  its column sums, and, the inputs being real, each normalisation from those raw moments is the centred one.
-/
import proofs.«427658_j89163521065156_2_alg».proof.Proof.KVal
import proofs.«427658_j89163521065156_2_alg».proof.Proof.KInp
import proofs.«427658_j89163521065156_2_alg».proof.Proof.SpecNetReal
import proofs.«427658_j89163521065156_2_alg».proof.Proof.SpecSums
import proofs.«427658_j89163521065156_2_alg».proof.Proof.SpecVar
import proofs.«427658_j89163521065156_2_alg».proof.Proof.Reg.R0
import proofs.«427658_j89163521065156_2_alg».proof.Proof.Reg.R1
import proofs.«427658_j89163521065156_2_alg».proof.Proof.Reg.R14
import proofs.«427658_j89163521065156_2_alg».proof.Proof.Reg.R15
import proofs.«427658_j89163521065156_2_alg».proof.Proof.Reg.R16

set_option maxRecDepth 16384

noncomputable section

open Idealize.ShloMosaic Idealize.ShloMosaic.ValueIdx Idealize.ShloMosaic.TcCoe Idealize.SL.Sem
open Cert.KernelIdeal Cert.KernelIdeal.Gen Cert.KernelIdeal.KLaw Cert.Spec

namespace Cert.KernelIdeal.KChain

variable (m : (ℓ : Loc nD τ sig) → Buf (Elt Ideal) ℓ) (ρ : Dev nD → PrngReg)

open Cert.KernelIdeal.KVal

theorem v1_net (c : Dev nD) : v1 (F := Ideal) m ρ c = srcIdx m c := by
  exact (v1_eq m ρ c).trans rfl
theorem v3_net (c : Dev nD) : v3 (F := Ideal) m ρ c = dstIdx m c := by
  exact (v3_eq m ρ c).trans rfl
theorem v4_net (c : Dev nD) : v4 (F := Ideal) m ρ c = bmm (inp m c).nc1 (inp m c).attr1 := by
  show W2 m ρ c (Proc.devRef .tc main_v4) = _
  refine (W2_arr m ρ c 2).trans ?_
  rw [Reg.r0_bmm (V1 m ρ) c]
  rw [show V1 m ρ c main_arg6 = m ((c : Thread nD τ).loc main_arg6) from arg6_at1 m ρ c,
    show V1 m ρ c main_arg3 = m ((c : Thread nD τ).loc main_arg3) from arg3_at1 m ρ c]
  rfl
theorem v5_net (c : Dev nD) : v5 (F := Ideal) m ρ c = Net.up (inp m c) := by
  rw [v5_eq, flat16384_eq, v4_net]
  rfl
theorem v12_net (c : Dev nD) : v12 (F := Ideal) m ρ c = Net.xsrc (inp m c) := by
  rw [v12_eq, gather_eq, v1_net]
  rfl
theorem v13_net (c : Dev nD) : v13 (F := Ideal) m ρ c = rowsFrom (N := 256) (K := 128) 0 (by omega) (inp m c).msgW := by
  rw [v13_eq, rows256_0_eq]
  rfl
theorem v14_net (c : Dev nD) : v14 (F := Ideal) m ρ c = rowsFrom (N := 256) (K := 128) 128 (by omega) (inp m c).msgW := by
  rw [v14_eq, rows256_1_eq]
  rfl
theorem v15_net (c : Dev nD) : v15 (F := Ideal) m ρ c = asRow (inp m c).msgb := by
  rw [v15_eq, asRow_eq]
  rfl
theorem v16_net (c : Dev nD) : v16 (F := Ideal) m ρ c = Net.msg (inp m c) := by
  show W4 m ρ c (Proc.devRef .tc main_v16) = _
  refine (W4_arr m ρ c 5).trans ?_
  rw [Reg.r1_msg (V3 m ρ) c]
  rw [show V3 m ρ c main_v12 = v12 m ρ c from v12_at3 m ρ c,
    show V3 m ρ c main_v13 = v13 m ρ c from v13_at3 m ρ c,
    show V3 m ρ c main_arg1 = m ((c : Thread nD τ).loc main_arg1) from arg1_at3 m ρ c,
    show V3 m ρ c main_v14 = v14 m ρ c from v14_at3 m ρ c,
    show V3 m ρ c main_v15 = v15 m ρ c from v15_at3 m ρ c]
  rw [v12_net, v13_net, v14_net, v15_net]
  -- the message is the ramp of the product of the two blocks side by side against the whole weight: split it at row 128
  unfold Net.msg Net.msgPre
  rw [lin_hcat2]
  rfl
theorem v19_net (c : Dev nD) : v19 (F := Ideal) m ρ c = Net.agg (inp m c) := by
  rw [v19_eq, scatter_eq, v3_net, v16_net]
  rfl
theorem v91_net (c : Dev nD) : v91 (F := Ideal) m ρ c = Net.xdst (inp m c) := by
  rw [v91_eq, gather_eq, v3_net]
  rfl
theorem v98_net (c : Dev nD) : v98 (F := Ideal) m ρ c = Net.upsrc (inp m c) := by
  rw [v98_eq, gather_eq, v5_net, v1_net]
  rfl
theorem v105_net (c : Dev nD) : v105 (F := Ideal) m ρ c = Net.updst (inp m c) := by
  rw [v105_eq, gather_eq, v5_net, v3_net]
  rfl
theorem v171_net (c : Dev nD) : v171 (F := Ideal) m ρ c = unflat (G := 64) (M := 256) rfl (inp m c).x := by
  rw [v171_eq, unflat16384_eq]
  rfl
theorem v172_net (c : Dev nD) : v172 (F := Ideal) m ρ c = bmm (inp m c).adj1 (inp m c).attr1 := by
  show W30 m ρ c (Proc.devRef .tc main_v172) = _
  refine (W30_arr m ρ c 2).trans ?_
  rw [Reg.r14_bmm (V29 m ρ) c]
  rw [show V29 m ρ c main_arg5 = m ((c : Thread nD τ).loc main_arg5) from arg5_at29 m ρ c,
    show V29 m ρ c main_arg3 = m ((c : Thread nD τ).loc main_arg3) from arg3_at29 m ρ c]
  rfl
theorem v173_net (c : Dev nD) : v173 (F := Ideal) m ρ c = flat (G := 64) (M := 64) rfl (bmm (inp m c).adj1 (inp m c).attr1) := by
  rw [v173_eq, flat4096_eq, v172_net]
theorem v174_net (c : Dev nD) : v174 (F := Ideal) m ρ c = bmm (inp m c).nc2 (inp m c).attr2 := by
  show W32 m ρ c (Proc.devRef .tc main_v174) = _
  refine (W32_arr m ρ c 2).trans ?_
  rw [Reg.r15_bmm (V31 m ρ) c]
  rw [show V31 m ρ c main_arg7 = m ((c : Thread nD τ).loc main_arg7) from arg7_at31 m ρ c,
    show V31 m ρ c main_arg4 = m ((c : Thread nD τ).loc main_arg4) from arg4_at31 m ρ c]
  rfl
theorem v175_net (c : Dev nD) : v175 (F := Ideal) m ρ c = flat (G := 64) (M := 64) rfl (bmm (inp m c).nc2 (inp m c).attr2) := by
  rw [v175_eq, flat4096_eq, v174_net]
theorem v176_net (c : Dev nD) : v176 (F := Ideal) m ρ c = bmm (inp m c).cn1 (unflat (G := 64) (M := 256) rfl (inp m c).x) := by
  show W34 m ρ c (Proc.devRef .tc main_v176) = _
  refine (W34_arr m ρ c 2).trans ?_
  rw [Reg.r16_bmm (V33 m ρ) c]
  rw [show V33 m ρ c main_arg8 = m ((c : Thread nD τ).loc main_arg8) from arg8_at33 m ρ c,
    show V33 m ρ c main_v171 = v171 m ρ c from v171_at33 m ρ c]
  rw [v171_net]
  rfl
theorem v177_net (c : Dev nD) : v177 (F := Ideal) m ρ c = flat (G := 64) (M := 64) rfl (bmm (inp m c).cn1 (unflat (G := 64) (M := 256) rfl (inp m c).x)) := by
  rw [v177_eq, flat4096_eq, v176_net]
theorem v178_net (c : Dev nD) : v178 (F := Ideal) m ρ c = flat (G := 64) (M := 64) rfl (inp m c).attr1 := by
  rw [v178_eq, flat4096_eq]
  rfl

end Cert.KernelIdeal.KChain

end
-- ==== Proof.KChainN.lean ====
/-
  The kernel program computes the layer — the node branch: each named intermediate value is the corresponding value of the
  specification's network at the inputs read off the launch memory; the per-tile partial sums are the tile sums of that value, their totals
  its column sums, and, the inputs being real, each normalisation from those raw moments is the centred one.
-/
import proofs.«427658_j89163521065156_2_alg».proof.Proof.KVal
import proofs.«427658_j89163521065156_2_alg».proof.Proof.KInp
import proofs.«427658_j89163521065156_2_alg».proof.Proof.SpecNetReal
import proofs.«427658_j89163521065156_2_alg».proof.Proof.SpecSums
import proofs.«427658_j89163521065156_2_alg».proof.Proof.SpecVar
import proofs.«427658_j89163521065156_2_alg».proof.Proof.Reg.R2
import proofs.«427658_j89163521065156_2_alg».proof.Proof.Reg.R3
import proofs.«427658_j89163521065156_2_alg».proof.Proof.Reg.R4
import proofs.«427658_j89163521065156_2_alg».proof.Proof.Reg.R5
import proofs.«427658_j89163521065156_2_alg».proof.Proof.Reg.R6
import proofs.«427658_j89163521065156_2_alg».proof.Proof.Reg.R7
import proofs.«427658_j89163521065156_2_alg».proof.Proof.KChainC

set_option maxRecDepth 16384

noncomputable section

open Idealize.ShloMosaic Idealize.ShloMosaic.ValueIdx Idealize.ShloMosaic.TcCoe Idealize.SL.Sem
open Cert.KernelIdeal Cert.KernelIdeal.Gen Cert.KernelIdeal.KLaw Cert.Spec

namespace Cert.KernelIdeal.KChain

variable (m : (ℓ : Loc nD τ sig) → Buf (Elt Ideal) ℓ) (ρ : Dev nD → PrngReg)

open Cert.KernelIdeal.KVal

theorem v21_net (c : Dev nD) : v21 (F := Ideal) m ρ c = (inp m c).W1 0 := by
  rw [v21_eq]
  rfl
theorem v32_net (c : Dev nD) : v32 (F := Ideal) m ρ c = asRow ((inp m c).b1 0) := by
  rw [v32_eq]
  exact asRow_eq _
theorem v25_net (c : Dev nD) : v25 (F := Ideal) m ρ c = (inp m c).g1 0 := by
  rw [v25_eq]
  rfl
theorem v27_net (c : Dev nD) : v27 (F := Ideal) m ρ c = (inp m c).be1 0 := by
  rw [v27_eq]
  rfl
theorem v29_net (c : Dev nD) : v29 (F := Ideal) m ρ c = (inp m c).W2 0 := by
  rw [v29_eq]
  rfl
theorem v31_net (c : Dev nD) : v31 (F := Ideal) m ρ c = (inp m c).b2 0 := by
  rw [v31_eq]
  rfl
theorem v33_0_net (c : Dev nD) : v33_0 (F := Ideal) m ρ c = Net.z1N (inp m c) 0 (Net.inN0 (inp m c)) := by
  show W6 m ρ c (Proc.devRef .tc main_v33_0) = _
  refine (W6_arr m ρ c 4).trans ((Reg.r2_lin (V5 m ρ) c).trans ?_)
  rw [show V5 m ρ c main_v19 = v19 m ρ c from v19_at5 m ρ c,
      show V5 m ρ c main_arg0 = m ((c : Thread nD τ).loc main_arg0) from arg0_at5 m ρ c,
      show V5 m ρ c main_v21 = v21 m ρ c from v21_at5 m ρ c,
      show V5 m ρ c main_v32 = v32 m ρ c from v32_at5 m ρ c]
  rw [v19_net, v21_net, v32_net, klin_eq_lin]
  rfl
theorem v33_1_net (c : Dev nD) : v33_1 (F := Ideal) m ρ c = tilesum 4 4096 rfl (Net.z1N (inp m c) 0 (Net.inN0 (inp m c))) := by
  show W6 m ρ c (Proc.devRef .tc main_v33_1) = _
  refine (W6_arr m ρ c 5).trans ((Reg.r2_psum (V5 m ρ) c).trans ?_)
  rw [show V5 m ρ c main_v19 = v19 m ρ c from v19_at5 m ρ c,
      show V5 m ρ c main_arg0 = m ((c : Thread nD τ).loc main_arg0) from arg0_at5 m ρ c,
      show V5 m ρ c main_v21 = v21 m ρ c from v21_at5 m ρ c,
      show V5 m ρ c main_v32 = v32 m ρ c from v32_at5 m ρ c]
  rw [v19_net, v21_net, v32_net, klin_eq_lin]
  rfl
theorem v33_2_net (c : Dev nD) : v33_2 (F := Ideal) m ρ c = tilesumsq 4 4096 rfl (Net.z1N (inp m c) 0 (Net.inN0 (inp m c))) := by
  show W6 m ρ c (Proc.devRef .tc main_v33_2) = _
  refine (W6_arr m ρ c 6).trans ((Reg.r2_psumsq (V5 m ρ) c).trans ?_)
  rw [show V5 m ρ c main_v19 = v19 m ρ c from v19_at5 m ρ c,
      show V5 m ρ c main_arg0 = m ((c : Thread nD τ).loc main_arg0) from arg0_at5 m ρ c,
      show V5 m ρ c main_v21 = v21 m ρ c from v21_at5 m ρ c,
      show V5 m ρ c main_v32 = v32 m ρ c from v32_at5 m ρ c]
  rw [v19_net, v21_net, v32_net, klin_eq_lin]
  rfl
theorem v34_net (c : Dev nD) : v34 (F := Ideal) m ρ c = asRow (colsum (Net.z1N (inp m c) 0 (Net.inN0 (inp m c)))) := by
  rw [v34_eq, tiles4_eq, v33_1_net m ρ c, addTiles_tilesum]
theorem v35_net (c : Dev nD) : v35 (F := Ideal) m ρ c = asRow (colsumsq (Net.z1N (inp m c) 0 (Net.inN0 (inp m c)))) := by
  rw [v35_eq, tiles4_eq, v33_2_net m ρ c, addTiles_tilesumsq]
theorem v36_net (c : Dev nD) : v36 (F := Ideal) m ρ c = asRow ((inp m c).b2 0) := by
  rw [v36_eq, asRow_eq, v31_net]
theorem v37_net (c : Dev nD) : v37 (F := Ideal) m ρ c = asRow ((inp m c).g1 0) := by
  rw [v37_eq, asRow_eq, v25_net]
theorem v38_net (c : Dev nD) : v38 (F := Ideal) m ρ c = asRow ((inp m c).be1 0) := by
  rw [v38_eq, asRow_eq, v27_net]
theorem v39_0_net (c : Dev nD) (hI : (inp m c).Real) : v39_0 (F := Ideal) m ρ c = Net.z2N (inp m c) 0 (Net.inN0 (inp m c)) := by
  show W8 m ρ c (Proc.devRef .tc main_v39_0) = _
  refine (W8_arr m ρ c 7).trans ((Reg.r3_lin (V7 m ρ) c).trans ?_)
  rw [show V7 m ρ c main_v34 = v34 m ρ c from v34_at7 m ρ c,
      show V7 m ρ c main_v35 = v35 m ρ c from v35_at7 m ρ c,
      show V7 m ρ c main_v33_0 = v33_0 m ρ c from v33_0_at7 m ρ c,
      show V7 m ρ c main_v37 = v37 m ρ c from v37_at7 m ρ c,
      show V7 m ρ c main_v38 = v38 m ρ c from v38_at7 m ρ c,
      show V7 m ρ c main_v29 = v29 m ρ c from v29_at7 m ρ c,
      show V7 m ρ c main_v36 = v36 m ρ c from v36_at7 m ρ c]
  rw [v34_net, v35_net, v33_0_net, v37_net, v38_net, v29_net, v36_net]
  rw [kbnrelu_eq_bnrelu (by norm_num) Cert.Consts.n14 Cert.Consts.k14 Cert.Consts.eps Cert.Consts.n14_eq Cert.Consts.k14_eq (Net.z1N (inp m c) 0 (Net.inN0 (inp m c))) (Net.real_z1N hI 0 (Net.real_inN0 hI)) ((inp m c).g1 0) ((inp m c).be1 0), klin_eq_lin]
  rfl
theorem v39_1_net (c : Dev nD) (hI : (inp m c).Real) : v39_1 (F := Ideal) m ρ c = tilesum 4 4096 rfl (Net.z2N (inp m c) 0 (Net.inN0 (inp m c))) := by
  show W8 m ρ c (Proc.devRef .tc main_v39_1) = _
  refine (W8_arr m ρ c 8).trans ((Reg.r3_psum (V7 m ρ) c).trans ?_)
  rw [show V7 m ρ c main_v34 = v34 m ρ c from v34_at7 m ρ c,
      show V7 m ρ c main_v35 = v35 m ρ c from v35_at7 m ρ c,
      show V7 m ρ c main_v33_0 = v33_0 m ρ c from v33_0_at7 m ρ c,
      show V7 m ρ c main_v37 = v37 m ρ c from v37_at7 m ρ c,
      show V7 m ρ c main_v38 = v38 m ρ c from v38_at7 m ρ c,
      show V7 m ρ c main_v29 = v29 m ρ c from v29_at7 m ρ c,
      show V7 m ρ c main_v36 = v36 m ρ c from v36_at7 m ρ c]
  rw [v34_net, v35_net, v33_0_net, v37_net, v38_net, v29_net, v36_net]
  rw [kbnrelu_eq_bnrelu (by norm_num) Cert.Consts.n14 Cert.Consts.k14 Cert.Consts.eps Cert.Consts.n14_eq Cert.Consts.k14_eq (Net.z1N (inp m c) 0 (Net.inN0 (inp m c))) (Net.real_z1N hI 0 (Net.real_inN0 hI)) ((inp m c).g1 0) ((inp m c).be1 0), klin_eq_lin]
  rfl
theorem v39_2_net (c : Dev nD) (hI : (inp m c).Real) : v39_2 (F := Ideal) m ρ c = tilesumsq 4 4096 rfl (Net.z2N (inp m c) 0 (Net.inN0 (inp m c))) := by
  show W8 m ρ c (Proc.devRef .tc main_v39_2) = _
  refine (W8_arr m ρ c 9).trans ((Reg.r3_psumsq (V7 m ρ) c).trans ?_)
  rw [show V7 m ρ c main_v34 = v34 m ρ c from v34_at7 m ρ c,
      show V7 m ρ c main_v35 = v35 m ρ c from v35_at7 m ρ c,
      show V7 m ρ c main_v33_0 = v33_0 m ρ c from v33_0_at7 m ρ c,
      show V7 m ρ c main_v37 = v37 m ρ c from v37_at7 m ρ c,
      show V7 m ρ c main_v38 = v38 m ρ c from v38_at7 m ρ c,
      show V7 m ρ c main_v29 = v29 m ρ c from v29_at7 m ρ c,
      show V7 m ρ c main_v36 = v36 m ρ c from v36_at7 m ρ c]
  rw [v34_net, v35_net, v33_0_net, v37_net, v38_net, v29_net, v36_net]
  rw [kbnrelu_eq_bnrelu (by norm_num) Cert.Consts.n14 Cert.Consts.k14 Cert.Consts.eps Cert.Consts.n14_eq Cert.Consts.k14_eq (Net.z1N (inp m c) 0 (Net.inN0 (inp m c))) (Net.real_z1N hI 0 (Net.real_inN0 hI)) ((inp m c).g1 0) ((inp m c).be1 0), klin_eq_lin]
  rfl
theorem v40_net (c : Dev nD) (hI : (inp m c).Real) : v40 (F := Ideal) m ρ c = asRow (colsum (Net.z2N (inp m c) 0 (Net.inN0 (inp m c)))) := by
  rw [v40_eq, tiles4_eq, v39_1_net m ρ c hI, addTiles_tilesum]
theorem v41_net (c : Dev nD) (hI : (inp m c).Real) : v41 (F := Ideal) m ρ c = asRow (colsumsq (Net.z2N (inp m c) 0 (Net.inN0 (inp m c)))) := by
  rw [v41_eq, tiles4_eq, v39_2_net m ρ c hI, addTiles_tilesumsq]
theorem v43_net (c : Dev nD) : v43 (F := Ideal) m ρ c = (inp m c).W1 1 := by
  rw [v43_eq]
  rfl
theorem v54_net (c : Dev nD) : v54 (F := Ideal) m ρ c = asRow ((inp m c).b1 1) := by
  rw [v54_eq]
  exact asRow_eq _
theorem v47_net (c : Dev nD) : v47 (F := Ideal) m ρ c = (inp m c).g1 1 := by
  rw [v47_eq]
  rfl
theorem v49_net (c : Dev nD) : v49 (F := Ideal) m ρ c = (inp m c).be1 1 := by
  rw [v49_eq]
  rfl
theorem v51_net (c : Dev nD) : v51 (F := Ideal) m ρ c = (inp m c).W2 1 := by
  rw [v51_eq]
  rfl
theorem v53_net (c : Dev nD) : v53 (F := Ideal) m ρ c = (inp m c).b2 1 := by
  rw [v53_eq]
  rfl
theorem v55_0_net (c : Dev nD) : v55_0 (F := Ideal) m ρ c = Net.z1N (inp m c) 1 (Net.inN1 (inp m c)) := by
  show W10 m ρ c (Proc.devRef .tc main_v55_0) = _
  refine (W10_arr m ρ c 4).trans ((Reg.r4_lin (V9 m ρ) c).trans ?_)
  rw [show V9 m ρ c main_v5 = v5 m ρ c from v5_at9 m ρ c,
      show V9 m ρ c main_arg0 = m ((c : Thread nD τ).loc main_arg0) from arg0_at9 m ρ c,
      show V9 m ρ c main_v43 = v43 m ρ c from v43_at9 m ρ c,
      show V9 m ρ c main_v54 = v54 m ρ c from v54_at9 m ρ c]
  rw [v5_net, v43_net, v54_net, klin_eq_lin]
  rfl
theorem v55_1_net (c : Dev nD) : v55_1 (F := Ideal) m ρ c = tilesum 4 4096 rfl (Net.z1N (inp m c) 1 (Net.inN1 (inp m c))) := by
  show W10 m ρ c (Proc.devRef .tc main_v55_1) = _
  refine (W10_arr m ρ c 5).trans ((Reg.r4_psum (V9 m ρ) c).trans ?_)
  rw [show V9 m ρ c main_v5 = v5 m ρ c from v5_at9 m ρ c,
      show V9 m ρ c main_arg0 = m ((c : Thread nD τ).loc main_arg0) from arg0_at9 m ρ c,
      show V9 m ρ c main_v43 = v43 m ρ c from v43_at9 m ρ c,
      show V9 m ρ c main_v54 = v54 m ρ c from v54_at9 m ρ c]
  rw [v5_net, v43_net, v54_net, klin_eq_lin]
  rfl
theorem v55_2_net (c : Dev nD) : v55_2 (F := Ideal) m ρ c = tilesumsq 4 4096 rfl (Net.z1N (inp m c) 1 (Net.inN1 (inp m c))) := by
  show W10 m ρ c (Proc.devRef .tc main_v55_2) = _
  refine (W10_arr m ρ c 6).trans ((Reg.r4_psumsq (V9 m ρ) c).trans ?_)
  rw [show V9 m ρ c main_v5 = v5 m ρ c from v5_at9 m ρ c,
      show V9 m ρ c main_arg0 = m ((c : Thread nD τ).loc main_arg0) from arg0_at9 m ρ c,
      show V9 m ρ c main_v43 = v43 m ρ c from v43_at9 m ρ c,
      show V9 m ρ c main_v54 = v54 m ρ c from v54_at9 m ρ c]
  rw [v5_net, v43_net, v54_net, klin_eq_lin]
  rfl
theorem v56_net (c : Dev nD) : v56 (F := Ideal) m ρ c = asRow (colsum (Net.z1N (inp m c) 1 (Net.inN1 (inp m c)))) := by
  rw [v56_eq, tiles4_eq, v55_1_net m ρ c, addTiles_tilesum]
theorem v57_net (c : Dev nD) : v57 (F := Ideal) m ρ c = asRow (colsumsq (Net.z1N (inp m c) 1 (Net.inN1 (inp m c)))) := by
  rw [v57_eq, tiles4_eq, v55_2_net m ρ c, addTiles_tilesumsq]
theorem v58_net (c : Dev nD) : v58 (F := Ideal) m ρ c = asRow ((inp m c).b2 1) := by
  rw [v58_eq, asRow_eq, v53_net]
theorem v59_net (c : Dev nD) : v59 (F := Ideal) m ρ c = asRow ((inp m c).g1 1) := by
  rw [v59_eq, asRow_eq, v47_net]
theorem v60_net (c : Dev nD) : v60 (F := Ideal) m ρ c = asRow ((inp m c).be1 1) := by
  rw [v60_eq, asRow_eq, v49_net]
theorem v61_0_net (c : Dev nD) (hI : (inp m c).Real) : v61_0 (F := Ideal) m ρ c = Net.z2N (inp m c) 1 (Net.inN1 (inp m c)) := by
  show W12 m ρ c (Proc.devRef .tc main_v61_0) = _
  refine (W12_arr m ρ c 7).trans ((Reg.r5_lin (V11 m ρ) c).trans ?_)
  rw [show V11 m ρ c main_v56 = v56 m ρ c from v56_at11 m ρ c,
      show V11 m ρ c main_v57 = v57 m ρ c from v57_at11 m ρ c,
      show V11 m ρ c main_v55_0 = v55_0 m ρ c from v55_0_at11 m ρ c,
      show V11 m ρ c main_v59 = v59 m ρ c from v59_at11 m ρ c,
      show V11 m ρ c main_v60 = v60 m ρ c from v60_at11 m ρ c,
      show V11 m ρ c main_v51 = v51 m ρ c from v51_at11 m ρ c,
      show V11 m ρ c main_v58 = v58 m ρ c from v58_at11 m ρ c]
  rw [v56_net, v57_net, v55_0_net, v59_net, v60_net, v51_net, v58_net]
  rw [kbnrelu_eq_bnrelu (by norm_num) Cert.Consts.n14 Cert.Consts.k14 Cert.Consts.eps Cert.Consts.n14_eq Cert.Consts.k14_eq (Net.z1N (inp m c) 1 (Net.inN1 (inp m c))) (Net.real_z1N hI 1 (Net.real_inN1 hI)) ((inp m c).g1 1) ((inp m c).be1 1), klin_eq_lin]
  rfl
theorem v61_1_net (c : Dev nD) (hI : (inp m c).Real) : v61_1 (F := Ideal) m ρ c = tilesum 4 4096 rfl (Net.z2N (inp m c) 1 (Net.inN1 (inp m c))) := by
  show W12 m ρ c (Proc.devRef .tc main_v61_1) = _
  refine (W12_arr m ρ c 8).trans ((Reg.r5_psum (V11 m ρ) c).trans ?_)
  rw [show V11 m ρ c main_v56 = v56 m ρ c from v56_at11 m ρ c,
      show V11 m ρ c main_v57 = v57 m ρ c from v57_at11 m ρ c,
      show V11 m ρ c main_v55_0 = v55_0 m ρ c from v55_0_at11 m ρ c,
      show V11 m ρ c main_v59 = v59 m ρ c from v59_at11 m ρ c,
      show V11 m ρ c main_v60 = v60 m ρ c from v60_at11 m ρ c,
      show V11 m ρ c main_v51 = v51 m ρ c from v51_at11 m ρ c,
      show V11 m ρ c main_v58 = v58 m ρ c from v58_at11 m ρ c]
  rw [v56_net, v57_net, v55_0_net, v59_net, v60_net, v51_net, v58_net]
  rw [kbnrelu_eq_bnrelu (by norm_num) Cert.Consts.n14 Cert.Consts.k14 Cert.Consts.eps Cert.Consts.n14_eq Cert.Consts.k14_eq (Net.z1N (inp m c) 1 (Net.inN1 (inp m c))) (Net.real_z1N hI 1 (Net.real_inN1 hI)) ((inp m c).g1 1) ((inp m c).be1 1), klin_eq_lin]
  rfl
theorem v61_2_net (c : Dev nD) (hI : (inp m c).Real) : v61_2 (F := Ideal) m ρ c = tilesumsq 4 4096 rfl (Net.z2N (inp m c) 1 (Net.inN1 (inp m c))) := by
  show W12 m ρ c (Proc.devRef .tc main_v61_2) = _
  refine (W12_arr m ρ c 9).trans ((Reg.r5_psumsq (V11 m ρ) c).trans ?_)
  rw [show V11 m ρ c main_v56 = v56 m ρ c from v56_at11 m ρ c,
      show V11 m ρ c main_v57 = v57 m ρ c from v57_at11 m ρ c,
      show V11 m ρ c main_v55_0 = v55_0 m ρ c from v55_0_at11 m ρ c,
      show V11 m ρ c main_v59 = v59 m ρ c from v59_at11 m ρ c,
      show V11 m ρ c main_v60 = v60 m ρ c from v60_at11 m ρ c,
      show V11 m ρ c main_v51 = v51 m ρ c from v51_at11 m ρ c,
      show V11 m ρ c main_v58 = v58 m ρ c from v58_at11 m ρ c]
  rw [v56_net, v57_net, v55_0_net, v59_net, v60_net, v51_net, v58_net]
  rw [kbnrelu_eq_bnrelu (by norm_num) Cert.Consts.n14 Cert.Consts.k14 Cert.Consts.eps Cert.Consts.n14_eq Cert.Consts.k14_eq (Net.z1N (inp m c) 1 (Net.inN1 (inp m c))) (Net.real_z1N hI 1 (Net.real_inN1 hI)) ((inp m c).g1 1) ((inp m c).be1 1), klin_eq_lin]
  rfl
theorem v62_net (c : Dev nD) (hI : (inp m c).Real) : v62 (F := Ideal) m ρ c = asRow (colsum (Net.z2N (inp m c) 1 (Net.inN1 (inp m c)))) := by
  rw [v62_eq, tiles4_eq, v61_1_net m ρ c hI, addTiles_tilesum]
theorem v63_net (c : Dev nD) (hI : (inp m c).Real) : v63 (F := Ideal) m ρ c = asRow (colsumsq (Net.z2N (inp m c) 1 (Net.inN1 (inp m c)))) := by
  rw [v63_eq, tiles4_eq, v61_2_net m ρ c hI, addTiles_tilesumsq]
theorem v64_net (c : Dev nD) : v64 (F := Ideal) m ρ c = rowsFrom (N := 256) (K := 128) 0 (by omega) (inp m c).nW := by
  rw [v64_eq, rows256_0_eq]
  rfl
theorem v69_net (c : Dev nD) : v69 (F := Ideal) m ρ c = rowsFrom (N := 256) (K := 128) 128 (by omega) (inp m c).nW := by
  rw [v69_eq, rows256_1_eq]
  rfl
theorem v75_net (c : Dev nD) : v75 (F := Ideal) m ρ c = asRow ((inp m c).g2 0) := by
  rw [v75_eq]
  exact asRow_eq _
theorem v77_net (c : Dev nD) : v77 (F := Ideal) m ρ c = asRow ((inp m c).g2 1) := by
  rw [v77_eq]
  exact asRow_eq _
theorem v76_net (c : Dev nD) : v76 (F := Ideal) m ρ c = asRow ((inp m c).be2 0) := by
  rw [v76_eq]
  exact asRow_eq _
theorem v78_net (c : Dev nD) : v78 (F := Ideal) m ρ c = asRow ((inp m c).be2 1) := by
  rw [v78_eq]
  exact asRow_eq _
theorem v74_net (c : Dev nD) : v74 (F := Ideal) m ρ c = asRow (inp m c).nb := by
  rw [v74_eq, asRow_eq]
  rfl
theorem v79_0_net (c : Dev nD) (hI : (inp m c).Real) : v79_0 (F := Ideal) m ρ c = Net.zcN (inp m c) := by
  show W14 m ρ c (Proc.devRef .tc main_v79_0) = _
  refine (W14_arr m ρ c 13).trans ((Reg.r6_lin (V13 m ρ) c).trans ?_)
  rw [show V13 m ρ c main_v40 = v40 m ρ c from v40_at13 m ρ c,
      show V13 m ρ c main_v41 = v41 m ρ c from v41_at13 m ρ c,
      show V13 m ρ c main_v39_0 = v39_0 m ρ c from v39_0_at13 m ρ c,
      show V13 m ρ c main_v75 = v75 m ρ c from v75_at13 m ρ c,
      show V13 m ρ c main_v76 = v76 m ρ c from v76_at13 m ρ c,
      show V13 m ρ c main_v64 = v64 m ρ c from v64_at13 m ρ c,
      show V13 m ρ c main_v62 = v62 m ρ c from v62_at13 m ρ c,
      show V13 m ρ c main_v63 = v63 m ρ c from v63_at13 m ρ c,
      show V13 m ρ c main_v61_0 = v61_0 m ρ c from v61_0_at13 m ρ c,
      show V13 m ρ c main_v77 = v77 m ρ c from v77_at13 m ρ c,
      show V13 m ρ c main_v78 = v78 m ρ c from v78_at13 m ρ c,
      show V13 m ρ c main_v69 = v69 m ρ c from v69_at13 m ρ c,
      show V13 m ρ c main_v74 = v74 m ρ c from v74_at13 m ρ c]
  rw [v75_net, v76_net, v64_net, v77_net, v78_net, v69_net, v74_net, v40_net m ρ c hI, v41_net m ρ c hI, v39_0_net m ρ c hI, v62_net m ρ c hI, v63_net m ρ c hI, v61_0_net m ρ c hI]
  rw [kbnrelu_eq_bnrelu (by norm_num) Cert.Consts.n14 Cert.Consts.k14 Cert.Consts.eps Cert.Consts.n14_eq Cert.Consts.k14_eq (Net.z2N (inp m c) 0 (Net.inN0 (inp m c))) (Net.real_z2N hI 0 (Net.real_inN0 hI)) ((inp m c).g2 0) ((inp m c).be2 0),
    kbnrelu_eq_bnrelu (by norm_num) Cert.Consts.n14 Cert.Consts.k14 Cert.Consts.eps Cert.Consts.n14_eq Cert.Consts.k14_eq (Net.z2N (inp m c) 1 (Net.inN1 (inp m c))) (Net.real_z2N hI 1 (Net.real_inN1 hI)) ((inp m c).g2 1) ((inp m c).be2 1)]
  refine Eq.trans ?_ (lin_hcat2 (K := 128) (K2 := 256) rfl (Net.uN (inp m c) 0 (Net.inN0 (inp m c))) (Net.uN (inp m c) 1 (Net.inN1 (inp m c))) (inp m c).nW (inp m c).nb).symm
  rfl
theorem v79_1_net (c : Dev nD) (hI : (inp m c).Real) : v79_1 (F := Ideal) m ρ c = tilesum 4 4096 rfl (Net.zcN (inp m c)) := by
  show W14 m ρ c (Proc.devRef .tc main_v79_1) = _
  refine (W14_arr m ρ c 14).trans ((Reg.r6_psum (V13 m ρ) c).trans ?_)
  rw [show V13 m ρ c main_v40 = v40 m ρ c from v40_at13 m ρ c,
      show V13 m ρ c main_v41 = v41 m ρ c from v41_at13 m ρ c,
      show V13 m ρ c main_v39_0 = v39_0 m ρ c from v39_0_at13 m ρ c,
      show V13 m ρ c main_v75 = v75 m ρ c from v75_at13 m ρ c,
      show V13 m ρ c main_v76 = v76 m ρ c from v76_at13 m ρ c,
      show V13 m ρ c main_v64 = v64 m ρ c from v64_at13 m ρ c,
      show V13 m ρ c main_v62 = v62 m ρ c from v62_at13 m ρ c,
      show V13 m ρ c main_v63 = v63 m ρ c from v63_at13 m ρ c,
      show V13 m ρ c main_v61_0 = v61_0 m ρ c from v61_0_at13 m ρ c,
      show V13 m ρ c main_v77 = v77 m ρ c from v77_at13 m ρ c,
      show V13 m ρ c main_v78 = v78 m ρ c from v78_at13 m ρ c,
      show V13 m ρ c main_v69 = v69 m ρ c from v69_at13 m ρ c,
      show V13 m ρ c main_v74 = v74 m ρ c from v74_at13 m ρ c]
  rw [v75_net, v76_net, v64_net, v77_net, v78_net, v69_net, v74_net, v40_net m ρ c hI, v41_net m ρ c hI, v39_0_net m ρ c hI, v62_net m ρ c hI, v63_net m ρ c hI, v61_0_net m ρ c hI]
  rw [kbnrelu_eq_bnrelu (by norm_num) Cert.Consts.n14 Cert.Consts.k14 Cert.Consts.eps Cert.Consts.n14_eq Cert.Consts.k14_eq (Net.z2N (inp m c) 0 (Net.inN0 (inp m c))) (Net.real_z2N hI 0 (Net.real_inN0 hI)) ((inp m c).g2 0) ((inp m c).be2 0),
    kbnrelu_eq_bnrelu (by norm_num) Cert.Consts.n14 Cert.Consts.k14 Cert.Consts.eps Cert.Consts.n14_eq Cert.Consts.k14_eq (Net.z2N (inp m c) 1 (Net.inN1 (inp m c))) (Net.real_z2N hI 1 (Net.real_inN1 hI)) ((inp m c).g2 1) ((inp m c).be2 1)]
  refine congrArg (tilesum 4 4096 rfl) ?_
  refine Eq.trans ?_ (lin_hcat2 (K := 128) (K2 := 256) rfl (Net.uN (inp m c) 0 (Net.inN0 (inp m c))) (Net.uN (inp m c) 1 (Net.inN1 (inp m c))) (inp m c).nW (inp m c).nb).symm
  rfl
theorem v79_2_net (c : Dev nD) (hI : (inp m c).Real) : v79_2 (F := Ideal) m ρ c = tilesumsq 4 4096 rfl (Net.zcN (inp m c)) := by
  show W14 m ρ c (Proc.devRef .tc main_v79_2) = _
  refine (W14_arr m ρ c 15).trans ((Reg.r6_psumsq (V13 m ρ) c).trans ?_)
  rw [show V13 m ρ c main_v40 = v40 m ρ c from v40_at13 m ρ c,
      show V13 m ρ c main_v41 = v41 m ρ c from v41_at13 m ρ c,
      show V13 m ρ c main_v39_0 = v39_0 m ρ c from v39_0_at13 m ρ c,
      show V13 m ρ c main_v75 = v75 m ρ c from v75_at13 m ρ c,
      show V13 m ρ c main_v76 = v76 m ρ c from v76_at13 m ρ c,
      show V13 m ρ c main_v64 = v64 m ρ c from v64_at13 m ρ c,
      show V13 m ρ c main_v62 = v62 m ρ c from v62_at13 m ρ c,
      show V13 m ρ c main_v63 = v63 m ρ c from v63_at13 m ρ c,
      show V13 m ρ c main_v61_0 = v61_0 m ρ c from v61_0_at13 m ρ c,
      show V13 m ρ c main_v77 = v77 m ρ c from v77_at13 m ρ c,
      show V13 m ρ c main_v78 = v78 m ρ c from v78_at13 m ρ c,
      show V13 m ρ c main_v69 = v69 m ρ c from v69_at13 m ρ c,
      show V13 m ρ c main_v74 = v74 m ρ c from v74_at13 m ρ c]
  rw [v75_net, v76_net, v64_net, v77_net, v78_net, v69_net, v74_net, v40_net m ρ c hI, v41_net m ρ c hI, v39_0_net m ρ c hI, v62_net m ρ c hI, v63_net m ρ c hI, v61_0_net m ρ c hI]
  rw [kbnrelu_eq_bnrelu (by norm_num) Cert.Consts.n14 Cert.Consts.k14 Cert.Consts.eps Cert.Consts.n14_eq Cert.Consts.k14_eq (Net.z2N (inp m c) 0 (Net.inN0 (inp m c))) (Net.real_z2N hI 0 (Net.real_inN0 hI)) ((inp m c).g2 0) ((inp m c).be2 0),
    kbnrelu_eq_bnrelu (by norm_num) Cert.Consts.n14 Cert.Consts.k14 Cert.Consts.eps Cert.Consts.n14_eq Cert.Consts.k14_eq (Net.z2N (inp m c) 1 (Net.inN1 (inp m c))) (Net.real_z2N hI 1 (Net.real_inN1 hI)) ((inp m c).g2 1) ((inp m c).be2 1)]
  refine congrArg (tilesumsq 4 4096 rfl) ?_
  refine Eq.trans ?_ (lin_hcat2 (K := 128) (K2 := 256) rfl (Net.uN (inp m c) 0 (Net.inN0 (inp m c))) (Net.uN (inp m c) 1 (Net.inN1 (inp m c))) (inp m c).nW (inp m c).nb).symm
  rfl
theorem v80_net (c : Dev nD) (hI : (inp m c).Real) : v80 (F := Ideal) m ρ c = asRow (colsum (Net.zcN (inp m c))) := by
  rw [v80_eq, tiles4_eq, v79_1_net m ρ c hI, addTiles_tilesum]
theorem v81_net (c : Dev nD) (hI : (inp m c).Real) : v81 (F := Ideal) m ρ c = asRow (colsumsq (Net.zcN (inp m c))) := by
  rw [v81_eq, tiles4_eq, v79_2_net m ρ c hI, addTiles_tilesumsq]
theorem v82_net (c : Dev nD) : v82 (F := Ideal) m ρ c = asRow (inp m c).ng := by
  rw [v82_eq, asRow_eq]
  rfl
theorem v83_net (c : Dev nD) : v83 (F := Ideal) m ρ c = asRow (inp m c).nbe := by
  rw [v83_eq, asRow_eq]
  rfl
theorem v84_net (c : Dev nD) (hI : (inp m c).Real) : v84 (F := Ideal) m ρ c = Net.xOut (inp m c) := by
  show W16 m ρ c (Proc.devRef .tc main_v84) = _
  refine (W16_arr m ρ c 5).trans ((Reg.r7_bn (V15 m ρ) c).trans ?_)
  rw [show V15 m ρ c main_v80 = v80 m ρ c from v80_at15 m ρ c,
      show V15 m ρ c main_v81 = v81 m ρ c from v81_at15 m ρ c,
      show V15 m ρ c main_v79_0 = v79_0 m ρ c from v79_0_at15 m ρ c,
      show V15 m ρ c main_v82 = v82 m ρ c from v82_at15 m ρ c,
      show V15 m ρ c main_v83 = v83 m ρ c from v83_at15 m ρ c]
  rw [v82_net, v83_net, v80_net m ρ c hI, v81_net m ρ c hI, v79_0_net m ρ c hI]
  rw [kbnrelu_eq_bnrelu (by norm_num) Cert.Consts.n14 Cert.Consts.k14 Cert.Consts.eps Cert.Consts.n14_eq Cert.Consts.k14_eq (Net.zcN (inp m c)) (Net.real_zcN hI) (inp m c).ng (inp m c).nbe]
  rfl

end Cert.KernelIdeal.KChain

end
-- ==== Proof.Reg.R8.lean ====
/-
  Region 8: a first linear layer over 262144 rows in 64 tiles of 4096. Each grid point takes one tile of the
  three summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg8
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 64 points, one per tile of 4096 rows. -/
private theorem hN : cfg8.N = 64 := rfl

/-- A grid point as a tile number. -/
private def tile (t : Fin cfg8.N) : Fin 64 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = t.val ∧ win8_5.index t (1 : Fin 2) = 0)
    ∧ (win8_6.index t (0 : Fin 3) = t.val ∧ win8_6.index t (1 : Fin 3) = 0 ∧ win8_6.index t (2 : Fin 3) = 0)
    ∧ (win8_7.index t (0 : Fin 3) = t.val ∧ win8_7.index t (1 : Fin 3) = 0 ∧ win8_7.index t (2 : Fin 3) = 0) :=
  (by decide +kernel : ∀ t : Fin grid8.N, _)

/-! ## The blocks, read off their arrays -/

/-- Window 0's block at point t holds the rows of tile t of its array. -/
private theorem rows_0 (X : S262144x128.Idx → EReal) (t : Fin cfg8.N) :
    ((cfg8.win 0).blk t).view.read (Elt Ideal) X = selRows (tileRow 64 4096 rfl (tile t)) X := by
  obtain ⟨⟨e0, e1⟩, -⟩ := idx_facts t
  funext y
  show X (((cfg8.win 0).blk t).view.emb y) = X (ix2 (tileRow 64 4096 rfl (tile t) (y 0)) (y 1))
  refine congrArg X ?_
  funext a
  apply Fin.ext
  match a with
  | ⟨0, _⟩ => show win8_0.index t (0 : Fin 2) * 4096 + 1 * (y 0).val = t.val * 4096 + (y 0).val; rw [e0]; omega
  | ⟨1, _⟩ => show win8_0.index t (1 : Fin 2) * 128 + 1 * (y 1).val = (y 1).val; rw [e1]; omega

/-- Window 1's block at point t holds the rows of tile t of its array. -/
private theorem rows_1 (X : S262144x128.Idx → EReal) (t : Fin cfg8.N) :
    ((cfg8.win 1).blk t).view.read (Elt Ideal) X = selRows (tileRow 64 4096 rfl (tile t)) X := by
  obtain ⟨-, ⟨e0, e1⟩, -⟩ := idx_facts t
  funext y
  show X (((cfg8.win 1).blk t).view.emb y) = X (ix2 (tileRow 64 4096 rfl (tile t) (y 0)) (y 1))
  refine congrArg X ?_
  funext a
  apply Fin.ext
  match a with
  | ⟨0, _⟩ => show win8_1.index t (0 : Fin 2) * 4096 + 1 * (y 0).val = t.val * 4096 + (y 0).val; rw [e0]; omega
  | ⟨1, _⟩ => show win8_1.index t (1 : Fin 2) * 128 + 1 * (y 1).val = (y 1).val; rw [e1]; omega

/-- Window 2's block at point t holds the rows of tile t of its array. -/
private theorem rows_2 (X : S262144x128.Idx → EReal) (t : Fin cfg8.N) :
    ((cfg8.win 2).blk t).view.read (Elt Ideal) X = selRows (tileRow 64 4096 rfl (tile t)) X := by
  obtain ⟨-, -, ⟨e0, e1⟩, -⟩ := idx_facts t
  funext y
  show X (((cfg8.win 2).blk t).view.emb y) = X (ix2 (tileRow 64 4096 rfl (tile t) (y 0)) (y 1))
  refine congrArg X ?_
  funext a
  apply Fin.ext
  match a with
  | ⟨0, _⟩ => show win8_2.index t (0 : Fin 2) * 4096 + 1 * (y 0).val = t.val * 4096 + (y 0).val; rw [e0]; omega
  | ⟨1, _⟩ => show win8_2.index t (1 : Fin 2) * 128 + 1 * (y 1).val = (y 1).val; rw [e1]; omega

/-- Window 3's block is its whole array at every point. -/
private theorem whole_3 (X : S128x128.Idx → EReal) (t : Fin cfg8.N) :
    ((cfg8.win 3).blk t).view.read (Elt Ideal) X = X := by
  obtain ⟨-, -, -, ⟨e0, e1⟩, -⟩ := idx_facts t
  funext y
  show X (((cfg8.win 3).blk t).view.emb y) = X y
  refine congrArg X ?_
  funext a
  apply Fin.ext
  match a with
  | ⟨0, _⟩ => show win8_3.index t (0 : Fin 2) * 128 + 1 * (y 0).val = (y 0).val; rw [e0]; omega
  | ⟨1, _⟩ => show win8_3.index t (1 : Fin 2) * 128 + 1 * (y 1).val = (y 1).val; rw [e1]; omega

/-- Window 4's block is its whole array at every point. -/
private theorem whole_4 (X : S1x128.Idx → EReal) (t : Fin cfg8.N) :
    ((cfg8.win 4).blk t).view.read (Elt Ideal) X = X := by
  obtain ⟨-, -, -, -, ⟨e0, e1⟩, -⟩ := idx_facts t
  funext y
  show X (((cfg8.win 4).blk t).view.emb y) = X y
  refine congrArg X ?_
  funext a
  apply Fin.ext
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

/-- Window 5's block at point t holds the rows of tile t of its array. -/
private theorem rows_5 (X : S262144x128.Idx → EReal) (t : Fin cfg8.N) :
    ((cfg8.win 5).blk t).view.read (Elt Ideal) X = selRows (tileRow 64 4096 rfl (tile t)) X := by
  obtain ⟨-, -, -, -, -, ⟨e0, e1⟩, -⟩ := idx_facts t
  funext y
  show X (((cfg8.win 5).blk t).view.emb y) = X (ix2 (tileRow 64 4096 rfl (tile t) (y 0)) (y 1))
  refine congrArg X ?_
  funext a
  apply Fin.ext
  match a with
  | ⟨0, _⟩ => show win8_5.index t (0 : Fin 2) * 4096 + 1 * (y 0).val = t.val * 4096 + (y 0).val; rw [e0]; omega
  | ⟨1, _⟩ => show win8_5.index t (1 : Fin 2) * 128 + 1 * (y 1).val = (y 1).val; rw [e1]; omega

/-- Window 6's block at point t is tile t's row of the per-tile statistics. -/
private theorem stat_6 (P : S64x1x128.Idx → EReal) (t : Fin cfg8.N) :
    ((cfg8.win 6).blk t).view.read (Elt Ideal) P = fun y : (⟨3, ![1, 1, 128]⟩ : Shape).Idx => P (ix3 (tile t) 0 (y 2)) := by
  obtain ⟨-, -, -, -, -, -, ⟨e0, e1, e2⟩, -⟩ := idx_facts t
  funext y
  show P (((cfg8.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win8_6.index t (0 : Fin 3) * 1 + 1 * (y 0).val = t.val; rw [e0]; omega
  | ⟨1, _⟩ => show win8_6.index t (1 : Fin 3) * 1 + 1 * (y 1).val = 0; rw [e1]; omega
  | ⟨2, _⟩ => show win8_6.index t (2 : Fin 3) * 128 + 1 * (y 2).val = (y 2).val; rw [e2]; omega

/-- Window 7's block at point t is tile t's row of the per-tile statistics. -/
private theorem stat_7 (P : S64x1x128.Idx → EReal) (t : Fin cfg8.N) :
    ((cfg8.win 7).blk t).view.read (Elt Ideal) P = fun y : (⟨3, ![1, 1, 128]⟩ : Shape).Idx => P (ix3 (tile t) 0 (y 2)) := by
  obtain ⟨-, -, -, -, -, -, -, ⟨e0, e1, e2⟩⟩ := idx_facts t
  funext y
  show P (((cfg8.win 7).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win8_7.index t (0 : Fin 3) * 1 + 1 * (y 0).val = t.val; rw [e0]; omega
  | ⟨1, _⟩ => show win8_7.index t (1 : Fin 3) * 1 + 1 * (y 1).val = 0; rw [e1]; omega
  | ⟨2, _⟩ => show win8_7.index t (2 : Fin 3) * 128 + 1 * (y 2).val = (y 2).val; rw [e2]; omega

private theorem iblk_0 (c : Dev nD) (t : Fin cfg8.N) :
    iblk8 (F := Ideal) V c 0 t = selRows (tileRow 64 4096 rfl (tile t)) (V c main_v91) := rows_0 _ t
private theorem iblk_1 (c : Dev nD) (t : Fin cfg8.N) :
    iblk8 (F := Ideal) V c 1 t = selRows (tileRow 64 4096 rfl (tile t)) (V c main_v12) := rows_1 _ t
private theorem iblk_2 (c : Dev nD) (t : Fin cfg8.N) :
    iblk8 (F := Ideal) V c 2 t = selRows (tileRow 64 4096 rfl (tile t)) (V c main_arg1) := rows_2 _ t
private theorem iblk_3 (c : Dev nD) (t : Fin cfg8.N) : iblk8 (F := Ideal) V c 3 t = V c main_v107 := whole_3 _ t
private theorem iblk_4 (c : Dev nD) (t : Fin cfg8.N) : iblk8 (F := Ideal) V c 4 t = V c main_v118 := whole_4 _ t

/-- Selecting rows commutes with the layer: the linear map acts on each row by itself. -/
private theorem sel_lin {R B : Nat} (f : Fin B → Fin R) (p0 p1 p2 : Mat R 128) (W : Mat 128 128) (b : Mat 1 128) :
    selRows f (klin (fun j => (p0 j + p1 j) + p2 j) W b) = klin (fun j => (selRows f p0 j + selRows f p1 j) + selRows f p2 j) W b := by
  rw [selRows_klin]
  rfl

/-! ## What each point writes back -/

/-- What point t writes back to the layer's output: the rows of tile t of the whole-array linear map. -/
private theorem flushed_lin (c : Dev nD) (t : Fin cfg8.N) :
    (dat8 (F := Ideal) V c).flushed 5 t = ((cfg8.win 5).blk t).view.read (Elt Ideal)
      (klin (fun j => (V c main_v91 j +ᵉ V c main_v12 j) +ᵉ V c main_arg1 j) (V c main_v107) (V c main_v118)) := by
  show (cfg8.win 5).cut (grid8.coords t) ((dat8 V c).after 5 t) = _
  rw [after8_5]
  unfold out8_5
  rw [View.canon_unit_zero hz2]
  simp only [View.ld_unit_zero (S := S4096x128) hz2, View.ld_unit_zero (S := S128x128) hz2, View.ld_unit_zero (S := S1x128) hz2]
  rw [Blk.k8_pay1_eq, rows_5, sel_lin, iblk_0 V c t, iblk_1 V c t, iblk_2 V c t, iblk_3 V c t, iblk_4 V c t]
  rfl

/-- What point t writes back to the column sums: tile t's row of the whole array's per-tile column sums. -/
private theorem flushed_psum (c : Dev nD) (t : Fin cfg8.N) :
    (dat8 (F := Ideal) V c).flushed 6 t = ((cfg8.win 6).blk t).view.read (Elt Ideal)
      (tilesum 64 4096 rfl (klin (fun j => (V c main_v91 j +ᵉ V c main_v12 j) +ᵉ V c main_arg1 j) (V c main_v107) (V c main_v118))) := by
  show (cfg8.win 6).cut (grid8.coords t) ((dat8 V c).after 6 t) = _
  rw [after8_6]
  unfold out8_6
  rw [View.canon_unit_zero hz3]
  simp only [View.ld_unit_zero (S := S4096x128) hz2, View.ld_unit_zero (S := S128x128) hz2, View.ld_unit_zero (S := S1x128) hz2]
  rw [Blk.k8_pay2_eq, stat_6, tilesum_tile, sel_lin, iblk_0 V c t, iblk_1 V c t, iblk_2 V c t, iblk_3 V c t, iblk_4 V c t]
  rfl

/-- What point t writes back to the column sums of squares: tile t's row of the whole array's per-tile column sums of squares. -/
private theorem flushed_psumsq (c : Dev nD) (t : Fin cfg8.N) :
    (dat8 (F := Ideal) V c).flushed 7 t = ((cfg8.win 7).blk t).view.read (Elt Ideal)
      (tilesumsq 64 4096 rfl (klin (fun j => (V c main_v91 j +ᵉ V c main_v12 j) +ᵉ V c main_arg1 j) (V c main_v107) (V c main_v118))) := by
  show (cfg8.win 7).cut (grid8.coords t) ((dat8 V c).after 7 t) = _
  rw [after8_7]
  unfold out8_7
  rw [View.canon_unit_zero hz3]
  simp only [View.ld_unit_zero (S := S4096x128) hz2, View.ld_unit_zero (S := S128x128) hz2, View.ld_unit_zero (S := S1x128) hz2]
  rw [Blk.k8_pay3_eq, stat_7, tilesumsq_tile, sel_lin, iblk_0 V c t, iblk_1 V c t, iblk_2 V c t, iblk_3 V c t, iblk_4 V c t]
  rfl

/-! ## The blocks cover the arrays -/

/-- An index of the array is in point t's block iff each coordinate is in the block's range on its axis. -/
private theorem mem_5 (t : Fin cfg8.N) (i : S262144x128.Idx) :
    i ∈ ((cfg8.win 5).blk t).view.set ↔ ∀ a : Fin 2, win8_5.index t a * S4096x128.size a ≤ (i a).val ∧ (i a).val < win8_5.index t a * S4096x128.size a + S4096x128.size a := by
  show i ∈ ((View.whole main_v119_0).slice (win8_5.rect t)).set ↔ _
  rw [View.set_slice_whole, Rect.mem_set_unit]
  exact Iff.rfl

/-- Row r lies in the block of tile r / 4096. -/
private theorem cover_5 (i : S262144x128.Idx) : ∃ t : Fin cfg8.N, (cfg8.win 5).flush t = true ∧ i ∈ ((cfg8.win 5).blk t).view.set := by
  have hi0 : (i 0).val < 262144 := (i 0).isLt
  have hi1 : (i 1).val < 128 := (i 1).isLt
  have ht : (i 0).val / 4096 < cfg8.N := by rw [hN]; omega
  obtain ⟨-, -, -, -, -, ⟨e0, e1⟩, -⟩ := idx_facts ⟨(i 0).val / 4096, ht⟩
  refine ⟨⟨(i 0).val / 4096, ht⟩, flush8_5 _, ?_⟩
  rw [mem_5]
  intro a
  match a with
  | ⟨0, _⟩ =>
    show win8_5.index ⟨(i 0).val / 4096, ht⟩ (0 : Fin 2) * 4096 ≤ (i 0).val ∧ (i 0).val < win8_5.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win8_5.index ⟨(i 0).val / 4096, ht⟩ (1 : Fin 2) * 128 ≤ (i 1).val ∧ (i 1).val < win8_5.index ⟨(i 0).val / 4096, ht⟩ (1 : Fin 2) * 128 + 128
    rw [e1]; omega

/-- An index of the statistics array is in point t's block iff each coordinate is in the block's range on its axis. -/
private theorem mem_6 (t : Fin cfg8.N) (i : S64x1x128.Idx) :
    i ∈ ((cfg8.win 6).blk t).view.set ↔ ∀ a : Fin 3, win8_6.index t a * S1x1x128.size a ≤ (i a).val ∧ (i a).val < win8_6.index t a * S1x1x128.size a + S1x1x128.size a := by
  show i ∈ ((View.whole main_v119_1).slice (win8_6.rect t)).set ↔ _
  rw [View.set_slice_whole, Rect.mem_set_unit]
  exact Iff.rfl

/-- Tile r's row lies in the block of point r. -/
private theorem cover_6 (i : S64x1x128.Idx) : ∃ t : Fin cfg8.N, (cfg8.win 6).flush t = true ∧ i ∈ ((cfg8.win 6).blk t).view.set := by
  have hi0 : (i 0).val < 64 := (i 0).isLt
  have hi1 : (i 1).val < 1 := (i 1).isLt
  have hi2 : (i 2).val < 128 := (i 2).isLt
  have ht : (i 0).val < cfg8.N := by rw [hN]; omega
  obtain ⟨-, -, -, -, -, -, ⟨e0, e1, e2⟩, -⟩ := idx_facts ⟨(i 0).val, ht⟩
  refine ⟨⟨(i 0).val, ht⟩, flush8_6 _, ?_⟩
  rw [mem_6]
  intro a
  match a with
  | ⟨0, _⟩ =>
    show win8_6.index ⟨(i 0).val, ht⟩ (0 : Fin 3) * 1 ≤ (i 0).val ∧ (i 0).val < win8_6.index ⟨(i 0).val, ht⟩ (0 : Fin 3) * 1 + 1
    rw [e0]; show (i 0).val * 1 ≤ (i 0).val ∧ (i 0).val < (i 0).val * 1 + 1; omega
  | ⟨1, _⟩ =>
    show win8_6.index ⟨(i 0).val, ht⟩ (1 : Fin 3) * 1 ≤ (i 1).val ∧ (i 1).val < win8_6.index ⟨(i 0).val, ht⟩ (1 : Fin 3) * 1 + 1
    rw [e1]; omega
  | ⟨2, _⟩ =>
    show win8_6.index ⟨(i 0).val, ht⟩ (2 : Fin 3) * 128 ≤ (i 2).val ∧ (i 2).val < win8_6.index ⟨(i 0).val, ht⟩ (2 : Fin 3) * 128 + 128
    rw [e2]; omega

/-- An index of the statistics array is in point t's block iff each coordinate is in the block's range on its axis. -/
private theorem mem_7 (t : Fin cfg8.N) (i : S64x1x128.Idx) :
    i ∈ ((cfg8.win 7).blk t).view.set ↔ ∀ a : Fin 3, win8_7.index t a * S1x1x128.size a ≤ (i a).val ∧ (i a).val < win8_7.index t a * S1x1x128.size a + S1x1x128.size a := by
  show i ∈ ((View.whole main_v119_2).slice (win8_7.rect t)).set ↔ _
  rw [View.set_slice_whole, Rect.mem_set_unit]
  exact Iff.rfl

/-- Tile r's row lies in the block of point r. -/
private theorem cover_7 (i : S64x1x128.Idx) : ∃ t : Fin cfg8.N, (cfg8.win 7).flush t = true ∧ i ∈ ((cfg8.win 7).blk t).view.set := by
  have hi0 : (i 0).val < 64 := (i 0).isLt
  have hi1 : (i 1).val < 1 := (i 1).isLt
  have hi2 : (i 2).val < 128 := (i 2).isLt
  have ht : (i 0).val < cfg8.N := by rw [hN]; omega
  obtain ⟨-, -, -, -, -, -, -, ⟨e0, e1, e2⟩⟩ := idx_facts ⟨(i 0).val, ht⟩
  refine ⟨⟨(i 0).val, ht⟩, flush8_7 _, ?_⟩
  rw [mem_7]
  intro a
  match a with
  | ⟨0, _⟩ =>
    show win8_7.index ⟨(i 0).val, ht⟩ (0 : Fin 3) * 1 ≤ (i 0).val ∧ (i 0).val < win8_7.index ⟨(i 0).val, ht⟩ (0 : Fin 3) * 1 + 1
    rw [e0]; show (i 0).val * 1 ≤ (i 0).val ∧ (i 0).val < (i 0).val * 1 + 1; omega
  | ⟨1, _⟩ =>
    show win8_7.index ⟨(i 0).val, ht⟩ (1 : Fin 3) * 1 ≤ (i 1).val ∧ (i 1).val < win8_7.index ⟨(i 0).val, ht⟩ (1 : Fin 3) * 1 + 1
    rw [e1]; omega
  | ⟨2, _⟩ =>
    show win8_7.index ⟨(i 0).val, ht⟩ (2 : Fin 3) * 128 ≤ (i 2).val ∧ (i 2).val < win8_7.index ⟨(i 0).val, ht⟩ (2 : Fin 3) * 128 + 128
    rw [e2]; omega

/-! ## The arrays after the region -/

/-- The layer's output array: the bias row plus the product of the summed input rows with the weight. -/
theorem r8_lin (c : Dev nD) : (dat8 (F := Ideal) V c).arrAt 5 cfg8.N
    = klin (fun j => (V c main_v91 j +ᵉ V c main_v12 j) +ᵉ V c main_arg1 j) (V c main_v107) (V c main_v118) :=
  (dat8 V c).arrAt_eq_of_cover 5 _ (fun t _ => flushed_lin V c t) cover_5

/-- The per-tile column sums of the layer's output. -/
theorem r8_psum (c : Dev nD) : (dat8 (F := Ideal) V c).arrAt 6 cfg8.N
    = tilesum 64 4096 rfl (klin (fun j => (V c main_v91 j +ᵉ V c main_v12 j) +ᵉ V c main_arg1 j) (V c main_v107) (V c main_v118)) :=
  (dat8 V c).arrAt_eq_of_cover 6 _ (fun t _ => flushed_psum V c t) cover_6

/-- The per-tile column sums of squares of the layer's output. -/
theorem r8_psumsq (c : Dev nD) : (dat8 (F := Ideal) V c).arrAt 7 cfg8.N
    = tilesumsq 64 4096 rfl (klin (fun j => (V c main_v91 j +ᵉ V c main_v12 j) +ᵉ V c main_arg1 j) (V c main_v107) (V c main_v118)) :=
  (dat8 V c).arrAt_eq_of_cover 7 _ (fun t _ => flushed_psumsq V c t) cover_7

end Cert.KernelIdeal.Reg

end
-- ==== Proof.Reg.R9.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg9
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 262144 rows, tile by tile: the bias plus the normalised, ramped first layer times the weight, and each tile's column statistics -/

private theorem zero2_9 : (![0, 0] : Fin 2 → Nat) = fun _ => 0 := funext fun a => by fin_cases a <;> rfl
private theorem zero3_9 : (![0, 0, 0] : Fin 3 → Nat) = fun _ => 0 := funext fun a => by fin_cases a <;> rfl

/-! ## Which block each window holds at a grid point -/

/-- The tiled input and the result move with the grid point: block (t, 0). -/
private theorem idx9_rows : ∀ t : Fin cfg9.N,
    win9_0.index t (0 : Fin 2) = t.val ∧ win9_0.index t (1 : Fin 2) = 0
    ∧ win9_7.index t (0 : Fin 2) = t.val ∧ win9_7.index t (1 : Fin 2) = 0 :=
  (by decide +kernel : ∀ t : Fin grid9.N, _)

/-- The weight, the two moment rows, the scale, the shift and the bias stay at block (0, 0). -/
private theorem idx9_whole : ∀ t : Fin cfg9.N,
    win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0 :=
  (by decide +kernel : ∀ t : Fin grid9.N, _)

/-- The two statistics move with the grid point: block (t, 0, 0). -/
private theorem idx9_stats : ∀ t : Fin cfg9.N,
    win9_8.index t (0 : Fin 3) = t.val ∧ win9_8.index t (1 : Fin 3) = 0 ∧ win9_8.index t (2 : Fin 3) = 0
    ∧ win9_9.index t (0 : Fin 3) = t.val ∧ win9_9.index t (1 : Fin 3) = 0 ∧ win9_9.index t (2 : Fin 3) = 0 :=
  (by decide +kernel : ∀ t : Fin grid9.N, _)

/-! ## A window's block read off an array -/

/-- Window 0's block at grid point t is the 4096 rows of tile t. -/
private theorem read9_0 (t : Fin cfg9.N) (X : Mat 262144 128) :
    ((cfg9.win 0).blk t).view.read (Elt Ideal) X = selRows (tileRow 64 4096 rfl ⟨t.val, t.isLt⟩) X := by
  obtain ⟨a0, a1, -, -⟩ := idx9_rows t
  funext j
  show X (((cfg9.win 0).blk t).view.emb j) = X (ix2 (tileRow 64 4096 rfl ⟨t.val, t.isLt⟩ (j 0)) (j 1))
  refine congrArg X (funext fun a => Fin.ext ?_)
  match a with
  | ⟨0, _⟩ =>
    show win9_0.index t (0 : Fin 2) * 4096 + 1 * (j 0).val = t.val * 4096 + (j 0).val
    omega
  | ⟨1, _⟩ =>
    show win9_0.index t (1 : Fin 2) * 128 + 1 * (j 1).val = (j 1).val
    omega

/-- Window 7's block at grid point t is the 4096 rows of tile t. -/
private theorem read9_7 (t : Fin cfg9.N) (X : Mat 262144 128) :
    ((cfg9.win 7).blk t).view.read (Elt Ideal) X = selRows (tileRow 64 4096 rfl ⟨t.val, t.isLt⟩) X := by
  obtain ⟨-, -, b0, b1⟩ := idx9_rows t
  funext j
  show X (((cfg9.win 7).blk t).view.emb j) = X (ix2 (tileRow 64 4096 rfl ⟨t.val, t.isLt⟩ (j 0)) (j 1))
  refine congrArg X (funext fun a => Fin.ext ?_)
  match a with
  | ⟨0, _⟩ =>
    show win9_7.index t (0 : Fin 2) * 4096 + 1 * (j 0).val = t.val * 4096 + (j 0).val
    omega
  | ⟨1, _⟩ =>
    show win9_7.index t (1 : Fin 2) * 128 + 1 * (j 1).val = (j 1).val
    omega

/-- Window 1 holds its whole 128×128 array at every grid point. -/
private theorem read9_1 (t : Fin cfg9.N) (X : Mat 128 128) :
    ((cfg9.win 1).blk t).view.read (Elt Ideal) X = X := by
  obtain ⟨e0, e1, -, -, -, -, -, -, -, -, -, -⟩ := idx9_whole t
  funext j
  show X (((cfg9.win 1).blk t).view.emb j) = X j
  refine congrArg X (funext fun a => Fin.ext ?_)
  match a with
  | ⟨0, _⟩ =>
    show win9_1.index t (0 : Fin 2) * 128 + 1 * (j 0).val = (j 0).val
    omega
  | ⟨1, _⟩ =>
    show win9_1.index t (1 : Fin 2) * 128 + 1 * (j 1).val = (j 1).val
    omega

/-- Window 2 holds its whole 1×128 array at every grid point. -/
private theorem read9_2 (t : Fin cfg9.N) (X : Mat 1 128) :
    ((cfg9.win 2).blk t).view.read (Elt Ideal) X = X := by
  obtain ⟨-, -, e0, e1, -, -, -, -, -, -, -, -⟩ := idx9_whole t
  funext j
  show X (((cfg9.win 2).blk t).view.emb j) = X j
  refine congrArg X (funext fun a => Fin.ext ?_)
  match a with
  | ⟨0, _⟩ =>
    show win9_2.index t (0 : Fin 2) * 1 + 1 * (j 0).val = (j 0).val
    omega
  | ⟨1, _⟩ =>
    show win9_2.index t (1 : Fin 2) * 128 + 1 * (j 1).val = (j 1).val
    omega

/-- Window 3 holds its whole 1×128 array at every grid point. -/
private theorem read9_3 (t : Fin cfg9.N) (X : Mat 1 128) :
    ((cfg9.win 3).blk t).view.read (Elt Ideal) X = X := by
  obtain ⟨-, -, -, -, e0, e1, -, -, -, -, -, -⟩ := idx9_whole t
  funext j
  show X (((cfg9.win 3).blk t).view.emb j) = X j
  refine congrArg X (funext fun a => Fin.ext ?_)
  match a with
  | ⟨0, _⟩ =>
    show win9_3.index t (0 : Fin 2) * 1 + 1 * (j 0).val = (j 0).val
    omega
  | ⟨1, _⟩ =>
    show win9_3.index t (1 : Fin 2) * 128 + 1 * (j 1).val = (j 1).val
    omega

/-- Window 4 holds its whole 1×128 array at every grid point. -/
private theorem read9_4 (t : Fin cfg9.N) (X : Mat 1 128) :
    ((cfg9.win 4).blk t).view.read (Elt Ideal) X = X := by
  obtain ⟨-, -, -, -, -, -, e0, e1, -, -, -, -⟩ := idx9_whole t
  funext j
  show X (((cfg9.win 4).blk t).view.emb j) = X j
  refine congrArg X (funext fun a => Fin.ext ?_)
  match a with
  | ⟨0, _⟩ =>
    show win9_4.index t (0 : Fin 2) * 1 + 1 * (j 0).val = (j 0).val
    omega
  | ⟨1, _⟩ =>
    show win9_4.index t (1 : Fin 2) * 128 + 1 * (j 1).val = (j 1).val
    omega

/-- Window 5 holds its whole 1×128 array at every grid point. -/
private theorem read9_5 (t : Fin cfg9.N) (X : Mat 1 128) :
    ((cfg9.win 5).blk t).view.read (Elt Ideal) X = X := by
  obtain ⟨-, -, -, -, -, -, -, -, e0, e1, -, -⟩ := idx9_whole t
  funext j
  show X (((cfg9.win 5).blk t).view.emb j) = X j
  refine congrArg X (funext fun a => Fin.ext ?_)
  match a with
  | ⟨0, _⟩ =>
    show win9_5.index t (0 : Fin 2) * 1 + 1 * (j 0).val = (j 0).val
    omega
  | ⟨1, _⟩ =>
    show win9_5.index t (1 : Fin 2) * 128 + 1 * (j 1).val = (j 1).val
    omega

/-- Window 6 holds its whole 1×128 array at every grid point. -/
private theorem read9_6 (t : Fin cfg9.N) (X : Mat 1 128) :
    ((cfg9.win 6).blk t).view.read (Elt Ideal) X = X := by
  obtain ⟨-, -, -, -, -, -, -, -, -, -, e0, e1⟩ := idx9_whole t
  funext j
  show X (((cfg9.win 6).blk t).view.emb j) = X j
  refine congrArg X (funext fun a => Fin.ext ?_)
  match a with
  | ⟨0, _⟩ =>
    show win9_6.index t (0 : Fin 2) * 1 + 1 * (j 0).val = (j 0).val
    omega
  | ⟨1, _⟩ =>
    show win9_6.index t (1 : Fin 2) * 128 + 1 * (j 1).val = (j 1).val
    omega

/-- Window 8's block at grid point t is tile t's slot of the 64×1×128 statistics. -/
private theorem read9_8 (t : Fin cfg9.N) (X : Cube 64 1 128) :
    ((cfg9.win 8).blk t).view.read (Elt Ideal) X
      = fun y : (⟨3, ![1, 1, 128]⟩ : Shape).Idx => X (ix3 (⟨t.val, t.isLt⟩ : Fin 64) 0 (y 2)) := by
  obtain ⟨a0, a1, a2, -, -, -⟩ := idx9_stats t
  funext y
  show X (((cfg9.win 8).blk t).view.emb y) = X (ix3 (⟨t.val, t.isLt⟩ : Fin 64) 0 (y 2))
  refine congrArg X (funext fun a => Fin.ext ?_)
  have h0 : (y 0).val < 1 := (y 0).isLt
  have h1 : (y 1).val < 1 := (y 1).isLt
  match a with
  | ⟨0, _⟩ =>
    show win9_8.index t (0 : Fin 3) * 1 + 1 * (y 0).val = t.val
    omega
  | ⟨1, _⟩ =>
    show win9_8.index t (1 : Fin 3) * 1 + 1 * (y 1).val = 0
    omega
  | ⟨2, _⟩ =>
    show win9_8.index t (2 : Fin 3) * 128 + 1 * (y 2).val = (y 2).val
    omega

/-- Window 9's block at grid point t is tile t's slot of the 64×1×128 statistics. -/
private theorem read9_9 (t : Fin cfg9.N) (X : Cube 64 1 128) :
    ((cfg9.win 9).blk t).view.read (Elt Ideal) X
      = fun y : (⟨3, ![1, 1, 128]⟩ : Shape).Idx => X (ix3 (⟨t.val, t.isLt⟩ : Fin 64) 0 (y 2)) := by
  obtain ⟨-, -, -, b0, b1, b2⟩ := idx9_stats t
  funext y
  show X (((cfg9.win 9).blk t).view.emb y) = X (ix3 (⟨t.val, t.isLt⟩ : Fin 64) 0 (y 2))
  refine congrArg X (funext fun a => Fin.ext ?_)
  have h0 : (y 0).val < 1 := (y 0).isLt
  have h1 : (y 1).val < 1 := (y 1).isLt
  match a with
  | ⟨0, _⟩ =>
    show win9_9.index t (0 : Fin 3) * 1 + 1 * (y 0).val = t.val
    omega
  | ⟨1, _⟩ =>
    show win9_9.index t (1 : Fin 3) * 1 + 1 * (y 1).val = 0
    omega
  | ⟨2, _⟩ =>
    show win9_9.index t (2 : Fin 3) * 128 + 1 * (y 2).val = (y 2).val
    omega

/-! ## The input blocks at a grid point -/

private theorem in9_0 (c : Dev nD) (t : Fin cfg9.N) :
    iblk9 (F := Ideal) V c 0 t = selRows (tileRow 64 4096 rfl ⟨t.val, t.isLt⟩) (V c main_v119_0) := by
  unfold iblk9
  exact read9_0 t (V c main_v119_0)
private theorem in9_1 (c : Dev nD) (t : Fin cfg9.N) :
    iblk9 (F := Ideal) V c 1 t = V c main_v115 := by
  unfold iblk9
  exact read9_1 t (V c main_v115)
private theorem in9_2 (c : Dev nD) (t : Fin cfg9.N) :
    iblk9 (F := Ideal) V c 2 t = V c main_v120 := by
  unfold iblk9
  exact read9_2 t (V c main_v120)
private theorem in9_3 (c : Dev nD) (t : Fin cfg9.N) :
    iblk9 (F := Ideal) V c 3 t = V c main_v121 := by
  unfold iblk9
  exact read9_3 t (V c main_v121)
private theorem in9_4 (c : Dev nD) (t : Fin cfg9.N) :
    iblk9 (F := Ideal) V c 4 t = V c main_v123 := by
  unfold iblk9
  exact read9_4 t (V c main_v123)
private theorem in9_5 (c : Dev nD) (t : Fin cfg9.N) :
    iblk9 (F := Ideal) V c 5 t = V c main_v124 := by
  unfold iblk9
  exact read9_5 t (V c main_v124)
private theorem in9_6 (c : Dev nD) (t : Fin cfg9.N) :
    iblk9 (F := Ideal) V c 6 t = V c main_v122 := by
  unfold iblk9
  exact read9_6 t (V c main_v122)

/-! ## What grid point t writes back -/

/-- Tile t of the result is the second layer of tile t of the input. -/
private theorem wrote9_7 (c : Dev nD) (t : Fin cfg9.N) :
    (dat9 (F := Ideal) V c).flushed 7 t
      = ((cfg9.win 7).blk t).view.read (Elt Ideal) (klin (kbnrelu Cert.Consts.k18 Cert.Consts.eps (V c main_v120) (V c main_v121) (V c main_v119_0) (V c main_v123) (V c main_v124)) (V c main_v115) (V c main_v122)) := by
  show (cfg9.win 7).cut (grid9.coords t) ((dat9 (F := Ideal) V c).after 7 t) = _
  rw [after9_7]
  unfold out9_7
  rw [View.canon_unit_zero zero2_9]
  simp only [View.ld_unit_zero (S := S4096x128) zero2_9, View.ld_unit_zero (S := S1x128) zero2_9,
    View.ld_unit_zero (S := S128x128) zero2_9]
  rw [Blk.k9_out_eq (iblk9 V c 0 t) (iblk9 V c 1 t) (iblk9 V c 2 t) (iblk9 V c 3 t) (iblk9 V c 4 t) (iblk9 V c 5 t) (iblk9 V c 6 t)]
  rw [in9_0 V c t, in9_1 V c t, in9_2 V c t, in9_3 V c t, in9_4 V c t, in9_5 V c t, in9_6 V c t]
  rw [read9_7, selRows_klin, selRows_kbnrelu]
  rfl

/-- Tile t's slot of the column sums is the column sums of tile t of the result. -/
private theorem wrote9_8 (c : Dev nD) (t : Fin cfg9.N) :
    (dat9 (F := Ideal) V c).flushed 8 t
      = ((cfg9.win 8).blk t).view.read (Elt Ideal) (tilesum 64 4096 rfl (klin (kbnrelu Cert.Consts.k18 Cert.Consts.eps (V c main_v120) (V c main_v121) (V c main_v119_0) (V c main_v123) (V c main_v124)) (V c main_v115) (V c main_v122))) := by
  show (cfg9.win 8).cut (grid9.coords t) ((dat9 (F := Ideal) V c).after 8 t) = _
  rw [after9_8]
  unfold out9_8
  rw [View.canon_unit_zero zero3_9]
  simp only [View.ld_unit_zero (S := S4096x128) zero2_9, View.ld_unit_zero (S := S1x128) zero2_9,
    View.ld_unit_zero (S := S128x128) zero2_9]
  rw [Blk.k9_psum_eq (iblk9 V c 0 t) (iblk9 V c 1 t) (iblk9 V c 2 t) (iblk9 V c 3 t) (iblk9 V c 4 t) (iblk9 V c 5 t) (iblk9 V c 6 t)]
  rw [in9_0 V c t, in9_1 V c t, in9_2 V c t, in9_3 V c t, in9_4 V c t, in9_5 V c t, in9_6 V c t]
  rw [read9_8, ← selRows_kbnrelu, ← selRows_klin]
  exact (tilesum_tile 64 4096 rfl (klin (kbnrelu Cert.Consts.k18 Cert.Consts.eps (V c main_v120) (V c main_v121) (V c main_v119_0) (V c main_v123) (V c main_v124)) (V c main_v115) (V c main_v122)) ⟨t.val, t.isLt⟩).symm

/-- Tile t's slot of the column sums of squares is those of tile t of the result. -/
private theorem wrote9_9 (c : Dev nD) (t : Fin cfg9.N) :
    (dat9 (F := Ideal) V c).flushed 9 t
      = ((cfg9.win 9).blk t).view.read (Elt Ideal) (tilesumsq 64 4096 rfl (klin (kbnrelu Cert.Consts.k18 Cert.Consts.eps (V c main_v120) (V c main_v121) (V c main_v119_0) (V c main_v123) (V c main_v124)) (V c main_v115) (V c main_v122))) := by
  show (cfg9.win 9).cut (grid9.coords t) ((dat9 (F := Ideal) V c).after 9 t) = _
  rw [after9_9]
  unfold out9_9
  rw [View.canon_unit_zero zero3_9]
  simp only [View.ld_unit_zero (S := S4096x128) zero2_9, View.ld_unit_zero (S := S1x128) zero2_9,
    View.ld_unit_zero (S := S128x128) zero2_9]
  rw [Blk.k9_psumsq_eq (iblk9 V c 0 t) (iblk9 V c 1 t) (iblk9 V c 2 t) (iblk9 V c 3 t) (iblk9 V c 4 t) (iblk9 V c 5 t) (iblk9 V c 6 t)]
  rw [in9_0 V c t, in9_1 V c t, in9_2 V c t, in9_3 V c t, in9_4 V c t, in9_5 V c t, in9_6 V c t]
  rw [read9_9, ← selRows_kbnrelu, ← selRows_klin]
  exact (tilesumsq_tile 64 4096 rfl (klin (kbnrelu Cert.Consts.k18 Cert.Consts.eps (V c main_v120) (V c main_v121) (V c main_v119_0) (V c main_v123) (V c main_v124)) (V c main_v115) (V c main_v122)) ⟨t.val, t.isLt⟩).symm

/-! ## Every entry of each result array is written by some grid point -/

private theorem mem9_7 (t : Fin cfg9.N) (i : S262144x128.Idx) :
    i ∈ ((cfg9.win 7).blk t).view.set ↔ ∀ a : Fin 2, win9_7.index t a * S4096x128.size a ≤ (i a).val ∧ (i a).val < win9_7.index t a * S4096x128.size a + S4096x128.size a := by
  show i ∈ ((View.whole main_v125_0).slice (win9_7.rect t)).set ↔ _
  rw [View.set_slice_whole, Rect.mem_set_unit]
  exact Iff.rfl

/-- Row r lies in tile r / 4096. -/
private theorem covered9_7 (i : S262144x128.Idx) :
    ∃ t : Fin cfg9.N, (cfg9.win 7).flush t = true ∧ i ∈ ((cfg9.win 7).blk t).view.set := by
  have hi0 : (i 0).val < 262144 := (i 0).isLt
  have hi1 : (i 1).val < 128 := (i 1).isLt
  have ht : (i 0).val / 4096 < grid9.N := by show _ < 64; omega
  obtain ⟨-, -, b0, b1⟩ := idx9_rows ⟨(i 0).val / 4096, ht⟩
  refine ⟨⟨(i 0).val / 4096, ht⟩, flush9_7 _, ?_⟩
  rw [mem9_7]
  intro a
  match a with
  | ⟨0, _⟩ =>
    show win9_7.index ⟨(i 0).val / 4096, ht⟩ (0 : Fin 2) * 4096 ≤ (i 0).val ∧ (i 0).val < win9_7.index ⟨(i 0).val / 4096, ht⟩ (0 : Fin 2) * 4096 + 4096
    have e : win9_7.index ⟨(i 0).val / 4096, ht⟩ (0 : Fin 2) = (i 0).val / 4096 := b0
    omega
  | ⟨1, _⟩ =>
    show win9_7.index ⟨(i 0).val / 4096, ht⟩ (1 : Fin 2) * 128 ≤ (i 1).val ∧ (i 1).val < win9_7.index ⟨(i 0).val / 4096, ht⟩ (1 : Fin 2) * 128 + 128
    have e : win9_7.index ⟨(i 0).val / 4096, ht⟩ (1 : Fin 2) = 0 := b1
    omega

private theorem mem9_8 (t : Fin cfg9.N) (i : S64x1x128.Idx) :
    i ∈ ((cfg9.win 8).blk t).view.set ↔ ∀ a : Fin 3, win9_8.index t a * S1x1x128.size a ≤ (i a).val ∧ (i a).val < win9_8.index t a * S1x1x128.size a + S1x1x128.size a := by
  show i ∈ ((View.whole main_v125_1).slice (win9_8.rect t)).set ↔ _
  rw [View.set_slice_whole, Rect.mem_set_unit]
  exact Iff.rfl

/-- Slot u is written at grid point u. -/
private theorem covered9_8 (i : S64x1x128.Idx) :
    ∃ t : Fin cfg9.N, (cfg9.win 8).flush t = true ∧ i ∈ ((cfg9.win 8).blk t).view.set := by
  have hi0 : (i 0).val < 64 := (i 0).isLt
  have hi1 : (i 1).val < 1 := (i 1).isLt
  have hi2 : (i 2).val < 128 := (i 2).isLt
  have ht : (i 0).val < grid9.N := hi0
  obtain ⟨a0, a1, a2, -, -, -⟩ := idx9_stats ⟨(i 0).val, ht⟩
  refine ⟨⟨(i 0).val, ht⟩, flush9_8 _, ?_⟩
  rw [mem9_8]
  intro a
  match a with
  | ⟨0, _⟩ =>
    show win9_8.index ⟨(i 0).val, ht⟩ (0 : Fin 3) * 1 ≤ (i 0).val ∧ (i 0).val < win9_8.index ⟨(i 0).val, ht⟩ (0 : Fin 3) * 1 + 1
    have e : win9_8.index ⟨(i 0).val, ht⟩ (0 : Fin 3) = (i 0).val := a0
    omega
  | ⟨1, _⟩ =>
    show win9_8.index ⟨(i 0).val, ht⟩ (1 : Fin 3) * 1 ≤ (i 1).val ∧ (i 1).val < win9_8.index ⟨(i 0).val, ht⟩ (1 : Fin 3) * 1 + 1
    have e : win9_8.index ⟨(i 0).val, ht⟩ (1 : Fin 3) = 0 := a1
    omega
  | ⟨2, _⟩ =>
    show win9_8.index ⟨(i 0).val, ht⟩ (2 : Fin 3) * 128 ≤ (i 2).val ∧ (i 2).val < win9_8.index ⟨(i 0).val, ht⟩ (2 : Fin 3) * 128 + 128
    have e : win9_8.index ⟨(i 0).val, ht⟩ (2 : Fin 3) = 0 := a2
    omega

private theorem mem9_9 (t : Fin cfg9.N) (i : S64x1x128.Idx) :
    i ∈ ((cfg9.win 9).blk t).view.set ↔ ∀ a : Fin 3, win9_9.index t a * S1x1x128.size a ≤ (i a).val ∧ (i a).val < win9_9.index t a * S1x1x128.size a + S1x1x128.size a := by
  show i ∈ ((View.whole main_v125_2).slice (win9_9.rect t)).set ↔ _
  rw [View.set_slice_whole, Rect.mem_set_unit]
  exact Iff.rfl

/-- Slot u is written at grid point u. -/
private theorem covered9_9 (i : S64x1x128.Idx) :
    ∃ t : Fin cfg9.N, (cfg9.win 9).flush t = true ∧ i ∈ ((cfg9.win 9).blk t).view.set := by
  have hi0 : (i 0).val < 64 := (i 0).isLt
  have hi1 : (i 1).val < 1 := (i 1).isLt
  have hi2 : (i 2).val < 128 := (i 2).isLt
  have ht : (i 0).val < grid9.N := hi0
  obtain ⟨-, -, -, a0, a1, a2⟩ := idx9_stats ⟨(i 0).val, ht⟩
  refine ⟨⟨(i 0).val, ht⟩, flush9_9 _, ?_⟩
  rw [mem9_9]
  intro a
  match a with
  | ⟨0, _⟩ =>
    show win9_9.index ⟨(i 0).val, ht⟩ (0 : Fin 3) * 1 ≤ (i 0).val ∧ (i 0).val < win9_9.index ⟨(i 0).val, ht⟩ (0 : Fin 3) * 1 + 1
    have e : win9_9.index ⟨(i 0).val, ht⟩ (0 : Fin 3) = (i 0).val := a0
    omega
  | ⟨1, _⟩ =>
    show win9_9.index ⟨(i 0).val, ht⟩ (1 : Fin 3) * 1 ≤ (i 1).val ∧ (i 1).val < win9_9.index ⟨(i 0).val, ht⟩ (1 : Fin 3) * 1 + 1
    have e : win9_9.index ⟨(i 0).val, ht⟩ (1 : Fin 3) = 0 := a1
    omega
  | ⟨2, _⟩ =>
    show win9_9.index ⟨(i 0).val, ht⟩ (2 : Fin 3) * 128 ≤ (i 2).val ∧ (i 2).val < win9_9.index ⟨(i 0).val, ht⟩ (2 : Fin 3) * 128 + 128
    have e : win9_9.index ⟨(i 0).val, ht⟩ (2 : Fin 3) = 0 := a2
    omega

/-! ## The arrays the region leaves -/

/-- The result array: the second layer of the whole input. -/
theorem r9_lin (c : Dev nD) :
    (dat9 (F := Ideal) V c).arrAt 7 cfg9.N = klin (kbnrelu Cert.Consts.k18 Cert.Consts.eps (V c main_v120) (V c main_v121) (V c main_v119_0) (V c main_v123) (V c main_v124)) (V c main_v115) (V c main_v122) :=
  (dat9 (F := Ideal) V c).arrAt_eq_of_cover 7 _ (fun t _ => wrote9_7 V c t) covered9_7

/-- Its per-tile column sums. -/
theorem r9_psum (c : Dev nD) :
    (dat9 (F := Ideal) V c).arrAt 8 cfg9.N = tilesum 64 4096 rfl (klin (kbnrelu Cert.Consts.k18 Cert.Consts.eps (V c main_v120) (V c main_v121) (V c main_v119_0) (V c main_v123) (V c main_v124)) (V c main_v115) (V c main_v122)) :=
  (dat9 (F := Ideal) V c).arrAt_eq_of_cover 8 _ (fun t _ => wrote9_8 V c t) covered9_8

/-- Its per-tile column sums of squares. -/
theorem r9_psumsq (c : Dev nD) :
    (dat9 (F := Ideal) V c).arrAt 9 cfg9.N = tilesumsq 64 4096 rfl (klin (kbnrelu Cert.Consts.k18 Cert.Consts.eps (V c main_v120) (V c main_v121) (V c main_v119_0) (V c main_v123) (V c main_v124)) (V c main_v115) (V c main_v122)) :=
  (dat9 (F := Ideal) V c).arrAt_eq_of_cover 9 _ (fun t _ => wrote9_9 V c t) covered9_9

end Cert.KernelIdeal.Reg

end
-- ==== Proof.Reg.R10.lean ====
/-
  Region 10: a first linear layer over 262144 rows in 64 tiles of 4096. Each grid point takes one tile of the
  three summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg10
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 64 points, one per tile of 4096 rows. -/
private theorem hN : cfg10.N = 64 := rfl

/-- A grid point as a tile number. -/
private def tile (t : Fin cfg10.N) : Fin 64 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg10.N,
    (win10_0.index t (0 : Fin 2) = t.val ∧ win10_0.index t (1 : Fin 2) = 0)
    ∧ (win10_1.index t (0 : Fin 2) = t.val ∧ win10_1.index t (1 : Fin 2) = 0)
    ∧ (win10_2.index t (0 : Fin 2) = t.val ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = t.val ∧ win10_5.index t (1 : Fin 2) = 0)
    ∧ (win10_6.index t (0 : Fin 3) = t.val ∧ win10_6.index t (1 : Fin 3) = 0 ∧ win10_6.index t (2 : Fin 3) = 0)
    ∧ (win10_7.index t (0 : Fin 3) = t.val ∧ win10_7.index t (1 : Fin 3) = 0 ∧ win10_7.index t (2 : Fin 3) = 0) :=
  (by decide +kernel : ∀ t : Fin grid10.N, _)

/-! ## The blocks, read off their arrays -/

/-- Window 0's block at point t holds the rows of tile t of its array. -/
private theorem rows_0 (X : S262144x128.Idx → EReal) (t : Fin cfg10.N) :
    ((cfg10.win 0).blk t).view.read (Elt Ideal) X = selRows (tileRow 64 4096 rfl (tile t)) X := by
  obtain ⟨⟨e0, e1⟩, -⟩ := idx_facts t
  funext y
  show X (((cfg10.win 0).blk t).view.emb y) = X (ix2 (tileRow 64 4096 rfl (tile t) (y 0)) (y 1))
  refine congrArg X ?_
  funext a
  apply Fin.ext
  match a with
  | ⟨0, _⟩ => show win10_0.index t (0 : Fin 2) * 4096 + 1 * (y 0).val = t.val * 4096 + (y 0).val; rw [e0]; omega
  | ⟨1, _⟩ => show win10_0.index t (1 : Fin 2) * 128 + 1 * (y 1).val = (y 1).val; rw [e1]; omega

/-- Window 1's block at point t holds the rows of tile t of its array. -/
private theorem rows_1 (X : S262144x128.Idx → EReal) (t : Fin cfg10.N) :
    ((cfg10.win 1).blk t).view.read (Elt Ideal) X = selRows (tileRow 64 4096 rfl (tile t)) X := by
  obtain ⟨-, ⟨e0, e1⟩, -⟩ := idx_facts t
  funext y
  show X (((cfg10.win 1).blk t).view.emb y) = X (ix2 (tileRow 64 4096 rfl (tile t) (y 0)) (y 1))
  refine congrArg X ?_
  funext a
  apply Fin.ext
  match a with
  | ⟨0, _⟩ => show win10_1.index t (0 : Fin 2) * 4096 + 1 * (y 0).val = t.val * 4096 + (y 0).val; rw [e0]; omega
  | ⟨1, _⟩ => show win10_1.index t (1 : Fin 2) * 128 + 1 * (y 1).val = (y 1).val; rw [e1]; omega

/-- Window 2's block at point t holds the rows of tile t of its array. -/
private theorem rows_2 (X : S262144x128.Idx → EReal) (t : Fin cfg10.N) :
    ((cfg10.win 2).blk t).view.read (Elt Ideal) X = selRows (tileRow 64 4096 rfl (tile t)) X := by
  obtain ⟨-, -, ⟨e0, e1⟩, -⟩ := idx_facts t
  funext y
  show X (((cfg10.win 2).blk t).view.emb y) = X (ix2 (tileRow 64 4096 rfl (tile t) (y 0)) (y 1))
  refine congrArg X ?_
  funext a
  apply Fin.ext
  match a with
  | ⟨0, _⟩ => show win10_2.index t (0 : Fin 2) * 4096 + 1 * (y 0).val = t.val * 4096 + (y 0).val; rw [e0]; omega
  | ⟨1, _⟩ => show win10_2.index t (1 : Fin 2) * 128 + 1 * (y 1).val = (y 1).val; rw [e1]; omega

/-- Window 3's block is its whole array at every point. -/
private theorem whole_3 (X : S128x128.Idx → EReal) (t : Fin cfg10.N) :
    ((cfg10.win 3).blk t).view.read (Elt Ideal) X = X := by
  obtain ⟨-, -, -, ⟨e0, e1⟩, -⟩ := idx_facts t
  funext y
  show X (((cfg10.win 3).blk t).view.emb y) = X y
  refine congrArg X ?_
  funext a
  apply Fin.ext
  match a with
  | ⟨0, _⟩ => show win10_3.index t (0 : Fin 2) * 128 + 1 * (y 0).val = (y 0).val; rw [e0]; omega
  | ⟨1, _⟩ => show win10_3.index t (1 : Fin 2) * 128 + 1 * (y 1).val = (y 1).val; rw [e1]; omega

/-- Window 4's block is its whole array at every point. -/
private theorem whole_4 (X : S1x128.Idx → EReal) (t : Fin cfg10.N) :
    ((cfg10.win 4).blk t).view.read (Elt Ideal) X = X := by
  obtain ⟨-, -, -, -, ⟨e0, e1⟩, -⟩ := idx_facts t
  funext y
  show X (((cfg10.win 4).blk t).view.emb y) = X y
  refine congrArg X ?_
  funext a
  apply Fin.ext
  match a with
  | ⟨0, _⟩ => show win10_4.index t (0 : Fin 2) * 1 + 1 * (y 0).val = (y 0).val; rw [e0]; omega
  | ⟨1, _⟩ => show win10_4.index t (1 : Fin 2) * 128 + 1 * (y 1).val = (y 1).val; rw [e1]; omega

/-- Window 5's block at point t holds the rows of tile t of its array. -/
private theorem rows_5 (X : S262144x128.Idx → EReal) (t : Fin cfg10.N) :
    ((cfg10.win 5).blk t).view.read (Elt Ideal) X = selRows (tileRow 64 4096 rfl (tile t)) X := by
  obtain ⟨-, -, -, -, -, ⟨e0, e1⟩, -⟩ := idx_facts t
  funext y
  show X (((cfg10.win 5).blk t).view.emb y) = X (ix2 (tileRow 64 4096 rfl (tile t) (y 0)) (y 1))
  refine congrArg X ?_
  funext a
  apply Fin.ext
  match a with
  | ⟨0, _⟩ => show win10_5.index t (0 : Fin 2) * 4096 + 1 * (y 0).val = t.val * 4096 + (y 0).val; rw [e0]; omega
  | ⟨1, _⟩ => show win10_5.index t (1 : Fin 2) * 128 + 1 * (y 1).val = (y 1).val; rw [e1]; omega

/-- Window 6's block at point t is tile t's row of the per-tile statistics. -/
private theorem stat_6 (P : S64x1x128.Idx → EReal) (t : Fin cfg10.N) :
    ((cfg10.win 6).blk t).view.read (Elt Ideal) P = fun y : (⟨3, ![1, 1, 128]⟩ : Shape).Idx => P (ix3 (tile t) 0 (y 2)) := by
  obtain ⟨-, -, -, -, -, -, ⟨e0, e1, e2⟩, -⟩ := idx_facts t
  funext y
  show P (((cfg10.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win10_6.index t (0 : Fin 3) * 1 + 1 * (y 0).val = t.val; rw [e0]; omega
  | ⟨1, _⟩ => show win10_6.index t (1 : Fin 3) * 1 + 1 * (y 1).val = 0; rw [e1]; omega
  | ⟨2, _⟩ => show win10_6.index t (2 : Fin 3) * 128 + 1 * (y 2).val = (y 2).val; rw [e2]; omega

/-- Window 7's block at point t is tile t's row of the per-tile statistics. -/
private theorem stat_7 (P : S64x1x128.Idx → EReal) (t : Fin cfg10.N) :
    ((cfg10.win 7).blk t).view.read (Elt Ideal) P = fun y : (⟨3, ![1, 1, 128]⟩ : Shape).Idx => P (ix3 (tile t) 0 (y 2)) := by
  obtain ⟨-, -, -, -, -, -, -, ⟨e0, e1, e2⟩⟩ := idx_facts t
  funext y
  show P (((cfg10.win 7).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win10_7.index t (0 : Fin 3) * 1 + 1 * (y 0).val = t.val; rw [e0]; omega
  | ⟨1, _⟩ => show win10_7.index t (1 : Fin 3) * 1 + 1 * (y 1).val = 0; rw [e1]; omega
  | ⟨2, _⟩ => show win10_7.index t (2 : Fin 3) * 128 + 1 * (y 2).val = (y 2).val; rw [e2]; omega

private theorem iblk_0 (c : Dev nD) (t : Fin cfg10.N) :
    iblk10 (F := Ideal) V c 0 t = selRows (tileRow 64 4096 rfl (tile t)) (V c main_v105) := rows_0 _ t
private theorem iblk_1 (c : Dev nD) (t : Fin cfg10.N) :
    iblk10 (F := Ideal) V c 1 t = selRows (tileRow 64 4096 rfl (tile t)) (V c main_v98) := rows_1 _ t
private theorem iblk_2 (c : Dev nD) (t : Fin cfg10.N) :
    iblk10 (F := Ideal) V c 2 t = selRows (tileRow 64 4096 rfl (tile t)) (V c main_arg1) := rows_2 _ t
private theorem iblk_3 (c : Dev nD) (t : Fin cfg10.N) : iblk10 (F := Ideal) V c 3 t = V c main_v129 := whole_3 _ t
private theorem iblk_4 (c : Dev nD) (t : Fin cfg10.N) : iblk10 (F := Ideal) V c 4 t = V c main_v140 := whole_4 _ t

/-- Selecting rows commutes with the layer: the linear map acts on each row by itself. -/
private theorem sel_lin {R B : Nat} (f : Fin B → Fin R) (p0 p1 p2 : Mat R 128) (W : Mat 128 128) (b : Mat 1 128) :
    selRows f (klin (fun j => (p0 j + p1 j) + p2 j) W b) = klin (fun j => (selRows f p0 j + selRows f p1 j) + selRows f p2 j) W b := by
  rw [selRows_klin]
  rfl

/-! ## What each point writes back -/

/-- What point t writes back to the layer's output: the rows of tile t of the whole-array linear map. -/
private theorem flushed_lin (c : Dev nD) (t : Fin cfg10.N) :
    (dat10 (F := Ideal) V c).flushed 5 t = ((cfg10.win 5).blk t).view.read (Elt Ideal)
      (klin (fun j => (V c main_v105 j +ᵉ V c main_v98 j) +ᵉ V c main_arg1 j) (V c main_v129) (V c main_v140)) := by
  show (cfg10.win 5).cut (grid10.coords t) ((dat10 V c).after 5 t) = _
  rw [after10_5]
  unfold out10_5
  rw [View.canon_unit_zero hz2]
  simp only [View.ld_unit_zero (S := S4096x128) hz2, View.ld_unit_zero (S := S128x128) hz2, View.ld_unit_zero (S := S1x128) hz2]
  rw [Blk.k10_pay1_eq, rows_5, sel_lin, iblk_0 V c t, iblk_1 V c t, iblk_2 V c t, iblk_3 V c t, iblk_4 V c t]
  rfl

/-- What point t writes back to the column sums: tile t's row of the whole array's per-tile column sums. -/
private theorem flushed_psum (c : Dev nD) (t : Fin cfg10.N) :
    (dat10 (F := Ideal) V c).flushed 6 t = ((cfg10.win 6).blk t).view.read (Elt Ideal)
      (tilesum 64 4096 rfl (klin (fun j => (V c main_v105 j +ᵉ V c main_v98 j) +ᵉ V c main_arg1 j) (V c main_v129) (V c main_v140))) := by
  show (cfg10.win 6).cut (grid10.coords t) ((dat10 V c).after 6 t) = _
  rw [after10_6]
  unfold out10_6
  rw [View.canon_unit_zero hz3]
  simp only [View.ld_unit_zero (S := S4096x128) hz2, View.ld_unit_zero (S := S128x128) hz2, View.ld_unit_zero (S := S1x128) hz2]
  rw [Blk.k10_pay2_eq, stat_6, tilesum_tile, sel_lin, iblk_0 V c t, iblk_1 V c t, iblk_2 V c t, iblk_3 V c t, iblk_4 V c t]
  rfl

/-- What point t writes back to the column sums of squares: tile t's row of the whole array's per-tile column sums of squares. -/
private theorem flushed_psumsq (c : Dev nD) (t : Fin cfg10.N) :
    (dat10 (F := Ideal) V c).flushed 7 t = ((cfg10.win 7).blk t).view.read (Elt Ideal)
      (tilesumsq 64 4096 rfl (klin (fun j => (V c main_v105 j +ᵉ V c main_v98 j) +ᵉ V c main_arg1 j) (V c main_v129) (V c main_v140))) := by
  show (cfg10.win 7).cut (grid10.coords t) ((dat10 V c).after 7 t) = _
  rw [after10_7]
  unfold out10_7
  rw [View.canon_unit_zero hz3]
  simp only [View.ld_unit_zero (S := S4096x128) hz2, View.ld_unit_zero (S := S128x128) hz2, View.ld_unit_zero (S := S1x128) hz2]
  rw [Blk.k10_pay3_eq, stat_7, tilesumsq_tile, sel_lin, iblk_0 V c t, iblk_1 V c t, iblk_2 V c t, iblk_3 V c t, iblk_4 V c t]
  rfl

/-! ## The blocks cover the arrays -/

/-- An index of the array is in point t's block iff each coordinate is in the block's range on its axis. -/
private theorem mem_5 (t : Fin cfg10.N) (i : S262144x128.Idx) :
    i ∈ ((cfg10.win 5).blk t).view.set ↔ ∀ a : Fin 2, win10_5.index t a * S4096x128.size a ≤ (i a).val ∧ (i a).val < win10_5.index t a * S4096x128.size a + S4096x128.size a := by
  show i ∈ ((View.whole main_v141_0).slice (win10_5.rect t)).set ↔ _
  rw [View.set_slice_whole, Rect.mem_set_unit]
  exact Iff.rfl

/-- Row r lies in the block of tile r / 4096. -/
private theorem cover_5 (i : S262144x128.Idx) : ∃ t : Fin cfg10.N, (cfg10.win 5).flush t = true ∧ i ∈ ((cfg10.win 5).blk t).view.set := by
  have hi0 : (i 0).val < 262144 := (i 0).isLt
  have hi1 : (i 1).val < 128 := (i 1).isLt
  have ht : (i 0).val / 4096 < cfg10.N := by rw [hN]; omega
  obtain ⟨-, -, -, -, -, ⟨e0, e1⟩, -⟩ := idx_facts ⟨(i 0).val / 4096, ht⟩
  refine ⟨⟨(i 0).val / 4096, ht⟩, flush10_5 _, ?_⟩
  rw [mem_5]
  intro a
  match a with
  | ⟨0, _⟩ =>
    show win10_5.index ⟨(i 0).val / 4096, ht⟩ (0 : Fin 2) * 4096 ≤ (i 0).val ∧ (i 0).val < win10_5.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win10_5.index ⟨(i 0).val / 4096, ht⟩ (1 : Fin 2) * 128 ≤ (i 1).val ∧ (i 1).val < win10_5.index ⟨(i 0).val / 4096, ht⟩ (1 : Fin 2) * 128 + 128
    rw [e1]; omega

/-- An index of the statistics array is in point t's block iff each coordinate is in the block's range on its axis. -/
private theorem mem_6 (t : Fin cfg10.N) (i : S64x1x128.Idx) :
    i ∈ ((cfg10.win 6).blk t).view.set ↔ ∀ a : Fin 3, win10_6.index t a * S1x1x128.size a ≤ (i a).val ∧ (i a).val < win10_6.index t a * S1x1x128.size a + S1x1x128.size a := by
  show i ∈ ((View.whole main_v141_1).slice (win10_6.rect t)).set ↔ _
  rw [View.set_slice_whole, Rect.mem_set_unit]
  exact Iff.rfl

/-- Tile r's row lies in the block of point r. -/
private theorem cover_6 (i : S64x1x128.Idx) : ∃ t : Fin cfg10.N, (cfg10.win 6).flush t = true ∧ i ∈ ((cfg10.win 6).blk t).view.set := by
  have hi0 : (i 0).val < 64 := (i 0).isLt
  have hi1 : (i 1).val < 1 := (i 1).isLt
  have hi2 : (i 2).val < 128 := (i 2).isLt
  have ht : (i 0).val < cfg10.N := by rw [hN]; omega
  obtain ⟨-, -, -, -, -, -, ⟨e0, e1, e2⟩, -⟩ := idx_facts ⟨(i 0).val, ht⟩
  refine ⟨⟨(i 0).val, ht⟩, flush10_6 _, ?_⟩
  rw [mem_6]
  intro a
  match a with
  | ⟨0, _⟩ =>
    show win10_6.index ⟨(i 0).val, ht⟩ (0 : Fin 3) * 1 ≤ (i 0).val ∧ (i 0).val < win10_6.index ⟨(i 0).val, ht⟩ (0 : Fin 3) * 1 + 1
    rw [e0]; show (i 0).val * 1 ≤ (i 0).val ∧ (i 0).val < (i 0).val * 1 + 1; omega
  | ⟨1, _⟩ =>
    show win10_6.index ⟨(i 0).val, ht⟩ (1 : Fin 3) * 1 ≤ (i 1).val ∧ (i 1).val < win10_6.index ⟨(i 0).val, ht⟩ (1 : Fin 3) * 1 + 1
    rw [e1]; omega
  | ⟨2, _⟩ =>
    show win10_6.index ⟨(i 0).val, ht⟩ (2 : Fin 3) * 128 ≤ (i 2).val ∧ (i 2).val < win10_6.index ⟨(i 0).val, ht⟩ (2 : Fin 3) * 128 + 128
    rw [e2]; omega

/-- An index of the statistics array is in point t's block iff each coordinate is in the block's range on its axis. -/
private theorem mem_7 (t : Fin cfg10.N) (i : S64x1x128.Idx) :
    i ∈ ((cfg10.win 7).blk t).view.set ↔ ∀ a : Fin 3, win10_7.index t a * S1x1x128.size a ≤ (i a).val ∧ (i a).val < win10_7.index t a * S1x1x128.size a + S1x1x128.size a := by
  show i ∈ ((View.whole main_v141_2).slice (win10_7.rect t)).set ↔ _
  rw [View.set_slice_whole, Rect.mem_set_unit]
  exact Iff.rfl

/-- Tile r's row lies in the block of point r. -/
private theorem cover_7 (i : S64x1x128.Idx) : ∃ t : Fin cfg10.N, (cfg10.win 7).flush t = true ∧ i ∈ ((cfg10.win 7).blk t).view.set := by
  have hi0 : (i 0).val < 64 := (i 0).isLt
  have hi1 : (i 1).val < 1 := (i 1).isLt
  have hi2 : (i 2).val < 128 := (i 2).isLt
  have ht : (i 0).val < cfg10.N := by rw [hN]; omega
  obtain ⟨-, -, -, -, -, -, -, ⟨e0, e1, e2⟩⟩ := idx_facts ⟨(i 0).val, ht⟩
  refine ⟨⟨(i 0).val, ht⟩, flush10_7 _, ?_⟩
  rw [mem_7]
  intro a
  match a with
  | ⟨0, _⟩ =>
    show win10_7.index ⟨(i 0).val, ht⟩ (0 : Fin 3) * 1 ≤ (i 0).val ∧ (i 0).val < win10_7.index ⟨(i 0).val, ht⟩ (0 : Fin 3) * 1 + 1
    rw [e0]; show (i 0).val * 1 ≤ (i 0).val ∧ (i 0).val < (i 0).val * 1 + 1; omega
  | ⟨1, _⟩ =>
    show win10_7.index ⟨(i 0).val, ht⟩ (1 : Fin 3) * 1 ≤ (i 1).val ∧ (i 1).val < win10_7.index ⟨(i 0).val, ht⟩ (1 : Fin 3) * 1 + 1
    rw [e1]; omega
  | ⟨2, _⟩ =>
    show win10_7.index ⟨(i 0).val, ht⟩ (2 : Fin 3) * 128 ≤ (i 2).val ∧ (i 2).val < win10_7.index ⟨(i 0).val, ht⟩ (2 : Fin 3) * 128 + 128
    rw [e2]; omega

/-! ## The arrays after the region -/

/-- The layer's output array: the bias row plus the product of the summed input rows with the weight. -/
theorem r10_lin (c : Dev nD) : (dat10 (F := Ideal) V c).arrAt 5 cfg10.N
    = klin (fun j => (V c main_v105 j +ᵉ V c main_v98 j) +ᵉ V c main_arg1 j) (V c main_v129) (V c main_v140) :=
  (dat10 V c).arrAt_eq_of_cover 5 _ (fun t _ => flushed_lin V c t) cover_5

/-- The per-tile column sums of the layer's output. -/
theorem r10_psum (c : Dev nD) : (dat10 (F := Ideal) V c).arrAt 6 cfg10.N
    = tilesum 64 4096 rfl (klin (fun j => (V c main_v105 j +ᵉ V c main_v98 j) +ᵉ V c main_arg1 j) (V c main_v129) (V c main_v140)) :=
  (dat10 V c).arrAt_eq_of_cover 6 _ (fun t _ => flushed_psum V c t) cover_6

/-- The per-tile column sums of squares of the layer's output. -/
theorem r10_psumsq (c : Dev nD) : (dat10 (F := Ideal) V c).arrAt 7 cfg10.N
    = tilesumsq 64 4096 rfl (klin (fun j => (V c main_v105 j +ᵉ V c main_v98 j) +ᵉ V c main_arg1 j) (V c main_v129) (V c main_v140)) :=
  (dat10 V c).arrAt_eq_of_cover 7 _ (fun t _ => flushed_psumsq V c t) cover_7

end Cert.KernelIdeal.Reg

end
-- ==== Proof.Reg.R11.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg11
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 262144 rows, tile by tile: the bias plus the normalised, ramped first layer times the weight, and each tile's column statistics -/

private theorem zero2_11 : (![0, 0] : Fin 2 → Nat) = fun _ => 0 := funext fun a => by fin_cases a <;> rfl
private theorem zero3_11 : (![0, 0, 0] : Fin 3 → Nat) = fun _ => 0 := funext fun a => by fin_cases a <;> rfl

/-! ## Which block each window holds at a grid point -/

/-- The tiled input and the result move with the grid point: block (t, 0). -/
private theorem idx11_rows : ∀ t : Fin cfg11.N,
    win11_0.index t (0 : Fin 2) = t.val ∧ win11_0.index t (1 : Fin 2) = 0
    ∧ win11_7.index t (0 : Fin 2) = t.val ∧ win11_7.index t (1 : Fin 2) = 0 :=
  (by decide +kernel : ∀ t : Fin grid11.N, _)

/-- The weight, the two moment rows, the scale, the shift and the bias stay at block (0, 0). -/
private theorem idx11_whole : ∀ t : Fin cfg11.N,
    win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0 :=
  (by decide +kernel : ∀ t : Fin grid11.N, _)

/-- The two statistics move with the grid point: block (t, 0, 0). -/
private theorem idx11_stats : ∀ t : Fin cfg11.N,
    win11_8.index t (0 : Fin 3) = t.val ∧ win11_8.index t (1 : Fin 3) = 0 ∧ win11_8.index t (2 : Fin 3) = 0
    ∧ win11_9.index t (0 : Fin 3) = t.val ∧ win11_9.index t (1 : Fin 3) = 0 ∧ win11_9.index t (2 : Fin 3) = 0 :=
  (by decide +kernel : ∀ t : Fin grid11.N, _)

/-! ## A window's block read off an array -/

/-- Window 0's block at grid point t is the 4096 rows of tile t. -/
private theorem read11_0 (t : Fin cfg11.N) (X : Mat 262144 128) :
    ((cfg11.win 0).blk t).view.read (Elt Ideal) X = selRows (tileRow 64 4096 rfl ⟨t.val, t.isLt⟩) X := by
  obtain ⟨a0, a1, -, -⟩ := idx11_rows t
  funext j
  show X (((cfg11.win 0).blk t).view.emb j) = X (ix2 (tileRow 64 4096 rfl ⟨t.val, t.isLt⟩ (j 0)) (j 1))
  refine congrArg X (funext fun a => Fin.ext ?_)
  match a with
  | ⟨0, _⟩ =>
    show win11_0.index t (0 : Fin 2) * 4096 + 1 * (j 0).val = t.val * 4096 + (j 0).val
    omega
  | ⟨1, _⟩ =>
    show win11_0.index t (1 : Fin 2) * 128 + 1 * (j 1).val = (j 1).val
    omega

/-- Window 7's block at grid point t is the 4096 rows of tile t. -/
private theorem read11_7 (t : Fin cfg11.N) (X : Mat 262144 128) :
    ((cfg11.win 7).blk t).view.read (Elt Ideal) X = selRows (tileRow 64 4096 rfl ⟨t.val, t.isLt⟩) X := by
  obtain ⟨-, -, b0, b1⟩ := idx11_rows t
  funext j
  show X (((cfg11.win 7).blk t).view.emb j) = X (ix2 (tileRow 64 4096 rfl ⟨t.val, t.isLt⟩ (j 0)) (j 1))
  refine congrArg X (funext fun a => Fin.ext ?_)
  match a with
  | ⟨0, _⟩ =>
    show win11_7.index t (0 : Fin 2) * 4096 + 1 * (j 0).val = t.val * 4096 + (j 0).val
    omega
  | ⟨1, _⟩ =>
    show win11_7.index t (1 : Fin 2) * 128 + 1 * (j 1).val = (j 1).val
    omega

/-- Window 1 holds its whole 128×128 array at every grid point. -/
private theorem read11_1 (t : Fin cfg11.N) (X : Mat 128 128) :
    ((cfg11.win 1).blk t).view.read (Elt Ideal) X = X := by
  obtain ⟨e0, e1, -, -, -, -, -, -, -, -, -, -⟩ := idx11_whole t
  funext j
  show X (((cfg11.win 1).blk t).view.emb j) = X j
  refine congrArg X (funext fun a => Fin.ext ?_)
  match a with
  | ⟨0, _⟩ =>
    show win11_1.index t (0 : Fin 2) * 128 + 1 * (j 0).val = (j 0).val
    omega
  | ⟨1, _⟩ =>
    show win11_1.index t (1 : Fin 2) * 128 + 1 * (j 1).val = (j 1).val
    omega

/-- Window 2 holds its whole 1×128 array at every grid point. -/
private theorem read11_2 (t : Fin cfg11.N) (X : Mat 1 128) :
    ((cfg11.win 2).blk t).view.read (Elt Ideal) X = X := by
  obtain ⟨-, -, e0, e1, -, -, -, -, -, -, -, -⟩ := idx11_whole t
  funext j
  show X (((cfg11.win 2).blk t).view.emb j) = X j
  refine congrArg X (funext fun a => Fin.ext ?_)
  match a with
  | ⟨0, _⟩ =>
    show win11_2.index t (0 : Fin 2) * 1 + 1 * (j 0).val = (j 0).val
    omega
  | ⟨1, _⟩ =>
    show win11_2.index t (1 : Fin 2) * 128 + 1 * (j 1).val = (j 1).val
    omega

/-- Window 3 holds its whole 1×128 array at every grid point. -/
private theorem read11_3 (t : Fin cfg11.N) (X : Mat 1 128) :
    ((cfg11.win 3).blk t).view.read (Elt Ideal) X = X := by
  obtain ⟨-, -, -, -, e0, e1, -, -, -, -, -, -⟩ := idx11_whole t
  funext j
  show X (((cfg11.win 3).blk t).view.emb j) = X j
  refine congrArg X (funext fun a => Fin.ext ?_)
  match a with
  | ⟨0, _⟩ =>
    show win11_3.index t (0 : Fin 2) * 1 + 1 * (j 0).val = (j 0).val
    omega
  | ⟨1, _⟩ =>
    show win11_3.index t (1 : Fin 2) * 128 + 1 * (j 1).val = (j 1).val
    omega

/-- Window 4 holds its whole 1×128 array at every grid point. -/
private theorem read11_4 (t : Fin cfg11.N) (X : Mat 1 128) :
    ((cfg11.win 4).blk t).view.read (Elt Ideal) X = X := by
  obtain ⟨-, -, -, -, -, -, e0, e1, -, -, -, -⟩ := idx11_whole t
  funext j
  show X (((cfg11.win 4).blk t).view.emb j) = X j
  refine congrArg X (funext fun a => Fin.ext ?_)
  match a with
  | ⟨0, _⟩ =>
    show win11_4.index t (0 : Fin 2) * 1 + 1 * (j 0).val = (j 0).val
    omega
  | ⟨1, _⟩ =>
    show win11_4.index t (1 : Fin 2) * 128 + 1 * (j 1).val = (j 1).val
    omega

/-- Window 5 holds its whole 1×128 array at every grid point. -/
private theorem read11_5 (t : Fin cfg11.N) (X : Mat 1 128) :
    ((cfg11.win 5).blk t).view.read (Elt Ideal) X = X := by
  obtain ⟨-, -, -, -, -, -, -, -, e0, e1, -, -⟩ := idx11_whole t
  funext j
  show X (((cfg11.win 5).blk t).view.emb j) = X j
  refine congrArg X (funext fun a => Fin.ext ?_)
  match a with
  | ⟨0, _⟩ =>
    show win11_5.index t (0 : Fin 2) * 1 + 1 * (j 0).val = (j 0).val
    omega
  | ⟨1, _⟩ =>
    show win11_5.index t (1 : Fin 2) * 128 + 1 * (j 1).val = (j 1).val
    omega

/-- Window 6 holds its whole 1×128 array at every grid point. -/
private theorem read11_6 (t : Fin cfg11.N) (X : Mat 1 128) :
    ((cfg11.win 6).blk t).view.read (Elt Ideal) X = X := by
  obtain ⟨-, -, -, -, -, -, -, -, -, -, e0, e1⟩ := idx11_whole t
  funext j
  show X (((cfg11.win 6).blk t).view.emb j) = X j
  refine congrArg X (funext fun a => Fin.ext ?_)
  match a with
  | ⟨0, _⟩ =>
    show win11_6.index t (0 : Fin 2) * 1 + 1 * (j 0).val = (j 0).val
    omega
  | ⟨1, _⟩ =>
    show win11_6.index t (1 : Fin 2) * 128 + 1 * (j 1).val = (j 1).val
    omega

/-- Window 8's block at grid point t is tile t's slot of the 64×1×128 statistics. -/
private theorem read11_8 (t : Fin cfg11.N) (X : Cube 64 1 128) :
    ((cfg11.win 8).blk t).view.read (Elt Ideal) X
      = fun y : (⟨3, ![1, 1, 128]⟩ : Shape).Idx => X (ix3 (⟨t.val, t.isLt⟩ : Fin 64) 0 (y 2)) := by
  obtain ⟨a0, a1, a2, -, -, -⟩ := idx11_stats t
  funext y
  show X (((cfg11.win 8).blk t).view.emb y) = X (ix3 (⟨t.val, t.isLt⟩ : Fin 64) 0 (y 2))
  refine congrArg X (funext fun a => Fin.ext ?_)
  have h0 : (y 0).val < 1 := (y 0).isLt
  have h1 : (y 1).val < 1 := (y 1).isLt
  match a with
  | ⟨0, _⟩ =>
    show win11_8.index t (0 : Fin 3) * 1 + 1 * (y 0).val = t.val
    omega
  | ⟨1, _⟩ =>
    show win11_8.index t (1 : Fin 3) * 1 + 1 * (y 1).val = 0
    omega
  | ⟨2, _⟩ =>
    show win11_8.index t (2 : Fin 3) * 128 + 1 * (y 2).val = (y 2).val
    omega

/-- Window 9's block at grid point t is tile t's slot of the 64×1×128 statistics. -/
private theorem read11_9 (t : Fin cfg11.N) (X : Cube 64 1 128) :
    ((cfg11.win 9).blk t).view.read (Elt Ideal) X
      = fun y : (⟨3, ![1, 1, 128]⟩ : Shape).Idx => X (ix3 (⟨t.val, t.isLt⟩ : Fin 64) 0 (y 2)) := by
  obtain ⟨-, -, -, b0, b1, b2⟩ := idx11_stats t
  funext y
  show X (((cfg11.win 9).blk t).view.emb y) = X (ix3 (⟨t.val, t.isLt⟩ : Fin 64) 0 (y 2))
  refine congrArg X (funext fun a => Fin.ext ?_)
  have h0 : (y 0).val < 1 := (y 0).isLt
  have h1 : (y 1).val < 1 := (y 1).isLt
  match a with
  | ⟨0, _⟩ =>
    show win11_9.index t (0 : Fin 3) * 1 + 1 * (y 0).val = t.val
    omega
  | ⟨1, _⟩ =>
    show win11_9.index t (1 : Fin 3) * 1 + 1 * (y 1).val = 0
    omega
  | ⟨2, _⟩ =>
    show win11_9.index t (2 : Fin 3) * 128 + 1 * (y 2).val = (y 2).val
    omega

/-! ## The input blocks at a grid point -/

private theorem in11_0 (c : Dev nD) (t : Fin cfg11.N) :
    iblk11 (F := Ideal) V c 0 t = selRows (tileRow 64 4096 rfl ⟨t.val, t.isLt⟩) (V c main_v141_0) := by
  unfold iblk11
  exact read11_0 t (V c main_v141_0)
private theorem in11_1 (c : Dev nD) (t : Fin cfg11.N) :
    iblk11 (F := Ideal) V c 1 t = V c main_v137 := by
  unfold iblk11
  exact read11_1 t (V c main_v137)
private theorem in11_2 (c : Dev nD) (t : Fin cfg11.N) :
    iblk11 (F := Ideal) V c 2 t = V c main_v142 := by
  unfold iblk11
  exact read11_2 t (V c main_v142)
private theorem in11_3 (c : Dev nD) (t : Fin cfg11.N) :
    iblk11 (F := Ideal) V c 3 t = V c main_v143 := by
  unfold iblk11
  exact read11_3 t (V c main_v143)
private theorem in11_4 (c : Dev nD) (t : Fin cfg11.N) :
    iblk11 (F := Ideal) V c 4 t = V c main_v145 := by
  unfold iblk11
  exact read11_4 t (V c main_v145)
private theorem in11_5 (c : Dev nD) (t : Fin cfg11.N) :
    iblk11 (F := Ideal) V c 5 t = V c main_v146 := by
  unfold iblk11
  exact read11_5 t (V c main_v146)
private theorem in11_6 (c : Dev nD) (t : Fin cfg11.N) :
    iblk11 (F := Ideal) V c 6 t = V c main_v144 := by
  unfold iblk11
  exact read11_6 t (V c main_v144)

/-! ## What grid point t writes back -/

/-- Tile t of the result is the second layer of tile t of the input. -/
private theorem wrote11_7 (c : Dev nD) (t : Fin cfg11.N) :
    (dat11 (F := Ideal) V c).flushed 7 t
      = ((cfg11.win 7).blk t).view.read (Elt Ideal) (klin (kbnrelu Cert.Consts.k18 Cert.Consts.eps (V c main_v142) (V c main_v143) (V c main_v141_0) (V c main_v145) (V c main_v146)) (V c main_v137) (V c main_v144)) := by
  show (cfg11.win 7).cut (grid11.coords t) ((dat11 (F := Ideal) V c).after 7 t) = _
  rw [after11_7]
  unfold out11_7
  rw [View.canon_unit_zero zero2_11]
  simp only [View.ld_unit_zero (S := S4096x128) zero2_11, View.ld_unit_zero (S := S1x128) zero2_11,
    View.ld_unit_zero (S := S128x128) zero2_11]
  rw [Blk.k11_out_eq (iblk11 V c 0 t) (iblk11 V c 1 t) (iblk11 V c 2 t) (iblk11 V c 3 t) (iblk11 V c 4 t) (iblk11 V c 5 t) (iblk11 V c 6 t)]
  rw [in11_0 V c t, in11_1 V c t, in11_2 V c t, in11_3 V c t, in11_4 V c t, in11_5 V c t, in11_6 V c t]
  rw [read11_7, selRows_klin, selRows_kbnrelu]
  rfl

/-- Tile t's slot of the column sums is the column sums of tile t of the result. -/
private theorem wrote11_8 (c : Dev nD) (t : Fin cfg11.N) :
    (dat11 (F := Ideal) V c).flushed 8 t
      = ((cfg11.win 8).blk t).view.read (Elt Ideal) (tilesum 64 4096 rfl (klin (kbnrelu Cert.Consts.k18 Cert.Consts.eps (V c main_v142) (V c main_v143) (V c main_v141_0) (V c main_v145) (V c main_v146)) (V c main_v137) (V c main_v144))) := by
  show (cfg11.win 8).cut (grid11.coords t) ((dat11 (F := Ideal) V c).after 8 t) = _
  rw [after11_8]
  unfold out11_8
  rw [View.canon_unit_zero zero3_11]
  simp only [View.ld_unit_zero (S := S4096x128) zero2_11, View.ld_unit_zero (S := S1x128) zero2_11,
    View.ld_unit_zero (S := S128x128) zero2_11]
  rw [Blk.k11_psum_eq (iblk11 V c 0 t) (iblk11 V c 1 t) (iblk11 V c 2 t) (iblk11 V c 3 t) (iblk11 V c 4 t) (iblk11 V c 5 t) (iblk11 V c 6 t)]
  rw [in11_0 V c t, in11_1 V c t, in11_2 V c t, in11_3 V c t, in11_4 V c t, in11_5 V c t, in11_6 V c t]
  rw [read11_8, ← selRows_kbnrelu, ← selRows_klin]
  exact (tilesum_tile 64 4096 rfl (klin (kbnrelu Cert.Consts.k18 Cert.Consts.eps (V c main_v142) (V c main_v143) (V c main_v141_0) (V c main_v145) (V c main_v146)) (V c main_v137) (V c main_v144)) ⟨t.val, t.isLt⟩).symm

/-- Tile t's slot of the column sums of squares is those of tile t of the result. -/
private theorem wrote11_9 (c : Dev nD) (t : Fin cfg11.N) :
    (dat11 (F := Ideal) V c).flushed 9 t
      = ((cfg11.win 9).blk t).view.read (Elt Ideal) (tilesumsq 64 4096 rfl (klin (kbnrelu Cert.Consts.k18 Cert.Consts.eps (V c main_v142) (V c main_v143) (V c main_v141_0) (V c main_v145) (V c main_v146)) (V c main_v137) (V c main_v144))) := by
  show (cfg11.win 9).cut (grid11.coords t) ((dat11 (F := Ideal) V c).after 9 t) = _
  rw [after11_9]
  unfold out11_9
  rw [View.canon_unit_zero zero3_11]
  simp only [View.ld_unit_zero (S := S4096x128) zero2_11, View.ld_unit_zero (S := S1x128) zero2_11,
    View.ld_unit_zero (S := S128x128) zero2_11]
  rw [Blk.k11_psumsq_eq (iblk11 V c 0 t) (iblk11 V c 1 t) (iblk11 V c 2 t) (iblk11 V c 3 t) (iblk11 V c 4 t) (iblk11 V c 5 t) (iblk11 V c 6 t)]
  rw [in11_0 V c t, in11_1 V c t, in11_2 V c t, in11_3 V c t, in11_4 V c t, in11_5 V c t, in11_6 V c t]
  rw [read11_9, ← selRows_kbnrelu, ← selRows_klin]
  exact (tilesumsq_tile 64 4096 rfl (klin (kbnrelu Cert.Consts.k18 Cert.Consts.eps (V c main_v142) (V c main_v143) (V c main_v141_0) (V c main_v145) (V c main_v146)) (V c main_v137) (V c main_v144)) ⟨t.val, t.isLt⟩).symm

/-! ## Every entry of each result array is written by some grid point -/

private theorem mem11_7 (t : Fin cfg11.N) (i : S262144x128.Idx) :
    i ∈ ((cfg11.win 7).blk t).view.set ↔ ∀ a : Fin 2, win11_7.index t a * S4096x128.size a ≤ (i a).val ∧ (i a).val < win11_7.index t a * S4096x128.size a + S4096x128.size a := by
  show i ∈ ((View.whole main_v147_0).slice (win11_7.rect t)).set ↔ _
  rw [View.set_slice_whole, Rect.mem_set_unit]
  exact Iff.rfl

/-- Row r lies in tile r / 4096. -/
private theorem covered11_7 (i : S262144x128.Idx) :
    ∃ t : Fin cfg11.N, (cfg11.win 7).flush t = true ∧ i ∈ ((cfg11.win 7).blk t).view.set := by
  have hi0 : (i 0).val < 262144 := (i 0).isLt
  have hi1 : (i 1).val < 128 := (i 1).isLt
  have ht : (i 0).val / 4096 < grid11.N := by show _ < 64; omega
  obtain ⟨-, -, b0, b1⟩ := idx11_rows ⟨(i 0).val / 4096, ht⟩
  refine ⟨⟨(i 0).val / 4096, ht⟩, flush11_7 _, ?_⟩
  rw [mem11_7]
  intro a
  match a with
  | ⟨0, _⟩ =>
    show win11_7.index ⟨(i 0).val / 4096, ht⟩ (0 : Fin 2) * 4096 ≤ (i 0).val ∧ (i 0).val < win11_7.index ⟨(i 0).val / 4096, ht⟩ (0 : Fin 2) * 4096 + 4096
    have e : win11_7.index ⟨(i 0).val / 4096, ht⟩ (0 : Fin 2) = (i 0).val / 4096 := b0
    omega
  | ⟨1, _⟩ =>
    show win11_7.index ⟨(i 0).val / 4096, ht⟩ (1 : Fin 2) * 128 ≤ (i 1).val ∧ (i 1).val < win11_7.index ⟨(i 0).val / 4096, ht⟩ (1 : Fin 2) * 128 + 128
    have e : win11_7.index ⟨(i 0).val / 4096, ht⟩ (1 : Fin 2) = 0 := b1
    omega

private theorem mem11_8 (t : Fin cfg11.N) (i : S64x1x128.Idx) :
    i ∈ ((cfg11.win 8).blk t).view.set ↔ ∀ a : Fin 3, win11_8.index t a * S1x1x128.size a ≤ (i a).val ∧ (i a).val < win11_8.index t a * S1x1x128.size a + S1x1x128.size a := by
  show i ∈ ((View.whole main_v147_1).slice (win11_8.rect t)).set ↔ _
  rw [View.set_slice_whole, Rect.mem_set_unit]
  exact Iff.rfl

/-- Slot u is written at grid point u. -/
private theorem covered11_8 (i : S64x1x128.Idx) :
    ∃ t : Fin cfg11.N, (cfg11.win 8).flush t = true ∧ i ∈ ((cfg11.win 8).blk t).view.set := by
  have hi0 : (i 0).val < 64 := (i 0).isLt
  have hi1 : (i 1).val < 1 := (i 1).isLt
  have hi2 : (i 2).val < 128 := (i 2).isLt
  have ht : (i 0).val < grid11.N := hi0
  obtain ⟨a0, a1, a2, -, -, -⟩ := idx11_stats ⟨(i 0).val, ht⟩
  refine ⟨⟨(i 0).val, ht⟩, flush11_8 _, ?_⟩
  rw [mem11_8]
  intro a
  match a with
  | ⟨0, _⟩ =>
    show win11_8.index ⟨(i 0).val, ht⟩ (0 : Fin 3) * 1 ≤ (i 0).val ∧ (i 0).val < win11_8.index ⟨(i 0).val, ht⟩ (0 : Fin 3) * 1 + 1
    have e : win11_8.index ⟨(i 0).val, ht⟩ (0 : Fin 3) = (i 0).val := a0
    omega
  | ⟨1, _⟩ =>
    show win11_8.index ⟨(i 0).val, ht⟩ (1 : Fin 3) * 1 ≤ (i 1).val ∧ (i 1).val < win11_8.index ⟨(i 0).val, ht⟩ (1 : Fin 3) * 1 + 1
    have e : win11_8.index ⟨(i 0).val, ht⟩ (1 : Fin 3) = 0 := a1
    omega
  | ⟨2, _⟩ =>
    show win11_8.index ⟨(i 0).val, ht⟩ (2 : Fin 3) * 128 ≤ (i 2).val ∧ (i 2).val < win11_8.index ⟨(i 0).val, ht⟩ (2 : Fin 3) * 128 + 128
    have e : win11_8.index ⟨(i 0).val, ht⟩ (2 : Fin 3) = 0 := a2
    omega

private theorem mem11_9 (t : Fin cfg11.N) (i : S64x1x128.Idx) :
    i ∈ ((cfg11.win 9).blk t).view.set ↔ ∀ a : Fin 3, win11_9.index t a * S1x1x128.size a ≤ (i a).val ∧ (i a).val < win11_9.index t a * S1x1x128.size a + S1x1x128.size a := by
  show i ∈ ((View.whole main_v147_2).slice (win11_9.rect t)).set ↔ _
  rw [View.set_slice_whole, Rect.mem_set_unit]
  exact Iff.rfl

/-- Slot u is written at grid point u. -/
private theorem covered11_9 (i : S64x1x128.Idx) :
    ∃ t : Fin cfg11.N, (cfg11.win 9).flush t = true ∧ i ∈ ((cfg11.win 9).blk t).view.set := by
  have hi0 : (i 0).val < 64 := (i 0).isLt
  have hi1 : (i 1).val < 1 := (i 1).isLt
  have hi2 : (i 2).val < 128 := (i 2).isLt
  have ht : (i 0).val < grid11.N := hi0
  obtain ⟨-, -, -, a0, a1, a2⟩ := idx11_stats ⟨(i 0).val, ht⟩
  refine ⟨⟨(i 0).val, ht⟩, flush11_9 _, ?_⟩
  rw [mem11_9]
  intro a
  match a with
  | ⟨0, _⟩ =>
    show win11_9.index ⟨(i 0).val, ht⟩ (0 : Fin 3) * 1 ≤ (i 0).val ∧ (i 0).val < win11_9.index ⟨(i 0).val, ht⟩ (0 : Fin 3) * 1 + 1
    have e : win11_9.index ⟨(i 0).val, ht⟩ (0 : Fin 3) = (i 0).val := a0
    omega
  | ⟨1, _⟩ =>
    show win11_9.index ⟨(i 0).val, ht⟩ (1 : Fin 3) * 1 ≤ (i 1).val ∧ (i 1).val < win11_9.index ⟨(i 0).val, ht⟩ (1 : Fin 3) * 1 + 1
    have e : win11_9.index ⟨(i 0).val, ht⟩ (1 : Fin 3) = 0 := a1
    omega
  | ⟨2, _⟩ =>
    show win11_9.index ⟨(i 0).val, ht⟩ (2 : Fin 3) * 128 ≤ (i 2).val ∧ (i 2).val < win11_9.index ⟨(i 0).val, ht⟩ (2 : Fin 3) * 128 + 128
    have e : win11_9.index ⟨(i 0).val, ht⟩ (2 : Fin 3) = 0 := a2
    omega

/-! ## The arrays the region leaves -/

/-- The result array: the second layer of the whole input. -/
theorem r11_lin (c : Dev nD) :
    (dat11 (F := Ideal) V c).arrAt 7 cfg11.N = klin (kbnrelu Cert.Consts.k18 Cert.Consts.eps (V c main_v142) (V c main_v143) (V c main_v141_0) (V c main_v145) (V c main_v146)) (V c main_v137) (V c main_v144) :=
  (dat11 (F := Ideal) V c).arrAt_eq_of_cover 7 _ (fun t _ => wrote11_7 V c t) covered11_7

/-- Its per-tile column sums. -/
theorem r11_psum (c : Dev nD) :
    (dat11 (F := Ideal) V c).arrAt 8 cfg11.N = tilesum 64 4096 rfl (klin (kbnrelu Cert.Consts.k18 Cert.Consts.eps (V c main_v142) (V c main_v143) (V c main_v141_0) (V c main_v145) (V c main_v146)) (V c main_v137) (V c main_v144)) :=
  (dat11 (F := Ideal) V c).arrAt_eq_of_cover 8 _ (fun t _ => wrote11_8 V c t) covered11_8

/-- Its per-tile column sums of squares. -/
theorem r11_psumsq (c : Dev nD) :
    (dat11 (F := Ideal) V c).arrAt 9 cfg11.N = tilesumsq 64 4096 rfl (klin (kbnrelu Cert.Consts.k18 Cert.Consts.eps (V c main_v142) (V c main_v143) (V c main_v141_0) (V c main_v145) (V c main_v146)) (V c main_v137) (V c main_v144)) :=
  (dat11 (F := Ideal) V c).arrAt_eq_of_cover 9 _ (fun t _ => wrote11_9 V c t) covered11_9

end Cert.KernelIdeal.Reg

end
-- ==== Proof.Reg.R12.lean ====
/-
  The combining layer over all 262144 rows. The grid runs over the 64 tiles of 4096 rows; at tile t the two inputs' rows
  of that tile are normalised in raw-moment form with the given column statistics, ramped, multiplied by their 128×128
  weights and added to the bias row, and the tile's column sums and sums of squares of the result are taken. Every
  step acts on the rows independently, so the tiles' results are the rows of one whole-array function, and the per-tile
  statistics are that function's tile sums.
-/
import proofs.«427658_j89163521065156_2_alg».proof.Proof.FrameKernelIdeal.Reg12
import proofs.«427658_j89163521065156_2_alg».proof.Proof.BlkComb
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open scoped BigOperators
open Cert.KernelIdeal Cert.KernelIdeal.Gen Cert.Spec Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The grid's index maps -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The grid has 64 points, one per tile of 4096 rows. -/
private theorem lt12 (t : Fin cfg12.N) : t.val < 64 := lt_of_lt_of_eq t.isLt N_12
/-- The tile of a grid point. -/
private abbrev tile12 (t : Fin cfg12.N) : Fin 64 := ⟨t.val, lt12 t⟩

private theorem idx12_0 : ∀ t : Fin cfg12.N, win12_0.index t (0 : Fin 2) = t.val ∧ win12_0.index t (1 : Fin 2) = 0 :=
  (by decide +kernel : ∀ t : Fin grid12.N, _)
private theorem idx12_6 : ∀ t : Fin cfg12.N, win12_6.index t (0 : Fin 2) = t.val ∧ win12_6.index t (1 : Fin 2) = 0 :=
  (by decide +kernel : ∀ t : Fin grid12.N, _)
private theorem idx12_13 : ∀ t : Fin cfg12.N, win12_13.index t (0 : Fin 2) = t.val ∧ win12_13.index t (1 : Fin 2) = 0 :=
  (by decide +kernel : ∀ t : Fin grid12.N, _)
private theorem idx12_1 : ∀ t : Fin cfg12.N, win12_1.index t (0 : Fin 2) = 0 ∧ win12_1.index t (1 : Fin 2) = 0 :=
  (by decide +kernel : ∀ t : Fin grid12.N, _)
private theorem idx12_7 : ∀ t : Fin cfg12.N, win12_7.index t (0 : Fin 2) = 0 ∧ win12_7.index t (1 : Fin 2) = 0 :=
  (by decide +kernel : ∀ t : Fin grid12.N, _)
private theorem idx12_2 : ∀ t : Fin cfg12.N, win12_2.index t (0 : Fin 2) = 0 ∧ win12_2.index t (1 : Fin 2) = 0 :=
  (by decide +kernel : ∀ t : Fin grid12.N, _)
private theorem idx12_3 : ∀ t : Fin cfg12.N, win12_3.index t (0 : Fin 2) = 0 ∧ win12_3.index t (1 : Fin 2) = 0 :=
  (by decide +kernel : ∀ t : Fin grid12.N, _)
private theorem idx12_4 : ∀ t : Fin cfg12.N, win12_4.index t (0 : Fin 2) = 0 ∧ win12_4.index t (1 : Fin 2) = 0 :=
  (by decide +kernel : ∀ t : Fin grid12.N, _)
private theorem idx12_5 : ∀ t : Fin cfg12.N, win12_5.index t (0 : Fin 2) = 0 ∧ win12_5.index t (1 : Fin 2) = 0 :=
  (by decide +kernel : ∀ t : Fin grid12.N, _)
private theorem idx12_8 : ∀ t : Fin cfg12.N, win12_8.index t (0 : Fin 2) = 0 ∧ win12_8.index t (1 : Fin 2) = 0 :=
  (by decide +kernel : ∀ t : Fin grid12.N, _)
private theorem idx12_9 : ∀ t : Fin cfg12.N, win12_9.index t (0 : Fin 2) = 0 ∧ win12_9.index t (1 : Fin 2) = 0 :=
  (by decide +kernel : ∀ t : Fin grid12.N, _)
private theorem idx12_10 : ∀ t : Fin cfg12.N, win12_10.index t (0 : Fin 2) = 0 ∧ win12_10.index t (1 : Fin 2) = 0 :=
  (by decide +kernel : ∀ t : Fin grid12.N, _)
private theorem idx12_11 : ∀ t : Fin cfg12.N, win12_11.index t (0 : Fin 2) = 0 ∧ win12_11.index t (1 : Fin 2) = 0 :=
  (by decide +kernel : ∀ t : Fin grid12.N, _)
private theorem idx12_12 : ∀ t : Fin cfg12.N, win12_12.index t (0 : Fin 2) = 0 ∧ win12_12.index t (1 : Fin 2) = 0 :=
  (by decide +kernel : ∀ t : Fin grid12.N, _)
private theorem idx12_14 : ∀ t : Fin cfg12.N, win12_14.index t (0 : Fin 3) = t.val ∧ win12_14.index t (1 : Fin 3) = 0 ∧ win12_14.index t (2 : Fin 3) = 0 :=
  (by decide +kernel : ∀ t : Fin grid12.N, _)
private theorem idx12_15 : ∀ t : Fin cfg12.N, win12_15.index t (0 : Fin 3) = t.val ∧ win12_15.index t (1 : Fin 3) = 0 ∧ win12_15.index t (2 : Fin 3) = 0 :=
  (by decide +kernel : ∀ t : Fin grid12.N, _)

/-! ## Each window's block, read off an array -/

/-- Window 0 moves with the tile: its block at a point is the tile's 4096 rows. -/
private theorem read12_0 (t : Fin cfg12.N) (X : S262144x128.Idx → EReal) :
    ((cfg12.win 0).blk t).view.read (Elt Ideal) X = selRows (tileRow 64 4096 rfl (tile12 t)) X := by
  funext y
  show X (((cfg12.win 0).blk t).view.emb y) = X (ix2 (tileRow 64 4096 rfl (tile12 t) (y 0)) (y 1))
  refine congrArg X ?_
  funext a; apply Fin.ext
  match a with
  | ⟨0, _⟩ =>
    show win12_0.index t (0 : Fin 2) * 4096 + 1 * (y 0).val = t.val * 4096 + (y 0).val
    rw [(idx12_0 t).1]; omega
  | ⟨1, _⟩ =>
    show win12_0.index t (1 : Fin 2) * 128 + 1 * (y 1).val = (y 1).val
    rw [(idx12_0 t).2]; omega
/-- Window 6 moves with the tile: its block at a point is the tile's 4096 rows. -/
private theorem read12_6 (t : Fin cfg12.N) (X : S262144x128.Idx → EReal) :
    ((cfg12.win 6).blk t).view.read (Elt Ideal) X = selRows (tileRow 64 4096 rfl (tile12 t)) X := by
  funext y
  show X (((cfg12.win 6).blk t).view.emb y) = X (ix2 (tileRow 64 4096 rfl (tile12 t) (y 0)) (y 1))
  refine congrArg X ?_
  funext a; apply Fin.ext
  match a with
  | ⟨0, _⟩ =>
    show win12_6.index t (0 : Fin 2) * 4096 + 1 * (y 0).val = t.val * 4096 + (y 0).val
    rw [(idx12_6 t).1]; omega
  | ⟨1, _⟩ =>
    show win12_6.index t (1 : Fin 2) * 128 + 1 * (y 1).val = (y 1).val
    rw [(idx12_6 t).2]; omega
/-- Window 13 moves with the tile: its block at a point is the tile's 4096 rows. -/
private theorem read12_13 (t : Fin cfg12.N) (X : S262144x128.Idx → EReal) :
    ((cfg12.win 13).blk t).view.read (Elt Ideal) X = selRows (tileRow 64 4096 rfl (tile12 t)) X := by
  funext y
  show X (((cfg12.win 13).blk t).view.emb y) = X (ix2 (tileRow 64 4096 rfl (tile12 t) (y 0)) (y 1))
  refine congrArg X ?_
  funext a; apply Fin.ext
  match a with
  | ⟨0, _⟩ =>
    show win12_13.index t (0 : Fin 2) * 4096 + 1 * (y 0).val = t.val * 4096 + (y 0).val
    rw [(idx12_13 t).1]; omega
  | ⟨1, _⟩ =>
    show win12_13.index t (1 : Fin 2) * 128 + 1 * (y 1).val = (y 1).val
    rw [(idx12_13 t).2]; omega
/-- Window 1 does not move: its block is the whole weight. -/
private theorem read12_1 (t : Fin cfg12.N) (X : S128x128.Idx → EReal) :
    ((cfg12.win 1).blk t).view.read (Elt Ideal) X = X := by
  funext y
  show X (((cfg12.win 1).blk t).view.emb y) = X y
  refine congrArg X ?_
  funext a; apply Fin.ext
  match a with
  | ⟨0, _⟩ =>
    show win12_1.index t (0 : Fin 2) * 128 + 1 * (y 0).val = (y 0).val
    rw [(idx12_1 t).1]; omega
  | ⟨1, _⟩ =>
    show win12_1.index t (1 : Fin 2) * 128 + 1 * (y 1).val = (y 1).val
    rw [(idx12_1 t).2]; omega
/-- Window 7 does not move: its block is the whole weight. -/
private theorem read12_7 (t : Fin cfg12.N) (X : S128x128.Idx → EReal) :
    ((cfg12.win 7).blk t).view.read (Elt Ideal) X = X := by
  funext y
  show X (((cfg12.win 7).blk t).view.emb y) = X y
  refine congrArg X ?_
  funext a; apply Fin.ext
  match a with
  | ⟨0, _⟩ =>
    show win12_7.index t (0 : Fin 2) * 128 + 1 * (y 0).val = (y 0).val
    rw [(idx12_7 t).1]; omega
  | ⟨1, _⟩ =>
    show win12_7.index t (1 : Fin 2) * 128 + 1 * (y 1).val = (y 1).val
    rw [(idx12_7 t).2]; omega
/-- Window 2 does not move: its block is the whole row. -/
private theorem read12_2 (t : Fin cfg12.N) (X : S1x128.Idx → EReal) :
    ((cfg12.win 2).blk t).view.read (Elt Ideal) X = X := by
  funext y
  show X (((cfg12.win 2).blk t).view.emb y) = X y
  refine congrArg X ?_
  funext a; apply Fin.ext
  match a with
  | ⟨0, _⟩ =>
    show win12_2.index t (0 : Fin 2) * 1 + 1 * (y 0).val = (y 0).val
    rw [(idx12_2 t).1]; omega
  | ⟨1, _⟩ =>
    show win12_2.index t (1 : Fin 2) * 128 + 1 * (y 1).val = (y 1).val
    rw [(idx12_2 t).2]; omega
/-- Window 3 does not move: its block is the whole row. -/
private theorem read12_3 (t : Fin cfg12.N) (X : S1x128.Idx → EReal) :
    ((cfg12.win 3).blk t).view.read (Elt Ideal) X = X := by
  funext y
  show X (((cfg12.win 3).blk t).view.emb y) = X y
  refine congrArg X ?_
  funext a; apply Fin.ext
  match a with
  | ⟨0, _⟩ =>
    show win12_3.index t (0 : Fin 2) * 1 + 1 * (y 0).val = (y 0).val
    rw [(idx12_3 t).1]; omega
  | ⟨1, _⟩ =>
    show win12_3.index t (1 : Fin 2) * 128 + 1 * (y 1).val = (y 1).val
    rw [(idx12_3 t).2]; omega
/-- Window 4 does not move: its block is the whole row. -/
private theorem read12_4 (t : Fin cfg12.N) (X : S1x128.Idx → EReal) :
    ((cfg12.win 4).blk t).view.read (Elt Ideal) X = X := by
  funext y
  show X (((cfg12.win 4).blk t).view.emb y) = X y
  refine congrArg X ?_
  funext a; apply Fin.ext
  match a with
  | ⟨0, _⟩ =>
    show win12_4.index t (0 : Fin 2) * 1 + 1 * (y 0).val = (y 0).val
    rw [(idx12_4 t).1]; omega
  | ⟨1, _⟩ =>
    show win12_4.index t (1 : Fin 2) * 128 + 1 * (y 1).val = (y 1).val
    rw [(idx12_4 t).2]; omega
/-- Window 5 does not move: its block is the whole row. -/
private theorem read12_5 (t : Fin cfg12.N) (X : S1x128.Idx → EReal) :
    ((cfg12.win 5).blk t).view.read (Elt Ideal) X = X := by
  funext y
  show X (((cfg12.win 5).blk t).view.emb y) = X y
  refine congrArg X ?_
  funext a; apply Fin.ext
  match a with
  | ⟨0, _⟩ =>
    show win12_5.index t (0 : Fin 2) * 1 + 1 * (y 0).val = (y 0).val
    rw [(idx12_5 t).1]; omega
  | ⟨1, _⟩ =>
    show win12_5.index t (1 : Fin 2) * 128 + 1 * (y 1).val = (y 1).val
    rw [(idx12_5 t).2]; omega
/-- Window 8 does not move: its block is the whole row. -/
private theorem read12_8 (t : Fin cfg12.N) (X : S1x128.Idx → EReal) :
    ((cfg12.win 8).blk t).view.read (Elt Ideal) X = X := by
  funext y
  show X (((cfg12.win 8).blk t).view.emb y) = X y
  refine congrArg X ?_
  funext a; apply Fin.ext
  match a with
  | ⟨0, _⟩ =>
    show win12_8.index t (0 : Fin 2) * 1 + 1 * (y 0).val = (y 0).val
    rw [(idx12_8 t).1]; omega
  | ⟨1, _⟩ =>
    show win12_8.index t (1 : Fin 2) * 128 + 1 * (y 1).val = (y 1).val
    rw [(idx12_8 t).2]; omega
/-- Window 9 does not move: its block is the whole row. -/
private theorem read12_9 (t : Fin cfg12.N) (X : S1x128.Idx → EReal) :
    ((cfg12.win 9).blk t).view.read (Elt Ideal) X = X := by
  funext y
  show X (((cfg12.win 9).blk t).view.emb y) = X y
  refine congrArg X ?_
  funext a; apply Fin.ext
  match a with
  | ⟨0, _⟩ =>
    show win12_9.index t (0 : Fin 2) * 1 + 1 * (y 0).val = (y 0).val
    rw [(idx12_9 t).1]; omega
  | ⟨1, _⟩ =>
    show win12_9.index t (1 : Fin 2) * 128 + 1 * (y 1).val = (y 1).val
    rw [(idx12_9 t).2]; omega
/-- Window 10 does not move: its block is the whole row. -/
private theorem read12_10 (t : Fin cfg12.N) (X : S1x128.Idx → EReal) :
    ((cfg12.win 10).blk t).view.read (Elt Ideal) X = X := by
  funext y
  show X (((cfg12.win 10).blk t).view.emb y) = X y
  refine congrArg X ?_
  funext a; apply Fin.ext
  match a with
  | ⟨0, _⟩ =>
    show win12_10.index t (0 : Fin 2) * 1 + 1 * (y 0).val = (y 0).val
    rw [(idx12_10 t).1]; omega
  | ⟨1, _⟩ =>
    show win12_10.index t (1 : Fin 2) * 128 + 1 * (y 1).val = (y 1).val
    rw [(idx12_10 t).2]; omega
/-- Window 11 does not move: its block is the whole row. -/
private theorem read12_11 (t : Fin cfg12.N) (X : S1x128.Idx → EReal) :
    ((cfg12.win 11).blk t).view.read (Elt Ideal) X = X := by
  funext y
  show X (((cfg12.win 11).blk t).view.emb y) = X y
  refine congrArg X ?_
  funext a; apply Fin.ext
  match a with
  | ⟨0, _⟩ =>
    show win12_11.index t (0 : Fin 2) * 1 + 1 * (y 0).val = (y 0).val
    rw [(idx12_11 t).1]; omega
  | ⟨1, _⟩ =>
    show win12_11.index t (1 : Fin 2) * 128 + 1 * (y 1).val = (y 1).val
    rw [(idx12_11 t).2]; omega
/-- Window 12 does not move: its block is the whole row. -/
private theorem read12_12 (t : Fin cfg12.N) (X : S1x128.Idx → EReal) :
    ((cfg12.win 12).blk t).view.read (Elt Ideal) X = X := by
  funext y
  show X (((cfg12.win 12).blk t).view.emb y) = X y
  refine congrArg X ?_
  funext a; apply Fin.ext
  match a with
  | ⟨0, _⟩ =>
    show win12_12.index t (0 : Fin 2) * 1 + 1 * (y 0).val = (y 0).val
    rw [(idx12_12 t).1]; omega
  | ⟨1, _⟩ =>
    show win12_12.index t (1 : Fin 2) * 128 + 1 * (y 1).val = (y 1).val
    rw [(idx12_12 t).2]; omega
/-- Window 14 moves with the tile: its block at a point is the tile's entry of the per-tile statistics. -/
private theorem read12_14 (t : Fin cfg12.N) (P : S64x1x128.Idx → EReal) :
    ((cfg12.win 14).blk t).view.read (Elt Ideal) P = fun y : S1x1x128.Idx => P (ix3 (tile12 t) 0 (y 2)) := by
  funext y
  show P (((cfg12.win 14).blk t).view.emb y) = P (ix3 (tile12 t) 0 (y 2))
  refine congrArg P ?_
  funext a; apply Fin.ext
  have h0 : (y 0).val < 1 := (y 0).isLt
  have h1 : (y 1).val < 1 := (y 1).isLt
  match a with
  | ⟨0, _⟩ =>
    show win12_14.index t (0 : Fin 3) * 1 + 1 * (y 0).val = t.val
    rw [(idx12_14 t).1]; omega
  | ⟨1, _⟩ =>
    show win12_14.index t (1 : Fin 3) * 1 + 1 * (y 1).val = 0
    rw [(idx12_14 t).2.1]; omega
  | ⟨2, _⟩ =>
    show win12_14.index t (2 : Fin 3) * 128 + 1 * (y 2).val = (y 2).val
    rw [(idx12_14 t).2.2]; omega
/-- Window 15 moves with the tile: its block at a point is the tile's entry of the per-tile statistics. -/
private theorem read12_15 (t : Fin cfg12.N) (P : S64x1x128.Idx → EReal) :
    ((cfg12.win 15).blk t).view.read (Elt Ideal) P = fun y : S1x1x128.Idx => P (ix3 (tile12 t) 0 (y 2)) := by
  funext y
  show P (((cfg12.win 15).blk t).view.emb y) = P (ix3 (tile12 t) 0 (y 2))
  refine congrArg P ?_
  funext a; apply Fin.ext
  have h0 : (y 0).val < 1 := (y 0).isLt
  have h1 : (y 1).val < 1 := (y 1).isLt
  match a with
  | ⟨0, _⟩ =>
    show win12_15.index t (0 : Fin 3) * 1 + 1 * (y 0).val = t.val
    rw [(idx12_15 t).1]; omega
  | ⟨1, _⟩ =>
    show win12_15.index t (1 : Fin 3) * 1 + 1 * (y 1).val = 0
    rw [(idx12_15 t).2.1]; omega
  | ⟨2, _⟩ =>
    show win12_15.index t (2 : Fin 3) * 128 + 1 * (y 2).val = (y 2).val
    rw [(idx12_15 t).2.2]; omega

/-! ## The input blocks at a point -/

private theorem blk12_0 (c : Dev nD) (t : Fin cfg12.N) :
    iblk12 V c 0 t = selRows (tileRow 64 4096 rfl (tile12 t)) (V c main_v125_0) := by
  unfold iblk12
  exact read12_0 t (V c main_v125_0)
private theorem blk12_6 (c : Dev nD) (t : Fin cfg12.N) :
    iblk12 V c 6 t = selRows (tileRow 64 4096 rfl (tile12 t)) (V c main_v147_0) := by
  unfold iblk12
  exact read12_6 t (V c main_v147_0)
private theorem blk12_1 (c : Dev nD) (t : Fin cfg12.N) : iblk12 V c 1 t = V c main_v150 := by
  unfold iblk12
  exact read12_1 t (V c main_v150)
private theorem blk12_7 (c : Dev nD) (t : Fin cfg12.N) : iblk12 V c 7 t = V c main_v155 := by
  unfold iblk12
  exact read12_7 t (V c main_v155)
private theorem blk12_2 (c : Dev nD) (t : Fin cfg12.N) : iblk12 V c 2 t = V c main_v126 := by
  unfold iblk12
  exact read12_2 t (V c main_v126)
private theorem blk12_3 (c : Dev nD) (t : Fin cfg12.N) : iblk12 V c 3 t = V c main_v127 := by
  unfold iblk12
  exact read12_3 t (V c main_v127)
private theorem blk12_4 (c : Dev nD) (t : Fin cfg12.N) : iblk12 V c 4 t = V c main_v161 := by
  unfold iblk12
  exact read12_4 t (V c main_v161)
private theorem blk12_5 (c : Dev nD) (t : Fin cfg12.N) : iblk12 V c 5 t = V c main_v162 := by
  unfold iblk12
  exact read12_5 t (V c main_v162)
private theorem blk12_8 (c : Dev nD) (t : Fin cfg12.N) : iblk12 V c 8 t = V c main_v148 := by
  unfold iblk12
  exact read12_8 t (V c main_v148)
private theorem blk12_9 (c : Dev nD) (t : Fin cfg12.N) : iblk12 V c 9 t = V c main_v149 := by
  unfold iblk12
  exact read12_9 t (V c main_v149)
private theorem blk12_10 (c : Dev nD) (t : Fin cfg12.N) : iblk12 V c 10 t = V c main_v163 := by
  unfold iblk12
  exact read12_10 t (V c main_v163)
private theorem blk12_11 (c : Dev nD) (t : Fin cfg12.N) : iblk12 V c 11 t = V c main_v164 := by
  unfold iblk12
  exact read12_11 t (V c main_v164)
private theorem blk12_12 (c : Dev nD) (t : Fin cfg12.N) : iblk12 V c 12 t = V c main_v160 := by
  unfold iblk12
  exact read12_12 t (V c main_v160)

/-! ## The combining layer on the whole arrays -/

/-- The bias row plus the products of the two normalised, ramped inputs with their weights, on all 262144 rows. -/
private def comb12 (c : Dev nD) : S262144x128.Idx → EReal :=
  klin2 (kbnrelu Cert.Consts.k18 Cert.Consts.eps (V c main_v126) (V c main_v127) (V c main_v125_0 : S262144x128.Idx → EReal) (V c main_v161) (V c main_v162)) (V c main_v150)
      (kbnrelu Cert.Consts.k18 Cert.Consts.eps (V c main_v148) (V c main_v149) (V c main_v147_0 : S262144x128.Idx → EReal) (V c main_v163) (V c main_v164)) (V c main_v155) (V c main_v160)

/-! ## What a grid point writes back -/

/-- The point of tile t writes the tile's rows of the combined array. -/
private theorem wb12_lin (c : Dev nD) (t : Fin cfg12.N) :
    (dat12 (F := Ideal) V c).flushed 13 t = ((cfg12.win 13).blk t).view.read (Elt Ideal) (comb12 V c) := by
  show (cfg12.win 13).cut (grid12.coords t) ((dat12 V c).after 13 t) = _
  rw [after12_13]
  unfold out12_13
  rw [View.canon_unit_zero zeros2]
  simp only [View.ld_unit_zero (S := S4096x128) zeros2, View.ld_unit_zero (S := S128x128) zeros2, View.ld_unit_zero (S := S1x128) zeros2]
  rw [Blk.k12_out_eq]
  rw [blk12_0, blk12_1, blk12_2, blk12_3, blk12_4, blk12_5, blk12_6, blk12_7, blk12_8, blk12_9, blk12_10, blk12_11, blk12_12]
  rw [read12_13]
  unfold comb12
  rw [selRows_klin2, selRows_kbnrelu, selRows_kbnrelu]
  rfl

/-- … its entry of the per-tile column sums of the combined array … -/
private theorem wb12_psum (c : Dev nD) (t : Fin cfg12.N) :
    (dat12 (F := Ideal) V c).flushed 14 t
      = ((cfg12.win 14).blk t).view.read (Elt Ideal) (tilesum 64 4096 rfl (comb12 V c)) := by
  show (cfg12.win 14).cut (grid12.coords t) ((dat12 V c).after 14 t) = _
  rw [after12_14]
  unfold out12_14
  rw [View.canon_unit_zero zeros3]
  simp only [View.ld_unit_zero (S := S4096x128) zeros2, View.ld_unit_zero (S := S128x128) zeros2, View.ld_unit_zero (S := S1x128) zeros2]
  rw [Blk.k12_psum_eq, Blk.k12_out_eq]
  rw [blk12_0, blk12_1, blk12_2, blk12_3, blk12_4, blk12_5, blk12_6, blk12_7, blk12_8, blk12_9, blk12_10, blk12_11, blk12_12]
  rw [read12_14, tilesum_tile]
  unfold comb12
  rw [selRows_klin2, selRows_kbnrelu, selRows_kbnrelu]
  rfl

/-- … and its entry of the per-tile column sums of squares. -/
private theorem wb12_psumsq (c : Dev nD) (t : Fin cfg12.N) :
    (dat12 (F := Ideal) V c).flushed 15 t
      = ((cfg12.win 15).blk t).view.read (Elt Ideal) (tilesumsq 64 4096 rfl (comb12 V c)) := by
  show (cfg12.win 15).cut (grid12.coords t) ((dat12 V c).after 15 t) = _
  rw [after12_15]
  unfold out12_15
  rw [View.canon_unit_zero zeros3]
  simp only [View.ld_unit_zero (S := S4096x128) zeros2, View.ld_unit_zero (S := S128x128) zeros2, View.ld_unit_zero (S := S1x128) zeros2]
  rw [Blk.k12_psumsq_eq, Blk.k12_out_eq]
  rw [blk12_0, blk12_1, blk12_2, blk12_3, blk12_4, blk12_5, blk12_6, blk12_7, blk12_8, blk12_9, blk12_10, blk12_11, blk12_12]
  rw [read12_15, tilesumsq_tile]
  unfold comb12
  rw [selRows_klin2, selRows_kbnrelu, selRows_kbnrelu]
  rfl

/-! ## The blocks cover the arrays -/

private theorem mem12_13 (t : Fin cfg12.N) (i : S262144x128.Idx) :
    i ∈ ((cfg12.win 13).blk t).view.set ↔ ∀ a : Fin 2, win12_13.index t a * S4096x128.size a ≤ (i a).val
      ∧ (i a).val < win12_13.index t a * S4096x128.size a + S4096x128.size a := by
  show i ∈ ((View.whole main_v165_0).slice (win12_13.rect t)).set ↔ _
  rw [View.set_slice_whole, Rect.mem_set_unit]
  exact Iff.rfl

/-- Row r lies in tile r / 4096. -/
private theorem covers12_lin (i : S262144x128.Idx) :
    ∃ t : Fin cfg12.N, (cfg12.win 13).flush t = true ∧ i ∈ ((cfg12.win 13).blk t).view.set := by
  have hi0 : (i 0).val < 262144 := (i 0).isLt
  have hi1 : (i 1).val < 128 := (i 1).isLt
  have hN : cfg12.N = 64 := N_12
  have ht : (i 0).val / 4096 < cfg12.N := by rw [hN]; omega
  refine ⟨⟨(i 0).val / 4096, ht⟩, flush12_13 _, ?_⟩
  rw [mem12_13]
  intro a
  match a with
  | ⟨0, _⟩ =>
    show win12_13.index ⟨(i 0).val / 4096, ht⟩ (0 : Fin 2) * 4096 ≤ (i 0).val
      ∧ (i 0).val < win12_13.index ⟨(i 0).val / 4096, ht⟩ (0 : Fin 2) * 4096 + 4096
    rw [(idx12_13 ⟨(i 0).val / 4096, ht⟩).1]
    show (i 0).val / 4096 * 4096 ≤ (i 0).val ∧ (i 0).val < (i 0).val / 4096 * 4096 + 4096
    omega
  | ⟨1, _⟩ =>
    show win12_13.index ⟨(i 0).val / 4096, ht⟩ (1 : Fin 2) * 128 ≤ (i 1).val
      ∧ (i 1).val < win12_13.index ⟨(i 0).val / 4096, ht⟩ (1 : Fin 2) * 128 + 128
    rw [(idx12_13 ⟨(i 0).val / 4096, ht⟩).2]
    omega

private theorem mem12_14 (t : Fin cfg12.N) (i : S64x1x128.Idx) :
    i ∈ ((cfg12.win 14).blk t).view.set ↔ ∀ a : Fin 3, win12_14.index t a * S1x1x128.size a ≤ (i a).val
      ∧ (i a).val < win12_14.index t a * S1x1x128.size a + S1x1x128.size a := by
  show i ∈ ((View.whole main_v165_1).slice (win12_14.rect t)).set ↔ _
  rw [View.set_slice_whole, Rect.mem_set_unit]
  exact Iff.rfl

/-- Tile t's entry lies in the block of point t. -/
private theorem covers12_psum (i : S64x1x128.Idx) :
    ∃ t : Fin cfg12.N, (cfg12.win 14).flush t = true ∧ i ∈ ((cfg12.win 14).blk t).view.set := by
  have hi0 : (i 0).val < 64 := (i 0).isLt
  have hi1 : (i 1).val < 1 := (i 1).isLt
  have hi2 : (i 2).val < 128 := (i 2).isLt
  have hN : cfg12.N = 64 := N_12
  have ht : (i 0).val < cfg12.N := by rw [hN]; exact hi0
  refine ⟨⟨(i 0).val, ht⟩, flush12_14 _, ?_⟩
  rw [mem12_14]
  intro a
  match a with
  | ⟨0, _⟩ =>
    show win12_14.index ⟨(i 0).val, ht⟩ (0 : Fin 3) * 1 ≤ (i 0).val
      ∧ (i 0).val < win12_14.index ⟨(i 0).val, ht⟩ (0 : Fin 3) * 1 + 1
    rw [(idx12_14 ⟨(i 0).val, ht⟩).1]
    show (i 0).val * 1 ≤ (i 0).val ∧ (i 0).val < (i 0).val * 1 + 1
    omega
  | ⟨1, _⟩ =>
    show win12_14.index ⟨(i 0).val, ht⟩ (1 : Fin 3) * 1 ≤ (i 1).val
      ∧ (i 1).val < win12_14.index ⟨(i 0).val, ht⟩ (1 : Fin 3) * 1 + 1
    rw [(idx12_14 ⟨(i 0).val, ht⟩).2.1]
    omega
  | ⟨2, _⟩ =>
    show win12_14.index ⟨(i 0).val, ht⟩ (2 : Fin 3) * 128 ≤ (i 2).val
      ∧ (i 2).val < win12_14.index ⟨(i 0).val, ht⟩ (2 : Fin 3) * 128 + 128
    rw [(idx12_14 ⟨(i 0).val, ht⟩).2.2]
    omega

private theorem mem12_15 (t : Fin cfg12.N) (i : S64x1x128.Idx) :
    i ∈ ((cfg12.win 15).blk t).view.set ↔ ∀ a : Fin 3, win12_15.index t a * S1x1x128.size a ≤ (i a).val
      ∧ (i a).val < win12_15.index t a * S1x1x128.size a + S1x1x128.size a := by
  show i ∈ ((View.whole main_v165_2).slice (win12_15.rect t)).set ↔ _
  rw [View.set_slice_whole, Rect.mem_set_unit]
  exact Iff.rfl

/-- Tile t's entry lies in the block of point t. -/
private theorem covers12_psumsq (i : S64x1x128.Idx) :
    ∃ t : Fin cfg12.N, (cfg12.win 15).flush t = true ∧ i ∈ ((cfg12.win 15).blk t).view.set := by
  have hi0 : (i 0).val < 64 := (i 0).isLt
  have hi1 : (i 1).val < 1 := (i 1).isLt
  have hi2 : (i 2).val < 128 := (i 2).isLt
  have hN : cfg12.N = 64 := N_12
  have ht : (i 0).val < cfg12.N := by rw [hN]; exact hi0
  refine ⟨⟨(i 0).val, ht⟩, flush12_15 _, ?_⟩
  rw [mem12_15]
  intro a
  match a with
  | ⟨0, _⟩ =>
    show win12_15.index ⟨(i 0).val, ht⟩ (0 : Fin 3) * 1 ≤ (i 0).val
      ∧ (i 0).val < win12_15.index ⟨(i 0).val, ht⟩ (0 : Fin 3) * 1 + 1
    rw [(idx12_15 ⟨(i 0).val, ht⟩).1]
    show (i 0).val * 1 ≤ (i 0).val ∧ (i 0).val < (i 0).val * 1 + 1
    omega
  | ⟨1, _⟩ =>
    show win12_15.index ⟨(i 0).val, ht⟩ (1 : Fin 3) * 1 ≤ (i 1).val
      ∧ (i 1).val < win12_15.index ⟨(i 0).val, ht⟩ (1 : Fin 3) * 1 + 1
    rw [(idx12_15 ⟨(i 0).val, ht⟩).2.1]
    omega
  | ⟨2, _⟩ =>
    show win12_15.index ⟨(i 0).val, ht⟩ (2 : Fin 3) * 128 ≤ (i 2).val
      ∧ (i 2).val < win12_15.index ⟨(i 0).val, ht⟩ (2 : Fin 3) * 128 + 128
    rw [(idx12_15 ⟨(i 0).val, ht⟩).2.2]
    omega

/-! ## The region's arrays -/

/-- The combining layer's output array. -/
theorem r12_lin (c : Dev nD) : (dat12 (F := Ideal) V c).arrAt 13 cfg12.N
    = klin2 (kbnrelu Cert.Consts.k18 Cert.Consts.eps (V c main_v126) (V c main_v127) (V c main_v125_0 : S262144x128.Idx → EReal) (V c main_v161) (V c main_v162)) (V c main_v150)
        (kbnrelu Cert.Consts.k18 Cert.Consts.eps (V c main_v148) (V c main_v149) (V c main_v147_0 : S262144x128.Idx → EReal) (V c main_v163) (V c main_v164)) (V c main_v155) (V c main_v160) :=
  (dat12 V c).arrAt_eq_of_cover 13 (comb12 V c) (fun t _ => wb12_lin V c t) covers12_lin

/-- Its per-tile column sums. -/
theorem r12_psum (c : Dev nD) : (dat12 (F := Ideal) V c).arrAt 14 cfg12.N
    = tilesum 64 4096 rfl (klin2 (kbnrelu Cert.Consts.k18 Cert.Consts.eps (V c main_v126) (V c main_v127) (V c main_v125_0 : S262144x128.Idx → EReal) (V c main_v161) (V c main_v162)) (V c main_v150)
        (kbnrelu Cert.Consts.k18 Cert.Consts.eps (V c main_v148) (V c main_v149) (V c main_v147_0 : S262144x128.Idx → EReal) (V c main_v163) (V c main_v164)) (V c main_v155) (V c main_v160)) :=
  (dat12 V c).arrAt_eq_of_cover 14 (tilesum 64 4096 rfl (comb12 V c)) (fun t _ => wb12_psum V c t) covers12_psum

/-- Its per-tile column sums of squares. -/
theorem r12_psumsq (c : Dev nD) : (dat12 (F := Ideal) V c).arrAt 15 cfg12.N
    = tilesumsq 64 4096 rfl (klin2 (kbnrelu Cert.Consts.k18 Cert.Consts.eps (V c main_v126) (V c main_v127) (V c main_v125_0 : S262144x128.Idx → EReal) (V c main_v161) (V c main_v162)) (V c main_v150)
        (kbnrelu Cert.Consts.k18 Cert.Consts.eps (V c main_v148) (V c main_v149) (V c main_v147_0 : S262144x128.Idx → EReal) (V c main_v163) (V c main_v164)) (V c main_v155) (V c main_v160)) :=
  (dat12 V c).arrAt_eq_of_cover 15 (tilesumsq 64 4096 rfl (comb12 V c)) (fun t _ => wb12_psumsq V c t) covers12_psumsq

end Cert.KernelIdeal.Reg

end
-- ==== Proof.Reg.R13.lean ====
/-
  Batch normalisation followed by the ramp, of the 262144 rows of a matrix, computed by tiles of 4096 rows: what the
  region leaves in its output array. Every grid point normalises one tile of rows with the SAME column statistics,
  scale and shift. The layer acts on each row by itself once the statistics are given, so the tiles together are the
  layer applied to the whole array.
-/
import proofs.«427658_j89163521065156_2_alg».proof.Proof.FrameKernelIdeal.Reg13
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The grid and the index maps -/

/-- A whole-buffer access starts at offset zero on both axes. -/
private theorem zero_off13 : (![0, 0] : Fin 2 → Nat) = fun _ => 0 := funext fun a => by fin_cases a <;> rfl

/-- The grid has 64 points. -/
private theorem npts13 : cfg13.N = 64 := by decide
private theorem npoints13 (t : Fin cfg13.N) : t.val < 64 := lt_of_lt_of_eq t.isLt npts13

/-- The index maps over the grid. The rows and the result move with the point: block (t, 0) at point t. -/
private theorem idx_maps13_0 : ∀ t : Fin cfg13.N,
    win13_0.index t (0 : Fin 2) = t.val ∧ win13_0.index t (1 : Fin 2) = 0 :=
  (by decide +kernel : ∀ t : Fin grid13.N, _)
private theorem idx_maps13_5 : ∀ t : Fin cfg13.N,
    win13_5.index t (0 : Fin 2) = t.val ∧ win13_5.index t (1 : Fin 2) = 0 :=
  (by decide +kernel : ∀ t : Fin grid13.N, _)

/-- The column sums, sums of squares, scale and shift are whole windows: block (0, 0) at every point. -/
private theorem idx_maps13_1 : ∀ t : Fin cfg13.N,
    win13_1.index t (0 : Fin 2) = 0 ∧ win13_1.index t (1 : Fin 2) = 0 :=
  (by decide +kernel : ∀ t : Fin grid13.N, _)
private theorem idx_maps13_2 : ∀ t : Fin cfg13.N,
    win13_2.index t (0 : Fin 2) = 0 ∧ win13_2.index t (1 : Fin 2) = 0 :=
  (by decide +kernel : ∀ t : Fin grid13.N, _)
private theorem idx_maps13_3 : ∀ t : Fin cfg13.N,
    win13_3.index t (0 : Fin 2) = 0 ∧ win13_3.index t (1 : Fin 2) = 0 :=
  (by decide +kernel : ∀ t : Fin grid13.N, _)
private theorem idx_maps13_4 : ∀ t : Fin cfg13.N,
    win13_4.index t (0 : Fin 2) = 0 ∧ win13_4.index t (1 : Fin 2) = 0 :=
  (by decide +kernel : ∀ t : Fin grid13.N, _)

/-! ## The blocks at a point -/

/-- Block t of a 262144-row array read through a row-tiled window is the array's rows of tile t. -/
private theorem rows_blk13_0 (t : Fin cfg13.N) (G : S262144x128.Idx → EReal) :
    ((cfg13.win 0).blk t).view.read (Elt Ideal) G = selRows (tileRow 64 4096 rfl ⟨t.val, npoints13 t⟩) G := by
  have e := idx_maps13_0 t
  funext y
  show G (((cfg13.win 0).blk t).view.emb y) = G (ix2 ⟨t.val * 4096 + (y 0).val, _⟩ (y 1))
  refine congrArg G ?_
  funext a; apply Fin.ext
  match a with
  | ⟨0, _⟩ => show win13_0.index t (0 : Fin 2) * 4096 + 1 * (y 0).val = t.val * 4096 + (y 0).val; omega
  | ⟨1, _⟩ => show win13_0.index t (1 : Fin 2) * 128 + 1 * (y 1).val = (y 1).val; omega
private theorem rows_blk13_5 (t : Fin cfg13.N) (G : S262144x128.Idx → EReal) :
    ((cfg13.win 5).blk t).view.read (Elt Ideal) G = selRows (tileRow 64 4096 rfl ⟨t.val, npoints13 t⟩) G := by
  have e := idx_maps13_5 t
  funext y
  show G (((cfg13.win 5).blk t).view.emb y) = G (ix2 ⟨t.val * 4096 + (y 0).val, _⟩ (y 1))
  refine congrArg G ?_
  funext a; apply Fin.ext
  match a with
  | ⟨0, _⟩ => show win13_5.index t (0 : Fin 2) * 4096 + 1 * (y 0).val = t.val * 4096 + (y 0).val; omega
  | ⟨1, _⟩ => show win13_5.index t (1 : Fin 2) * 128 + 1 * (y 1).val = (y 1).val; omega

/-- A one-row array read through a whole window is the array itself, at every point. -/
private theorem whole_blk13_1 (t : Fin cfg13.N) (G : S1x128.Idx → EReal) :
    ((cfg13.win 1).blk t).view.read (Elt Ideal) G = G := by
  have e := idx_maps13_1 t
  funext y
  show G (((cfg13.win 1).blk t).view.emb y) = G y
  refine congrArg G ?_
  funext a; apply Fin.ext
  match a with
  | ⟨0, _⟩ => show win13_1.index t (0 : Fin 2) * 1 + 1 * (y 0).val = (y 0).val; omega
  | ⟨1, _⟩ => show win13_1.index t (1 : Fin 2) * 128 + 1 * (y 1).val = (y 1).val; omega
private theorem whole_blk13_2 (t : Fin cfg13.N) (G : S1x128.Idx → EReal) :
    ((cfg13.win 2).blk t).view.read (Elt Ideal) G = G := by
  have e := idx_maps13_2 t
  funext y
  show G (((cfg13.win 2).blk t).view.emb y) = G y
  refine congrArg G ?_
  funext a; apply Fin.ext
  match a with
  | ⟨0, _⟩ => show win13_2.index t (0 : Fin 2) * 1 + 1 * (y 0).val = (y 0).val; omega
  | ⟨1, _⟩ => show win13_2.index t (1 : Fin 2) * 128 + 1 * (y 1).val = (y 1).val; omega
private theorem whole_blk13_3 (t : Fin cfg13.N) (G : S1x128.Idx → EReal) :
    ((cfg13.win 3).blk t).view.read (Elt Ideal) G = G := by
  have e := idx_maps13_3 t
  funext y
  show G (((cfg13.win 3).blk t).view.emb y) = G y
  refine congrArg G ?_
  funext a; apply Fin.ext
  match a with
  | ⟨0, _⟩ => show win13_3.index t (0 : Fin 2) * 1 + 1 * (y 0).val = (y 0).val; omega
  | ⟨1, _⟩ => show win13_3.index t (1 : Fin 2) * 128 + 1 * (y 1).val = (y 1).val; omega
private theorem whole_blk13_4 (t : Fin cfg13.N) (G : S1x128.Idx → EReal) :
    ((cfg13.win 4).blk t).view.read (Elt Ideal) G = G := by
  have e := idx_maps13_4 t
  funext y
  show G (((cfg13.win 4).blk t).view.emb y) = G y
  refine congrArg G ?_
  funext a; apply Fin.ext
  match a with
  | ⟨0, _⟩ => show win13_4.index t (0 : Fin 2) * 1 + 1 * (y 0).val = (y 0).val; omega
  | ⟨1, _⟩ => show win13_4.index t (1 : Fin 2) * 128 + 1 * (y 1).val = (y 1).val; omega

/-! ## What a point writes back -/

/-- WHAT POINT t WRITES BACK is block t of the layer applied to the whole array: the body normalises the rows of tile
    t, and taking rows commutes with the layer. -/
private theorem wrote13 (c : Dev nD) (t : Fin cfg13.N) :
    (dat13 (F := Ideal) V c).flushed 5 t = ((cfg13.win 5).blk t).view.read (Elt Ideal)
      (kbnrelu Cert.Consts.k18 Cert.Consts.eps (V c main_v166 : S1x128.Idx → EReal) (V c main_v167 : S1x128.Idx → EReal) (V c main_v165_0 : S262144x128.Idx → EReal) (V c main_v168 : S1x128.Idx → EReal) (V c main_v169 : S1x128.Idx → EReal)) := by
  show (cfg13.win 5).cut (grid13.coords t) ((dat13 (F := Ideal) V c).after 5 t) = _
  rw [after13_5]
  unfold out13_5
  rw [View.canon_unit_zero zero_off13]
  simp only [View.ld_unit_zero (S := S4096x128) zero_off13, View.ld_unit_zero (S := S1x128) zero_off13]
  rw [Blk.k13_pay1_eq]
  rw [show iblk13 V c 0 t = selRows (tileRow 64 4096 rfl ⟨t.val, npoints13 t⟩) (V c main_v165_0 : S262144x128.Idx → EReal) from rows_blk13_0 t _,
    show iblk13 V c 1 t = (V c main_v166 : S1x128.Idx → EReal) from whole_blk13_1 t _,
    show iblk13 V c 2 t = (V c main_v167 : S1x128.Idx → EReal) from whole_blk13_2 t _,
    show iblk13 V c 3 t = (V c main_v168 : S1x128.Idx → EReal) from whole_blk13_3 t _,
    show iblk13 V c 4 t = (V c main_v169 : S1x128.Idx → EReal) from whole_blk13_4 t _]
  exact ((rows_blk13_5 t _).trans (selRows_kbnrelu _ _ _ _ _ _ _ _)).symm

/-! ## The tiles fill the array -/

/-- An index of the array is in point t's block iff each coordinate is in the block's range on its axis. -/
private theorem mem_tile13 (t : Fin cfg13.N) (i : S262144x128.Idx) :
    i ∈ ((cfg13.win 5).blk t).view.set ↔ ∀ a : Fin 2, win13_5.index t a * S4096x128.size a ≤ (i a).val
      ∧ (i a).val < win13_5.index t a * S4096x128.size a + S4096x128.size a := by
  show i ∈ ((View.whole main_v170).slice (win13_5.rect t)).set ↔ _
  rw [View.set_slice_whole, Rect.mem_set_unit]
  exact Iff.rfl

/-- Row r lies in tile r / 4096, and every point writes its block back. -/
private theorem tiles_cover13 (i : S262144x128.Idx) :
    ∃ t : Fin cfg13.N, (cfg13.win 5).flush t = true ∧ i ∈ ((cfg13.win 5).blk t).view.set := by
  have hi0 : (i 0).val < 262144 := (i 0).isLt
  have hi1 : (i 1).val < 128 := (i 1).isLt
  obtain ⟨t, ht⟩ : ∃ t : Fin cfg13.N, t.val = (i 0).val / 4096 :=
    ⟨⟨(i 0).val / 4096, lt_of_lt_of_eq (show (i 0).val / 4096 < 64 by omega) npts13.symm⟩, rfl⟩
  obtain ⟨e0, e1⟩ := idx_maps13_5 t
  refine ⟨t, flush13_5 t, ?_⟩
  rw [mem_tile13]
  intro a
  match a with
  | ⟨0, _⟩ => show win13_5.index t (0 : Fin 2) * 4096 ≤ (i 0).val ∧ (i 0).val < win13_5.index t (0 : Fin 2) * 4096 + 4096; omega
  | ⟨1, _⟩ => show win13_5.index t (1 : Fin 2) * 128 ≤ (i 1).val ∧ (i 1).val < win13_5.index t (1 : Fin 2) * 128 + 128; omega

/-! ## The array after the region -/

/-- THE ARRAY the region leaves: the normalised and ramped rows, from the column statistics, scale and shift it was
    given. -/
theorem r13_bn (c : Dev nD) :
    (dat13 (F := Ideal) V c).arrAt 5 cfg13.N
      = kbnrelu Cert.Consts.k18 Cert.Consts.eps (V c main_v166 : S1x128.Idx → EReal) (V c main_v167 : S1x128.Idx → EReal) (V c main_v165_0 : S262144x128.Idx → EReal) (V c main_v168 : S1x128.Idx → EReal) (V c main_v169 : S1x128.Idx → EReal) :=
  (dat13 (F := Ideal) V c).arrAt_eq_of_cover 5 _ (fun t _ => wrote13 V c t) tiles_cover13

end Cert.KernelIdeal.Reg

end
-- ==== Proof.KChainE.lean ====
/-
  The kernel program computes the layer — the edge branch: each named intermediate value is the corresponding value of the
  specification's network at the inputs read off the launch memory; the per-tile partial sums are the tile sums of that value, their totals
  its column sums, and, the inputs being real, each normalisation from those raw moments is the centred one.
-/
import proofs.«427658_j89163521065156_2_alg».proof.Proof.KVal
import proofs.«427658_j89163521065156_2_alg».proof.Proof.KInp
import proofs.«427658_j89163521065156_2_alg».proof.Proof.SpecNetReal
import proofs.«427658_j89163521065156_2_alg».proof.Proof.SpecSums
import proofs.«427658_j89163521065156_2_alg».proof.Proof.SpecVar
import proofs.«427658_j89163521065156_2_alg».proof.Proof.Reg.R8
import proofs.«427658_j89163521065156_2_alg».proof.Proof.Reg.R9
import proofs.«427658_j89163521065156_2_alg».proof.Proof.Reg.R10
import proofs.«427658_j89163521065156_2_alg».proof.Proof.Reg.R11
import proofs.«427658_j89163521065156_2_alg».proof.Proof.Reg.R12
import proofs.«427658_j89163521065156_2_alg».proof.Proof.Reg.R13
import proofs.«427658_j89163521065156_2_alg».proof.Proof.KChainC

set_option maxRecDepth 16384

noncomputable section

open Idealize.ShloMosaic Idealize.ShloMosaic.ValueIdx Idealize.ShloMosaic.TcCoe Idealize.SL.Sem
open Cert.KernelIdeal Cert.KernelIdeal.Gen Cert.KernelIdeal.KLaw Cert.Spec

namespace Cert.KernelIdeal.KChain

variable (m : (ℓ : Loc nD τ sig) → Buf (Elt Ideal) ℓ) (ρ : Dev nD → PrngReg)

open Cert.KernelIdeal.KVal

theorem v107_net (c : Dev nD) : v107 (F := Ideal) m ρ c = (inp m c).W1 2 :=
  (v107_eq m ρ c).trans rfl
theorem v118_net (c : Dev nD) : v118 (F := Ideal) m ρ c = asRow ((inp m c).b1 2) := by
  refine (v118_eq m ρ c).trans ?_
  show KT.KT6_v15 (F := Ideal) (KT.KT16_v111 (F := Ideal) (m ((c : Thread nD τ).loc main_arg12))) = _
  exact (asRow_eq _).trans rfl
theorem v111_net (c : Dev nD) : v111 (F := Ideal) m ρ c = (inp m c).g1 2 :=
  (v111_eq m ρ c).trans rfl
theorem v113_net (c : Dev nD) : v113 (F := Ideal) m ρ c = (inp m c).be1 2 :=
  (v113_eq m ρ c).trans rfl
theorem v115_net (c : Dev nD) : v115 (F := Ideal) m ρ c = (inp m c).W2 2 :=
  (v115_eq m ρ c).trans rfl
theorem v117_net (c : Dev nD) : v117 (F := Ideal) m ρ c = (inp m c).b2 2 :=
  (v117_eq m ρ c).trans rfl
/-- What region 8 leaves in its first output array: the bias row plus the product of (xdst + xsrc) + e with the first
    matrix of update 2, which is that update's first pre-activation. -/
private theorem first2 (c : Dev nD) :
    (dat8 (F := Ideal) (V17 m ρ) c).arrAt 5 cfg8.N = Net.z1E (inp m c) 2 (Net.inE2 (inp m c)) := by
  refine (Reg.r8_lin (V17 m ρ) c).trans ?_
  rw [show V17 m ρ c main_v91 = v91 m ρ c from v91_at17 m ρ c,
    show V17 m ρ c main_v12 = v12 m ρ c from v12_at17 m ρ c,
    show V17 m ρ c main_arg1 = m ((c : Thread nD τ).loc main_arg1) from arg1_at17 m ρ c,
    show V17 m ρ c main_v107 = v107 m ρ c from v107_at17 m ρ c,
    show V17 m ρ c main_v118 = v118 m ρ c from v118_at17 m ρ c,
    v91_net, v12_net, v107_net, v118_net]
  exact klin_eq_lin (addM (addM (Net.xdst (inp m c)) (Net.xsrc (inp m c))) (inp m c).e) _ _
theorem v119_0_net (c : Dev nD) : v119_0 (F := Ideal) m ρ c = Net.z1E (inp m c) 2 (Net.inE2 (inp m c)) := by
  show W18 m ρ c (Proc.devRef .tc main_v119_0) = _
  exact (W18_arr m ρ c 5).trans (first2 m ρ c)
theorem v119_1_net (c : Dev nD) : v119_1 (F := Ideal) m ρ c = tilesum 64 4096 rfl (Net.z1E (inp m c) 2 (Net.inE2 (inp m c))) := by
  show W18 m ρ c (Proc.devRef .tc main_v119_1) = _
  exact (W18_arr m ρ c 6).trans ((Reg.r8_psum (V17 m ρ) c).trans
    (congrArg (tilesum (R := 262144) (C := 128) 64 4096 rfl) ((Reg.r8_lin (V17 m ρ) c).symm.trans (first2 m ρ c))))
theorem v119_2_net (c : Dev nD) : v119_2 (F := Ideal) m ρ c = tilesumsq 64 4096 rfl (Net.z1E (inp m c) 2 (Net.inE2 (inp m c))) := by
  show W18 m ρ c (Proc.devRef .tc main_v119_2) = _
  exact (W18_arr m ρ c 7).trans ((Reg.r8_psumsq (V17 m ρ) c).trans
    (congrArg (tilesumsq (R := 262144) (C := 128) 64 4096 rfl) ((Reg.r8_lin (V17 m ρ) c).symm.trans (first2 m ρ c))))
theorem v120_net (c : Dev nD) : v120 (F := Ideal) m ρ c = asRow (colsum (Net.z1E (inp m c) 2 (Net.inE2 (inp m c)))) := by
  rw [v120_eq, tiles64_eq, v119_1_net m ρ c, addTiles_tilesum]
theorem v121_net (c : Dev nD) : v121 (F := Ideal) m ρ c = asRow (colsumsq (Net.z1E (inp m c) 2 (Net.inE2 (inp m c)))) := by
  rw [v121_eq, tiles64_eq, v119_2_net m ρ c, addTiles_tilesumsq]
theorem v122_net (c : Dev nD) : v122 (F := Ideal) m ρ c = asRow ((inp m c).b2 2) :=
  (v122_eq m ρ c).trans ((asRow_eq _).trans (congrArg (asRow (C := 128)) (v117_net m ρ c)))
theorem v123_net (c : Dev nD) : v123 (F := Ideal) m ρ c = asRow ((inp m c).g1 2) :=
  (v123_eq m ρ c).trans ((asRow_eq _).trans (congrArg (asRow (C := 128)) (v111_net m ρ c)))
theorem v124_net (c : Dev nD) : v124 (F := Ideal) m ρ c = asRow ((inp m c).be1 2) :=
  (v124_eq m ρ c).trans ((asRow_eq _).trans (congrArg (asRow (C := 128)) (v113_net m ρ c)))
/-- What region 9 leaves in its first output array. The column sums and sums of squares it is given are those of the
    first pre-activation, whose entries are real, so its normalisation from the raw moments is the centred one; the bias
    row plus the product with the second matrix is then update 2's second pre-activation. -/
private theorem second2 (c : Dev nD) (hI : (inp m c).Real) :
    (dat9 (F := Ideal) (V19 m ρ) c).arrAt 7 cfg9.N = Net.z2E (inp m c) 2 (Net.inE2 (inp m c)) := by
  refine (Reg.r9_lin (V19 m ρ) c).trans ?_
  rw [show V19 m ρ c main_v120 = v120 m ρ c from v120_at19 m ρ c,
    show V19 m ρ c main_v121 = v121 m ρ c from v121_at19 m ρ c,
    show V19 m ρ c main_v119_0 = v119_0 m ρ c from v119_0_at19 m ρ c,
    show V19 m ρ c main_v123 = v123 m ρ c from v123_at19 m ρ c,
    show V19 m ρ c main_v124 = v124 m ρ c from v124_at19 m ρ c,
    show V19 m ρ c main_v115 = v115 m ρ c from v115_at19 m ρ c,
    show V19 m ρ c main_v122 = v122 m ρ c from v122_at19 m ρ c,
    v120_net, v121_net, v119_0_net, v123_net, v124_net, v115_net, v122_net]
  rw [kbnrelu_eq_bnrelu (by norm_num) Cert.Consts.n18 Cert.Consts.k18 Cert.Consts.eps Cert.Consts.n18_eq Cert.Consts.k18_eq _
    (Net.real_z1E hI 2 (Net.real_inE2 hI))]
  exact klin_eq_lin _ _ _
theorem v125_0_net (c : Dev nD) (hI : (inp m c).Real) : v125_0 (F := Ideal) m ρ c = Net.z2E (inp m c) 2 (Net.inE2 (inp m c)) := by
  show W20 m ρ c (Proc.devRef .tc main_v125_0) = _
  exact (W20_arr m ρ c 7).trans (second2 m ρ c hI)
theorem v125_1_net (c : Dev nD) (hI : (inp m c).Real) : v125_1 (F := Ideal) m ρ c = tilesum 64 4096 rfl (Net.z2E (inp m c) 2 (Net.inE2 (inp m c))) := by
  show W20 m ρ c (Proc.devRef .tc main_v125_1) = _
  exact (W20_arr m ρ c 8).trans ((Reg.r9_psum (V19 m ρ) c).trans
    (congrArg (tilesum (R := 262144) (C := 128) 64 4096 rfl) ((Reg.r9_lin (V19 m ρ) c).symm.trans (second2 m ρ c hI))))
theorem v125_2_net (c : Dev nD) (hI : (inp m c).Real) : v125_2 (F := Ideal) m ρ c = tilesumsq 64 4096 rfl (Net.z2E (inp m c) 2 (Net.inE2 (inp m c))) := by
  show W20 m ρ c (Proc.devRef .tc main_v125_2) = _
  exact (W20_arr m ρ c 9).trans ((Reg.r9_psumsq (V19 m ρ) c).trans
    (congrArg (tilesumsq (R := 262144) (C := 128) 64 4096 rfl) ((Reg.r9_lin (V19 m ρ) c).symm.trans (second2 m ρ c hI))))
theorem v126_net (c : Dev nD) (hI : (inp m c).Real) : v126 (F := Ideal) m ρ c = asRow (colsum (Net.z2E (inp m c) 2 (Net.inE2 (inp m c)))) := by
  rw [v126_eq, tiles64_eq, v125_1_net m ρ c hI, addTiles_tilesum]
theorem v127_net (c : Dev nD) (hI : (inp m c).Real) : v127 (F := Ideal) m ρ c = asRow (colsumsq (Net.z2E (inp m c) 2 (Net.inE2 (inp m c)))) := by
  rw [v127_eq, tiles64_eq, v125_2_net m ρ c hI, addTiles_tilesumsq]
theorem v129_net (c : Dev nD) : v129 (F := Ideal) m ρ c = (inp m c).W1 3 :=
  (v129_eq m ρ c).trans rfl
theorem v140_net (c : Dev nD) : v140 (F := Ideal) m ρ c = asRow ((inp m c).b1 3) := by
  refine (v140_eq m ρ c).trans ?_
  show KT.KT6_v15 (F := Ideal) (KT.KT20_v133 (F := Ideal) (m ((c : Thread nD τ).loc main_arg12))) = _
  exact (asRow_eq _).trans rfl
theorem v133_net (c : Dev nD) : v133 (F := Ideal) m ρ c = (inp m c).g1 3 :=
  (v133_eq m ρ c).trans rfl
theorem v135_net (c : Dev nD) : v135 (F := Ideal) m ρ c = (inp m c).be1 3 :=
  (v135_eq m ρ c).trans rfl
theorem v137_net (c : Dev nD) : v137 (F := Ideal) m ρ c = (inp m c).W2 3 :=
  (v137_eq m ρ c).trans rfl
theorem v139_net (c : Dev nD) : v139 (F := Ideal) m ρ c = (inp m c).b2 3 :=
  (v139_eq m ρ c).trans rfl
/-- What region 10 leaves in its first output array: the bias row plus the product of (updst + upsrc) + e with the first
    matrix of update 3, which is that update's first pre-activation. -/
private theorem first3 (c : Dev nD) :
    (dat10 (F := Ideal) (V21 m ρ) c).arrAt 5 cfg10.N = Net.z1E (inp m c) 3 (Net.inE3 (inp m c)) := by
  refine (Reg.r10_lin (V21 m ρ) c).trans ?_
  rw [show V21 m ρ c main_v105 = v105 m ρ c from v105_at21 m ρ c,
    show V21 m ρ c main_v98 = v98 m ρ c from v98_at21 m ρ c,
    show V21 m ρ c main_arg1 = m ((c : Thread nD τ).loc main_arg1) from arg1_at21 m ρ c,
    show V21 m ρ c main_v129 = v129 m ρ c from v129_at21 m ρ c,
    show V21 m ρ c main_v140 = v140 m ρ c from v140_at21 m ρ c,
    v105_net, v98_net, v129_net, v140_net]
  exact klin_eq_lin (addM (addM (Net.updst (inp m c)) (Net.upsrc (inp m c))) (inp m c).e) _ _
theorem v141_0_net (c : Dev nD) : v141_0 (F := Ideal) m ρ c = Net.z1E (inp m c) 3 (Net.inE3 (inp m c)) := by
  show W22 m ρ c (Proc.devRef .tc main_v141_0) = _
  exact (W22_arr m ρ c 5).trans (first3 m ρ c)
theorem v141_1_net (c : Dev nD) : v141_1 (F := Ideal) m ρ c = tilesum 64 4096 rfl (Net.z1E (inp m c) 3 (Net.inE3 (inp m c))) := by
  show W22 m ρ c (Proc.devRef .tc main_v141_1) = _
  exact (W22_arr m ρ c 6).trans ((Reg.r10_psum (V21 m ρ) c).trans
    (congrArg (tilesum (R := 262144) (C := 128) 64 4096 rfl) ((Reg.r10_lin (V21 m ρ) c).symm.trans (first3 m ρ c))))
theorem v141_2_net (c : Dev nD) : v141_2 (F := Ideal) m ρ c = tilesumsq 64 4096 rfl (Net.z1E (inp m c) 3 (Net.inE3 (inp m c))) := by
  show W22 m ρ c (Proc.devRef .tc main_v141_2) = _
  exact (W22_arr m ρ c 7).trans ((Reg.r10_psumsq (V21 m ρ) c).trans
    (congrArg (tilesumsq (R := 262144) (C := 128) 64 4096 rfl) ((Reg.r10_lin (V21 m ρ) c).symm.trans (first3 m ρ c))))
theorem v142_net (c : Dev nD) : v142 (F := Ideal) m ρ c = asRow (colsum (Net.z1E (inp m c) 3 (Net.inE3 (inp m c)))) := by
  rw [v142_eq, tiles64_eq, v141_1_net m ρ c, addTiles_tilesum]
theorem v143_net (c : Dev nD) : v143 (F := Ideal) m ρ c = asRow (colsumsq (Net.z1E (inp m c) 3 (Net.inE3 (inp m c)))) := by
  rw [v143_eq, tiles64_eq, v141_2_net m ρ c, addTiles_tilesumsq]
theorem v144_net (c : Dev nD) : v144 (F := Ideal) m ρ c = asRow ((inp m c).b2 3) :=
  (v144_eq m ρ c).trans ((asRow_eq _).trans (congrArg (asRow (C := 128)) (v139_net m ρ c)))
theorem v145_net (c : Dev nD) : v145 (F := Ideal) m ρ c = asRow ((inp m c).g1 3) :=
  (v145_eq m ρ c).trans ((asRow_eq _).trans (congrArg (asRow (C := 128)) (v133_net m ρ c)))
theorem v146_net (c : Dev nD) : v146 (F := Ideal) m ρ c = asRow ((inp m c).be1 3) :=
  (v146_eq m ρ c).trans ((asRow_eq _).trans (congrArg (asRow (C := 128)) (v135_net m ρ c)))
/-- What region 11 leaves in its first output array. The column sums and sums of squares it is given are those of the
    first pre-activation, whose entries are real, so its normalisation from the raw moments is the centred one; the bias
    row plus the product with the second matrix is then update 3's second pre-activation. -/
private theorem second3 (c : Dev nD) (hI : (inp m c).Real) :
    (dat11 (F := Ideal) (V23 m ρ) c).arrAt 7 cfg11.N = Net.z2E (inp m c) 3 (Net.inE3 (inp m c)) := by
  refine (Reg.r11_lin (V23 m ρ) c).trans ?_
  rw [show V23 m ρ c main_v142 = v142 m ρ c from v142_at23 m ρ c,
    show V23 m ρ c main_v143 = v143 m ρ c from v143_at23 m ρ c,
    show V23 m ρ c main_v141_0 = v141_0 m ρ c from v141_0_at23 m ρ c,
    show V23 m ρ c main_v145 = v145 m ρ c from v145_at23 m ρ c,
    show V23 m ρ c main_v146 = v146 m ρ c from v146_at23 m ρ c,
    show V23 m ρ c main_v137 = v137 m ρ c from v137_at23 m ρ c,
    show V23 m ρ c main_v144 = v144 m ρ c from v144_at23 m ρ c,
    v142_net, v143_net, v141_0_net, v145_net, v146_net, v137_net, v144_net]
  rw [kbnrelu_eq_bnrelu (by norm_num) Cert.Consts.n18 Cert.Consts.k18 Cert.Consts.eps Cert.Consts.n18_eq Cert.Consts.k18_eq _
    (Net.real_z1E hI 3 (Net.real_inE3 hI))]
  exact klin_eq_lin _ _ _
theorem v147_0_net (c : Dev nD) (hI : (inp m c).Real) : v147_0 (F := Ideal) m ρ c = Net.z2E (inp m c) 3 (Net.inE3 (inp m c)) := by
  show W24 m ρ c (Proc.devRef .tc main_v147_0) = _
  exact (W24_arr m ρ c 7).trans (second3 m ρ c hI)
theorem v147_1_net (c : Dev nD) (hI : (inp m c).Real) : v147_1 (F := Ideal) m ρ c = tilesum 64 4096 rfl (Net.z2E (inp m c) 3 (Net.inE3 (inp m c))) := by
  show W24 m ρ c (Proc.devRef .tc main_v147_1) = _
  exact (W24_arr m ρ c 8).trans ((Reg.r11_psum (V23 m ρ) c).trans
    (congrArg (tilesum (R := 262144) (C := 128) 64 4096 rfl) ((Reg.r11_lin (V23 m ρ) c).symm.trans (second3 m ρ c hI))))
theorem v147_2_net (c : Dev nD) (hI : (inp m c).Real) : v147_2 (F := Ideal) m ρ c = tilesumsq 64 4096 rfl (Net.z2E (inp m c) 3 (Net.inE3 (inp m c))) := by
  show W24 m ρ c (Proc.devRef .tc main_v147_2) = _
  exact (W24_arr m ρ c 9).trans ((Reg.r11_psumsq (V23 m ρ) c).trans
    (congrArg (tilesumsq (R := 262144) (C := 128) 64 4096 rfl) ((Reg.r11_lin (V23 m ρ) c).symm.trans (second3 m ρ c hI))))
theorem v148_net (c : Dev nD) (hI : (inp m c).Real) : v148 (F := Ideal) m ρ c = asRow (colsum (Net.z2E (inp m c) 3 (Net.inE3 (inp m c)))) := by
  rw [v148_eq, tiles64_eq, v147_1_net m ρ c hI, addTiles_tilesum]
theorem v149_net (c : Dev nD) (hI : (inp m c).Real) : v149 (F := Ideal) m ρ c = asRow (colsumsq (Net.z2E (inp m c) 3 (Net.inE3 (inp m c)))) := by
  rw [v149_eq, tiles64_eq, v147_2_net m ρ c hI, addTiles_tilesumsq]
theorem v150_net (c : Dev nD) : v150 (F := Ideal) m ρ c = rowsFrom (N := 256) (K := 128) 0 (by omega) (inp m c).eW :=
  (v150_eq m ρ c).trans ((rows256_0_eq _).trans rfl)
theorem v155_net (c : Dev nD) : v155 (F := Ideal) m ρ c = rowsFrom (N := 256) (K := 128) 128 (by omega) (inp m c).eW :=
  (v155_eq m ρ c).trans ((rows256_1_eq _).trans rfl)
theorem v161_net (c : Dev nD) : v161 (F := Ideal) m ρ c = asRow ((inp m c).g2 2) := by
  refine (v161_eq m ρ c).trans ?_
  show KT.KT6_v15 (F := Ideal) (KT.KT16_v111 (F := Ideal) (m ((c : Thread nD τ).loc main_arg17))) = _
  exact (asRow_eq _).trans rfl
theorem v163_net (c : Dev nD) : v163 (F := Ideal) m ρ c = asRow ((inp m c).g2 3) := by
  refine (v163_eq m ρ c).trans ?_
  show KT.KT6_v15 (F := Ideal) (KT.KT20_v133 (F := Ideal) (m ((c : Thread nD τ).loc main_arg17))) = _
  exact (asRow_eq _).trans rfl
theorem v162_net (c : Dev nD) : v162 (F := Ideal) m ρ c = asRow ((inp m c).be2 2) := by
  refine (v162_eq m ρ c).trans ?_
  show KT.KT6_v15 (F := Ideal) (KT.KT16_v111 (F := Ideal) (m ((c : Thread nD τ).loc main_arg18))) = _
  exact (asRow_eq _).trans rfl
theorem v164_net (c : Dev nD) : v164 (F := Ideal) m ρ c = asRow ((inp m c).be2 3) := by
  refine (v164_eq m ρ c).trans ?_
  show KT.KT6_v15 (F := Ideal) (KT.KT20_v133 (F := Ideal) (m ((c : Thread nD τ).loc main_arg18))) = _
  exact (asRow_eq _).trans rfl
theorem v160_net (c : Dev nD) : v160 (F := Ideal) m ρ c = asRow (inp m c).eb :=
  (v160_eq m ρ c).trans ((asRow_eq _).trans rfl)
/-- Update 2's output as region 12 computes it: the normalisation is given the column sums and sums of squares of the
    second pre-activation, whose entries are real, so it is the centred one. -/
private theorem out2 (c : Dev nD) (hI : (inp m c).Real) :
    kbnrelu Cert.Consts.k18 Cert.Consts.eps (V25 m ρ c main_v126 : S1x128.Idx → EReal) (V25 m ρ c main_v127 : S1x128.Idx → EReal)
        (V25 m ρ c main_v125_0 : S262144x128.Idx → EReal) (V25 m ρ c main_v161 : S1x128.Idx → EReal) (V25 m ρ c main_v162 : S1x128.Idx → EReal)
      = Net.uE (inp m c) 2 (Net.inE2 (inp m c)) := by
  rw [show V25 m ρ c main_v126 = v126 m ρ c from v126_at25 m ρ c,
    show V25 m ρ c main_v127 = v127 m ρ c from v127_at25 m ρ c,
    show V25 m ρ c main_v125_0 = v125_0 m ρ c from v125_0_at25 m ρ c,
    show V25 m ρ c main_v161 = v161 m ρ c from v161_at25 m ρ c,
    show V25 m ρ c main_v162 = v162 m ρ c from v162_at25 m ρ c,
    v126_net m ρ c hI, v127_net m ρ c hI, v125_0_net m ρ c hI, v161_net, v162_net]
  exact kbnrelu_eq_bnrelu (by norm_num) Cert.Consts.n18 Cert.Consts.k18 Cert.Consts.eps Cert.Consts.n18_eq Cert.Consts.k18_eq _
    (Net.real_z2E hI 2 (Net.real_inE2 hI)) _ _
/-- Update 3's output as region 12 computes it: the normalisation is given the column sums and sums of squares of the
    second pre-activation, whose entries are real, so it is the centred one. -/
private theorem out3 (c : Dev nD) (hI : (inp m c).Real) :
    kbnrelu Cert.Consts.k18 Cert.Consts.eps (V25 m ρ c main_v148 : S1x128.Idx → EReal) (V25 m ρ c main_v149 : S1x128.Idx → EReal)
        (V25 m ρ c main_v147_0 : S262144x128.Idx → EReal) (V25 m ρ c main_v163 : S1x128.Idx → EReal) (V25 m ρ c main_v164 : S1x128.Idx → EReal)
      = Net.uE (inp m c) 3 (Net.inE3 (inp m c)) := by
  rw [show V25 m ρ c main_v148 = v148 m ρ c from v148_at25 m ρ c,
    show V25 m ρ c main_v149 = v149 m ρ c from v149_at25 m ρ c,
    show V25 m ρ c main_v147_0 = v147_0 m ρ c from v147_0_at25 m ρ c,
    show V25 m ρ c main_v163 = v163 m ρ c from v163_at25 m ρ c,
    show V25 m ρ c main_v164 = v164 m ρ c from v164_at25 m ρ c,
    v148_net m ρ c hI, v149_net m ρ c hI, v147_0_net m ρ c hI, v163_net, v164_net]
  exact kbnrelu_eq_bnrelu (by norm_num) Cert.Consts.n18 Cert.Consts.k18 Cert.Consts.eps Cert.Consts.n18_eq Cert.Consts.k18_eq _
    (Net.real_z2E hI 3 (Net.real_inE3 hI)) _ _
/-- What region 12 leaves in its first output array: the two products of the two updates' outputs with the two halves of
    the combining matrix, added to the bias row, are the product of the outputs set side by side with the whole matrix. -/
private theorem combined (c : Dev nD) (hI : (inp m c).Real) :
    (dat12 (F := Ideal) (V25 m ρ) c).arrAt 13 cfg12.N = Net.zcE (inp m c) := by
  refine (Reg.r12_lin (V25 m ρ) c).trans ?_
  rw [out2 m ρ c hI, out3 m ρ c hI,
    show V25 m ρ c main_v150 = v150 m ρ c from v150_at25 m ρ c,
    show V25 m ρ c main_v155 = v155 m ρ c from v155_at25 m ρ c,
    show V25 m ρ c main_v160 = v160 m ρ c from v160_at25 m ρ c,
    v150_net, v155_net, v160_net]
  exact (lin_hcat2 (K := 128) (K2 := 256) rfl _ _ _ _).symm
theorem v165_0_net (c : Dev nD) (hI : (inp m c).Real) : v165_0 (F := Ideal) m ρ c = Net.zcE (inp m c) := by
  show W26 m ρ c (Proc.devRef .tc main_v165_0) = _
  exact (W26_arr m ρ c 13).trans (combined m ρ c hI)
theorem v165_1_net (c : Dev nD) (hI : (inp m c).Real) : v165_1 (F := Ideal) m ρ c = tilesum 64 4096 rfl (Net.zcE (inp m c)) := by
  show W26 m ρ c (Proc.devRef .tc main_v165_1) = _
  exact (W26_arr m ρ c 14).trans ((Reg.r12_psum (V25 m ρ) c).trans
    (congrArg (tilesum (R := 262144) (C := 128) 64 4096 rfl) ((Reg.r12_lin (V25 m ρ) c).symm.trans (combined m ρ c hI))))
theorem v165_2_net (c : Dev nD) (hI : (inp m c).Real) : v165_2 (F := Ideal) m ρ c = tilesumsq 64 4096 rfl (Net.zcE (inp m c)) := by
  show W26 m ρ c (Proc.devRef .tc main_v165_2) = _
  exact (W26_arr m ρ c 15).trans ((Reg.r12_psumsq (V25 m ρ) c).trans
    (congrArg (tilesumsq (R := 262144) (C := 128) 64 4096 rfl) ((Reg.r12_lin (V25 m ρ) c).symm.trans (combined m ρ c hI))))
theorem v166_net (c : Dev nD) (hI : (inp m c).Real) : v166 (F := Ideal) m ρ c = asRow (colsum (Net.zcE (inp m c))) := by
  rw [v166_eq, tiles64_eq, v165_1_net m ρ c hI, addTiles_tilesum]
theorem v167_net (c : Dev nD) (hI : (inp m c).Real) : v167 (F := Ideal) m ρ c = asRow (colsumsq (Net.zcE (inp m c))) := by
  rw [v167_eq, tiles64_eq, v165_2_net m ρ c hI, addTiles_tilesumsq]
theorem v168_net (c : Dev nD) : v168 (F := Ideal) m ρ c = asRow (inp m c).eg :=
  (v168_eq m ρ c).trans ((asRow_eq _).trans rfl)
theorem v169_net (c : Dev nD) : v169 (F := Ideal) m ρ c = asRow (inp m c).ebe :=
  (v169_eq m ρ c).trans ((asRow_eq _).trans rfl)
theorem v170_net (c : Dev nD) (hI : (inp m c).Real) : v170 (F := Ideal) m ρ c = Net.eOut (inp m c) := by
  show W28 m ρ c (Proc.devRef .tc main_v170) = _
  refine (W28_arr m ρ c 5).trans ((Reg.r13_bn (V27 m ρ) c).trans ?_)
  rw [show V27 m ρ c main_v166 = v166 m ρ c from v166_at27 m ρ c,
    show V27 m ρ c main_v167 = v167 m ρ c from v167_at27 m ρ c,
    show V27 m ρ c main_v165_0 = v165_0 m ρ c from v165_0_at27 m ρ c,
    show V27 m ρ c main_v168 = v168 m ρ c from v168_at27 m ρ c,
    show V27 m ρ c main_v169 = v169 m ρ c from v169_at27 m ρ c,
    v166_net m ρ c hI, v167_net m ρ c hI, v165_0_net m ρ c hI, v168_net, v169_net]
  exact kbnrelu_eq_bnrelu (by norm_num) Cert.Consts.n18 Cert.Consts.k18 Cert.Consts.eps Cert.Consts.n18_eq Cert.Consts.k18_eq _
    (Net.real_zcE hI) _ _

end Cert.KernelIdeal.KChain

end
-- ==== Proof.Reg.R17.lean ====
/-
  Region 17: a first linear layer over 4096 rows in 1 tile of 4096. Each grid point takes one tile of the
  two summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg17
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 1 point, one per tile of 4096 rows. -/
private theorem hN : cfg17.N = 1 := rfl

/-- A grid point as a tile number. -/
private def tile (t : Fin cfg17.N) : Fin 1 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg17.N,
    (win17_0.index t (0 : Fin 2) = t.val ∧ win17_0.index t (1 : Fin 2) = 0)
    ∧ (win17_1.index t (0 : Fin 2) = t.val ∧ win17_1.index t (1 : Fin 2) = 0)
    ∧ (win17_2.index t (0 : Fin 2) = 0 ∧ win17_2.index t (1 : Fin 2) = 0)
    ∧ (win17_3.index t (0 : Fin 2) = 0 ∧ win17_3.index t (1 : Fin 2) = 0)
    ∧ (win17_4.index t (0 : Fin 2) = t.val ∧ win17_4.index t (1 : Fin 2) = 0)
    ∧ (win17_5.index t (0 : Fin 3) = t.val ∧ win17_5.index t (1 : Fin 3) = 0 ∧ win17_5.index t (2 : Fin 3) = 0)
    ∧ (win17_6.index t (0 : Fin 3) = t.val ∧ win17_6.index t (1 : Fin 3) = 0 ∧ win17_6.index t (2 : Fin 3) = 0) :=
  (by decide +kernel : ∀ t : Fin grid17.N, _)

/-! ## The blocks, read off their arrays -/

/-- Window 0's block at point t holds the rows of tile t of its array. -/
private theorem rows_0 (X : S4096x128.Idx → EReal) (t : Fin cfg17.N) :
    ((cfg17.win 0).blk t).view.read (Elt Ideal) X = selRows (tileRow 1 4096 rfl (tile t)) X := by
  obtain ⟨⟨e0, e1⟩, -⟩ := idx_facts t
  funext y
  show X (((cfg17.win 0).blk t).view.emb y) = X (ix2 (tileRow 1 4096 rfl (tile t) (y 0)) (y 1))
  refine congrArg X ?_
  funext a
  apply Fin.ext
  match a with
  | ⟨0, _⟩ => show win17_0.index t (0 : Fin 2) * 4096 + 1 * (y 0).val = t.val * 4096 + (y 0).val; rw [e0]; omega
  | ⟨1, _⟩ => show win17_0.index t (1 : Fin 2) * 128 + 1 * (y 1).val = (y 1).val; rw [e1]; omega

/-- Window 1's block at point t holds the rows of tile t of its array. -/
private theorem rows_1 (X : S4096x128.Idx → EReal) (t : Fin cfg17.N) :
    ((cfg17.win 1).blk t).view.read (Elt Ideal) X = selRows (tileRow 1 4096 rfl (tile t)) X := by
  obtain ⟨-, ⟨e0, e1⟩, -⟩ := idx_facts t
  funext y
  show X (((cfg17.win 1).blk t).view.emb y) = X (ix2 (tileRow 1 4096 rfl (tile t) (y 0)) (y 1))
  refine congrArg X ?_
  funext a
  apply Fin.ext
  match a with
  | ⟨0, _⟩ => show win17_1.index t (0 : Fin 2) * 4096 + 1 * (y 0).val = t.val * 4096 + (y 0).val; rw [e0]; omega
  | ⟨1, _⟩ => show win17_1.index t (1 : Fin 2) * 128 + 1 * (y 1).val = (y 1).val; rw [e1]; omega

/-- Window 2's block is its whole array at every point. -/
private theorem whole_2 (X : S128x128.Idx → EReal) (t : Fin cfg17.N) :
    ((cfg17.win 2).blk t).view.read (Elt Ideal) X = X := by
  obtain ⟨-, -, ⟨e0, e1⟩, -⟩ := idx_facts t
  funext y
  show X (((cfg17.win 2).blk t).view.emb y) = X y
  refine congrArg X ?_
  funext a
  apply Fin.ext
  match a with
  | ⟨0, _⟩ => show win17_2.index t (0 : Fin 2) * 128 + 1 * (y 0).val = (y 0).val; rw [e0]; omega
  | ⟨1, _⟩ => show win17_2.index t (1 : Fin 2) * 128 + 1 * (y 1).val = (y 1).val; rw [e1]; omega

/-- Window 3's block is its whole array at every point. -/
private theorem whole_3 (X : S1x128.Idx → EReal) (t : Fin cfg17.N) :
    ((cfg17.win 3).blk t).view.read (Elt Ideal) X = X := by
  obtain ⟨-, -, -, ⟨e0, e1⟩, -⟩ := idx_facts t
  funext y
  show X (((cfg17.win 3).blk t).view.emb y) = X y
  refine congrArg X ?_
  funext a
  apply Fin.ext
  match a with
  | ⟨0, _⟩ => show win17_3.index t (0 : Fin 2) * 1 + 1 * (y 0).val = (y 0).val; rw [e0]; omega
  | ⟨1, _⟩ => show win17_3.index t (1 : Fin 2) * 128 + 1 * (y 1).val = (y 1).val; rw [e1]; omega

/-- Window 4's block at point t holds the rows of tile t of its array. -/
private theorem rows_4 (X : S4096x128.Idx → EReal) (t : Fin cfg17.N) :
    ((cfg17.win 4).blk t).view.read (Elt Ideal) X = selRows (tileRow 1 4096 rfl (tile t)) X := by
  obtain ⟨-, -, -, -, ⟨e0, e1⟩, -⟩ := idx_facts t
  funext y
  show X (((cfg17.win 4).blk t).view.emb y) = X (ix2 (tileRow 1 4096 rfl (tile t) (y 0)) (y 1))
  refine congrArg X ?_
  funext a
  apply Fin.ext
  match a with
  | ⟨0, _⟩ => show win17_4.index t (0 : Fin 2) * 4096 + 1 * (y 0).val = t.val * 4096 + (y 0).val; rw [e0]; omega
  | ⟨1, _⟩ => show win17_4.index t (1 : Fin 2) * 128 + 1 * (y 1).val = (y 1).val; rw [e1]; omega

/-- Window 5's block at point t is tile t's row of the per-tile statistics. -/
private theorem stat_5 (P : S1x1x128.Idx → EReal) (t : Fin cfg17.N) :
    ((cfg17.win 5).blk t).view.read (Elt Ideal) P = fun y : (⟨3, ![1, 1, 128]⟩ : Shape).Idx => P (ix3 (tile t) 0 (y 2)) := by
  obtain ⟨-, -, -, -, -, ⟨e0, e1, e2⟩, -⟩ := idx_facts t
  funext y
  show P (((cfg17.win 5).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win17_5.index t (0 : Fin 3) * 1 + 1 * (y 0).val = t.val; rw [e0]; omega
  | ⟨1, _⟩ => show win17_5.index t (1 : Fin 3) * 1 + 1 * (y 1).val = 0; rw [e1]; omega
  | ⟨2, _⟩ => show win17_5.index t (2 : Fin 3) * 128 + 1 * (y 2).val = (y 2).val; rw [e2]; omega

/-- Window 6's block at point t is tile t's row of the per-tile statistics. -/
private theorem stat_6 (P : S1x1x128.Idx → EReal) (t : Fin cfg17.N) :
    ((cfg17.win 6).blk t).view.read (Elt Ideal) P = fun y : (⟨3, ![1, 1, 128]⟩ : Shape).Idx => P (ix3 (tile t) 0 (y 2)) := by
  obtain ⟨-, -, -, -, -, -, ⟨e0, e1, e2⟩⟩ := idx_facts t
  funext y
  show P (((cfg17.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win17_6.index t (0 : Fin 3) * 1 + 1 * (y 0).val = t.val; rw [e0]; omega
  | ⟨1, _⟩ => show win17_6.index t (1 : Fin 3) * 1 + 1 * (y 1).val = 0; rw [e1]; omega
  | ⟨2, _⟩ => show win17_6.index t (2 : Fin 3) * 128 + 1 * (y 2).val = (y 2).val; rw [e2]; omega

private theorem iblk_0 (c : Dev nD) (t : Fin cfg17.N) :
    iblk17 (F := Ideal) V c 0 t = selRows (tileRow 1 4096 rfl (tile t)) (V c main_v173) := rows_0 _ t
private theorem iblk_1 (c : Dev nD) (t : Fin cfg17.N) :
    iblk17 (F := Ideal) V c 1 t = selRows (tileRow 1 4096 rfl (tile t)) (V c main_v178) := rows_1 _ t
private theorem iblk_2 (c : Dev nD) (t : Fin cfg17.N) : iblk17 (F := Ideal) V c 2 t = V c main_v180 := whole_2 _ t
private theorem iblk_3 (c : Dev nD) (t : Fin cfg17.N) : iblk17 (F := Ideal) V c 3 t = V c main_v191 := whole_3 _ t

/-- Selecting rows commutes with the layer: the linear map acts on each row by itself. -/
private theorem sel_lin {R B : Nat} (f : Fin B → Fin R) (p0 p1 : Mat R 128) (W : Mat 128 128) (b : Mat 1 128) :
    selRows f (klin (fun j => p0 j + p1 j) W b) = klin (fun j => selRows f p0 j + selRows f p1 j) W b := by
  rw [selRows_klin]
  rfl

/-! ## What each point writes back -/

/-- What point t writes back to the layer's output: the rows of tile t of the whole-array linear map. -/
private theorem flushed_lin (c : Dev nD) (t : Fin cfg17.N) :
    (dat17 (F := Ideal) V c).flushed 4 t = ((cfg17.win 4).blk t).view.read (Elt Ideal)
      (klin (fun j => V c main_v173 j +ᵉ V c main_v178 j) (V c main_v180) (V c main_v191)) := by
  show (cfg17.win 4).cut (grid17.coords t) ((dat17 V c).after 4 t) = _
  rw [after17_4]
  unfold out17_4
  rw [View.canon_unit_zero hz2]
  simp only [View.ld_unit_zero (S := S4096x128) hz2, View.ld_unit_zero (S := S128x128) hz2, View.ld_unit_zero (S := S1x128) hz2]
  rw [Blk.k17_pay1_eq, rows_4, sel_lin, iblk_0 V c t, iblk_1 V c t, iblk_2 V c t, iblk_3 V c t]
  rfl

/-- What point t writes back to the column sums: tile t's row of the whole array's per-tile column sums. -/
private theorem flushed_psum (c : Dev nD) (t : Fin cfg17.N) :
    (dat17 (F := Ideal) V c).flushed 5 t = ((cfg17.win 5).blk t).view.read (Elt Ideal)
      (tilesum 1 4096 rfl (klin (fun j => V c main_v173 j +ᵉ V c main_v178 j) (V c main_v180) (V c main_v191))) := by
  show (cfg17.win 5).cut (grid17.coords t) ((dat17 V c).after 5 t) = _
  rw [after17_5]
  unfold out17_5
  rw [View.canon_unit_zero hz3]
  simp only [View.ld_unit_zero (S := S4096x128) hz2, View.ld_unit_zero (S := S128x128) hz2, View.ld_unit_zero (S := S1x128) hz2]
  rw [Blk.k17_pay2_eq, stat_5, tilesum_tile, sel_lin, iblk_0 V c t, iblk_1 V c t, iblk_2 V c t, iblk_3 V c t]
  rfl

/-- What point t writes back to the column sums of squares: tile t's row of the whole array's per-tile column sums of squares. -/
private theorem flushed_psumsq (c : Dev nD) (t : Fin cfg17.N) :
    (dat17 (F := Ideal) V c).flushed 6 t = ((cfg17.win 6).blk t).view.read (Elt Ideal)
      (tilesumsq 1 4096 rfl (klin (fun j => V c main_v173 j +ᵉ V c main_v178 j) (V c main_v180) (V c main_v191))) := by
  show (cfg17.win 6).cut (grid17.coords t) ((dat17 V c).after 6 t) = _
  rw [after17_6]
  unfold out17_6
  rw [View.canon_unit_zero hz3]
  simp only [View.ld_unit_zero (S := S4096x128) hz2, View.ld_unit_zero (S := S128x128) hz2, View.ld_unit_zero (S := S1x128) hz2]
  rw [Blk.k17_pay3_eq, stat_6, tilesumsq_tile, sel_lin, iblk_0 V c t, iblk_1 V c t, iblk_2 V c t, iblk_3 V c t]
  rfl

/-! ## The blocks cover the arrays -/

/-- An index of the array is in point t's block iff each coordinate is in the block's range on its axis. -/
private theorem mem_4 (t : Fin cfg17.N) (i : S4096x128.Idx) :
    i ∈ ((cfg17.win 4).blk t).view.set ↔ ∀ a : Fin 2, win17_4.index t a * S4096x128.size a ≤ (i a).val ∧ (i a).val < win17_4.index t a * S4096x128.size a + S4096x128.size a := by
  show i ∈ ((View.whole main_v192_0).slice (win17_4.rect t)).set ↔ _
  rw [View.set_slice_whole, Rect.mem_set_unit]
  exact Iff.rfl

/-- Row r lies in the block of tile r / 4096. -/
private theorem cover_4 (i : S4096x128.Idx) : ∃ t : Fin cfg17.N, (cfg17.win 4).flush t = true ∧ i ∈ ((cfg17.win 4).blk t).view.set := by
  have hi0 : (i 0).val < 4096 := (i 0).isLt
  have hi1 : (i 1).val < 128 := (i 1).isLt
  have ht : (i 0).val / 4096 < cfg17.N := by rw [hN]; omega
  obtain ⟨-, -, -, -, ⟨e0, e1⟩, -⟩ := idx_facts ⟨(i 0).val / 4096, ht⟩
  refine ⟨⟨(i 0).val / 4096, ht⟩, flush17_4 _, ?_⟩
  rw [mem_4]
  intro a
  match a with
  | ⟨0, _⟩ =>
    show win17_4.index ⟨(i 0).val / 4096, ht⟩ (0 : Fin 2) * 4096 ≤ (i 0).val ∧ (i 0).val < win17_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win17_4.index ⟨(i 0).val / 4096, ht⟩ (1 : Fin 2) * 128 ≤ (i 1).val ∧ (i 1).val < win17_4.index ⟨(i 0).val / 4096, ht⟩ (1 : Fin 2) * 128 + 128
    rw [e1]; omega

/-- An index of the statistics array is in point t's block iff each coordinate is in the block's range on its axis. -/
private theorem mem_5 (t : Fin cfg17.N) (i : S1x1x128.Idx) :
    i ∈ ((cfg17.win 5).blk t).view.set ↔ ∀ a : Fin 3, win17_5.index t a * S1x1x128.size a ≤ (i a).val ∧ (i a).val < win17_5.index t a * S1x1x128.size a + S1x1x128.size a := by
  show i ∈ ((View.whole main_v192_1).slice (win17_5.rect t)).set ↔ _
  rw [View.set_slice_whole, Rect.mem_set_unit]
  exact Iff.rfl

/-- Tile r's row lies in the block of point r. -/
private theorem cover_5 (i : S1x1x128.Idx) : ∃ t : Fin cfg17.N, (cfg17.win 5).flush t = true ∧ i ∈ ((cfg17.win 5).blk t).view.set := by
  have hi0 : (i 0).val < 1 := (i 0).isLt
  have hi1 : (i 1).val < 1 := (i 1).isLt
  have hi2 : (i 2).val < 128 := (i 2).isLt
  have ht : (i 0).val < cfg17.N := by rw [hN]; omega
  obtain ⟨-, -, -, -, -, ⟨e0, e1, e2⟩, -⟩ := idx_facts ⟨(i 0).val, ht⟩
  refine ⟨⟨(i 0).val, ht⟩, flush17_5 _, ?_⟩
  rw [mem_5]
  intro a
  match a with
  | ⟨0, _⟩ =>
    show win17_5.index ⟨(i 0).val, ht⟩ (0 : Fin 3) * 1 ≤ (i 0).val ∧ (i 0).val < win17_5.index ⟨(i 0).val, ht⟩ (0 : Fin 3) * 1 + 1
    rw [e0]; show (i 0).val * 1 ≤ (i 0).val ∧ (i 0).val < (i 0).val * 1 + 1; omega
  | ⟨1, _⟩ =>
    show win17_5.index ⟨(i 0).val, ht⟩ (1 : Fin 3) * 1 ≤ (i 1).val ∧ (i 1).val < win17_5.index ⟨(i 0).val, ht⟩ (1 : Fin 3) * 1 + 1
    rw [e1]; omega
  | ⟨2, _⟩ =>
    show win17_5.index ⟨(i 0).val, ht⟩ (2 : Fin 3) * 128 ≤ (i 2).val ∧ (i 2).val < win17_5.index ⟨(i 0).val, ht⟩ (2 : Fin 3) * 128 + 128
    rw [e2]; omega

/-- An index of the statistics array is in point t's block iff each coordinate is in the block's range on its axis. -/
private theorem mem_6 (t : Fin cfg17.N) (i : S1x1x128.Idx) :
    i ∈ ((cfg17.win 6).blk t).view.set ↔ ∀ a : Fin 3, win17_6.index t a * S1x1x128.size a ≤ (i a).val ∧ (i a).val < win17_6.index t a * S1x1x128.size a + S1x1x128.size a := by
  show i ∈ ((View.whole main_v192_2).slice (win17_6.rect t)).set ↔ _
  rw [View.set_slice_whole, Rect.mem_set_unit]
  exact Iff.rfl

/-- Tile r's row lies in the block of point r. -/
private theorem cover_6 (i : S1x1x128.Idx) : ∃ t : Fin cfg17.N, (cfg17.win 6).flush t = true ∧ i ∈ ((cfg17.win 6).blk t).view.set := by
  have hi0 : (i 0).val < 1 := (i 0).isLt
  have hi1 : (i 1).val < 1 := (i 1).isLt
  have hi2 : (i 2).val < 128 := (i 2).isLt
  have ht : (i 0).val < cfg17.N := by rw [hN]; omega
  obtain ⟨-, -, -, -, -, -, ⟨e0, e1, e2⟩⟩ := idx_facts ⟨(i 0).val, ht⟩
  refine ⟨⟨(i 0).val, ht⟩, flush17_6 _, ?_⟩
  rw [mem_6]
  intro a
  match a with
  | ⟨0, _⟩ =>
    show win17_6.index ⟨(i 0).val, ht⟩ (0 : Fin 3) * 1 ≤ (i 0).val ∧ (i 0).val < win17_6.index ⟨(i 0).val, ht⟩ (0 : Fin 3) * 1 + 1
    rw [e0]; show (i 0).val * 1 ≤ (i 0).val ∧ (i 0).val < (i 0).val * 1 + 1; omega
  | ⟨1, _⟩ =>
    show win17_6.index ⟨(i 0).val, ht⟩ (1 : Fin 3) * 1 ≤ (i 1).val ∧ (i 1).val < win17_6.index ⟨(i 0).val, ht⟩ (1 : Fin 3) * 1 + 1
    rw [e1]; omega
  | ⟨2, _⟩ =>
    show win17_6.index ⟨(i 0).val, ht⟩ (2 : Fin 3) * 128 ≤ (i 2).val ∧ (i 2).val < win17_6.index ⟨(i 0).val, ht⟩ (2 : Fin 3) * 128 + 128
    rw [e2]; omega

/-! ## The arrays after the region -/

/-- The layer's output array: the bias row plus the product of the summed input rows with the weight. -/
theorem r17_lin (c : Dev nD) : (dat17 (F := Ideal) V c).arrAt 4 cfg17.N
    = klin (fun j => V c main_v173 j +ᵉ V c main_v178 j) (V c main_v180) (V c main_v191) :=
  (dat17 V c).arrAt_eq_of_cover 4 _ (fun t _ => flushed_lin V c t) cover_4

/-- The per-tile column sums of the layer's output. -/
theorem r17_psum (c : Dev nD) : (dat17 (F := Ideal) V c).arrAt 5 cfg17.N
    = tilesum 1 4096 rfl (klin (fun j => V c main_v173 j +ᵉ V c main_v178 j) (V c main_v180) (V c main_v191)) :=
  (dat17 V c).arrAt_eq_of_cover 5 _ (fun t _ => flushed_psum V c t) cover_5

/-- The per-tile column sums of squares of the layer's output. -/
theorem r17_psumsq (c : Dev nD) : (dat17 (F := Ideal) V c).arrAt 6 cfg17.N
    = tilesumsq 1 4096 rfl (klin (fun j => V c main_v173 j +ᵉ V c main_v178 j) (V c main_v180) (V c main_v191)) :=
  (dat17 V c).arrAt_eq_of_cover 6 _ (fun t _ => flushed_psumsq V c t) cover_6

end Cert.KernelIdeal.Reg

end
-- ==== Proof.Reg.R18.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg18
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 4096 rows, tile by tile: the bias plus the normalised, ramped first layer times the weight, and each tile's column statistics -/

private theorem zero2_18 : (![0, 0] : Fin 2 → Nat) = fun _ => 0 := funext fun a => by fin_cases a <;> rfl
private theorem zero3_18 : (![0, 0, 0] : Fin 3 → Nat) = fun _ => 0 := funext fun a => by fin_cases a <;> rfl

/-! ## Which block each window holds at a grid point -/

/-- The tiled input and the result move with the grid point: block (t, 0). -/
private theorem idx18_rows : ∀ t : Fin cfg18.N,
    win18_0.index t (0 : Fin 2) = t.val ∧ win18_0.index t (1 : Fin 2) = 0
    ∧ win18_7.index t (0 : Fin 2) = t.val ∧ win18_7.index t (1 : Fin 2) = 0 :=
  (by decide +kernel : ∀ t : Fin grid18.N, _)

/-- The weight, the two moment rows, the scale, the shift and the bias stay at block (0, 0). -/
private theorem idx18_whole : ∀ t : Fin cfg18.N,
    win18_1.index t (0 : Fin 2) = 0 ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = 0 ∧ win18_5.index t (1 : Fin 2) = 0
    ∧ win18_6.index t (0 : Fin 2) = 0 ∧ win18_6.index t (1 : Fin 2) = 0 :=
  (by decide +kernel : ∀ t : Fin grid18.N, _)

/-- The two statistics move with the grid point: block (t, 0, 0). -/
private theorem idx18_stats : ∀ t : Fin cfg18.N,
    win18_8.index t (0 : Fin 3) = t.val ∧ win18_8.index t (1 : Fin 3) = 0 ∧ win18_8.index t (2 : Fin 3) = 0
    ∧ win18_9.index t (0 : Fin 3) = t.val ∧ win18_9.index t (1 : Fin 3) = 0 ∧ win18_9.index t (2 : Fin 3) = 0 :=
  (by decide +kernel : ∀ t : Fin grid18.N, _)

/-! ## A window's block read off an array -/

/-- Window 0's block at grid point t is the 4096 rows of tile t. -/
private theorem read18_0 (t : Fin cfg18.N) (X : Mat 4096 128) :
    ((cfg18.win 0).blk t).view.read (Elt Ideal) X = selRows (tileRow 1 4096 rfl ⟨t.val, t.isLt⟩) X := by
  obtain ⟨a0, a1, -, -⟩ := idx18_rows t
  funext j
  show X (((cfg18.win 0).blk t).view.emb j) = X (ix2 (tileRow 1 4096 rfl ⟨t.val, t.isLt⟩ (j 0)) (j 1))
  refine congrArg X (funext fun a => Fin.ext ?_)
  match a with
  | ⟨0, _⟩ =>
    show win18_0.index t (0 : Fin 2) * 4096 + 1 * (j 0).val = t.val * 4096 + (j 0).val
    omega
  | ⟨1, _⟩ =>
    show win18_0.index t (1 : Fin 2) * 128 + 1 * (j 1).val = (j 1).val
    omega

/-- Window 7's block at grid point t is the 4096 rows of tile t. -/
private theorem read18_7 (t : Fin cfg18.N) (X : Mat 4096 128) :
    ((cfg18.win 7).blk t).view.read (Elt Ideal) X = selRows (tileRow 1 4096 rfl ⟨t.val, t.isLt⟩) X := by
  obtain ⟨-, -, b0, b1⟩ := idx18_rows t
  funext j
  show X (((cfg18.win 7).blk t).view.emb j) = X (ix2 (tileRow 1 4096 rfl ⟨t.val, t.isLt⟩ (j 0)) (j 1))
  refine congrArg X (funext fun a => Fin.ext ?_)
  match a with
  | ⟨0, _⟩ =>
    show win18_7.index t (0 : Fin 2) * 4096 + 1 * (j 0).val = t.val * 4096 + (j 0).val
    omega
  | ⟨1, _⟩ =>
    show win18_7.index t (1 : Fin 2) * 128 + 1 * (j 1).val = (j 1).val
    omega

/-- Window 1 holds its whole 128×128 array at every grid point. -/
private theorem read18_1 (t : Fin cfg18.N) (X : Mat 128 128) :
    ((cfg18.win 1).blk t).view.read (Elt Ideal) X = X := by
  obtain ⟨e0, e1, -, -, -, -, -, -, -, -, -, -⟩ := idx18_whole t
  funext j
  show X (((cfg18.win 1).blk t).view.emb j) = X j
  refine congrArg X (funext fun a => Fin.ext ?_)
  match a with
  | ⟨0, _⟩ =>
    show win18_1.index t (0 : Fin 2) * 128 + 1 * (j 0).val = (j 0).val
    omega
  | ⟨1, _⟩ =>
    show win18_1.index t (1 : Fin 2) * 128 + 1 * (j 1).val = (j 1).val
    omega

/-- Window 2 holds its whole 1×128 array at every grid point. -/
private theorem read18_2 (t : Fin cfg18.N) (X : Mat 1 128) :
    ((cfg18.win 2).blk t).view.read (Elt Ideal) X = X := by
  obtain ⟨-, -, e0, e1, -, -, -, -, -, -, -, -⟩ := idx18_whole t
  funext j
  show X (((cfg18.win 2).blk t).view.emb j) = X j
  refine congrArg X (funext fun a => Fin.ext ?_)
  match a with
  | ⟨0, _⟩ =>
    show win18_2.index t (0 : Fin 2) * 1 + 1 * (j 0).val = (j 0).val
    omega
  | ⟨1, _⟩ =>
    show win18_2.index t (1 : Fin 2) * 128 + 1 * (j 1).val = (j 1).val
    omega

/-- Window 3 holds its whole 1×128 array at every grid point. -/
private theorem read18_3 (t : Fin cfg18.N) (X : Mat 1 128) :
    ((cfg18.win 3).blk t).view.read (Elt Ideal) X = X := by
  obtain ⟨-, -, -, -, e0, e1, -, -, -, -, -, -⟩ := idx18_whole t
  funext j
  show X (((cfg18.win 3).blk t).view.emb j) = X j
  refine congrArg X (funext fun a => Fin.ext ?_)
  match a with
  | ⟨0, _⟩ =>
    show win18_3.index t (0 : Fin 2) * 1 + 1 * (j 0).val = (j 0).val
    omega
  | ⟨1, _⟩ =>
    show win18_3.index t (1 : Fin 2) * 128 + 1 * (j 1).val = (j 1).val
    omega

/-- Window 4 holds its whole 1×128 array at every grid point. -/
private theorem read18_4 (t : Fin cfg18.N) (X : Mat 1 128) :
    ((cfg18.win 4).blk t).view.read (Elt Ideal) X = X := by
  obtain ⟨-, -, -, -, -, -, e0, e1, -, -, -, -⟩ := idx18_whole t
  funext j
  show X (((cfg18.win 4).blk t).view.emb j) = X j
  refine congrArg X (funext fun a => Fin.ext ?_)
  match a with
  | ⟨0, _⟩ =>
    show win18_4.index t (0 : Fin 2) * 1 + 1 * (j 0).val = (j 0).val
    omega
  | ⟨1, _⟩ =>
    show win18_4.index t (1 : Fin 2) * 128 + 1 * (j 1).val = (j 1).val
    omega

/-- Window 5 holds its whole 1×128 array at every grid point. -/
private theorem read18_5 (t : Fin cfg18.N) (X : Mat 1 128) :
    ((cfg18.win 5).blk t).view.read (Elt Ideal) X = X := by
  obtain ⟨-, -, -, -, -, -, -, -, e0, e1, -, -⟩ := idx18_whole t
  funext j
  show X (((cfg18.win 5).blk t).view.emb j) = X j
  refine congrArg X (funext fun a => Fin.ext ?_)
  match a with
  | ⟨0, _⟩ =>
    show win18_5.index t (0 : Fin 2) * 1 + 1 * (j 0).val = (j 0).val
    omega
  | ⟨1, _⟩ =>
    show win18_5.index t (1 : Fin 2) * 128 + 1 * (j 1).val = (j 1).val
    omega

/-- Window 6 holds its whole 1×128 array at every grid point. -/
private theorem read18_6 (t : Fin cfg18.N) (X : Mat 1 128) :
    ((cfg18.win 6).blk t).view.read (Elt Ideal) X = X := by
  obtain ⟨-, -, -, -, -, -, -, -, -, -, e0, e1⟩ := idx18_whole t
  funext j
  show X (((cfg18.win 6).blk t).view.emb j) = X j
  refine congrArg X (funext fun a => Fin.ext ?_)
  match a with
  | ⟨0, _⟩ =>
    show win18_6.index t (0 : Fin 2) * 1 + 1 * (j 0).val = (j 0).val
    omega
  | ⟨1, _⟩ =>
    show win18_6.index t (1 : Fin 2) * 128 + 1 * (j 1).val = (j 1).val
    omega

/-- Window 8's block at grid point t is tile t's slot of the 1×1×128 statistics. -/
private theorem read18_8 (t : Fin cfg18.N) (X : Cube 1 1 128) :
    ((cfg18.win 8).blk t).view.read (Elt Ideal) X
      = fun y : (⟨3, ![1, 1, 128]⟩ : Shape).Idx => X (ix3 (⟨t.val, t.isLt⟩ : Fin 1) 0 (y 2)) := by
  obtain ⟨a0, a1, a2, -, -, -⟩ := idx18_stats t
  funext y
  show X (((cfg18.win 8).blk t).view.emb y) = X (ix3 (⟨t.val, t.isLt⟩ : Fin 1) 0 (y 2))
  refine congrArg X (funext fun a => Fin.ext ?_)
  have h0 : (y 0).val < 1 := (y 0).isLt
  have h1 : (y 1).val < 1 := (y 1).isLt
  match a with
  | ⟨0, _⟩ =>
    show win18_8.index t (0 : Fin 3) * 1 + 1 * (y 0).val = t.val
    omega
  | ⟨1, _⟩ =>
    show win18_8.index t (1 : Fin 3) * 1 + 1 * (y 1).val = 0
    omega
  | ⟨2, _⟩ =>
    show win18_8.index t (2 : Fin 3) * 128 + 1 * (y 2).val = (y 2).val
    omega

/-- Window 9's block at grid point t is tile t's slot of the 1×1×128 statistics. -/
private theorem read18_9 (t : Fin cfg18.N) (X : Cube 1 1 128) :
    ((cfg18.win 9).blk t).view.read (Elt Ideal) X
      = fun y : (⟨3, ![1, 1, 128]⟩ : Shape).Idx => X (ix3 (⟨t.val, t.isLt⟩ : Fin 1) 0 (y 2)) := by
  obtain ⟨-, -, -, b0, b1, b2⟩ := idx18_stats t
  funext y
  show X (((cfg18.win 9).blk t).view.emb y) = X (ix3 (⟨t.val, t.isLt⟩ : Fin 1) 0 (y 2))
  refine congrArg X (funext fun a => Fin.ext ?_)
  have h0 : (y 0).val < 1 := (y 0).isLt
  have h1 : (y 1).val < 1 := (y 1).isLt
  match a with
  | ⟨0, _⟩ =>
    show win18_9.index t (0 : Fin 3) * 1 + 1 * (y 0).val = t.val
    omega
  | ⟨1, _⟩ =>
    show win18_9.index t (1 : Fin 3) * 1 + 1 * (y 1).val = 0
    omega
  | ⟨2, _⟩ =>
    show win18_9.index t (2 : Fin 3) * 128 + 1 * (y 2).val = (y 2).val
    omega

/-! ## The input blocks at a grid point -/

private theorem in18_0 (c : Dev nD) (t : Fin cfg18.N) :
    iblk18 (F := Ideal) V c 0 t = selRows (tileRow 1 4096 rfl ⟨t.val, t.isLt⟩) (V c main_v192_0) := by
  unfold iblk18
  exact read18_0 t (V c main_v192_0)
private theorem in18_1 (c : Dev nD) (t : Fin cfg18.N) :
    iblk18 (F := Ideal) V c 1 t = V c main_v188 := by
  unfold iblk18
  exact read18_1 t (V c main_v188)
private theorem in18_2 (c : Dev nD) (t : Fin cfg18.N) :
    iblk18 (F := Ideal) V c 2 t = V c main_v193 := by
  unfold iblk18
  exact read18_2 t (V c main_v193)
private theorem in18_3 (c : Dev nD) (t : Fin cfg18.N) :
    iblk18 (F := Ideal) V c 3 t = V c main_v194 := by
  unfold iblk18
  exact read18_3 t (V c main_v194)
private theorem in18_4 (c : Dev nD) (t : Fin cfg18.N) :
    iblk18 (F := Ideal) V c 4 t = V c main_v196 := by
  unfold iblk18
  exact read18_4 t (V c main_v196)
private theorem in18_5 (c : Dev nD) (t : Fin cfg18.N) :
    iblk18 (F := Ideal) V c 5 t = V c main_v197 := by
  unfold iblk18
  exact read18_5 t (V c main_v197)
private theorem in18_6 (c : Dev nD) (t : Fin cfg18.N) :
    iblk18 (F := Ideal) V c 6 t = V c main_v195 := by
  unfold iblk18
  exact read18_6 t (V c main_v195)

/-! ## What grid point t writes back -/

/-- Tile t of the result is the second layer of tile t of the input. -/
private theorem wrote18_7 (c : Dev nD) (t : Fin cfg18.N) :
    (dat18 (F := Ideal) V c).flushed 7 t
      = ((cfg18.win 7).blk t).view.read (Elt Ideal) (klin (kbnrelu Cert.Consts.k12 Cert.Consts.eps (V c main_v193) (V c main_v194) (V c main_v192_0) (V c main_v196) (V c main_v197)) (V c main_v188) (V c main_v195)) := by
  show (cfg18.win 7).cut (grid18.coords t) ((dat18 (F := Ideal) V c).after 7 t) = _
  rw [after18_7]
  unfold out18_7
  rw [View.canon_unit_zero zero2_18]
  simp only [View.ld_unit_zero (S := S4096x128) zero2_18, View.ld_unit_zero (S := S1x128) zero2_18,
    View.ld_unit_zero (S := S128x128) zero2_18]
  rw [Blk.k18_out_eq (iblk18 V c 0 t) (iblk18 V c 1 t) (iblk18 V c 2 t) (iblk18 V c 3 t) (iblk18 V c 4 t) (iblk18 V c 5 t) (iblk18 V c 6 t)]
  rw [in18_0 V c t, in18_1 V c t, in18_2 V c t, in18_3 V c t, in18_4 V c t, in18_5 V c t, in18_6 V c t]
  rw [read18_7, selRows_klin, selRows_kbnrelu]
  rfl

/-- Tile t's slot of the column sums is the column sums of tile t of the result. -/
private theorem wrote18_8 (c : Dev nD) (t : Fin cfg18.N) :
    (dat18 (F := Ideal) V c).flushed 8 t
      = ((cfg18.win 8).blk t).view.read (Elt Ideal) (tilesum 1 4096 rfl (klin (kbnrelu Cert.Consts.k12 Cert.Consts.eps (V c main_v193) (V c main_v194) (V c main_v192_0) (V c main_v196) (V c main_v197)) (V c main_v188) (V c main_v195))) := by
  show (cfg18.win 8).cut (grid18.coords t) ((dat18 (F := Ideal) V c).after 8 t) = _
  rw [after18_8]
  unfold out18_8
  rw [View.canon_unit_zero zero3_18]
  simp only [View.ld_unit_zero (S := S4096x128) zero2_18, View.ld_unit_zero (S := S1x128) zero2_18,
    View.ld_unit_zero (S := S128x128) zero2_18]
  rw [Blk.k18_psum_eq (iblk18 V c 0 t) (iblk18 V c 1 t) (iblk18 V c 2 t) (iblk18 V c 3 t) (iblk18 V c 4 t) (iblk18 V c 5 t) (iblk18 V c 6 t)]
  rw [in18_0 V c t, in18_1 V c t, in18_2 V c t, in18_3 V c t, in18_4 V c t, in18_5 V c t, in18_6 V c t]
  rw [read18_8, ← selRows_kbnrelu, ← selRows_klin]
  exact (tilesum_tile 1 4096 rfl (klin (kbnrelu Cert.Consts.k12 Cert.Consts.eps (V c main_v193) (V c main_v194) (V c main_v192_0) (V c main_v196) (V c main_v197)) (V c main_v188) (V c main_v195)) ⟨t.val, t.isLt⟩).symm

/-- Tile t's slot of the column sums of squares is those of tile t of the result. -/
private theorem wrote18_9 (c : Dev nD) (t : Fin cfg18.N) :
    (dat18 (F := Ideal) V c).flushed 9 t
      = ((cfg18.win 9).blk t).view.read (Elt Ideal) (tilesumsq 1 4096 rfl (klin (kbnrelu Cert.Consts.k12 Cert.Consts.eps (V c main_v193) (V c main_v194) (V c main_v192_0) (V c main_v196) (V c main_v197)) (V c main_v188) (V c main_v195))) := by
  show (cfg18.win 9).cut (grid18.coords t) ((dat18 (F := Ideal) V c).after 9 t) = _
  rw [after18_9]
  unfold out18_9
  rw [View.canon_unit_zero zero3_18]
  simp only [View.ld_unit_zero (S := S4096x128) zero2_18, View.ld_unit_zero (S := S1x128) zero2_18,
    View.ld_unit_zero (S := S128x128) zero2_18]
  rw [Blk.k18_psumsq_eq (iblk18 V c 0 t) (iblk18 V c 1 t) (iblk18 V c 2 t) (iblk18 V c 3 t) (iblk18 V c 4 t) (iblk18 V c 5 t) (iblk18 V c 6 t)]
  rw [in18_0 V c t, in18_1 V c t, in18_2 V c t, in18_3 V c t, in18_4 V c t, in18_5 V c t, in18_6 V c t]
  rw [read18_9, ← selRows_kbnrelu, ← selRows_klin]
  exact (tilesumsq_tile 1 4096 rfl (klin (kbnrelu Cert.Consts.k12 Cert.Consts.eps (V c main_v193) (V c main_v194) (V c main_v192_0) (V c main_v196) (V c main_v197)) (V c main_v188) (V c main_v195)) ⟨t.val, t.isLt⟩).symm

/-! ## Every entry of each result array is written by some grid point -/

private theorem mem18_7 (t : Fin cfg18.N) (i : S4096x128.Idx) :
    i ∈ ((cfg18.win 7).blk t).view.set ↔ ∀ a : Fin 2, win18_7.index t a * S4096x128.size a ≤ (i a).val ∧ (i a).val < win18_7.index t a * S4096x128.size a + S4096x128.size a := by
  show i ∈ ((View.whole main_v198_0).slice (win18_7.rect t)).set ↔ _
  rw [View.set_slice_whole, Rect.mem_set_unit]
  exact Iff.rfl

/-- Row r lies in tile r / 4096. -/
private theorem covered18_7 (i : S4096x128.Idx) :
    ∃ t : Fin cfg18.N, (cfg18.win 7).flush t = true ∧ i ∈ ((cfg18.win 7).blk t).view.set := by
  have hi0 : (i 0).val < 4096 := (i 0).isLt
  have hi1 : (i 1).val < 128 := (i 1).isLt
  have ht : (i 0).val / 4096 < grid18.N := by show _ < 1; omega
  obtain ⟨-, -, b0, b1⟩ := idx18_rows ⟨(i 0).val / 4096, ht⟩
  refine ⟨⟨(i 0).val / 4096, ht⟩, flush18_7 _, ?_⟩
  rw [mem18_7]
  intro a
  match a with
  | ⟨0, _⟩ =>
    show win18_7.index ⟨(i 0).val / 4096, ht⟩ (0 : Fin 2) * 4096 ≤ (i 0).val ∧ (i 0).val < win18_7.index ⟨(i 0).val / 4096, ht⟩ (0 : Fin 2) * 4096 + 4096
    have e : win18_7.index ⟨(i 0).val / 4096, ht⟩ (0 : Fin 2) = (i 0).val / 4096 := b0
    omega
  | ⟨1, _⟩ =>
    show win18_7.index ⟨(i 0).val / 4096, ht⟩ (1 : Fin 2) * 128 ≤ (i 1).val ∧ (i 1).val < win18_7.index ⟨(i 0).val / 4096, ht⟩ (1 : Fin 2) * 128 + 128
    have e : win18_7.index ⟨(i 0).val / 4096, ht⟩ (1 : Fin 2) = 0 := b1
    omega

private theorem mem18_8 (t : Fin cfg18.N) (i : S1x1x128.Idx) :
    i ∈ ((cfg18.win 8).blk t).view.set ↔ ∀ a : Fin 3, win18_8.index t a * S1x1x128.size a ≤ (i a).val ∧ (i a).val < win18_8.index t a * S1x1x128.size a + S1x1x128.size a := by
  show i ∈ ((View.whole main_v198_1).slice (win18_8.rect t)).set ↔ _
  rw [View.set_slice_whole, Rect.mem_set_unit]
  exact Iff.rfl

/-- Slot u is written at grid point u. -/
private theorem covered18_8 (i : S1x1x128.Idx) :
    ∃ t : Fin cfg18.N, (cfg18.win 8).flush t = true ∧ i ∈ ((cfg18.win 8).blk t).view.set := by
  have hi0 : (i 0).val < 1 := (i 0).isLt
  have hi1 : (i 1).val < 1 := (i 1).isLt
  have hi2 : (i 2).val < 128 := (i 2).isLt
  have ht : (i 0).val < grid18.N := hi0
  obtain ⟨a0, a1, a2, -, -, -⟩ := idx18_stats ⟨(i 0).val, ht⟩
  refine ⟨⟨(i 0).val, ht⟩, flush18_8 _, ?_⟩
  rw [mem18_8]
  intro a
  match a with
  | ⟨0, _⟩ =>
    show win18_8.index ⟨(i 0).val, ht⟩ (0 : Fin 3) * 1 ≤ (i 0).val ∧ (i 0).val < win18_8.index ⟨(i 0).val, ht⟩ (0 : Fin 3) * 1 + 1
    have e : win18_8.index ⟨(i 0).val, ht⟩ (0 : Fin 3) = (i 0).val := a0
    omega
  | ⟨1, _⟩ =>
    show win18_8.index ⟨(i 0).val, ht⟩ (1 : Fin 3) * 1 ≤ (i 1).val ∧ (i 1).val < win18_8.index ⟨(i 0).val, ht⟩ (1 : Fin 3) * 1 + 1
    have e : win18_8.index ⟨(i 0).val, ht⟩ (1 : Fin 3) = 0 := a1
    omega
  | ⟨2, _⟩ =>
    show win18_8.index ⟨(i 0).val, ht⟩ (2 : Fin 3) * 128 ≤ (i 2).val ∧ (i 2).val < win18_8.index ⟨(i 0).val, ht⟩ (2 : Fin 3) * 128 + 128
    have e : win18_8.index ⟨(i 0).val, ht⟩ (2 : Fin 3) = 0 := a2
    omega

private theorem mem18_9 (t : Fin cfg18.N) (i : S1x1x128.Idx) :
    i ∈ ((cfg18.win 9).blk t).view.set ↔ ∀ a : Fin 3, win18_9.index t a * S1x1x128.size a ≤ (i a).val ∧ (i a).val < win18_9.index t a * S1x1x128.size a + S1x1x128.size a := by
  show i ∈ ((View.whole main_v198_2).slice (win18_9.rect t)).set ↔ _
  rw [View.set_slice_whole, Rect.mem_set_unit]
  exact Iff.rfl

/-- Slot u is written at grid point u. -/
private theorem covered18_9 (i : S1x1x128.Idx) :
    ∃ t : Fin cfg18.N, (cfg18.win 9).flush t = true ∧ i ∈ ((cfg18.win 9).blk t).view.set := by
  have hi0 : (i 0).val < 1 := (i 0).isLt
  have hi1 : (i 1).val < 1 := (i 1).isLt
  have hi2 : (i 2).val < 128 := (i 2).isLt
  have ht : (i 0).val < grid18.N := hi0
  obtain ⟨-, -, -, a0, a1, a2⟩ := idx18_stats ⟨(i 0).val, ht⟩
  refine ⟨⟨(i 0).val, ht⟩, flush18_9 _, ?_⟩
  rw [mem18_9]
  intro a
  match a with
  | ⟨0, _⟩ =>
    show win18_9.index ⟨(i 0).val, ht⟩ (0 : Fin 3) * 1 ≤ (i 0).val ∧ (i 0).val < win18_9.index ⟨(i 0).val, ht⟩ (0 : Fin 3) * 1 + 1
    have e : win18_9.index ⟨(i 0).val, ht⟩ (0 : Fin 3) = (i 0).val := a0
    omega
  | ⟨1, _⟩ =>
    show win18_9.index ⟨(i 0).val, ht⟩ (1 : Fin 3) * 1 ≤ (i 1).val ∧ (i 1).val < win18_9.index ⟨(i 0).val, ht⟩ (1 : Fin 3) * 1 + 1
    have e : win18_9.index ⟨(i 0).val, ht⟩ (1 : Fin 3) = 0 := a1
    omega
  | ⟨2, _⟩ =>
    show win18_9.index ⟨(i 0).val, ht⟩ (2 : Fin 3) * 128 ≤ (i 2).val ∧ (i 2).val < win18_9.index ⟨(i 0).val, ht⟩ (2 : Fin 3) * 128 + 128
    have e : win18_9.index ⟨(i 0).val, ht⟩ (2 : Fin 3) = 0 := a2
    omega

/-! ## The arrays the region leaves -/

/-- The result array: the second layer of the whole input. -/
theorem r18_lin (c : Dev nD) :
    (dat18 (F := Ideal) V c).arrAt 7 cfg18.N = klin (kbnrelu Cert.Consts.k12 Cert.Consts.eps (V c main_v193) (V c main_v194) (V c main_v192_0) (V c main_v196) (V c main_v197)) (V c main_v188) (V c main_v195) :=
  (dat18 (F := Ideal) V c).arrAt_eq_of_cover 7 _ (fun t _ => wrote18_7 V c t) covered18_7

/-- Its per-tile column sums. -/
theorem r18_psum (c : Dev nD) :
    (dat18 (F := Ideal) V c).arrAt 8 cfg18.N = tilesum 1 4096 rfl (klin (kbnrelu Cert.Consts.k12 Cert.Consts.eps (V c main_v193) (V c main_v194) (V c main_v192_0) (V c main_v196) (V c main_v197)) (V c main_v188) (V c main_v195)) :=
  (dat18 (F := Ideal) V c).arrAt_eq_of_cover 8 _ (fun t _ => wrote18_8 V c t) covered18_8

/-- Its per-tile column sums of squares. -/
theorem r18_psumsq (c : Dev nD) :
    (dat18 (F := Ideal) V c).arrAt 9 cfg18.N = tilesumsq 1 4096 rfl (klin (kbnrelu Cert.Consts.k12 Cert.Consts.eps (V c main_v193) (V c main_v194) (V c main_v192_0) (V c main_v196) (V c main_v197)) (V c main_v188) (V c main_v195)) :=
  (dat18 (F := Ideal) V c).arrAt_eq_of_cover 9 _ (fun t _ => wrote18_9 V c t) covered18_9

end Cert.KernelIdeal.Reg

end
-- ==== Proof.Reg.R19.lean ====
/-
  Region 19: a first linear layer over 4096 rows in 1 tile of 4096. Each grid point takes one tile of the
  two summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg19
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 1 point, one per tile of 4096 rows. -/
private theorem hN : cfg19.N = 1 := rfl

/-- A grid point as a tile number. -/
private def tile (t : Fin cfg19.N) : Fin 1 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg19.N,
    (win19_0.index t (0 : Fin 2) = t.val ∧ win19_0.index t (1 : Fin 2) = 0)
    ∧ (win19_1.index t (0 : Fin 2) = t.val ∧ win19_1.index t (1 : Fin 2) = 0)
    ∧ (win19_2.index t (0 : Fin 2) = 0 ∧ win19_2.index t (1 : Fin 2) = 0)
    ∧ (win19_3.index t (0 : Fin 2) = 0 ∧ win19_3.index t (1 : Fin 2) = 0)
    ∧ (win19_4.index t (0 : Fin 2) = t.val ∧ win19_4.index t (1 : Fin 2) = 0)
    ∧ (win19_5.index t (0 : Fin 3) = t.val ∧ win19_5.index t (1 : Fin 3) = 0 ∧ win19_5.index t (2 : Fin 3) = 0)
    ∧ (win19_6.index t (0 : Fin 3) = t.val ∧ win19_6.index t (1 : Fin 3) = 0 ∧ win19_6.index t (2 : Fin 3) = 0) :=
  (by decide +kernel : ∀ t : Fin grid19.N, _)

/-! ## The blocks, read off their arrays -/

/-- Window 0's block at point t holds the rows of tile t of its array. -/
private theorem rows_0 (X : S4096x128.Idx → EReal) (t : Fin cfg19.N) :
    ((cfg19.win 0).blk t).view.read (Elt Ideal) X = selRows (tileRow 1 4096 rfl (tile t)) X := by
  obtain ⟨⟨e0, e1⟩, -⟩ := idx_facts t
  funext y
  show X (((cfg19.win 0).blk t).view.emb y) = X (ix2 (tileRow 1 4096 rfl (tile t) (y 0)) (y 1))
  refine congrArg X ?_
  funext a
  apply Fin.ext
  match a with
  | ⟨0, _⟩ => show win19_0.index t (0 : Fin 2) * 4096 + 1 * (y 0).val = t.val * 4096 + (y 0).val; rw [e0]; omega
  | ⟨1, _⟩ => show win19_0.index t (1 : Fin 2) * 128 + 1 * (y 1).val = (y 1).val; rw [e1]; omega

/-- Window 1's block at point t holds the rows of tile t of its array. -/
private theorem rows_1 (X : S4096x128.Idx → EReal) (t : Fin cfg19.N) :
    ((cfg19.win 1).blk t).view.read (Elt Ideal) X = selRows (tileRow 1 4096 rfl (tile t)) X := by
  obtain ⟨-, ⟨e0, e1⟩, -⟩ := idx_facts t
  funext y
  show X (((cfg19.win 1).blk t).view.emb y) = X (ix2 (tileRow 1 4096 rfl (tile t) (y 0)) (y 1))
  refine congrArg X ?_
  funext a
  apply Fin.ext
  match a with
  | ⟨0, _⟩ => show win19_1.index t (0 : Fin 2) * 4096 + 1 * (y 0).val = t.val * 4096 + (y 0).val; rw [e0]; omega
  | ⟨1, _⟩ => show win19_1.index t (1 : Fin 2) * 128 + 1 * (y 1).val = (y 1).val; rw [e1]; omega

/-- Window 2's block is its whole array at every point. -/
private theorem whole_2 (X : S128x128.Idx → EReal) (t : Fin cfg19.N) :
    ((cfg19.win 2).blk t).view.read (Elt Ideal) X = X := by
  obtain ⟨-, -, ⟨e0, e1⟩, -⟩ := idx_facts t
  funext y
  show X (((cfg19.win 2).blk t).view.emb y) = X y
  refine congrArg X ?_
  funext a
  apply Fin.ext
  match a with
  | ⟨0, _⟩ => show win19_2.index t (0 : Fin 2) * 128 + 1 * (y 0).val = (y 0).val; rw [e0]; omega
  | ⟨1, _⟩ => show win19_2.index t (1 : Fin 2) * 128 + 1 * (y 1).val = (y 1).val; rw [e1]; omega

/-- Window 3's block is its whole array at every point. -/
private theorem whole_3 (X : S1x128.Idx → EReal) (t : Fin cfg19.N) :
    ((cfg19.win 3).blk t).view.read (Elt Ideal) X = X := by
  obtain ⟨-, -, -, ⟨e0, e1⟩, -⟩ := idx_facts t
  funext y
  show X (((cfg19.win 3).blk t).view.emb y) = X y
  refine congrArg X ?_
  funext a
  apply Fin.ext
  match a with
  | ⟨0, _⟩ => show win19_3.index t (0 : Fin 2) * 1 + 1 * (y 0).val = (y 0).val; rw [e0]; omega
  | ⟨1, _⟩ => show win19_3.index t (1 : Fin 2) * 128 + 1 * (y 1).val = (y 1).val; rw [e1]; omega

/-- Window 4's block at point t holds the rows of tile t of its array. -/
private theorem rows_4 (X : S4096x128.Idx → EReal) (t : Fin cfg19.N) :
    ((cfg19.win 4).blk t).view.read (Elt Ideal) X = selRows (tileRow 1 4096 rfl (tile t)) X := by
  obtain ⟨-, -, -, -, ⟨e0, e1⟩, -⟩ := idx_facts t
  funext y
  show X (((cfg19.win 4).blk t).view.emb y) = X (ix2 (tileRow 1 4096 rfl (tile t) (y 0)) (y 1))
  refine congrArg X ?_
  funext a
  apply Fin.ext
  match a with
  | ⟨0, _⟩ => show win19_4.index t (0 : Fin 2) * 4096 + 1 * (y 0).val = t.val * 4096 + (y 0).val; rw [e0]; omega
  | ⟨1, _⟩ => show win19_4.index t (1 : Fin 2) * 128 + 1 * (y 1).val = (y 1).val; rw [e1]; omega

/-- Window 5's block at point t is tile t's row of the per-tile statistics. -/
private theorem stat_5 (P : S1x1x128.Idx → EReal) (t : Fin cfg19.N) :
    ((cfg19.win 5).blk t).view.read (Elt Ideal) P = fun y : (⟨3, ![1, 1, 128]⟩ : Shape).Idx => P (ix3 (tile t) 0 (y 2)) := by
  obtain ⟨-, -, -, -, -, ⟨e0, e1, e2⟩, -⟩ := idx_facts t
  funext y
  show P (((cfg19.win 5).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win19_5.index t (0 : Fin 3) * 1 + 1 * (y 0).val = t.val; rw [e0]; omega
  | ⟨1, _⟩ => show win19_5.index t (1 : Fin 3) * 1 + 1 * (y 1).val = 0; rw [e1]; omega
  | ⟨2, _⟩ => show win19_5.index t (2 : Fin 3) * 128 + 1 * (y 2).val = (y 2).val; rw [e2]; omega

/-- Window 6's block at point t is tile t's row of the per-tile statistics. -/
private theorem stat_6 (P : S1x1x128.Idx → EReal) (t : Fin cfg19.N) :
    ((cfg19.win 6).blk t).view.read (Elt Ideal) P = fun y : (⟨3, ![1, 1, 128]⟩ : Shape).Idx => P (ix3 (tile t) 0 (y 2)) := by
  obtain ⟨-, -, -, -, -, -, ⟨e0, e1, e2⟩⟩ := idx_facts t
  funext y
  show P (((cfg19.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win19_6.index t (0 : Fin 3) * 1 + 1 * (y 0).val = t.val; rw [e0]; omega
  | ⟨1, _⟩ => show win19_6.index t (1 : Fin 3) * 1 + 1 * (y 1).val = 0; rw [e1]; omega
  | ⟨2, _⟩ => show win19_6.index t (2 : Fin 3) * 128 + 1 * (y 2).val = (y 2).val; rw [e2]; omega

private theorem iblk_0 (c : Dev nD) (t : Fin cfg19.N) :
    iblk19 (F := Ideal) V c 0 t = selRows (tileRow 1 4096 rfl (tile t)) (V c main_v175) := rows_0 _ t
private theorem iblk_1 (c : Dev nD) (t : Fin cfg19.N) :
    iblk19 (F := Ideal) V c 1 t = selRows (tileRow 1 4096 rfl (tile t)) (V c main_v178) := rows_1 _ t
private theorem iblk_2 (c : Dev nD) (t : Fin cfg19.N) : iblk19 (F := Ideal) V c 2 t = V c main_v202 := whole_2 _ t
private theorem iblk_3 (c : Dev nD) (t : Fin cfg19.N) : iblk19 (F := Ideal) V c 3 t = V c main_v213 := whole_3 _ t

/-- Selecting rows commutes with the layer: the linear map acts on each row by itself. -/
private theorem sel_lin {R B : Nat} (f : Fin B → Fin R) (p0 p1 : Mat R 128) (W : Mat 128 128) (b : Mat 1 128) :
    selRows f (klin (fun j => p0 j + p1 j) W b) = klin (fun j => selRows f p0 j + selRows f p1 j) W b := by
  rw [selRows_klin]
  rfl

/-! ## What each point writes back -/

/-- What point t writes back to the layer's output: the rows of tile t of the whole-array linear map. -/
private theorem flushed_lin (c : Dev nD) (t : Fin cfg19.N) :
    (dat19 (F := Ideal) V c).flushed 4 t = ((cfg19.win 4).blk t).view.read (Elt Ideal)
      (klin (fun j => V c main_v175 j +ᵉ V c main_v178 j) (V c main_v202) (V c main_v213)) := by
  show (cfg19.win 4).cut (grid19.coords t) ((dat19 V c).after 4 t) = _
  rw [after19_4]
  unfold out19_4
  rw [View.canon_unit_zero hz2]
  simp only [View.ld_unit_zero (S := S4096x128) hz2, View.ld_unit_zero (S := S128x128) hz2, View.ld_unit_zero (S := S1x128) hz2]
  rw [Blk.k19_pay1_eq, rows_4, sel_lin, iblk_0 V c t, iblk_1 V c t, iblk_2 V c t, iblk_3 V c t]
  rfl

/-- What point t writes back to the column sums: tile t's row of the whole array's per-tile column sums. -/
private theorem flushed_psum (c : Dev nD) (t : Fin cfg19.N) :
    (dat19 (F := Ideal) V c).flushed 5 t = ((cfg19.win 5).blk t).view.read (Elt Ideal)
      (tilesum 1 4096 rfl (klin (fun j => V c main_v175 j +ᵉ V c main_v178 j) (V c main_v202) (V c main_v213))) := by
  show (cfg19.win 5).cut (grid19.coords t) ((dat19 V c).after 5 t) = _
  rw [after19_5]
  unfold out19_5
  rw [View.canon_unit_zero hz3]
  simp only [View.ld_unit_zero (S := S4096x128) hz2, View.ld_unit_zero (S := S128x128) hz2, View.ld_unit_zero (S := S1x128) hz2]
  rw [Blk.k19_pay2_eq, stat_5, tilesum_tile, sel_lin, iblk_0 V c t, iblk_1 V c t, iblk_2 V c t, iblk_3 V c t]
  rfl

/-- What point t writes back to the column sums of squares: tile t's row of the whole array's per-tile column sums of squares. -/
private theorem flushed_psumsq (c : Dev nD) (t : Fin cfg19.N) :
    (dat19 (F := Ideal) V c).flushed 6 t = ((cfg19.win 6).blk t).view.read (Elt Ideal)
      (tilesumsq 1 4096 rfl (klin (fun j => V c main_v175 j +ᵉ V c main_v178 j) (V c main_v202) (V c main_v213))) := by
  show (cfg19.win 6).cut (grid19.coords t) ((dat19 V c).after 6 t) = _
  rw [after19_6]
  unfold out19_6
  rw [View.canon_unit_zero hz3]
  simp only [View.ld_unit_zero (S := S4096x128) hz2, View.ld_unit_zero (S := S128x128) hz2, View.ld_unit_zero (S := S1x128) hz2]
  rw [Blk.k19_pay3_eq, stat_6, tilesumsq_tile, sel_lin, iblk_0 V c t, iblk_1 V c t, iblk_2 V c t, iblk_3 V c t]
  rfl

/-! ## The blocks cover the arrays -/

/-- An index of the array is in point t's block iff each coordinate is in the block's range on its axis. -/
private theorem mem_4 (t : Fin cfg19.N) (i : S4096x128.Idx) :
    i ∈ ((cfg19.win 4).blk t).view.set ↔ ∀ a : Fin 2, win19_4.index t a * S4096x128.size a ≤ (i a).val ∧ (i a).val < win19_4.index t a * S4096x128.size a + S4096x128.size a := by
  show i ∈ ((View.whole main_v214_0).slice (win19_4.rect t)).set ↔ _
  rw [View.set_slice_whole, Rect.mem_set_unit]
  exact Iff.rfl

/-- Row r lies in the block of tile r / 4096. -/
private theorem cover_4 (i : S4096x128.Idx) : ∃ t : Fin cfg19.N, (cfg19.win 4).flush t = true ∧ i ∈ ((cfg19.win 4).blk t).view.set := by
  have hi0 : (i 0).val < 4096 := (i 0).isLt
  have hi1 : (i 1).val < 128 := (i 1).isLt
  have ht : (i 0).val / 4096 < cfg19.N := by rw [hN]; omega
  obtain ⟨-, -, -, -, ⟨e0, e1⟩, -⟩ := idx_facts ⟨(i 0).val / 4096, ht⟩
  refine ⟨⟨(i 0).val / 4096, ht⟩, flush19_4 _, ?_⟩
  rw [mem_4]
  intro a
  match a with
  | ⟨0, _⟩ =>
    show win19_4.index ⟨(i 0).val / 4096, ht⟩ (0 : Fin 2) * 4096 ≤ (i 0).val ∧ (i 0).val < win19_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win19_4.index ⟨(i 0).val / 4096, ht⟩ (1 : Fin 2) * 128 ≤ (i 1).val ∧ (i 1).val < win19_4.index ⟨(i 0).val / 4096, ht⟩ (1 : Fin 2) * 128 + 128
    rw [e1]; omega

/-- An index of the statistics array is in point t's block iff each coordinate is in the block's range on its axis. -/
private theorem mem_5 (t : Fin cfg19.N) (i : S1x1x128.Idx) :
    i ∈ ((cfg19.win 5).blk t).view.set ↔ ∀ a : Fin 3, win19_5.index t a * S1x1x128.size a ≤ (i a).val ∧ (i a).val < win19_5.index t a * S1x1x128.size a + S1x1x128.size a := by
  show i ∈ ((View.whole main_v214_1).slice (win19_5.rect t)).set ↔ _
  rw [View.set_slice_whole, Rect.mem_set_unit]
  exact Iff.rfl

/-- Tile r's row lies in the block of point r. -/
private theorem cover_5 (i : S1x1x128.Idx) : ∃ t : Fin cfg19.N, (cfg19.win 5).flush t = true ∧ i ∈ ((cfg19.win 5).blk t).view.set := by
  have hi0 : (i 0).val < 1 := (i 0).isLt
  have hi1 : (i 1).val < 1 := (i 1).isLt
  have hi2 : (i 2).val < 128 := (i 2).isLt
  have ht : (i 0).val < cfg19.N := by rw [hN]; omega
  obtain ⟨-, -, -, -, -, ⟨e0, e1, e2⟩, -⟩ := idx_facts ⟨(i 0).val, ht⟩
  refine ⟨⟨(i 0).val, ht⟩, flush19_5 _, ?_⟩
  rw [mem_5]
  intro a
  match a with
  | ⟨0, _⟩ =>
    show win19_5.index ⟨(i 0).val, ht⟩ (0 : Fin 3) * 1 ≤ (i 0).val ∧ (i 0).val < win19_5.index ⟨(i 0).val, ht⟩ (0 : Fin 3) * 1 + 1
    rw [e0]; show (i 0).val * 1 ≤ (i 0).val ∧ (i 0).val < (i 0).val * 1 + 1; omega
  | ⟨1, _⟩ =>
    show win19_5.index ⟨(i 0).val, ht⟩ (1 : Fin 3) * 1 ≤ (i 1).val ∧ (i 1).val < win19_5.index ⟨(i 0).val, ht⟩ (1 : Fin 3) * 1 + 1
    rw [e1]; omega
  | ⟨2, _⟩ =>
    show win19_5.index ⟨(i 0).val, ht⟩ (2 : Fin 3) * 128 ≤ (i 2).val ∧ (i 2).val < win19_5.index ⟨(i 0).val, ht⟩ (2 : Fin 3) * 128 + 128
    rw [e2]; omega

/-- An index of the statistics array is in point t's block iff each coordinate is in the block's range on its axis. -/
private theorem mem_6 (t : Fin cfg19.N) (i : S1x1x128.Idx) :
    i ∈ ((cfg19.win 6).blk t).view.set ↔ ∀ a : Fin 3, win19_6.index t a * S1x1x128.size a ≤ (i a).val ∧ (i a).val < win19_6.index t a * S1x1x128.size a + S1x1x128.size a := by
  show i ∈ ((View.whole main_v214_2).slice (win19_6.rect t)).set ↔ _
  rw [View.set_slice_whole, Rect.mem_set_unit]
  exact Iff.rfl

/-- Tile r's row lies in the block of point r. -/
private theorem cover_6 (i : S1x1x128.Idx) : ∃ t : Fin cfg19.N, (cfg19.win 6).flush t = true ∧ i ∈ ((cfg19.win 6).blk t).view.set := by
  have hi0 : (i 0).val < 1 := (i 0).isLt
  have hi1 : (i 1).val < 1 := (i 1).isLt
  have hi2 : (i 2).val < 128 := (i 2).isLt
  have ht : (i 0).val < cfg19.N := by rw [hN]; omega
  obtain ⟨-, -, -, -, -, -, ⟨e0, e1, e2⟩⟩ := idx_facts ⟨(i 0).val, ht⟩
  refine ⟨⟨(i 0).val, ht⟩, flush19_6 _, ?_⟩
  rw [mem_6]
  intro a
  match a with
  | ⟨0, _⟩ =>
    show win19_6.index ⟨(i 0).val, ht⟩ (0 : Fin 3) * 1 ≤ (i 0).val ∧ (i 0).val < win19_6.index ⟨(i 0).val, ht⟩ (0 : Fin 3) * 1 + 1
    rw [e0]; show (i 0).val * 1 ≤ (i 0).val ∧ (i 0).val < (i 0).val * 1 + 1; omega
  | ⟨1, _⟩ =>
    show win19_6.index ⟨(i 0).val, ht⟩ (1 : Fin 3) * 1 ≤ (i 1).val ∧ (i 1).val < win19_6.index ⟨(i 0).val, ht⟩ (1 : Fin 3) * 1 + 1
    rw [e1]; omega
  | ⟨2, _⟩ =>
    show win19_6.index ⟨(i 0).val, ht⟩ (2 : Fin 3) * 128 ≤ (i 2).val ∧ (i 2).val < win19_6.index ⟨(i 0).val, ht⟩ (2 : Fin 3) * 128 + 128
    rw [e2]; omega

/-! ## The arrays after the region -/

/-- The layer's output array: the bias row plus the product of the summed input rows with the weight. -/
theorem r19_lin (c : Dev nD) : (dat19 (F := Ideal) V c).arrAt 4 cfg19.N
    = klin (fun j => V c main_v175 j +ᵉ V c main_v178 j) (V c main_v202) (V c main_v213) :=
  (dat19 V c).arrAt_eq_of_cover 4 _ (fun t _ => flushed_lin V c t) cover_4

/-- The per-tile column sums of the layer's output. -/
theorem r19_psum (c : Dev nD) : (dat19 (F := Ideal) V c).arrAt 5 cfg19.N
    = tilesum 1 4096 rfl (klin (fun j => V c main_v175 j +ᵉ V c main_v178 j) (V c main_v202) (V c main_v213)) :=
  (dat19 V c).arrAt_eq_of_cover 5 _ (fun t _ => flushed_psum V c t) cover_5

/-- The per-tile column sums of squares of the layer's output. -/
theorem r19_psumsq (c : Dev nD) : (dat19 (F := Ideal) V c).arrAt 6 cfg19.N
    = tilesumsq 1 4096 rfl (klin (fun j => V c main_v175 j +ᵉ V c main_v178 j) (V c main_v202) (V c main_v213)) :=
  (dat19 V c).arrAt_eq_of_cover 6 _ (fun t _ => flushed_psumsq V c t) cover_6

end Cert.KernelIdeal.Reg

end
-- ==== Proof.Reg.R20.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg20
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 4096 rows, tile by tile: the bias plus the normalised, ramped first layer times the weight, and each tile's column statistics -/

private theorem zero2_20 : (![0, 0] : Fin 2 → Nat) = fun _ => 0 := funext fun a => by fin_cases a <;> rfl
private theorem zero3_20 : (![0, 0, 0] : Fin 3 → Nat) = fun _ => 0 := funext fun a => by fin_cases a <;> rfl

/-! ## Which block each window holds at a grid point -/

/-- The tiled input and the result move with the grid point: block (t, 0). -/
private theorem idx20_rows : ∀ t : Fin cfg20.N,
    win20_0.index t (0 : Fin 2) = t.val ∧ win20_0.index t (1 : Fin 2) = 0
    ∧ win20_7.index t (0 : Fin 2) = t.val ∧ win20_7.index t (1 : Fin 2) = 0 :=
  (by decide +kernel : ∀ t : Fin grid20.N, _)

/-- The weight, the two moment rows, the scale, the shift and the bias stay at block (0, 0). -/
private theorem idx20_whole : ∀ t : Fin cfg20.N,
    win20_1.index t (0 : Fin 2) = 0 ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = 0 ∧ win20_5.index t (1 : Fin 2) = 0
    ∧ win20_6.index t (0 : Fin 2) = 0 ∧ win20_6.index t (1 : Fin 2) = 0 :=
  (by decide +kernel : ∀ t : Fin grid20.N, _)

/-- The two statistics move with the grid point: block (t, 0, 0). -/
private theorem idx20_stats : ∀ t : Fin cfg20.N,
    win20_8.index t (0 : Fin 3) = t.val ∧ win20_8.index t (1 : Fin 3) = 0 ∧ win20_8.index t (2 : Fin 3) = 0
    ∧ win20_9.index t (0 : Fin 3) = t.val ∧ win20_9.index t (1 : Fin 3) = 0 ∧ win20_9.index t (2 : Fin 3) = 0 :=
  (by decide +kernel : ∀ t : Fin grid20.N, _)

/-! ## A window's block read off an array -/

/-- Window 0's block at grid point t is the 4096 rows of tile t. -/
private theorem read20_0 (t : Fin cfg20.N) (X : Mat 4096 128) :
    ((cfg20.win 0).blk t).view.read (Elt Ideal) X = selRows (tileRow 1 4096 rfl ⟨t.val, t.isLt⟩) X := by
  obtain ⟨a0, a1, -, -⟩ := idx20_rows t
  funext j
  show X (((cfg20.win 0).blk t).view.emb j) = X (ix2 (tileRow 1 4096 rfl ⟨t.val, t.isLt⟩ (j 0)) (j 1))
  refine congrArg X (funext fun a => Fin.ext ?_)
  match a with
  | ⟨0, _⟩ =>
    show win20_0.index t (0 : Fin 2) * 4096 + 1 * (j 0).val = t.val * 4096 + (j 0).val
    omega
  | ⟨1, _⟩ =>
    show win20_0.index t (1 : Fin 2) * 128 + 1 * (j 1).val = (j 1).val
    omega

/-- Window 7's block at grid point t is the 4096 rows of tile t. -/
private theorem read20_7 (t : Fin cfg20.N) (X : Mat 4096 128) :
    ((cfg20.win 7).blk t).view.read (Elt Ideal) X = selRows (tileRow 1 4096 rfl ⟨t.val, t.isLt⟩) X := by
  obtain ⟨-, -, b0, b1⟩ := idx20_rows t
  funext j
  show X (((cfg20.win 7).blk t).view.emb j) = X (ix2 (tileRow 1 4096 rfl ⟨t.val, t.isLt⟩ (j 0)) (j 1))
  refine congrArg X (funext fun a => Fin.ext ?_)
  match a with
  | ⟨0, _⟩ =>
    show win20_7.index t (0 : Fin 2) * 4096 + 1 * (j 0).val = t.val * 4096 + (j 0).val
    omega
  | ⟨1, _⟩ =>
    show win20_7.index t (1 : Fin 2) * 128 + 1 * (j 1).val = (j 1).val
    omega

/-- Window 1 holds its whole 128×128 array at every grid point. -/
private theorem read20_1 (t : Fin cfg20.N) (X : Mat 128 128) :
    ((cfg20.win 1).blk t).view.read (Elt Ideal) X = X := by
  obtain ⟨e0, e1, -, -, -, -, -, -, -, -, -, -⟩ := idx20_whole t
  funext j
  show X (((cfg20.win 1).blk t).view.emb j) = X j
  refine congrArg X (funext fun a => Fin.ext ?_)
  match a with
  | ⟨0, _⟩ =>
    show win20_1.index t (0 : Fin 2) * 128 + 1 * (j 0).val = (j 0).val
    omega
  | ⟨1, _⟩ =>
    show win20_1.index t (1 : Fin 2) * 128 + 1 * (j 1).val = (j 1).val
    omega

/-- Window 2 holds its whole 1×128 array at every grid point. -/
private theorem read20_2 (t : Fin cfg20.N) (X : Mat 1 128) :
    ((cfg20.win 2).blk t).view.read (Elt Ideal) X = X := by
  obtain ⟨-, -, e0, e1, -, -, -, -, -, -, -, -⟩ := idx20_whole t
  funext j
  show X (((cfg20.win 2).blk t).view.emb j) = X j
  refine congrArg X (funext fun a => Fin.ext ?_)
  match a with
  | ⟨0, _⟩ =>
    show win20_2.index t (0 : Fin 2) * 1 + 1 * (j 0).val = (j 0).val
    omega
  | ⟨1, _⟩ =>
    show win20_2.index t (1 : Fin 2) * 128 + 1 * (j 1).val = (j 1).val
    omega

/-- Window 3 holds its whole 1×128 array at every grid point. -/
private theorem read20_3 (t : Fin cfg20.N) (X : Mat 1 128) :
    ((cfg20.win 3).blk t).view.read (Elt Ideal) X = X := by
  obtain ⟨-, -, -, -, e0, e1, -, -, -, -, -, -⟩ := idx20_whole t
  funext j
  show X (((cfg20.win 3).blk t).view.emb j) = X j
  refine congrArg X (funext fun a => Fin.ext ?_)
  match a with
  | ⟨0, _⟩ =>
    show win20_3.index t (0 : Fin 2) * 1 + 1 * (j 0).val = (j 0).val
    omega
  | ⟨1, _⟩ =>
    show win20_3.index t (1 : Fin 2) * 128 + 1 * (j 1).val = (j 1).val
    omega

/-- Window 4 holds its whole 1×128 array at every grid point. -/
private theorem read20_4 (t : Fin cfg20.N) (X : Mat 1 128) :
    ((cfg20.win 4).blk t).view.read (Elt Ideal) X = X := by
  obtain ⟨-, -, -, -, -, -, e0, e1, -, -, -, -⟩ := idx20_whole t
  funext j
  show X (((cfg20.win 4).blk t).view.emb j) = X j
  refine congrArg X (funext fun a => Fin.ext ?_)
  match a with
  | ⟨0, _⟩ =>
    show win20_4.index t (0 : Fin 2) * 1 + 1 * (j 0).val = (j 0).val
    omega
  | ⟨1, _⟩ =>
    show win20_4.index t (1 : Fin 2) * 128 + 1 * (j 1).val = (j 1).val
    omega

/-- Window 5 holds its whole 1×128 array at every grid point. -/
private theorem read20_5 (t : Fin cfg20.N) (X : Mat 1 128) :
    ((cfg20.win 5).blk t).view.read (Elt Ideal) X = X := by
  obtain ⟨-, -, -, -, -, -, -, -, e0, e1, -, -⟩ := idx20_whole t
  funext j
  show X (((cfg20.win 5).blk t).view.emb j) = X j
  refine congrArg X (funext fun a => Fin.ext ?_)
  match a with
  | ⟨0, _⟩ =>
    show win20_5.index t (0 : Fin 2) * 1 + 1 * (j 0).val = (j 0).val
    omega
  | ⟨1, _⟩ =>
    show win20_5.index t (1 : Fin 2) * 128 + 1 * (j 1).val = (j 1).val
    omega

/-- Window 6 holds its whole 1×128 array at every grid point. -/
private theorem read20_6 (t : Fin cfg20.N) (X : Mat 1 128) :
    ((cfg20.win 6).blk t).view.read (Elt Ideal) X = X := by
  obtain ⟨-, -, -, -, -, -, -, -, -, -, e0, e1⟩ := idx20_whole t
  funext j
  show X (((cfg20.win 6).blk t).view.emb j) = X j
  refine congrArg X (funext fun a => Fin.ext ?_)
  match a with
  | ⟨0, _⟩ =>
    show win20_6.index t (0 : Fin 2) * 1 + 1 * (j 0).val = (j 0).val
    omega
  | ⟨1, _⟩ =>
    show win20_6.index t (1 : Fin 2) * 128 + 1 * (j 1).val = (j 1).val
    omega

/-- Window 8's block at grid point t is tile t's slot of the 1×1×128 statistics. -/
private theorem read20_8 (t : Fin cfg20.N) (X : Cube 1 1 128) :
    ((cfg20.win 8).blk t).view.read (Elt Ideal) X
      = fun y : (⟨3, ![1, 1, 128]⟩ : Shape).Idx => X (ix3 (⟨t.val, t.isLt⟩ : Fin 1) 0 (y 2)) := by
  obtain ⟨a0, a1, a2, -, -, -⟩ := idx20_stats t
  funext y
  show X (((cfg20.win 8).blk t).view.emb y) = X (ix3 (⟨t.val, t.isLt⟩ : Fin 1) 0 (y 2))
  refine congrArg X (funext fun a => Fin.ext ?_)
  have h0 : (y 0).val < 1 := (y 0).isLt
  have h1 : (y 1).val < 1 := (y 1).isLt
  match a with
  | ⟨0, _⟩ =>
    show win20_8.index t (0 : Fin 3) * 1 + 1 * (y 0).val = t.val
    omega
  | ⟨1, _⟩ =>
    show win20_8.index t (1 : Fin 3) * 1 + 1 * (y 1).val = 0
    omega
  | ⟨2, _⟩ =>
    show win20_8.index t (2 : Fin 3) * 128 + 1 * (y 2).val = (y 2).val
    omega

/-- Window 9's block at grid point t is tile t's slot of the 1×1×128 statistics. -/
private theorem read20_9 (t : Fin cfg20.N) (X : Cube 1 1 128) :
    ((cfg20.win 9).blk t).view.read (Elt Ideal) X
      = fun y : (⟨3, ![1, 1, 128]⟩ : Shape).Idx => X (ix3 (⟨t.val, t.isLt⟩ : Fin 1) 0 (y 2)) := by
  obtain ⟨-, -, -, b0, b1, b2⟩ := idx20_stats t
  funext y
  show X (((cfg20.win 9).blk t).view.emb y) = X (ix3 (⟨t.val, t.isLt⟩ : Fin 1) 0 (y 2))
  refine congrArg X (funext fun a => Fin.ext ?_)
  have h0 : (y 0).val < 1 := (y 0).isLt
  have h1 : (y 1).val < 1 := (y 1).isLt
  match a with
  | ⟨0, _⟩ =>
    show win20_9.index t (0 : Fin 3) * 1 + 1 * (y 0).val = t.val
    omega
  | ⟨1, _⟩ =>
    show win20_9.index t (1 : Fin 3) * 1 + 1 * (y 1).val = 0
    omega
  | ⟨2, _⟩ =>
    show win20_9.index t (2 : Fin 3) * 128 + 1 * (y 2).val = (y 2).val
    omega

/-! ## The input blocks at a grid point -/

private theorem in20_0 (c : Dev nD) (t : Fin cfg20.N) :
    iblk20 (F := Ideal) V c 0 t = selRows (tileRow 1 4096 rfl ⟨t.val, t.isLt⟩) (V c main_v214_0) := by
  unfold iblk20
  exact read20_0 t (V c main_v214_0)
private theorem in20_1 (c : Dev nD) (t : Fin cfg20.N) :
    iblk20 (F := Ideal) V c 1 t = V c main_v210 := by
  unfold iblk20
  exact read20_1 t (V c main_v210)
private theorem in20_2 (c : Dev nD) (t : Fin cfg20.N) :
    iblk20 (F := Ideal) V c 2 t = V c main_v215 := by
  unfold iblk20
  exact read20_2 t (V c main_v215)
private theorem in20_3 (c : Dev nD) (t : Fin cfg20.N) :
    iblk20 (F := Ideal) V c 3 t = V c main_v216 := by
  unfold iblk20
  exact read20_3 t (V c main_v216)
private theorem in20_4 (c : Dev nD) (t : Fin cfg20.N) :
    iblk20 (F := Ideal) V c 4 t = V c main_v218 := by
  unfold iblk20
  exact read20_4 t (V c main_v218)
private theorem in20_5 (c : Dev nD) (t : Fin cfg20.N) :
    iblk20 (F := Ideal) V c 5 t = V c main_v219 := by
  unfold iblk20
  exact read20_5 t (V c main_v219)
private theorem in20_6 (c : Dev nD) (t : Fin cfg20.N) :
    iblk20 (F := Ideal) V c 6 t = V c main_v217 := by
  unfold iblk20
  exact read20_6 t (V c main_v217)

/-! ## What grid point t writes back -/

/-- Tile t of the result is the second layer of tile t of the input. -/
private theorem wrote20_7 (c : Dev nD) (t : Fin cfg20.N) :
    (dat20 (F := Ideal) V c).flushed 7 t
      = ((cfg20.win 7).blk t).view.read (Elt Ideal) (klin (kbnrelu Cert.Consts.k12 Cert.Consts.eps (V c main_v215) (V c main_v216) (V c main_v214_0) (V c main_v218) (V c main_v219)) (V c main_v210) (V c main_v217)) := by
  show (cfg20.win 7).cut (grid20.coords t) ((dat20 (F := Ideal) V c).after 7 t) = _
  rw [after20_7]
  unfold out20_7
  rw [View.canon_unit_zero zero2_20]
  simp only [View.ld_unit_zero (S := S4096x128) zero2_20, View.ld_unit_zero (S := S1x128) zero2_20,
    View.ld_unit_zero (S := S128x128) zero2_20]
  rw [Blk.k20_out_eq (iblk20 V c 0 t) (iblk20 V c 1 t) (iblk20 V c 2 t) (iblk20 V c 3 t) (iblk20 V c 4 t) (iblk20 V c 5 t) (iblk20 V c 6 t)]
  rw [in20_0 V c t, in20_1 V c t, in20_2 V c t, in20_3 V c t, in20_4 V c t, in20_5 V c t, in20_6 V c t]
  rw [read20_7, selRows_klin, selRows_kbnrelu]
  rfl

/-- Tile t's slot of the column sums is the column sums of tile t of the result. -/
private theorem wrote20_8 (c : Dev nD) (t : Fin cfg20.N) :
    (dat20 (F := Ideal) V c).flushed 8 t
      = ((cfg20.win 8).blk t).view.read (Elt Ideal) (tilesum 1 4096 rfl (klin (kbnrelu Cert.Consts.k12 Cert.Consts.eps (V c main_v215) (V c main_v216) (V c main_v214_0) (V c main_v218) (V c main_v219)) (V c main_v210) (V c main_v217))) := by
  show (cfg20.win 8).cut (grid20.coords t) ((dat20 (F := Ideal) V c).after 8 t) = _
  rw [after20_8]
  unfold out20_8
  rw [View.canon_unit_zero zero3_20]
  simp only [View.ld_unit_zero (S := S4096x128) zero2_20, View.ld_unit_zero (S := S1x128) zero2_20,
    View.ld_unit_zero (S := S128x128) zero2_20]
  rw [Blk.k20_psum_eq (iblk20 V c 0 t) (iblk20 V c 1 t) (iblk20 V c 2 t) (iblk20 V c 3 t) (iblk20 V c 4 t) (iblk20 V c 5 t) (iblk20 V c 6 t)]
  rw [in20_0 V c t, in20_1 V c t, in20_2 V c t, in20_3 V c t, in20_4 V c t, in20_5 V c t, in20_6 V c t]
  rw [read20_8, ← selRows_kbnrelu, ← selRows_klin]
  exact (tilesum_tile 1 4096 rfl (klin (kbnrelu Cert.Consts.k12 Cert.Consts.eps (V c main_v215) (V c main_v216) (V c main_v214_0) (V c main_v218) (V c main_v219)) (V c main_v210) (V c main_v217)) ⟨t.val, t.isLt⟩).symm

/-- Tile t's slot of the column sums of squares is those of tile t of the result. -/
private theorem wrote20_9 (c : Dev nD) (t : Fin cfg20.N) :
    (dat20 (F := Ideal) V c).flushed 9 t
      = ((cfg20.win 9).blk t).view.read (Elt Ideal) (tilesumsq 1 4096 rfl (klin (kbnrelu Cert.Consts.k12 Cert.Consts.eps (V c main_v215) (V c main_v216) (V c main_v214_0) (V c main_v218) (V c main_v219)) (V c main_v210) (V c main_v217))) := by
  show (cfg20.win 9).cut (grid20.coords t) ((dat20 (F := Ideal) V c).after 9 t) = _
  rw [after20_9]
  unfold out20_9
  rw [View.canon_unit_zero zero3_20]
  simp only [View.ld_unit_zero (S := S4096x128) zero2_20, View.ld_unit_zero (S := S1x128) zero2_20,
    View.ld_unit_zero (S := S128x128) zero2_20]
  rw [Blk.k20_psumsq_eq (iblk20 V c 0 t) (iblk20 V c 1 t) (iblk20 V c 2 t) (iblk20 V c 3 t) (iblk20 V c 4 t) (iblk20 V c 5 t) (iblk20 V c 6 t)]
  rw [in20_0 V c t, in20_1 V c t, in20_2 V c t, in20_3 V c t, in20_4 V c t, in20_5 V c t, in20_6 V c t]
  rw [read20_9, ← selRows_kbnrelu, ← selRows_klin]
  exact (tilesumsq_tile 1 4096 rfl (klin (kbnrelu Cert.Consts.k12 Cert.Consts.eps (V c main_v215) (V c main_v216) (V c main_v214_0) (V c main_v218) (V c main_v219)) (V c main_v210) (V c main_v217)) ⟨t.val, t.isLt⟩).symm

/-! ## Every entry of each result array is written by some grid point -/

private theorem mem20_7 (t : Fin cfg20.N) (i : S4096x128.Idx) :
    i ∈ ((cfg20.win 7).blk t).view.set ↔ ∀ a : Fin 2, win20_7.index t a * S4096x128.size a ≤ (i a).val ∧ (i a).val < win20_7.index t a * S4096x128.size a + S4096x128.size a := by
  show i ∈ ((View.whole main_v220_0).slice (win20_7.rect t)).set ↔ _
  rw [View.set_slice_whole, Rect.mem_set_unit]
  exact Iff.rfl

/-- Row r lies in tile r / 4096. -/
private theorem covered20_7 (i : S4096x128.Idx) :
    ∃ t : Fin cfg20.N, (cfg20.win 7).flush t = true ∧ i ∈ ((cfg20.win 7).blk t).view.set := by
  have hi0 : (i 0).val < 4096 := (i 0).isLt
  have hi1 : (i 1).val < 128 := (i 1).isLt
  have ht : (i 0).val / 4096 < grid20.N := by show _ < 1; omega
  obtain ⟨-, -, b0, b1⟩ := idx20_rows ⟨(i 0).val / 4096, ht⟩
  refine ⟨⟨(i 0).val / 4096, ht⟩, flush20_7 _, ?_⟩
  rw [mem20_7]
  intro a
  match a with
  | ⟨0, _⟩ =>
    show win20_7.index ⟨(i 0).val / 4096, ht⟩ (0 : Fin 2) * 4096 ≤ (i 0).val ∧ (i 0).val < win20_7.index ⟨(i 0).val / 4096, ht⟩ (0 : Fin 2) * 4096 + 4096
    have e : win20_7.index ⟨(i 0).val / 4096, ht⟩ (0 : Fin 2) = (i 0).val / 4096 := b0
    omega
  | ⟨1, _⟩ =>
    show win20_7.index ⟨(i 0).val / 4096, ht⟩ (1 : Fin 2) * 128 ≤ (i 1).val ∧ (i 1).val < win20_7.index ⟨(i 0).val / 4096, ht⟩ (1 : Fin 2) * 128 + 128
    have e : win20_7.index ⟨(i 0).val / 4096, ht⟩ (1 : Fin 2) = 0 := b1
    omega

private theorem mem20_8 (t : Fin cfg20.N) (i : S1x1x128.Idx) :
    i ∈ ((cfg20.win 8).blk t).view.set ↔ ∀ a : Fin 3, win20_8.index t a * S1x1x128.size a ≤ (i a).val ∧ (i a).val < win20_8.index t a * S1x1x128.size a + S1x1x128.size a := by
  show i ∈ ((View.whole main_v220_1).slice (win20_8.rect t)).set ↔ _
  rw [View.set_slice_whole, Rect.mem_set_unit]
  exact Iff.rfl

/-- Slot u is written at grid point u. -/
private theorem covered20_8 (i : S1x1x128.Idx) :
    ∃ t : Fin cfg20.N, (cfg20.win 8).flush t = true ∧ i ∈ ((cfg20.win 8).blk t).view.set := by
  have hi0 : (i 0).val < 1 := (i 0).isLt
  have hi1 : (i 1).val < 1 := (i 1).isLt
  have hi2 : (i 2).val < 128 := (i 2).isLt
  have ht : (i 0).val < grid20.N := hi0
  obtain ⟨a0, a1, a2, -, -, -⟩ := idx20_stats ⟨(i 0).val, ht⟩
  refine ⟨⟨(i 0).val, ht⟩, flush20_8 _, ?_⟩
  rw [mem20_8]
  intro a
  match a with
  | ⟨0, _⟩ =>
    show win20_8.index ⟨(i 0).val, ht⟩ (0 : Fin 3) * 1 ≤ (i 0).val ∧ (i 0).val < win20_8.index ⟨(i 0).val, ht⟩ (0 : Fin 3) * 1 + 1
    have e : win20_8.index ⟨(i 0).val, ht⟩ (0 : Fin 3) = (i 0).val := a0
    omega
  | ⟨1, _⟩ =>
    show win20_8.index ⟨(i 0).val, ht⟩ (1 : Fin 3) * 1 ≤ (i 1).val ∧ (i 1).val < win20_8.index ⟨(i 0).val, ht⟩ (1 : Fin 3) * 1 + 1
    have e : win20_8.index ⟨(i 0).val, ht⟩ (1 : Fin 3) = 0 := a1
    omega
  | ⟨2, _⟩ =>
    show win20_8.index ⟨(i 0).val, ht⟩ (2 : Fin 3) * 128 ≤ (i 2).val ∧ (i 2).val < win20_8.index ⟨(i 0).val, ht⟩ (2 : Fin 3) * 128 + 128
    have e : win20_8.index ⟨(i 0).val, ht⟩ (2 : Fin 3) = 0 := a2
    omega

private theorem mem20_9 (t : Fin cfg20.N) (i : S1x1x128.Idx) :
    i ∈ ((cfg20.win 9).blk t).view.set ↔ ∀ a : Fin 3, win20_9.index t a * S1x1x128.size a ≤ (i a).val ∧ (i a).val < win20_9.index t a * S1x1x128.size a + S1x1x128.size a := by
  show i ∈ ((View.whole main_v220_2).slice (win20_9.rect t)).set ↔ _
  rw [View.set_slice_whole, Rect.mem_set_unit]
  exact Iff.rfl

/-- Slot u is written at grid point u. -/
private theorem covered20_9 (i : S1x1x128.Idx) :
    ∃ t : Fin cfg20.N, (cfg20.win 9).flush t = true ∧ i ∈ ((cfg20.win 9).blk t).view.set := by
  have hi0 : (i 0).val < 1 := (i 0).isLt
  have hi1 : (i 1).val < 1 := (i 1).isLt
  have hi2 : (i 2).val < 128 := (i 2).isLt
  have ht : (i 0).val < grid20.N := hi0
  obtain ⟨-, -, -, a0, a1, a2⟩ := idx20_stats ⟨(i 0).val, ht⟩
  refine ⟨⟨(i 0).val, ht⟩, flush20_9 _, ?_⟩
  rw [mem20_9]
  intro a
  match a with
  | ⟨0, _⟩ =>
    show win20_9.index ⟨(i 0).val, ht⟩ (0 : Fin 3) * 1 ≤ (i 0).val ∧ (i 0).val < win20_9.index ⟨(i 0).val, ht⟩ (0 : Fin 3) * 1 + 1
    have e : win20_9.index ⟨(i 0).val, ht⟩ (0 : Fin 3) = (i 0).val := a0
    omega
  | ⟨1, _⟩ =>
    show win20_9.index ⟨(i 0).val, ht⟩ (1 : Fin 3) * 1 ≤ (i 1).val ∧ (i 1).val < win20_9.index ⟨(i 0).val, ht⟩ (1 : Fin 3) * 1 + 1
    have e : win20_9.index ⟨(i 0).val, ht⟩ (1 : Fin 3) = 0 := a1
    omega
  | ⟨2, _⟩ =>
    show win20_9.index ⟨(i 0).val, ht⟩ (2 : Fin 3) * 128 ≤ (i 2).val ∧ (i 2).val < win20_9.index ⟨(i 0).val, ht⟩ (2 : Fin 3) * 128 + 128
    have e : win20_9.index ⟨(i 0).val, ht⟩ (2 : Fin 3) = 0 := a2
    omega

/-! ## The arrays the region leaves -/

/-- The result array: the second layer of the whole input. -/
theorem r20_lin (c : Dev nD) :
    (dat20 (F := Ideal) V c).arrAt 7 cfg20.N = klin (kbnrelu Cert.Consts.k12 Cert.Consts.eps (V c main_v215) (V c main_v216) (V c main_v214_0) (V c main_v218) (V c main_v219)) (V c main_v210) (V c main_v217) :=
  (dat20 (F := Ideal) V c).arrAt_eq_of_cover 7 _ (fun t _ => wrote20_7 V c t) covered20_7

/-- Its per-tile column sums. -/
theorem r20_psum (c : Dev nD) :
    (dat20 (F := Ideal) V c).arrAt 8 cfg20.N = tilesum 1 4096 rfl (klin (kbnrelu Cert.Consts.k12 Cert.Consts.eps (V c main_v215) (V c main_v216) (V c main_v214_0) (V c main_v218) (V c main_v219)) (V c main_v210) (V c main_v217)) :=
  (dat20 (F := Ideal) V c).arrAt_eq_of_cover 8 _ (fun t _ => wrote20_8 V c t) covered20_8

/-- Its per-tile column sums of squares. -/
theorem r20_psumsq (c : Dev nD) :
    (dat20 (F := Ideal) V c).arrAt 9 cfg20.N = tilesumsq 1 4096 rfl (klin (kbnrelu Cert.Consts.k12 Cert.Consts.eps (V c main_v215) (V c main_v216) (V c main_v214_0) (V c main_v218) (V c main_v219)) (V c main_v210) (V c main_v217)) :=
  (dat20 (F := Ideal) V c).arrAt_eq_of_cover 9 _ (fun t _ => wrote20_9 V c t) covered20_9

end Cert.KernelIdeal.Reg

end
-- ==== Proof.Reg.R21.lean ====
/-
  Region 21: a first linear layer over 4096 rows in 1 tile of 4096. Each grid point takes one tile of the
  two summed inputs, the whole 128×128 weight and the bias row, and writes back that tile's rows of the layer's output
  together with the tile's column sums and column sums of squares. Because the layer acts on every row by itself, the
  rows a point writes are the rows of ONE whole-array function, and the tiles cover the arrays; so after the region the
  output array is the linear map of the whole input arrays and the statistics arrays hold its per-tile column sums.
-/
import proofs.«427658_j89163521065156_2_alg».proof.Proof.FrameKernelIdeal.Reg21
import proofs.«427658_j89163521065156_2_alg».proof.Proof.BlkLin
import proofs.«427658_j89163521065156_2_alg».proof.Proof.SpecRows
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat)

namespace Cert.KernelIdeal.Reg

open Cert.KernelIdeal Cert.KernelIdeal.Gen Cert.Spec

variable (V : (c : Dev nD) → (b : Ref sig .tc) → Buf (Elt Ideal) ((c : Thread nD τ).loc b))

/-- The sum of two extended reals, for entries of the region's arrays (whose element type is the extended reals only
    up to unfolding). -/
local notation:65 a:65 " +ᵉ " b:66 => @HAdd.hAdd EReal EReal EReal instHAdd a b

private theorem hz2 : (![0, 0] : Fin 2 → Nat) = fun _ => 0 := funext fun a => by fin_cases a <;> rfl
private theorem hz3 : (![0, 0, 0] : Fin 3 → Nat) = fun _ => 0 := funext fun a => by fin_cases a <;> rfl

/-- The grid has 1 point, one per tile of 4096 rows. -/
private theorem hN : cfg21.N = 1 := rfl

/-- A grid point as a tile number. -/
private def tile (t : Fin cfg21.N) : Fin 1 := ⟨t.val, lt_of_lt_of_eq t.isLt hN⟩

/-! ## The index maps, decided over the grid

The row-tiled windows (the summed inputs and the layer's output) are at block (t, 0) at point t; the weight and the
bias are whole at every point; the statistics windows are at block (t, 0, 0). -/

private theorem idx_facts : ∀ t : Fin cfg21.N,
    (win21_0.index t (0 : Fin 2) = t.val ∧ win21_0.index t (1 : Fin 2) = 0)
    ∧ (win21_1.index t (0 : Fin 2) = t.val ∧ win21_1.index t (1 : Fin 2) = 0)
    ∧ (win21_2.index t (0 : Fin 2) = 0 ∧ win21_2.index t (1 : Fin 2) = 0)
    ∧ (win21_3.index t (0 : Fin 2) = 0 ∧ win21_3.index t (1 : Fin 2) = 0)
    ∧ (win21_4.index t (0 : Fin 2) = t.val ∧ win21_4.index t (1 : Fin 2) = 0)
    ∧ (win21_5.index t (0 : Fin 3) = t.val ∧ win21_5.index t (1 : Fin 3) = 0 ∧ win21_5.index t (2 : Fin 3) = 0)
    ∧ (win21_6.index t (0 : Fin 3) = t.val ∧ win21_6.index t (1 : Fin 3) = 0 ∧ win21_6.index t (2 : Fin 3) = 0) :=
  (by decide +kernel : ∀ t : Fin grid21.N, _)

/-! ## The blocks, read off their arrays -/

/-- Window 0's block at point t holds the rows of tile t of its array. -/
private theorem rows_0 (X : S4096x128.Idx → EReal) (t : Fin cfg21.N) :
    ((cfg21.win 0).blk t).view.read (Elt Ideal) X = selRows (tileRow 1 4096 rfl (tile t)) X := by
  obtain ⟨⟨e0, e1⟩, -⟩ := idx_facts t
  funext y
  show X (((cfg21.win 0).blk t).view.emb y) = X (ix2 (tileRow 1 4096 rfl (tile t) (y 0)) (y 1))
  refine congrArg X ?_
  funext a
  apply Fin.ext
  match a with
  | ⟨0, _⟩ => show win21_0.index t (0 : Fin 2) * 4096 + 1 * (y 0).val = t.val * 4096 + (y 0).val; rw [e0]; omega
  | ⟨1, _⟩ => show win21_0.index t (1 : Fin 2) * 128 + 1 * (y 1).val = (y 1).val; rw [e1]; omega

/-- Window 1's block at point t holds the rows of tile t of its array. -/
private theorem rows_1 (X : S4096x128.Idx → EReal) (t : Fin cfg21.N) :
    ((cfg21.win 1).blk t).view.read (Elt Ideal) X = selRows (tileRow 1 4096 rfl (tile t)) X := by
  obtain ⟨-, ⟨e0, e1⟩, -⟩ := idx_facts t
  funext y
  show X (((cfg21.win 1).blk t).view.emb y) = X (ix2 (tileRow 1 4096 rfl (tile t) (y 0)) (y 1))
  refine congrArg X ?_
  funext a
  apply Fin.ext
  match a with
  | ⟨0, _⟩ => show win21_1.index t (0 : Fin 2) * 4096 + 1 * (y 0).val = t.val * 4096 + (y 0).val; rw [e0]; omega
  | ⟨1, _⟩ => show win21_1.index t (1 : Fin 2) * 128 + 1 * (y 1).val = (y 1).val; rw [e1]; omega

/-- Window 2's block is its whole array at every point. -/
private theorem whole_2 (X : S128x128.Idx → EReal) (t : Fin cfg21.N) :
    ((cfg21.win 2).blk t).view.read (Elt Ideal) X = X := by
  obtain ⟨-, -, ⟨e0, e1⟩, -⟩ := idx_facts t
  funext y
  show X (((cfg21.win 2).blk t).view.emb y) = X y
  refine congrArg X ?_
  funext a
  apply Fin.ext
  match a with
  | ⟨0, _⟩ => show win21_2.index t (0 : Fin 2) * 128 + 1 * (y 0).val = (y 0).val; rw [e0]; omega
  | ⟨1, _⟩ => show win21_2.index t (1 : Fin 2) * 128 + 1 * (y 1).val = (y 1).val; rw [e1]; omega

/-- Window 3's block is its whole array at every point. -/
private theorem whole_3 (X : S1x128.Idx → EReal) (t : Fin cfg21.N) :
    ((cfg21.win 3).blk t).view.read (Elt Ideal) X = X := by
  obtain ⟨-, -, -, ⟨e0, e1⟩, -⟩ := idx_facts t
  funext y
  show X (((cfg21.win 3).blk t).view.emb y) = X y
  refine congrArg X ?_
  funext a
  apply Fin.ext
  match a with
  | ⟨0, _⟩ => show win21_3.index t (0 : Fin 2) * 1 + 1 * (y 0).val = (y 0).val; rw [e0]; omega
  | ⟨1, _⟩ => show win21_3.index t (1 : Fin 2) * 128 + 1 * (y 1).val = (y 1).val; rw [e1]; omega

/-- Window 4's block at point t holds the rows of tile t of its array. -/
private theorem rows_4 (X : S4096x128.Idx → EReal) (t : Fin cfg21.N) :
    ((cfg21.win 4).blk t).view.read (Elt Ideal) X = selRows (tileRow 1 4096 rfl (tile t)) X := by
  obtain ⟨-, -, -, -, ⟨e0, e1⟩, -⟩ := idx_facts t
  funext y
  show X (((cfg21.win 4).blk t).view.emb y) = X (ix2 (tileRow 1 4096 rfl (tile t) (y 0)) (y 1))
  refine congrArg X ?_
  funext a
  apply Fin.ext
  match a with
  | ⟨0, _⟩ => show win21_4.index t (0 : Fin 2) * 4096 + 1 * (y 0).val = t.val * 4096 + (y 0).val; rw [e0]; omega
  | ⟨1, _⟩ => show win21_4.index t (1 : Fin 2) * 128 + 1 * (y 1).val = (y 1).val; rw [e1]; omega

/-- Window 5's block at point t is tile t's row of the per-tile statistics. -/
private theorem stat_5 (P : S1x1x128.Idx → EReal) (t : Fin cfg21.N) :
    ((cfg21.win 5).blk t).view.read (Elt Ideal) P = fun y : (⟨3, ![1, 1, 128]⟩ : Shape).Idx => P (ix3 (tile t) 0 (y 2)) := by
  obtain ⟨-, -, -, -, -, ⟨e0, e1, e2⟩, -⟩ := idx_facts t
  funext y
  show P (((cfg21.win 5).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win21_5.index t (0 : Fin 3) * 1 + 1 * (y 0).val = t.val; rw [e0]; omega
  | ⟨1, _⟩ => show win21_5.index t (1 : Fin 3) * 1 + 1 * (y 1).val = 0; rw [e1]; omega
  | ⟨2, _⟩ => show win21_5.index t (2 : Fin 3) * 128 + 1 * (y 2).val = (y 2).val; rw [e2]; omega

/-- Window 6's block at point t is tile t's row of the per-tile statistics. -/
private theorem stat_6 (P : S1x1x128.Idx → EReal) (t : Fin cfg21.N) :
    ((cfg21.win 6).blk t).view.read (Elt Ideal) P = fun y : (⟨3, ![1, 1, 128]⟩ : Shape).Idx => P (ix3 (tile t) 0 (y 2)) := by
  obtain ⟨-, -, -, -, -, -, ⟨e0, e1, e2⟩⟩ := idx_facts t
  funext y
  show P (((cfg21.win 6).blk t).view.emb y) = P (ix3 (tile t) 0 (y 2))
  refine congrArg P ?_
  funext a
  apply Fin.ext
  have h0 : (y 0).val < 1 := (y 0).isLt
  have h1 : (y 1).val < 1 := (y 1).isLt
  match a with
  | ⟨0, _⟩ => show win21_6.index t (0 : Fin 3) * 1 + 1 * (y 0).val = t.val; rw [e0]; omega
  | ⟨1, _⟩ => show win21_6.index t (1 : Fin 3) * 1 + 1 * (y 1).val = 0; rw [e1]; omega
  | ⟨2, _⟩ => show win21_6.index t (2 : Fin 3) * 128 + 1 * (y 2).val = (y 2).val; rw [e2]; omega

private theorem iblk_0 (c : Dev nD) (t : Fin cfg21.N) :
    iblk21 (F := Ideal) V c 0 t = selRows (tileRow 1 4096 rfl (tile t)) (V c main_v177) := rows_0 _ t
private theorem iblk_1 (c : Dev nD) (t : Fin cfg21.N) :
    iblk21 (F := Ideal) V c 1 t = selRows (tileRow 1 4096 rfl (tile t)) (V c main_v178) := rows_1 _ t
private theorem iblk_2 (c : Dev nD) (t : Fin cfg21.N) : iblk21 (F := Ideal) V c 2 t = V c main_v224 := whole_2 _ t
private theorem iblk_3 (c : Dev nD) (t : Fin cfg21.N) : iblk21 (F := Ideal) V c 3 t = V c main_v235 := whole_3 _ t

/-- Selecting rows commutes with the layer: the linear map acts on each row by itself. -/
private theorem sel_lin {R B : Nat} (f : Fin B → Fin R) (p0 p1 : Mat R 128) (W : Mat 128 128) (b : Mat 1 128) :
    selRows f (klin (fun j => p0 j + p1 j) W b) = klin (fun j => selRows f p0 j + selRows f p1 j) W b := by
  rw [selRows_klin]
  rfl

/-! ## What each point writes back -/

/-- What point t writes back to the layer's output: the rows of tile t of the whole-array linear map. -/
private theorem flushed_lin (c : Dev nD) (t : Fin cfg21.N) :
    (dat21 (F := Ideal) V c).flushed 4 t = ((cfg21.win 4).blk t).view.read (Elt Ideal)
      (klin (fun j => V c main_v177 j +ᵉ V c main_v178 j) (V c main_v224) (V c main_v235)) := by
  show (cfg21.win 4).cut (grid21.coords t) ((dat21 V c).after 4 t) = _
  rw [after21_4]
  unfold out21_4
  rw [View.canon_unit_zero hz2]
  simp only [View.ld_unit_zero (S := S4096x128) hz2, View.ld_unit_zero (S := S128x128) hz2, View.ld_unit_zero (S := S1x128) hz2]
  rw [Blk.k21_pay1_eq, rows_4, sel_lin, iblk_0 V c t, iblk_1 V c t, iblk_2 V c t, iblk_3 V c t]
  rfl

/-- What point t writes back to the column sums: tile t's row of the whole array's per-tile column sums. -/
private theorem flushed_psum (c : Dev nD) (t : Fin cfg21.N) :
    (dat21 (F := Ideal) V c).flushed 5 t = ((cfg21.win 5).blk t).view.read (Elt Ideal)
      (tilesum 1 4096 rfl (klin (fun j => V c main_v177 j +ᵉ V c main_v178 j) (V c main_v224) (V c main_v235))) := by
  show (cfg21.win 5).cut (grid21.coords t) ((dat21 V c).after 5 t) = _
  rw [after21_5]
  unfold out21_5
  rw [View.canon_unit_zero hz3]
  simp only [View.ld_unit_zero (S := S4096x128) hz2, View.ld_unit_zero (S := S128x128) hz2, View.ld_unit_zero (S := S1x128) hz2]
  rw [Blk.k21_pay2_eq, stat_5, tilesum_tile, sel_lin, iblk_0 V c t, iblk_1 V c t, iblk_2 V c t, iblk_3 V c t]
  rfl

/-- What point t writes back to the column sums of squares: tile t's row of the whole array's per-tile column sums of squares. -/
private theorem flushed_psumsq (c : Dev nD) (t : Fin cfg21.N) :
    (dat21 (F := Ideal) V c).flushed 6 t = ((cfg21.win 6).blk t).view.read (Elt Ideal)
      (tilesumsq 1 4096 rfl (klin (fun j => V c main_v177 j +ᵉ V c main_v178 j) (V c main_v224) (V c main_v235))) := by
  show (cfg21.win 6).cut (grid21.coords t) ((dat21 V c).after 6 t) = _
  rw [after21_6]
  unfold out21_6
  rw [View.canon_unit_zero hz3]
  simp only [View.ld_unit_zero (S := S4096x128) hz2, View.ld_unit_zero (S := S128x128) hz2, View.ld_unit_zero (S := S1x128) hz2]
  rw [Blk.k21_pay3_eq, stat_6, tilesumsq_tile, sel_lin, iblk_0 V c t, iblk_1 V c t, iblk_2 V c t, iblk_3 V c t]
  rfl

/-! ## The blocks cover the arrays -/

/-- An index of the array is in point t's block iff each coordinate is in the block's range on its axis. -/
private theorem mem_4 (t : Fin cfg21.N) (i : S4096x128.Idx) :
    i ∈ ((cfg21.win 4).blk t).view.set ↔ ∀ a : Fin 2, win21_4.index t a * S4096x128.size a ≤ (i a).val ∧ (i a).val < win21_4.index t a * S4096x128.size a + S4096x128.size a := by
  show i ∈ ((View.whole main_v236_0).slice (win21_4.rect t)).set ↔ _
  rw [View.set_slice_whole, Rect.mem_set_unit]
  exact Iff.rfl

/-- Row r lies in the block of tile r / 4096. -/
private theorem cover_4 (i : S4096x128.Idx) : ∃ t : Fin cfg21.N, (cfg21.win 4).flush t = true ∧ i ∈ ((cfg21.win 4).blk t).view.set := by
  have hi0 : (i 0).val < 4096 := (i 0).isLt
  have hi1 : (i 1).val < 128 := (i 1).isLt
  have ht : (i 0).val / 4096 < cfg21.N := by rw [hN]; omega
  obtain ⟨-, -, -, -, ⟨e0, e1⟩, -⟩ := idx_facts ⟨(i 0).val / 4096, ht⟩
  refine ⟨⟨(i 0).val / 4096, ht⟩, flush21_4 _, ?_⟩
  rw [mem_4]
  intro a
  match a with
  | ⟨0, _⟩ =>
    show win21_4.index ⟨(i 0).val / 4096, ht⟩ (0 : Fin 2) * 4096 ≤ (i 0).val ∧ (i 0).val < win21_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win21_4.index ⟨(i 0).val / 4096, ht⟩ (1 : Fin 2) * 128 ≤ (i 1).val ∧ (i 1).val < win21_4.index ⟨(i 0).val / 4096, ht⟩ (1 : Fin 2) * 128 + 128
    rw [e1]; omega

/-- An index of the statistics array is in point t's block iff each coordinate is in the block's range on its axis. -/
private theorem mem_5 (t : Fin cfg21.N) (i : S1x1x128.Idx) :
    i ∈ ((cfg21.win 5).blk t).view.set ↔ ∀ a : Fin 3, win21_5.index t a * S1x1x128.size a ≤ (i a).val ∧ (i a).val < win21_5.index t a * S1x1x128.size a + S1x1x128.size a := by
  show i ∈ ((View.whole main_v236_1).slice (win21_5.rect t)).set ↔ _
  rw [View.set_slice_whole, Rect.mem_set_unit]
  exact Iff.rfl

/-- Tile r's row lies in the block of point r. -/
private theorem cover_5 (i : S1x1x128.Idx) : ∃ t : Fin cfg21.N, (cfg21.win 5).flush t = true ∧ i ∈ ((cfg21.win 5).blk t).view.set := by
  have hi0 : (i 0).val < 1 := (i 0).isLt
  have hi1 : (i 1).val < 1 := (i 1).isLt
  have hi2 : (i 2).val < 128 := (i 2).isLt
  have ht : (i 0).val < cfg21.N := by rw [hN]; omega
  obtain ⟨-, -, -, -, -, ⟨e0, e1, e2⟩, -⟩ := idx_facts ⟨(i 0).val, ht⟩
  refine ⟨⟨(i 0).val, ht⟩, flush21_5 _, ?_⟩
  rw [mem_5]
  intro a
  match a with
  | ⟨0, _⟩ =>
    show win21_5.index ⟨(i 0).val, ht⟩ (0 : Fin 3) * 1 ≤ (i 0).val ∧ (i 0).val < win21_5.index ⟨(i 0).val, ht⟩ (0 : Fin 3) * 1 + 1
    rw [e0]; show (i 0).val * 1 ≤ (i 0).val ∧ (i 0).val < (i 0).val * 1 + 1; omega
  | ⟨1, _⟩ =>
    show win21_5.index ⟨(i 0).val, ht⟩ (1 : Fin 3) * 1 ≤ (i 1).val ∧ (i 1).val < win21_5.index ⟨(i 0).val, ht⟩ (1 : Fin 3) * 1 + 1
    rw [e1]; omega
  | ⟨2, _⟩ =>
    show win21_5.index ⟨(i 0).val, ht⟩ (2 : Fin 3) * 128 ≤ (i 2).val ∧ (i 2).val < win21_5.index ⟨(i 0).val, ht⟩ (2 : Fin 3) * 128 + 128
    rw [e2]; omega

/-- An index of the statistics array is in point t's block iff each coordinate is in the block's range on its axis. -/
private theorem mem_6 (t : Fin cfg21.N) (i : S1x1x128.Idx) :
    i ∈ ((cfg21.win 6).blk t).view.set ↔ ∀ a : Fin 3, win21_6.index t a * S1x1x128.size a ≤ (i a).val ∧ (i a).val < win21_6.index t a * S1x1x128.size a + S1x1x128.size a := by
  show i ∈ ((View.whole main_v236_2).slice (win21_6.rect t)).set ↔ _
  rw [View.set_slice_whole, Rect.mem_set_unit]
  exact Iff.rfl

/-- Tile r's row lies in the block of point r. -/
private theorem cover_6 (i : S1x1x128.Idx) : ∃ t : Fin cfg21.N, (cfg21.win 6).flush t = true ∧ i ∈ ((cfg21.win 6).blk t).view.set := by
  have hi0 : (i 0).val < 1 := (i 0).isLt
  have hi1 : (i 1).val < 1 := (i 1).isLt
  have hi2 : (i 2).val < 128 := (i 2).isLt
  have ht : (i 0).val < cfg21.N := by rw [hN]; omega
  obtain ⟨-, -, -, -, -, -, ⟨e0, e1, e2⟩⟩ := idx_facts ⟨(i 0).val, ht⟩
  refine ⟨⟨(i 0).val, ht⟩, flush21_6 _, ?_⟩
  rw [mem_6]
  intro a
  match a with
  | ⟨0, _⟩ =>
    show win21_6.index ⟨(i 0).val, ht⟩ (0 : Fin 3) * 1 ≤ (i 0).val ∧ (i 0).val < win21_6.index ⟨(i 0).val, ht⟩ (0 : Fin 3) * 1 + 1
    rw [e0]; show (i 0).val * 1 ≤ (i 0).val ∧ (i 0).val < (i 0).val * 1 + 1; omega
  | ⟨1, _⟩ =>
    show win21_6.index ⟨(i 0).val, ht⟩ (1 : Fin 3) * 1 ≤ (i 1).val ∧ (i 1).val < win21_6.index ⟨(i 0).val, ht⟩ (1 : Fin 3) * 1 + 1
    rw [e1]; omega
  | ⟨2, _⟩ =>
    show win21_6.index ⟨(i 0).val, ht⟩ (2 : Fin 3) * 128 ≤ (i 2).val ∧ (i 2).val < win21_6.index ⟨(i 0).val, ht⟩ (2 : Fin 3) * 128 + 128
    rw [e2]; omega

/-! ## The arrays after the region -/

/-- The layer's output array: the bias row plus the product of the summed input rows with the weight. -/
theorem r21_lin (c : Dev nD) : (dat21 (F := Ideal) V c).arrAt 4 cfg21.N
    = klin (fun j => V c main_v177 j +ᵉ V c main_v178 j) (V c main_v224) (V c main_v235) :=
  (dat21 V c).arrAt_eq_of_cover 4 _ (fun t _ => flushed_lin V c t) cover_4

/-- The per-tile column sums of the layer's output. -/
theorem r21_psum (c : Dev nD) : (dat21 (F := Ideal) V c).arrAt 5 cfg21.N
    = tilesum 1 4096 rfl (klin (fun j => V c main_v177 j +ᵉ V c main_v178 j) (V c main_v224) (V c main_v235)) :=
  (dat21 V c).arrAt_eq_of_cover 5 _ (fun t _ => flushed_psum V c t) cover_5

/-- The per-tile column sums of squares of the layer's output. -/
theorem r21_psumsq (c : Dev nD) : (dat21 (F := Ideal) V c).arrAt 6 cfg21.N
    = tilesumsq 1 4096 rfl (klin (fun j => V c main_v177 j +ᵉ V c main_v178 j) (V c main_v224) (V c main_v235)) :=
  (dat21 V c).arrAt_eq_of_cover 6 _ (fun t _ => flushed_psumsq V c t) cover_6

end Cert.KernelIdeal.Reg

end
-- ==== Proof.Reg.R22.lean ====
/-
  The array-level value of one second-layer region. The region walks the 4096-row tiles of its input: at tile t it
  normalises and ramps the tile with the given column moments, multiplies by the weight, adds the bias, writes the tile
  of the result, and writes that tile's column sums and sums of squares into slot t of two small arrays. Each layer acts
  on rows independently, so the tiles written one by one make up the layer applied to the whole input, and slot t of
  the statistics is tile t's partial sum of that whole result.
-/
import proofs.«427658_j89163521065156_2_alg».proof.Proof.FrameKernelIdeal.Reg22
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

open scoped BigOperators
open Cert.KernelIdeal Cert.KernelIdeal.Gen Cert.Spec Idealize.ShloMosaic Idealize.ShloMosaic.ValueIdx
open Idealize.ShloMosaic.TcCoe

namespace Cert.KernelIdeal.Reg

variable (V : (c : Dev nD) → (b : Ref sig .tc) → Buf (Elt Ideal) ((c : Thread nD τ).loc b))

/-! # The second layer on 4096 rows, tile by tile: the bias plus the normalised, ramped first layer times the weight, and each tile's column statistics -/

private theorem zero2_22 : (![0, 0] : Fin 2 → Nat) = fun _ => 0 := funext fun a => by fin_cases a <;> rfl
private theorem zero3_22 : (![0, 0, 0] : Fin 3 → Nat) = fun _ => 0 := funext fun a => by fin_cases a <;> rfl

/-! ## Which block each window holds at a grid point -/

/-- The tiled input and the result move with the grid point: block (t, 0). -/
private theorem idx22_rows : ∀ t : Fin cfg22.N,
    win22_0.index t (0 : Fin 2) = t.val ∧ win22_0.index t (1 : Fin 2) = 0
    ∧ win22_7.index t (0 : Fin 2) = t.val ∧ win22_7.index t (1 : Fin 2) = 0 :=
  (by decide +kernel : ∀ t : Fin grid22.N, _)

/-- The weight, the two moment rows, the scale, the shift and the bias stay at block (0, 0). -/
private theorem idx22_whole : ∀ t : Fin cfg22.N,
    win22_1.index t (0 : Fin 2) = 0 ∧ win22_1.index t (1 : Fin 2) = 0
    ∧ win22_2.index t (0 : Fin 2) = 0 ∧ win22_2.index t (1 : Fin 2) = 0
    ∧ win22_3.index t (0 : Fin 2) = 0 ∧ win22_3.index t (1 : Fin 2) = 0
    ∧ win22_4.index t (0 : Fin 2) = 0 ∧ win22_4.index t (1 : Fin 2) = 0
    ∧ win22_5.index t (0 : Fin 2) = 0 ∧ win22_5.index t (1 : Fin 2) = 0
    ∧ win22_6.index t (0 : Fin 2) = 0 ∧ win22_6.index t (1 : Fin 2) = 0 :=
  (by decide +kernel : ∀ t : Fin grid22.N, _)

/-- The two statistics move with the grid point: block (t, 0, 0). -/
private theorem idx22_stats : ∀ t : Fin cfg22.N,
    win22_8.index t (0 : Fin 3) = t.val ∧ win22_8.index t (1 : Fin 3) = 0 ∧ win22_8.index t (2 : Fin 3) = 0
    ∧ win22_9.index t (0 : Fin 3) = t.val ∧ win22_9.index t (1 : Fin 3) = 0 ∧ win22_9.index t (2 : Fin 3) = 0 :=
  (by decide +kernel : ∀ t : Fin grid22.N, _)

/-! ## A window's block read off an array -/

/-- Window 0's block at grid point t is the 4096 rows of tile t. -/
private theorem read22_0 (t : Fin cfg22.N) (X : Mat 4096 128) :
    ((cfg22.win 0).blk t).view.read (Elt Ideal) X = selRows (tileRow 1 4096 rfl ⟨t.val, t.isLt⟩) X := by
  obtain ⟨a0, a1, -, -⟩ := idx22_rows t
  funext j
  show X (((cfg22.win 0).blk t).view.emb j) = X (ix2 (tileRow 1 4096 rfl ⟨t.val, t.isLt⟩ (j 0)) (j 1))
  refine congrArg X (funext fun a => Fin.ext ?_)
  match a with
  | ⟨0, _⟩ =>
    show win22_0.index t (0 : Fin 2) * 4096 + 1 * (j 0).val = t.val * 4096 + (j 0).val
    omega
  | ⟨1, _⟩ =>
    show win22_0.index t (1 : Fin 2) * 128 + 1 * (j 1).val = (j 1).val
    omega

/-- Window 7's block at grid point t is the 4096 rows of tile t. -/
private theorem read22_7 (t : Fin cfg22.N) (X : Mat 4096 128) :
    ((cfg22.win 7).blk t).view.read (Elt Ideal) X = selRows (tileRow 1 4096 rfl ⟨t.val, t.isLt⟩) X := by
  obtain ⟨-, -, b0, b1⟩ := idx22_rows t
  funext j
  show X (((cfg22.win 7).blk t).view.emb j) = X (ix2 (tileRow 1 4096 rfl ⟨t.val, t.isLt⟩ (j 0)) (j 1))
  refine congrArg X (funext fun a => Fin.ext ?_)
  match a with
  | ⟨0, _⟩ =>
    show win22_7.index t (0 : Fin 2) * 4096 + 1 * (j 0).val = t.val * 4096 + (j 0).val
    omega
  | ⟨1, _⟩ =>
    show win22_7.index t (1 : Fin 2) * 128 + 1 * (j 1).val = (j 1).val
    omega

/-- Window 1 holds its whole 128×128 array at every grid point. -/
private theorem read22_1 (t : Fin cfg22.N) (X : Mat 128 128) :
    ((cfg22.win 1).blk t).view.read (Elt Ideal) X = X := by
  obtain ⟨e0, e1, -, -, -, -, -, -, -, -, -, -⟩ := idx22_whole t
  funext j
  show X (((cfg22.win 1).blk t).view.emb j) = X j
  refine congrArg X (funext fun a => Fin.ext ?_)
  match a with
  | ⟨0, _⟩ =>
    show win22_1.index t (0 : Fin 2) * 128 + 1 * (j 0).val = (j 0).val
    omega
  | ⟨1, _⟩ =>
    show win22_1.index t (1 : Fin 2) * 128 + 1 * (j 1).val = (j 1).val
    omega

/-- Window 2 holds its whole 1×128 array at every grid point. -/
private theorem read22_2 (t : Fin cfg22.N) (X : Mat 1 128) :
    ((cfg22.win 2).blk t).view.read (Elt Ideal) X = X := by
  obtain ⟨-, -, e0, e1, -, -, -, -, -, -, -, -⟩ := idx22_whole t
  funext j
  show X (((cfg22.win 2).blk t).view.emb j) = X j
  refine congrArg X (funext fun a => Fin.ext ?_)
  match a with
  | ⟨0, _⟩ =>
    show win22_2.index t (0 : Fin 2) * 1 + 1 * (j 0).val = (j 0).val
    omega
  | ⟨1, _⟩ =>
    show win22_2.index t (1 : Fin 2) * 128 + 1 * (j 1).val = (j 1).val
    omega

/-- Window 3 holds its whole 1×128 array at every grid point. -/
private theorem read22_3 (t : Fin cfg22.N) (X : Mat 1 128) :
    ((cfg22.win 3).blk t).view.read (Elt Ideal) X = X := by
  obtain ⟨-, -, -, -, e0, e1, -, -, -, -, -, -⟩ := idx22_whole t
  funext j
  show X (((cfg22.win 3).blk t).view.emb j) = X j
  refine congrArg X (funext fun a => Fin.ext ?_)
  match a with
  | ⟨0, _⟩ =>
    show win22_3.index t (0 : Fin 2) * 1 + 1 * (j 0).val = (j 0).val
    omega
  | ⟨1, _⟩ =>
    show win22_3.index t (1 : Fin 2) * 128 + 1 * (j 1).val = (j 1).val
    omega

/-- Window 4 holds its whole 1×128 array at every grid point. -/
private theorem read22_4 (t : Fin cfg22.N) (X : Mat 1 128) :
    ((cfg22.win 4).blk t).view.read (Elt Ideal) X = X := by
  obtain ⟨-, -, -, -, -, -, e0, e1, -, -, -, -⟩ := idx22_whole t
  funext j
  show X (((cfg22.win 4).blk t).view.emb j) = X j
  refine congrArg X (funext fun a => Fin.ext ?_)
  match a with
  | ⟨0, _⟩ =>
    show win22_4.index t (0 : Fin 2) * 1 + 1 * (j 0).val = (j 0).val
    omega
  | ⟨1, _⟩ =>
    show win22_4.index t (1 : Fin 2) * 128 + 1 * (j 1).val = (j 1).val
    omega

/-- Window 5 holds its whole 1×128 array at every grid point. -/
private theorem read22_5 (t : Fin cfg22.N) (X : Mat 1 128) :
    ((cfg22.win 5).blk t).view.read (Elt Ideal) X = X := by
  obtain ⟨-, -, -, -, -, -, -, -, e0, e1, -, -⟩ := idx22_whole t
  funext j
  show X (((cfg22.win 5).blk t).view.emb j) = X j
  refine congrArg X (funext fun a => Fin.ext ?_)
  match a with
  | ⟨0, _⟩ =>
    show win22_5.index t (0 : Fin 2) * 1 + 1 * (j 0).val = (j 0).val
    omega
  | ⟨1, _⟩ =>
    show win22_5.index t (1 : Fin 2) * 128 + 1 * (j 1).val = (j 1).val
    omega

/-- Window 6 holds its whole 1×128 array at every grid point. -/
private theorem read22_6 (t : Fin cfg22.N) (X : Mat 1 128) :
    ((cfg22.win 6).blk t).view.read (Elt Ideal) X = X := by
  obtain ⟨-, -, -, -, -, -, -, -, -, -, e0, e1⟩ := idx22_whole t
  funext j
  show X (((cfg22.win 6).blk t).view.emb j) = X j
  refine congrArg X (funext fun a => Fin.ext ?_)
  match a with
  | ⟨0, _⟩ =>
    show win22_6.index t (0 : Fin 2) * 1 + 1 * (j 0).val = (j 0).val
    omega
  | ⟨1, _⟩ =>
    show win22_6.index t (1 : Fin 2) * 128 + 1 * (j 1).val = (j 1).val
    omega

/-- Window 8's block at grid point t is tile t's slot of the 1×1×128 statistics. -/
private theorem read22_8 (t : Fin cfg22.N) (X : Cube 1 1 128) :
    ((cfg22.win 8).blk t).view.read (Elt Ideal) X
      = fun y : (⟨3, ![1, 1, 128]⟩ : Shape).Idx => X (ix3 (⟨t.val, t.isLt⟩ : Fin 1) 0 (y 2)) := by
  obtain ⟨a0, a1, a2, -, -, -⟩ := idx22_stats t
  funext y
  show X (((cfg22.win 8).blk t).view.emb y) = X (ix3 (⟨t.val, t.isLt⟩ : Fin 1) 0 (y 2))
  refine congrArg X (funext fun a => Fin.ext ?_)
  have h0 : (y 0).val < 1 := (y 0).isLt
  have h1 : (y 1).val < 1 := (y 1).isLt
  match a with
  | ⟨0, _⟩ =>
    show win22_8.index t (0 : Fin 3) * 1 + 1 * (y 0).val = t.val
    omega
  | ⟨1, _⟩ =>
    show win22_8.index t (1 : Fin 3) * 1 + 1 * (y 1).val = 0
    omega
  | ⟨2, _⟩ =>
    show win22_8.index t (2 : Fin 3) * 128 + 1 * (y 2).val = (y 2).val
    omega

/-- Window 9's block at grid point t is tile t's slot of the 1×1×128 statistics. -/
private theorem read22_9 (t : Fin cfg22.N) (X : Cube 1 1 128) :
    ((cfg22.win 9).blk t).view.read (Elt Ideal) X
      = fun y : (⟨3, ![1, 1, 128]⟩ : Shape).Idx => X (ix3 (⟨t.val, t.isLt⟩ : Fin 1) 0 (y 2)) := by
  obtain ⟨-, -, -, b0, b1, b2⟩ := idx22_stats t
  funext y
  show X (((cfg22.win 9).blk t).view.emb y) = X (ix3 (⟨t.val, t.isLt⟩ : Fin 1) 0 (y 2))
  refine congrArg X (funext fun a => Fin.ext ?_)
  have h0 : (y 0).val < 1 := (y 0).isLt
  have h1 : (y 1).val < 1 := (y 1).isLt
  match a with
  | ⟨0, _⟩ =>
    show win22_9.index t (0 : Fin 3) * 1 + 1 * (y 0).val = t.val
    omega
  | ⟨1, _⟩ =>
    show win22_9.index t (1 : Fin 3) * 1 + 1 * (y 1).val = 0
    omega
  | ⟨2, _⟩ =>
    show win22_9.index t (2 : Fin 3) * 128 + 1 * (y 2).val = (y 2).val
    omega

/-! ## The input blocks at a grid point -/

private theorem in22_0 (c : Dev nD) (t : Fin cfg22.N) :
    iblk22 (F := Ideal) V c 0 t = selRows (tileRow 1 4096 rfl ⟨t.val, t.isLt⟩) (V c main_v236_0) := by
  unfold iblk22
  exact read22_0 t (V c main_v236_0)
private theorem in22_1 (c : Dev nD) (t : Fin cfg22.N) :
    iblk22 (F := Ideal) V c 1 t = V c main_v232 := by
  unfold iblk22
  exact read22_1 t (V c main_v232)
private theorem in22_2 (c : Dev nD) (t : Fin cfg22.N) :
    iblk22 (F := Ideal) V c 2 t = V c main_v237 := by
  unfold iblk22
  exact read22_2 t (V c main_v237)
private theorem in22_3 (c : Dev nD) (t : Fin cfg22.N) :
    iblk22 (F := Ideal) V c 3 t = V c main_v238 := by
  unfold iblk22
  exact read22_3 t (V c main_v238)
private theorem in22_4 (c : Dev nD) (t : Fin cfg22.N) :
    iblk22 (F := Ideal) V c 4 t = V c main_v240 := by
  unfold iblk22
  exact read22_4 t (V c main_v240)
private theorem in22_5 (c : Dev nD) (t : Fin cfg22.N) :
    iblk22 (F := Ideal) V c 5 t = V c main_v241 := by
  unfold iblk22
  exact read22_5 t (V c main_v241)
private theorem in22_6 (c : Dev nD) (t : Fin cfg22.N) :
    iblk22 (F := Ideal) V c 6 t = V c main_v239 := by
  unfold iblk22
  exact read22_6 t (V c main_v239)

/-! ## What grid point t writes back -/

/-- Tile t of the result is the second layer of tile t of the input. -/
private theorem wrote22_7 (c : Dev nD) (t : Fin cfg22.N) :
    (dat22 (F := Ideal) V c).flushed 7 t
      = ((cfg22.win 7).blk t).view.read (Elt Ideal) (klin (kbnrelu Cert.Consts.k12 Cert.Consts.eps (V c main_v237) (V c main_v238) (V c main_v236_0) (V c main_v240) (V c main_v241)) (V c main_v232) (V c main_v239)) := by
  show (cfg22.win 7).cut (grid22.coords t) ((dat22 (F := Ideal) V c).after 7 t) = _
  rw [after22_7]
  unfold out22_7
  rw [View.canon_unit_zero zero2_22]
  simp only [View.ld_unit_zero (S := S4096x128) zero2_22, View.ld_unit_zero (S := S1x128) zero2_22,
    View.ld_unit_zero (S := S128x128) zero2_22]
  rw [Blk.k22_out_eq (iblk22 V c 0 t) (iblk22 V c 1 t) (iblk22 V c 2 t) (iblk22 V c 3 t) (iblk22 V c 4 t) (iblk22 V c 5 t) (iblk22 V c 6 t)]
  rw [in22_0 V c t, in22_1 V c t, in22_2 V c t, in22_3 V c t, in22_4 V c t, in22_5 V c t, in22_6 V c t]
  rw [read22_7, selRows_klin, selRows_kbnrelu]
  rfl

/-- Tile t's slot of the column sums is the column sums of tile t of the result. -/
private theorem wrote22_8 (c : Dev nD) (t : Fin cfg22.N) :
    (dat22 (F := Ideal) V c).flushed 8 t
      = ((cfg22.win 8).blk t).view.read (Elt Ideal) (tilesum 1 4096 rfl (klin (kbnrelu Cert.Consts.k12 Cert.Consts.eps (V c main_v237) (V c main_v238) (V c main_v236_0) (V c main_v240) (V c main_v241)) (V c main_v232) (V c main_v239))) := by
  show (cfg22.win 8).cut (grid22.coords t) ((dat22 (F := Ideal) V c).after 8 t) = _
  rw [after22_8]
  unfold out22_8
  rw [View.canon_unit_zero zero3_22]
  simp only [View.ld_unit_zero (S := S4096x128) zero2_22, View.ld_unit_zero (S := S1x128) zero2_22,
    View.ld_unit_zero (S := S128x128) zero2_22]
  rw [Blk.k22_psum_eq (iblk22 V c 0 t) (iblk22 V c 1 t) (iblk22 V c 2 t) (iblk22 V c 3 t) (iblk22 V c 4 t) (iblk22 V c 5 t) (iblk22 V c 6 t)]
  rw [in22_0 V c t, in22_1 V c t, in22_2 V c t, in22_3 V c t, in22_4 V c t, in22_5 V c t, in22_6 V c t]
  rw [read22_8, ← selRows_kbnrelu, ← selRows_klin]
  exact (tilesum_tile 1 4096 rfl (klin (kbnrelu Cert.Consts.k12 Cert.Consts.eps (V c main_v237) (V c main_v238) (V c main_v236_0) (V c main_v240) (V c main_v241)) (V c main_v232) (V c main_v239)) ⟨t.val, t.isLt⟩).symm

/-- Tile t's slot of the column sums of squares is those of tile t of the result. -/
private theorem wrote22_9 (c : Dev nD) (t : Fin cfg22.N) :
    (dat22 (F := Ideal) V c).flushed 9 t
      = ((cfg22.win 9).blk t).view.read (Elt Ideal) (tilesumsq 1 4096 rfl (klin (kbnrelu Cert.Consts.k12 Cert.Consts.eps (V c main_v237) (V c main_v238) (V c main_v236_0) (V c main_v240) (V c main_v241)) (V c main_v232) (V c main_v239))) := by
  show (cfg22.win 9).cut (grid22.coords t) ((dat22 (F := Ideal) V c).after 9 t) = _
  rw [after22_9]
  unfold out22_9
  rw [View.canon_unit_zero zero3_22]
  simp only [View.ld_unit_zero (S := S4096x128) zero2_22, View.ld_unit_zero (S := S1x128) zero2_22,
    View.ld_unit_zero (S := S128x128) zero2_22]
  rw [Blk.k22_psumsq_eq (iblk22 V c 0 t) (iblk22 V c 1 t) (iblk22 V c 2 t) (iblk22 V c 3 t) (iblk22 V c 4 t) (iblk22 V c 5 t) (iblk22 V c 6 t)]
  rw [in22_0 V c t, in22_1 V c t, in22_2 V c t, in22_3 V c t, in22_4 V c t, in22_5 V c t, in22_6 V c t]
  rw [read22_9, ← selRows_kbnrelu, ← selRows_klin]
  exact (tilesumsq_tile 1 4096 rfl (klin (kbnrelu Cert.Consts.k12 Cert.Consts.eps (V c main_v237) (V c main_v238) (V c main_v236_0) (V c main_v240) (V c main_v241)) (V c main_v232) (V c main_v239)) ⟨t.val, t.isLt⟩).symm

/-! ## Every entry of each result array is written by some grid point -/

private theorem mem22_7 (t : Fin cfg22.N) (i : S4096x128.Idx) :
    i ∈ ((cfg22.win 7).blk t).view.set ↔ ∀ a : Fin 2, win22_7.index t a * S4096x128.size a ≤ (i a).val ∧ (i a).val < win22_7.index t a * S4096x128.size a + S4096x128.size a := by
  show i ∈ ((View.whole main_v242_0).slice (win22_7.rect t)).set ↔ _
  rw [View.set_slice_whole, Rect.mem_set_unit]
  exact Iff.rfl

/-- Row r lies in tile r / 4096. -/
private theorem covered22_7 (i : S4096x128.Idx) :
    ∃ t : Fin cfg22.N, (cfg22.win 7).flush t = true ∧ i ∈ ((cfg22.win 7).blk t).view.set := by
  have hi0 : (i 0).val < 4096 := (i 0).isLt
  have hi1 : (i 1).val < 128 := (i 1).isLt
  have ht : (i 0).val / 4096 < grid22.N := by show _ < 1; omega
  obtain ⟨-, -, b0, b1⟩ := idx22_rows ⟨(i 0).val / 4096, ht⟩
  refine ⟨⟨(i 0).val / 4096, ht⟩, flush22_7 _, ?_⟩
  rw [mem22_7]
  intro a
  match a with
  | ⟨0, _⟩ =>
    show win22_7.index ⟨(i 0).val / 4096, ht⟩ (0 : Fin 2) * 4096 ≤ (i 0).val ∧ (i 0).val < win22_7.index ⟨(i 0).val / 4096, ht⟩ (0 : Fin 2) * 4096 + 4096
    have e : win22_7.index ⟨(i 0).val / 4096, ht⟩ (0 : Fin 2) = (i 0).val / 4096 := b0
    omega
  | ⟨1, _⟩ =>
    show win22_7.index ⟨(i 0).val / 4096, ht⟩ (1 : Fin 2) * 128 ≤ (i 1).val ∧ (i 1).val < win22_7.index ⟨(i 0).val / 4096, ht⟩ (1 : Fin 2) * 128 + 128
    have e : win22_7.index ⟨(i 0).val / 4096, ht⟩ (1 : Fin 2) = 0 := b1
    omega

private theorem mem22_8 (t : Fin cfg22.N) (i : S1x1x128.Idx) :
    i ∈ ((cfg22.win 8).blk t).view.set ↔ ∀ a : Fin 3, win22_8.index t a * S1x1x128.size a ≤ (i a).val ∧ (i a).val < win22_8.index t a * S1x1x128.size a + S1x1x128.size a := by
  show i ∈ ((View.whole main_v242_1).slice (win22_8.rect t)).set ↔ _
  rw [View.set_slice_whole, Rect.mem_set_unit]
  exact Iff.rfl

/-- Slot u is written at grid point u. -/
private theorem covered22_8 (i : S1x1x128.Idx) :
    ∃ t : Fin cfg22.N, (cfg22.win 8).flush t = true ∧ i ∈ ((cfg22.win 8).blk t).view.set := by
  have hi0 : (i 0).val < 1 := (i 0).isLt
  have hi1 : (i 1).val < 1 := (i 1).isLt
  have hi2 : (i 2).val < 128 := (i 2).isLt
  have ht : (i 0).val < grid22.N := hi0
  obtain ⟨a0, a1, a2, -, -, -⟩ := idx22_stats ⟨(i 0).val, ht⟩
  refine ⟨⟨(i 0).val, ht⟩, flush22_8 _, ?_⟩
  rw [mem22_8]
  intro a
  match a with
  | ⟨0, _⟩ =>
    show win22_8.index ⟨(i 0).val, ht⟩ (0 : Fin 3) * 1 ≤ (i 0).val ∧ (i 0).val < win22_8.index ⟨(i 0).val, ht⟩ (0 : Fin 3) * 1 + 1
    have e : win22_8.index ⟨(i 0).val, ht⟩ (0 : Fin 3) = (i 0).val := a0
    omega
  | ⟨1, _⟩ =>
    show win22_8.index ⟨(i 0).val, ht⟩ (1 : Fin 3) * 1 ≤ (i 1).val ∧ (i 1).val < win22_8.index ⟨(i 0).val, ht⟩ (1 : Fin 3) * 1 + 1
    have e : win22_8.index ⟨(i 0).val, ht⟩ (1 : Fin 3) = 0 := a1
    omega
  | ⟨2, _⟩ =>
    show win22_8.index ⟨(i 0).val, ht⟩ (2 : Fin 3) * 128 ≤ (i 2).val ∧ (i 2).val < win22_8.index ⟨(i 0).val, ht⟩ (2 : Fin 3) * 128 + 128
    have e : win22_8.index ⟨(i 0).val, ht⟩ (2 : Fin 3) = 0 := a2
    omega

private theorem mem22_9 (t : Fin cfg22.N) (i : S1x1x128.Idx) :
    i ∈ ((cfg22.win 9).blk t).view.set ↔ ∀ a : Fin 3, win22_9.index t a * S1x1x128.size a ≤ (i a).val ∧ (i a).val < win22_9.index t a * S1x1x128.size a + S1x1x128.size a := by
  show i ∈ ((View.whole main_v242_2).slice (win22_9.rect t)).set ↔ _
  rw [View.set_slice_whole, Rect.mem_set_unit]
  exact Iff.rfl

/-- Slot u is written at grid point u. -/
private theorem covered22_9 (i : S1x1x128.Idx) :
    ∃ t : Fin cfg22.N, (cfg22.win 9).flush t = true ∧ i ∈ ((cfg22.win 9).blk t).view.set := by
  have hi0 : (i 0).val < 1 := (i 0).isLt
  have hi1 : (i 1).val < 1 := (i 1).isLt
  have hi2 : (i 2).val < 128 := (i 2).isLt
  have ht : (i 0).val < grid22.N := hi0
  obtain ⟨-, -, -, a0, a1, a2⟩ := idx22_stats ⟨(i 0).val, ht⟩
  refine ⟨⟨(i 0).val, ht⟩, flush22_9 _, ?_⟩
  rw [mem22_9]
  intro a
  match a with
  | ⟨0, _⟩ =>
    show win22_9.index ⟨(i 0).val, ht⟩ (0 : Fin 3) * 1 ≤ (i 0).val ∧ (i 0).val < win22_9.index ⟨(i 0).val, ht⟩ (0 : Fin 3) * 1 + 1
    have e : win22_9.index ⟨(i 0).val, ht⟩ (0 : Fin 3) = (i 0).val := a0
    omega
  | ⟨1, _⟩ =>
    show win22_9.index ⟨(i 0).val, ht⟩ (1 : Fin 3) * 1 ≤ (i 1).val ∧ (i 1).val < win22_9.index ⟨(i 0).val, ht⟩ (1 : Fin 3) * 1 + 1
    have e : win22_9.index ⟨(i 0).val, ht⟩ (1 : Fin 3) = 0 := a1
    omega
  | ⟨2, _⟩ =>
    show win22_9.index ⟨(i 0).val, ht⟩ (2 : Fin 3) * 128 ≤ (i 2).val ∧ (i 2).val < win22_9.index ⟨(i 0).val, ht⟩ (2 : Fin 3) * 128 + 128
    have e : win22_9.index ⟨(i 0).val, ht⟩ (2 : Fin 3) = 0 := a2
    omega

/-! ## The arrays the region leaves -/

/-- The result array: the second layer of the whole input. -/
theorem r22_lin (c : Dev nD) :
    (dat22 (F := Ideal) V c).arrAt 7 cfg22.N = klin (kbnrelu Cert.Consts.k12 Cert.Consts.eps (V c main_v237) (V c main_v238) (V c main_v236_0) (V c main_v240) (V c main_v241)) (V c main_v232) (V c main_v239) :=
  (dat22 (F := Ideal) V c).arrAt_eq_of_cover 7 _ (fun t _ => wrote22_7 V c t) covered22_7

/-- Its per-tile column sums. -/
theorem r22_psum (c : Dev nD) :
    (dat22 (F := Ideal) V c).arrAt 8 cfg22.N = tilesum 1 4096 rfl (klin (kbnrelu Cert.Consts.k12 Cert.Consts.eps (V c main_v237) (V c main_v238) (V c main_v236_0) (V c main_v240) (V c main_v241)) (V c main_v232) (V c main_v239)) :=
  (dat22 (F := Ideal) V c).arrAt_eq_of_cover 8 _ (fun t _ => wrote22_8 V c t) covered22_8

/-- Its per-tile column sums of squares. -/
theorem r22_psumsq (c : Dev nD) :
    (dat22 (F := Ideal) V c).arrAt 9 cfg22.N = tilesumsq 1 4096 rfl (klin (kbnrelu Cert.Consts.k12 Cert.Consts.eps (V c main_v237) (V c main_v238) (V c main_v236_0) (V c main_v240) (V c main_v241)) (V c main_v232) (V c main_v239)) :=
  (dat22 (F := Ideal) V c).arrAt_eq_of_cover 9 _ (fun t _ => wrote22_9 V c t) covered22_9

end Cert.KernelIdeal.Reg

end
-- ==== Proof.Reg.R23.lean ====
/-
  The combining layer over all 4096 rows. The grid runs over the 1 tile of 4096 rows; at tile t the three inputs' rows
  of that tile are normalised in raw-moment form with the given column statistics, ramped, multiplied by their 128×128
  weights and added to the bias row, and the tile's column sums and sums of squares of the result are taken. Every
  step acts on the rows independently, so the tiles' results are the rows of one whole-array function, and the per-tile
  statistics are that function's tile sums.
-/
import proofs.«427658_j89163521065156_2_alg».proof.Proof.FrameKernelIdeal.Reg23
import proofs.«427658_j89163521065156_2_alg».proof.Proof.BlkComb
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open scoped BigOperators
open Cert.KernelIdeal Cert.KernelIdeal.Gen Cert.Spec Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The grid's index maps -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The grid has 1 point, one per tile of 4096 rows. -/
private theorem lt23 (t : Fin cfg23.N) : t.val < 1 := lt_of_lt_of_eq t.isLt N_23
/-- The tile of a grid point. -/
private abbrev tile23 (t : Fin cfg23.N) : Fin 1 := ⟨t.val, lt23 t⟩

private theorem idx23_0 : ∀ t : Fin cfg23.N, win23_0.index t (0 : Fin 2) = t.val ∧ win23_0.index t (1 : Fin 2) = 0 :=
  (by decide +kernel : ∀ t : Fin grid23.N, _)
private theorem idx23_6 : ∀ t : Fin cfg23.N, win23_6.index t (0 : Fin 2) = t.val ∧ win23_6.index t (1 : Fin 2) = 0 :=
  (by decide +kernel : ∀ t : Fin grid23.N, _)
private theorem idx23_12 : ∀ t : Fin cfg23.N, win23_12.index t (0 : Fin 2) = t.val ∧ win23_12.index t (1 : Fin 2) = 0 :=
  (by decide +kernel : ∀ t : Fin grid23.N, _)
private theorem idx23_19 : ∀ t : Fin cfg23.N, win23_19.index t (0 : Fin 2) = t.val ∧ win23_19.index t (1 : Fin 2) = 0 :=
  (by decide +kernel : ∀ t : Fin grid23.N, _)
private theorem idx23_1 : ∀ t : Fin cfg23.N, win23_1.index t (0 : Fin 2) = 0 ∧ win23_1.index t (1 : Fin 2) = 0 :=
  (by decide +kernel : ∀ t : Fin grid23.N, _)
private theorem idx23_7 : ∀ t : Fin cfg23.N, win23_7.index t (0 : Fin 2) = 0 ∧ win23_7.index t (1 : Fin 2) = 0 :=
  (by decide +kernel : ∀ t : Fin grid23.N, _)
private theorem idx23_13 : ∀ t : Fin cfg23.N, win23_13.index t (0 : Fin 2) = 0 ∧ win23_13.index t (1 : Fin 2) = 0 :=
  (by decide +kernel : ∀ t : Fin grid23.N, _)
private theorem idx23_2 : ∀ t : Fin cfg23.N, win23_2.index t (0 : Fin 2) = 0 ∧ win23_2.index t (1 : Fin 2) = 0 :=
  (by decide +kernel : ∀ t : Fin grid23.N, _)
private theorem idx23_3 : ∀ t : Fin cfg23.N, win23_3.index t (0 : Fin 2) = 0 ∧ win23_3.index t (1 : Fin 2) = 0 :=
  (by decide +kernel : ∀ t : Fin grid23.N, _)
private theorem idx23_4 : ∀ t : Fin cfg23.N, win23_4.index t (0 : Fin 2) = 0 ∧ win23_4.index t (1 : Fin 2) = 0 :=
  (by decide +kernel : ∀ t : Fin grid23.N, _)
private theorem idx23_5 : ∀ t : Fin cfg23.N, win23_5.index t (0 : Fin 2) = 0 ∧ win23_5.index t (1 : Fin 2) = 0 :=
  (by decide +kernel : ∀ t : Fin grid23.N, _)
private theorem idx23_8 : ∀ t : Fin cfg23.N, win23_8.index t (0 : Fin 2) = 0 ∧ win23_8.index t (1 : Fin 2) = 0 :=
  (by decide +kernel : ∀ t : Fin grid23.N, _)
private theorem idx23_9 : ∀ t : Fin cfg23.N, win23_9.index t (0 : Fin 2) = 0 ∧ win23_9.index t (1 : Fin 2) = 0 :=
  (by decide +kernel : ∀ t : Fin grid23.N, _)
private theorem idx23_10 : ∀ t : Fin cfg23.N, win23_10.index t (0 : Fin 2) = 0 ∧ win23_10.index t (1 : Fin 2) = 0 :=
  (by decide +kernel : ∀ t : Fin grid23.N, _)
private theorem idx23_11 : ∀ t : Fin cfg23.N, win23_11.index t (0 : Fin 2) = 0 ∧ win23_11.index t (1 : Fin 2) = 0 :=
  (by decide +kernel : ∀ t : Fin grid23.N, _)
private theorem idx23_14 : ∀ t : Fin cfg23.N, win23_14.index t (0 : Fin 2) = 0 ∧ win23_14.index t (1 : Fin 2) = 0 :=
  (by decide +kernel : ∀ t : Fin grid23.N, _)
private theorem idx23_15 : ∀ t : Fin cfg23.N, win23_15.index t (0 : Fin 2) = 0 ∧ win23_15.index t (1 : Fin 2) = 0 :=
  (by decide +kernel : ∀ t : Fin grid23.N, _)
private theorem idx23_16 : ∀ t : Fin cfg23.N, win23_16.index t (0 : Fin 2) = 0 ∧ win23_16.index t (1 : Fin 2) = 0 :=
  (by decide +kernel : ∀ t : Fin grid23.N, _)
private theorem idx23_17 : ∀ t : Fin cfg23.N, win23_17.index t (0 : Fin 2) = 0 ∧ win23_17.index t (1 : Fin 2) = 0 :=
  (by decide +kernel : ∀ t : Fin grid23.N, _)
private theorem idx23_18 : ∀ t : Fin cfg23.N, win23_18.index t (0 : Fin 2) = 0 ∧ win23_18.index t (1 : Fin 2) = 0 :=
  (by decide +kernel : ∀ t : Fin grid23.N, _)
private theorem idx23_20 : ∀ t : Fin cfg23.N, win23_20.index t (0 : Fin 3) = t.val ∧ win23_20.index t (1 : Fin 3) = 0 ∧ win23_20.index t (2 : Fin 3) = 0 :=
  (by decide +kernel : ∀ t : Fin grid23.N, _)
private theorem idx23_21 : ∀ t : Fin cfg23.N, win23_21.index t (0 : Fin 3) = t.val ∧ win23_21.index t (1 : Fin 3) = 0 ∧ win23_21.index t (2 : Fin 3) = 0 :=
  (by decide +kernel : ∀ t : Fin grid23.N, _)

/-! ## Each window's block, read off an array -/

/-- Window 0 moves with the tile: its block at a point is the tile's 4096 rows. -/
private theorem read23_0 (t : Fin cfg23.N) (X : S4096x128.Idx → EReal) :
    ((cfg23.win 0).blk t).view.read (Elt Ideal) X = selRows (tileRow 1 4096 rfl (tile23 t)) X := by
  funext y
  show X (((cfg23.win 0).blk t).view.emb y) = X (ix2 (tileRow 1 4096 rfl (tile23 t) (y 0)) (y 1))
  refine congrArg X ?_
  funext a; apply Fin.ext
  match a with
  | ⟨0, _⟩ =>
    show win23_0.index t (0 : Fin 2) * 4096 + 1 * (y 0).val = t.val * 4096 + (y 0).val
    rw [(idx23_0 t).1]; omega
  | ⟨1, _⟩ =>
    show win23_0.index t (1 : Fin 2) * 128 + 1 * (y 1).val = (y 1).val
    rw [(idx23_0 t).2]; omega
/-- Window 6 moves with the tile: its block at a point is the tile's 4096 rows. -/
private theorem read23_6 (t : Fin cfg23.N) (X : S4096x128.Idx → EReal) :
    ((cfg23.win 6).blk t).view.read (Elt Ideal) X = selRows (tileRow 1 4096 rfl (tile23 t)) X := by
  funext y
  show X (((cfg23.win 6).blk t).view.emb y) = X (ix2 (tileRow 1 4096 rfl (tile23 t) (y 0)) (y 1))
  refine congrArg X ?_
  funext a; apply Fin.ext
  match a with
  | ⟨0, _⟩ =>
    show win23_6.index t (0 : Fin 2) * 4096 + 1 * (y 0).val = t.val * 4096 + (y 0).val
    rw [(idx23_6 t).1]; omega
  | ⟨1, _⟩ =>
    show win23_6.index t (1 : Fin 2) * 128 + 1 * (y 1).val = (y 1).val
    rw [(idx23_6 t).2]; omega
/-- Window 12 moves with the tile: its block at a point is the tile's 4096 rows. -/
private theorem read23_12 (t : Fin cfg23.N) (X : S4096x128.Idx → EReal) :
    ((cfg23.win 12).blk t).view.read (Elt Ideal) X = selRows (tileRow 1 4096 rfl (tile23 t)) X := by
  funext y
  show X (((cfg23.win 12).blk t).view.emb y) = X (ix2 (tileRow 1 4096 rfl (tile23 t) (y 0)) (y 1))
  refine congrArg X ?_
  funext a; apply Fin.ext
  match a with
  | ⟨0, _⟩ =>
    show win23_12.index t (0 : Fin 2) * 4096 + 1 * (y 0).val = t.val * 4096 + (y 0).val
    rw [(idx23_12 t).1]; omega
  | ⟨1, _⟩ =>
    show win23_12.index t (1 : Fin 2) * 128 + 1 * (y 1).val = (y 1).val
    rw [(idx23_12 t).2]; omega
/-- Window 19 moves with the tile: its block at a point is the tile's 4096 rows. -/
private theorem read23_19 (t : Fin cfg23.N) (X : S4096x128.Idx → EReal) :
    ((cfg23.win 19).blk t).view.read (Elt Ideal) X = selRows (tileRow 1 4096 rfl (tile23 t)) X := by
  funext y
  show X (((cfg23.win 19).blk t).view.emb y) = X (ix2 (tileRow 1 4096 rfl (tile23 t) (y 0)) (y 1))
  refine congrArg X ?_
  funext a; apply Fin.ext
  match a with
  | ⟨0, _⟩ =>
    show win23_19.index t (0 : Fin 2) * 4096 + 1 * (y 0).val = t.val * 4096 + (y 0).val
    rw [(idx23_19 t).1]; omega
  | ⟨1, _⟩ =>
    show win23_19.index t (1 : Fin 2) * 128 + 1 * (y 1).val = (y 1).val
    rw [(idx23_19 t).2]; omega
/-- Window 1 does not move: its block is the whole weight. -/
private theorem read23_1 (t : Fin cfg23.N) (X : S128x128.Idx → EReal) :
    ((cfg23.win 1).blk t).view.read (Elt Ideal) X = X := by
  funext y
  show X (((cfg23.win 1).blk t).view.emb y) = X y
  refine congrArg X ?_
  funext a; apply Fin.ext
  match a with
  | ⟨0, _⟩ =>
    show win23_1.index t (0 : Fin 2) * 128 + 1 * (y 0).val = (y 0).val
    rw [(idx23_1 t).1]; omega
  | ⟨1, _⟩ =>
    show win23_1.index t (1 : Fin 2) * 128 + 1 * (y 1).val = (y 1).val
    rw [(idx23_1 t).2]; omega
/-- Window 7 does not move: its block is the whole weight. -/
private theorem read23_7 (t : Fin cfg23.N) (X : S128x128.Idx → EReal) :
    ((cfg23.win 7).blk t).view.read (Elt Ideal) X = X := by
  funext y
  show X (((cfg23.win 7).blk t).view.emb y) = X y
  refine congrArg X ?_
  funext a; apply Fin.ext
  match a with
  | ⟨0, _⟩ =>
    show win23_7.index t (0 : Fin 2) * 128 + 1 * (y 0).val = (y 0).val
    rw [(idx23_7 t).1]; omega
  | ⟨1, _⟩ =>
    show win23_7.index t (1 : Fin 2) * 128 + 1 * (y 1).val = (y 1).val
    rw [(idx23_7 t).2]; omega
/-- Window 13 does not move: its block is the whole weight. -/
private theorem read23_13 (t : Fin cfg23.N) (X : S128x128.Idx → EReal) :
    ((cfg23.win 13).blk t).view.read (Elt Ideal) X = X := by
  funext y
  show X (((cfg23.win 13).blk t).view.emb y) = X y
  refine congrArg X ?_
  funext a; apply Fin.ext
  match a with
  | ⟨0, _⟩ =>
    show win23_13.index t (0 : Fin 2) * 128 + 1 * (y 0).val = (y 0).val
    rw [(idx23_13 t).1]; omega
  | ⟨1, _⟩ =>
    show win23_13.index t (1 : Fin 2) * 128 + 1 * (y 1).val = (y 1).val
    rw [(idx23_13 t).2]; omega
/-- Window 2 does not move: its block is the whole row. -/
private theorem read23_2 (t : Fin cfg23.N) (X : S1x128.Idx → EReal) :
    ((cfg23.win 2).blk t).view.read (Elt Ideal) X = X := by
  funext y
  show X (((cfg23.win 2).blk t).view.emb y) = X y
  refine congrArg X ?_
  funext a; apply Fin.ext
  match a with
  | ⟨0, _⟩ =>
    show win23_2.index t (0 : Fin 2) * 1 + 1 * (y 0).val = (y 0).val
    rw [(idx23_2 t).1]; omega
  | ⟨1, _⟩ =>
    show win23_2.index t (1 : Fin 2) * 128 + 1 * (y 1).val = (y 1).val
    rw [(idx23_2 t).2]; omega
/-- Window 3 does not move: its block is the whole row. -/
private theorem read23_3 (t : Fin cfg23.N) (X : S1x128.Idx → EReal) :
    ((cfg23.win 3).blk t).view.read (Elt Ideal) X = X := by
  funext y
  show X (((cfg23.win 3).blk t).view.emb y) = X y
  refine congrArg X ?_
  funext a; apply Fin.ext
  match a with
  | ⟨0, _⟩ =>
    show win23_3.index t (0 : Fin 2) * 1 + 1 * (y 0).val = (y 0).val
    rw [(idx23_3 t).1]; omega
  | ⟨1, _⟩ =>
    show win23_3.index t (1 : Fin 2) * 128 + 1 * (y 1).val = (y 1).val
    rw [(idx23_3 t).2]; omega
/-- Window 4 does not move: its block is the whole row. -/
private theorem read23_4 (t : Fin cfg23.N) (X : S1x128.Idx → EReal) :
    ((cfg23.win 4).blk t).view.read (Elt Ideal) X = X := by
  funext y
  show X (((cfg23.win 4).blk t).view.emb y) = X y
  refine congrArg X ?_
  funext a; apply Fin.ext
  match a with
  | ⟨0, _⟩ =>
    show win23_4.index t (0 : Fin 2) * 1 + 1 * (y 0).val = (y 0).val
    rw [(idx23_4 t).1]; omega
  | ⟨1, _⟩ =>
    show win23_4.index t (1 : Fin 2) * 128 + 1 * (y 1).val = (y 1).val
    rw [(idx23_4 t).2]; omega
/-- Window 5 does not move: its block is the whole row. -/
private theorem read23_5 (t : Fin cfg23.N) (X : S1x128.Idx → EReal) :
    ((cfg23.win 5).blk t).view.read (Elt Ideal) X = X := by
  funext y
  show X (((cfg23.win 5).blk t).view.emb y) = X y
  refine congrArg X ?_
  funext a; apply Fin.ext
  match a with
  | ⟨0, _⟩ =>
    show win23_5.index t (0 : Fin 2) * 1 + 1 * (y 0).val = (y 0).val
    rw [(idx23_5 t).1]; omega
  | ⟨1, _⟩ =>
    show win23_5.index t (1 : Fin 2) * 128 + 1 * (y 1).val = (y 1).val
    rw [(idx23_5 t).2]; omega
/-- Window 8 does not move: its block is the whole row. -/
private theorem read23_8 (t : Fin cfg23.N) (X : S1x128.Idx → EReal) :
    ((cfg23.win 8).blk t).view.read (Elt Ideal) X = X := by
  funext y
  show X (((cfg23.win 8).blk t).view.emb y) = X y
  refine congrArg X ?_
  funext a; apply Fin.ext
  match a with
  | ⟨0, _⟩ =>
    show win23_8.index t (0 : Fin 2) * 1 + 1 * (y 0).val = (y 0).val
    rw [(idx23_8 t).1]; omega
  | ⟨1, _⟩ =>
    show win23_8.index t (1 : Fin 2) * 128 + 1 * (y 1).val = (y 1).val
    rw [(idx23_8 t).2]; omega
/-- Window 9 does not move: its block is the whole row. -/
private theorem read23_9 (t : Fin cfg23.N) (X : S1x128.Idx → EReal) :
    ((cfg23.win 9).blk t).view.read (Elt Ideal) X = X := by
  funext y
  show X (((cfg23.win 9).blk t).view.emb y) = X y
  refine congrArg X ?_
  funext a; apply Fin.ext
  match a with
  | ⟨0, _⟩ =>
    show win23_9.index t (0 : Fin 2) * 1 + 1 * (y 0).val = (y 0).val
    rw [(idx23_9 t).1]; omega
  | ⟨1, _⟩ =>
    show win23_9.index t (1 : Fin 2) * 128 + 1 * (y 1).val = (y 1).val
    rw [(idx23_9 t).2]; omega
/-- Window 10 does not move: its block is the whole row. -/
private theorem read23_10 (t : Fin cfg23.N) (X : S1x128.Idx → EReal) :
    ((cfg23.win 10).blk t).view.read (Elt Ideal) X = X := by
  funext y
  show X (((cfg23.win 10).blk t).view.emb y) = X y
  refine congrArg X ?_
  funext a; apply Fin.ext
  match a with
  | ⟨0, _⟩ =>
    show win23_10.index t (0 : Fin 2) * 1 + 1 * (y 0).val = (y 0).val
    rw [(idx23_10 t).1]; omega
  | ⟨1, _⟩ =>
    show win23_10.index t (1 : Fin 2) * 128 + 1 * (y 1).val = (y 1).val
    rw [(idx23_10 t).2]; omega
/-- Window 11 does not move: its block is the whole row. -/
private theorem read23_11 (t : Fin cfg23.N) (X : S1x128.Idx → EReal) :
    ((cfg23.win 11).blk t).view.read (Elt Ideal) X = X := by
  funext y
  show X (((cfg23.win 11).blk t).view.emb y) = X y
  refine congrArg X ?_
  funext a; apply Fin.ext
  match a with
  | ⟨0, _⟩ =>
    show win23_11.index t (0 : Fin 2) * 1 + 1 * (y 0).val = (y 0).val
    rw [(idx23_11 t).1]; omega
  | ⟨1, _⟩ =>
    show win23_11.index t (1 : Fin 2) * 128 + 1 * (y 1).val = (y 1).val
    rw [(idx23_11 t).2]; omega
/-- Window 14 does not move: its block is the whole row. -/
private theorem read23_14 (t : Fin cfg23.N) (X : S1x128.Idx → EReal) :
    ((cfg23.win 14).blk t).view.read (Elt Ideal) X = X := by
  funext y
  show X (((cfg23.win 14).blk t).view.emb y) = X y
  refine congrArg X ?_
  funext a; apply Fin.ext
  match a with
  | ⟨0, _⟩ =>
    show win23_14.index t (0 : Fin 2) * 1 + 1 * (y 0).val = (y 0).val
    rw [(idx23_14 t).1]; omega
  | ⟨1, _⟩ =>
    show win23_14.index t (1 : Fin 2) * 128 + 1 * (y 1).val = (y 1).val
    rw [(idx23_14 t).2]; omega
/-- Window 15 does not move: its block is the whole row. -/
private theorem read23_15 (t : Fin cfg23.N) (X : S1x128.Idx → EReal) :
    ((cfg23.win 15).blk t).view.read (Elt Ideal) X = X := by
  funext y
  show X (((cfg23.win 15).blk t).view.emb y) = X y
  refine congrArg X ?_
  funext a; apply Fin.ext
  match a with
  | ⟨0, _⟩ =>
    show win23_15.index t (0 : Fin 2) * 1 + 1 * (y 0).val = (y 0).val
    rw [(idx23_15 t).1]; omega
  | ⟨1, _⟩ =>
    show win23_15.index t (1 : Fin 2) * 128 + 1 * (y 1).val = (y 1).val
    rw [(idx23_15 t).2]; omega
/-- Window 16 does not move: its block is the whole row. -/
private theorem read23_16 (t : Fin cfg23.N) (X : S1x128.Idx → EReal) :
    ((cfg23.win 16).blk t).view.read (Elt Ideal) X = X := by
  funext y
  show X (((cfg23.win 16).blk t).view.emb y) = X y
  refine congrArg X ?_
  funext a; apply Fin.ext
  match a with
  | ⟨0, _⟩ =>
    show win23_16.index t (0 : Fin 2) * 1 + 1 * (y 0).val = (y 0).val
    rw [(idx23_16 t).1]; omega
  | ⟨1, _⟩ =>
    show win23_16.index t (1 : Fin 2) * 128 + 1 * (y 1).val = (y 1).val
    rw [(idx23_16 t).2]; omega
/-- Window 17 does not move: its block is the whole row. -/
private theorem read23_17 (t : Fin cfg23.N) (X : S1x128.Idx → EReal) :
    ((cfg23.win 17).blk t).view.read (Elt Ideal) X = X := by
  funext y
  show X (((cfg23.win 17).blk t).view.emb y) = X y
  refine congrArg X ?_
  funext a; apply Fin.ext
  match a with
  | ⟨0, _⟩ =>
    show win23_17.index t (0 : Fin 2) * 1 + 1 * (y 0).val = (y 0).val
    rw [(idx23_17 t).1]; omega
  | ⟨1, _⟩ =>
    show win23_17.index t (1 : Fin 2) * 128 + 1 * (y 1).val = (y 1).val
    rw [(idx23_17 t).2]; omega
/-- Window 18 does not move: its block is the whole row. -/
private theorem read23_18 (t : Fin cfg23.N) (X : S1x128.Idx → EReal) :
    ((cfg23.win 18).blk t).view.read (Elt Ideal) X = X := by
  funext y
  show X (((cfg23.win 18).blk t).view.emb y) = X y
  refine congrArg X ?_
  funext a; apply Fin.ext
  match a with
  | ⟨0, _⟩ =>
    show win23_18.index t (0 : Fin 2) * 1 + 1 * (y 0).val = (y 0).val
    rw [(idx23_18 t).1]; omega
  | ⟨1, _⟩ =>
    show win23_18.index t (1 : Fin 2) * 128 + 1 * (y 1).val = (y 1).val
    rw [(idx23_18 t).2]; omega
/-- Window 20 moves with the tile: its block at a point is the tile's entry of the per-tile statistics. -/
private theorem read23_20 (t : Fin cfg23.N) (P : S1x1x128.Idx → EReal) :
    ((cfg23.win 20).blk t).view.read (Elt Ideal) P = fun y : S1x1x128.Idx => P (ix3 (tile23 t) 0 (y 2)) := by
  funext y
  show P (((cfg23.win 20).blk t).view.emb y) = P (ix3 (tile23 t) 0 (y 2))
  refine congrArg P ?_
  funext a; apply Fin.ext
  have h0 : (y 0).val < 1 := (y 0).isLt
  have h1 : (y 1).val < 1 := (y 1).isLt
  match a with
  | ⟨0, _⟩ =>
    show win23_20.index t (0 : Fin 3) * 1 + 1 * (y 0).val = t.val
    rw [(idx23_20 t).1]; omega
  | ⟨1, _⟩ =>
    show win23_20.index t (1 : Fin 3) * 1 + 1 * (y 1).val = 0
    rw [(idx23_20 t).2.1]; omega
  | ⟨2, _⟩ =>
    show win23_20.index t (2 : Fin 3) * 128 + 1 * (y 2).val = (y 2).val
    rw [(idx23_20 t).2.2]; omega
/-- Window 21 moves with the tile: its block at a point is the tile's entry of the per-tile statistics. -/
private theorem read23_21 (t : Fin cfg23.N) (P : S1x1x128.Idx → EReal) :
    ((cfg23.win 21).blk t).view.read (Elt Ideal) P = fun y : S1x1x128.Idx => P (ix3 (tile23 t) 0 (y 2)) := by
  funext y
  show P (((cfg23.win 21).blk t).view.emb y) = P (ix3 (tile23 t) 0 (y 2))
  refine congrArg P ?_
  funext a; apply Fin.ext
  have h0 : (y 0).val < 1 := (y 0).isLt
  have h1 : (y 1).val < 1 := (y 1).isLt
  match a with
  | ⟨0, _⟩ =>
    show win23_21.index t (0 : Fin 3) * 1 + 1 * (y 0).val = t.val
    rw [(idx23_21 t).1]; omega
  | ⟨1, _⟩ =>
    show win23_21.index t (1 : Fin 3) * 1 + 1 * (y 1).val = 0
    rw [(idx23_21 t).2.1]; omega
  | ⟨2, _⟩ =>
    show win23_21.index t (2 : Fin 3) * 128 + 1 * (y 2).val = (y 2).val
    rw [(idx23_21 t).2.2]; omega

/-! ## The input blocks at a point -/

private theorem blk23_0 (c : Dev nD) (t : Fin cfg23.N) :
    iblk23 V c 0 t = selRows (tileRow 1 4096 rfl (tile23 t)) (V c main_v198_0) := by
  unfold iblk23
  exact read23_0 t (V c main_v198_0)
private theorem blk23_6 (c : Dev nD) (t : Fin cfg23.N) :
    iblk23 V c 6 t = selRows (tileRow 1 4096 rfl (tile23 t)) (V c main_v220_0) := by
  unfold iblk23
  exact read23_6 t (V c main_v220_0)
private theorem blk23_12 (c : Dev nD) (t : Fin cfg23.N) :
    iblk23 V c 12 t = selRows (tileRow 1 4096 rfl (tile23 t)) (V c main_v242_0) := by
  unfold iblk23
  exact read23_12 t (V c main_v242_0)
private theorem blk23_1 (c : Dev nD) (t : Fin cfg23.N) : iblk23 V c 1 t = V c main_v245 := by
  unfold iblk23
  exact read23_1 t (V c main_v245)
private theorem blk23_7 (c : Dev nD) (t : Fin cfg23.N) : iblk23 V c 7 t = V c main_v250 := by
  unfold iblk23
  exact read23_7 t (V c main_v250)
private theorem blk23_13 (c : Dev nD) (t : Fin cfg23.N) : iblk23 V c 13 t = V c main_v255 := by
  unfold iblk23
  exact read23_13 t (V c main_v255)
private theorem blk23_2 (c : Dev nD) (t : Fin cfg23.N) : iblk23 V c 2 t = V c main_v199 := by
  unfold iblk23
  exact read23_2 t (V c main_v199)
private theorem blk23_3 (c : Dev nD) (t : Fin cfg23.N) : iblk23 V c 3 t = V c main_v200 := by
  unfold iblk23
  exact read23_3 t (V c main_v200)
private theorem blk23_4 (c : Dev nD) (t : Fin cfg23.N) : iblk23 V c 4 t = V c main_v261 := by
  unfold iblk23
  exact read23_4 t (V c main_v261)
private theorem blk23_5 (c : Dev nD) (t : Fin cfg23.N) : iblk23 V c 5 t = V c main_v262 := by
  unfold iblk23
  exact read23_5 t (V c main_v262)
private theorem blk23_8 (c : Dev nD) (t : Fin cfg23.N) : iblk23 V c 8 t = V c main_v221 := by
  unfold iblk23
  exact read23_8 t (V c main_v221)
private theorem blk23_9 (c : Dev nD) (t : Fin cfg23.N) : iblk23 V c 9 t = V c main_v222 := by
  unfold iblk23
  exact read23_9 t (V c main_v222)
private theorem blk23_10 (c : Dev nD) (t : Fin cfg23.N) : iblk23 V c 10 t = V c main_v263 := by
  unfold iblk23
  exact read23_10 t (V c main_v263)
private theorem blk23_11 (c : Dev nD) (t : Fin cfg23.N) : iblk23 V c 11 t = V c main_v264 := by
  unfold iblk23
  exact read23_11 t (V c main_v264)
private theorem blk23_14 (c : Dev nD) (t : Fin cfg23.N) : iblk23 V c 14 t = V c main_v243 := by
  unfold iblk23
  exact read23_14 t (V c main_v243)
private theorem blk23_15 (c : Dev nD) (t : Fin cfg23.N) : iblk23 V c 15 t = V c main_v244 := by
  unfold iblk23
  exact read23_15 t (V c main_v244)
private theorem blk23_16 (c : Dev nD) (t : Fin cfg23.N) : iblk23 V c 16 t = V c main_v265 := by
  unfold iblk23
  exact read23_16 t (V c main_v265)
private theorem blk23_17 (c : Dev nD) (t : Fin cfg23.N) : iblk23 V c 17 t = V c main_v266 := by
  unfold iblk23
  exact read23_17 t (V c main_v266)
private theorem blk23_18 (c : Dev nD) (t : Fin cfg23.N) : iblk23 V c 18 t = V c main_v260 := by
  unfold iblk23
  exact read23_18 t (V c main_v260)

/-! ## The combining layer on the whole arrays -/

/-- The bias row plus the products of the three normalised, ramped inputs with their weights, on all 4096 rows. -/
private def comb23 (c : Dev nD) : S4096x128.Idx → EReal :=
  klin3 (kbnrelu Cert.Consts.k12 Cert.Consts.eps (V c main_v199) (V c main_v200) (V c main_v198_0 : S4096x128.Idx → EReal) (V c main_v261) (V c main_v262)) (V c main_v245)
      (kbnrelu Cert.Consts.k12 Cert.Consts.eps (V c main_v221) (V c main_v222) (V c main_v220_0 : S4096x128.Idx → EReal) (V c main_v263) (V c main_v264)) (V c main_v250)
      (kbnrelu Cert.Consts.k12 Cert.Consts.eps (V c main_v243) (V c main_v244) (V c main_v242_0 : S4096x128.Idx → EReal) (V c main_v265) (V c main_v266)) (V c main_v255) (V c main_v260)

/-! ## What a grid point writes back -/

/-- The point of tile t writes the tile's rows of the combined array. -/
private theorem wb23_lin (c : Dev nD) (t : Fin cfg23.N) :
    (dat23 (F := Ideal) V c).flushed 19 t = ((cfg23.win 19).blk t).view.read (Elt Ideal) (comb23 V c) := by
  show (cfg23.win 19).cut (grid23.coords t) ((dat23 V c).after 19 t) = _
  rw [after23_19]
  unfold out23_19
  rw [View.canon_unit_zero zeros2]
  simp only [View.ld_unit_zero (S := S4096x128) zeros2, View.ld_unit_zero (S := S128x128) zeros2, View.ld_unit_zero (S := S1x128) zeros2]
  rw [Blk.k23_out_eq]
  rw [blk23_0, blk23_1, blk23_2, blk23_3, blk23_4, blk23_5, blk23_6, blk23_7, blk23_8, blk23_9, blk23_10, blk23_11, blk23_12, blk23_13, blk23_14, blk23_15, blk23_16, blk23_17, blk23_18]
  rw [read23_19]
  unfold comb23
  rw [selRows_klin3, selRows_kbnrelu, selRows_kbnrelu, selRows_kbnrelu]
  rfl

/-- … its entry of the per-tile column sums of the combined array … -/
private theorem wb23_psum (c : Dev nD) (t : Fin cfg23.N) :
    (dat23 (F := Ideal) V c).flushed 20 t
      = ((cfg23.win 20).blk t).view.read (Elt Ideal) (tilesum 1 4096 rfl (comb23 V c)) := by
  show (cfg23.win 20).cut (grid23.coords t) ((dat23 V c).after 20 t) = _
  rw [after23_20]
  unfold out23_20
  rw [View.canon_unit_zero zeros3]
  simp only [View.ld_unit_zero (S := S4096x128) zeros2, View.ld_unit_zero (S := S128x128) zeros2, View.ld_unit_zero (S := S1x128) zeros2]
  rw [Blk.k23_psum_eq, Blk.k23_out_eq]
  rw [blk23_0, blk23_1, blk23_2, blk23_3, blk23_4, blk23_5, blk23_6, blk23_7, blk23_8, blk23_9, blk23_10, blk23_11, blk23_12, blk23_13, blk23_14, blk23_15, blk23_16, blk23_17, blk23_18]
  rw [read23_20, tilesum_tile]
  unfold comb23
  rw [selRows_klin3, selRows_kbnrelu, selRows_kbnrelu, selRows_kbnrelu]
  rfl

/-- … and its entry of the per-tile column sums of squares. -/
private theorem wb23_psumsq (c : Dev nD) (t : Fin cfg23.N) :
    (dat23 (F := Ideal) V c).flushed 21 t
      = ((cfg23.win 21).blk t).view.read (Elt Ideal) (tilesumsq 1 4096 rfl (comb23 V c)) := by
  show (cfg23.win 21).cut (grid23.coords t) ((dat23 V c).after 21 t) = _
  rw [after23_21]
  unfold out23_21
  rw [View.canon_unit_zero zeros3]
  simp only [View.ld_unit_zero (S := S4096x128) zeros2, View.ld_unit_zero (S := S128x128) zeros2, View.ld_unit_zero (S := S1x128) zeros2]
  rw [Blk.k23_psumsq_eq, Blk.k23_out_eq]
  rw [blk23_0, blk23_1, blk23_2, blk23_3, blk23_4, blk23_5, blk23_6, blk23_7, blk23_8, blk23_9, blk23_10, blk23_11, blk23_12, blk23_13, blk23_14, blk23_15, blk23_16, blk23_17, blk23_18]
  rw [read23_21, tilesumsq_tile]
  unfold comb23
  rw [selRows_klin3, selRows_kbnrelu, selRows_kbnrelu, selRows_kbnrelu]
  rfl

/-! ## The blocks cover the arrays -/

private theorem mem23_19 (t : Fin cfg23.N) (i : S4096x128.Idx) :
    i ∈ ((cfg23.win 19).blk t).view.set ↔ ∀ a : Fin 2, win23_19.index t a * S4096x128.size a ≤ (i a).val
      ∧ (i a).val < win23_19.index t a * S4096x128.size a + S4096x128.size a := by
  show i ∈ ((View.whole main_v267_0).slice (win23_19.rect t)).set ↔ _
  rw [View.set_slice_whole, Rect.mem_set_unit]
  exact Iff.rfl

/-- Row r lies in tile r / 4096. -/
private theorem covers23_lin (i : S4096x128.Idx) :
    ∃ t : Fin cfg23.N, (cfg23.win 19).flush t = true ∧ i ∈ ((cfg23.win 19).blk t).view.set := by
  have hi0 : (i 0).val < 4096 := (i 0).isLt
  have hi1 : (i 1).val < 128 := (i 1).isLt
  have hN : cfg23.N = 1 := N_23
  have ht : (i 0).val / 4096 < cfg23.N := by rw [hN]; omega
  refine ⟨⟨(i 0).val / 4096, ht⟩, flush23_19 _, ?_⟩
  rw [mem23_19]
  intro a
  match a with
  | ⟨0, _⟩ =>
    show win23_19.index ⟨(i 0).val / 4096, ht⟩ (0 : Fin 2) * 4096 ≤ (i 0).val
      ∧ (i 0).val < win23_19.index ⟨(i 0).val / 4096, ht⟩ (0 : Fin 2) * 4096 + 4096
    rw [(idx23_19 ⟨(i 0).val / 4096, ht⟩).1]
    show (i 0).val / 4096 * 4096 ≤ (i 0).val ∧ (i 0).val < (i 0).val / 4096 * 4096 + 4096
    omega
  | ⟨1, _⟩ =>
    show win23_19.index ⟨(i 0).val / 4096, ht⟩ (1 : Fin 2) * 128 ≤ (i 1).val
      ∧ (i 1).val < win23_19.index ⟨(i 0).val / 4096, ht⟩ (1 : Fin 2) * 128 + 128
    rw [(idx23_19 ⟨(i 0).val / 4096, ht⟩).2]
    omega

private theorem mem23_20 (t : Fin cfg23.N) (i : S1x1x128.Idx) :
    i ∈ ((cfg23.win 20).blk t).view.set ↔ ∀ a : Fin 3, win23_20.index t a * S1x1x128.size a ≤ (i a).val
      ∧ (i a).val < win23_20.index t a * S1x1x128.size a + S1x1x128.size a := by
  show i ∈ ((View.whole main_v267_1).slice (win23_20.rect t)).set ↔ _
  rw [View.set_slice_whole, Rect.mem_set_unit]
  exact Iff.rfl

/-- Tile t's entry lies in the block of point t. -/
private theorem covers23_psum (i : S1x1x128.Idx) :
    ∃ t : Fin cfg23.N, (cfg23.win 20).flush t = true ∧ i ∈ ((cfg23.win 20).blk t).view.set := by
  have hi0 : (i 0).val < 1 := (i 0).isLt
  have hi1 : (i 1).val < 1 := (i 1).isLt
  have hi2 : (i 2).val < 128 := (i 2).isLt
  have hN : cfg23.N = 1 := N_23
  have ht : (i 0).val < cfg23.N := by rw [hN]; exact hi0
  refine ⟨⟨(i 0).val, ht⟩, flush23_20 _, ?_⟩
  rw [mem23_20]
  intro a
  match a with
  | ⟨0, _⟩ =>
    show win23_20.index ⟨(i 0).val, ht⟩ (0 : Fin 3) * 1 ≤ (i 0).val
      ∧ (i 0).val < win23_20.index ⟨(i 0).val, ht⟩ (0 : Fin 3) * 1 + 1
    rw [(idx23_20 ⟨(i 0).val, ht⟩).1]
    show (i 0).val * 1 ≤ (i 0).val ∧ (i 0).val < (i 0).val * 1 + 1
    omega
  | ⟨1, _⟩ =>
    show win23_20.index ⟨(i 0).val, ht⟩ (1 : Fin 3) * 1 ≤ (i 1).val
      ∧ (i 1).val < win23_20.index ⟨(i 0).val, ht⟩ (1 : Fin 3) * 1 + 1
    rw [(idx23_20 ⟨(i 0).val, ht⟩).2.1]
    omega
  | ⟨2, _⟩ =>
    show win23_20.index ⟨(i 0).val, ht⟩ (2 : Fin 3) * 128 ≤ (i 2).val
      ∧ (i 2).val < win23_20.index ⟨(i 0).val, ht⟩ (2 : Fin 3) * 128 + 128
    rw [(idx23_20 ⟨(i 0).val, ht⟩).2.2]
    omega

private theorem mem23_21 (t : Fin cfg23.N) (i : S1x1x128.Idx) :
    i ∈ ((cfg23.win 21).blk t).view.set ↔ ∀ a : Fin 3, win23_21.index t a * S1x1x128.size a ≤ (i a).val
      ∧ (i a).val < win23_21.index t a * S1x1x128.size a + S1x1x128.size a := by
  show i ∈ ((View.whole main_v267_2).slice (win23_21.rect t)).set ↔ _
  rw [View.set_slice_whole, Rect.mem_set_unit]
  exact Iff.rfl

/-- Tile t's entry lies in the block of point t. -/
private theorem covers23_psumsq (i : S1x1x128.Idx) :
    ∃ t : Fin cfg23.N, (cfg23.win 21).flush t = true ∧ i ∈ ((cfg23.win 21).blk t).view.set := by
  have hi0 : (i 0).val < 1 := (i 0).isLt
  have hi1 : (i 1).val < 1 := (i 1).isLt
  have hi2 : (i 2).val < 128 := (i 2).isLt
  have hN : cfg23.N = 1 := N_23
  have ht : (i 0).val < cfg23.N := by rw [hN]; exact hi0
  refine ⟨⟨(i 0).val, ht⟩, flush23_21 _, ?_⟩
  rw [mem23_21]
  intro a
  match a with
  | ⟨0, _⟩ =>
    show win23_21.index ⟨(i 0).val, ht⟩ (0 : Fin 3) * 1 ≤ (i 0).val
      ∧ (i 0).val < win23_21.index ⟨(i 0).val, ht⟩ (0 : Fin 3) * 1 + 1
    rw [(idx23_21 ⟨(i 0).val, ht⟩).1]
    show (i 0).val * 1 ≤ (i 0).val ∧ (i 0).val < (i 0).val * 1 + 1
    omega
  | ⟨1, _⟩ =>
    show win23_21.index ⟨(i 0).val, ht⟩ (1 : Fin 3) * 1 ≤ (i 1).val
      ∧ (i 1).val < win23_21.index ⟨(i 0).val, ht⟩ (1 : Fin 3) * 1 + 1
    rw [(idx23_21 ⟨(i 0).val, ht⟩).2.1]
    omega
  | ⟨2, _⟩ =>
    show win23_21.index ⟨(i 0).val, ht⟩ (2 : Fin 3) * 128 ≤ (i 2).val
      ∧ (i 2).val < win23_21.index ⟨(i 0).val, ht⟩ (2 : Fin 3) * 128 + 128
    rw [(idx23_21 ⟨(i 0).val, ht⟩).2.2]
    omega

/-! ## The region's arrays -/

/-- The combining layer's output array. -/
theorem r23_lin (c : Dev nD) : (dat23 (F := Ideal) V c).arrAt 19 cfg23.N
    = klin3 (kbnrelu Cert.Consts.k12 Cert.Consts.eps (V c main_v199) (V c main_v200) (V c main_v198_0 : S4096x128.Idx → EReal) (V c main_v261) (V c main_v262)) (V c main_v245)
        (kbnrelu Cert.Consts.k12 Cert.Consts.eps (V c main_v221) (V c main_v222) (V c main_v220_0 : S4096x128.Idx → EReal) (V c main_v263) (V c main_v264)) (V c main_v250)
        (kbnrelu Cert.Consts.k12 Cert.Consts.eps (V c main_v243) (V c main_v244) (V c main_v242_0 : S4096x128.Idx → EReal) (V c main_v265) (V c main_v266)) (V c main_v255) (V c main_v260) :=
  (dat23 V c).arrAt_eq_of_cover 19 (comb23 V c) (fun t _ => wb23_lin V c t) covers23_lin

/-- Its per-tile column sums. -/
theorem r23_psum (c : Dev nD) : (dat23 (F := Ideal) V c).arrAt 20 cfg23.N
    = tilesum 1 4096 rfl (klin3 (kbnrelu Cert.Consts.k12 Cert.Consts.eps (V c main_v199) (V c main_v200) (V c main_v198_0 : S4096x128.Idx → EReal) (V c main_v261) (V c main_v262)) (V c main_v245)
        (kbnrelu Cert.Consts.k12 Cert.Consts.eps (V c main_v221) (V c main_v222) (V c main_v220_0 : S4096x128.Idx → EReal) (V c main_v263) (V c main_v264)) (V c main_v250)
        (kbnrelu Cert.Consts.k12 Cert.Consts.eps (V c main_v243) (V c main_v244) (V c main_v242_0 : S4096x128.Idx → EReal) (V c main_v265) (V c main_v266)) (V c main_v255) (V c main_v260)) :=
  (dat23 V c).arrAt_eq_of_cover 20 (tilesum 1 4096 rfl (comb23 V c)) (fun t _ => wb23_psum V c t) covers23_psum

/-- Its per-tile column sums of squares. -/
theorem r23_psumsq (c : Dev nD) : (dat23 (F := Ideal) V c).arrAt 21 cfg23.N
    = tilesumsq 1 4096 rfl (klin3 (kbnrelu Cert.Consts.k12 Cert.Consts.eps (V c main_v199) (V c main_v200) (V c main_v198_0 : S4096x128.Idx → EReal) (V c main_v261) (V c main_v262)) (V c main_v245)
        (kbnrelu Cert.Consts.k12 Cert.Consts.eps (V c main_v221) (V c main_v222) (V c main_v220_0 : S4096x128.Idx → EReal) (V c main_v263) (V c main_v264)) (V c main_v250)
        (kbnrelu Cert.Consts.k12 Cert.Consts.eps (V c main_v243) (V c main_v244) (V c main_v242_0 : S4096x128.Idx → EReal) (V c main_v265) (V c main_v266)) (V c main_v255) (V c main_v260)) :=
  (dat23 V c).arrAt_eq_of_cover 21 (tilesumsq 1 4096 rfl (comb23 V c)) (fun t _ => wb23_psumsq V c t) covers23_psumsq

end Cert.KernelIdeal.Reg

end
-- ==== Proof.Reg.R24.lean ====
/-
  Batch normalisation followed by the ramp, of the 4096 rows of a matrix, computed by tiles of 4096 rows: what the
  region leaves in its output array. Every grid point normalises one tile of rows with the SAME column statistics,
  scale and shift. The layer acts on each row by itself once the statistics are given, so the one tile is the
  layer applied to the whole array.
-/
import proofs.«427658_j89163521065156_2_alg».proof.Proof.FrameKernelIdeal.Reg24
import proofs.«427658_j89163521065156_2_alg».proof.Proof.BlkBn
import proofs.«427658_j89163521065156_2_alg».proof.Proof.SpecRows
import Idealize.ShloMosaic.Lib.Pipeline.Value
import Idealize.ShloMosaic.Lib.ValueIdx

set_option maxRecDepth 16384

noncomputable section

namespace Cert.KernelIdeal.Reg

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The grid and the index maps -/

/-- A whole-buffer access starts at offset zero on both axes. -/
private theorem zero_off24 : (![0, 0] : Fin 2 → Nat) = fun _ => 0 := funext fun a => by fin_cases a <;> rfl

/-- The grid has 1 point. -/
private theorem npts24 : cfg24.N = 1 := by decide
private theorem npoints24 (t : Fin cfg24.N) : t.val < 1 := lt_of_lt_of_eq t.isLt npts24

/-- The index maps over the grid. The rows and the result move with the point: block (t, 0) at point t. -/
private theorem idx_maps24_0 : ∀ t : Fin cfg24.N,
    win24_0.index t (0 : Fin 2) = t.val ∧ win24_0.index t (1 : Fin 2) = 0 :=
  (by decide +kernel : ∀ t : Fin grid24.N, _)
private theorem idx_maps24_5 : ∀ t : Fin cfg24.N,
    win24_5.index t (0 : Fin 2) = t.val ∧ win24_5.index t (1 : Fin 2) = 0 :=
  (by decide +kernel : ∀ t : Fin grid24.N, _)

/-- The column sums, sums of squares, scale and shift are whole windows: block (0, 0) at every point. -/
private theorem idx_maps24_1 : ∀ t : Fin cfg24.N,
    win24_1.index t (0 : Fin 2) = 0 ∧ win24_1.index t (1 : Fin 2) = 0 :=
  (by decide +kernel : ∀ t : Fin grid24.N, _)
private theorem idx_maps24_2 : ∀ t : Fin cfg24.N,
    win24_2.index t (0 : Fin 2) = 0 ∧ win24_2.index t (1 : Fin 2) = 0 :=
  (by decide +kernel : ∀ t : Fin grid24.N, _)
private theorem idx_maps24_3 : ∀ t : Fin cfg24.N,
    win24_3.index t (0 : Fin 2) = 0 ∧ win24_3.index t (1 : Fin 2) = 0 :=
  (by decide +kernel : ∀ t : Fin grid24.N, _)
private theorem idx_maps24_4 : ∀ t : Fin cfg24.N,
    win24_4.index t (0 : Fin 2) = 0 ∧ win24_4.index t (1 : Fin 2) = 0 :=
  (by decide +kernel : ∀ t : Fin grid24.N, _)

/-! ## The blocks at a point -/

/-- Block t of a 4096-row array read through a row-tiled window is the array's rows of tile t. -/
private theorem rows_blk24_0 (t : Fin cfg24.N) (G : S4096x128.Idx → EReal) :
    ((cfg24.win 0).blk t).view.read (Elt Ideal) G = selRows (tileRow 1 4096 rfl ⟨t.val, npoints24 t⟩) G := by
  have e := idx_maps24_0 t
  funext y
  show G (((cfg24.win 0).blk t).view.emb y) = G (ix2 ⟨t.val * 4096 + (y 0).val, _⟩ (y 1))
  refine congrArg G ?_
  funext a; apply Fin.ext
  match a with
  | ⟨0, _⟩ => show win24_0.index t (0 : Fin 2) * 4096 + 1 * (y 0).val = t.val * 4096 + (y 0).val; omega
  | ⟨1, _⟩ => show win24_0.index t (1 : Fin 2) * 128 + 1 * (y 1).val = (y 1).val; omega
private theorem rows_blk24_5 (t : Fin cfg24.N) (G : S4096x128.Idx → EReal) :
    ((cfg24.win 5).blk t).view.read (Elt Ideal) G = selRows (tileRow 1 4096 rfl ⟨t.val, npoints24 t⟩) G := by
  have e := idx_maps24_5 t
  funext y
  show G (((cfg24.win 5).blk t).view.emb y) = G (ix2 ⟨t.val * 4096 + (y 0).val, _⟩ (y 1))
  refine congrArg G ?_
  funext a; apply Fin.ext
  match a with
  | ⟨0, _⟩ => show win24_5.index t (0 : Fin 2) * 4096 + 1 * (y 0).val = t.val * 4096 + (y 0).val; omega
  | ⟨1, _⟩ => show win24_5.index t (1 : Fin 2) * 128 + 1 * (y 1).val = (y 1).val; omega

/-- A one-row array read through a whole window is the array itself, at every point. -/
private theorem whole_blk24_1 (t : Fin cfg24.N) (G : S1x128.Idx → EReal) :
    ((cfg24.win 1).blk t).view.read (Elt Ideal) G = G := by
  have e := idx_maps24_1 t
  funext y
  show G (((cfg24.win 1).blk t).view.emb y) = G y
  refine congrArg G ?_
  funext a; apply Fin.ext
  match a with
  | ⟨0, _⟩ => show win24_1.index t (0 : Fin 2) * 1 + 1 * (y 0).val = (y 0).val; omega
  | ⟨1, _⟩ => show win24_1.index t (1 : Fin 2) * 128 + 1 * (y 1).val = (y 1).val; omega
private theorem whole_blk24_2 (t : Fin cfg24.N) (G : S1x128.Idx → EReal) :
    ((cfg24.win 2).blk t).view.read (Elt Ideal) G = G := by
  have e := idx_maps24_2 t
  funext y
  show G (((cfg24.win 2).blk t).view.emb y) = G y
  refine congrArg G ?_
  funext a; apply Fin.ext
  match a with
  | ⟨0, _⟩ => show win24_2.index t (0 : Fin 2) * 1 + 1 * (y 0).val = (y 0).val; omega
  | ⟨1, _⟩ => show win24_2.index t (1 : Fin 2) * 128 + 1 * (y 1).val = (y 1).val; omega
private theorem whole_blk24_3 (t : Fin cfg24.N) (G : S1x128.Idx → EReal) :
    ((cfg24.win 3).blk t).view.read (Elt Ideal) G = G := by
  have e := idx_maps24_3 t
  funext y
  show G (((cfg24.win 3).blk t).view.emb y) = G y
  refine congrArg G ?_
  funext a; apply Fin.ext
  match a with
  | ⟨0, _⟩ => show win24_3.index t (0 : Fin 2) * 1 + 1 * (y 0).val = (y 0).val; omega
  | ⟨1, _⟩ => show win24_3.index t (1 : Fin 2) * 128 + 1 * (y 1).val = (y 1).val; omega
private theorem whole_blk24_4 (t : Fin cfg24.N) (G : S1x128.Idx → EReal) :
    ((cfg24.win 4).blk t).view.read (Elt Ideal) G = G := by
  have e := idx_maps24_4 t
  funext y
  show G (((cfg24.win 4).blk t).view.emb y) = G y
  refine congrArg G ?_
  funext a; apply Fin.ext
  match a with
  | ⟨0, _⟩ => show win24_4.index t (0 : Fin 2) * 1 + 1 * (y 0).val = (y 0).val; omega
  | ⟨1, _⟩ => show win24_4.index t (1 : Fin 2) * 128 + 1 * (y 1).val = (y 1).val; omega

/-! ## What a point writes back -/

/-- WHAT POINT t WRITES BACK is block t of the layer applied to the whole array: the body normalises the rows of tile
    t, and taking rows commutes with the layer. -/
private theorem wrote24 (c : Dev nD) (t : Fin cfg24.N) :
    (dat24 (F := Ideal) V c).flushed 5 t = ((cfg24.win 5).blk t).view.read (Elt Ideal)
      (kbnrelu Cert.Consts.k12 Cert.Consts.eps (V c main_v268 : S1x128.Idx → EReal) (V c main_v269 : S1x128.Idx → EReal) (V c main_v267_0 : S4096x128.Idx → EReal) (V c main_v270 : S1x128.Idx → EReal) (V c main_v271 : S1x128.Idx → EReal)) := by
  show (cfg24.win 5).cut (grid24.coords t) ((dat24 (F := Ideal) V c).after 5 t) = _
  rw [after24_5]
  unfold out24_5
  rw [View.canon_unit_zero zero_off24]
  simp only [View.ld_unit_zero (S := S4096x128) zero_off24, View.ld_unit_zero (S := S1x128) zero_off24]
  rw [Blk.k24_pay1_eq]
  rw [show iblk24 V c 0 t = selRows (tileRow 1 4096 rfl ⟨t.val, npoints24 t⟩) (V c main_v267_0 : S4096x128.Idx → EReal) from rows_blk24_0 t _,
    show iblk24 V c 1 t = (V c main_v268 : S1x128.Idx → EReal) from whole_blk24_1 t _,
    show iblk24 V c 2 t = (V c main_v269 : S1x128.Idx → EReal) from whole_blk24_2 t _,
    show iblk24 V c 3 t = (V c main_v270 : S1x128.Idx → EReal) from whole_blk24_3 t _,
    show iblk24 V c 4 t = (V c main_v271 : S1x128.Idx → EReal) from whole_blk24_4 t _]
  exact ((rows_blk24_5 t _).trans (selRows_kbnrelu _ _ _ _ _ _ _ _)).symm

/-! ## The tiles fill the array -/

/-- An index of the array is in point t's block iff each coordinate is in the block's range on its axis. -/
private theorem mem_tile24 (t : Fin cfg24.N) (i : S4096x128.Idx) :
    i ∈ ((cfg24.win 5).blk t).view.set ↔ ∀ a : Fin 2, win24_5.index t a * S4096x128.size a ≤ (i a).val
      ∧ (i a).val < win24_5.index t a * S4096x128.size a + S4096x128.size a := by
  show i ∈ ((View.whole main_v272).slice (win24_5.rect t)).set ↔ _
  rw [View.set_slice_whole, Rect.mem_set_unit]
  exact Iff.rfl

/-- Row r lies in tile r / 4096, and every point writes its block back. -/
private theorem tiles_cover24 (i : S4096x128.Idx) :
    ∃ t : Fin cfg24.N, (cfg24.win 5).flush t = true ∧ i ∈ ((cfg24.win 5).blk t).view.set := by
  have hi0 : (i 0).val < 4096 := (i 0).isLt
  have hi1 : (i 1).val < 128 := (i 1).isLt
  obtain ⟨t, ht⟩ : ∃ t : Fin cfg24.N, t.val = (i 0).val / 4096 :=
    ⟨⟨(i 0).val / 4096, lt_of_lt_of_eq (show (i 0).val / 4096 < 1 by omega) npts24.symm⟩, rfl⟩
  obtain ⟨e0, e1⟩ := idx_maps24_5 t
  refine ⟨t, flush24_5 t, ?_⟩
  rw [mem_tile24]
  intro a
  match a with
  | ⟨0, _⟩ => show win24_5.index t (0 : Fin 2) * 4096 ≤ (i 0).val ∧ (i 0).val < win24_5.index t (0 : Fin 2) * 4096 + 4096; omega
  | ⟨1, _⟩ => show win24_5.index t (1 : Fin 2) * 128 ≤ (i 1).val ∧ (i 1).val < win24_5.index t (1 : Fin 2) * 128 + 128; omega

/-! ## The array after the region -/

/-- THE ARRAY the region leaves: the normalised and ramped rows, from the column statistics, scale and shift it was
    given. -/
theorem r24_bn (c : Dev nD) :
    (dat24 (F := Ideal) V c).arrAt 5 cfg24.N
      = kbnrelu Cert.Consts.k12 Cert.Consts.eps (V c main_v268 : S1x128.Idx → EReal) (V c main_v269 : S1x128.Idx → EReal) (V c main_v267_0 : S4096x128.Idx → EReal) (V c main_v270 : S1x128.Idx → EReal) (V c main_v271 : S1x128.Idx → EReal) :=
  (dat24 (F := Ideal) V c).arrAt_eq_of_cover 5 _ (fun t _ => wrote24 V c t) tiles_cover24

end Cert.KernelIdeal.Reg

end
-- ==== Proof.KChainS.lean ====
/-
  The kernel program computes the layer — the cluster branch: each named intermediate value is the corresponding value of the
  specification's network at the inputs read off the launch memory; the per-tile partial sums are the tile sums of that value, their totals
  its column sums, and, the inputs being real, each normalisation from those raw moments is the centred one.
-/
import proofs.«427658_j89163521065156_2_alg».proof.Proof.KVal
import proofs.«427658_j89163521065156_2_alg».proof.Proof.KInp
import proofs.«427658_j89163521065156_2_alg».proof.Proof.SpecNetReal
import proofs.«427658_j89163521065156_2_alg».proof.Proof.SpecSums
import proofs.«427658_j89163521065156_2_alg».proof.Proof.SpecVar
import proofs.«427658_j89163521065156_2_alg».proof.Proof.Reg.R17
import proofs.«427658_j89163521065156_2_alg».proof.Proof.Reg.R18
import proofs.«427658_j89163521065156_2_alg».proof.Proof.Reg.R19
import proofs.«427658_j89163521065156_2_alg».proof.Proof.Reg.R20
import proofs.«427658_j89163521065156_2_alg».proof.Proof.Reg.R21
import proofs.«427658_j89163521065156_2_alg».proof.Proof.Reg.R22
import proofs.«427658_j89163521065156_2_alg».proof.Proof.Reg.R23
import proofs.«427658_j89163521065156_2_alg».proof.Proof.Reg.R24
import proofs.«427658_j89163521065156_2_alg».proof.Proof.KChainC

set_option maxRecDepth 16384

noncomputable section

open Idealize.ShloMosaic Idealize.ShloMosaic.ValueIdx Idealize.ShloMosaic.TcCoe Idealize.SL.Sem
open Cert.KernelIdeal Cert.KernelIdeal.Gen Cert.KernelIdeal.KLaw Cert.Spec

namespace Cert.KernelIdeal.KChain

variable (m : (ℓ : Loc nD τ sig) → Buf (Elt Ideal) ℓ) (ρ : Dev nD → PrngReg)

open Cert.KernelIdeal.KVal

/-- The sum of two extended reals, written with its instance named. -/
local notation:65 a:65 " +ᵉ " b:66 => @HAdd.hAdd EReal EReal EReal instHAdd a b

/-! ## The layer's steps at 4096 rows, in the spelling the kernel uses -/

/-- A first layer: the bias row added first, on the sum of two stacks laid out as rows. -/
private theorem z1S_of (I : Inp) (i : Fin 7) (P Q : Cube 64 64 128) :
    klin (fun j => flat (G := 64) (M := 64) rfl P j + flat (G := 64) (M := 64) rfl Q j) (I.W1 i) (asRow (I.b1 i))
      = Net.z1S I i (flat (G := 64) (M := 64) rfl (addM P Q)) := by
  rw [klin_eq_lin]
  rfl

/-- A second layer: with the true column sums of a real first pre-activation the raw-moment normalisation is the centred one. -/
private theorem z2S_of (I : Inp) (hI : I.Real) (i : Fin 7) (v : Mat 4096 128) (hv : AllReal v) :
    klin (kbnrelu Cert.Consts.k12 Cert.Consts.eps (asRow (colsum (Net.z1S I i v))) (asRow (colsumsq (Net.z1S I i v)))
        (Net.z1S I i v) (asRow (I.g1 i)) (asRow (I.be1 i))) (I.W2 i) (asRow (I.b2 i))
      = Net.z2S I i v := by
  rw [kbnrelu_eq_bnrelu (by norm_num) Cert.Consts.n12 Cert.Consts.k12 Cert.Consts.eps Cert.Consts.n12_eq Cert.Consts.k12_eq _
    (Net.real_z1S hI i hv), klin_eq_lin]
  rfl

/-- An update's output: the second normalisation. -/
private theorem uS_of (I : Inp) (hI : I.Real) (i : Fin 7) (v : Mat 4096 128) (hv : AllReal v) :
    kbnrelu Cert.Consts.k12 Cert.Consts.eps (asRow (colsum (Net.z2S I i v))) (asRow (colsumsq (Net.z2S I i v)))
        (Net.z2S I i v) (asRow (I.g2 i)) (asRow (I.be2 i))
      = Net.uS I i v := by
  rw [kbnrelu_eq_bnrelu (by norm_num) Cert.Consts.n12 Cert.Consts.k12 Cert.Consts.eps Cert.Consts.n12_eq Cert.Consts.k12_eq _
    (Net.real_z2S hI i hv)]
  rfl

/-- The combining layer: the three products against the 128-row pieces of the weight are the product of the three
    outputs side by side against the whole weight. -/
private theorem zcS_of (I : Inp) :
    klin3 (Net.uS I 4 (Net.inS4 I)) (rowsFrom (N := 384) (K := 128) 0 (by omega) I.sW)
        (Net.uS I 5 (Net.inS5 I)) (rowsFrom (N := 384) (K := 128) 128 (by omega) I.sW)
        (Net.uS I 6 (Net.inS6 I)) (rowsFrom (N := 384) (K := 128) 256 (by omega) I.sW) (asRow I.sb)
      = Net.zcS I := by
  unfold Net.zcS
  exact (lin_hcat3 (K := 128) (K3 := 384) rfl _ _ _ I.sW I.sb).symm

/-- The closing normalisation. -/
private theorem sFlat_of (I : Inp) (hI : I.Real) :
    kbnrelu Cert.Consts.k12 Cert.Consts.eps (asRow (colsum (Net.zcS I))) (asRow (colsumsq (Net.zcS I)))
        (Net.zcS I) (asRow I.sg) (asRow I.sbe)
      = Net.sFlat I := by
  rw [kbnrelu_eq_bnrelu (by norm_num) Cert.Consts.n12 Cert.Consts.k12 Cert.Consts.eps Cert.Consts.n12_eq Cert.Consts.k12_eq _
    (Net.real_zcS hI)]
  rfl

/-! ## The cluster branch, value by value -/

theorem v180_net (c : Dev nD) : v180 (F := Ideal) m ρ c = (inp m c).W1 4 := by
  rw [v180_eq]
  rfl
theorem v191_net (c : Dev nD) : v191 (F := Ideal) m ρ c = asRow ((inp m c).b1 4) := by
  rw [v191_eq]
  exact asRow_eq (KT.KT25_v184 (F := Ideal) (m ((c : Thread nD τ).loc main_arg12)))
theorem v184_net (c : Dev nD) : v184 (F := Ideal) m ρ c = (inp m c).g1 4 := by
  rw [v184_eq]
  rfl
theorem v186_net (c : Dev nD) : v186 (F := Ideal) m ρ c = (inp m c).be1 4 := by
  rw [v186_eq]
  rfl
theorem v188_net (c : Dev nD) : v188 (F := Ideal) m ρ c = (inp m c).W2 4 := by
  rw [v188_eq]
  rfl
theorem v190_net (c : Dev nD) : v190 (F := Ideal) m ρ c = (inp m c).b2 4 := by
  rw [v190_eq]
  rfl
/-- Region 17's value at the contents it is entered with: update 4's first pre-activation. -/
private theorem in17 (c : Dev nD) :
    klin (fun j => V35 m ρ c main_v173 j +ᵉ V35 m ρ c main_v178 j) (V35 m ρ c main_v180) (V35 m ρ c main_v191)
      = Net.z1S (inp m c) 4 (Net.inS4 (inp m c)) := by
  rw [show V35 m ρ c main_v173 = _ from v173_at35 m ρ c,
    show V35 m ρ c main_v178 = _ from v178_at35 m ρ c,
    show V35 m ρ c main_v180 = _ from v180_at35 m ρ c,
    show V35 m ρ c main_v191 = _ from v191_at35 m ρ c,
    v173_net m ρ c, v178_net m ρ c, v180_net m ρ c, v191_net m ρ c]
  exact z1S_of (inp m c) 4 _ _
theorem v192_0_net (c : Dev nD) : v192_0 (F := Ideal) m ρ c = Net.z1S (inp m c) 4 (Net.inS4 (inp m c)) := by
  show W36 m ρ c (Proc.devRef .tc main_v192_0) = _
  exact (W36_arr m ρ c 4).trans ((Reg.r17_lin (V35 m ρ) c).trans (in17 m ρ c))
theorem v192_1_net (c : Dev nD) : v192_1 (F := Ideal) m ρ c = tilesum 1 4096 rfl (Net.z1S (inp m c) 4 (Net.inS4 (inp m c))) := by
  show W36 m ρ c (Proc.devRef .tc main_v192_1) = _
  exact (W36_arr m ρ c 5).trans ((Reg.r17_psum (V35 m ρ) c).trans
    (congrArg (tilesum (R := 4096) (C := 128) 1 4096 rfl) (in17 m ρ c)))
theorem v192_2_net (c : Dev nD) : v192_2 (F := Ideal) m ρ c = tilesumsq 1 4096 rfl (Net.z1S (inp m c) 4 (Net.inS4 (inp m c))) := by
  show W36 m ρ c (Proc.devRef .tc main_v192_2) = _
  exact (W36_arr m ρ c 6).trans ((Reg.r17_psumsq (V35 m ρ) c).trans
    (congrArg (tilesumsq (R := 4096) (C := 128) 1 4096 rfl) (in17 m ρ c)))
theorem v193_net (c : Dev nD) : v193 (F := Ideal) m ρ c = asRow (colsum (Net.z1S (inp m c) 4 (Net.inS4 (inp m c)))) := by
  rw [v193_eq, tiles1_eq, v192_1_net m ρ c, addTiles_tilesum]
theorem v194_net (c : Dev nD) : v194 (F := Ideal) m ρ c = asRow (colsumsq (Net.z1S (inp m c) 4 (Net.inS4 (inp m c)))) := by
  rw [v194_eq, tiles1_eq, v192_2_net m ρ c, addTiles_tilesumsq]
theorem v195_net (c : Dev nD) : v195 (F := Ideal) m ρ c = asRow ((inp m c).b2 4) := by
  rw [v195_eq, asRow_eq, v190_net m ρ c]
theorem v196_net (c : Dev nD) : v196 (F := Ideal) m ρ c = asRow ((inp m c).g1 4) := by
  rw [v196_eq, asRow_eq, v184_net m ρ c]
theorem v197_net (c : Dev nD) : v197 (F := Ideal) m ρ c = asRow ((inp m c).be1 4) := by
  rw [v197_eq, asRow_eq, v186_net m ρ c]
/-- Region 18's value at the contents it is entered with: update 4's second pre-activation. -/
private theorem in18 (c : Dev nD) (hI : (inp m c).Real) :
    klin (kbnrelu Cert.Consts.k12 Cert.Consts.eps (V37 m ρ c main_v193) (V37 m ρ c main_v194) (V37 m ρ c main_v192_0) (V37 m ρ c main_v196) (V37 m ρ c main_v197)) (V37 m ρ c main_v188) (V37 m ρ c main_v195)
      = Net.z2S (inp m c) 4 (Net.inS4 (inp m c)) := by
  rw [show V37 m ρ c main_v193 = _ from v193_at37 m ρ c,
    show V37 m ρ c main_v194 = _ from v194_at37 m ρ c,
    show V37 m ρ c main_v192_0 = _ from v192_0_at37 m ρ c,
    show V37 m ρ c main_v196 = _ from v196_at37 m ρ c,
    show V37 m ρ c main_v197 = _ from v197_at37 m ρ c,
    show V37 m ρ c main_v188 = _ from v188_at37 m ρ c,
    show V37 m ρ c main_v195 = _ from v195_at37 m ρ c,
    v193_net m ρ c, v194_net m ρ c, v192_0_net m ρ c, v196_net m ρ c, v197_net m ρ c, v188_net m ρ c, v195_net m ρ c]
  exact z2S_of (inp m c) hI 4 _ (Net.real_inS4 hI)
theorem v198_0_net (c : Dev nD) (hI : (inp m c).Real) : v198_0 (F := Ideal) m ρ c = Net.z2S (inp m c) 4 (Net.inS4 (inp m c)) := by
  show W38 m ρ c (Proc.devRef .tc main_v198_0) = _
  exact (W38_arr m ρ c 7).trans ((Reg.r18_lin (V37 m ρ) c).trans (in18 m ρ c hI))
theorem v198_1_net (c : Dev nD) (hI : (inp m c).Real) : v198_1 (F := Ideal) m ρ c = tilesum 1 4096 rfl (Net.z2S (inp m c) 4 (Net.inS4 (inp m c))) := by
  show W38 m ρ c (Proc.devRef .tc main_v198_1) = _
  exact (W38_arr m ρ c 8).trans ((Reg.r18_psum (V37 m ρ) c).trans
    (congrArg (tilesum (R := 4096) (C := 128) 1 4096 rfl) (in18 m ρ c hI)))
theorem v198_2_net (c : Dev nD) (hI : (inp m c).Real) : v198_2 (F := Ideal) m ρ c = tilesumsq 1 4096 rfl (Net.z2S (inp m c) 4 (Net.inS4 (inp m c))) := by
  show W38 m ρ c (Proc.devRef .tc main_v198_2) = _
  exact (W38_arr m ρ c 9).trans ((Reg.r18_psumsq (V37 m ρ) c).trans
    (congrArg (tilesumsq (R := 4096) (C := 128) 1 4096 rfl) (in18 m ρ c hI)))
theorem v199_net (c : Dev nD) (hI : (inp m c).Real) : v199 (F := Ideal) m ρ c = asRow (colsum (Net.z2S (inp m c) 4 (Net.inS4 (inp m c)))) := by
  rw [v199_eq, tiles1_eq, v198_1_net m ρ c hI, addTiles_tilesum]
theorem v200_net (c : Dev nD) (hI : (inp m c).Real) : v200 (F := Ideal) m ρ c = asRow (colsumsq (Net.z2S (inp m c) 4 (Net.inS4 (inp m c)))) := by
  rw [v200_eq, tiles1_eq, v198_2_net m ρ c hI, addTiles_tilesumsq]
theorem v202_net (c : Dev nD) : v202 (F := Ideal) m ρ c = (inp m c).W1 5 := by
  rw [v202_eq]
  rfl
theorem v213_net (c : Dev nD) : v213 (F := Ideal) m ρ c = asRow ((inp m c).b1 5) := by
  rw [v213_eq]
  exact asRow_eq (KT.KT29_v206 (F := Ideal) (m ((c : Thread nD τ).loc main_arg12)))
theorem v206_net (c : Dev nD) : v206 (F := Ideal) m ρ c = (inp m c).g1 5 := by
  rw [v206_eq]
  rfl
theorem v208_net (c : Dev nD) : v208 (F := Ideal) m ρ c = (inp m c).be1 5 := by
  rw [v208_eq]
  rfl
theorem v210_net (c : Dev nD) : v210 (F := Ideal) m ρ c = (inp m c).W2 5 := by
  rw [v210_eq]
  rfl
theorem v212_net (c : Dev nD) : v212 (F := Ideal) m ρ c = (inp m c).b2 5 := by
  rw [v212_eq]
  rfl
/-- Region 19's value at the contents it is entered with: update 5's first pre-activation. -/
private theorem in19 (c : Dev nD) :
    klin (fun j => V39 m ρ c main_v175 j +ᵉ V39 m ρ c main_v178 j) (V39 m ρ c main_v202) (V39 m ρ c main_v213)
      = Net.z1S (inp m c) 5 (Net.inS5 (inp m c)) := by
  rw [show V39 m ρ c main_v175 = _ from v175_at39 m ρ c,
    show V39 m ρ c main_v178 = _ from v178_at39 m ρ c,
    show V39 m ρ c main_v202 = _ from v202_at39 m ρ c,
    show V39 m ρ c main_v213 = _ from v213_at39 m ρ c,
    v175_net m ρ c, v178_net m ρ c, v202_net m ρ c, v213_net m ρ c]
  exact z1S_of (inp m c) 5 _ _
theorem v214_0_net (c : Dev nD) : v214_0 (F := Ideal) m ρ c = Net.z1S (inp m c) 5 (Net.inS5 (inp m c)) := by
  show W40 m ρ c (Proc.devRef .tc main_v214_0) = _
  exact (W40_arr m ρ c 4).trans ((Reg.r19_lin (V39 m ρ) c).trans (in19 m ρ c))
theorem v214_1_net (c : Dev nD) : v214_1 (F := Ideal) m ρ c = tilesum 1 4096 rfl (Net.z1S (inp m c) 5 (Net.inS5 (inp m c))) := by
  show W40 m ρ c (Proc.devRef .tc main_v214_1) = _
  exact (W40_arr m ρ c 5).trans ((Reg.r19_psum (V39 m ρ) c).trans
    (congrArg (tilesum (R := 4096) (C := 128) 1 4096 rfl) (in19 m ρ c)))
theorem v214_2_net (c : Dev nD) : v214_2 (F := Ideal) m ρ c = tilesumsq 1 4096 rfl (Net.z1S (inp m c) 5 (Net.inS5 (inp m c))) := by
  show W40 m ρ c (Proc.devRef .tc main_v214_2) = _
  exact (W40_arr m ρ c 6).trans ((Reg.r19_psumsq (V39 m ρ) c).trans
    (congrArg (tilesumsq (R := 4096) (C := 128) 1 4096 rfl) (in19 m ρ c)))
theorem v215_net (c : Dev nD) : v215 (F := Ideal) m ρ c = asRow (colsum (Net.z1S (inp m c) 5 (Net.inS5 (inp m c)))) := by
  rw [v215_eq, tiles1_eq, v214_1_net m ρ c, addTiles_tilesum]
theorem v216_net (c : Dev nD) : v216 (F := Ideal) m ρ c = asRow (colsumsq (Net.z1S (inp m c) 5 (Net.inS5 (inp m c)))) := by
  rw [v216_eq, tiles1_eq, v214_2_net m ρ c, addTiles_tilesumsq]
theorem v217_net (c : Dev nD) : v217 (F := Ideal) m ρ c = asRow ((inp m c).b2 5) := by
  rw [v217_eq, asRow_eq, v212_net m ρ c]
theorem v218_net (c : Dev nD) : v218 (F := Ideal) m ρ c = asRow ((inp m c).g1 5) := by
  rw [v218_eq, asRow_eq, v206_net m ρ c]
theorem v219_net (c : Dev nD) : v219 (F := Ideal) m ρ c = asRow ((inp m c).be1 5) := by
  rw [v219_eq, asRow_eq, v208_net m ρ c]
/-- Region 20's value at the contents it is entered with: update 5's second pre-activation. -/
private theorem in20 (c : Dev nD) (hI : (inp m c).Real) :
    klin (kbnrelu Cert.Consts.k12 Cert.Consts.eps (V41 m ρ c main_v215) (V41 m ρ c main_v216) (V41 m ρ c main_v214_0) (V41 m ρ c main_v218) (V41 m ρ c main_v219)) (V41 m ρ c main_v210) (V41 m ρ c main_v217)
      = Net.z2S (inp m c) 5 (Net.inS5 (inp m c)) := by
  rw [show V41 m ρ c main_v215 = _ from v215_at41 m ρ c,
    show V41 m ρ c main_v216 = _ from v216_at41 m ρ c,
    show V41 m ρ c main_v214_0 = _ from v214_0_at41 m ρ c,
    show V41 m ρ c main_v218 = _ from v218_at41 m ρ c,
    show V41 m ρ c main_v219 = _ from v219_at41 m ρ c,
    show V41 m ρ c main_v210 = _ from v210_at41 m ρ c,
    show V41 m ρ c main_v217 = _ from v217_at41 m ρ c,
    v215_net m ρ c, v216_net m ρ c, v214_0_net m ρ c, v218_net m ρ c, v219_net m ρ c, v210_net m ρ c, v217_net m ρ c]
  exact z2S_of (inp m c) hI 5 _ (Net.real_inS5 hI)
theorem v220_0_net (c : Dev nD) (hI : (inp m c).Real) : v220_0 (F := Ideal) m ρ c = Net.z2S (inp m c) 5 (Net.inS5 (inp m c)) := by
  show W42 m ρ c (Proc.devRef .tc main_v220_0) = _
  exact (W42_arr m ρ c 7).trans ((Reg.r20_lin (V41 m ρ) c).trans (in20 m ρ c hI))
theorem v220_1_net (c : Dev nD) (hI : (inp m c).Real) : v220_1 (F := Ideal) m ρ c = tilesum 1 4096 rfl (Net.z2S (inp m c) 5 (Net.inS5 (inp m c))) := by
  show W42 m ρ c (Proc.devRef .tc main_v220_1) = _
  exact (W42_arr m ρ c 8).trans ((Reg.r20_psum (V41 m ρ) c).trans
    (congrArg (tilesum (R := 4096) (C := 128) 1 4096 rfl) (in20 m ρ c hI)))
theorem v220_2_net (c : Dev nD) (hI : (inp m c).Real) : v220_2 (F := Ideal) m ρ c = tilesumsq 1 4096 rfl (Net.z2S (inp m c) 5 (Net.inS5 (inp m c))) := by
  show W42 m ρ c (Proc.devRef .tc main_v220_2) = _
  exact (W42_arr m ρ c 9).trans ((Reg.r20_psumsq (V41 m ρ) c).trans
    (congrArg (tilesumsq (R := 4096) (C := 128) 1 4096 rfl) (in20 m ρ c hI)))
theorem v221_net (c : Dev nD) (hI : (inp m c).Real) : v221 (F := Ideal) m ρ c = asRow (colsum (Net.z2S (inp m c) 5 (Net.inS5 (inp m c)))) := by
  rw [v221_eq, tiles1_eq, v220_1_net m ρ c hI, addTiles_tilesum]
theorem v222_net (c : Dev nD) (hI : (inp m c).Real) : v222 (F := Ideal) m ρ c = asRow (colsumsq (Net.z2S (inp m c) 5 (Net.inS5 (inp m c)))) := by
  rw [v222_eq, tiles1_eq, v220_2_net m ρ c hI, addTiles_tilesumsq]
theorem v224_net (c : Dev nD) : v224 (F := Ideal) m ρ c = (inp m c).W1 6 := by
  rw [v224_eq]
  rfl
theorem v235_net (c : Dev nD) : v235 (F := Ideal) m ρ c = asRow ((inp m c).b1 6) := by
  rw [v235_eq]
  exact asRow_eq (KT.KT32_v228 (F := Ideal) (m ((c : Thread nD τ).loc main_arg12)))
theorem v228_net (c : Dev nD) : v228 (F := Ideal) m ρ c = (inp m c).g1 6 := by
  rw [v228_eq]
  rfl
theorem v230_net (c : Dev nD) : v230 (F := Ideal) m ρ c = (inp m c).be1 6 := by
  rw [v230_eq]
  rfl
theorem v232_net (c : Dev nD) : v232 (F := Ideal) m ρ c = (inp m c).W2 6 := by
  rw [v232_eq]
  rfl
theorem v234_net (c : Dev nD) : v234 (F := Ideal) m ρ c = (inp m c).b2 6 := by
  rw [v234_eq]
  rfl
/-- Region 21's value at the contents it is entered with: update 6's first pre-activation. -/
private theorem in21 (c : Dev nD) :
    klin (fun j => V43 m ρ c main_v177 j +ᵉ V43 m ρ c main_v178 j) (V43 m ρ c main_v224) (V43 m ρ c main_v235)
      = Net.z1S (inp m c) 6 (Net.inS6 (inp m c)) := by
  rw [show V43 m ρ c main_v177 = _ from v177_at43 m ρ c,
    show V43 m ρ c main_v178 = _ from v178_at43 m ρ c,
    show V43 m ρ c main_v224 = _ from v224_at43 m ρ c,
    show V43 m ρ c main_v235 = _ from v235_at43 m ρ c,
    v177_net m ρ c, v178_net m ρ c, v224_net m ρ c, v235_net m ρ c]
  exact z1S_of (inp m c) 6 _ _
theorem v236_0_net (c : Dev nD) : v236_0 (F := Ideal) m ρ c = Net.z1S (inp m c) 6 (Net.inS6 (inp m c)) := by
  show W44 m ρ c (Proc.devRef .tc main_v236_0) = _
  exact (W44_arr m ρ c 4).trans ((Reg.r21_lin (V43 m ρ) c).trans (in21 m ρ c))
theorem v236_1_net (c : Dev nD) : v236_1 (F := Ideal) m ρ c = tilesum 1 4096 rfl (Net.z1S (inp m c) 6 (Net.inS6 (inp m c))) := by
  show W44 m ρ c (Proc.devRef .tc main_v236_1) = _
  exact (W44_arr m ρ c 5).trans ((Reg.r21_psum (V43 m ρ) c).trans
    (congrArg (tilesum (R := 4096) (C := 128) 1 4096 rfl) (in21 m ρ c)))
theorem v236_2_net (c : Dev nD) : v236_2 (F := Ideal) m ρ c = tilesumsq 1 4096 rfl (Net.z1S (inp m c) 6 (Net.inS6 (inp m c))) := by
  show W44 m ρ c (Proc.devRef .tc main_v236_2) = _
  exact (W44_arr m ρ c 6).trans ((Reg.r21_psumsq (V43 m ρ) c).trans
    (congrArg (tilesumsq (R := 4096) (C := 128) 1 4096 rfl) (in21 m ρ c)))
theorem v237_net (c : Dev nD) : v237 (F := Ideal) m ρ c = asRow (colsum (Net.z1S (inp m c) 6 (Net.inS6 (inp m c)))) := by
  rw [v237_eq, tiles1_eq, v236_1_net m ρ c, addTiles_tilesum]
theorem v238_net (c : Dev nD) : v238 (F := Ideal) m ρ c = asRow (colsumsq (Net.z1S (inp m c) 6 (Net.inS6 (inp m c)))) := by
  rw [v238_eq, tiles1_eq, v236_2_net m ρ c, addTiles_tilesumsq]
theorem v239_net (c : Dev nD) : v239 (F := Ideal) m ρ c = asRow ((inp m c).b2 6) := by
  rw [v239_eq, asRow_eq, v234_net m ρ c]
theorem v240_net (c : Dev nD) : v240 (F := Ideal) m ρ c = asRow ((inp m c).g1 6) := by
  rw [v240_eq, asRow_eq, v228_net m ρ c]
theorem v241_net (c : Dev nD) : v241 (F := Ideal) m ρ c = asRow ((inp m c).be1 6) := by
  rw [v241_eq, asRow_eq, v230_net m ρ c]
/-- Region 22's value at the contents it is entered with: update 6's second pre-activation. -/
private theorem in22 (c : Dev nD) (hI : (inp m c).Real) :
    klin (kbnrelu Cert.Consts.k12 Cert.Consts.eps (V45 m ρ c main_v237) (V45 m ρ c main_v238) (V45 m ρ c main_v236_0) (V45 m ρ c main_v240) (V45 m ρ c main_v241)) (V45 m ρ c main_v232) (V45 m ρ c main_v239)
      = Net.z2S (inp m c) 6 (Net.inS6 (inp m c)) := by
  rw [show V45 m ρ c main_v237 = _ from v237_at45 m ρ c,
    show V45 m ρ c main_v238 = _ from v238_at45 m ρ c,
    show V45 m ρ c main_v236_0 = _ from v236_0_at45 m ρ c,
    show V45 m ρ c main_v240 = _ from v240_at45 m ρ c,
    show V45 m ρ c main_v241 = _ from v241_at45 m ρ c,
    show V45 m ρ c main_v232 = _ from v232_at45 m ρ c,
    show V45 m ρ c main_v239 = _ from v239_at45 m ρ c,
    v237_net m ρ c, v238_net m ρ c, v236_0_net m ρ c, v240_net m ρ c, v241_net m ρ c, v232_net m ρ c, v239_net m ρ c]
  exact z2S_of (inp m c) hI 6 _ (Net.real_inS6 hI)
theorem v242_0_net (c : Dev nD) (hI : (inp m c).Real) : v242_0 (F := Ideal) m ρ c = Net.z2S (inp m c) 6 (Net.inS6 (inp m c)) := by
  show W46 m ρ c (Proc.devRef .tc main_v242_0) = _
  exact (W46_arr m ρ c 7).trans ((Reg.r22_lin (V45 m ρ) c).trans (in22 m ρ c hI))
theorem v242_1_net (c : Dev nD) (hI : (inp m c).Real) : v242_1 (F := Ideal) m ρ c = tilesum 1 4096 rfl (Net.z2S (inp m c) 6 (Net.inS6 (inp m c))) := by
  show W46 m ρ c (Proc.devRef .tc main_v242_1) = _
  exact (W46_arr m ρ c 8).trans ((Reg.r22_psum (V45 m ρ) c).trans
    (congrArg (tilesum (R := 4096) (C := 128) 1 4096 rfl) (in22 m ρ c hI)))
theorem v242_2_net (c : Dev nD) (hI : (inp m c).Real) : v242_2 (F := Ideal) m ρ c = tilesumsq 1 4096 rfl (Net.z2S (inp m c) 6 (Net.inS6 (inp m c))) := by
  show W46 m ρ c (Proc.devRef .tc main_v242_2) = _
  exact (W46_arr m ρ c 9).trans ((Reg.r22_psumsq (V45 m ρ) c).trans
    (congrArg (tilesumsq (R := 4096) (C := 128) 1 4096 rfl) (in22 m ρ c hI)))
theorem v243_net (c : Dev nD) (hI : (inp m c).Real) : v243 (F := Ideal) m ρ c = asRow (colsum (Net.z2S (inp m c) 6 (Net.inS6 (inp m c)))) := by
  rw [v243_eq, tiles1_eq, v242_1_net m ρ c hI, addTiles_tilesum]
theorem v244_net (c : Dev nD) (hI : (inp m c).Real) : v244 (F := Ideal) m ρ c = asRow (colsumsq (Net.z2S (inp m c) 6 (Net.inS6 (inp m c)))) := by
  rw [v244_eq, tiles1_eq, v242_2_net m ρ c hI, addTiles_tilesumsq]
theorem v245_net (c : Dev nD) : v245 (F := Ideal) m ρ c = rowsFrom (N := 384) (K := 128) 0 (by omega) (inp m c).sW := by
  rw [v245_eq, rows384_0_eq]
  rfl
theorem v250_net (c : Dev nD) : v250 (F := Ideal) m ρ c = rowsFrom (N := 384) (K := 128) 128 (by omega) (inp m c).sW := by
  rw [v250_eq, rows384_1_eq]
  rfl
theorem v255_net (c : Dev nD) : v255 (F := Ideal) m ρ c = rowsFrom (N := 384) (K := 128) 256 (by omega) (inp m c).sW := by
  rw [v255_eq, rows384_2_eq]
  rfl
theorem v261_net (c : Dev nD) : v261 (F := Ideal) m ρ c = asRow ((inp m c).g2 4) := by
  rw [v261_eq]
  exact asRow_eq (KT.KT25_v184 (F := Ideal) (m ((c : Thread nD τ).loc main_arg17)))
theorem v263_net (c : Dev nD) : v263 (F := Ideal) m ρ c = asRow ((inp m c).g2 5) := by
  rw [v263_eq]
  exact asRow_eq (KT.KT29_v206 (F := Ideal) (m ((c : Thread nD τ).loc main_arg17)))
theorem v265_net (c : Dev nD) : v265 (F := Ideal) m ρ c = asRow ((inp m c).g2 6) := by
  rw [v265_eq]
  exact asRow_eq (KT.KT32_v228 (F := Ideal) (m ((c : Thread nD τ).loc main_arg17)))
theorem v262_net (c : Dev nD) : v262 (F := Ideal) m ρ c = asRow ((inp m c).be2 4) := by
  rw [v262_eq]
  exact asRow_eq (KT.KT25_v184 (F := Ideal) (m ((c : Thread nD τ).loc main_arg18)))
theorem v264_net (c : Dev nD) : v264 (F := Ideal) m ρ c = asRow ((inp m c).be2 5) := by
  rw [v264_eq]
  exact asRow_eq (KT.KT29_v206 (F := Ideal) (m ((c : Thread nD τ).loc main_arg18)))
theorem v266_net (c : Dev nD) : v266 (F := Ideal) m ρ c = asRow ((inp m c).be2 6) := by
  rw [v266_eq]
  exact asRow_eq (KT.KT32_v228 (F := Ideal) (m ((c : Thread nD τ).loc main_arg18)))
theorem v260_net (c : Dev nD) : v260 (F := Ideal) m ρ c = asRow (inp m c).sb := by
  rw [v260_eq, asRow_eq]
  rfl
/-- Region 23's value at the contents it is entered with: the combining layer's pre-activation. -/
private theorem in23 (c : Dev nD) (hI : (inp m c).Real) :
    klin3 (kbnrelu Cert.Consts.k12 Cert.Consts.eps (V47 m ρ c main_v199) (V47 m ρ c main_v200) (V47 m ρ c main_v198_0 : S4096x128.Idx → EReal) (V47 m ρ c main_v261) (V47 m ρ c main_v262)) (V47 m ρ c main_v245)
        (kbnrelu Cert.Consts.k12 Cert.Consts.eps (V47 m ρ c main_v221) (V47 m ρ c main_v222) (V47 m ρ c main_v220_0 : S4096x128.Idx → EReal) (V47 m ρ c main_v263) (V47 m ρ c main_v264)) (V47 m ρ c main_v250)
        (kbnrelu Cert.Consts.k12 Cert.Consts.eps (V47 m ρ c main_v243) (V47 m ρ c main_v244) (V47 m ρ c main_v242_0 : S4096x128.Idx → EReal) (V47 m ρ c main_v265) (V47 m ρ c main_v266)) (V47 m ρ c main_v255) (V47 m ρ c main_v260)
      = Net.zcS (inp m c) := by
  rw [show V47 m ρ c main_v199 = _ from v199_at47 m ρ c,
    show V47 m ρ c main_v200 = _ from v200_at47 m ρ c,
    show V47 m ρ c main_v198_0 = _ from v198_0_at47 m ρ c,
    show V47 m ρ c main_v261 = _ from v261_at47 m ρ c,
    show V47 m ρ c main_v262 = _ from v262_at47 m ρ c,
    show V47 m ρ c main_v245 = _ from v245_at47 m ρ c,
    show V47 m ρ c main_v221 = _ from v221_at47 m ρ c,
    show V47 m ρ c main_v222 = _ from v222_at47 m ρ c,
    show V47 m ρ c main_v220_0 = _ from v220_0_at47 m ρ c,
    show V47 m ρ c main_v263 = _ from v263_at47 m ρ c,
    show V47 m ρ c main_v264 = _ from v264_at47 m ρ c,
    show V47 m ρ c main_v250 = _ from v250_at47 m ρ c,
    show V47 m ρ c main_v243 = _ from v243_at47 m ρ c,
    show V47 m ρ c main_v244 = _ from v244_at47 m ρ c,
    show V47 m ρ c main_v242_0 = _ from v242_0_at47 m ρ c,
    show V47 m ρ c main_v265 = _ from v265_at47 m ρ c,
    show V47 m ρ c main_v266 = _ from v266_at47 m ρ c,
    show V47 m ρ c main_v255 = _ from v255_at47 m ρ c,
    show V47 m ρ c main_v260 = _ from v260_at47 m ρ c,
    v199_net m ρ c hI, v200_net m ρ c hI, v198_0_net m ρ c hI, v261_net m ρ c, v262_net m ρ c, v245_net m ρ c, v221_net m ρ c hI, v222_net m ρ c hI, v220_0_net m ρ c hI, v263_net m ρ c, v264_net m ρ c, v250_net m ρ c, v243_net m ρ c hI, v244_net m ρ c hI, v242_0_net m ρ c hI, v265_net m ρ c, v266_net m ρ c, v255_net m ρ c, v260_net m ρ c]
  rw [uS_of (inp m c) hI 4 _ (Net.real_inS4 hI), uS_of (inp m c) hI 5 _ (Net.real_inS5 hI), uS_of (inp m c) hI 6 _ (Net.real_inS6 hI)]
  exact zcS_of (inp m c)
theorem v267_0_net (c : Dev nD) (hI : (inp m c).Real) : v267_0 (F := Ideal) m ρ c = Net.zcS (inp m c) := by
  show W48 m ρ c (Proc.devRef .tc main_v267_0) = _
  exact (W48_arr m ρ c 19).trans ((Reg.r23_lin (V47 m ρ) c).trans (in23 m ρ c hI))
theorem v267_1_net (c : Dev nD) (hI : (inp m c).Real) : v267_1 (F := Ideal) m ρ c = tilesum 1 4096 rfl (Net.zcS (inp m c)) := by
  show W48 m ρ c (Proc.devRef .tc main_v267_1) = _
  exact (W48_arr m ρ c 20).trans ((Reg.r23_psum (V47 m ρ) c).trans
    (congrArg (tilesum (R := 4096) (C := 128) 1 4096 rfl) (in23 m ρ c hI)))
theorem v267_2_net (c : Dev nD) (hI : (inp m c).Real) : v267_2 (F := Ideal) m ρ c = tilesumsq 1 4096 rfl (Net.zcS (inp m c)) := by
  show W48 m ρ c (Proc.devRef .tc main_v267_2) = _
  exact (W48_arr m ρ c 21).trans ((Reg.r23_psumsq (V47 m ρ) c).trans
    (congrArg (tilesumsq (R := 4096) (C := 128) 1 4096 rfl) (in23 m ρ c hI)))
theorem v268_net (c : Dev nD) (hI : (inp m c).Real) : v268 (F := Ideal) m ρ c = asRow (colsum (Net.zcS (inp m c))) := by
  rw [v268_eq, tiles1_eq, v267_1_net m ρ c hI, addTiles_tilesum]
theorem v269_net (c : Dev nD) (hI : (inp m c).Real) : v269 (F := Ideal) m ρ c = asRow (colsumsq (Net.zcS (inp m c))) := by
  rw [v269_eq, tiles1_eq, v267_2_net m ρ c hI, addTiles_tilesumsq]
theorem v270_net (c : Dev nD) : v270 (F := Ideal) m ρ c = asRow (inp m c).sg := by
  rw [v270_eq, asRow_eq]
  rfl
theorem v271_net (c : Dev nD) : v271 (F := Ideal) m ρ c = asRow (inp m c).sbe := by
  rw [v271_eq, asRow_eq]
  rfl
/-- Region 24's value at the contents it is entered with: the closing normalisation. -/
private theorem in24 (c : Dev nD) (hI : (inp m c).Real) :
    kbnrelu Cert.Consts.k12 Cert.Consts.eps (V49 m ρ c main_v268 : S1x128.Idx → EReal) (V49 m ρ c main_v269 : S1x128.Idx → EReal) (V49 m ρ c main_v267_0 : S4096x128.Idx → EReal) (V49 m ρ c main_v270 : S1x128.Idx → EReal) (V49 m ρ c main_v271 : S1x128.Idx → EReal)
      = Net.sFlat (inp m c) := by
  rw [show V49 m ρ c main_v268 = _ from v268_at49 m ρ c,
    show V49 m ρ c main_v269 = _ from v269_at49 m ρ c,
    show V49 m ρ c main_v267_0 = _ from v267_0_at49 m ρ c,
    show V49 m ρ c main_v270 = _ from v270_at49 m ρ c,
    show V49 m ρ c main_v271 = _ from v271_at49 m ρ c,
    v268_net m ρ c hI, v269_net m ρ c hI, v267_0_net m ρ c hI, v270_net m ρ c, v271_net m ρ c]
  exact sFlat_of (inp m c) hI
theorem v272_net (c : Dev nD) (hI : (inp m c).Real) : v272 (F := Ideal) m ρ c = Net.sFlat (inp m c) := by
  show W50 m ρ c (Proc.devRef .tc main_v272) = _
  exact (W50_arr m ρ c 5).trans ((Reg.r24_bn (V49 m ρ) c).trans (in24 m ρ c hI))
theorem v273_net (c : Dev nD) (hI : (inp m c).Real) : v273 (F := Ideal) m ρ c = Net.sOut (inp m c) := by
  rw [v273_eq, unflat4096_eq, v272_net m ρ c hI]
  rfl

end Cert.KernelIdeal.KChain

end
-- ==== Proof.PreReal.lean ====
/-
  The precondition says that every float argument holds finite numbers: for each float array x, the conjunction over
  all its entries of |x| < +∞ is true. Read back entry by entry on the extended reals, |x| < +∞ says that x is neither
  +∞ nor −∞, that is, a real number.
-/
import proofs.«427658_j89163521065156_2_alg».proof.Pre_finite_inputs
import proofs.«427658_j89163521065156_2_alg».proof.Proof.Gen.Pre_finite_inputs
import proofs.«427658_j89163521065156_2_alg».proof.Proof.Spec
import Idealize.ShloMosaic.Lib.ReduceAll

noncomputable section

open Idealize.ShloMosaic Idealize.ShloMosaic.ValueIdx
open Cert.Pre_finite_inputs Cert.Pre_finite_inputs.Gen Cert.Spec

namespace Cert.PreReal

/-- The word 0x7F800000 read as a float is +∞. -/
private theorem inf_word : Ideal.ofBits .f32 0x7F800000#32 = (⊤ : EReal) := by
  simp [Ideal.ofBits, Ideal.ieee]

/-- An extended real whose absolute value max(x, −x) is below +∞ is a real number. -/
private theorem real_of_abs_lt_top (x : EReal) (h : max x (-x) < ⊤) : x ≠ ⊤ ∧ x ≠ ⊥ := by
  constructor
  · rintro rfl
    simp at h
  · rintro rfl
    simp at h

/-- One conjunct of the precondition, read back: if the conjunction over all entries of |x| < +∞ is true, every entry
    of x is a real number. -/
private theorem allReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant S_ .f32 0x7F800000#32)))
        (constantI S_ 1 1#1) hr hu ix0 = 1#1) :
    AllReal x := by
  -- the scalar shape has one index
  haveI : Subsingleton S_.Idx := ⟨fun a b => funext fun d => d.elim0⟩
  intro i
  have hi := Host.reduce_andi_all _ _ hr hu ix0 e i
  have hlt : max (x i) (-(x i)) < (⊤ : EReal) := by
    have h2 : Ideal.cmp .olt (max (x i) (-(x i))) (Ideal.ofBits .f32 0x7F800000#32) = 1#1 := hi
    rw [inf_word] at h2
    by_contra hn
    simp [Ideal.cmp, hn] at h2
  exact real_of_abs_lt_top _ hlt

/-- A conjunction of two truth values at the one index is true exactly when both are. -/
private theorem and_at {c d : IVec S_ 1} (h : andi c d ix0 = 1#1) : c ix0 = 1#1 ∧ d ix0 = 1#1 :=
  IntOp.andi_eq_one.1 h

/-- Under the precondition every float argument has real entries (argument 2, the integer edge list, is not constrained). -/
theorem allReal_of_pre (a0 : FVec Ideal S16384x128 .f32) (a1 : FVec Ideal S262144x128 .f32) (a2 : IVec S2x262144 32)
    (a3 : FVec Ideal S64x64x128 .f32) (a4 : FVec Ideal S64x8x128 .f32) (a5 : FVec Ideal S64x64x64 .f32)
    (a6 : FVec Ideal S64x256x64 .f32) (a7 : FVec Ideal S64x64x8 .f32) (a8 : FVec Ideal S64x64x256 .f32)
    (a9 : FVec Ideal S256x128 .f32) (a10 : FVec Ideal S128 .f32) (a11 : FVec Ideal S7x128x128 .f32)
    (a12 a13 a14 : FVec Ideal S7x128 .f32) (a15 : FVec Ideal S7x128x128 .f32) (a16 a17 a18 : FVec Ideal S7x128 .f32)
    (a19 : FVec Ideal S256x128 .f32) (a20 a21 a22 : FVec Ideal S128 .f32) (a23 : FVec Ideal S256x128 .f32)
    (a24 a25 a26 : FVec Ideal S128 .f32) (a27 : FVec Ideal S384x128 .f32) (a28 a29 a30 : FVec Ideal S128 .f32)
    (h : fn (F := Ideal) a0 a1 a2 a3 a4 a5 a6 a7 a8 a9 a10 a11 a12 a13 a14 a15 a16 a17 a18 a19 a20 a21 a22 a23 a24 a25 a26 a27 a28 a29 a30
          = (fun _ => 1#1)) :
    AllReal a0 ∧ AllReal a1 ∧ AllReal a3 ∧ AllReal a4 ∧ AllReal a5 ∧ AllReal a6 ∧ AllReal a7 ∧ AllReal a8 ∧ AllReal a9
      ∧ AllReal a10 ∧ AllReal a11 ∧ AllReal a12 ∧ AllReal a13 ∧ AllReal a14 ∧ AllReal a15 ∧ AllReal a16 ∧ AllReal a17
      ∧ AllReal a18 ∧ AllReal a19 ∧ AllReal a20 ∧ AllReal a21 ∧ AllReal a22 ∧ AllReal a23 ∧ AllReal a24 ∧ AllReal a25
      ∧ AllReal a26 ∧ AllReal a27 ∧ AllReal a28 ∧ AllReal a29 ∧ AllReal a30 := by
  -- the precondition at the one index of its scalar result
  have h0 := congrFun h ix0
  -- written out, it is a conjunction of thirty truth values, one for each float argument, nested to the left
  dsimp only [fn, fn_part1, fn_part2, fn_part3, fn_part4, fn_part5, fn_part6, fn_part7, fn_part8] at h0
  obtain ⟨h0, e29⟩ := and_at h0
  obtain ⟨h0, e28⟩ := and_at h0
  obtain ⟨h0, e27⟩ := and_at h0
  obtain ⟨h0, e26⟩ := and_at h0
  obtain ⟨h0, e25⟩ := and_at h0
  obtain ⟨h0, e24⟩ := and_at h0
  obtain ⟨h0, e23⟩ := and_at h0
  obtain ⟨h0, e22⟩ := and_at h0
  obtain ⟨h0, e21⟩ := and_at h0
  obtain ⟨h0, e20⟩ := and_at h0
  obtain ⟨h0, e19⟩ := and_at h0
  obtain ⟨h0, e18⟩ := and_at h0
  obtain ⟨h0, e17⟩ := and_at h0
  obtain ⟨h0, e16⟩ := and_at h0
  obtain ⟨h0, e15⟩ := and_at h0
  obtain ⟨h0, e14⟩ := and_at h0
  obtain ⟨h0, e13⟩ := and_at h0
  obtain ⟨h0, e12⟩ := and_at h0
  obtain ⟨h0, e11⟩ := and_at h0
  obtain ⟨h0, e10⟩ := and_at h0
  obtain ⟨h0, e9⟩ := and_at h0
  obtain ⟨h0, e8⟩ := and_at h0
  obtain ⟨h0, e7⟩ := and_at h0
  obtain ⟨h0, e6⟩ := and_at h0
  obtain ⟨h0, e5⟩ := and_at h0
  obtain ⟨h0, e4⟩ := and_at h0
  obtain ⟨h0, e3⟩ := and_at h0
  obtain ⟨h0, e2⟩ := and_at h0
  obtain ⟨h0, e1⟩ := and_at h0
  exact ⟨allReal_of_all a0 _ _ _ h0,
    allReal_of_all a1 _ _ _ e1,
    allReal_of_all a3 _ _ _ e2,
    allReal_of_all a4 _ _ _ e3,
    allReal_of_all a5 _ _ _ e4,
    allReal_of_all a6 _ _ _ e5,
    allReal_of_all a7 _ _ _ e6,
    allReal_of_all a8 _ _ _ e7,
    allReal_of_all a9 _ _ _ e8,
    allReal_of_all a10 _ _ _ e9,
    allReal_of_all a11 _ _ _ e10,
    allReal_of_all a12 _ _ _ e11,
    allReal_of_all a13 _ _ _ e12,
    allReal_of_all a14 _ _ _ e13,
    allReal_of_all a15 _ _ _ e14,
    allReal_of_all a16 _ _ _ e15,
    allReal_of_all a17 _ _ _ e16,
    allReal_of_all a18 _ _ _ e17,
    allReal_of_all a19 _ _ _ e18,
    allReal_of_all a20 _ _ _ e19,
    allReal_of_all a21 _ _ _ e20,
    allReal_of_all a22 _ _ _ e21,
    allReal_of_all a23 _ _ _ e22,
    allReal_of_all a24 _ _ _ e23,
    allReal_of_all a25 _ _ _ e24,
    allReal_of_all a26 _ _ _ e25,
    allReal_of_all a27 _ _ _ e26,
    allReal_of_all a28 _ _ _ e27,
    allReal_of_all a29 _ _ _ e28,
    allReal_of_all a30 _ _ _ e29⟩

end Cert.PreReal

end
-- ==== Proof.KInpReal.lean ====
/-
  Under the precondition the layer's inputs, as the kernel program reads them, are real: every float argument holds finite
  numbers, a slice or a reshape of an array only re-reads its entries, and the host's row gathers and scatter-add keep reals real.
-/
import proofs.«427658_j89163521065156_2_alg».proof.Defs
import proofs.«427658_j89163521065156_2_alg».proof.Proof.Gen.Pre_finite_inputs
import proofs.«427658_j89163521065156_2_alg».proof.Proof.KInp
import proofs.«427658_j89163521065156_2_alg».proof.Proof.PreReal
import proofs.«427658_j89163521065156_2_alg».proof.Proof.SpecNetReal

set_option maxRecDepth 8192

noncomputable section

open Idealize.ShloMosaic Idealize.ShloMosaic.ValueIdx Idealize.ShloMosaic.TcCoe Idealize.SL.Sem
open Cert.KernelIdeal Cert.KernelIdeal.Gen Cert.KernelIdeal.KLaw Cert.Spec

namespace Cert.KernelIdeal.KChain

/-- A row gather re-reads entries of its matrix, so real entries stay real. -/
theorem allReal_gatherRows (idx : IVec S262144 32) {a : Mat 16384 128} (ha : AllReal a) : AllReal (gatherRows idx a) := by
  intro j
  unfold gatherRows Host.gather
  exact ha _
/-- The scatter-add onto zeros sums real entries, so its result is real. -/
theorem allReal_scatterRows (idx : IVec S262144 32) {u : Mat 262144 128} (hu : AllReal u) : AllReal (scatterRows idx u) := by
  intro i
  unfold scatterRows Host.scatterAdd
  rw [Ideal.hostScatterAdd_def]
  unfold Ideal.hostScatterAdd
  rw [broadcastInDim_apply ![] bcast_S_S16384x128 _ i ix0 (fun a => a.elim0), constant_apply, Cert.Consts.ofBits_zero, zero_add]
  exact real_sum _ _ (fun j _ => hu j)

/-- Under the precondition the kernel program's inputs are real. -/
theorem inp_real (m : (ℓ : Loc nD τ sig) → Buf (Elt Ideal) ℓ) (hpre : Cert.Pre_KernelIdeal m) (c : Dev nD) : (inp m c).Real := by
  obtain ⟨r0, r1, r3, r4, r5, r6, r7, r8, r9, r10, r11, r12, r13, r14, r15, r16, r17, r18, r19, r20, r21, r22, r23, r24, r25,
      r26, r27, r28, r29, r30⟩ :=
    Cert.PreReal.allReal_of_pre _ _ _ _ _ _ _ _ _ _ _ _ _ _ _ _ _ _ _ _ _ _ _ _ _ _ _ _ _ _ _ (hpre c)
  exact {
    x := r0, e := r1, attr1 := r3, attr2 := r4, adj1 := r5, nc1 := r6, nc2 := r7, cn1 := r8, msgW := r9, msgb := r10
    W1 := fun i => by fin_cases i <;> exact fun j => r11 _
    b1 := fun i => by fin_cases i <;> exact fun j => r12 _
    g1 := fun i => by fin_cases i <;> exact fun j => r13 _
    be1 := fun i => by fin_cases i <;> exact fun j => r14 _
    W2 := fun i => by fin_cases i <;> exact fun j => r15 _
    b2 := fun i => by fin_cases i <;> exact fun j => r16 _
    g2 := fun i => by fin_cases i <;> exact fun j => r17 _
    be2 := fun i => by fin_cases i <;> exact fun j => r18 _
    nW := r19, nb := r20, ng := r21, nbe := r22, eW := r23, eb := r24, eg := r25, ebe := r26
    sW := r27, sb := r28, sg := r29, sbe := r30
    gatS := fun a ha => allReal_gatherRows _ ha
    gatD := fun a ha => allReal_gatherRows _ ha
    scaD := fun a ha => allReal_scatterRows _ ha }

end Cert.KernelIdeal.KChain

end
-- ==== Proof.RTerms.lean ====
/- The terms the reference's stretches compute. -/
import proofs.«427658_j89163521065156_2_alg».proof.Proof.Gen.ReferenceIdeal

noncomputable section

namespace Cert.ReferenceIdeal.RT

open Cert.ReferenceIdeal Cert.ReferenceIdeal.Gen Idealize.ShloMosaic Idealize.SL.Sem

def T_c0_v1 {F : FTy → Type} [FloatOps F] (x0 : IVec S262144 32) : IVec S262144 32 :=
  x0

def T_c0_v5 {F : FTy → Type} [FloatOps F] (x0 : FVec F S64x256x64 .f32) (x1 : FVec F S64x64x128 .f32) : FVec F S16384x128 .f32 :=
  (shapeCast S16384x128 (((fun l r => Host.dotGeneral dot_S64x256x64_S64x64x128_S64x256x128_2_1_1_2_0_0 none l r) : (⟨S64x256x64, .f32⟩ : BufTy).Contents (Elt F) → (⟨S64x64x128, .f32⟩ : BufTy).Contents (Elt F) → (⟨S64x256x128, .f32⟩ : BufTy).Contents (Elt F)) x0 x1) shapeCasts_S64x256x128_S16384x128)

def T_c0_v17 {F : FTy → Type} [FloatOps F] (x0 : FVec F S16384x128 .f32) (x1 : IVec S262144 32) (x2 : FVec F S262144x128 .f32) (x3 : FVec F S256x128 .f32) (x4 : FVec F S128 .f32) : FVec F S262144x128 .f32 :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)) (((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)) (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) x0 ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) x1 ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) x1 ((broadcastInDim S262144 ![] bcast_S_S262144 : (⟨S_, .i32⟩ : BufTy).Contents (Elt F) → (⟨S262144, .i32⟩ : BufTy).Contents (Elt F)) (constantI S_ 32 16384#32))) x1))) x2) x3) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x4)))

def T_c1 {F : FTy → Type} [FloatOps F] (x0 : FVec F S262144x128 .f32) : FVec F S262144x128 .f32 :=
  (maximumf x0 ((broadcastInDim S262144x128 ![] bcast_S_S262144x128) (constant (F := F) S_ .f32 0x00000000#32)))

def T_c2 {F : FTy → Type} [FloatOps F] (x0 : IVec S262144 32) (x1 : FVec F S262144x128 .f32) (x2 : FVec F S16384x128 .f32) (x3 : FVec F S128x128 .f32) (x4 : FVec F S128 .f32) : FVec F S16384x128 .f32 :=
  ((addf : (⟨S16384x128, .f32⟩ : BufTy).Contents (Elt F) → (⟨S16384x128, .f32⟩ : BufTy).Contents (Elt F) → (⟨S16384x128, .f32⟩ : BufTy).Contents (Elt F)) (((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)) ((addf : (⟨S16384x128, .f32⟩ : BufTy).Contents (Elt F) → (⟨S16384x128, .f32⟩ : BufTy).Contents (Elt F) → (⟨S16384x128, .f32⟩ : BufTy).Contents (Elt F)) (((fun x i u => Host.scatterAdd scatter_S16384x128_S262144x1_S262144x128_1_0_0_1 x i u) : (⟨S16384x128, .f32⟩ : BufTy).Contents (Elt F) → (⟨S262144x1, .i32⟩ : BufTy).Contents (Elt F) → (⟨S262144x128, .f32⟩ : BufTy).Contents (Elt F) → (⟨S16384x128, .f32⟩ : BufTy).Contents (Elt F)) ((broadcastInDim S16384x128 ![] bcast_S_S16384x128 : (⟨S_, .f32⟩ : BufTy).Contents (Elt F) → (⟨S16384x128, .f32⟩ : BufTy).Contents (Elt F)) (constant (F := F) S_ .f32 0x00000000#32)) ((broadcastInDim S262144x1 ![0] bcast_S262144_S262144x1_0 : (⟨S262144, .i32⟩ : BufTy).Contents (Elt F) → (⟨S262144x1, .i32⟩ : BufTy).Contents (Elt F)) x0) x1) x2) x3) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) x4)))

def T_c3 {F : FTy → Type} [FloatOps F] (x0 : FVec F S16384x128 .f32) (x1 : FVec F S128 .f32) (x2 : FVec F S128 .f32) : FVec F S16384x128 .f32 :=
  (maximumf ((addf : (⟨S16384x128, .f32⟩ : BufTy).Contents (Elt F) → (⟨S16384x128, .f32⟩ : BufTy).Contents (Elt F) → (⟨S16384x128, .f32⟩ : BufTy).Contents (Elt F)) ((mulf : (⟨S16384x128, .f32⟩ : BufTy).Contents (Elt F) → (⟨S16384x128, .f32⟩ : BufTy).Contents (Elt F) → (⟨S16384x128, .f32⟩ : BufTy).Contents (Elt F)) ((mulf : (⟨S16384x128, .f32⟩ : BufTy).Contents (Elt F) → (⟨S16384x128, .f32⟩ : BufTy).Contents (Elt F) → (⟨S16384x128, .f32⟩ : BufTy).Contents (Elt F)) ((subf : (⟨S16384x128, .f32⟩ : BufTy).Contents (Elt F) → (⟨S16384x128, .f32⟩ : BufTy).Contents (Elt F) → (⟨S16384x128, .f32⟩ : BufTy).Contents (Elt F)) x0 ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x46800000#32)))))) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)) ((mulf : (⟨S16384x128, .f32⟩ : BufTy).Contents (Elt F) → (⟨S16384x128, .f32⟩ : BufTy).Contents (Elt F) → (⟨S16384x128, .f32⟩ : BufTy).Contents (Elt F)) ((subf : (⟨S16384x128, .f32⟩ : BufTy).Contents (Elt F) → (⟨S16384x128, .f32⟩ : BufTy).Contents (Elt F) → (⟨S16384x128, .f32⟩ : BufTy).Contents (Elt F)) x0 ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x46800000#32)))))) ((subf : (⟨S16384x128, .f32⟩ : BufTy).Contents (Elt F) → (⟨S16384x128, .f32⟩ : BufTy).Contents (Elt F) → (⟨S16384x128, .f32⟩ : BufTy).Contents (Elt F)) x0 ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x46800000#32))))))) (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x46800000#32))) ((broadcastInDim S128 ![] bcast_S_S128 : (⟨S_, .f32⟩ : BufTy).Contents (Elt F) → (⟨S128, .f32⟩ : BufTy).Contents (Elt F)) (constant (F := F) S_ .f32 0x3727C5AC#32))))))) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) x1))) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) x2))) ((broadcastInDim S16384x128 ![] bcast_S_S16384x128) (constant (F := F) S_ .f32 0x00000000#32)))

def T_c4 {F : FTy → Type} [FloatOps F] (x0 : FVec F S16384x128 .f32) (x1 : FVec F S128x128 .f32) (x2 : FVec F S128 .f32) : FVec F S16384x128 .f32 :=
  ((addf : (⟨S16384x128, .f32⟩ : BufTy).Contents (Elt F) → (⟨S16384x128, .f32⟩ : BufTy).Contents (Elt F) → (⟨S16384x128, .f32⟩ : BufTy).Contents (Elt F)) (((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)) x0 x1) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) x2)))

def T_c6 {F : FTy → Type} [FloatOps F] (x0 : FVec F S16384x128 .f32) (x1 : FVec F S16384x128 .f32) (x2 : FVec F S128x128 .f32) (x3 : FVec F S128 .f32) : FVec F S16384x128 .f32 :=
  ((addf : (⟨S16384x128, .f32⟩ : BufTy).Contents (Elt F) → (⟨S16384x128, .f32⟩ : BufTy).Contents (Elt F) → (⟨S16384x128, .f32⟩ : BufTy).Contents (Elt F)) (((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)) ((addf : (⟨S16384x128, .f32⟩ : BufTy).Contents (Elt F) → (⟨S16384x128, .f32⟩ : BufTy).Contents (Elt F) → (⟨S16384x128, .f32⟩ : BufTy).Contents (Elt F)) x0 x1) x2) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) x3)))

def T_c10 {F : FTy → Type} [FloatOps F] (x0 : FVec F S16384x128 .f32) (x1 : FVec F S16384x128 .f32) (x2 : FVec F S256x128 .f32) (x3 : FVec F S128 .f32) : FVec F S16384x128 .f32 :=
  ((addf : (⟨S16384x128, .f32⟩ : BufTy).Contents (Elt F) → (⟨S16384x128, .f32⟩ : BufTy).Contents (Elt F) → (⟨S16384x128, .f32⟩ : BufTy).Contents (Elt F)) (((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)) (((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) x0 x1) x2) ((broadcastInDim S16384x128 ![0, 1] bcast_S1x128_S16384x128_0_1 : (⟨S1x128, .f32⟩ : BufTy).Contents (Elt F) → (⟨S16384x128, .f32⟩ : BufTy).Contents (Elt F)) ((broadcastInDim S1x128 ![1] bcast_S128_S1x128_1 : (⟨S128, .f32⟩ : BufTy).Contents (Elt F) → (⟨S1x128, .f32⟩ : BufTy).Contents (Elt F)) x3)))

def T_c12_v236 {F : FTy → Type} [FloatOps F] (x0 : FVec F S16384x128 .f32) (x1 : IVec S262144 32) (x2 : IVec S262144 32) : FVec F S262144x128 .f32 :=
  ((addf : (⟨S262144x128, .f32⟩ : BufTy).Contents (Elt F) → (⟨S262144x128, .f32⟩ : BufTy).Contents (Elt F) → (⟨S262144x128, .f32⟩ : BufTy).Contents (Elt F)) (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) x0 ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) x1 ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) x1 ((broadcastInDim S262144 ![] bcast_S_S262144 : (⟨S_, .i32⟩ : BufTy).Contents (Elt F) → (⟨S262144, .i32⟩ : BufTy).Contents (Elt F)) (constantI S_ 32 16384#32))) x1))) (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) x0 ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) x2 ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) x2 ((broadcastInDim S262144 ![] bcast_S_S262144 : (⟨S_, .i32⟩ : BufTy).Contents (Elt F) → (⟨S262144, .i32⟩ : BufTy).Contents (Elt F)) (constantI S_ 32 16384#32))) x2))))

def T_c12_v245 {F : FTy → Type} [FloatOps F] (x0 : FVec F S16384x128 .f32) (x1 : IVec S262144 32) (x2 : IVec S262144 32) (x3 : FVec F S262144x128 .f32) (x4 : FVec F S128x128 .f32) (x5 : FVec F S128 .f32) : FVec F S262144x128 .f32 :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)) ((addf : (⟨S262144x128, .f32⟩ : BufTy).Contents (Elt F) → (⟨S262144x128, .f32⟩ : BufTy).Contents (Elt F) → (⟨S262144x128, .f32⟩ : BufTy).Contents (Elt F)) ((addf : (⟨S262144x128, .f32⟩ : BufTy).Contents (Elt F) → (⟨S262144x128, .f32⟩ : BufTy).Contents (Elt F) → (⟨S262144x128, .f32⟩ : BufTy).Contents (Elt F)) (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) x0 ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) x1 ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) x1 ((broadcastInDim S262144 ![] bcast_S_S262144 : (⟨S_, .i32⟩ : BufTy).Contents (Elt F) → (⟨S262144, .i32⟩ : BufTy).Contents (Elt F)) (constantI S_ 32 16384#32))) x1))) (((fun x i => Host.gather gather_S16384x128_S262144x1_S262144x128_1_0_n_n_0_1_1128 x i) : (⟨S16384x128, .f32⟩ : BufTy).Contents (Elt F) → (⟨S262144x1, .i32⟩ : BufTy).Contents (Elt F) → (⟨S262144x128, .f32⟩ : BufTy).Contents (Elt F)) x0 ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) x2 ((broadcastInDim S262144 ![] bcast_S_S262144 : (⟨S_, .i32⟩ : BufTy).Contents (Elt F) → (⟨S262144, .i32⟩ : BufTy).Contents (Elt F)) (constantI S_ 32 0#32))) ((addi : (⟨S262144, .i32⟩ : BufTy).Contents (Elt F) → (⟨S262144, .i32⟩ : BufTy).Contents (Elt F) → (⟨S262144, .i32⟩ : BufTy).Contents (Elt F)) x2 ((broadcastInDim S262144 ![] bcast_S_S262144 : (⟨S_, .i32⟩ : BufTy).Contents (Elt F) → (⟨S262144, .i32⟩ : BufTy).Contents (Elt F)) (constantI S_ 32 16384#32))) x2)))) x3) x4) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x5)))

def T_c13 {F : FTy → Type} [FloatOps F] (x0 : FVec F S262144x128 .f32) (x1 : FVec F S128 .f32) (x2 : FVec F S128 .f32) : FVec F S262144x128 .f32 :=
  (maximumf ((addf : (⟨S262144x128, .f32⟩ : BufTy).Contents (Elt F) → (⟨S262144x128, .f32⟩ : BufTy).Contents (Elt F) → (⟨S262144x128, .f32⟩ : BufTy).Contents (Elt F)) ((mulf : (⟨S262144x128, .f32⟩ : BufTy).Contents (Elt F) → (⟨S262144x128, .f32⟩ : BufTy).Contents (Elt F) → (⟨S262144x128, .f32⟩ : BufTy).Contents (Elt F)) ((mulf : (⟨S262144x128, .f32⟩ : BufTy).Contents (Elt F) → (⟨S262144x128, .f32⟩ : BufTy).Contents (Elt F) → (⟨S262144x128, .f32⟩ : BufTy).Contents (Elt F)) ((subf : (⟨S262144x128, .f32⟩ : BufTy).Contents (Elt F) → (⟨S262144x128, .f32⟩ : BufTy).Contents (Elt F) → (⟨S262144x128, .f32⟩ : BufTy).Contents (Elt F)) x0 ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x48800000#32)))))) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)) ((mulf : (⟨S262144x128, .f32⟩ : BufTy).Contents (Elt F) → (⟨S262144x128, .f32⟩ : BufTy).Contents (Elt F) → (⟨S262144x128, .f32⟩ : BufTy).Contents (Elt F)) ((subf : (⟨S262144x128, .f32⟩ : BufTy).Contents (Elt F) → (⟨S262144x128, .f32⟩ : BufTy).Contents (Elt F) → (⟨S262144x128, .f32⟩ : BufTy).Contents (Elt F)) x0 ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x48800000#32)))))) ((subf : (⟨S262144x128, .f32⟩ : BufTy).Contents (Elt F) → (⟨S262144x128, .f32⟩ : BufTy).Contents (Elt F) → (⟨S262144x128, .f32⟩ : BufTy).Contents (Elt F)) x0 ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x48800000#32))))))) (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x48800000#32))) ((broadcastInDim S128 ![] bcast_S_S128 : (⟨S_, .f32⟩ : BufTy).Contents (Elt F) → (⟨S128, .f32⟩ : BufTy).Contents (Elt F)) (constant (F := F) S_ .f32 0x3727C5AC#32))))))) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x1))) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x2))) ((broadcastInDim S262144x128 ![] bcast_S_S262144x128) (constant (F := F) S_ .f32 0x00000000#32)))

def T_c14 {F : FTy → Type} [FloatOps F] (x0 : FVec F S262144x128 .f32) (x1 : FVec F S128x128 .f32) (x2 : FVec F S128 .f32) : FVec F S262144x128 .f32 :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)) x0 x1) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x2)))

def T_c16 {F : FTy → Type} [FloatOps F] (x0 : FVec F S262144x128 .f32) (x1 : FVec F S262144x128 .f32) (x2 : FVec F S128x128 .f32) (x3 : FVec F S128 .f32) : FVec F S262144x128 .f32 :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)) ((addf : (⟨S262144x128, .f32⟩ : BufTy).Contents (Elt F) → (⟨S262144x128, .f32⟩ : BufTy).Contents (Elt F) → (⟨S262144x128, .f32⟩ : BufTy).Contents (Elt F)) x0 x1) x2) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x3)))

def T_c20 {F : FTy → Type} [FloatOps F] (x0 : FVec F S262144x128 .f32) (x1 : FVec F S262144x128 .f32) (x2 : FVec F S256x128 .f32) (x3 : FVec F S128 .f32) : FVec F S262144x128 .f32 :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)) (((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)) x0 x1) x2) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) x3)))

def T_c22_v424 {F : FTy → Type} [FloatOps F] (x0 : FVec F S64x64x8 .f32) (x1 : FVec F S64x8x128 .f32) : FVec F S64x64x128 .f32 :=
  (((fun l r => Host.dotGeneral dot_S64x64x8_S64x8x128_S64x64x128_2_1_1_2_0_0 none l r) : (⟨S64x64x8, .f32⟩ : BufTy).Contents (Elt F) → (⟨S64x8x128, .f32⟩ : BufTy).Contents (Elt F) → (⟨S64x64x128, .f32⟩ : BufTy).Contents (Elt F)) x0 x1)

def T_c22_v425 {F : FTy → Type} [FloatOps F] (x0 : FVec F S64x64x256 .f32) (x1 : FVec F S64x256x128 .f32) : FVec F S64x64x128 .f32 :=
  (((fun l r => Host.dotGeneral dot_S64x64x256_S64x256x128_S64x64x128_2_1_1_2_0_0 none l r) : (⟨S64x64x256, .f32⟩ : BufTy).Contents (Elt F) → (⟨S64x256x128, .f32⟩ : BufTy).Contents (Elt F) → (⟨S64x64x128, .f32⟩ : BufTy).Contents (Elt F)) x0 x1)

def T_c22_v426 {F : FTy → Type} [FloatOps F] (x0 : FVec F S64x64x64 .f32) (x1 : FVec F S64x64x128 .f32) : FVec F S64x64x128 .f32 :=
  ((addf : (⟨S64x64x128, .f32⟩ : BufTy).Contents (Elt F) → (⟨S64x64x128, .f32⟩ : BufTy).Contents (Elt F) → (⟨S64x64x128, .f32⟩ : BufTy).Contents (Elt F)) (((fun l r => Host.dotGeneral dot_S64x64x64_S64x64x128_S64x64x128_2_1_1_2_0_0 none l r) : (⟨S64x64x64, .f32⟩ : BufTy).Contents (Elt F) → (⟨S64x64x128, .f32⟩ : BufTy).Contents (Elt F) → (⟨S64x64x128, .f32⟩ : BufTy).Contents (Elt F)) x0 x1) x1)

def T_c23 {F : FTy → Type} [FloatOps F] (x0 : FVec F S64x64x128 .f32) (x1 : FVec F S128x128 .f32) (x2 : FVec F S128 .f32) : FVec F S4096x128 .f32 :=
  ((addf : (⟨S4096x128, .f32⟩ : BufTy).Contents (Elt F) → (⟨S4096x128, .f32⟩ : BufTy).Contents (Elt F) → (⟨S4096x128, .f32⟩ : BufTy).Contents (Elt F)) (((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) (shapeCast S4096x128 x0 shapeCasts_S64x64x128_S4096x128) x1) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) x2)))

def T_c24 {F : FTy → Type} [FloatOps F] (x0 : FVec F S4096x128 .f32) (x1 : FVec F S128 .f32) (x2 : FVec F S128 .f32) : FVec F S4096x128 .f32 :=
  (maximumf ((addf : (⟨S4096x128, .f32⟩ : BufTy).Contents (Elt F) → (⟨S4096x128, .f32⟩ : BufTy).Contents (Elt F) → (⟨S4096x128, .f32⟩ : BufTy).Contents (Elt F)) ((mulf : (⟨S4096x128, .f32⟩ : BufTy).Contents (Elt F) → (⟨S4096x128, .f32⟩ : BufTy).Contents (Elt F) → (⟨S4096x128, .f32⟩ : BufTy).Contents (Elt F)) ((mulf : (⟨S4096x128, .f32⟩ : BufTy).Contents (Elt F) → (⟨S4096x128, .f32⟩ : BufTy).Contents (Elt F) → (⟨S4096x128, .f32⟩ : BufTy).Contents (Elt F)) ((subf : (⟨S4096x128, .f32⟩ : BufTy).Contents (Elt F) → (⟨S4096x128, .f32⟩ : BufTy).Contents (Elt F) → (⟨S4096x128, .f32⟩ : BufTy).Contents (Elt F)) x0 ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S4096x128_S128_d0 h_S_) : (⟨S4096x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x45800000#32)))))) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S4096x128_S128_d0 h_S_) : (⟨S4096x128, .f32⟩ : BufTy).Contents (Elt F) → (⟨S_, .f32⟩ : BufTy).Contents (Elt F) → (⟨S128, .f32⟩ : BufTy).Contents (Elt F)) ((mulf : (⟨S4096x128, .f32⟩ : BufTy).Contents (Elt F) → (⟨S4096x128, .f32⟩ : BufTy).Contents (Elt F) → (⟨S4096x128, .f32⟩ : BufTy).Contents (Elt F)) ((subf : (⟨S4096x128, .f32⟩ : BufTy).Contents (Elt F) → (⟨S4096x128, .f32⟩ : BufTy).Contents (Elt F) → (⟨S4096x128, .f32⟩ : BufTy).Contents (Elt F)) x0 ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S4096x128_S128_d0 h_S_) : (⟨S4096x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x45800000#32)))))) ((subf : (⟨S4096x128, .f32⟩ : BufTy).Contents (Elt F) → (⟨S4096x128, .f32⟩ : BufTy).Contents (Elt F) → (⟨S4096x128, .f32⟩ : BufTy).Contents (Elt F)) x0 ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S4096x128_S128_d0 h_S_) : (⟨S4096x128, .f32⟩ : BufTy).Contents (Elt F) → (⟨S_, .f32⟩ : BufTy).Contents (Elt F) → (⟨S128, .f32⟩ : BufTy).Contents (Elt F)) x0 (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x45800000#32))))))) (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x45800000#32))) ((broadcastInDim S128 ![] bcast_S_S128 : (⟨S_, .f32⟩ : BufTy).Contents (Elt F) → (⟨S128, .f32⟩ : BufTy).Contents (Elt F)) (constant (F := F) S_ .f32 0x3727C5AC#32))))))) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) x1))) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) x2))) ((broadcastInDim S4096x128 ![] bcast_S_S4096x128) (constant (F := F) S_ .f32 0x00000000#32)))

def T_c25 {F : FTy → Type} [FloatOps F] (x0 : FVec F S4096x128 .f32) (x1 : FVec F S128x128 .f32) (x2 : FVec F S128 .f32) : FVec F S4096x128 .f32 :=
  ((addf : (⟨S4096x128, .f32⟩ : BufTy).Contents (Elt F) → (⟨S4096x128, .f32⟩ : BufTy).Contents (Elt F) → (⟨S4096x128, .f32⟩ : BufTy).Contents (Elt F)) (((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) x0 x1) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) x2)))

def T_c27 {F : FTy → Type} [FloatOps F] (x0 : FVec F S64x64x128 .f32) (x1 : FVec F S64x64x128 .f32) : FVec F S64x64x128 .f32 :=
  ((addf : (⟨S64x64x128, .f32⟩ : BufTy).Contents (Elt F) → (⟨S64x64x128, .f32⟩ : BufTy).Contents (Elt F) → (⟨S64x64x128, .f32⟩ : BufTy).Contents (Elt F)) x0 x1)

def T_c37 {F : FTy → Type} [FloatOps F] (x0 : FVec F S4096x128 .f32) (x1 : FVec F S4096x128 .f32) (x2 : FVec F S4096x128 .f32) (x3 : FVec F S384x128 .f32) (x4 : FVec F S128 .f32) : FVec F S4096x128 .f32 :=
  ((addf : (⟨S4096x128, .f32⟩ : BufTy).Contents (Elt F) → (⟨S4096x128, .f32⟩ : BufTy).Contents (Elt F) → (⟨S4096x128, .f32⟩ : BufTy).Contents (Elt F)) (((fun l r => Host.dotGeneral dot_S4096x384_S384x128_S4096x128_1_0_0_1_n_n none l r) : (⟨S4096x384, .f32⟩ : BufTy).Contents (Elt F) → (⟨S384x128, .f32⟩ : BufTy).Contents (Elt F) → (⟨S4096x128, .f32⟩ : BufTy).Contents (Elt F)) (concatenate S4096x384 1 [⟨S4096x128, x0⟩, ⟨S4096x128, x1⟩, ⟨S4096x128, x2⟩] concatenates_S4096x128_S4096x128_S4096x128_S4096x384_d1) x3) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) x4)))

def T_c39 {F : FTy → Type} [FloatOps F] (x0 : FVec F S4096x128 .f32) : FVec F S64x64x128 .f32 :=
  (shapeCast S64x64x128 x0 shapeCasts_S4096x128_S64x64x128)

end Cert.ReferenceIdeal.RT

end
-- ==== Proof.RLawBn.lean ====
/-
  The reference's batch normalisation and ramp, as its host operations spell them — the column mean by a sum over the rows
  divided by the row count, the mean of the squared deviations likewise, the reciprocal root of variance plus ε broadcast back
  over the rows, the scale and shift, and the maximum with zero — is the centred normalisation of the specification, entry by entry.
  One statement per row count.
-/
import proofs.«427658_j89163521065156_2_alg».proof.Proof.Gen.ReferenceIdeal
import proofs.«427658_j89163521065156_2_alg».proof.Proof.Spec
import proofs.«427658_j89163521065156_2_alg».proof.Proof.RTerms
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout

set_option maxRecDepth 8192

noncomputable section

open scoped BigOperators
open Idealize.ShloMosaic Idealize.ShloMosaic.ValueIdx Idealize.SL.Sem
open Cert.ReferenceIdeal Cert.ReferenceIdeal.Gen Cert.Spec

namespace Cert.ReferenceIdeal.RLaw
open Cert.ReferenceIdeal.RT

/-! ## Host operations read at an index

Each host operation of the term, read at one index of its result, is a plain expression in the operands' entries.
The row count m is generic; the column count is 128. -/

/-- The host's quotient, entry by entry. -/
private theorem hdiv_read {s : Shape} {φ : FTy} (a c : FVec Ideal s φ) (i : s.Idx) :
    Host.divf a c i = Ideal.div (a i) (c i) := rfl

/-- The host's reciprocal square root, entry by entry. -/
private theorem hrsqrt_read {s : Shape} {φ : FTy} (a : FVec Ideal s φ) (i : s.Idx) :
    Host.rsqrt a i = Ideal.rsqrt (a i) := rfl

/-- A scalar broadcast to any shape reads the scalar. -/
private theorem bcast0_read {α : Type} {T : Shape} (h : (⟨0, ![]⟩ : Shape).BroadcastsInDim T ![])
    (x : (⟨0, ![]⟩ : Shape).Idx → α) (j : T.Idx) : broadcastInDim T ![] h x j = x ix0 :=
  broadcastInDim_apply ![] h x j ix0 (fun a => a.elim0)

/-- A vector laid out as a one-row matrix: entry (0, q) is entry q. -/
private theorem bcastRow_read {α : Type} (h : (⟨1, ![128]⟩ : Shape).BroadcastsInDim ⟨2, ![1, 128]⟩ ![1])
    (x : (⟨1, ![128]⟩ : Shape).Idx → α) (p : Fin 1) (q : Fin 128) :
    broadcastInDim ⟨2, ![1, 128]⟩ ![1] h x (ix2 p q) = x (ix1 q) := by
  refine broadcastInDim_apply ![1] h x (ix2 p q) (ix1 q) ?_
  intro a
  match a with
  | ⟨0, _⟩ => rfl

/-- A one-row matrix repeated down m rows: entry (r, q) is entry (0, q) of the row. -/
private theorem bcastDown_read {α : Type} {m : Nat} (h : (⟨2, ![1, 128]⟩ : Shape).BroadcastsInDim ⟨2, ![m, 128]⟩ ![0, 1])
    (y : (⟨2, ![1, 128]⟩ : Shape).Idx → α) (r : Fin m) (q : Fin 128) :
    broadcastInDim ⟨2, ![m, 128]⟩ ![0, 1] h y (ix2 r q) = y (ix2 0 q) := by
  refine broadcastInDim_apply ![0, 1] h y (ix2 r q) (ix2 0 q) ?_
  intro a
  match a with
  | ⟨0, _⟩ => rfl
  | ⟨1, _⟩ => rfl

/-- The host's sum over the rows, read at column q: the initial value plus the sum of the column's entries. -/
private theorem reduce_read {m : Nat} (h' : (⟨2, ![m, 128]⟩ : Shape).ReducesTo [0] ⟨1, ![128]⟩)
    (hu : 0 < (⟨0, ![]⟩ : Shape).numel) (x : FVec Ideal ⟨2, ![m, 128]⟩ .f32) (init : FVec Ideal ⟨0, ![]⟩ .f32) (q : Fin 128) :
    Host.reduceAdd x init h' hu (ix1 q) = init (Shape.Idx.first hu) + ∑ r : Fin m, x (ix2 r q) := by
  have h : (⟨2, ![m, 128]⟩ : Shape).Reduces [0] ⟨1, ![128]⟩ := by
    obtain ⟨h1, h2⟩ := h'
    exact ⟨h1, by decide, h2⟩
  show Ideal.hostReduceAdd h' x (init (Shape.Idx.first hu)) (ix1 q) = _
  rw [Ideal.hostReduceAdd_single h' h]
  show init (Shape.Idx.first hu) + ∑ k : Fin m, x (h.lift (ix1 q) k) = _
  congr 1
  refine Finset.sum_congr rfl (fun k _ => congrArg x (funext fun a => ?_))
  match a with
  | ⟨0, _⟩ => exact Fin.ext rfl
  | ⟨1, _⟩ => exact Fin.ext rfl

theorem bn16384 (z : FVec Ideal S16384x128 .f32) (g b : FVec Ideal S128 .f32) : T_c3 (F := Ideal) z g b = bnrelu 0 Cert.Consts.n14 Cert.Consts.eps z g b := by
  funext j
  obtain ⟨r, q, rfl⟩ : ∃ r q, j = ix2 r q := ⟨j 0, j 1, eq_ix2 j⟩
  unfold T_c3
  simp only [maximumf_apply, addf_apply, mulf_apply, subf_apply, hdiv_read, hrsqrt_read,
    bcastDown_read bcast_S1x128_S16384x128_0_1, bcastRow_read bcast_S128_S1x128_1, bcast0_read bcast_S_S128,
    bcast0_read bcast_S_S16384x128, reduce_read reducesTo_S16384x128_S128_d0 h_S_, constant_apply, Cert.Consts.ofBits_zero]
  rfl
theorem bn262144 (z : FVec Ideal S262144x128 .f32) (g b : FVec Ideal S128 .f32) : T_c13 (F := Ideal) z g b = bnrelu 0 Cert.Consts.n18 Cert.Consts.eps z g b := by
  funext j
  obtain ⟨r, q, rfl⟩ : ∃ r q, j = ix2 r q := ⟨j 0, j 1, eq_ix2 j⟩
  unfold T_c13
  simp only [maximumf_apply, addf_apply, mulf_apply, subf_apply, hdiv_read, hrsqrt_read,
    bcastDown_read bcast_S1x128_S262144x128_0_1, bcastRow_read bcast_S128_S1x128_1, bcast0_read bcast_S_S128,
    bcast0_read bcast_S_S262144x128, reduce_read reducesTo_S262144x128_S128_d0 h_S_, constant_apply, Cert.Consts.ofBits_zero]
  rfl
theorem bn4096 (z : FVec Ideal S4096x128 .f32) (g b : FVec Ideal S128 .f32) : T_c24 (F := Ideal) z g b = bnrelu 0 Cert.Consts.n12 Cert.Consts.eps z g b := by
  funext j
  obtain ⟨r, q, rfl⟩ : ∃ r q, j = ix2 r q := ⟨j 0, j 1, eq_ix2 j⟩
  unfold T_c24
  simp only [maximumf_apply, addf_apply, mulf_apply, subf_apply, hdiv_read, hrsqrt_read,
    bcastDown_read bcast_S1x128_S4096x128_0_1, bcastRow_read bcast_S128_S1x128_1, bcast0_read bcast_S_S128,
    bcast0_read bcast_S_S4096x128, reduce_read reducesTo_S4096x128_S128_d0 h_S_, constant_apply, Cert.Consts.ofBits_zero]
  rfl

end Cert.ReferenceIdeal.RLaw

end
-- ==== Proof.RLawLin.lean ====
/-
  The reference's linear layers as its host operations spell them: a matrix product against a 128-row weight plus the bias
  vector broadcast over the rows; and, for the combining layers, the product of two (three) matrices laid side by side against a
  256-row (384-row) weight.
-/
import proofs.«427658_j89163521065156_2_alg».proof.Proof.Gen.ReferenceIdeal
import proofs.«427658_j89163521065156_2_alg».proof.Proof.Spec
import proofs.«427658_j89163521065156_2_alg».proof.Proof.RTerms
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout

set_option maxRecDepth 8192

noncomputable section

open scoped BigOperators
open Idealize.ShloMosaic Idealize.ShloMosaic.ValueIdx Idealize.SL.Sem
open Cert.ReferenceIdeal Cert.ReferenceIdeal.Gen Cert.Spec

namespace Cert.ReferenceIdeal.RLaw
open Cert.ReferenceIdeal.RT

/-! ## A plain product `[R, K] · [K, C]` read at an index -/

section Plain
variable {R K C : Nat}

/-- The left operand's row coordinate is the result's row. -/
private theorem plain_lhs_0 (i : (⟨2, ![R, C]⟩ : Shape).Idx) (q : (DotDims.plain R K C).contr.Idx) :
    ((DotDims.plain R K C).lhsIdx i q 0).val = (i 0).val := by
  unfold DotDims.lhsIdx
  rw [dif_neg (show ¬(0 : Fin (⟨2, ![R, K]⟩ : Shape).rank) ∈ (DotDims.plain R K C).lhsBatch from List.not_mem_nil),
    dif_pos (show (0 : Fin (⟨2, ![R, K]⟩ : Shape).rank) ∈ (DotDims.plain R K C).lhsNonContracting from List.mem_singleton.mpr rfl)]
  rfl
/-- The left operand's column coordinate is the contraction position. -/
private theorem plain_lhs_1 (i : (⟨2, ![R, C]⟩ : Shape).Idx) (q : (DotDims.plain R K C).contr.Idx) :
    ((DotDims.plain R K C).lhsIdx i q 1).val = (q ⟨0, Nat.one_pos⟩).val :=
  (DotDims.plain R K C).lhsIdx_val_of_single rfl i q
/-- The right operand's row coordinate is the contraction position. -/
private theorem plain_rhs_0 (i : (⟨2, ![R, C]⟩ : Shape).Idx) (q : (DotDims.plain R K C).contr.Idx) :
    ((DotDims.plain R K C).rhsIdx i q 0).val = (q ⟨0, Nat.one_pos⟩).val :=
  (DotDims.plain R K C).rhsIdx_val_of_single rfl i q
/-- The right operand's column coordinate is the result's column. -/
private theorem plain_rhs_1 (i : (⟨2, ![R, C]⟩ : Shape).Idx) (q : (DotDims.plain R K C).contr.Idx) :
    ((DotDims.plain R K C).rhsIdx i q 1).val = (i 1).val := by
  unfold DotDims.rhsIdx
  rw [dif_neg (show ¬(1 : Fin (⟨2, ![K, C]⟩ : Shape).rank) ∈ (DotDims.plain R K C).rhsBatch from List.not_mem_nil),
    dif_pos (show (1 : Fin (⟨2, ![K, C]⟩ : Shape).rank) ∈ (DotDims.plain R K C).rhsNonContracting from List.mem_singleton.mpr rfl)]
  rfl

/-- The host's product of an `[R, K]` by a `[K, C]` matrix, at the extended reals, is the matrix product. -/
private theorem dotGeneral_plain (prec : Option ContractPrecision) (v : Mat R K) (W : Mat K C) :
    (Host.dotGeneral (F := Ideal) (φ₁ := .f32) (φ₂ := .f32) (DotDims.plain R K C) prec v W : Mat R C) = mm v W := by
  funext j
  simp only [Host.dotGeneral, mm]
  rw [Ideal.dotGeneral_apply, ← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = ix2 (j 0) k :=
    funext fun a => Fin.ext (by
      match a with
      | ⟨0, _⟩ => exact plain_lhs_0 _ _
      | ⟨1, _⟩ => exact (plain_lhs_1 _ _).trans hk)
  have er : (DotDims.plain R K C).rhsIdx j ((contrEquiv1 (DotDims.plain R K C) K rfl rfl).symm k) = ix2 k (j 1) :=
    funext fun a => Fin.ext (by
      match a with
      | ⟨0, _⟩ => exact (plain_rhs_0 _ _).trans hk
      | ⟨1, _⟩ => exact plain_rhs_1 _ _)
  rw [el, er]
  rfl

end Plain

/-! ## The bias: a vector of 128 broadcast to one row, then over all rows -/

/-- The bias vector made a one-row matrix and then broadcast over the `R` rows reads, at `(r, c)`, the vector at `c`. -/
private theorem bias_apply {α : Type} {R : Nat}
    (h1 : S128.BroadcastsInDim S1x128 (![1] : Fin 1 → Fin S1x128.rank))
    (h2 : S1x128.BroadcastsInDim (⟨2, ![R, 128]⟩ : Shape) (![0, 1] : Fin 2 → Fin (⟨2, ![R, 128]⟩ : Shape).rank))
    (b : S128.Idx → α) (j : (⟨2, ![R, 128]⟩ : Shape).Idx) :
    broadcastInDim (⟨2, ![R, 128]⟩ : Shape) ![0, 1] h2 (broadcastInDim S1x128 ![1] h1 b) j = b (ix1 (j 1)) := by
  refine (broadcastInDim_apply ![0, 1] h2 _ j (ix2 (0 : Fin 1) (j 1)) (fun a => ?_)).trans ?_
  · match a with
    | ⟨0, _⟩ => rfl
    | ⟨1, _⟩ => rfl
  · refine broadcastInDim_apply ![1] h1 b _ (ix1 (j 1)) (fun a => ?_)
    match a with
    | ⟨0, _⟩ => rfl

/-! ## Matrices laid side by side -/

/-- Two `[R, 128]` matrices concatenated along the columns are the side-by-side matrix: column `c` reads the first for
    `c < 128` and the second at `c − 128` otherwise. -/
private theorem concat2_eq {R : Nat}
    (h : Shape.Concatenates [(⟨2, ![R, 128]⟩ : Shape), (⟨2, ![R, 128]⟩ : Shape)] (⟨2, ![R, 256]⟩ : Shape) 1)
    (u0 u1 : Mat R 128) :
    concatenate (⟨2, ![R, 256]⟩ : Shape) 1 [⟨(⟨2, ![R, 128]⟩ : Shape), u0⟩, ⟨(⟨2, ![R, 128]⟩ : Shape), u1⟩] h
      = hcat2 (K := 128) (K2 := 256) rfl u0 u1 := by
  funext j
  obtain ⟨r, c, rfl⟩ : ∃ (r : Fin R) (c : Fin 256), j = ix2 r c := ⟨j 0, j 1, eq_ix2 j⟩
  have hc2 : c.val < 256 := c.isLt
  show _ = if h' : c.val < 128 then u0 (ix2 r ⟨c.val, h'⟩) else u1 (ix2 r ⟨c.val - 128, by omega⟩)
  by_cases hc : c.val < 128
  · rw [dif_pos hc]
    exact concatenate_pair_apply_left 1 u0 u1 h (ix2 r c) rfl (ix2 r ⟨c.val, hc⟩)
      (fun b => by match b with | ⟨0, _⟩ => rfl | ⟨1, _⟩ => rfl)
  · rw [dif_neg hc]
    exact concatenate_pair_apply_right 1 u0 u1 h (ix2 r c) rfl rfl (ix2 r ⟨c.val - 128, by omega⟩)
      (fun b => by
        match b with
        | ⟨0, _⟩ => exact fun _ => rfl
        | ⟨1, _⟩ => exact fun hne => absurd rfl hne)
      (by show c.val - 128 + 128 = c.val; omega)

/-- Three `[R, 128]` matrices concatenated along the columns are the three side by side. -/
private theorem concat3_eq {R : Nat}
    (h : Shape.Concatenates [(⟨2, ![R, 128]⟩ : Shape), (⟨2, ![R, 128]⟩ : Shape), (⟨2, ![R, 128]⟩ : Shape)] (⟨2, ![R, 384]⟩ : Shape) 1)
    (u0 u1 u2 : Mat R 128) :
    concatenate (⟨2, ![R, 384]⟩ : Shape) 1
        [⟨(⟨2, ![R, 128]⟩ : Shape), u0⟩, ⟨(⟨2, ![R, 128]⟩ : Shape), u1⟩, ⟨(⟨2, ![R, 128]⟩ : Shape), u2⟩] h
      = hcat3 (K := 128) (K3 := 384) rfl u0 u1 u2 := by
  funext j
  obtain ⟨r, c, rfl⟩ : ∃ (r : Fin R) (c : Fin 384), j = ix2 r c := ⟨j 0, j 1, eq_ix2 j⟩
  have hc3 : c.val < 384 := c.isLt
  show _ = if h' : c.val < 128 then u0 (ix2 r ⟨c.val, h'⟩)
      else if h'' : c.val < 128 + 128 then u1 (ix2 r ⟨c.val - 128, by omega⟩)
      else u2 (ix2 r ⟨c.val - (128 + 128), by omega⟩)
  by_cases hc : c.val < 128
  · rw [dif_pos hc]
    exact concatenate_apply_piece 1 [⟨(⟨2, ![R, 128]⟩ : Shape), u0⟩, ⟨(⟨2, ![R, 128]⟩ : Shape), u1⟩, ⟨(⟨2, ![R, 128]⟩ : Shape), u2⟩] h (ix2 r c) 0 (by simp) _ u0 rfl rfl 0 rfl (ix2 r ⟨c.val, hc⟩)
      (fun b => by
        match b with
        | ⟨0, _⟩ => exact fun _ => rfl
        | ⟨1, _⟩ => exact fun hne => absurd rfl hne)
      (by show 0 + c.val = c.val; omega)
  · rw [dif_neg hc]
    by_cases hc' : c.val < 128 + 128
    · rw [dif_pos hc']
      exact concatenate_apply_piece 1 [⟨(⟨2, ![R, 128]⟩ : Shape), u0⟩, ⟨(⟨2, ![R, 128]⟩ : Shape), u1⟩, ⟨(⟨2, ![R, 128]⟩ : Shape), u2⟩] h (ix2 r c) 1 (by simp) _ u1 rfl rfl 128 rfl (ix2 r ⟨c.val - 128, by omega⟩)
        (fun b => by
          match b with
          | ⟨0, _⟩ => exact fun _ => rfl
          | ⟨1, _⟩ => exact fun hne => absurd rfl hne)
        (by show 128 + (c.val - 128) = c.val; omega)
    · rw [dif_neg hc']
      exact concatenate_apply_piece 1 [⟨(⟨2, ![R, 128]⟩ : Shape), u0⟩, ⟨(⟨2, ![R, 128]⟩ : Shape), u1⟩, ⟨(⟨2, ![R, 128]⟩ : Shape), u2⟩] h (ix2 r c) 2 (by simp) _ u2 rfl rfl 256 rfl (ix2 r ⟨c.val - (128 + 128), by omega⟩)
        (fun b => by
          match b with
          | ⟨0, _⟩ => exact fun _ => rfl
          | ⟨1, _⟩ => exact fun hne => absurd rfl hne)
        (by show 256 + (c.val - (128 + 128)) = c.val; omega)

/-! ## The reference's linear layers -/

theorem lin16384 (v : FVec Ideal S16384x128 .f32) (W : FVec Ideal S128x128 .f32) (b : FVec Ideal S128 .f32) : T_c4 (F := Ideal) v W b = lin v W b := by
  funext j
  unfold T_c4
  show (Host.dotGeneral (F := Ideal) (DotDims.plain 16384 128 128) none v W : Mat 16384 128) j + _ = mm v W j + b (ix1 (j 1))
  rw [dotGeneral_plain, bias_apply]
theorem lin262144 (v : FVec Ideal S262144x128 .f32) (W : FVec Ideal S128x128 .f32) (b : FVec Ideal S128 .f32) : T_c14 (F := Ideal) v W b = lin v W b := by
  funext j
  unfold T_c14
  show (Host.dotGeneral (F := Ideal) (DotDims.plain 262144 128 128) none v W : Mat 262144 128) j + _ = mm v W j + b (ix1 (j 1))
  rw [dotGeneral_plain, bias_apply]
theorem lin4096 (v : FVec Ideal S4096x128 .f32) (W : FVec Ideal S128x128 .f32) (b : FVec Ideal S128 .f32) : T_c25 (F := Ideal) v W b = lin v W b := by
  funext j
  unfold T_c25
  show (Host.dotGeneral (F := Ideal) (DotDims.plain 4096 128 128) none v W : Mat 4096 128) j + _ = mm v W j + b (ix1 (j 1))
  rw [dotGeneral_plain, bias_apply]
theorem comb16384 (u0 u1 : FVec Ideal S16384x128 .f32) (W : FVec Ideal S256x128 .f32) (b : FVec Ideal S128 .f32) :
    T_c10 (F := Ideal) u0 u1 W b = lin (hcat2 (K := 128) (K2 := 256) rfl u0 u1) W b := by
  funext j
  unfold T_c10
  show (Host.dotGeneral (F := Ideal) (DotDims.plain 16384 256 128) none _ W : Mat 16384 128) j + _
    = mm (hcat2 (K := 128) (K2 := 256) rfl u0 u1) W j + b (ix1 (j 1))
  rw [dotGeneral_plain, bias_apply]
  exact congrArg (fun x : Mat 16384 256 => mm x W j + b (ix1 (j 1))) (concat2_eq _ u0 u1)
theorem comb262144 (u0 u1 : FVec Ideal S262144x128 .f32) (W : FVec Ideal S256x128 .f32) (b : FVec Ideal S128 .f32) :
    T_c20 (F := Ideal) u0 u1 W b = lin (hcat2 (K := 128) (K2 := 256) rfl u0 u1) W b := by
  funext j
  unfold T_c20
  show (Host.dotGeneral (F := Ideal) (DotDims.plain 262144 256 128) none _ W : Mat 262144 128) j + _
    = mm (hcat2 (K := 128) (K2 := 256) rfl u0 u1) W j + b (ix1 (j 1))
  rw [dotGeneral_plain, bias_apply]
  exact congrArg (fun x : Mat 262144 256 => mm x W j + b (ix1 (j 1))) (concat2_eq _ u0 u1)
theorem comb4096 (u0 u1 u2 : FVec Ideal S4096x128 .f32) (W : FVec Ideal S384x128 .f32) (b : FVec Ideal S128 .f32) :
    T_c37 (F := Ideal) u0 u1 u2 W b = lin (hcat3 (K := 128) (K3 := 384) rfl u0 u1 u2) W b := by
  funext j
  unfold T_c37
  show (Host.dotGeneral (F := Ideal) (DotDims.plain 4096 384 128) none _ W : Mat 4096 128) j + _
    = mm (hcat3 (K := 128) (K3 := 384) rfl u0 u1 u2) W j + b (ix1 (j 1))
  rw [dotGeneral_plain, bias_apply]
  exact congrArg (fun x : Mat 4096 384 => mm x W j + b (ix1 (j 1))) (concat3_eq _ u0 u1 u2)

end Cert.ReferenceIdeal.RLaw

end
-- ==== Proof.RLawMisc.lean ====
/-
  The reference's remaining stretches as functions of the specification: the pooled clusters (a batched product laid out
  as node rows), the edge messages (the gathered source rows beside the edge rows against the message weight, ramped), their
  scatter-added sums plus x into the first update, the edge branch's gathered sums, the cluster branch's pooled products plus the
  cluster attributes, and the reshapes. A row gather reads row idx[e] of its matrix (indices made non-negative by adding 16384
  to the negative ones, then clamped into range); the scatter-add sums the edge rows at their destination rows, dropping those out of range.
-/
import proofs.«427658_j89163521065156_2_alg».proof.Proof.Gen.ReferenceIdeal
import proofs.«427658_j89163521065156_2_alg».proof.Proof.Spec
import proofs.«427658_j89163521065156_2_alg».proof.Proof.SpecNet
import proofs.«427658_j89163521065156_2_alg».proof.Proof.RTerms
import proofs.«427658_j89163521065156_2_alg».proof.Proof.SpecReal
import proofs.«427658_j89163521065156_2_alg».proof.Proof.Consts
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

set_option maxRecDepth 8192

noncomputable section

open scoped BigOperators
open Idealize.ShloMosaic Idealize.ShloMosaic.ValueIdx Idealize.SL.Sem
open Cert.ReferenceIdeal Cert.ReferenceIdeal.Gen Cert.Spec

namespace Cert.ReferenceIdeal.RLaw
open Cert.ReferenceIdeal.RT

/-! ## Host operations read at an index

Each host operation, read at one index of its result, is a plain expression in the operands' entries. -/

/-- A scalar broadcast to any shape reads the scalar. -/
private theorem bcast0_read {α : Type} {T : Shape} (h : (⟨0, ![]⟩ : Shape).BroadcastsInDim T ![])
    (x : (⟨0, ![]⟩ : Shape).Idx → α) (j : T.Idx) : broadcastInDim T ![] h x j = x ix0 :=
  broadcastInDim_apply ![] h x j ix0 (fun a => a.elim0)

/-- A vector laid out as a one-row matrix: entry (0, q) is entry q. -/
private theorem bcastRow_read {α : Type} (h : (⟨1, ![128]⟩ : Shape).BroadcastsInDim ⟨2, ![1, 128]⟩ ![1])
    (x : (⟨1, ![128]⟩ : Shape).Idx → α) (p : Fin 1) (q : Fin 128) :
    broadcastInDim ⟨2, ![1, 128]⟩ ![1] h x (ix2 p q) = x (ix1 q) := by
  refine broadcastInDim_apply ![1] h x (ix2 p q) (ix1 q) ?_
  intro a
  match a with
  | ⟨0, _⟩ => rfl

/-- A one-row matrix repeated down m rows: entry (r, q) is entry (0, q) of the row. -/
private theorem bcastDown_read {α : Type} {m : Nat} (h : (⟨2, ![1, 128]⟩ : Shape).BroadcastsInDim ⟨2, ![m, 128]⟩ ![0, 1])
    (y : (⟨2, ![1, 128]⟩ : Shape).Idx → α) (r : Fin m) (q : Fin 128) :
    broadcastInDim ⟨2, ![m, 128]⟩ ![0, 1] h y (ix2 r q) = y (ix2 0 q) := by
  refine broadcastInDim_apply ![0, 1] h y (ix2 r q) (ix2 0 q) ?_
  intro a
  match a with
  | ⟨0, _⟩ => rfl
  | ⟨1, _⟩ => rfl

/-! The matrix products: entry (a, b) of A·B is Σ_c A[a, c] · B[c, b]; entry (g, a, b) of a stack's product is
    Σ_c A[g, a, c] · B[g, c, b]. One statement per set of dimension numbers the program uses. -/

private theorem dot_read_16384 (A : FVec Ideal S16384x128 .f32) (B : FVec Ideal S128x128 .f32) (a : Fin 16384) (b : Fin 128) :
    Host.dotGeneral dot_S16384x128_S128x128_S16384x128_1_0_0_1_n_n none A B (ix2 a b) = ∑ c : Fin 128, A (ix2 a c) * B (ix2 c b) :=
  StackMember.dotGeneral_plain_apply none A B a b

private theorem dot_read_262144 (A : FVec Ideal S262144x128 .f32) (B : FVec Ideal S128x128 .f32) (a : Fin 262144) (b : Fin 128) :
    Host.dotGeneral dot_S262144x128_S128x128_S262144x128_1_0_0_1_n_n none A B (ix2 a b) = ∑ c : Fin 128, A (ix2 a c) * B (ix2 c b) :=
  StackMember.dotGeneral_plain_apply none A B a b

private theorem dot_read_262144x256 (A : FVec Ideal S262144x256 .f32) (B : FVec Ideal S256x128 .f32) (a : Fin 262144) (b : Fin 128) :
    Host.dotGeneral dot_S262144x256_S256x128_S262144x128_1_0_0_1_n_n none A B (ix2 a b) = ∑ c : Fin 256, A (ix2 a c) * B (ix2 c b) :=
  StackMember.dotGeneral_plain_apply none A B a b

private theorem dot_read_4096 (A : FVec Ideal S4096x128 .f32) (B : FVec Ideal S128x128 .f32) (a : Fin 4096) (b : Fin 128) :
    Host.dotGeneral dot_S4096x128_S128x128_S4096x128_1_0_0_1_n_n none A B (ix2 a b) = ∑ c : Fin 128, A (ix2 a c) * B (ix2 c b) :=
  StackMember.dotGeneral_plain_apply none A B a b

private theorem bdot_read_up (A : FVec Ideal S64x256x64 .f32) (B : FVec Ideal S64x64x128 .f32) (g : Fin 64) (a : Fin 256) (b : Fin 128) :
    Host.dotGeneral dot_S64x256x64_S64x64x128_S64x256x128_2_1_1_2_0_0 none A B (ix3 g a b) = ∑ c : Fin 64, A (ix3 g a c) * B (ix3 g c b) :=
  StackMember.dotGeneral_stack_apply dot_S64x256x64_S64x64x128_S64x256x128_2_1_1_2_0_0_wf none A B g a b

private theorem bdot_read_8 (A : FVec Ideal S64x64x8 .f32) (B : FVec Ideal S64x8x128 .f32) (g : Fin 64) (a : Fin 64) (b : Fin 128) :
    Host.dotGeneral dot_S64x64x8_S64x8x128_S64x64x128_2_1_1_2_0_0 none A B (ix3 g a b) = ∑ c : Fin 8, A (ix3 g a c) * B (ix3 g c b) :=
  StackMember.dotGeneral_stack_apply dot_S64x64x8_S64x8x128_S64x64x128_2_1_1_2_0_0_wf none A B g a b

private theorem bdot_read_256 (A : FVec Ideal S64x64x256 .f32) (B : FVec Ideal S64x256x128 .f32) (g : Fin 64) (a : Fin 64) (b : Fin 128) :
    Host.dotGeneral dot_S64x64x256_S64x256x128_S64x64x128_2_1_1_2_0_0 none A B (ix3 g a b) = ∑ c : Fin 256, A (ix3 g a c) * B (ix3 g c b) :=
  StackMember.dotGeneral_stack_apply dot_S64x64x256_S64x256x128_S64x64x128_2_1_1_2_0_0_wf none A B g a b

private theorem bdot_read_64 (A : FVec Ideal S64x64x64 .f32) (B : FVec Ideal S64x64x128 .f32) (g : Fin 64) (a : Fin 64) (b : Fin 128) :
    Host.dotGeneral dot_S64x64x64_S64x64x128_S64x64x128_2_1_1_2_0_0 none A B (ix3 g a b) = ∑ c : Fin 64, A (ix3 g a c) * B (ix3 g c b) :=
  StackMember.dotGeneral_stack_apply dot_S64x64x64_S64x64x128_S64x64x128_2_1_1_2_0_0_wf none A B g a b

/-- Two 128-column matrices side by side, read at (r, c): the left one for c < 128, else the right one at c − 128. -/
private theorem concat_read {m : Nat}
    (h : Shape.Concatenates [(⟨2, ![m, 128]⟩ : Shape), ⟨2, ![m, 128]⟩] ⟨2, ![m, 256]⟩ 1)
    (x₁ x₂ : FVec Ideal ⟨2, ![m, 128]⟩ .f32) (r : Fin m) (c : Fin 256) :
    concatenate ⟨2, ![m, 256]⟩ 1 [⟨⟨2, ![m, 128]⟩, x₁⟩, ⟨⟨2, ![m, 128]⟩, x₂⟩] h (ix2 r c)
      = hcat2 (K := 128) (K2 := 256) rfl x₁ x₂ (ix2 r c) := by
  unfold hcat2
  by_cases hc : c.val < 128
  · rw [dif_pos (show ((ix2 r c : (⟨2, ![m, 256]⟩ : Shape).Idx) 1).val < 128 from hc)]
    refine concatenate_pair_apply_left 1 x₁ x₂ h (ix2 r c) rfl (ix2 r ⟨c.val, hc⟩) ?_
    intro b
    match b with
    | ⟨0, _⟩ => rfl
    | ⟨1, _⟩ => rfl
  · rw [dif_neg (show ¬ ((ix2 r c : (⟨2, ![m, 256]⟩ : Shape).Idx) 1).val < 128 from hc)]
    have hc2 : c.val - 128 < 128 := by have := c.isLt; omega
    refine concatenate_pair_apply_right 1 x₁ x₂ h (ix2 r c) rfl rfl (ix2 r ⟨c.val - 128, hc2⟩) ?_ ?_
    · intro b hb
      match b, hb with
      | ⟨0, _⟩, _ => rfl
      | ⟨1, _⟩, hb => exact absurd rfl hb
    · show c.val - 128 + 128 = c.val
      omega

/-- A stack of G matrices of M rows reshaped to one matrix of G·M rows: row-major order puts row g·M + r first to last, so
    entry (i, c) of the result is entry (i / M, i % M, c) of the stack. -/
private theorem cast_flat_read {G M C R : Nat} (hR : G * M = R)
    (h : (⟨3, ![G, M, C]⟩ : Shape).ShapeCasts ⟨2, ![R, C]⟩) (y : (⟨3, ![G, M, C]⟩ : Shape).Idx → EReal)
    (j : (⟨2, ![R, C]⟩ : Shape).Idx) : shapeCast ⟨2, ![R, C]⟩ y h j = flat hR y j := by
  unfold flat
  refine shapeCast_apply y h j _ ?_
  rw [Shape.rowMajor_val_three, Shape.rowMajor_val_two]
  show ((j 0).val / M * M + (j 0).val % M) * C + (j 1).val = (j 0).val * C + (j 1).val
  rw [Nat.div_add_mod']

/-- The reshape the other way: entry (g, r, c) of the stack is entry (g·M + r, c) of the matrix. -/
private theorem cast_unflat_read {G M C R : Nat} (hR : G * M = R)
    (h : (⟨2, ![R, C]⟩ : Shape).ShapeCasts ⟨3, ![G, M, C]⟩) (y : (⟨2, ![R, C]⟩ : Shape).Idx → EReal)
    (j : (⟨3, ![G, M, C]⟩ : Shape).Idx) : shapeCast ⟨3, ![G, M, C]⟩ y h j = unflat hR y j := by
  unfold unflat
  refine shapeCast_apply y h j _ ?_
  rw [Shape.rowMajor_val_two, Shape.rowMajor_val_three]
  rfl

/-- A scatter-add onto an operand that is zero at i, of real updates, is real at i: it is a finite sum of updates. -/
private theorem real_scatter {s si su : Shape} {w : Nat} (d : ScatterDims s si su) (x : s.Idx → EReal) (idx : IVec si w)
    (upd : su.Idx → EReal) (i : s.Idx) (hx : x i = 0) (hu : AllReal upd) :
    Ideal.hostScatterAdd d x idx upd i ≠ ⊤ ∧ Ideal.hostScatterAdd d x idx upd i ≠ ⊥ := by
  unfold Ideal.hostScatterAdd
  simp only [hx, zero_add]
  exact real_sum _ _ (fun j _ => hu j)

/-- The index column the gathers use: negative indices moved up by 16384. -/
def wrapIdx (idx : IVec S262144 32) : IVec S262144x1 32 :=
  broadcastInDim S262144x1 ![0] bcast_S262144_S262144x1_0
    (select (cmpi .slt idx (broadcastInDim S262144 ![] bcast_S_S262144 (constantI S_ 32 0#32)))
      (addi idx (broadcastInDim S262144 ![] bcast_S_S262144 (constantI S_ 32 16384#32))) idx)

/-- The rows of a gathered by idx. -/
def gatherRows (idx : IVec S262144 32) (a : Mat 16384 128) : Mat 262144 128 :=
  Host.gather gather_S16384x128_S262144x1_S262144x128_1_0_n_n_0_1_1128 a (wrapIdx idx)

/-- The rows of u scatter-added onto zeros at idx. -/
def scatterRows (idx : IVec S262144 32) (u : Mat 262144 128) : Mat 16384 128 :=
  Host.scatterAdd (F := Ideal) scatter_S16384x128_S262144x1_S262144x128_1_0_0_1
    (broadcastInDim S16384x128 ![] bcast_S_S16384x128 (constant (F := Ideal) S_ .f32 0x00000000#32))
    (broadcastInDim S262144x1 ![0] bcast_S262144_S262144x1_0 idx) u

theorem allReal_gatherRows (idx : IVec S262144 32) {a : Mat 16384 128} (ha : AllReal a) : AllReal (gatherRows idx a) := by
  intro j
  exact ha _
theorem allReal_scatterRows (idx : IVec S262144 32) {u : Mat 262144 128} (hu : AllReal u) : AllReal (scatterRows idx u) := by
  intro i
  unfold scatterRows Host.scatterAdd
  simp only [Ideal.hostScatterAdd_def]
  exact real_scatter _ _ _ u i (by rw [bcast0_read, constant_apply, Cert.Consts.ofBits_zero]) hu

theorem up_eq (a : FVec Ideal S64x256x64 .f32) (b : FVec Ideal S64x64x128 .f32) :
    T_c0_v5 (F := Ideal) a b = flat (G := 64) (M := 256) rfl (bmm a b) := by
  funext j
  unfold T_c0_v5
  refine (cast_flat_read (G := 64) (M := 256) (C := 128) (R := 16384) rfl shapeCasts_S64x256x128_S16384x128 _ j).trans ?_
  unfold flat
  exact bdot_read_up a b _ _ _
theorem msgPre_eq (x : FVec Ideal S16384x128 .f32) (idx : IVec S262144 32) (e : FVec Ideal S262144x128 .f32) (W : FVec Ideal S256x128 .f32) (b : FVec Ideal S128 .f32) :
    T_c0_v17 (F := Ideal) x idx e W b = lin (hcat2 (K := 128) (K2 := 256) rfl (gatherRows idx x) e) W b := by
  funext j
  obtain ⟨r, q, rfl⟩ : ∃ r q, j = ix2 r q := ⟨j 0, j 1, eq_ix2 j⟩
  unfold T_c0_v17
  simp only [addf_apply, dot_read_262144x256, concat_read concatenates_S262144x128_S262144x128_S262144x256_d1,
    bcastDown_read bcast_S1x128_S262144x128_0_1, bcastRow_read bcast_S128_S1x128_1]
  rfl
theorem relu262144_eq (z : FVec Ideal S262144x128 .f32) : T_c1 (F := Ideal) z = relu z := by
  funext j
  unfold T_c1
  simp only [maximumf_apply, bcast0_read bcast_S_S262144x128, constant_apply, Cert.Consts.ofBits_zero]
  rfl
theorem z1N0_eq (idx : IVec S262144 32) (u : FVec Ideal S262144x128 .f32) (x : FVec Ideal S16384x128 .f32) (W : FVec Ideal S128x128 .f32) (b : FVec Ideal S128 .f32) :
    T_c2 (F := Ideal) idx u x W b = lin (addM (scatterRows idx u) x) W b := by
  funext j
  obtain ⟨r, q, rfl⟩ : ∃ r q, j = ix2 r q := ⟨j 0, j 1, eq_ix2 j⟩
  unfold T_c2
  simp only [addf_apply, dot_read_16384, bcastDown_read bcast_S1x128_S16384x128_0_1, bcastRow_read bcast_S128_S1x128_1]
  rfl
theorem linAdd16384_eq (z x : FVec Ideal S16384x128 .f32) (W : FVec Ideal S128x128 .f32) (b : FVec Ideal S128 .f32) :
    T_c6 (F := Ideal) z x W b = lin (addM z x) W b := by
  funext j
  obtain ⟨r, q, rfl⟩ : ∃ r q, j = ix2 r q := ⟨j 0, j 1, eq_ix2 j⟩
  unfold T_c6
  simp only [addf_apply, dot_read_16384, bcastDown_read bcast_S1x128_S16384x128_0_1, bcastRow_read bcast_S128_S1x128_1]
  rfl
theorem linAdd262144_eq (z x : FVec Ideal S262144x128 .f32) (W : FVec Ideal S128x128 .f32) (b : FVec Ideal S128 .f32) :
    T_c16 (F := Ideal) z x W b = lin (addM z x) W b := by
  funext j
  obtain ⟨r, q, rfl⟩ : ∃ r q, j = ix2 r q := ⟨j 0, j 1, eq_ix2 j⟩
  unfold T_c16
  simp only [addf_apply, dot_read_262144, bcastDown_read bcast_S1x128_S262144x128_0_1, bcastRow_read bcast_S128_S1x128_1]
  rfl
theorem gatherSum_eq (a : FVec Ideal S16384x128 .f32) (i0 i1 : IVec S262144 32) :
    T_c12_v236 (F := Ideal) a i0 i1 = addM (gatherRows i0 a) (gatherRows i1 a) := by
  funext j
  rfl
theorem z1E2_eq (x : FVec Ideal S16384x128 .f32) (i0 i1 : IVec S262144 32) (e : FVec Ideal S262144x128 .f32) (W : FVec Ideal S128x128 .f32) (b : FVec Ideal S128 .f32) :
    T_c12_v245 (F := Ideal) x i0 i1 e W b = lin (addM (addM (gatherRows i0 x) (gatherRows i1 x)) e) W b := by
  funext j
  obtain ⟨r, q, rfl⟩ : ∃ r q, j = ix2 r q := ⟨j 0, j 1, eq_ix2 j⟩
  unfold T_c12_v245
  simp only [addf_apply, dot_read_262144, bcastDown_read bcast_S1x128_S262144x128_0_1, bcastRow_read bcast_S128_S1x128_1]
  rfl
theorem bmmUp_eq (a : FVec Ideal S64x64x8 .f32) (b : FVec Ideal S64x8x128 .f32) : T_c22_v424 (F := Ideal) a b = bmm a b := by
  funext j
  obtain ⟨g, r, q, rfl⟩ : ∃ g r q, j = ix3 g r q := ⟨j 0, j 1, j 2, eq_ix3 j⟩
  exact bdot_read_8 a b g r q
theorem bmmDown_eq (a : FVec Ideal S64x64x256 .f32) (b : FVec Ideal S64x256x128 .f32) : T_c22_v425 (F := Ideal) a b = bmm a b := by
  funext j
  obtain ⟨g, r, q, rfl⟩ : ∃ g r q, j = ix3 g r q := ⟨j 0, j 1, j 2, eq_ix3 j⟩
  exact bdot_read_256 a b g r q
theorem bmmAdj_eq (a : FVec Ideal S64x64x64 .f32) (b : FVec Ideal S64x64x128 .f32) : T_c22_v426 (F := Ideal) a b = addM (bmm a b) b := by
  funext j
  obtain ⟨g, r, q, rfl⟩ : ∃ g r q, j = ix3 g r q := ⟨j 0, j 1, j 2, eq_ix3 j⟩
  unfold T_c22_v426
  simp only [addf_apply, bdot_read_64]
  rfl
theorem linFlat_eq (z : FVec Ideal S64x64x128 .f32) (W : FVec Ideal S128x128 .f32) (b : FVec Ideal S128 .f32) :
    T_c23 (F := Ideal) z W b = lin (flat (G := 64) (M := 64) rfl z) W b := by
  funext j
  obtain ⟨r, q, rfl⟩ : ∃ r q, j = ix2 r q := ⟨j 0, j 1, eq_ix2 j⟩
  unfold T_c23
  simp only [addf_apply, dot_read_4096, bcastDown_read bcast_S1x128_S4096x128_0_1, bcastRow_read bcast_S128_S1x128_1,
    cast_flat_read (G := 64) (M := 64) (C := 128) (R := 4096) rfl shapeCasts_S64x64x128_S4096x128]
  rfl
theorem add3d_eq (z a : FVec Ideal S64x64x128 .f32) : T_c27 (F := Ideal) z a = addM z a := by
  funext j
  rfl
theorem unflat_eq (z : FVec Ideal S4096x128 .f32) : T_c39 (F := Ideal) z = unflat (G := 64) (M := 64) rfl z := by
  funext j
  unfold T_c39
  exact cast_unflat_read (G := 64) (M := 64) (C := 128) (R := 4096) rfl shapeCasts_S4096x128_S64x64x128 z j
/-- x as 64 stacks of 256 rows, as the reference reshapes it. -/
theorem unflatX_eq (x : FVec Ideal S16384x128 .f32) :
    shapeCast S64x256x128 x shapeCasts_S16384x128_S64x256x128 = unflat (G := 64) (M := 256) rfl x := by
  funext j
  exact cast_unflat_read (G := 64) (M := 256) (C := 128) (R := 16384) rfl shapeCasts_S16384x128_S64x256x128 x j

end Cert.ReferenceIdeal.RLaw

end
-- ==== Proof.RInp.lean ====
/-
  The layer's inputs as the reference reads them off a core's launch memory: the argument arrays, the i-th slices of the
  stacked weight arrays for update i, and the host's own row gathers and scatter-add by the two rows of the edge list.
-/
import proofs.«427658_j89163521065156_2_alg».proof.Proof.Gen.ReferenceIdeal
import proofs.«427658_j89163521065156_2_alg».proof.Proof.RLawMisc
import proofs.«427658_j89163521065156_2_alg».proof.Proof.SpecNet

set_option maxRecDepth 8192

noncomputable section

open Idealize.ShloMosaic Idealize.ShloMosaic.ValueIdx Idealize.ShloMosaic.TcCoe Idealize.SL.Sem
open Cert.ReferenceIdeal Cert.ReferenceIdeal.Gen Cert.ReferenceIdeal.RLaw Cert.Spec

namespace Cert.ReferenceIdeal.RChain

variable (m : (ℓ : Loc nD τ sig) → Buf (Elt Ideal) ℓ)

/-- The edge list's source row and destination row. -/
def srcIdx (c : Dev nD) : IVec S262144 32 := shapeCast S262144 (extractStridedSlice S1x262144 ![0, 0] (m ((c.tc : Thread nD τ).loc main_arg2)) slices_S2x262144_S1x262144_0_0) shapeCasts_S1x262144_S262144
def dstIdx (c : Dev nD) : IVec S262144 32 := shapeCast S262144 (extractStridedSlice S1x262144 ![1, 0] (m ((c.tc : Thread nD τ).loc main_arg2)) slices_S2x262144_S1x262144_1_0) shapeCasts_S1x262144_S262144

/-- The layer's inputs as the reference reads them off core c's launch memory. -/
def inp (c : Dev nD) : Inp where
  x := m ((c.tc : Thread nD τ).loc main_arg0)
  e := m ((c.tc : Thread nD τ).loc main_arg1)
  attr1 := m ((c.tc : Thread nD τ).loc main_arg3)
  attr2 := m ((c.tc : Thread nD τ).loc main_arg4)
  adj1 := m ((c.tc : Thread nD τ).loc main_arg5)
  nc1 := m ((c.tc : Thread nD τ).loc main_arg6)
  nc2 := m ((c.tc : Thread nD τ).loc main_arg7)
  cn1 := m ((c.tc : Thread nD τ).loc main_arg8)
  msgW := m ((c.tc : Thread nD τ).loc main_arg9)
  msgb := m ((c.tc : Thread nD τ).loc main_arg10)
  W1 := fun i => (![(shapeCast S128x128 (extractStridedSlice S1x128x128 ![0, 0, 0] (m ((c.tc : Thread nD τ).loc main_arg11)) slices_S7x128x128_S1x128x128_0_0_0) shapeCasts_S1x128x128_S128x128),
      (shapeCast S128x128 (extractStridedSlice S1x128x128 ![1, 0, 0] (m ((c.tc : Thread nD τ).loc main_arg11)) slices_S7x128x128_S1x128x128_1_0_0) shapeCasts_S1x128x128_S128x128),
      (shapeCast S128x128 (extractStridedSlice S1x128x128 ![2, 0, 0] (m ((c.tc : Thread nD τ).loc main_arg11)) slices_S7x128x128_S1x128x128_2_0_0) shapeCasts_S1x128x128_S128x128),
      (shapeCast S128x128 (extractStridedSlice S1x128x128 ![3, 0, 0] (m ((c.tc : Thread nD τ).loc main_arg11)) slices_S7x128x128_S1x128x128_3_0_0) shapeCasts_S1x128x128_S128x128),
      (shapeCast S128x128 (extractStridedSlice S1x128x128 ![4, 0, 0] (m ((c.tc : Thread nD τ).loc main_arg11)) slices_S7x128x128_S1x128x128_4_0_0) shapeCasts_S1x128x128_S128x128),
      (shapeCast S128x128 (extractStridedSlice S1x128x128 ![5, 0, 0] (m ((c.tc : Thread nD τ).loc main_arg11)) slices_S7x128x128_S1x128x128_5_0_0) shapeCasts_S1x128x128_S128x128),
      (shapeCast S128x128 (extractStridedSlice S1x128x128 ![6, 0, 0] (m ((c.tc : Thread nD τ).loc main_arg11)) slices_S7x128x128_S1x128x128_6_0_0) shapeCasts_S1x128x128_S128x128)] : Fin 7 → _) i
  b1 := fun i => (![(shapeCast S128 (extractStridedSlice S1x128 ![0, 0] (m ((c.tc : Thread nD τ).loc main_arg12)) slices_S7x128_S1x128_0_0) shapeCasts_S1x128_S128),
      (shapeCast S128 (extractStridedSlice S1x128 ![1, 0] (m ((c.tc : Thread nD τ).loc main_arg12)) slices_S7x128_S1x128_1_0) shapeCasts_S1x128_S128),
      (shapeCast S128 (extractStridedSlice S1x128 ![2, 0] (m ((c.tc : Thread nD τ).loc main_arg12)) slices_S7x128_S1x128_2_0) shapeCasts_S1x128_S128),
      (shapeCast S128 (extractStridedSlice S1x128 ![3, 0] (m ((c.tc : Thread nD τ).loc main_arg12)) slices_S7x128_S1x128_3_0) shapeCasts_S1x128_S128),
      (shapeCast S128 (extractStridedSlice S1x128 ![4, 0] (m ((c.tc : Thread nD τ).loc main_arg12)) slices_S7x128_S1x128_4_0) shapeCasts_S1x128_S128),
      (shapeCast S128 (extractStridedSlice S1x128 ![5, 0] (m ((c.tc : Thread nD τ).loc main_arg12)) slices_S7x128_S1x128_5_0) shapeCasts_S1x128_S128),
      (shapeCast S128 (extractStridedSlice S1x128 ![6, 0] (m ((c.tc : Thread nD τ).loc main_arg12)) slices_S7x128_S1x128_6_0) shapeCasts_S1x128_S128)] : Fin 7 → _) i
  g1 := fun i => (![(shapeCast S128 (extractStridedSlice S1x128 ![0, 0] (m ((c.tc : Thread nD τ).loc main_arg13)) slices_S7x128_S1x128_0_0) shapeCasts_S1x128_S128),
      (shapeCast S128 (extractStridedSlice S1x128 ![1, 0] (m ((c.tc : Thread nD τ).loc main_arg13)) slices_S7x128_S1x128_1_0) shapeCasts_S1x128_S128),
      (shapeCast S128 (extractStridedSlice S1x128 ![2, 0] (m ((c.tc : Thread nD τ).loc main_arg13)) slices_S7x128_S1x128_2_0) shapeCasts_S1x128_S128),
      (shapeCast S128 (extractStridedSlice S1x128 ![3, 0] (m ((c.tc : Thread nD τ).loc main_arg13)) slices_S7x128_S1x128_3_0) shapeCasts_S1x128_S128),
      (shapeCast S128 (extractStridedSlice S1x128 ![4, 0] (m ((c.tc : Thread nD τ).loc main_arg13)) slices_S7x128_S1x128_4_0) shapeCasts_S1x128_S128),
      (shapeCast S128 (extractStridedSlice S1x128 ![5, 0] (m ((c.tc : Thread nD τ).loc main_arg13)) slices_S7x128_S1x128_5_0) shapeCasts_S1x128_S128),
      (shapeCast S128 (extractStridedSlice S1x128 ![6, 0] (m ((c.tc : Thread nD τ).loc main_arg13)) slices_S7x128_S1x128_6_0) shapeCasts_S1x128_S128)] : Fin 7 → _) i
  be1 := fun i => (![(shapeCast S128 (extractStridedSlice S1x128 ![0, 0] (m ((c.tc : Thread nD τ).loc main_arg14)) slices_S7x128_S1x128_0_0) shapeCasts_S1x128_S128),
      (shapeCast S128 (extractStridedSlice S1x128 ![1, 0] (m ((c.tc : Thread nD τ).loc main_arg14)) slices_S7x128_S1x128_1_0) shapeCasts_S1x128_S128),
      (shapeCast S128 (extractStridedSlice S1x128 ![2, 0] (m ((c.tc : Thread nD τ).loc main_arg14)) slices_S7x128_S1x128_2_0) shapeCasts_S1x128_S128),
      (shapeCast S128 (extractStridedSlice S1x128 ![3, 0] (m ((c.tc : Thread nD τ).loc main_arg14)) slices_S7x128_S1x128_3_0) shapeCasts_S1x128_S128),
      (shapeCast S128 (extractStridedSlice S1x128 ![4, 0] (m ((c.tc : Thread nD τ).loc main_arg14)) slices_S7x128_S1x128_4_0) shapeCasts_S1x128_S128),
      (shapeCast S128 (extractStridedSlice S1x128 ![5, 0] (m ((c.tc : Thread nD τ).loc main_arg14)) slices_S7x128_S1x128_5_0) shapeCasts_S1x128_S128),
      (shapeCast S128 (extractStridedSlice S1x128 ![6, 0] (m ((c.tc : Thread nD τ).loc main_arg14)) slices_S7x128_S1x128_6_0) shapeCasts_S1x128_S128)] : Fin 7 → _) i
  W2 := fun i => (![(shapeCast S128x128 (extractStridedSlice S1x128x128 ![0, 0, 0] (m ((c.tc : Thread nD τ).loc main_arg15)) slices_S7x128x128_S1x128x128_0_0_0) shapeCasts_S1x128x128_S128x128),
      (shapeCast S128x128 (extractStridedSlice S1x128x128 ![1, 0, 0] (m ((c.tc : Thread nD τ).loc main_arg15)) slices_S7x128x128_S1x128x128_1_0_0) shapeCasts_S1x128x128_S128x128),
      (shapeCast S128x128 (extractStridedSlice S1x128x128 ![2, 0, 0] (m ((c.tc : Thread nD τ).loc main_arg15)) slices_S7x128x128_S1x128x128_2_0_0) shapeCasts_S1x128x128_S128x128),
      (shapeCast S128x128 (extractStridedSlice S1x128x128 ![3, 0, 0] (m ((c.tc : Thread nD τ).loc main_arg15)) slices_S7x128x128_S1x128x128_3_0_0) shapeCasts_S1x128x128_S128x128),
      (shapeCast S128x128 (extractStridedSlice S1x128x128 ![4, 0, 0] (m ((c.tc : Thread nD τ).loc main_arg15)) slices_S7x128x128_S1x128x128_4_0_0) shapeCasts_S1x128x128_S128x128),
      (shapeCast S128x128 (extractStridedSlice S1x128x128 ![5, 0, 0] (m ((c.tc : Thread nD τ).loc main_arg15)) slices_S7x128x128_S1x128x128_5_0_0) shapeCasts_S1x128x128_S128x128),
      (shapeCast S128x128 (extractStridedSlice S1x128x128 ![6, 0, 0] (m ((c.tc : Thread nD τ).loc main_arg15)) slices_S7x128x128_S1x128x128_6_0_0) shapeCasts_S1x128x128_S128x128)] : Fin 7 → _) i
  b2 := fun i => (![(shapeCast S128 (extractStridedSlice S1x128 ![0, 0] (m ((c.tc : Thread nD τ).loc main_arg16)) slices_S7x128_S1x128_0_0) shapeCasts_S1x128_S128),
      (shapeCast S128 (extractStridedSlice S1x128 ![1, 0] (m ((c.tc : Thread nD τ).loc main_arg16)) slices_S7x128_S1x128_1_0) shapeCasts_S1x128_S128),
      (shapeCast S128 (extractStridedSlice S1x128 ![2, 0] (m ((c.tc : Thread nD τ).loc main_arg16)) slices_S7x128_S1x128_2_0) shapeCasts_S1x128_S128),
      (shapeCast S128 (extractStridedSlice S1x128 ![3, 0] (m ((c.tc : Thread nD τ).loc main_arg16)) slices_S7x128_S1x128_3_0) shapeCasts_S1x128_S128),
      (shapeCast S128 (extractStridedSlice S1x128 ![4, 0] (m ((c.tc : Thread nD τ).loc main_arg16)) slices_S7x128_S1x128_4_0) shapeCasts_S1x128_S128),
      (shapeCast S128 (extractStridedSlice S1x128 ![5, 0] (m ((c.tc : Thread nD τ).loc main_arg16)) slices_S7x128_S1x128_5_0) shapeCasts_S1x128_S128),
      (shapeCast S128 (extractStridedSlice S1x128 ![6, 0] (m ((c.tc : Thread nD τ).loc main_arg16)) slices_S7x128_S1x128_6_0) shapeCasts_S1x128_S128)] : Fin 7 → _) i
  g2 := fun i => (![(shapeCast S128 (extractStridedSlice S1x128 ![0, 0] (m ((c.tc : Thread nD τ).loc main_arg17)) slices_S7x128_S1x128_0_0) shapeCasts_S1x128_S128),
      (shapeCast S128 (extractStridedSlice S1x128 ![1, 0] (m ((c.tc : Thread nD τ).loc main_arg17)) slices_S7x128_S1x128_1_0) shapeCasts_S1x128_S128),
      (shapeCast S128 (extractStridedSlice S1x128 ![2, 0] (m ((c.tc : Thread nD τ).loc main_arg17)) slices_S7x128_S1x128_2_0) shapeCasts_S1x128_S128),
      (shapeCast S128 (extractStridedSlice S1x128 ![3, 0] (m ((c.tc : Thread nD τ).loc main_arg17)) slices_S7x128_S1x128_3_0) shapeCasts_S1x128_S128),
      (shapeCast S128 (extractStridedSlice S1x128 ![4, 0] (m ((c.tc : Thread nD τ).loc main_arg17)) slices_S7x128_S1x128_4_0) shapeCasts_S1x128_S128),
      (shapeCast S128 (extractStridedSlice S1x128 ![5, 0] (m ((c.tc : Thread nD τ).loc main_arg17)) slices_S7x128_S1x128_5_0) shapeCasts_S1x128_S128),
      (shapeCast S128 (extractStridedSlice S1x128 ![6, 0] (m ((c.tc : Thread nD τ).loc main_arg17)) slices_S7x128_S1x128_6_0) shapeCasts_S1x128_S128)] : Fin 7 → _) i
  be2 := fun i => (![(shapeCast S128 (extractStridedSlice S1x128 ![0, 0] (m ((c.tc : Thread nD τ).loc main_arg18)) slices_S7x128_S1x128_0_0) shapeCasts_S1x128_S128),
      (shapeCast S128 (extractStridedSlice S1x128 ![1, 0] (m ((c.tc : Thread nD τ).loc main_arg18)) slices_S7x128_S1x128_1_0) shapeCasts_S1x128_S128),
      (shapeCast S128 (extractStridedSlice S1x128 ![2, 0] (m ((c.tc : Thread nD τ).loc main_arg18)) slices_S7x128_S1x128_2_0) shapeCasts_S1x128_S128),
      (shapeCast S128 (extractStridedSlice S1x128 ![3, 0] (m ((c.tc : Thread nD τ).loc main_arg18)) slices_S7x128_S1x128_3_0) shapeCasts_S1x128_S128),
      (shapeCast S128 (extractStridedSlice S1x128 ![4, 0] (m ((c.tc : Thread nD τ).loc main_arg18)) slices_S7x128_S1x128_4_0) shapeCasts_S1x128_S128),
      (shapeCast S128 (extractStridedSlice S1x128 ![5, 0] (m ((c.tc : Thread nD τ).loc main_arg18)) slices_S7x128_S1x128_5_0) shapeCasts_S1x128_S128),
      (shapeCast S128 (extractStridedSlice S1x128 ![6, 0] (m ((c.tc : Thread nD τ).loc main_arg18)) slices_S7x128_S1x128_6_0) shapeCasts_S1x128_S128)] : Fin 7 → _) i
  nW := m ((c.tc : Thread nD τ).loc main_arg19)
  nb := m ((c.tc : Thread nD τ).loc main_arg20)
  ng := m ((c.tc : Thread nD τ).loc main_arg21)
  nbe := m ((c.tc : Thread nD τ).loc main_arg22)
  eW := m ((c.tc : Thread nD τ).loc main_arg23)
  eb := m ((c.tc : Thread nD τ).loc main_arg24)
  eg := m ((c.tc : Thread nD τ).loc main_arg25)
  ebe := m ((c.tc : Thread nD τ).loc main_arg26)
  sW := m ((c.tc : Thread nD τ).loc main_arg27)
  sb := m ((c.tc : Thread nD τ).loc main_arg28)
  sg := m ((c.tc : Thread nD τ).loc main_arg29)
  sbe := m ((c.tc : Thread nD τ).loc main_arg30)
  gatS := gatherRows (srcIdx m c)
  gatD := gatherRows (dstIdx m c)
  scaD := scatterRows (dstIdx m c)

end Cert.ReferenceIdeal.RChain

end
-- ==== Proof.RChainC.lean ====
/-
  The reference program computes the layer — the edge list's rows, the pooled clusters as node rows, and the edge messages: each named intermediate value is the corresponding value of the
  specification's network at the inputs read off the launch memory.
-/
import proofs.«427658_j89163521065156_2_alg».proof.Proof.RVal
import proofs.«427658_j89163521065156_2_alg».proof.Proof.RLawBn
import proofs.«427658_j89163521065156_2_alg».proof.Proof.RLawLin
import proofs.«427658_j89163521065156_2_alg».proof.Proof.RLawMisc
import proofs.«427658_j89163521065156_2_alg».proof.Proof.RInp

set_option maxRecDepth 8192

noncomputable section

open Idealize.ShloMosaic Idealize.ShloMosaic.ValueIdx Idealize.ShloMosaic.TcCoe Idealize.SL.Sem
open Cert.ReferenceIdeal Cert.ReferenceIdeal.Gen Cert.ReferenceIdeal.RLaw Cert.Spec

namespace Cert.ReferenceIdeal.RChain

variable (m : (ℓ : Loc nD τ sig) → Buf (Elt Ideal) ℓ)

open Cert.ReferenceIdeal.RVal

theorem v1_net (c : Dev nD) : v1 (F := Ideal) m c = srcIdx m c := by
  rw [v1_eq]
  rfl
theorem v3_net (c : Dev nD) : v3 (F := Ideal) m c = dstIdx m c := by
  rw [v3_eq]
  rfl
theorem v5_net (c : Dev nD) : v5 (F := Ideal) m c = Net.up (inp m c) := by
  rw [v5_eq, RLaw.up_eq]
  rfl
theorem v17_net (c : Dev nD) : v17 (F := Ideal) m c = Net.msgPre (inp m c) := by
  rw [v17_eq, RLaw.msgPre_eq]
  rfl
theorem v18_net (c : Dev nD) : v18 (F := Ideal) m c = Net.msg (inp m c) := by
  rw [v18_eq, RLaw.relu262144_eq, v17_net]
  rfl

end Cert.ReferenceIdeal.RChain

end
-- ==== Proof.RChainN.lean ====
/-
  The reference program computes the layer — the node branch: each named intermediate value is the corresponding value of the
  specification's network at the inputs read off the launch memory.
-/
import proofs.«427658_j89163521065156_2_alg».proof.Proof.RVal
import proofs.«427658_j89163521065156_2_alg».proof.Proof.RLawBn
import proofs.«427658_j89163521065156_2_alg».proof.Proof.RLawLin
import proofs.«427658_j89163521065156_2_alg».proof.Proof.RLawMisc
import proofs.«427658_j89163521065156_2_alg».proof.Proof.RInp
import proofs.«427658_j89163521065156_2_alg».proof.Proof.RChainC

set_option maxRecDepth 8192

noncomputable section

open Idealize.ShloMosaic Idealize.ShloMosaic.ValueIdx Idealize.ShloMosaic.TcCoe Idealize.SL.Sem
open Cert.ReferenceIdeal Cert.ReferenceIdeal.Gen Cert.ReferenceIdeal.RLaw Cert.Spec

namespace Cert.ReferenceIdeal.RChain

variable (m : (ℓ : Loc nD τ sig) → Buf (Elt Ideal) ℓ)

open Cert.ReferenceIdeal.RVal

theorem v30_net (c : Dev nD) : v30 (F := Ideal) m c = Net.z1N (inp m c) 0 (Net.inN0 (inp m c)) := by
  rw [v30_eq, RLaw.z1N0_eq, v3_net, v18_net]
  rfl
theorem v60_net (c : Dev nD) : v60 (F := Ideal) m c = Net.h1N (inp m c) 0 (Net.inN0 (inp m c)) := by
  rw [v60_eq, RLaw.bn16384, v30_net]
  rfl
theorem v68_net (c : Dev nD) : v68 (F := Ideal) m c = Net.z2N (inp m c) 0 (Net.inN0 (inp m c)) := by
  rw [v68_eq, RLaw.lin16384, v60_net]
  rfl
theorem v98_net (c : Dev nD) : v98 (F := Ideal) m c = Net.uN (inp m c) 0 (Net.inN0 (inp m c)) := by
  rw [v98_eq, RLaw.bn16384, v68_net]
  rfl
theorem v107_net (c : Dev nD) : v107 (F := Ideal) m c = Net.z1N (inp m c) 1 (Net.inN1 (inp m c)) := by
  rw [v107_eq, RLaw.linAdd16384_eq, v5_net]
  rfl
theorem v137_net (c : Dev nD) : v137 (F := Ideal) m c = Net.h1N (inp m c) 1 (Net.inN1 (inp m c)) := by
  rw [v137_eq, RLaw.bn16384, v107_net]
  rfl
theorem v145_net (c : Dev nD) : v145 (F := Ideal) m c = Net.z2N (inp m c) 1 (Net.inN1 (inp m c)) := by
  rw [v145_eq, RLaw.lin16384, v137_net]
  rfl
theorem v175_net (c : Dev nD) : v175 (F := Ideal) m c = Net.uN (inp m c) 1 (Net.inN1 (inp m c)) := by
  rw [v175_eq, RLaw.bn16384, v145_net]
  rfl
theorem v180_net (c : Dev nD) : v180 (F := Ideal) m c = Net.zcN (inp m c) := by
  rw [v180_eq, RLaw.comb16384, v98_net, v175_net]
  rfl
theorem v206_net (c : Dev nD) : v206 (F := Ideal) m c = Net.xOut (inp m c) := by
  rw [v206_eq, RLaw.bn16384, v180_net]
  rfl

end Cert.ReferenceIdeal.RChain

end
-- ==== Proof.RChainE.lean ====
/-
  The reference program computes the layer — the edge branch: each named intermediate value is the corresponding value of the
  specification's network at the inputs read off the launch memory.
-/
import proofs.«427658_j89163521065156_2_alg».proof.Proof.RVal
import proofs.«427658_j89163521065156_2_alg».proof.Proof.RLawBn
import proofs.«427658_j89163521065156_2_alg».proof.Proof.RLawLin
import proofs.«427658_j89163521065156_2_alg».proof.Proof.RLawMisc
import proofs.«427658_j89163521065156_2_alg».proof.Proof.RInp
import proofs.«427658_j89163521065156_2_alg».proof.Proof.RChainC

set_option maxRecDepth 8192

noncomputable section

open Idealize.ShloMosaic Idealize.ShloMosaic.ValueIdx Idealize.ShloMosaic.TcCoe Idealize.SL.Sem
open Cert.ReferenceIdeal Cert.ReferenceIdeal.Gen Cert.ReferenceIdeal.RLaw Cert.Spec

namespace Cert.ReferenceIdeal.RChain

variable (m : (ℓ : Loc nD τ sig) → Buf (Elt Ideal) ℓ)

open Cert.ReferenceIdeal.RVal

/-- The pooled clusters gathered by the destination rows plus the same gathered by the source rows. -/
theorem v236_net (c : Dev nD) : v236 (F := Ideal) m c = addM (Net.updst (inp m c)) (Net.upsrc (inp m c)) := by
  rw [v236_eq, RLaw.gatherSum_eq, v5_net, v3_net, v1_net]
  rfl
/-- Update 2's first linear map, on (x[dst] + x[src]) + e. -/
theorem v245_net (c : Dev nD) : v245 (F := Ideal) m c = Net.z1E (inp m c) 2 (Net.inE2 (inp m c)) := by
  rw [v245_eq, RLaw.z1E2_eq, v3_net, v1_net]
  rfl
/-- … normalised and ramped. -/
theorem v275_net (c : Dev nD) : v275 (F := Ideal) m c = Net.h1E (inp m c) 2 (Net.inE2 (inp m c)) := by
  rw [v275_eq, RLaw.bn262144, v245_net]
  rfl
/-- Update 2's second linear map. -/
theorem v283_net (c : Dev nD) : v283 (F := Ideal) m c = Net.z2E (inp m c) 2 (Net.inE2 (inp m c)) := by
  rw [v283_eq, RLaw.lin262144, v275_net]
  rfl
/-- Update 2's output. -/
theorem v313_net (c : Dev nD) : v313 (F := Ideal) m c = Net.uE (inp m c) 2 (Net.inE2 (inp m c)) := by
  rw [v313_eq, RLaw.bn262144, v283_net]
  rfl
/-- Update 3's first linear map, on (up[dst] + up[src]) + e. -/
theorem v322_net (c : Dev nD) : v322 (F := Ideal) m c = Net.z1E (inp m c) 3 (Net.inE3 (inp m c)) := by
  rw [v322_eq, RLaw.linAdd262144_eq, v236_net]
  rfl
/-- … normalised and ramped. -/
theorem v352_net (c : Dev nD) : v352 (F := Ideal) m c = Net.h1E (inp m c) 3 (Net.inE3 (inp m c)) := by
  rw [v352_eq, RLaw.bn262144, v322_net]
  rfl
/-- Update 3's second linear map. -/
theorem v360_net (c : Dev nD) : v360 (F := Ideal) m c = Net.z2E (inp m c) 3 (Net.inE3 (inp m c)) := by
  rw [v360_eq, RLaw.lin262144, v352_net]
  rfl
/-- Update 3's output. -/
theorem v390_net (c : Dev nD) : v390 (F := Ideal) m c = Net.uE (inp m c) 3 (Net.inE3 (inp m c)) := by
  rw [v390_eq, RLaw.bn262144, v360_net]
  rfl
/-- The two updates' outputs side by side through the combining linear map. -/
theorem v395_net (c : Dev nD) : v395 (F := Ideal) m c = Net.zcE (inp m c) := by
  rw [v395_eq, RLaw.comb262144, v313_net, v390_net]
  rfl
/-- The edge branch's result: the last normalisation. -/
theorem v421_net (c : Dev nD) : v421 (F := Ideal) m c = Net.eOut (inp m c) := by
  rw [v421_eq, RLaw.bn262144, v395_net]
  rfl

end Cert.ReferenceIdeal.RChain

end
-- ==== Proof.RChainS.lean ====
/-
  The reference program computes the layer — the cluster branch: each named intermediate value is the corresponding value of the
  specification's network at the inputs read off the launch memory.
-/
import proofs.«427658_j89163521065156_2_alg».proof.Proof.RVal
import proofs.«427658_j89163521065156_2_alg».proof.Proof.RLawBn
import proofs.«427658_j89163521065156_2_alg».proof.Proof.RLawLin
import proofs.«427658_j89163521065156_2_alg».proof.Proof.RLawMisc
import proofs.«427658_j89163521065156_2_alg».proof.Proof.RInp
import proofs.«427658_j89163521065156_2_alg».proof.Proof.RChainC

set_option maxRecDepth 8192

noncomputable section

open Idealize.ShloMosaic Idealize.ShloMosaic.ValueIdx Idealize.ShloMosaic.TcCoe Idealize.SL.Sem
open Cert.ReferenceIdeal Cert.ReferenceIdeal.Gen Cert.ReferenceIdeal.RLaw Cert.Spec

namespace Cert.ReferenceIdeal.RChain

variable (m : (ℓ : Loc nD τ sig) → Buf (Elt Ideal) ℓ)

open Cert.ReferenceIdeal.RVal

theorem v424_net (c : Dev nD) : v424 (F := Ideal) m c = bmm (inp m c).nc2 (inp m c).attr2 := by
  rw [v424_eq, RLaw.bmmUp_eq]
  rfl
theorem v425_net (c : Dev nD) : v425 (F := Ideal) m c = bmm (inp m c).cn1 (unflat (G := 64) (M := 256) rfl (inp m c).x) := by
  rw [v425_eq, RLaw.bmmDown_eq, RLaw.unflatX_eq]
  rfl
theorem v426_net (c : Dev nD) : v426 (F := Ideal) m c = addM (bmm (inp m c).adj1 (inp m c).attr1) (inp m c).attr1 := by
  rw [v426_eq, RLaw.bmmAdj_eq]
  rfl
theorem v435_net (c : Dev nD) : v435 (F := Ideal) m c = Net.z1S (inp m c) 4 (Net.inS4 (inp m c)) := by
  rw [v435_eq, RLaw.linFlat_eq, v426_net]
  rfl
theorem v465_net (c : Dev nD) : v465 (F := Ideal) m c = Net.h1S (inp m c) 4 (Net.inS4 (inp m c)) := by
  rw [v465_eq, RLaw.bn4096, v435_net]
  rfl
theorem v473_net (c : Dev nD) : v473 (F := Ideal) m c = Net.z2S (inp m c) 4 (Net.inS4 (inp m c)) := by
  rw [v473_eq, RLaw.lin4096, v465_net]
  rfl
theorem v503_net (c : Dev nD) : v503 (F := Ideal) m c = Net.uS (inp m c) 4 (Net.inS4 (inp m c)) := by
  rw [v503_eq, RLaw.bn4096, v473_net]
  rfl
theorem v504_net (c : Dev nD) : v504 (F := Ideal) m c = addM (bmm (inp m c).nc2 (inp m c).attr2) (inp m c).attr1 := by
  rw [v504_eq, RLaw.add3d_eq, v424_net]
  rfl
theorem v513_net (c : Dev nD) : v513 (F := Ideal) m c = Net.z1S (inp m c) 5 (Net.inS5 (inp m c)) := by
  rw [v513_eq, RLaw.linFlat_eq, v504_net]
  rfl
theorem v543_net (c : Dev nD) : v543 (F := Ideal) m c = Net.h1S (inp m c) 5 (Net.inS5 (inp m c)) := by
  rw [v543_eq, RLaw.bn4096, v513_net]
  rfl
theorem v551_net (c : Dev nD) : v551 (F := Ideal) m c = Net.z2S (inp m c) 5 (Net.inS5 (inp m c)) := by
  rw [v551_eq, RLaw.lin4096, v543_net]
  rfl
theorem v581_net (c : Dev nD) : v581 (F := Ideal) m c = Net.uS (inp m c) 5 (Net.inS5 (inp m c)) := by
  rw [v581_eq, RLaw.bn4096, v551_net]
  rfl
theorem v582_net (c : Dev nD) : v582 (F := Ideal) m c = addM (bmm (inp m c).cn1 (unflat (G := 64) (M := 256) rfl (inp m c).x)) (inp m c).attr1 := by
  rw [v582_eq, RLaw.add3d_eq, v425_net]
  rfl
theorem v591_net (c : Dev nD) : v591 (F := Ideal) m c = Net.z1S (inp m c) 6 (Net.inS6 (inp m c)) := by
  rw [v591_eq, RLaw.linFlat_eq, v582_net]
  rfl
theorem v621_net (c : Dev nD) : v621 (F := Ideal) m c = Net.h1S (inp m c) 6 (Net.inS6 (inp m c)) := by
  rw [v621_eq, RLaw.bn4096, v591_net]
  rfl
theorem v629_net (c : Dev nD) : v629 (F := Ideal) m c = Net.z2S (inp m c) 6 (Net.inS6 (inp m c)) := by
  rw [v629_eq, RLaw.lin4096, v621_net]
  rfl
theorem v659_net (c : Dev nD) : v659 (F := Ideal) m c = Net.uS (inp m c) 6 (Net.inS6 (inp m c)) := by
  rw [v659_eq, RLaw.bn4096, v629_net]
  rfl
theorem v664_net (c : Dev nD) : v664 (F := Ideal) m c = Net.zcS (inp m c) := by
  rw [v664_eq, RLaw.comb4096, v503_net, v581_net, v659_net]
  rfl
theorem v690_net (c : Dev nD) : v690 (F := Ideal) m c = Net.sFlat (inp m c) := by
  rw [v690_eq, RLaw.bn4096, v664_net]
  rfl
theorem v691_net (c : Dev nD) : v691 (F := Ideal) m c = Net.sOut (inp m c) := by
  rw [v691_eq, RLaw.unflat_eq, v690_net]
  rfl

end Cert.ReferenceIdeal.RChain

end
-- ==== Proof.InpEq.lean ====
/-
  From memories that agree on the arguments, the two programs read the same inputs: the same arrays, the same slices of the
  stacked weights, and the same gathers and scatter-add (the same host operations by the same two rows of the edge list).
-/
import proofs.«427658_j89163521065156_2_alg».proof.Defs
import proofs.«427658_j89163521065156_2_alg».proof.Proof.KInp
import proofs.«427658_j89163521065156_2_alg».proof.Proof.RInp

set_option maxRecDepth 8192

noncomputable section

open Idealize.ShloMosaic Idealize.ShloMosaic.TcCoe Idealize.SL.Sem Cert.Spec

namespace Cert.Proof

/-- The kernel program's inputs off m are the reference's off m' when m' agrees with m on every argument (core by core). -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.KernelIdeal.KChain.inp m c = Cert.ReferenceIdeal.RChain.inp m' c := by
  obtain ⟨h0, h1, h2, h3, h4, h5, h6, h7, h8, h9, h10, h11, h12, h13, h14, h15, h16, h17, h18, h19, h20, h21, h22, h23, h24, h25, h26, h27, h28, h29, h30⟩ := h
  unfold Cert.KernelIdeal.KChain.inp Cert.ReferenceIdeal.RChain.inp Cert.KernelIdeal.KChain.srcIdx Cert.KernelIdeal.KChain.dstIdx
    Cert.ReferenceIdeal.RChain.srcIdx Cert.ReferenceIdeal.RChain.dstIdx
  simp only [h0, h1, h2, h3, h4, h5, h6, h7, h8, h9, h10, h11, h12, h13, h14, h15, h16, h17, h18, h19, h20, h21, h22, h23, h24, h25, h26, h27, h28, h29, h30]
  rfl

end Cert.Proof

end
-- ==== Proof.lean ====
/-
  The certificate. Both programs run (the kernel program by its generated frames; the reference as the straight line of its
  host operations), the idealization changed nothing, and on the extended reals the two compute the same graph-network layer:
  the kernel's tiled products, per-tile statistics and raw-moment normalisations are, for finite inputs, the reference's
  products, column means and centred normalisations — the variance law Σ(z − m)²/n = Σz²/n − m² ≥ 0 — so the three results agree.
-/
import proofs.«427658_j89163521065156_2_alg».proof.Defs
import proofs.«427658_j89163521065156_2_alg».proof.Proof.Gen.Kernel
import proofs.«427658_j89163521065156_2_alg».proof.Proof.FrameKernel.Main
import proofs.«427658_j89163521065156_2_alg».proof.Proof.Gen.KernelIdeal
import proofs.«427658_j89163521065156_2_alg».proof.Proof.FrameKernelIdeal.Main
import proofs.«427658_j89163521065156_2_alg».proof.Proof.Gen.ReferenceIdeal
import proofs.«427658_j89163521065156_2_alg».proof.Proof.Gen.Pre_finite_inputs
import proofs.«427658_j89163521065156_2_alg».proof.Proof.KRun
import proofs.«427658_j89163521065156_2_alg».proof.Proof.KChainN
import proofs.«427658_j89163521065156_2_alg».proof.Proof.KChainE
import proofs.«427658_j89163521065156_2_alg».proof.Proof.KChainS
import proofs.«427658_j89163521065156_2_alg».proof.Proof.KInpReal
import proofs.«427658_j89163521065156_2_alg».proof.Proof.RChainN
import proofs.«427658_j89163521065156_2_alg».proof.Proof.RChainE
import proofs.«427658_j89163521065156_2_alg».proof.Proof.RChainS
import proofs.«427658_j89163521065156_2_alg».proof.Proof.InpEq

set_option maxRecDepth 16384

noncomputable section

namespace Cert.Proof

open Idealize.ShloMosaic Idealize.SL.Sem Cert.Spec

/-- The kernel program runs and leaves its arguments unchanged (the generated frame). -/
theorem frame_p : Cert.frame_Kernel := fun m ρ _ => Cert.Kernel.Gen.frame m ρ
/-- The same read at the extended reals. -/
theorem frame_pi : Cert.frame_KernelIdeal := fun m ρ _ => Cert.KernelIdeal.Gen.frame m ρ
/-- The reference runs: its straight line of host operations ends with every buffer at the fold of their results, and no operation writes an argument. -/
theorem frame_ri : Cert.frame_ReferenceIdeal := fun m ρ _ =>
  (θ_run Cert.ReferenceIdeal.defs _ _).mono
    (fun r h c => ⟨(h c _).trans (Cert.ReferenceIdeal.RVal.arg0_final m c),
      (h c _).trans (Cert.ReferenceIdeal.RVal.arg1_final m c),
      (h c _).trans (Cert.ReferenceIdeal.RVal.arg2_final m c),
      (h c _).trans (Cert.ReferenceIdeal.RVal.arg3_final m c),
      (h c _).trans (Cert.ReferenceIdeal.RVal.arg4_final m c),
      (h c _).trans (Cert.ReferenceIdeal.RVal.arg5_final m c),
      (h c _).trans (Cert.ReferenceIdeal.RVal.arg6_final m c),
      (h c _).trans (Cert.ReferenceIdeal.RVal.arg7_final m c),
      (h c _).trans (Cert.ReferenceIdeal.RVal.arg8_final m c),
      (h c _).trans (Cert.ReferenceIdeal.RVal.arg9_final m c),
      (h c _).trans (Cert.ReferenceIdeal.RVal.arg10_final m c),
      (h c _).trans (Cert.ReferenceIdeal.RVal.arg11_final m c),
      (h c _).trans (Cert.ReferenceIdeal.RVal.arg12_final m c),
      (h c _).trans (Cert.ReferenceIdeal.RVal.arg13_final m c),
      (h c _).trans (Cert.ReferenceIdeal.RVal.arg14_final m c),
      (h c _).trans (Cert.ReferenceIdeal.RVal.arg15_final m c),
      (h c _).trans (Cert.ReferenceIdeal.RVal.arg16_final m c),
      (h c _).trans (Cert.ReferenceIdeal.RVal.arg17_final m c),
      (h c _).trans (Cert.ReferenceIdeal.RVal.arg18_final m c),
      (h c _).trans (Cert.ReferenceIdeal.RVal.arg19_final m c),
      (h c _).trans (Cert.ReferenceIdeal.RVal.arg20_final m c),
      (h c _).trans (Cert.ReferenceIdeal.RVal.arg21_final m c),
      (h c _).trans (Cert.ReferenceIdeal.RVal.arg22_final m c),
      (h c _).trans (Cert.ReferenceIdeal.RVal.arg23_final m c),
      (h c _).trans (Cert.ReferenceIdeal.RVal.arg24_final m c),
      (h c _).trans (Cert.ReferenceIdeal.RVal.arg25_final m c),
      (h c _).trans (Cert.ReferenceIdeal.RVal.arg26_final m c),
      (h c _).trans (Cert.ReferenceIdeal.RVal.arg27_final m c),
      (h c _).trans (Cert.ReferenceIdeal.RVal.arg28_final m c),
      (h c _).trans (Cert.ReferenceIdeal.RVal.arg29_final m c),
      (h c _).trans (Cert.ReferenceIdeal.RVal.arg30_final m c)⟩)
    (Cert.ReferenceIdeal.RRun.run_cut m ρ)

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The three results agree: both are the layer's results at the one set of inputs. -/
theorem xOut_eq (c : Dev Cert.KernelIdeal.nD) (hI : (Cert.KernelIdeal.KChain.inp m c).Real)
    (hin : Cert.KernelIdeal.KChain.inp m c = Cert.ReferenceIdeal.RChain.inp m' c) :
    (Cert.KernelIdeal.KVal.v84 (F := Ideal) m ρ c : Mat 16384 128) = Cert.ReferenceIdeal.RVal.v206 (F := Ideal) m' c :=
  (Cert.KernelIdeal.KChain.v84_net m ρ c hI).trans ((congrArg Net.xOut hin).trans (Cert.ReferenceIdeal.RChain.v206_net m' c).symm)
theorem eOut_eq (c : Dev Cert.KernelIdeal.nD) (hI : (Cert.KernelIdeal.KChain.inp m c).Real)
    (hin : Cert.KernelIdeal.KChain.inp m c = Cert.ReferenceIdeal.RChain.inp m' c) :
    (Cert.KernelIdeal.KVal.v170 (F := Ideal) m ρ c : Mat 262144 128) = Cert.ReferenceIdeal.RVal.v421 (F := Ideal) m' c :=
  (Cert.KernelIdeal.KChain.v170_net m ρ c hI).trans ((congrArg Net.eOut hin).trans (Cert.ReferenceIdeal.RChain.v421_net m' c).symm)
theorem sOut_eq (c : Dev Cert.KernelIdeal.nD) (hI : (Cert.KernelIdeal.KChain.inp m c).Real)
    (hin : Cert.KernelIdeal.KChain.inp m c = Cert.ReferenceIdeal.RChain.inp m' c) :
    (Cert.KernelIdeal.KVal.v273 (F := Ideal) m ρ c : Cube 64 64 128) = Cert.ReferenceIdeal.RVal.v691 (F := Ideal) m' c :=
  (Cert.KernelIdeal.KChain.v273_net m ρ c hI).trans ((congrArg Net.sOut hin).trans (Cert.ReferenceIdeal.RChain.v691_net m' c).symm)
end

/-- The idealization rewrote nothing. -/
theorem preserves : Cert.preserves_Kernel_KernelIdeal := trivial

/-- Run from memories agreeing on the arguments, under the precondition, the two idealized programs end with equal results. -/
theorem algebraic : Cert.algebraic_KernelIdeal_ReferenceIdeal := by
  intro m ρ m' ρ' hpre hagree
  have hI := fun c => Cert.KernelIdeal.KChain.inp_real m hpre c
  have hin := fun c => inp_eq m m' c (hagree c)
  refine ⟨fun c => Cert.KernelIdeal.KVal.v84 (F := Ideal) m ρ c, fun c => Cert.KernelIdeal.KVal.v170 (F := Ideal) m ρ c,
    fun c => Cert.KernelIdeal.KVal.v273 (F := Ideal) m ρ c, ?_, ?_⟩
  · exact (θ_run Cert.KernelIdeal.defs _ _).mono
      (fun r h c => ⟨(h c).1.trans (Cert.KernelIdeal.KVal.v84_at51 m ρ c), (h c).2.1.trans (Cert.KernelIdeal.KVal.v170_at51 m ρ c),
        (h c).2.2.1.trans (Cert.KernelIdeal.KVal.v273_at51 m ρ c), (h c).2.2.2⟩)
      (Cert.KernelIdeal.KRun.run m ρ)
  · exact (θ_run Cert.ReferenceIdeal.defs _ _).mono
      (fun r h c => ⟨(h c _).trans ((Cert.ReferenceIdeal.RVal.v206_final m' c).trans (xOut_eq m ρ m' c (hI c) (hin c)).symm),
        (h c _).trans ((Cert.ReferenceIdeal.RVal.v421_final m' c).trans (eOut_eq m ρ m' c (hI c) (hin c)).symm),
        (h c _).trans ((Cert.ReferenceIdeal.RVal.v691_final m' c).trans (sOut_eq m ρ m' c (hI c) (hin c)).symm),
        (h c _).trans (Cert.ReferenceIdeal.RVal.arg0_final m' c),
        (h c _).trans (Cert.ReferenceIdeal.RVal.arg1_final m' c),
        (h c _).trans (Cert.ReferenceIdeal.RVal.arg2_final m' c),
        (h c _).trans (Cert.ReferenceIdeal.RVal.arg3_final m' c),
        (h c _).trans (Cert.ReferenceIdeal.RVal.arg4_final m' c),
        (h c _).trans (Cert.ReferenceIdeal.RVal.arg5_final m' c),
        (h c _).trans (Cert.ReferenceIdeal.RVal.arg6_final m' c),
        (h c _).trans (Cert.ReferenceIdeal.RVal.arg7_final m' c),
        (h c _).trans (Cert.ReferenceIdeal.RVal.arg8_final m' c),
        (h c _).trans (Cert.ReferenceIdeal.RVal.arg9_final m' c),
        (h c _).trans (Cert.ReferenceIdeal.RVal.arg10_final m' c),
        (h c _).trans (Cert.ReferenceIdeal.RVal.arg11_final m' c),
        (h c _).trans (Cert.ReferenceIdeal.RVal.arg12_final m' c),
        (h c _).trans (Cert.ReferenceIdeal.RVal.arg13_final m' c),
        (h c _).trans (Cert.ReferenceIdeal.RVal.arg14_final m' c),
        (h c _).trans (Cert.ReferenceIdeal.RVal.arg15_final m' c),
        (h c _).trans (Cert.ReferenceIdeal.RVal.arg16_final m' c),
        (h c _).trans (Cert.ReferenceIdeal.RVal.arg17_final m' c),
        (h c _).trans (Cert.ReferenceIdeal.RVal.arg18_final m' c),
        (h c _).trans (Cert.ReferenceIdeal.RVal.arg19_final m' c),
        (h c _).trans (Cert.ReferenceIdeal.RVal.arg20_final m' c),
        (h c _).trans (Cert.ReferenceIdeal.RVal.arg21_final m' c),
        (h c _).trans (Cert.ReferenceIdeal.RVal.arg22_final m' c),
        (h c _).trans (Cert.ReferenceIdeal.RVal.arg23_final m' c),
        (h c _).trans (Cert.ReferenceIdeal.RVal.arg24_final m' c),
        (h c _).trans (Cert.ReferenceIdeal.RVal.arg25_final m' c),
        (h c _).trans (Cert.ReferenceIdeal.RVal.arg26_final m' c),
        (h c _).trans (Cert.ReferenceIdeal.RVal.arg27_final m' c),
        (h c _).trans (Cert.ReferenceIdeal.RVal.arg28_final m' c),
        (h c _).trans (Cert.ReferenceIdeal.RVal.arg29_final m' c),
        (h c _).trans (Cert.ReferenceIdeal.RVal.arg30_final m' c)⟩)
      (Cert.ReferenceIdeal.RRun.run_cut m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
